-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v244)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v244) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S1600000 : Shape := ⟨1, ![1600000]⟩
abbrev S257x128 : Shape := ⟨2, ![257, 128]⟩
abbrev S4x128x128 : Shape := ⟨3, ![4, 128, 128]⟩
abbrev S4x128 : Shape := ⟨2, ![4, 128]⟩
abbrev S_ : Shape := ⟨0, ![]⟩

class Facts : Prop where
  bcast_S_S257x128 : S_.BroadcastsInDim S257x128 (![] : Fin 0 → Fin S257x128.rank)
  reducesTo_S257x128_S_d0_1 : S257x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg8 : FVec F S4x128 .f32) (main_arg9 : FVec F S4x128 .f32) (main_arg10 : FVec F S4x128 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg8
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg9
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg10
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  main_v33

def fn {F : FTy → Type} [FloatOps F] (main_arg0 : IVec S100000 32) (main_arg1 : IVec S1600000 32) (main_arg2 : IVec S1600000 32) (main_arg3 : IVec S100000 32) (main_arg4 : FVec F S257x128 .f32) (main_arg5 : FVec F S4x128x128 .f32) (main_arg6 : FVec F S4x128x128 .f32) (main_arg7 : FVec F S4x128 .f32) (main_arg8 : FVec F S4x128 .f32) (main_arg9 : FVec F S4x128 .f32) (main_arg10 : FVec F S4x128 .f32) : IVec S_ 1 :=
  let main_v0 : FVec F S257x128 .f32 := Host.absf main_arg4
  let main_cst : FVec F S_ .f32 := constant S_ .f32 0x7F800000#32
  let main_v1 : FVec F S257x128 .f32 := broadcastInDim S257x128 ![] bcast_S_S257x128 main_cst
  let main_v2 : IVec S257x128 1 := cmpf .olt main_v0 main_v1
  let main_c : IVec S_ 1 := constantI S_ 1 1#1
  let main_v3 : IVec S_ 1 := (fun x v => Host.reduce IntOp.andi x v reducesTo_S257x128_S_d0_1 h_S_) main_v2 main_c
  let main_v4 : FVec F S4x128x128 .f32 := Host.absf main_arg5
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128x128 .f32 := Host.absf main_arg6
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg7
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg8 main_arg9 main_arg10 main_v13 main_v16
-- ==== Kernel.lean ====
abbrev S100000 : Shape := ⟨1, ![100000]⟩
abbrev S1600000 : Shape := ⟨1, ![1600000]⟩
abbrev S257x128 : Shape := ⟨2, ![257, 128]⟩
abbrev S4x128x128 : Shape := ⟨3, ![4, 128, 128]⟩
abbrev S4x128 : Shape := ⟨2, ![4, 128]⟩
abbrev S_ : Shape := ⟨0, ![]⟩
abbrev S100000x1 : Shape := ⟨2, ![100000, 1]⟩
abbrev S100000x128 : Shape := ⟨2, ![100000, 128]⟩
abbrev S1600000x1 : Shape := ⟨2, ![1600000, 1]⟩
abbrev S1600000x128 : Shape := ⟨2, ![1600000, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S16x128 : Shape := ⟨2, ![16, 128]⟩
abbrev S5000x128 : Shape := ⟨2, ![5000, 128]⟩
abbrev S5000x1 : Shape := ⟨2, ![5000, 1]⟩
abbrev S8x128 : Shape := ⟨2, ![8, 128]⟩
abbrev S128x1 : Shape := ⟨2, ![128, 1]⟩
abbrev S128x512 : Shape := ⟨2, ![128, 512]⟩

abbrev nBuf : Space → Nat
  | .hbm => 297
  | .vmem => 128
  | .smem => 0
  | _ => 0

abbrev hbmTy0_0 (i : Nat) : BufTy := match i % 128 with
  | 0 => ⟨S100000, .i32⟩
  | 1 => ⟨S1600000, .i32⟩
  | 2 => ⟨S1600000, .i32⟩
  | 3 => ⟨S100000, .i32⟩
  | 4 => ⟨S257x128, .f32⟩
  | 5 => ⟨S4x128x128, .f32⟩
  | 6 => ⟨S4x128x128, .f32⟩
  | 7 => ⟨S4x128, .f32⟩
  | 8 => ⟨S4x128, .f32⟩
  | 9 => ⟨S4x128, .f32⟩
  | 10 => ⟨S4x128, .f32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000x128, .f32⟩
  | 20 => ⟨S_, .f32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S100000x1, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S_, .f32⟩
  | 44 => ⟨S100000x128, .f32⟩
  | 45 => ⟨S1600000x1, .i32⟩
  | 46 => ⟨S100000x128, .f32⟩
  | 47 => ⟨S1x128, .f32⟩
  | 48 => ⟨S128, .f32⟩
  | 49 => ⟨S1x128, .f32⟩
  | 50 => ⟨S1x128, .f32⟩
  | 51 => ⟨S128, .f32⟩
  | 52 => ⟨S1x128, .f32⟩
  | 53 => ⟨S1x128, .f32⟩
  | 54 => ⟨S128, .f32⟩
  | 55 => ⟨S1x128, .f32⟩
  | 56 => ⟨S1x128, .f32⟩
  | 57 => ⟨S128, .f32⟩
  | 58 => ⟨S1x128, .f32⟩
  | 59 => ⟨S1x128x128, .f32⟩
  | 60 => ⟨S128x128, .f32⟩
  | 61 => ⟨S1x128x128, .f32⟩
  | 62 => ⟨S128x128, .f32⟩
  | 63 => ⟨S16x128, .f32⟩
  | 64 => ⟨S16x128, .f32⟩
  | 65 => ⟨S1x128, .f32⟩
  | 66 => ⟨S128, .f32⟩
  | 67 => ⟨S1x128, .f32⟩
  | 68 => ⟨S128, .f32⟩
  | 69 => ⟨S128, .f32⟩
  | 70 => ⟨S1x128, .f32⟩
  | 71 => ⟨S128, .f32⟩
  | 72 => ⟨S1x128, .f32⟩
  | 73 => ⟨S128, .f32⟩
  | 74 => ⟨S128, .f32⟩
  | 75 => ⟨S_, .f32⟩
  | 76 => ⟨S128, .f32⟩
  | 77 => ⟨S128, .f32⟩
  | 78 => ⟨S_, .f32⟩
  | 79 => ⟨S128, .f32⟩
  | 80 => ⟨S128, .f32⟩
  | 81 => ⟨S128, .f32⟩
  | 82 => ⟨S128, .f32⟩
  | 83 => ⟨S1x128, .f32⟩
  | 84 => ⟨S1x128, .f32⟩
  | 85 => ⟨S1x128x128, .f32⟩
  | 86 => ⟨S128x128, .f32⟩
  | 87 => ⟨S1x128x128, .f32⟩
  | 88 => ⟨S128x128, .f32⟩
  | 89 => ⟨S100000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S_, .f32⟩
  | 100 => ⟨S100000x128, .f32⟩
  | 101 => ⟨S1600000x1, .i32⟩
  | 102 => ⟨S100000x128, .f32⟩
  | 103 => ⟨S1x128, .f32⟩
  | 104 => ⟨S128, .f32⟩
  | 105 => ⟨S1x128, .f32⟩
  | 106 => ⟨S1x128, .f32⟩
  | 107 => ⟨S128, .f32⟩
  | 108 => ⟨S1x128, .f32⟩
  | 109 => ⟨S1x128, .f32⟩
  | 110 => ⟨S128, .f32⟩
  | 111 => ⟨S1x128, .f32⟩
  | 112 => ⟨S1x128, .f32⟩
  | 113 => ⟨S128, .f32⟩
  | 114 => ⟨S1x128, .f32⟩
  | 115 => ⟨S1x128x128, .f32⟩
  | 116 => ⟨S128x128, .f32⟩
  | 117 => ⟨S1x128x128, .f32⟩
  | 118 => ⟨S128x128, .f32⟩
  | 119 => ⟨S16x128, .f32⟩
  | 120 => ⟨S16x128, .f32⟩
  | 121 => ⟨S1x128, .f32⟩
  | 122 => ⟨S128, .f32⟩
  | 123 => ⟨S1x128, .f32⟩
  | 124 => ⟨S128, .f32⟩
  | 125 => ⟨S128, .f32⟩
  | 126 => ⟨S1x128, .f32⟩
  | 127 => ⟨S128, .f32⟩
  | _ => ⟨S100000, .i32⟩

abbrev hbmTy0_1 (i : Nat) : BufTy := match i % 128 with
  | 0 => ⟨S1x128, .f32⟩
  | 1 => ⟨S128, .f32⟩
  | 2 => ⟨S128, .f32⟩
  | 3 => ⟨S_, .f32⟩
  | 4 => ⟨S128, .f32⟩
  | 5 => ⟨S128, .f32⟩
  | 6 => ⟨S_, .f32⟩
  | 7 => ⟨S128, .f32⟩
  | 8 => ⟨S128, .f32⟩
  | 9 => ⟨S128, .f32⟩
  | 10 => ⟨S128, .f32⟩
  | 11 => ⟨S1x128, .f32⟩
  | 12 => ⟨S1x128, .f32⟩
  | 13 => ⟨S1x128x128, .f32⟩
  | 14 => ⟨S128x128, .f32⟩
  | 15 => ⟨S1x128x128, .f32⟩
  | 16 => ⟨S128x128, .f32⟩
  | 17 => ⟨S100000x128, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S1x128, .f32⟩
  | 32 => ⟨S128, .f32⟩
  | 33 => ⟨S1x128, .f32⟩
  | 34 => ⟨S1x128, .f32⟩
  | 35 => ⟨S128, .f32⟩
  | 36 => ⟨S1x128, .f32⟩
  | 37 => ⟨S1x128, .f32⟩
  | 38 => ⟨S128, .f32⟩
  | 39 => ⟨S1x128, .f32⟩
  | 40 => ⟨S1x128, .f32⟩
  | 41 => ⟨S128, .f32⟩
  | 42 => ⟨S1x128, .f32⟩
  | 43 => ⟨S1x128x128, .f32⟩
  | 44 => ⟨S128x128, .f32⟩
  | 45 => ⟨S1x128x128, .f32⟩
  | 46 => ⟨S128x128, .f32⟩
  | 47 => ⟨S16x128, .f32⟩
  | 48 => ⟨S16x128, .f32⟩
  | 49 => ⟨S1x128, .f32⟩
  | 50 => ⟨S128, .f32⟩
  | 51 => ⟨S1x128, .f32⟩
  | 52 => ⟨S128, .f32⟩
  | 53 => ⟨S128, .f32⟩
  | 54 => ⟨S1x128, .f32⟩
  | 55 => ⟨S128, .f32⟩
  | 56 => ⟨S1x128, .f32⟩
  | 57 => ⟨S128, .f32⟩
  | 58 => ⟨S128, .f32⟩
  | 59 => ⟨S_, .f32⟩
  | 60 => ⟨S128, .f32⟩
  | 61 => ⟨S128, .f32⟩
  | 62 => ⟨S_, .f32⟩
  | 63 => ⟨S128, .f32⟩
  | 64 => ⟨S128, .f32⟩
  | 65 => ⟨S128, .f32⟩
  | 66 => ⟨S128, .f32⟩
  | 67 => ⟨S1x128, .f32⟩
  | 68 => ⟨S1x128, .f32⟩
  | 69 => ⟨S1x128x128, .f32⟩
  | 70 => ⟨S128x128, .f32⟩
  | 71 => ⟨S1x128x128, .f32⟩
  | 72 => ⟨S128x128, .f32⟩
  | 73 => ⟨S100000x128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S1x128, .f32⟩
  | 88 => ⟨S128, .f32⟩
  | 89 => ⟨S1x128, .f32⟩
  | 90 => ⟨S1x128, .f32⟩
  | 91 => ⟨S128, .f32⟩
  | 92 => ⟨S1x128, .f32⟩
  | 93 => ⟨S1x128, .f32⟩
  | 94 => ⟨S128, .f32⟩
  | 95 => ⟨S1x128, .f32⟩
  | 96 => ⟨S1x128, .f32⟩
  | 97 => ⟨S128, .f32⟩
  | 98 => ⟨S1x128, .f32⟩
  | 99 => ⟨S1x128x128, .f32⟩
  | 100 => ⟨S128x128, .f32⟩
  | 101 => ⟨S1x128x128, .f32⟩
  | 102 => ⟨S128x128, .f32⟩
  | 103 => ⟨S16x128, .f32⟩
  | 104 => ⟨S16x128, .f32⟩
  | 105 => ⟨S1x128, .f32⟩
  | 106 => ⟨S128, .f32⟩
  | 107 => ⟨S1x128, .f32⟩
  | 108 => ⟨S128, .f32⟩
  | 109 => ⟨S128, .f32⟩
  | 110 => ⟨S1x128, .f32⟩
  | 111 => ⟨S128, .f32⟩
  | 112 => ⟨S1x128, .f32⟩
  | 113 => ⟨S128, .f32⟩
  | 114 => ⟨S128, .f32⟩
  | 115 => ⟨S_, .f32⟩
  | 116 => ⟨S128, .f32⟩
  | 117 => ⟨S128, .f32⟩
  | 118 => ⟨S_, .f32⟩
  | 119 => ⟨S128, .f32⟩
  | 120 => ⟨S128, .f32⟩
  | 121 => ⟨S128, .f32⟩
  | 122 => ⟨S128, .f32⟩
  | 123 => ⟨S1x128, .f32⟩
  | 124 => ⟨S1x128, .f32⟩
  | 125 => ⟨S1x128x128, .f32⟩
  | 126 => ⟨S128x128, .f32⟩
  | 127 => ⟨S1x128x128, .f32⟩
  | _ => ⟨S100000, .i32⟩

abbrev hbmTy0_2 (i : Nat) : BufTy := match i % 128 with
  | 0 => ⟨S128x128, .f32⟩
  | 1 => ⟨S100000x128, .f32⟩
  | 2 => ⟨S_, .f32⟩
  | 3 => ⟨S100000, .f32⟩
  | 4 => ⟨S_, .f32⟩
  | 5 => ⟨S128, .f32⟩
  | 6 => ⟨S100000x1, .i32⟩
  | 7 => ⟨S128, .f32⟩
  | 8 => ⟨S_, .f32⟩
  | 9 => ⟨S_, .f32⟩
  | 10 => ⟨S128, .f32⟩
  | 11 => ⟨S128, .f32⟩
  | 12 => ⟨S_, .f32⟩
  | 13 => ⟨S128x128, .f32⟩
  | 14 => ⟨S100000x1, .i32⟩
  | 15 => ⟨S128x128, .f32⟩
  | 16 => ⟨S128x1, .f32⟩
  | 17 => ⟨S128x128, .f32⟩
  | 18 => ⟨S128x128, .f32⟩
  | 19 => ⟨S_, .f32⟩
  | 20 => ⟨S128x128, .f32⟩
  | 21 => ⟨S100000x1, .i32⟩
  | 22 => ⟨S128x128, .f32⟩
  | 23 => ⟨S128x1, .f32⟩
  | 24 => ⟨S128x128, .f32⟩
  | 25 => ⟨S128x128, .f32⟩
  | 26 => ⟨S_, .f32⟩
  | 27 => ⟨S128x128, .f32⟩
  | 28 => ⟨S100000x1, .i32⟩
  | 29 => ⟨S128x128, .f32⟩
  | 30 => ⟨S128x1, .f32⟩
  | 31 => ⟨S128x128, .f32⟩
  | 32 => ⟨S128x128, .f32⟩
  | 33 => ⟨S_, .f32⟩
  | 34 => ⟨S128x128, .f32⟩
  | 35 => ⟨S100000x1, .i32⟩
  | 36 => ⟨S128x128, .f32⟩
  | 37 => ⟨S128x1, .f32⟩
  | 38 => ⟨S128x128, .f32⟩
  | 39 => ⟨S128x128, .f32⟩
  | 40 => ⟨S128x512, .f32⟩
  | _ => ⟨S100000, .i32⟩

abbrev hbmTy (i : Nat) : BufTy := match i / 128 with
  | 0 => hbmTy0_0 i
  | 1 => hbmTy0_1 i
  | 2 => hbmTy0_2 i
  | _ => ⟨S100000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x1, .f32⟩
  | .local _ .vmem, ⟨37, _⟩ => ⟨S5000x1, .f32⟩
  | .local _ .vmem, ⟨38, _⟩ => ⟨S128x128, .f32⟩
  | .local _ .vmem, ⟨39, _⟩ => ⟨S128x128, .f32⟩
  | .local _ .vmem, ⟨40, _⟩ => ⟨S1x128, .f32⟩
  | .local _ .vmem, ⟨41, _⟩ => ⟨S1x128, .f32⟩
  | .local _ .vmem, ⟨42, _⟩ => ⟨S8x128, .f32⟩
  | .local _ .vmem, ⟨43, _⟩ => ⟨S8x128, .f32⟩
  | .local _ .vmem, ⟨44, _⟩ => ⟨S8x128, .f32⟩
  | .local _ .vmem, ⟨45, _⟩ => ⟨S8x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x1, .f32⟩
  | .local _ .vmem, ⟨53, _⟩ => ⟨S5000x1, .f32⟩
  | .local _ .vmem, ⟨54, _⟩ => ⟨S128x128, .f32⟩
  | .local _ .vmem, ⟨55, _⟩ => ⟨S128x128, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S5000x1, .f32⟩
  | .local _ .vmem, ⟨69, _⟩ => ⟨S5000x1, .f32⟩
  | .local _ .vmem, ⟨70, _⟩ => ⟨S128x128, .f32⟩
  | .local _ .vmem, ⟨71, _⟩ => ⟨S128x128, .f32⟩
  | .local _ .vmem, ⟨72, _⟩ => ⟨S1x128, .f32⟩
  | .local _ .vmem, ⟨73, _⟩ => ⟨S1x128, .f32⟩
  | .local _ .vmem, ⟨74, _⟩ => ⟨S8x128, .f32⟩
  | .local _ .vmem, ⟨75, _⟩ => ⟨S8x128, .f32⟩
  | .local _ .vmem, ⟨76, _⟩ => ⟨S8x128, .f32⟩
  | .local _ .vmem, ⟨77, _⟩ => ⟨S8x128, .f32⟩
  | .local _ .vmem, ⟨78, _⟩ => ⟨S1x128, .f32⟩
  | .local _ .vmem, ⟨79, _⟩ => ⟨S1x128, .f32⟩
  | .local _ .vmem, ⟨80, _⟩ => ⟨S5000x128, .f32⟩
  | .local _ .vmem, ⟨81, _⟩ => ⟨S5000x128, .f32⟩
  | .local _ .vmem, ⟨82, _⟩ => ⟨S5000x128, .f32⟩
  | .local _ .vmem, ⟨83, _⟩ => ⟨S5000x128, .f32⟩
  | .local _ .vmem, ⟨84, _⟩ => ⟨S5000x1, .f32⟩
  | .local _ .vmem, ⟨85, _⟩ => ⟨S5000x1, .f32⟩
  | .local _ .vmem, ⟨86, _⟩ => ⟨S128x128, .f32⟩
  | .local _ .vmem, ⟨87, _⟩ => ⟨S128x128, .f32⟩
  | .local _ .vmem, ⟨88, _⟩ => ⟨S1x128, .f32⟩
  | .local _ .vmem, ⟨89, _⟩ => ⟨S1x128, .f32⟩
  | .local _ .vmem, ⟨90, _⟩ => ⟨S1x128, .f32⟩
  | .local _ .vmem, ⟨91, _⟩ => ⟨S1x128, .f32⟩
  | .local _ .vmem, ⟨92, _⟩ => ⟨S1x128, .f32⟩
  | .local _ .vmem, ⟨93, _⟩ => ⟨S1x128, .f32⟩
  | .local _ .vmem, ⟨94, _⟩ => ⟨S5000x128, .f32⟩
  | .local _ .vmem, ⟨95, _⟩ => ⟨S5000x128, .f32⟩
  | .local _ .vmem, ⟨96, _⟩ => ⟨S5000x128, .f32⟩
  | .local _ .vmem, ⟨97, _⟩ => ⟨S5000x128, .f32⟩
  | .local _ .vmem, ⟨98, _⟩ => ⟨S5000x128, .f32⟩
  | .local _ .vmem, ⟨99, _⟩ => ⟨S5000x128, .f32⟩
  | .local _ .vmem, ⟨100, _⟩ => ⟨S5000x1, .f32⟩
  | .local _ .vmem, ⟨101, _⟩ => ⟨S5000x1, .f32⟩
  | .local _ .vmem, ⟨102, _⟩ => ⟨S128x128, .f32⟩
  | .local _ .vmem, ⟨103, _⟩ => ⟨S128x128, .f32⟩
  | .local _ .vmem, ⟨104, _⟩ => ⟨S1x128, .f32⟩
  | .local _ .vmem, ⟨105, _⟩ => ⟨S1x128, .f32⟩
  | .local _ .vmem, ⟨106, _⟩ => ⟨S8x128, .f32⟩
  | .local _ .vmem, ⟨107, _⟩ => ⟨S8x128, .f32⟩
  | .local _ .vmem, ⟨108, _⟩ => ⟨S8x128, .f32⟩
  | .local _ .vmem, ⟨109, _⟩ => ⟨S8x128, .f32⟩
  | .local _ .vmem, ⟨110, _⟩ => ⟨S1x128, .f32⟩
  | .local _ .vmem, ⟨111, _⟩ => ⟨S1x128, .f32⟩
  | .local _ .vmem, ⟨112, _⟩ => ⟨S5000x128, .f32⟩
  | .local _ .vmem, ⟨113, _⟩ => ⟨S5000x128, .f32⟩
  | .local _ .vmem, ⟨114, _⟩ => ⟨S5000x128, .f32⟩
  | .local _ .vmem, ⟨115, _⟩ => ⟨S5000x128, .f32⟩
  | .local _ .vmem, ⟨116, _⟩ => ⟨S5000x1, .f32⟩
  | .local _ .vmem, ⟨117, _⟩ => ⟨S5000x1, .f32⟩
  | .local _ .vmem, ⟨118, _⟩ => ⟨S128x128, .f32⟩
  | .local _ .vmem, ⟨119, _⟩ => ⟨S128x128, .f32⟩
  | .local _ .vmem, ⟨120, _⟩ => ⟨S1x128, .f32⟩
  | .local _ .vmem, ⟨121, _⟩ => ⟨S1x128, .f32⟩
  | .local _ .vmem, ⟨122, _⟩ => ⟨S1x128, .f32⟩
  | .local _ .vmem, ⟨123, _⟩ => ⟨S1x128, .f32⟩
  | .local _ .vmem, ⟨124, _⟩ => ⟨S1x128, .f32⟩
  | .local _ .vmem, ⟨125, _⟩ => ⟨S1x128, .f32⟩
  | .local _ .vmem, ⟨126, _⟩ => ⟨S5000x128, .f32⟩
  | .local _ .vmem, ⟨127, _⟩ => ⟨S5000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | .vmem, ⟨126, _⟩ => true
  | .vmem, ⟨127, _⟩ => true
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41_0 : Ref sig .tc := ⟨.hbm, 63, rfl⟩
abbrev main_v41_1 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_9 : Ref sig .tc := ⟨.hbm, 90, rfl⟩
abbrev main_v65 : Ref sig .tc := ⟨.hbm, 91, rfl⟩
abbrev main_v66 : Ref sig .tc := ⟨.hbm, 92, rfl⟩
abbrev main_c_10 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_11 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91_0 : Ref sig .tc := ⟨.hbm, 119, rfl⟩
abbrev main_v91_1 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_12 : Ref sig .tc := ⟨.hbm, 131, rfl⟩
abbrev main_v102 : Ref sig .tc := ⟨.hbm, 132, rfl⟩
abbrev main_v103 : Ref sig .tc := ⟨.hbm, 133, rfl⟩
abbrev main_cst_13 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_c_14 : Ref sig .tc := ⟨.hbm, 146, rfl⟩
abbrev main_v115 : Ref sig .tc := ⟨.hbm, 147, rfl⟩
abbrev main_v116 : Ref sig .tc := ⟨.hbm, 148, rfl⟩
abbrev main_c_15 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_16 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141_0 : Ref sig .tc := ⟨.hbm, 175, rfl⟩
abbrev main_v141_1 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_cst_17 : Ref sig .tc := ⟨.hbm, 187, rfl⟩
abbrev main_v152 : Ref sig .tc := ⟨.hbm, 188, rfl⟩
abbrev main_v153 : Ref sig .tc := ⟨.hbm, 189, rfl⟩
abbrev main_cst_18 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_c_19 : Ref sig .tc := ⟨.hbm, 202, rfl⟩
abbrev main_v165 : Ref sig .tc := ⟨.hbm, 203, rfl⟩
abbrev main_v166 : Ref sig .tc := ⟨.hbm, 204, rfl⟩
abbrev main_c_20 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_cst_21 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191_0 : Ref sig .tc := ⟨.hbm, 231, rfl⟩
abbrev main_v191_1 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_cst_22 : Ref sig .tc := ⟨.hbm, 243, rfl⟩
abbrev main_v202 : Ref sig .tc := ⟨.hbm, 244, rfl⟩
abbrev main_v203 : Ref sig .tc := ⟨.hbm, 245, rfl⟩
abbrev main_cst_23 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_cst_24 : Ref sig .tc := ⟨.hbm, 258, rfl⟩
abbrev main_v215 : Ref sig .tc := ⟨.hbm, 259, rfl⟩
abbrev main_cst_25 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_cst_26 : Ref sig .tc := ⟨.hbm, 264, rfl⟩
abbrev main_call1_v0 : Ref sig .tc := ⟨.hbm, 265, rfl⟩
abbrev main_call1_v1 : Ref sig .tc := ⟨.hbm, 266, rfl⟩
abbrev main_v219 : Ref sig .tc := ⟨.hbm, 267, rfl⟩
abbrev main_cst_27 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_cst_28 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_cst_29 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_cst_30 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg11_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg7_1 : Ref sig .tc := ⟨.vmem, 43, rfl⟩
abbrev cc2_stg8_0 : Ref sig .tc := ⟨.vmem, 44, rfl⟩
abbrev cc2_stg8_1 : Ref sig .tc := ⟨.vmem, 45, rfl⟩
abbrev cc2_scratch0 : Ref sig .tc := ⟨.vmem, 46, rfl⟩
abbrev cc2_scratch1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg4_0 : Ref sig .tc := ⟨.vmem, 55, rfl⟩
abbrev cc3_stg5_0 : Ref sig .tc := ⟨.vmem, 56, rfl⟩
abbrev cc3_stg6_0 : Ref sig .tc := ⟨.vmem, 57, rfl⟩
abbrev cc3_stg7_0 : Ref sig .tc := ⟨.vmem, 58, rfl⟩
abbrev cc3_stg8_0 : Ref sig .tc := ⟨.vmem, 59, rfl⟩
abbrev cc3_stg9_0 : Ref sig .tc := ⟨.vmem, 60, rfl⟩
abbrev cc3_stg10_0 : Ref sig .tc := ⟨.vmem, 61, rfl⟩
abbrev cc3_stg11_0 : Ref sig .tc := ⟨.vmem, 62, rfl⟩
abbrev cc3_stg11_1 : Ref sig .tc := ⟨.vmem, 63, rfl⟩
abbrev cc4_stg0_0 : Ref sig .tc := ⟨.vmem, 64, rfl⟩
abbrev cc4_stg0_1 : Ref sig .tc := ⟨.vmem, 65, rfl⟩
abbrev cc4_stg1_0 : Ref sig .tc := ⟨.vmem, 66, rfl⟩
abbrev cc4_stg1_1 : Ref sig .tc := ⟨.vmem, 67, rfl⟩
abbrev cc4_stg2_0 : Ref sig .tc := ⟨.vmem, 68, rfl⟩
abbrev cc4_stg2_1 : Ref sig .tc := ⟨.vmem, 69, rfl⟩
abbrev cc4_stg3_0 : Ref sig .tc := ⟨.vmem, 70, rfl⟩
abbrev cc4_stg4_0 : Ref sig .tc := ⟨.vmem, 71, rfl⟩
abbrev cc4_stg5_0 : Ref sig .tc := ⟨.vmem, 72, rfl⟩
abbrev cc4_stg6_0 : Ref sig .tc := ⟨.vmem, 73, rfl⟩
abbrev cc4_stg7_0 : Ref sig .tc := ⟨.vmem, 74, rfl⟩
abbrev cc4_stg7_1 : Ref sig .tc := ⟨.vmem, 75, rfl⟩
abbrev cc4_stg8_0 : Ref sig .tc := ⟨.vmem, 76, rfl⟩
abbrev cc4_stg8_1 : Ref sig .tc := ⟨.vmem, 77, rfl⟩
abbrev cc4_scratch0 : Ref sig .tc := ⟨.vmem, 78, rfl⟩
abbrev cc4_scratch1 : Ref sig .tc := ⟨.vmem, 79, rfl⟩
abbrev cc5_stg0_0 : Ref sig .tc := ⟨.vmem, 80, rfl⟩
abbrev cc5_stg0_1 : Ref sig .tc := ⟨.vmem, 81, rfl⟩
abbrev cc5_stg1_0 : Ref sig .tc := ⟨.vmem, 82, rfl⟩
abbrev cc5_stg1_1 : Ref sig .tc := ⟨.vmem, 83, rfl⟩
abbrev cc5_stg2_0 : Ref sig .tc := ⟨.vmem, 84, rfl⟩
abbrev cc5_stg2_1 : Ref sig .tc := ⟨.vmem, 85, rfl⟩
abbrev cc5_stg3_0 : Ref sig .tc := ⟨.vmem, 86, rfl⟩
abbrev cc5_stg4_0 : Ref sig .tc := ⟨.vmem, 87, rfl⟩
abbrev cc5_stg5_0 : Ref sig .tc := ⟨.vmem, 88, rfl⟩
abbrev cc5_stg6_0 : Ref sig .tc := ⟨.vmem, 89, rfl⟩
abbrev cc5_stg7_0 : Ref sig .tc := ⟨.vmem, 90, rfl⟩
abbrev cc5_stg8_0 : Ref sig .tc := ⟨.vmem, 91, rfl⟩
abbrev cc5_stg9_0 : Ref sig .tc := ⟨.vmem, 92, rfl⟩
abbrev cc5_stg10_0 : Ref sig .tc := ⟨.vmem, 93, rfl⟩
abbrev cc5_stg11_0 : Ref sig .tc := ⟨.vmem, 94, rfl⟩
abbrev cc5_stg11_1 : Ref sig .tc := ⟨.vmem, 95, rfl⟩
abbrev cc6_stg0_0 : Ref sig .tc := ⟨.vmem, 96, rfl⟩
abbrev cc6_stg0_1 : Ref sig .tc := ⟨.vmem, 97, rfl⟩
abbrev cc6_stg1_0 : Ref sig .tc := ⟨.vmem, 98, rfl⟩
abbrev cc6_stg1_1 : Ref sig .tc := ⟨.vmem, 99, rfl⟩
abbrev cc6_stg2_0 : Ref sig .tc := ⟨.vmem, 100, rfl⟩
abbrev cc6_stg2_1 : Ref sig .tc := ⟨.vmem, 101, rfl⟩
abbrev cc6_stg3_0 : Ref sig .tc := ⟨.vmem, 102, rfl⟩
abbrev cc6_stg4_0 : Ref sig .tc := ⟨.vmem, 103, rfl⟩
abbrev cc6_stg5_0 : Ref sig .tc := ⟨.vmem, 104, rfl⟩
abbrev cc6_stg6_0 : Ref sig .tc := ⟨.vmem, 105, rfl⟩
abbrev cc6_stg7_0 : Ref sig .tc := ⟨.vmem, 106, rfl⟩
abbrev cc6_stg7_1 : Ref sig .tc := ⟨.vmem, 107, rfl⟩
abbrev cc6_stg8_0 : Ref sig .tc := ⟨.vmem, 108, rfl⟩
abbrev cc6_stg8_1 : Ref sig .tc := ⟨.vmem, 109, rfl⟩
abbrev cc6_scratch0 : Ref sig .tc := ⟨.vmem, 110, rfl⟩
abbrev cc6_scratch1 : Ref sig .tc := ⟨.vmem, 111, rfl⟩
abbrev cc7_stg0_0 : Ref sig .tc := ⟨.vmem, 112, rfl⟩
abbrev cc7_stg0_1 : Ref sig .tc := ⟨.vmem, 113, rfl⟩
abbrev cc7_stg1_0 : Ref sig .tc := ⟨.vmem, 114, rfl⟩
abbrev cc7_stg1_1 : Ref sig .tc := ⟨.vmem, 115, rfl⟩
abbrev cc7_stg2_0 : Ref sig .tc := ⟨.vmem, 116, rfl⟩
abbrev cc7_stg2_1 : Ref sig .tc := ⟨.vmem, 117, rfl⟩
abbrev cc7_stg3_0 : Ref sig .tc := ⟨.vmem, 118, rfl⟩
abbrev cc7_stg4_0 : Ref sig .tc := ⟨.vmem, 119, rfl⟩
abbrev cc7_stg5_0 : Ref sig .tc := ⟨.vmem, 120, rfl⟩
abbrev cc7_stg6_0 : Ref sig .tc := ⟨.vmem, 121, rfl⟩
abbrev cc7_stg7_0 : Ref sig .tc := ⟨.vmem, 122, rfl⟩
abbrev cc7_stg8_0 : Ref sig .tc := ⟨.vmem, 123, rfl⟩
abbrev cc7_stg9_0 : Ref sig .tc := ⟨.vmem, 124, rfl⟩
abbrev cc7_stg10_0 : Ref sig .tc := ⟨.vmem, 125, rfl⟩
abbrev cc7_stg11_0 : Ref sig .tc := ⟨.vmem, 126, rfl⟩
abbrev cc7_stg11_1 : Ref sig .tc := ⟨.vmem, 127, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem7_1 : DmaSem sig := 41
abbrev cc2_sem8_0 : DmaSem sig := 42
abbrev cc2_sem8_1 : DmaSem sig := 43
abbrev cc3_sem0_0 : DmaSem sig := 44
abbrev cc3_sem0_1 : DmaSem sig := 45
abbrev cc3_sem1_0 : DmaSem sig := 46
abbrev cc3_sem1_1 : DmaSem sig := 47
abbrev cc3_sem2_0 : DmaSem sig := 48
abbrev cc3_sem2_1 : DmaSem sig := 49
abbrev cc3_sem3_0 : DmaSem sig := 50
abbrev cc3_sem4_0 : DmaSem sig := 51
abbrev cc3_sem5_0 : DmaSem sig := 52
abbrev cc3_sem6_0 : DmaSem sig := 53
abbrev cc3_sem7_0 : DmaSem sig := 54
abbrev cc3_sem8_0 : DmaSem sig := 55
abbrev cc3_sem9_0 : DmaSem sig := 56
abbrev cc3_sem10_0 : DmaSem sig := 57
abbrev cc3_sem11_0 : DmaSem sig := 58
abbrev cc3_sem11_1 : DmaSem sig := 59
abbrev cc4_sem0_0 : DmaSem sig := 60
abbrev cc4_sem0_1 : DmaSem sig := 61
abbrev cc4_sem1_0 : DmaSem sig := 62
abbrev cc4_sem1_1 : DmaSem sig := 63
abbrev cc4_sem2_0 : DmaSem sig := 64
abbrev cc4_sem2_1 : DmaSem sig := 65
abbrev cc4_sem3_0 : DmaSem sig := 66
abbrev cc4_sem4_0 : DmaSem sig := 67
abbrev cc4_sem5_0 : DmaSem sig := 68
abbrev cc4_sem6_0 : DmaSem sig := 69
abbrev cc4_sem7_0 : DmaSem sig := 70
abbrev cc4_sem7_1 : DmaSem sig := 71
abbrev cc4_sem8_0 : DmaSem sig := 72
abbrev cc4_sem8_1 : DmaSem sig := 73
abbrev cc5_sem0_0 : DmaSem sig := 74
abbrev cc5_sem0_1 : DmaSem sig := 75
abbrev cc5_sem1_0 : DmaSem sig := 76
abbrev cc5_sem1_1 : DmaSem sig := 77
abbrev cc5_sem2_0 : DmaSem sig := 78
abbrev cc5_sem2_1 : DmaSem sig := 79
abbrev cc5_sem3_0 : DmaSem sig := 80
abbrev cc5_sem4_0 : DmaSem sig := 81
abbrev cc5_sem5_0 : DmaSem sig := 82
abbrev cc5_sem6_0 : DmaSem sig := 83
abbrev cc5_sem7_0 : DmaSem sig := 84
abbrev cc5_sem8_0 : DmaSem sig := 85
abbrev cc5_sem9_0 : DmaSem sig := 86
abbrev cc5_sem10_0 : DmaSem sig := 87
abbrev cc5_sem11_0 : DmaSem sig := 88
abbrev cc5_sem11_1 : DmaSem sig := 89
abbrev cc6_sem0_0 : DmaSem sig := 90
abbrev cc6_sem0_1 : DmaSem sig := 91
abbrev cc6_sem1_0 : DmaSem sig := 92
abbrev cc6_sem1_1 : DmaSem sig := 93
abbrev cc6_sem2_0 : DmaSem sig := 94
abbrev cc6_sem2_1 : DmaSem sig := 95
abbrev cc6_sem3_0 : DmaSem sig := 96
abbrev cc6_sem4_0 : DmaSem sig := 97
abbrev cc6_sem5_0 : DmaSem sig := 98
abbrev cc6_sem6_0 : DmaSem sig := 99
abbrev cc6_sem7_0 : DmaSem sig := 100
abbrev cc6_sem7_1 : DmaSem sig := 101
abbrev cc6_sem8_0 : DmaSem sig := 102
abbrev cc6_sem8_1 : DmaSem sig := 103
abbrev cc7_sem0_0 : DmaSem sig := 104
abbrev cc7_sem0_1 : DmaSem sig := 105
abbrev cc7_sem1_0 : DmaSem sig := 106
abbrev cc7_sem1_1 : DmaSem sig := 107
abbrev cc7_sem2_0 : DmaSem sig := 108
abbrev cc7_sem2_1 : DmaSem sig := 109
abbrev cc7_sem3_0 : DmaSem sig := 110
abbrev cc7_sem4_0 : DmaSem sig := 111
abbrev cc7_sem5_0 : DmaSem sig := 112
abbrev cc7_sem6_0 : DmaSem sig := 113
abbrev cc7_sem7_0 : DmaSem sig := 114
abbrev cc7_sem8_0 : DmaSem sig := 115
abbrev cc7_sem9_0 : DmaSem sig := 116
abbrev cc7_sem10_0 : DmaSem sig := 117
abbrev cc7_sem11_0 : DmaSem sig := 118
abbrev cc7_sem11_1 : DmaSem sig := 119

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v48 : BitVec 1 := Scalar.cmpi .eq arg1 c9_i32
  let v49 : BitVec 32 := Scalar.extui v48
  let c0_i32_26 : BitVec 32 := 0#32
  let v50 : BitVec 1 := Scalar.cmpi .ne v49 c0_i32_26
  v50

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨2, ![2, 10], ![false, false]⟩

def k2_cond2 (i : grid2.Coords) : BitVec 1 :=
  let arg1 : BitVec 32 := BitVec.ofNat 32 (i 1).val
  let c9_i32 : BitVec 32 := 9#32
  let v48 : BitVec 1 := Scalar.cmpi .eq arg1 c9_i32
  let v49 : BitVec 32 := Scalar.extui v48
  let c0_i32_26 : BitVec 32 := 0#32
  let v50 : BitVec 1 := Scalar.cmpi .ne v49 c0_i32_26
  v50

def cc2_transform_0 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S8x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S5000x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨2, ![2, 10], ![false, false]⟩

def k4_cond2 (i : grid4.Coords) : BitVec 1 :=
  let arg1 : BitVec 32 := BitVec.ofNat 32 (i 1).val
  let c9_i32 : BitVec 32 := 9#32
  let v48 : BitVec 1 := Scalar.cmpi .eq arg1 c9_i32
  let v49 : BitVec 32 := Scalar.extui v48
  let c0_i32_26 : BitVec 32 := 0#32
  let v50 : BitVec 1 := Scalar.cmpi .ne v49 c0_i32_26
  v50

def cc4_transform_0 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 2 → Memref sig .tc .vmem S8x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, false]

abbrev stage4_8 : Fin 2 → Memref sig .tc .vmem S8x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 2 → Memref sig .tc .vmem S5000x128 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true]

abbrev grid6 : Pipeline.Grid := ⟨2, ![2, 10], ![false, false]⟩

def k6_cond2 (i : grid6.Coords) : BitVec 1 :=
  let arg1 : BitVec 32 := BitVec.ofNat 32 (i 1).val
  let c9_i32 : BitVec 32 := 9#32
  let v48 : BitVec 1 := Scalar.cmpi .eq arg1 c9_i32
  let v49 : BitVec 32 := Scalar.extui v48
  let c0_i32_26 : BitVec 32 := 0#32
  let v50 : BitVec 1 := Scalar.cmpi .ne v49 c0_i32_26
  v50

def cc6_transform_0 (i : grid6.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc6_transform_1 (i : grid6.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc6_transform_2 (i : grid6.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false, false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false, false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false, false]

abbrev stage6_7 : Fin 2 → Memref sig .tc .vmem S8x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, false]

abbrev stage6_8 : Fin 2 → Memref sig .tc .vmem S8x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true, false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1x128 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 2 → Memref sig .tc .vmem S5000x128 .f32 := fun | 0 => Memref.whole cc7_stg11_0 | 1 => Memref.whole cc7_stg11_1 | ⟨_ + 2, h⟩ => absurd h (Nat.not_lt.2 (Nat.le_add_left _ _))
abbrev sem7_11 : Fin 2 → DmaSem sig := fun | 0 => cc7_sem11_0 | 1 => cc7_sem11_1 | ⟨_ + 2, h⟩ => absurd h (Nat.not_lt.2 (Nat.le_add_left _ _))
abbrev reads7_11 : Fin grid7.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  shapeCasts_S128_S1x128 : S128.ShapeCasts S1x128
  slices_S4x128x128_S1x128x128_0_0_0 : S4x128x128.Slices ![0, 0, 0] S1x128x128
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  broadcasts_S1x128_S8x128 : S1x128.Broadcasts S8x128
  inb_S8x128_S8x128_0_0 : ∀ a, (![0, 0] : Fin 2 → Nat) a + S8x128.size a ≤ S8x128.size a
  h_S8x128 : 0 < S8x128.numel
  slices_S16x128_S1x128_0_0 : S16x128.Slices ![0, 0] S1x128
  slices_S16x128_S1x128_8_0 : S16x128.Slices ![8, 0] S1x128
  bcast_S_S128 : S_.BroadcastsInDim S128 (![] : Fin 0 → Fin S128.rank)
  slices_S4x128_S1x128_1_0 : S4x128.Slices ![1, 0] S1x128
  slices_S4x128x128_S1x128x128_1_0_0 : S4x128x128.Slices ![1, 0, 0] S1x128x128
  slices_S4x128_S1x128_2_0 : S4x128.Slices ![2, 0] S1x128
  slices_S4x128x128_S1x128x128_2_0_0 : S4x128x128.Slices ![2, 0, 0] S1x128x128
  slices_S4x128_S1x128_3_0 : S4x128.Slices ![3, 0] S1x128
  slices_S4x128x128_S1x128x128_3_0_0 : S4x128x128.Slices ![3, 0, 0] S1x128x128
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  concatenates_S128x128_S128x128_S128x128_S128x128_S128x512_d1 : Shape.Concatenates [S128x128, S128x128, S128x128, S128x128] S128x512 1
  gather_S257x128_S100000x1_S100000x128_1_0_n_n_0_1_1128_wf : GatherDims.WF S257x128 S100000x1 S100000x128 [1] [0] [] [0] [] 1 ![1, 128]
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S128_S100000x1_S100000_n_0_0_1_wf : ScatterDims.WF S128 S100000x1 S100000 [] [0] [0] 1
  scatter_S128x128_S100000x1_S100000x128_1_0_0_1_wf : ScatterDims.WF S128x128 S100000x1 S100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S16x128.size a
  hwx0_7 : ∀ i : grid0.Coords, EltTy.bits .f32 = 32 ∨ (Rect.block (s := S16x128) S8x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S16x128.size a
  hwx0_8 : ∀ i : grid0.Coords, EltTy.bits .f32 = 32 ∨ (Rect.block (s := S16x128) S8x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x128.size a ≤ S100000x128.size a
  hwx1_11 : ∀ i : grid1.Coords, EltTy.bits .f32 = 32 ∨ (Rect.block (s := S100000x128) S5000x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x128.size a ≤ S16x128.size a
  hwx2_7 : ∀ i : grid2.Coords, EltTy.bits .f32 = 32 ∨ (Rect.block (s := S16x128) S8x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S8x128.size a ≤ S16x128.size a
  hwx2_8 : ∀ i : grid2.Coords, EltTy.bits .f32 = 32 ∨ (Rect.block (s := S16x128) S8x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S5000x128.size a ≤ S100000x128.size a
  hwx3_11 : ∀ i : grid3.Coords, EltTy.bits .f32 = 32 ∨ (Rect.block (s := S100000x128) S5000x128.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8x128.size a ≤ S16x128.size a
  hwx4_7 : ∀ i : grid4.Coords, EltTy.bits .f32 = 32 ∨ (Rect.block (s := S16x128) S8x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S8x128.size a ≤ S16x128.size a
  hwx4_8 : ∀ i : grid4.Coords, EltTy.bits .f32 = 32 ∨ (Rect.block (s := S16x128) S8x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x128.size a ≤ S1x128.size a
  hwx5_9 : ∀ i : grid5.Coords, EltTy.bits .f32 = 32 ∨ (Rect.block (s := S1x128) S1x128.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x128.size a ≤ S1x128.size a
  hwx5_10 : ∀ i : grid5.Coords, EltTy.bits .f32 = 32 ∨ (Rect.block (s := S1x128) S1x128.size (cc5_transform_10 i) (hinb5_10 i)).WholeWords (EltTy.packing .f32)
  hstage5_11 : ∀ j, (stage5_11 j).IsWhole
  nbuf5_11 : grid5.bufCount reads5_11 false = 2
  hreads5_11 : ∀ i i' : grid5.Coords, (∀ a, reads5_11 a = true → i a = i' a) → cc5_transform_11 i = cc5_transform_11 i'
  hinb5_11 : ∀ (i : grid5.Coords) a, (cc5_transform_11 i a + 1) * S5000x128.size a ≤ S100000x128.size a
  hwx5_11 : ∀ i : grid5.Coords, EltTy.bits .f32 = 32 ∨ (Rect.block (s := S100000x128) S5000x128.size (cc5_transform_11 i) (hinb5_11 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S8x128.size a ≤ S16x128.size a
  hwx6_7 : ∀ i : grid6.Coords, EltTy.bits .f32 = 32 ∨ (Rect.block (s := S16x128) S8x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S8x128.size a ≤ S16x128.size a
  hwx6_8 : ∀ i : grid6.Coords, EltTy.bits .f32 = 32 ∨ (Rect.block (s := S16x128) S8x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x128.size a ≤ S1x128.size a
  hwx7_9 : ∀ i : grid7.Coords, EltTy.bits .f32 = 32 ∨ (Rect.block (s := S1x128) S1x128.size (cc7_transform_9 i) (hinb7_9 i)).WholeWords (EltTy.packing .f32)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S1x128.size a ≤ S1x128.size a
  hwx7_10 : ∀ i : grid7.Coords, EltTy.bits .f32 = 32 ∨ (Rect.block (s := S1x128) S1x128.size (cc7_transform_10 i) (hinb7_10 i)).WholeWords (EltTy.packing .f32)
  hstage7_11 : ∀ j, (stage7_11 j).IsWhole
  nbuf7_11 : grid7.bufCount reads7_11 false = 2
  hreads7_11 : ∀ i i' : grid7.Coords, (∀ a, reads7_11 a = true → i a = i' a) → cc7_transform_11 i = cc7_transform_11 i'
  hinb7_11 : ∀ (i : grid7.Coords) a, (cc7_transform_11 i a + 1) * S5000x128.size a ≤ S100000x128.size a
  hwx7_11 : ∀ i : grid7.Coords, EltTy.bits .f32 = 32 ∨ (Rect.block (s := S100000x128) S5000x128.size (cc7_transform_11 i) (hinb7_11 i)).WholeWords (EltTy.packing .f32)

variable [Facts₀]

def gather_S257x128_S100000x1_S100000x128_1_0_n_n_0_1_1128 : GatherDims S257x128 S100000x1 S100000x128 where
  offsetDims := [1]
  collapsedSliceDims := [0]
  operandBatchingDims := []
  startIndicesBatchingDims := []
  startIndexMap := [0]
  indexVectorDim := 1
  sliceSizes := ![1, 128]
  wf := gather_S257x128_S100000x1_S100000x128_1_0_n_n_0_1_1128_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf

abbrev win0_0 : Pipeline.Window sig grid0 :=
  Pipeline.Window.ofSpec (Memref.whole main_v6) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41_0) S8x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v41_1) S8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v6) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v61) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v58) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v59) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v36) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v64) S5000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v88) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v90) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v80) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v91_0) S8x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v91_1) S8x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v111) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v113) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v80) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v108) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v109) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v83) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v86) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v114) S5000x128.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v114) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v124) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v14) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v138) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v140) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v127) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v130) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v141_0) S8x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v141_1) S8x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond2 i == 1#1) | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v114) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v124) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v14) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v161) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v163) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v127) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v130) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v158) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v159) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v133) S1x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v136) S1x128.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v164) S5000x128.size cc5_transform_11 reads5_11 true false 2 stage5_11 sem5_11
    hrank5 hreads5_11 hinb5_11 nbuf5_11 (Memref.isWhole_whole _) hwx5_11 hstage5_11

abbrev win5 : Fin 12 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | ⟨_ + 12, h⟩ => absurd h (Nat.not_lt.2 (Nat.le_add_left _ _))
abbrev spec5 : Fin 12 → Pipeline.WinSpec sig grid5.rank := fun w => (win5 w).toWinSpec

abbrev win6_0 : Pipeline.Window sig grid6 :=
  Pipeline.Window.ofSpec (Memref.whole main_v164) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v174) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v14) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v188) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v190) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v177) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v180) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v191_0) S8x128.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v191_1) S8x128.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev idle6 : Fin 9 → grid6.Coords → Bool := fun | 0 => fun _ => false | 1 => fun _ => false | 2 => fun _ => false | 3 => fun _ => false | 4 => fun _ => false | 5 => fun _ => false | 6 => fun _ => false | 7 => fun i => !(k6_cond2 i == 1#1) | 8 => fun i => !(k6_cond2 i == 1#1) | ⟨_ + 9, h⟩ => absurd h (Nat.not_lt.2 (Nat.le_add_left _ _))

abbrev win7_0 : Pipeline.Window sig grid7 :=
  Pipeline.Window.ofSpec (Memref.whole main_v164) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v174) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v14) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v211) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v213) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v177) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v180) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v208) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v209) S1x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v183) S1x128.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v186) S1x128.size cc7_transform_10 reads7_10 false true 1 stage7_10 sem7_10
    hrank7 hreads7_10 hinb7_10 nbuf7_10 (Memref.isWhole_whole _) hwx7_10 hstage7_10

abbrev win7_11 : Pipeline.Window sig grid7 :=
  Pipeline.Window.ofSpec (Memref.whole main_v214) S5000x128.size cc7_transform_11 reads7_11 true false 2 stage7_11 sem7_11
    hrank7 hreads7_11 hinb7_11 nbuf7_11 (Memref.isWhole_whole _) hwx7_11 hstage7_11

abbrev win7 : Fin 12 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | ⟨_ + 12, h⟩ => absurd h (Nat.not_lt.2 (Nat.le_add_left _ _))
abbrev spec7 : Fin 12 → Pipeline.WinSpec sig grid7.rank := fun w => (win7 w).toWinSpec

class Facts : Prop extends Facts₀ where

variable [Facts]
-- ==== ReferenceIdeal.lean ====
abbrev S100000 : Shape := ⟨1, ![100000]⟩
abbrev S1600000 : Shape := ⟨1, ![1600000]⟩
abbrev S257x128 : Shape := ⟨2, ![257, 128]⟩
abbrev S4x128x128 : Shape := ⟨3, ![4, 128, 128]⟩
abbrev S4x128 : Shape := ⟨2, ![4, 128]⟩
abbrev S_ : Shape := ⟨0, ![]⟩
abbrev S100000x1 : Shape := ⟨2, ![100000, 1]⟩
abbrev S100000x128 : Shape := ⟨2, ![100000, 128]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S100000x512 : Shape := ⟨2, ![100000, 512]⟩
abbrev S128x512 : Shape := ⟨2, ![128, 512]⟩
abbrev S128x1 : Shape := ⟨2, ![128, 1]⟩

abbrev nBuf : Space → Nat
  | .hbm => 388
  | .vmem => 0
  | .smem => 0
  | _ => 0

abbrev hbmTy0_0 (i : Nat) : BufTy := match i % 128 with
  | 0 => ⟨S100000, .i32⟩
  | 1 => ⟨S1600000, .i32⟩
  | 2 => ⟨S1600000, .i32⟩
  | 3 => ⟨S100000, .i32⟩
  | 4 => ⟨S257x128, .f32⟩
  | 5 => ⟨S4x128x128, .f32⟩
  | 6 => ⟨S4x128x128, .f32⟩
  | 7 => ⟨S4x128, .f32⟩
  | 8 => ⟨S4x128, .f32⟩
  | 9 => ⟨S4x128, .f32⟩
  | 10 => ⟨S4x128, .f32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000x128, .f32⟩
  | 20 => ⟨S_, .f32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S100000x1, .f32⟩
  | 44 => ⟨S100000x128, .f32⟩
  | 45 => ⟨S100000x128, .f32⟩
  | 46 => ⟨S1x128x128, .f32⟩
  | 47 => ⟨S128x128, .f32⟩
  | 48 => ⟨S100000x128, .f32⟩
  | 49 => ⟨S1x128x128, .f32⟩
  | 50 => ⟨S128x128, .f32⟩
  | 51 => ⟨S100000x128, .f32⟩
  | 52 => ⟨S100000x128, .f32⟩
  | 53 => ⟨S1x128, .f32⟩
  | 54 => ⟨S128, .f32⟩
  | 55 => ⟨S1x128, .f32⟩
  | 56 => ⟨S100000x128, .f32⟩
  | 57 => ⟨S100000x128, .f32⟩
  | 58 => ⟨S_, .f32⟩
  | 59 => ⟨S100000x128, .f32⟩
  | 60 => ⟨S100000x128, .i1⟩
  | 61 => ⟨S1x128, .f32⟩
  | 62 => ⟨S128, .f32⟩
  | 63 => ⟨S1x128, .f32⟩
  | 64 => ⟨S100000x128, .f32⟩
  | 65 => ⟨S100000x128, .f32⟩
  | 66 => ⟨S100000x128, .f32⟩
  | 67 => ⟨S_, .f32⟩
  | 68 => ⟨S128, .f32⟩
  | 69 => ⟨S_, .f32⟩
  | 70 => ⟨S128, .f32⟩
  | 71 => ⟨S128, .f32⟩
  | 72 => ⟨S_, .i32⟩
  | 73 => ⟨S_, .f32⟩
  | 74 => ⟨S128, .f32⟩
  | 75 => ⟨S1x128, .f32⟩
  | 76 => ⟨S_, .f32⟩
  | 77 => ⟨S1x128, .f32⟩
  | 78 => ⟨S1x128, .f32⟩
  | 79 => ⟨S100000x128, .f32⟩
  | 80 => ⟨S100000x128, .f32⟩
  | 81 => ⟨S100000x128, .f32⟩
  | 82 => ⟨S_, .f32⟩
  | 83 => ⟨S_, .f32⟩
  | 84 => ⟨S_, .f32⟩
  | 85 => ⟨S_, .f32⟩
  | 86 => ⟨S128, .f32⟩
  | 87 => ⟨S128, .f32⟩
  | 88 => ⟨S128, .f32⟩
  | 89 => ⟨S_, .f32⟩
  | 90 => ⟨S_, .i1⟩
  | 91 => ⟨S_, .f32⟩
  | 92 => ⟨S_, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S_, .f32⟩
  | 99 => ⟨S128, .f32⟩
  | 100 => ⟨S128, .f32⟩
  | 101 => ⟨S128, .f32⟩
  | 102 => ⟨S1x128, .f32⟩
  | 103 => ⟨S100000x128, .f32⟩
  | 104 => ⟨S100000x128, .f32⟩
  | 105 => ⟨S1x128, .f32⟩
  | 106 => ⟨S128, .f32⟩
  | 107 => ⟨S1x128, .f32⟩
  | 108 => ⟨S100000x128, .f32⟩
  | 109 => ⟨S100000x128, .f32⟩
  | 110 => ⟨S1x128, .f32⟩
  | 111 => ⟨S128, .f32⟩
  | 112 => ⟨S1x128, .f32⟩
  | 113 => ⟨S100000x128, .f32⟩
  | 114 => ⟨S100000x128, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x128, .f32⟩
  | 124 => ⟨S_, .f32⟩
  | 125 => ⟨S100000x128, .f32⟩
  | 126 => ⟨S1600000x1, .i32⟩
  | 127 => ⟨S100000x128, .f32⟩
  | _ => ⟨S100000, .i32⟩

abbrev hbmTy0_1 (i : Nat) : BufTy := match i % 128 with
  | 0 => ⟨S100000x1, .f32⟩
  | 1 => ⟨S100000x128, .f32⟩
  | 2 => ⟨S100000x128, .f32⟩
  | 3 => ⟨S1x128x128, .f32⟩
  | 4 => ⟨S128x128, .f32⟩
  | 5 => ⟨S100000x128, .f32⟩
  | 6 => ⟨S1x128x128, .f32⟩
  | 7 => ⟨S128x128, .f32⟩
  | 8 => ⟨S100000x128, .f32⟩
  | 9 => ⟨S100000x128, .f32⟩
  | 10 => ⟨S1x128, .f32⟩
  | 11 => ⟨S128, .f32⟩
  | 12 => ⟨S1x128, .f32⟩
  | 13 => ⟨S100000x128, .f32⟩
  | 14 => ⟨S100000x128, .f32⟩
  | 15 => ⟨S_, .f32⟩
  | 16 => ⟨S100000x128, .f32⟩
  | 17 => ⟨S100000x128, .i1⟩
  | 18 => ⟨S1x128, .f32⟩
  | 19 => ⟨S128, .f32⟩
  | 20 => ⟨S1x128, .f32⟩
  | 21 => ⟨S100000x128, .f32⟩
  | 22 => ⟨S100000x128, .f32⟩
  | 23 => ⟨S100000x128, .f32⟩
  | 24 => ⟨S_, .f32⟩
  | 25 => ⟨S128, .f32⟩
  | 26 => ⟨S_, .f32⟩
  | 27 => ⟨S128, .f32⟩
  | 28 => ⟨S128, .f32⟩
  | 29 => ⟨S_, .i32⟩
  | 30 => ⟨S_, .f32⟩
  | 31 => ⟨S128, .f32⟩
  | 32 => ⟨S1x128, .f32⟩
  | 33 => ⟨S_, .f32⟩
  | 34 => ⟨S1x128, .f32⟩
  | 35 => ⟨S1x128, .f32⟩
  | 36 => ⟨S100000x128, .f32⟩
  | 37 => ⟨S100000x128, .f32⟩
  | 38 => ⟨S100000x128, .f32⟩
  | 39 => ⟨S_, .f32⟩
  | 40 => ⟨S_, .f32⟩
  | 41 => ⟨S_, .f32⟩
  | 42 => ⟨S_, .f32⟩
  | 43 => ⟨S128, .f32⟩
  | 44 => ⟨S128, .f32⟩
  | 45 => ⟨S128, .f32⟩
  | 46 => ⟨S_, .f32⟩
  | 47 => ⟨S_, .i1⟩
  | 48 => ⟨S_, .f32⟩
  | 49 => ⟨S_, .f32⟩
  | 50 => ⟨S128, .f32⟩
  | 51 => ⟨S128, .f32⟩
  | 52 => ⟨S1x128, .f32⟩
  | 53 => ⟨S100000x128, .f32⟩
  | 54 => ⟨S100000x128, .f32⟩
  | 55 => ⟨S_, .f32⟩
  | 56 => ⟨S128, .f32⟩
  | 57 => ⟨S128, .f32⟩
  | 58 => ⟨S128, .f32⟩
  | 59 => ⟨S1x128, .f32⟩
  | 60 => ⟨S100000x128, .f32⟩
  | 61 => ⟨S100000x128, .f32⟩
  | 62 => ⟨S1x128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S128, .f32⟩
  | 69 => ⟨S1x128, .f32⟩
  | 70 => ⟨S100000x128, .f32⟩
  | 71 => ⟨S100000x128, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x128, .f32⟩
  | 81 => ⟨S_, .f32⟩
  | 82 => ⟨S100000x128, .f32⟩
  | 83 => ⟨S1600000x1, .i32⟩
  | 84 => ⟨S100000x128, .f32⟩
  | 85 => ⟨S100000x1, .f32⟩
  | 86 => ⟨S100000x128, .f32⟩
  | 87 => ⟨S100000x128, .f32⟩
  | 88 => ⟨S1x128x128, .f32⟩
  | 89 => ⟨S128x128, .f32⟩
  | 90 => ⟨S100000x128, .f32⟩
  | 91 => ⟨S1x128x128, .f32⟩
  | 92 => ⟨S128x128, .f32⟩
  | 93 => ⟨S100000x128, .f32⟩
  | 94 => ⟨S100000x128, .f32⟩
  | 95 => ⟨S1x128, .f32⟩
  | 96 => ⟨S128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .i1⟩
  | 103 => ⟨S1x128, .f32⟩
  | 104 => ⟨S128, .f32⟩
  | 105 => ⟨S1x128, .f32⟩
  | 106 => ⟨S100000x128, .f32⟩
  | 107 => ⟨S100000x128, .f32⟩
  | 108 => ⟨S100000x128, .f32⟩
  | 109 => ⟨S_, .f32⟩
  | 110 => ⟨S128, .f32⟩
  | 111 => ⟨S_, .f32⟩
  | 112 => ⟨S128, .f32⟩
  | 113 => ⟨S128, .f32⟩
  | 114 => ⟨S_, .i32⟩
  | 115 => ⟨S_, .f32⟩
  | 116 => ⟨S128, .f32⟩
  | 117 => ⟨S1x128, .f32⟩
  | 118 => ⟨S_, .f32⟩
  | 119 => ⟨S1x128, .f32⟩
  | 120 => ⟨S1x128, .f32⟩
  | 121 => ⟨S100000x128, .f32⟩
  | 122 => ⟨S100000x128, .f32⟩
  | 123 => ⟨S100000x128, .f32⟩
  | 124 => ⟨S_, .f32⟩
  | 125 => ⟨S_, .f32⟩
  | 126 => ⟨S_, .f32⟩
  | 127 => ⟨S_, .f32⟩
  | _ => ⟨S100000, .i32⟩

abbrev hbmTy0_2 (i : Nat) : BufTy := match i % 128 with
  | 0 => ⟨S128, .f32⟩
  | 1 => ⟨S128, .f32⟩
  | 2 => ⟨S128, .f32⟩
  | 3 => ⟨S_, .f32⟩
  | 4 => ⟨S_, .i1⟩
  | 5 => ⟨S_, .f32⟩
  | 6 => ⟨S_, .f32⟩
  | 7 => ⟨S128, .f32⟩
  | 8 => ⟨S128, .f32⟩
  | 9 => ⟨S1x128, .f32⟩
  | 10 => ⟨S100000x128, .f32⟩
  | 11 => ⟨S100000x128, .f32⟩
  | 12 => ⟨S_, .f32⟩
  | 13 => ⟨S128, .f32⟩
  | 14 => ⟨S128, .f32⟩
  | 15 => ⟨S128, .f32⟩
  | 16 => ⟨S1x128, .f32⟩
  | 17 => ⟨S100000x128, .f32⟩
  | 18 => ⟨S100000x128, .f32⟩
  | 19 => ⟨S1x128, .f32⟩
  | 20 => ⟨S128, .f32⟩
  | 21 => ⟨S1x128, .f32⟩
  | 22 => ⟨S100000x128, .f32⟩
  | 23 => ⟨S100000x128, .f32⟩
  | 24 => ⟨S1x128, .f32⟩
  | 25 => ⟨S128, .f32⟩
  | 26 => ⟨S1x128, .f32⟩
  | 27 => ⟨S100000x128, .f32⟩
  | 28 => ⟨S100000x128, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S100000x1, .f32⟩
  | 43 => ⟨S100000x128, .f32⟩
  | 44 => ⟨S100000x128, .f32⟩
  | 45 => ⟨S1x128x128, .f32⟩
  | 46 => ⟨S128x128, .f32⟩
  | 47 => ⟨S100000x128, .f32⟩
  | 48 => ⟨S1x128x128, .f32⟩
  | 49 => ⟨S128x128, .f32⟩
  | 50 => ⟨S100000x128, .f32⟩
  | 51 => ⟨S100000x128, .f32⟩
  | 52 => ⟨S1x128, .f32⟩
  | 53 => ⟨S128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .i1⟩
  | 60 => ⟨S1x128, .f32⟩
  | 61 => ⟨S128, .f32⟩
  | 62 => ⟨S1x128, .f32⟩
  | 63 => ⟨S100000x128, .f32⟩
  | 64 => ⟨S100000x128, .f32⟩
  | 65 => ⟨S100000x128, .f32⟩
  | 66 => ⟨S_, .f32⟩
  | 67 => ⟨S128, .f32⟩
  | 68 => ⟨S_, .f32⟩
  | 69 => ⟨S128, .f32⟩
  | 70 => ⟨S128, .f32⟩
  | 71 => ⟨S_, .i32⟩
  | 72 => ⟨S_, .f32⟩
  | 73 => ⟨S128, .f32⟩
  | 74 => ⟨S1x128, .f32⟩
  | 75 => ⟨S_, .f32⟩
  | 76 => ⟨S1x128, .f32⟩
  | 77 => ⟨S1x128, .f32⟩
  | 78 => ⟨S100000x128, .f32⟩
  | 79 => ⟨S100000x128, .f32⟩
  | 80 => ⟨S100000x128, .f32⟩
  | 81 => ⟨S_, .f32⟩
  | 82 => ⟨S_, .f32⟩
  | 83 => ⟨S_, .f32⟩
  | 84 => ⟨S_, .f32⟩
  | 85 => ⟨S128, .f32⟩
  | 86 => ⟨S128, .f32⟩
  | 87 => ⟨S128, .f32⟩
  | 88 => ⟨S_, .f32⟩
  | 89 => ⟨S_, .i1⟩
  | 90 => ⟨S_, .f32⟩
  | 91 => ⟨S_, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S_, .f32⟩
  | 98 => ⟨S128, .f32⟩
  | 99 => ⟨S128, .f32⟩
  | 100 => ⟨S128, .f32⟩
  | 101 => ⟨S1x128, .f32⟩
  | 102 => ⟨S100000x128, .f32⟩
  | 103 => ⟨S100000x128, .f32⟩
  | 104 => ⟨S1x128, .f32⟩
  | 105 => ⟨S128, .f32⟩
  | 106 => ⟨S1x128, .f32⟩
  | 107 => ⟨S100000x128, .f32⟩
  | 108 => ⟨S100000x128, .f32⟩
  | 109 => ⟨S1x128, .f32⟩
  | 110 => ⟨S128, .f32⟩
  | 111 => ⟨S1x128, .f32⟩
  | 112 => ⟨S100000x128, .f32⟩
  | 113 => ⟨S100000x128, .f32⟩
  | 114 => ⟨S100000x512, .f32⟩
  | 115 => ⟨S_, .f32⟩
  | 116 => ⟨S100000, .f32⟩
  | 117 => ⟨S_, .f32⟩
  | 118 => ⟨S128, .f32⟩
  | 119 => ⟨S100000x1, .i32⟩
  | 120 => ⟨S128, .f32⟩
  | 121 => ⟨S_, .f32⟩
  | 122 => ⟨S_, .f32⟩
  | 123 => ⟨S128, .f32⟩
  | 124 => ⟨S128, .f32⟩
  | 125 => ⟨S_, .f32⟩
  | 126 => ⟨S128x512, .f32⟩
  | 127 => ⟨S100000x1, .i32⟩
  | _ => ⟨S100000, .i32⟩

abbrev hbmTy0_3 (i : Nat) : BufTy := match i % 128 with
  | 0 => ⟨S128x512, .f32⟩
  | 1 => ⟨S128x1, .f32⟩
  | 2 => ⟨S128x512, .f32⟩
  | 3 => ⟨S128x512, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v11 : Ref sig .tc := ⟨.hbm, 29, rfl⟩
abbrev main_c_3 : Ref sig .tc := ⟨.hbm, 30, rfl⟩
abbrev main_v12 : Ref sig .tc := ⟨.hbm, 31, rfl⟩
abbrev main_v13 : Ref sig .tc := ⟨.hbm, 32, rfl⟩
abbrev main_c_4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_cst_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_cst_1 : Ref sig .tc := ⟨.hbm, 83, rfl⟩
abbrev main_call2_v8 : Ref sig .tc := ⟨.hbm, 84, rfl⟩
abbrev main_call2_cst_2 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_cst_3 : Ref sig .tc := ⟨.hbm, 89, rfl⟩
abbrev main_call2_v12 : Ref sig .tc := ⟨.hbm, 90, rfl⟩
abbrev main_call2_cst_4 : Ref sig .tc := ⟨.hbm, 91, rfl⟩
abbrev main_call2_call0_v0 : Ref sig .tc := ⟨.hbm, 92, rfl⟩
abbrev main_call2_call0_v1 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_10 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_c_11 : Ref sig .tc := ⟨.hbm, 115, rfl⟩
abbrev main_v68 : Ref sig .tc := ⟨.hbm, 116, rfl⟩
abbrev main_v69 : Ref sig .tc := ⟨.hbm, 117, rfl⟩
abbrev main_c_12 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_13 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_14 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_15 : Ref sig .tc := ⟨.hbm, 152, rfl⟩
abbrev main_v101 : Ref sig .tc := ⟨.hbm, 153, rfl⟩
abbrev main_cst_16 : Ref sig .tc := ⟨.hbm, 154, rfl⟩
abbrev main_v102 : Ref sig .tc := ⟨.hbm, 155, rfl⟩
abbrev main_v103 : Ref sig .tc := ⟨.hbm, 156, rfl⟩
abbrev main_c_17 : Ref sig .tc := ⟨.hbm, 157, rfl⟩
abbrev main_call4_cst : Ref sig .tc := ⟨.hbm, 158, rfl⟩
abbrev main_call4_v0 : Ref sig .tc := ⟨.hbm, 159, rfl⟩
abbrev main_call4_v1 : Ref sig .tc := ⟨.hbm, 160, rfl⟩
abbrev main_call4_cst_0 : Ref sig .tc := ⟨.hbm, 161, rfl⟩
abbrev main_call4_v2 : Ref sig .tc := ⟨.hbm, 162, rfl⟩
abbrev main_call4_v3 : Ref sig .tc := ⟨.hbm, 163, rfl⟩
abbrev main_call4_v4 : Ref sig .tc := ⟨.hbm, 164, rfl⟩
abbrev main_call4_v5 : Ref sig .tc := ⟨.hbm, 165, rfl⟩
abbrev main_call4_v6 : Ref sig .tc := ⟨.hbm, 166, rfl⟩
abbrev main_call4_v7 : Ref sig .tc := ⟨.hbm, 167, rfl⟩
abbrev main_call4_cst_1 : Ref sig .tc := ⟨.hbm, 168, rfl⟩
abbrev main_call4_v8 : Ref sig .tc := ⟨.hbm, 169, rfl⟩
abbrev main_call4_cst_2 : Ref sig .tc := ⟨.hbm, 170, rfl⟩
abbrev main_call4_v9 : Ref sig .tc := ⟨.hbm, 171, rfl⟩
abbrev main_call4_v10 : Ref sig .tc := ⟨.hbm, 172, rfl⟩
abbrev main_call4_v11 : Ref sig .tc := ⟨.hbm, 173, rfl⟩
abbrev main_call4_cst_3 : Ref sig .tc := ⟨.hbm, 174, rfl⟩
abbrev main_call4_v12 : Ref sig .tc := ⟨.hbm, 175, rfl⟩
abbrev main_call4_cst_4 : Ref sig .tc := ⟨.hbm, 176, rfl⟩
abbrev main_call4_call0_v0 : Ref sig .tc := ⟨.hbm, 177, rfl⟩
abbrev main_call4_call0_v1 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_cst_18 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_c_19 : Ref sig .tc := ⟨.hbm, 200, rfl⟩
abbrev main_v124 : Ref sig .tc := ⟨.hbm, 201, rfl⟩
abbrev main_v125 : Ref sig .tc := ⟨.hbm, 202, rfl⟩
abbrev main_c_20 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_cst_21 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_cst_22 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_cst_23 : Ref sig .tc := ⟨.hbm, 237, rfl⟩
abbrev main_v157 : Ref sig .tc := ⟨.hbm, 238, rfl⟩
abbrev main_cst_24 : Ref sig .tc := ⟨.hbm, 239, rfl⟩
abbrev main_v158 : Ref sig .tc := ⟨.hbm, 240, rfl⟩
abbrev main_v159 : Ref sig .tc := ⟨.hbm, 241, rfl⟩
abbrev main_c_25 : Ref sig .tc := ⟨.hbm, 242, rfl⟩
abbrev main_call6_cst : Ref sig .tc := ⟨.hbm, 243, rfl⟩
abbrev main_call6_v0 : Ref sig .tc := ⟨.hbm, 244, rfl⟩
abbrev main_call6_v1 : Ref sig .tc := ⟨.hbm, 245, rfl⟩
abbrev main_call6_cst_0 : Ref sig .tc := ⟨.hbm, 246, rfl⟩
abbrev main_call6_v2 : Ref sig .tc := ⟨.hbm, 247, rfl⟩
abbrev main_call6_v3 : Ref sig .tc := ⟨.hbm, 248, rfl⟩
abbrev main_call6_v4 : Ref sig .tc := ⟨.hbm, 249, rfl⟩
abbrev main_call6_v5 : Ref sig .tc := ⟨.hbm, 250, rfl⟩
abbrev main_call6_v6 : Ref sig .tc := ⟨.hbm, 251, rfl⟩
abbrev main_call6_v7 : Ref sig .tc := ⟨.hbm, 252, rfl⟩
abbrev main_call6_cst_1 : Ref sig .tc := ⟨.hbm, 253, rfl⟩
abbrev main_call6_v8 : Ref sig .tc := ⟨.hbm, 254, rfl⟩
abbrev main_call6_cst_2 : Ref sig .tc := ⟨.hbm, 255, rfl⟩
abbrev main_call6_v9 : Ref sig .tc := ⟨.hbm, 256, rfl⟩
abbrev main_call6_v10 : Ref sig .tc := ⟨.hbm, 257, rfl⟩
abbrev main_call6_v11 : Ref sig .tc := ⟨.hbm, 258, rfl⟩
abbrev main_call6_cst_3 : Ref sig .tc := ⟨.hbm, 259, rfl⟩
abbrev main_call6_v12 : Ref sig .tc := ⟨.hbm, 260, rfl⟩
abbrev main_call6_cst_4 : Ref sig .tc := ⟨.hbm, 261, rfl⟩
abbrev main_call6_call0_v0 : Ref sig .tc := ⟨.hbm, 262, rfl⟩
abbrev main_call6_call0_v1 : Ref sig .tc := ⟨.hbm, 263, rfl⟩
abbrev main_v160 : Ref sig .tc := ⟨.hbm, 264, rfl⟩
abbrev main_v161 : Ref sig .tc := ⟨.hbm, 265, rfl⟩
abbrev main_v162 : Ref sig .tc := ⟨.hbm, 266, rfl⟩
abbrev main_v163 : Ref sig .tc := ⟨.hbm, 267, rfl⟩
abbrev main_cst_26 : Ref sig .tc := ⟨.hbm, 268, rfl⟩
abbrev main_v164 : Ref sig .tc := ⟨.hbm, 269, rfl⟩
abbrev main_v165 : Ref sig .tc := ⟨.hbm, 270, rfl⟩
abbrev main_v166 : Ref sig .tc := ⟨.hbm, 271, rfl⟩
abbrev main_v167 : Ref sig .tc := ⟨.hbm, 272, rfl⟩
abbrev main_v168 : Ref sig .tc := ⟨.hbm, 273, rfl⟩
abbrev main_v169 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_v173 : Ref sig .tc := ⟨.hbm, 278, rfl⟩
abbrev main_v174 : Ref sig .tc := ⟨.hbm, 279, rfl⟩
abbrev main_v175 : Ref sig .tc := ⟨.hbm, 280, rfl⟩
abbrev main_v176 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_c_27 : Ref sig .tc := ⟨.hbm, 285, rfl⟩
abbrev main_v180 : Ref sig .tc := ⟨.hbm, 286, rfl⟩
abbrev main_v181 : Ref sig .tc := ⟨.hbm, 287, rfl⟩
abbrev main_c_28 : Ref sig .tc := ⟨.hbm, 288, rfl⟩
abbrev main_v182 : Ref sig .tc := ⟨.hbm, 289, rfl⟩
abbrev main_v183 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_cst_29 : Ref sig .tc := ⟨.hbm, 294, rfl⟩
abbrev main_v187 : Ref sig .tc := ⟨.hbm, 295, rfl⟩
abbrev main_v188 : Ref sig .tc := ⟨.hbm, 296, rfl⟩
abbrev main_v189 : Ref sig .tc := ⟨.hbm, 297, rfl⟩
abbrev main_v190 : Ref sig .tc := ⟨.hbm, 298, rfl⟩
abbrev main_v191 : Ref sig .tc := ⟨.hbm, 299, rfl⟩
abbrev main_v192 : Ref sig .tc := ⟨.hbm, 300, rfl⟩
abbrev main_v193 : Ref sig .tc := ⟨.hbm, 301, rfl⟩
abbrev main_v194 : Ref sig .tc := ⟨.hbm, 302, rfl⟩
abbrev main_v195 : Ref sig .tc := ⟨.hbm, 303, rfl⟩
abbrev main_v196 : Ref sig .tc := ⟨.hbm, 304, rfl⟩
abbrev main_v197 : Ref sig .tc := ⟨.hbm, 305, rfl⟩
abbrev main_v198 : Ref sig .tc := ⟨.hbm, 306, rfl⟩
abbrev main_v199 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_v203 : Ref sig .tc := ⟨.hbm, 311, rfl⟩
abbrev main_v204 : Ref sig .tc := ⟨.hbm, 312, rfl⟩
abbrev main_cst_30 : Ref sig .tc := ⟨.hbm, 313, rfl⟩
abbrev main_v205 : Ref sig .tc := ⟨.hbm, 314, rfl⟩
abbrev main_v206 : Ref sig .tc := ⟨.hbm, 315, rfl⟩
abbrev main_v207 : Ref sig .tc := ⟨.hbm, 316, rfl⟩
abbrev main_v208 : Ref sig .tc := ⟨.hbm, 317, rfl⟩
abbrev main_v209 : Ref sig .tc := ⟨.hbm, 318, rfl⟩
abbrev main_v210 : Ref sig .tc := ⟨.hbm, 319, rfl⟩
abbrev main_v211 : Ref sig .tc := ⟨.hbm, 320, rfl⟩
abbrev main_v212 : Ref sig .tc := ⟨.hbm, 321, rfl⟩
abbrev main_cst_31 : Ref sig .tc := ⟨.hbm, 322, rfl⟩
abbrev main_v213 : Ref sig .tc := ⟨.hbm, 323, rfl⟩
abbrev main_cst_32 : Ref sig .tc := ⟨.hbm, 324, rfl⟩
abbrev main_v214 : Ref sig .tc := ⟨.hbm, 325, rfl⟩
abbrev main_v215 : Ref sig .tc := ⟨.hbm, 326, rfl⟩
abbrev main_c_33 : Ref sig .tc := ⟨.hbm, 327, rfl⟩
abbrev main_call8_cst : Ref sig .tc := ⟨.hbm, 328, rfl⟩
abbrev main_call8_v0 : Ref sig .tc := ⟨.hbm, 329, rfl⟩
abbrev main_call8_v1 : Ref sig .tc := ⟨.hbm, 330, rfl⟩
abbrev main_call8_cst_0 : Ref sig .tc := ⟨.hbm, 331, rfl⟩
abbrev main_call8_v2 : Ref sig .tc := ⟨.hbm, 332, rfl⟩
abbrev main_call8_v3 : Ref sig .tc := ⟨.hbm, 333, rfl⟩
abbrev main_call8_v4 : Ref sig .tc := ⟨.hbm, 334, rfl⟩
abbrev main_call8_v5 : Ref sig .tc := ⟨.hbm, 335, rfl⟩
abbrev main_call8_v6 : Ref sig .tc := ⟨.hbm, 336, rfl⟩
abbrev main_call8_v7 : Ref sig .tc := ⟨.hbm, 337, rfl⟩
abbrev main_call8_cst_1 : Ref sig .tc := ⟨.hbm, 338, rfl⟩
abbrev main_call8_v8 : Ref sig .tc := ⟨.hbm, 339, rfl⟩
abbrev main_call8_cst_2 : Ref sig .tc := ⟨.hbm, 340, rfl⟩
abbrev main_call8_v9 : Ref sig .tc := ⟨.hbm, 341, rfl⟩
abbrev main_call8_v10 : Ref sig .tc := ⟨.hbm, 342, rfl⟩
abbrev main_call8_v11 : Ref sig .tc := ⟨.hbm, 343, rfl⟩
abbrev main_call8_cst_3 : Ref sig .tc := ⟨.hbm, 344, rfl⟩
abbrev main_call8_v12 : Ref sig .tc := ⟨.hbm, 345, rfl⟩
abbrev main_call8_cst_4 : Ref sig .tc := ⟨.hbm, 346, rfl⟩
abbrev main_call8_call0_v0 : Ref sig .tc := ⟨.hbm, 347, rfl⟩
abbrev main_call8_call0_v1 : Ref sig .tc := ⟨.hbm, 348, rfl⟩
abbrev main_v216 : Ref sig .tc := ⟨.hbm, 349, rfl⟩
abbrev main_v217 : Ref sig .tc := ⟨.hbm, 350, rfl⟩
abbrev main_v218 : Ref sig .tc := ⟨.hbm, 351, rfl⟩
abbrev main_v219 : Ref sig .tc := ⟨.hbm, 352, rfl⟩
abbrev main_cst_34 : Ref sig .tc := ⟨.hbm, 353, rfl⟩
abbrev main_v220 : Ref sig .tc := ⟨.hbm, 354, rfl⟩
abbrev main_v221 : Ref sig .tc := ⟨.hbm, 355, rfl⟩
abbrev main_v222 : Ref sig .tc := ⟨.hbm, 356, rfl⟩
abbrev main_v223 : Ref sig .tc := ⟨.hbm, 357, rfl⟩
abbrev main_v224 : Ref sig .tc := ⟨.hbm, 358, rfl⟩
abbrev main_v225 : Ref sig .tc := ⟨.hbm, 359, rfl⟩
abbrev main_v226 : Ref sig .tc := ⟨.hbm, 360, rfl⟩
abbrev main_v227 : Ref sig .tc := ⟨.hbm, 361, rfl⟩
abbrev main_v228 : Ref sig .tc := ⟨.hbm, 362, rfl⟩
abbrev main_v229 : Ref sig .tc := ⟨.hbm, 363, rfl⟩
abbrev main_v230 : Ref sig .tc := ⟨.hbm, 364, rfl⟩
abbrev main_v231 : Ref sig .tc := ⟨.hbm, 365, rfl⟩
abbrev main_v232 : Ref sig .tc := ⟨.hbm, 366, rfl⟩
abbrev main_v233 : Ref sig .tc := ⟨.hbm, 367, rfl⟩
abbrev main_v234 : Ref sig .tc := ⟨.hbm, 368, rfl⟩
abbrev main_v235 : Ref sig .tc := ⟨.hbm, 369, rfl⟩
abbrev main_v236 : Ref sig .tc := ⟨.hbm, 370, rfl⟩
abbrev main_cst_35 : Ref sig .tc := ⟨.hbm, 371, rfl⟩
abbrev main_v237 : Ref sig .tc := ⟨.hbm, 372, rfl⟩
abbrev main_cst_36 : Ref sig .tc := ⟨.hbm, 373, rfl⟩
abbrev main_v238 : Ref sig .tc := ⟨.hbm, 374, rfl⟩
abbrev main_v239 : Ref sig .tc := ⟨.hbm, 375, rfl⟩
abbrev main_v240 : Ref sig .tc := ⟨.hbm, 376, rfl⟩
abbrev main_cst_37 : Ref sig .tc := ⟨.hbm, 377, rfl⟩
abbrev main_call9_v0 : Ref sig .tc := ⟨.hbm, 378, rfl⟩
abbrev main_call9_v1 : Ref sig .tc := ⟨.hbm, 379, rfl⟩
abbrev main_v241 : Ref sig .tc := ⟨.hbm, 380, rfl⟩
abbrev main_cst_38 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_v245 : Ref sig .tc := ⟨.hbm, 385, rfl⟩
abbrev main_v246 : Ref sig .tc := ⟨.hbm, 386, rfl⟩
abbrev main_v247 : Ref sig .tc := ⟨.hbm, 387, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  concatenates_S100000x128_S100000x128_S100000x128_S100000x128_S100000x512_d1 : Shape.Concatenates [S100000x128, S100000x128, S100000x128, S100000x128] S100000x512 1
  bcast_S_S128x512 : S_.BroadcastsInDim S128x512 (![] : Fin 0 → Fin S128x512.rank)
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  gather_S257x128_S100000x1_S100000x128_1_0_n_n_0_1_1128_wf : GatherDims.WF S257x128 S100000x1 S100000x128 [1] [0] [] [0] [] 1 ![1, 128]
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S128_S100000x1_S100000_n_0_0_1_wf : ScatterDims.WF S128 S100000x1 S100000 [] [0] [0] 1
  scatter_S128x512_S100000x1_S100000x512_1_0_0_1_wf : ScatterDims.WF S128x512 S100000x1 S100000x512 [1] [0] [0] 1

variable [Facts₀]

def gather_S257x128_S100000x1_S100000x128_1_0_n_n_0_1_1128 : GatherDims S257x128 S100000x1 S100000x128 where
  offsetDims := [1]
  collapsedSliceDims := [0]
  operandBatchingDims := []
  startIndicesBatchingDims := []
  startIndexMap := [0]
  indexVectorDim := 1
  sliceSizes := ![1, 128]
  wf := gather_S257x128_S100000x1_S100000x128_1_0_n_n_0_1_1128_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x512_S100000x1_S100000x512_1_0_0_1 : ScatterDims S128x512 S100000x1 S100000x512 where
  updateWindowDims := [1]
  insertedWindowDims := [0]
  scatterDimsToOperandDims := [0]
  indexVectorDim := 1
  wf := scatter_S128x512_S100000x1_S100000x512_1_0_0_1_wf

class Facts : Prop extends Facts₀ where

variable [Facts]
-- ==== Proof.K.Stats0.lean ====
/- The first layer's statistics kernel, as the pipeline runs it on one core: a grid of 2 × 10 points, each point
   one tile of 5000 rows. At every point the body computes the tile's activations
   y = prelu (bf16 h · bf16 W_self + bf16 (raw_agg · invdeg) · bf16 W_neigh + bias), adds the column sums of y to a
   first accumulator row and the column sums of y · y to a second accumulator row; the two accumulator rows live in
   scratch buffers that keep their contents from one point to the next. At the first tile of a core (point ≡ 0 mod 10)
   both accumulators are first reset to zero; at the last tile of a core (point ≡ 9 mod 10) each accumulator row,
   repeated over 8 rows, is stored into the core's block of one of the two outputs, which is then written back.

   This module states and proves, for the contents V of the buffers when the region is entered: the body's triple in
   each of the three control cases (first / middle / last tile of a core), what the two outputs' buffers and the two
   accumulators hold after each point (by recursion on the point), the pipeline's proof data over these, and the
   body obligation at every point. -/
import proofs.«129379_j32899449487582_2_alg».proof.Proof.Gen.Kernel.Launch
import proofs.«129379_j32899449487582_2_alg».proof.Proof.Gen.Kernel.Skeleton
import proofs.«129379_j32899449487582_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an input that is
    not fetched at a point has the block index of the point before), for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an input that is
    not fetched at a point has the block index of the point before), for any proof data whose array is `V`'s and whose
    body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an input that is
    not fetched at a point has the block index of the point before), for any proof data whose array is `V`'s and whose
    body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an input that is
    not fetched at a point has the block index of the point before), for any proof data whose array is `V`'s and whose
    body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an input that is
    not fetched at a point has the block index of the point before), for any proof data whose array is `V`'s and whose
    body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an input that is
    not fetched at a point has the block index of the point before), for any proof data whose array is `V`'s and whose
    body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (an input that is
    not fetched at a point has the block index of the point before), for any proof data whose array is `V`'s and whose
    body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first `scf.if` (reset the accumulators), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 10): the first tile of each core — decided over the grid. -/
theorem hcond0_0 : ∀ t : Fin cfg0.N, cond0_0 (grid0.coords t) ↔ t.val % 10 = 0 :=
  (by decide +kernel : ∀ t : Fin grid0.N, cond0_0 (grid0.coords t) ↔ t.val % 10 = 0)

/-- The condition of the body's second `scf.if` (store the accumulators into the outputs), from the grid coordinates. -/
abbrev cond0_1 (i : grid0.Coords) : Prop := k0_cond2 i = 1#1
/-- It holds at the points ≡ 9 (mod 10): the last tile of each core — decided over the grid. -/
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- Window 6 is never idle (an input). -/
theorem liveAt0_6 : ∀ t : Fin cfg0.N, cfg0.idle 6 (grid0.coords t) = false := by decide +kernel
/-- At a first tile output 7 is idle: nothing is stored into it, -/
theorem idleAt0_7_A : ∀ t : Fin cfg0.N, cond0_0 (grid0.coords t) → ¬cond0_1 (grid0.coords t) → cfg0.idle 7 (grid0.coords t) = true := by decide +kernel
/-- and its block is not written back. -/
theorem noFlush0_7_A : ∀ t : Fin cfg0.N, cond0_0 (grid0.coords t) → ¬cond0_1 (grid0.coords t) → (cfg0.win 7).flush t = false := by decide +kernel
/-- At a middle tile output 7 is idle: nothing is stored into it, -/
theorem idleAt0_7_B : ∀ t : Fin cfg0.N, ¬cond0_0 (grid0.coords t) → ¬cond0_1 (grid0.coords t) → cfg0.idle 7 (grid0.coords t) = true := by decide +kernel
/-- and its block is not written back. -/
theorem noFlush0_7_B : ∀ t : Fin cfg0.N, ¬cond0_0 (grid0.coords t) → ¬cond0_1 (grid0.coords t) → (cfg0.win 7).flush t = false := by decide +kernel
/-- At a last tile output 7 is live: the body stores its whole block. -/
theorem liveAt0_7_C : ∀ t : Fin cfg0.N, ¬cond0_0 (grid0.coords t) → cond0_1 (grid0.coords t) → cfg0.idle 7 (grid0.coords t) = false := by decide +kernel
/-- At a first tile output 8 is idle: nothing is stored into it, -/
theorem idleAt0_8_A : ∀ t : Fin cfg0.N, cond0_0 (grid0.coords t) → ¬cond0_1 (grid0.coords t) → cfg0.idle 8 (grid0.coords t) = true := by decide +kernel
/-- and its block is not written back. -/
theorem noFlush0_8_A : ∀ t : Fin cfg0.N, cond0_0 (grid0.coords t) → ¬cond0_1 (grid0.coords t) → (cfg0.win 8).flush t = false := by decide +kernel
/-- At a middle tile output 8 is idle: nothing is stored into it, -/
theorem idleAt0_8_B : ∀ t : Fin cfg0.N, ¬cond0_0 (grid0.coords t) → ¬cond0_1 (grid0.coords t) → cfg0.idle 8 (grid0.coords t) = true := by decide +kernel
/-- and its block is not written back. -/
theorem noFlush0_8_B : ∀ t : Fin cfg0.N, ¬cond0_0 (grid0.coords t) → ¬cond0_1 (grid0.coords t) → (cfg0.win 8).flush t = false := by decide +kernel
/-- At a last tile output 8 is live: the body stores its whole block. -/
theorem liveAt0_8_C : ∀ t : Fin cfg0.N, ¬cond0_0 (grid0.coords t) → cond0_1 (grid0.coords t) → cfg0.idle 8 (grid0.coords t) = false := by decide +kernel

/-! ## The memrefs the body is called with -/

/-- One staging buffer of output window 7, through which its contents are stated (the choice does not matter). -/
abbrev VO0_7 : View sig .tc .vmem S8x128 .f32 := (Memref.whole cc0_stg7_0 : Memref sig .tc .vmem S8x128 .f32).view
/-- One staging buffer of output window 8, through which its contents are stated (the choice does not matter). -/
abbrev VO0_8 : View sig .tc .vmem S8x128 .f32 := (Memref.whole cc0_stg8_0 : Memref sig .tc .vmem S8x128 .f32).view
/-- Each window's current staging memref at point `t`, spelled as the pipeline passes it, and its wholeness. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128 .f32 := win0_8.stage (cfg0.slots t 8)
abbrev hs0_8 (t : Fin cfg0.N) : (ms0_8 t).IsWhole := hstage0_8 ((cfg0.slots t 8).cast nbuf0_8)
/-- The two accumulator rows: whole scoped buffers of the kernel's own, passed beside the windows. -/
abbrev scM0_0 : Memref sig .tc .vmem S1x128 .f32 := Memref.whole cc0_scratch0
abbrev scM0_1 : Memref sig .tc .vmem S1x128 .f32 := Memref.whole cc0_scratch1
/-- Accumulator 0 as a view: what it holds is stated through it. -/
abbrev VS0_0 : View sig .tc .vmem S1x128 .f32 := scM0_0.view
/-- Accumulator 1 as a view: what it holds is stated through it. -/
abbrev VS0_1 : View sig .tc .vmem S1x128 .f32 := scM0_1.view

/-- The region's invariant with the two accumulators as memrefs owned at some contents; every other scoped buffer stays
    unopened beside them. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

-- (the run's proof term is large: the definition's epilogue walks it past the default budget)
set_option maxHeartbeats 1000000 in
/-- THE BODY IN CASE A: the first tile of a core (the accumulators are reset, the outputs are not stored); points 0, 10. What the body's stores leave in the
    two accumulators, as pieces (last first), WITH the proof that on whole memrefs — the inputs' at their contents
    `x·`, the outputs' at contents `xi·` handed back untouched, the accumulators at anything — the body runs to the
    continuation holding the inputs' as they were and each accumulator with its pieces written. The pieces are
    found by running the body. -/
noncomputable def kernelRun0_A (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_stats_kernel i arg2 harg2 arg3 harg3 arg4 harg4 arg5 harg5 arg6 harg6 arg7 harg7 arg8 harg8 arg9 harg9 arg10 harg10 arg11 harg11 arg12 harg12) K } := by
  refine ⟨[], [], ?_, ?_, fun xi7 xi8 E K => ?run⟩
  case run =>
    simp only [cc0_stats_kernel_eq_skeleton]; unfold cc0_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

-- (the run's proof term is large: the definition's epilogue walks it past the default budget)
set_option maxHeartbeats 1000000 in
/-- THE BODY IN CASE B: a middle tile of a core (the accumulators are not reset, the outputs are not stored); the other points. What the body's stores leave in the
    two accumulators, as pieces (last first), WITH the proof that on whole memrefs — the inputs' at their contents
    `x·`, the outputs' at contents `xi·` handed back untouched, the accumulators at what the point before left (`xs·`) — the body runs to the
    continuation holding the inputs' as they were and each accumulator with its pieces written. The pieces are
    found by running the body. -/
noncomputable def kernelRun0_B (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_stats_kernel i arg2 harg2 arg3 harg3 arg4 harg4 arg5 harg5 arg6 harg6 arg7 harg7 arg8 harg8 arg9 harg9 arg10 harg10 arg11 harg11 arg12 harg12) K } := by
  refine ⟨[], [], ?_, ?_, fun xi7 xi8 E K => ?run⟩
  case run =>
    simp only [cc0_stats_kernel_eq_skeleton]; unfold cc0_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

-- (the run's proof term is large: the definition's epilogue walks it past the default budget)
set_option maxHeartbeats 1000000 in
/-- THE BODY IN CASE C: the last tile of a core (the accumulators are not reset, the outputs are stored); points 9, 19. What the body's stores leave in the
    two outputs' staging memrefs and the two accumulators, as pieces (last first), WITH the proof that on whole memrefs — the inputs' at their contents
    `x·`, the outputs' at anything, the accumulators at what the point before left (`xs·`) — the body runs to the
    continuation holding the inputs' as they were, each output's buffer with its pieces written and each accumulator with its pieces written. The pieces are
    found by running the body. -/
noncomputable def kernelRun0_C (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_stats_kernel i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_stats_kernel_eq_skeleton]; unfold cc0_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [HS0]; · iexists _; iexact HS0
    iexists _; iexact HS1

/-! ## Case A (the first tile of a core): what the body leaves -/

/-- Case A stores nothing into output 7 (the window is idle at its points and not written back there): no pieces —
    a placeholder (junk read back) that nothing consults. -/
def out0_A_7 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S8x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).1)

/-- Case A stores nothing into output 8 (the window is idle at its points and not written back there): no pieces —
    a placeholder (junk read back) that nothing consults. -/
def out0_A_8 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S8x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.1)

/-- Case A's pieces for accumulator 0 cover it (each store is of the whole row). -/
theorem scover0_A_0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1 S1x128.size (by sl_kernel_rfl) y

/-- What case A leaves in accumulator 0: its pieces read back over junk. -/
def sout0_A_0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S1x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1)

/-- Case A's pieces for accumulator 1 cover it (each store is of the whole row). -/
theorem scover0_A_1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1 S1x128.size (by sl_kernel_rfl) y

/-- What case A leaves in accumulator 1: its pieces read back over junk. -/
def sout0_A_1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S1x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1)

/-! ## Case B (a middle tile of a core): what the body leaves -/

/-- Case B stores nothing into output 7 (the window is idle at its points and not written back there): no pieces —
    a placeholder (junk read back) that nothing consults. -/
def out0_B_7 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- Case B stores nothing into output 8 (the window is idle at its points and not written back there): no pieces —
    a placeholder (junk read back) that nothing consults. -/
def out0_B_8 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- Case B's pieces for accumulator 0 cover it (each store is of the whole row). -/
theorem scover0_B_0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What case B leaves in accumulator 0: its pieces read back over junk. -/
def sout0_B_0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- Case B's pieces for accumulator 1 cover it (each store is of the whole row). -/
theorem scover0_B_1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What case B leaves in accumulator 1: its pieces read back over junk. -/
def sout0_B_1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-! ## Case C (the last tile of a core): what the body leaves -/

/-- Case C's pieces for output 7 tile its block (one store of the whole 8 × 128 block), so they cover it. -/
theorem cover0_C_7 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S8x128.size (by sl_kernel_rfl) y

/-- What case C leaves in output 7's staging buffer: its pieces read back over junk. -/
def out0_C_7 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- Case C's pieces for output 8 tile its block (one store of the whole 8 × 128 block), so they cover it. -/
theorem cover0_C_8 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S8x128.size (by sl_kernel_rfl) y

/-- What case C leaves in output 8's staging buffer: its pieces read back over junk. -/
def out0_C_8 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- Case C's pieces for accumulator 0 cover it (each store is of the whole row). -/
theorem scover0_C_0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What case C leaves in accumulator 0: its pieces read back over junk. -/
def sout0_C_0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- Case C's pieces for accumulator 1 cover it (each store is of the whole row). -/
theorem scover0_C_1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What case C leaves in accumulator 1: its pieces read back over junk. -/
def sout0_C_1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-! ## What the outputs and the accumulators hold after each point -/

/-- THE ACCUMULATION. What the two outputs' staging buffers and the two accumulators hold after the body at position
    `n` (a tuple: output 7, output 8, accumulator 0, accumulator 1): the case the closed forms select at `n`, run at
    the point's memrefs and input blocks, the accumulators at what this leaves at `n - 1` where the case does not reset
    them. An assignment of the conditions no point meets is no case. -/
def outsAt0 (c : Dev nD) : (n : ℕ) → n < cfg0.N → Vec F S8x128 .f32 × Vec F S8x128 .f32 × Vec F S1x128 .f32 × Vec F S1x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 10 = 0 then
      if h1 : (n + 1) % 10 = 9 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 10 = 9 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2)

/-- `outsAt0` at a first tile: that case's contents. -/
theorem outsAt0_A (c : Dev nD) (t : Fin cfg0.N) (h0 : t.val % 10 = 0) (h1 : ¬t.val % 10 = 9) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

/-- `outsAt0` at a middle tile: that case's contents, over what the point before left. -/
theorem outsAt0_B (c : Dev nD) (t : Fin cfg0.N) (h0 : ¬t.val % 10 = 0) (h1 : ¬t.val % 10 = 9) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last tile: that case's contents, over what the point before left. -/
theorem outsAt0_C (c : Dev nD) (t : Fin cfg0.N) (h0 : ¬t.val % 10 = 0) (h1 : t.val % 10 = 9) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer that is no
    staging buffer at anything, the generator register at some state); afterwards the same with the two accumulators at
    what the point before left in them (`outsAt0`'s last two components). -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulators at that point's contents. -/
theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2))
      ∗ Pipeline.scopedRestBut (Ix := Unit) (Name := ℕ) (U := UR sig nD τ) (Lvl := ℕ) (Val := Elt F) spec0 c [cc0_scratch0, cc0_scratch1]) ∗ (∃ r, prngReg c r)) := rfl

/-- Before a point that is not the first: the accumulators at what the point before left. -/
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the outputs' at `outsAt0`'s first two components; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
  Φ t := PhiS0 V c t.val (Nat.le_of_lt_succ t.isLt)
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body at any point: the inputs' memrefs hold their blocks; the closed forms say which case the point is in; so that
    case's run applies. The invariant hands the body the two accumulators at what the point before left (at anything at
    the first point) and takes them back at this point's contents; the other scoped buffers, the generator register and
    what the core owes pass through untouched. At a first or middle tile the outputs' buffers are handed back as found;
    at a last tile they are returned at the stored blocks. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  by_cases h0 : t.val % 10 = 0
  · by_cases h1 : t.val % 10 = 9
    · exfalso; omega
    · -- a first tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [Dat.leavesExact_idle (dat0 V c) 8 t (idleAt0_8_A t ((hcond0_0 t).mpr h0) (fun h => h1 ((hcond0_1 t).mp h))) (noFlush0_8_A t ((hcond0_0 t).mpr h0) (fun h => h1 ((hcond0_1 t).mp h)))]
      rw [outsAt0_A V c t h0 h1]
      unfold sout0_A_0 sout0_A_1; (try dsimp only)
      by_cases hz : t.val = 0
      ·
        rw [PhiS0_castSucc V c t, PhiS0_zero V c _ _ hz, PhiA0_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
      ·
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexists _; iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
  · by_cases h1 : t.val % 10 = 9
    · -- a last tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [show (dat0 V c).leavesExact 8 t = owns (c : Thread nD τ) (ms0_8 t) fullShare ((dat0 V c).after 8 t) from by
        unfold Dat.leavesExact; rw [liveAt0_8_C t (fun h => h0 ((hcond0_0 t).mp h)) ((hcond0_1 t).mpr h1)], after0_8]
      rw [outsAt0_C V c t h0 h1]
      unfold out0_C_7 out0_C_8 sout0_C_0 sout0_C_1; (try dsimp only)
      by_cases hz : t.val = 0
      · exfalso; omega
      ·
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        iintro ⟨H0, H1, H2, H3, H4, H5, H6, ⟨%e7, H7⟩, ⟨%e8, H8⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _)
    · -- a middle tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dat0 V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      ·
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 20 := N_0; omega)

end Cert.Kernel.Gen

end
-- ==== Proof.K.Norm1.lean ====
/-
  Region 1 of @main: the normalize kernel of the first layer (custom_call 1, `cc1_normalize_recompute_kernel`), its
  kernel half at a PARAMETER `V`, the TensorCore's buffer contents when the region is entered.

  The grid has 20 points and the kernel 12 windows. Windows 0–2 are tiles of 5000 rows of the node features `h`, of the
  aggregated neighbour features and of the inverse degrees, the tile's index the point; windows 3–10 are whole arrays
  (two 128×128 weight matrices, then bias, PReLU slope, mean, variance, gamma, beta: one row of 128 each), the same
  block at every point; window 11 is the output, a tile of 5000 rows written back at every point, its index the point.

  At a point the body loads every input window's staging buffer whole, loads the output's buffer once (the value is
  not used) and stores ONE value over the whole output buffer:
      y  = PReLU(bf16(h)·bf16(W_self) + bf16(agg·invdeg)·bf16(W_neigh) + bias)      (`k1_pay2`)
      out = (y − mean) · rsqrt(var + ε) · gamma + beta                                (`k1_pay1` over `k1_pay3`, `k1_pay4`)
  So what the body leaves in the output buffer is a closed function `out1_11` of the eleven input blocks at the point,
  and every input buffer is left as found. This module states that as the body's triple (`sound_kernel1`), packages it
  as the pipeline's proof data (`dat1`: the arrays as `V` has them; after the body each input's buffer at its block
  and the output's at `out1_11` of the input blocks) and proves the library's body obligation for it
  (`body_obligation1`). The load of the output buffer reads a buffer the body owns at SOME contents, which is all a
  load needs; nothing depends on what it read.
-/
import proofs.«129379_j32899449487582_2_alg».proof.Proof.Gen.Kernel.Launch
import proofs.«129379_j32899449487582_2_alg».proof.Proof.Gen.Kernel.Skeleton
import proofs.«129379_j32899449487582_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of 5000 × 128 (`View.cover_of_tiled`): the elaborator's structural look recurses once per
-- coordinate of the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block index
    has not moved (`Dat.before_in_eq_fetched`), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): unfetched, the block index
    has not moved (`Dat.before_in_eq_fetched`), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): unfetched, the block index
    has not moved (`Dat.before_in_eq_fetched`), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): unfetched, the block index
    has not moved (`Dat.before_in_eq_fetched`), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for ANY proof
    data whose array is `V`'s (`hA`) and whose body leaves the block in place (`hafter`): unfetched, the block index
    has not moved (`Dat.before_in_eq_fetched`), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for ANY proof
    data whose array is `V`'s (`hA`) and whose body leaves the block in place (`hafter`): unfetched, the block index
    has not moved (`Dat.before_in_eq_fetched`), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for ANY proof
    data whose array is `V`'s (`hA`) and whose body leaves the block in place (`hafter`): unfetched, the block index
    has not moved (`Dat.before_in_eq_fetched`), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for ANY proof
    data whose array is `V`'s (`hA`) and whose body leaves the block in place (`hafter`): unfetched, the block index
    has not moved (`Dat.before_in_eq_fetched`), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for ANY proof
    data whose array is `V`'s (`hA`) and whose body leaves the block in place (`hafter`): unfetched, the block index
    has not moved (`Dat.before_in_eq_fetched`), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not, for ANY proof
    data whose array is `V`'s (`hA`) and whose body leaves the block in place (`hafter`): unfetched, the block index
    has not moved (`Dat.before_in_eq_fetched`), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current staging buffer holds its block at every point, fetched there or not, for ANY proof
    data whose array is `V`'s (`hA`) and whose body leaves the block in place (`hafter`): unfetched, the block index
    has not moved (`Dat.before_in_eq_fetched`), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S128x128 := Rect.unit (s := S128x128) ![0, 0] S128x128.size inb_S128x128_S128x128_0_0
abbrev r1_3 : Rect S1x128 := Rect.unit (s := S1x128) ![0, 0] S1x128.size inb_S1x128_S1x128_0_0

/-! ## What the body leaves in the output window's buffer -/

/-- Window 11's staging buffer after the body, from the input windows' blocks: its 1 store as a piece
    (`View.canon`; the payloads are the skeleton's). The variance `x8` goes through `k1_pay3` (the reciprocal
    square root) and the mean `x7` through `k1_pay4`: the body loads the variance's window before the mean's. -/
def out1_11 (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) : Vec F S5000x128 .f32 :=
  View.canon [⟨r1_0, k1_pay1 (k1_pay2 (View.ld x0 r1_0) (View.ld x1 r1_0) (View.ld x2 r1_1) (View.ld x3 r1_2) (View.ld x4 r1_2) (View.ld x5 r1_3) (View.ld x6 r1_3)) (k1_pay3 (View.ld x8 r1_3)) (k1_pay4 (View.ld x7 r1_3)) (View.ld x9 r1_3) (View.ld x10 r1_3)⟩]

/-- Its store tiles the buffer (checked by evaluation), so it covers it. -/
theorem cover1_11 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at read contents `xW` and the output's at anything, runs to
    the continuation holding the inputs' as they were and the output's at `out1_11` of the inputs': the printed
    functions are their skeletons, which the executor runs, through the part call. The load of the output's buffer
    steps like any load of an owned buffer; its value is dropped. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out1_11 x0 x1 x2 x3 x4 x5 x6 x7 x8 x9 x10)) -∗ K ⟨⟩))
      ⊢ wp frame (wpE (defs₀ (F := F)) Variants.none c none) E (cc1_normalize_recompute_kernel i arg1 harg1 arg2 harg2 arg3 harg3 arg4 harg4 arg5 harg5 arg6 harg6 arg7 harg7 arg8 harg8 arg9 harg9 arg10 harg10 arg11 harg11 arg12 harg12) K := by
  simp only [cc1_normalize_recompute_kernel_eq_skeleton]; unfold cc1_normalize_recompute_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover1_11 _)

/-! ## The pipeline's proof data -/

/-- The proof data of pipeline 1 on core `c`: the arrays as the region finds them (`V`); after the body at
    point `t` each input's buffer at its block and the output's at `out1_11` of the input blocks; the invariant the
    scoped rest and the generator register, untouched (`Pipeline.ΦA`); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

/-- The proof data's arrays are the region-entry contents (the proof data's definition projected, by `dsimp`). -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

/-- Each input's current staging buffer holds its block at every point, fetched there or not (`before1_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.K.Stats2.lean ====
/- The first layer's statistics kernel, as the pipeline runs it on one core: a grid of 2 × 10 points, each point
   one tile of 5000 rows. At every point the body computes the tile's activations
   y = prelu (bf16 h · bf16 W_self + bf16 (raw_agg · invdeg) · bf16 W_neigh + bias), adds the column sums of y to a
   first accumulator row and the column sums of y · y to a second accumulator row; the two accumulator rows live in
   scratch buffers that keep their contents from one point to the next. At the first tile of a core (point ≡ 0 mod 10)
   both accumulators are first reset to zero; at the last tile of a core (point ≡ 9 mod 10) each accumulator row,
   repeated over 8 rows, is stored into the core's block of one of the two outputs, which is then written back.

   This module states and proves, for the contents V of the buffers when the region is entered: the body's triple in
   each of the three control cases (first / middle / last tile of a core), what the two outputs' buffers and the two
   accumulators hold after each point (by recursion on the point), the pipeline's proof data over these, and the
   body obligation at every point. -/
import proofs.«129379_j32899449487582_2_alg».proof.Proof.K.Stats0
import proofs.«129379_j32899449487582_2_alg».proof.Proof.Gen.Kernel.Launch
import proofs.«129379_j32899449487582_2_alg».proof.Proof.Gen.Kernel.Skeleton
import proofs.«129379_j32899449487582_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (an input that is
    not fetched at a point has the block index of the point before), for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (an input that is
    not fetched at a point has the block index of the point before), for any proof data whose array is `V`'s and whose
    body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (an input that is
    not fetched at a point has the block index of the point before), for any proof data whose array is `V`'s and whose
    body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (an input that is
    not fetched at a point has the block index of the point before), for any proof data whose array is `V`'s and whose
    body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (an input that is
    not fetched at a point has the block index of the point before), for any proof data whose array is `V`'s and whose
    body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (an input that is
    not fetched at a point has the block index of the point before), for any proof data whose array is `V`'s and whose
    body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (an input that is
    not fetched at a point has the block index of the point before), for any proof data whose array is `V`'s and whose
    body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (reset the accumulators), from the grid coordinates. -/
noncomputable abbrev cond2_0 (i : grid2.Coords) : Prop := (Scalar.cmpi .ne (Scalar.extui (Scalar.cmpi .eq (BitVec.ofNat 32 (i 1).val) 0#32)) 0#32) = 1#1
/-- It holds at the points ≡ 0 (mod 10): the first tile of each core — decided over the grid. -/
theorem hcond2_0 : ∀ t : Fin cfg2.N, cond2_0 (grid2.coords t) ↔ t.val % 10 = 0 :=
  (by decide +kernel : ∀ t : Fin grid2.N, cond2_0 (grid2.coords t) ↔ t.val % 10 = 0)

/-- The condition of the body's second `scf.if` (store the accumulators into the outputs), from the grid coordinates. -/
noncomputable abbrev cond2_1 (i : grid2.Coords) : Prop := k2_cond2 i = 1#1
/-- It holds at the points ≡ 9 (mod 10): the last tile of each core — decided over the grid. -/
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- Window 5 is never idle (an input). -/
theorem liveAt2_5 : ∀ t : Fin cfg2.N, cfg2.idle 5 (grid2.coords t) = false := by decide +kernel
/-- Window 6 is never idle (an input). -/
theorem liveAt2_6 : ∀ t : Fin cfg2.N, cfg2.idle 6 (grid2.coords t) = false := by decide +kernel
/-- At a first tile output 7 is idle: nothing is stored into it, -/
theorem idleAt2_7_A : ∀ t : Fin cfg2.N, cond2_0 (grid2.coords t) → ¬cond2_1 (grid2.coords t) → cfg2.idle 7 (grid2.coords t) = true := by decide +kernel
/-- and its block is not written back. -/
theorem noFlush2_7_A : ∀ t : Fin cfg2.N, cond2_0 (grid2.coords t) → ¬cond2_1 (grid2.coords t) → (cfg2.win 7).flush t = false := by decide +kernel
/-- At a middle tile output 7 is idle: nothing is stored into it, -/
theorem idleAt2_7_B : ∀ t : Fin cfg2.N, ¬cond2_0 (grid2.coords t) → ¬cond2_1 (grid2.coords t) → cfg2.idle 7 (grid2.coords t) = true := by decide +kernel
/-- and its block is not written back. -/
theorem noFlush2_7_B : ∀ t : Fin cfg2.N, ¬cond2_0 (grid2.coords t) → ¬cond2_1 (grid2.coords t) → (cfg2.win 7).flush t = false := by decide +kernel
/-- At a last tile output 7 is live: the body stores its whole block. -/
theorem liveAt2_7_C : ∀ t : Fin cfg2.N, ¬cond2_0 (grid2.coords t) → cond2_1 (grid2.coords t) → cfg2.idle 7 (grid2.coords t) = false := by decide +kernel
/-- At a first tile output 8 is idle: nothing is stored into it, -/
theorem idleAt2_8_A : ∀ t : Fin cfg2.N, cond2_0 (grid2.coords t) → ¬cond2_1 (grid2.coords t) → cfg2.idle 8 (grid2.coords t) = true := by decide +kernel
/-- and its block is not written back. -/
theorem noFlush2_8_A : ∀ t : Fin cfg2.N, cond2_0 (grid2.coords t) → ¬cond2_1 (grid2.coords t) → (cfg2.win 8).flush t = false := by decide +kernel
/-- At a middle tile output 8 is idle: nothing is stored into it, -/
theorem idleAt2_8_B : ∀ t : Fin cfg2.N, ¬cond2_0 (grid2.coords t) → ¬cond2_1 (grid2.coords t) → cfg2.idle 8 (grid2.coords t) = true := by decide +kernel
/-- and its block is not written back. -/
theorem noFlush2_8_B : ∀ t : Fin cfg2.N, ¬cond2_0 (grid2.coords t) → ¬cond2_1 (grid2.coords t) → (cfg2.win 8).flush t = false := by decide +kernel
/-- At a last tile output 8 is live: the body stores its whole block. -/
theorem liveAt2_8_C : ∀ t : Fin cfg2.N, ¬cond2_0 (grid2.coords t) → cond2_1 (grid2.coords t) → cfg2.idle 8 (grid2.coords t) = false := by decide +kernel

/-! ## The memrefs the body is called with -/

/-- One staging buffer of output window 7, through which its contents are stated (the choice does not matter). -/
noncomputable abbrev VO2_7 : View sig .tc .vmem S8x128 .f32 := (Memref.whole cc2_stg7_0 : Memref sig .tc .vmem S8x128 .f32).view
/-- One staging buffer of output window 8, through which its contents are stated (the choice does not matter). -/
noncomputable abbrev VO2_8 : View sig .tc .vmem S8x128 .f32 := (Memref.whole cc2_stg8_0 : Memref sig .tc .vmem S8x128 .f32).view
/-- Each window's current staging memref at point `t`, spelled as the pipeline passes it, and its wholeness. -/
noncomputable abbrev ms2_0 (t : Fin cfg2.N) : Memref sig .tc .vmem S5000x128 .f32 := win2_0.stage (cfg2.slots t 0)
noncomputable abbrev hs2_0 (t : Fin cfg2.N) : (ms2_0 t).IsWhole := hstage2_0 ((cfg2.slots t 0).cast nbuf2_0)
noncomputable abbrev ms2_1 (t : Fin cfg2.N) : Memref sig .tc .vmem S5000x128 .f32 := win2_1.stage (cfg2.slots t 1)
noncomputable abbrev hs2_1 (t : Fin cfg2.N) : (ms2_1 t).IsWhole := hstage2_1 ((cfg2.slots t 1).cast nbuf2_1)
noncomputable abbrev ms2_2 (t : Fin cfg2.N) : Memref sig .tc .vmem S5000x1 .f32 := win2_2.stage (cfg2.slots t 2)
noncomputable abbrev hs2_2 (t : Fin cfg2.N) : (ms2_2 t).IsWhole := hstage2_2 ((cfg2.slots t 2).cast nbuf2_2)
noncomputable abbrev ms2_3 (t : Fin cfg2.N) : Memref sig .tc .vmem S128x128 .f32 := win2_3.stage (cfg2.slots t 3)
noncomputable abbrev hs2_3 (t : Fin cfg2.N) : (ms2_3 t).IsWhole := hstage2_3 ((cfg2.slots t 3).cast nbuf2_3)
noncomputable abbrev ms2_4 (t : Fin cfg2.N) : Memref sig .tc .vmem S128x128 .f32 := win2_4.stage (cfg2.slots t 4)
noncomputable abbrev hs2_4 (t : Fin cfg2.N) : (ms2_4 t).IsWhole := hstage2_4 ((cfg2.slots t 4).cast nbuf2_4)
noncomputable abbrev ms2_5 (t : Fin cfg2.N) : Memref sig .tc .vmem S1x128 .f32 := win2_5.stage (cfg2.slots t 5)
noncomputable abbrev hs2_5 (t : Fin cfg2.N) : (ms2_5 t).IsWhole := hstage2_5 ((cfg2.slots t 5).cast nbuf2_5)
noncomputable abbrev ms2_6 (t : Fin cfg2.N) : Memref sig .tc .vmem S1x128 .f32 := win2_6.stage (cfg2.slots t 6)
noncomputable abbrev hs2_6 (t : Fin cfg2.N) : (ms2_6 t).IsWhole := hstage2_6 ((cfg2.slots t 6).cast nbuf2_6)
noncomputable abbrev ms2_7 (t : Fin cfg2.N) : Memref sig .tc .vmem S8x128 .f32 := win2_7.stage (cfg2.slots t 7)
noncomputable abbrev hs2_7 (t : Fin cfg2.N) : (ms2_7 t).IsWhole := hstage2_7 ((cfg2.slots t 7).cast nbuf2_7)
noncomputable abbrev ms2_8 (t : Fin cfg2.N) : Memref sig .tc .vmem S8x128 .f32 := win2_8.stage (cfg2.slots t 8)
noncomputable abbrev hs2_8 (t : Fin cfg2.N) : (ms2_8 t).IsWhole := hstage2_8 ((cfg2.slots t 8).cast nbuf2_8)
/-- The two accumulator rows: whole scoped buffers of the kernel's own, passed beside the windows. -/
noncomputable abbrev scM2_0 : Memref sig .tc .vmem S1x128 .f32 := Memref.whole cc2_scratch0
noncomputable abbrev scM2_1 : Memref sig .tc .vmem S1x128 .f32 := Memref.whole cc2_scratch1
/-- Accumulator 0 as a view: what it holds is stated through it. -/
noncomputable abbrev VS2_0 : View sig .tc .vmem S1x128 .f32 := scM2_0.view
/-- Accumulator 1 as a view: what it holds is stated through it. -/
noncomputable abbrev VS2_1 : View sig .tc .vmem S1x128 .f32 := scM2_1.view

/-- The region's invariant with the two accumulators as memrefs owned at some contents; every other scoped buffer stays
    unopened beside them. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

-- (the run's proof term is large: the definition's epilogue walks it past the default budget)
set_option maxHeartbeats 1000000 in
/-- THE BODY IN CASE A: the first tile of a core (the accumulators are reset, the outputs are not stored); points 0, 10. What the body's stores leave in the
    two accumulators, as pieces (last first), WITH the proof that on whole memrefs — the inputs' at their contents
    `x·`, the outputs' at contents `xi·` handed back untouched, the accumulators at anything — the body runs to the
    continuation holding the inputs' as they were and each accumulator with its pieces written. The pieces are
    found by running the body. -/
noncomputable def kernelRun2_A (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc2_stats_kernel i arg2 harg2 arg3 harg3 arg4 harg4 arg5 harg5 arg6 harg6 arg7 harg7 arg8 harg8 arg9 harg9 arg10 harg10 arg11 harg11 arg12 harg12) K } :=
  kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6

-- (the run's proof term is large: the definition's epilogue walks it past the default budget)
set_option maxHeartbeats 1000000 in
/-- THE BODY IN CASE B: a middle tile of a core (the accumulators are not reset, the outputs are not stored); the other points. What the body's stores leave in the
    two accumulators, as pieces (last first), WITH the proof that on whole memrefs — the inputs' at their contents
    `x·`, the outputs' at contents `xi·` handed back untouched, the accumulators at what the point before left (`xs·`) — the body runs to the
    continuation holding the inputs' as they were and each accumulator with its pieces written. The pieces are
    found by running the body. -/
noncomputable def kernelRun2_B (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc2_stats_kernel i arg2 harg2 arg3 harg3 arg4 harg4 arg5 harg5 arg6 harg6 arg7 harg7 arg8 harg8 arg9 harg9 arg10 harg10 arg11 harg11 arg12 harg12) K } :=
  kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1

-- (the run's proof term is large: the definition's epilogue walks it past the default budget)
set_option maxHeartbeats 1000000 in
/-- THE BODY IN CASE C: the last tile of a core (the accumulators are not reset, the outputs are stored); points 9, 19. What the body's stores leave in the
    two outputs' staging memrefs and the two accumulators, as pieces (last first), WITH the proof that on whole memrefs — the inputs' at their contents
    `x·`, the outputs' at anything, the accumulators at what the point before left (`xs·`) — the body runs to the
    continuation holding the inputs' as they were, each output's buffer with its pieces written and each accumulator with its pieces written. The pieces are
    found by running the body. -/
noncomputable def kernelRun2_C (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc2_stats_kernel i arg2 harg2 arg3 harg3 arg4 harg4 arg5 harg5 arg6 harg6 arg7 harg7 arg8 harg8 arg9 harg9 arg10 harg10 arg11 harg11 arg12 harg12) K } :=
  kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1

/-! ## Case A (the first tile of a core): what the body leaves -/

/-- Case A stores nothing into output 7 (the window is idle at its points and not written back there): no pieces —
    a placeholder (junk read back) that nothing consults. -/
noncomputable def out2_A_7 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S8x128 .f32 :=
  VO2_7.read (Elt F) (VO2_7.writes (Elt F) VO2_7.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6).1)

/-- Case A stores nothing into output 8 (the window is idle at its points and not written back there): no pieces —
    a placeholder (junk read back) that nothing consults. -/
noncomputable def out2_A_8 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S8x128 .f32 :=
  VO2_8.read (Elt F) (VO2_8.writes (Elt F) VO2_8.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6).2.1)

/-- Case A's pieces for accumulator 0 cover it (each store is of the whole row). -/
theorem scover2_A_0 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (y : S1x128.Idx) :
    ∃ pc ∈ (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1 S1x128.size (by sl_kernel_rfl) y

/-- What case A leaves in accumulator 0: its pieces read back over junk. -/
noncomputable def sout2_A_0 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S1x128 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1)

/-- Case A's pieces for accumulator 1 cover it (each store is of the whole row). -/
theorem scover2_A_1 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (y : S1x128.Idx) :
    ∃ pc ∈ (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1 S1x128.size (by sl_kernel_rfl) y

/-- What case A leaves in accumulator 1: its pieces read back over junk. -/
noncomputable def sout2_A_1 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S1x128 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1)

/-! ## Case B (a middle tile of a core): what the body leaves -/

/-- Case B stores nothing into output 7 (the window is idle at its points and not written back there): no pieces —
    a placeholder (junk read back) that nothing consults. -/
noncomputable def out2_B_7 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO2_7.read (Elt F) (VO2_7.writes (Elt F) VO2_7.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- Case B stores nothing into output 8 (the window is idle at its points and not written back there): no pieces —
    a placeholder (junk read back) that nothing consults. -/
noncomputable def out2_B_8 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO2_8.read (Elt F) (VO2_8.writes (Elt F) VO2_8.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- Case B's pieces for accumulator 0 cover it (each store is of the whole row). -/
theorem scover2_B_0 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What case B leaves in accumulator 0: its pieces read back over junk. -/
noncomputable def sout2_B_0 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- Case B's pieces for accumulator 1 cover it (each store is of the whole row). -/
theorem scover2_B_1 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What case B leaves in accumulator 1: its pieces read back over junk. -/
noncomputable def sout2_B_1 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-! ## Case C (the last tile of a core): what the body leaves -/

/-- Case C's pieces for output 7 tile its block (one store of the whole 8 × 128 block), so they cover it. -/
theorem cover2_C_7 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S8x128.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S8x128.size (by sl_kernel_rfl) y

/-- What case C leaves in output 7's staging buffer: its pieces read back over junk. -/
noncomputable def out2_C_7 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO2_7.read (Elt F) (VO2_7.writes (Elt F) VO2_7.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- Case C's pieces for output 8 tile its block (one store of the whole 8 × 128 block), so they cover it. -/
theorem cover2_C_8 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S8x128.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S8x128.size (by sl_kernel_rfl) y

/-- What case C leaves in output 8's staging buffer: its pieces read back over junk. -/
noncomputable def out2_C_8 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO2_8.read (Elt F) (VO2_8.writes (Elt F) VO2_8.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- Case C's pieces for accumulator 0 cover it (each store is of the whole row). -/
theorem scover2_C_0 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What case C leaves in accumulator 0: its pieces read back over junk. -/
noncomputable def sout2_C_0 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- Case C's pieces for accumulator 1 cover it (each store is of the whole row). -/
theorem scover2_C_1 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What case C leaves in accumulator 1: its pieces read back over junk. -/
noncomputable def sout2_C_1 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS2_1.read (Elt F) (VS2_1.writes (Elt F) VS2_1.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-! ## What the outputs and the accumulators hold after each point -/

/-- THE ACCUMULATION. What the two outputs' staging buffers and the two accumulators hold after the body at position
    `n` (a tuple: output 7, output 8, accumulator 0, accumulator 1): the case the closed forms select at `n`, run at
    the point's memrefs and input blocks, the accumulators at what this leaves at `n - 1` where the case does not reset
    them. An assignment of the conditions no point meets is no case. -/
noncomputable def outsAt2 (c : Dev nD) : (n : ℕ) → n < cfg2.N → Vec F S8x128 .f32 × Vec F S8x128 .f32 × Vec F S1x128 .f32 × Vec F S1x128 .f32
  | 0, hn => (out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))
  | n + 1, hn =>
    if h0 : (n + 1) % 10 = 0 then
      if h1 : (n + 1) % 10 = 9 then
        False.elim (by omega)
      else
        (out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩))
    else
      if h1 : (n + 1) % 10 = 9 then
        (out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.1 (outsAt2 c n (Nat.lt_of_succ_lt hn)).2.2.2, out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.1 (outsAt2 c n (Nat.lt_of_succ_lt hn)).2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.1 (outsAt2 c n (Nat.lt_of_succ_lt hn)).2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.1 (outsAt2 c n (Nat.lt_of_succ_lt hn)).2.2.2)
      else
        (out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.1 (outsAt2 c n (Nat.lt_of_succ_lt hn)).2.2.2, out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.1 (outsAt2 c n (Nat.lt_of_succ_lt hn)).2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.1 (outsAt2 c n (Nat.lt_of_succ_lt hn)).2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.1 (outsAt2 c n (Nat.lt_of_succ_lt hn)).2.2.2)

/-- `outsAt2` at a first tile: that case's contents. -/
theorem outsAt2_A (c : Dev nD) (t : Fin cfg2.N) (h0 : t.val % 10 = 0) (h1 : ¬t.val % 10 = 9) :
    outsAt2 V c t.val t.isLt = (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact (dif_pos h0).trans ((dif_neg h1).trans rfl)

/-- `outsAt2` at a middle tile: that case's contents, over what the point before left. -/
theorem outsAt2_B (c : Dev nD) (t : Fin cfg2.N) (h0 : ¬t.val % 10 = 0) (h1 : ¬t.val % 10 = 9) :
    outsAt2 V c t.val t.isLt = (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2, out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a last tile: that case's contents, over what the point before left. -/
theorem outsAt2_C (c : Dev nD) (t : Fin cfg2.N) (h0 : ¬t.val % 10 = 0) (h1 : t.val % 10 = 9) :
    outsAt2 V c t.val t.isLt = (out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2, out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer that is no
    staging buffer at anything, the generator register at some state); afterwards the same with the two accumulators at
    what the point before left in them (`outsAt2`'s last two components). -/
noncomputable def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulators at that point's contents. -/
theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2))
      ∗ Pipeline.scopedRestBut (Ix := Unit) (Name := ℕ) (U := UR sig nD τ) (Lvl := ℕ) (Val := Elt F) spec2 c [cc2_scratch0, cc2_scratch1]) ∗ (∃ r, prngReg c r)) := rfl

/-- Before a point that is not the first: the accumulators at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the outputs' at `outsAt2`'s first two components; the invariant `PhiS2`;
    nothing owed; full shares. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
    | ⟨8, _⟩ => (outsAt2 V c t.val t.isLt).2.1
  Φ t := PhiS2 V c t.val (Nat.le_of_lt_succ t.isLt)
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]
theorem after2_8 (c : Dev nD) (t : Fin cfg2.N) : (dat2 V c).after 8 t = (outsAt2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t` (the windows one by one), -/
noncomputable def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
noncomputable def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body at any point: the inputs' memrefs hold their blocks; the closed forms say which case the point is in; so that
    case's run applies. The invariant hands the body the two accumulators at what the point before left (at anything at
    the first point) and takes them back at this point's contents; the other scoped buffers, the generator register and
    what the core owes pass through untouched. At a first or middle tile the outputs' buffers are handed back as found;
    at a last tile they are returned at the stored blocks. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  by_cases h0 : t.val % 10 = 0
  · by_cases h1 : t.val % 10 = 9
    · exfalso; omega
    · -- a first tile
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [Dat.leavesExact_idle (dat2 V c) 7 t (idleAt2_7_A t ((hcond2_0 t).mpr h0) (fun h => h1 ((hcond2_1 t).mp h))) (noFlush2_7_A t ((hcond2_0 t).mpr h0) (fun h => h1 ((hcond2_1 t).mp h)))]
      rw [Dat.leavesExact_idle (dat2 V c) 8 t (idleAt2_8_A t ((hcond2_0 t).mpr h0) (fun h => h1 ((hcond2_1 t).mp h))) (noFlush2_8_A t ((hcond2_0 t).mpr h0) (fun h => h1 ((hcond2_1 t).mp h)))]
      rw [outsAt2_A V c t h0 h1]
      unfold sout2_A_0 sout2_A_1; (try dsimp only)
      by_cases hz : t.val = 0
      ·
        rw [PhiS2_castSucc V c t, PhiS2_zero V c _ _ hz, PhiA2_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover2_A_1 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
      ·
        rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexists _; iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover2_A_1 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
  · by_cases h1 : t.val % 10 = 9
    · -- a last tile
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7_C t (fun h => h0 ((hcond2_0 t).mp h)) ((hcond2_1 t).mpr h1)], after2_7]
      rw [show (dat2 V c).leavesExact 8 t = owns (c : Thread nD τ) (ms2_8 t) fullShare ((dat2 V c).after 8 t) from by
        unfold Dat.leavesExact; rw [liveAt2_8_C t (fun h => h0 ((hcond2_0 t).mp h)) ((hcond2_1 t).mpr h1)], after2_8]
      rw [outsAt2_C V c t h0 h1]
      unfold out2_C_7 out2_C_8 sout2_C_0 sout2_C_1; (try dsimp only)
      by_cases hz : t.val = 0
      · exfalso; omega
      ·
        rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        iintro ⟨H0, H1, H2, H3, H4, H5, H6, ⟨%e7, H7⟩, ⟨%e8, H8⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_C_0 c _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover2_C_7 c _ _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover2_C_8 c _ _ _ _ _ _ _ _ _ _ _ _ _ _ _ _ _ _ _ _ _ _ _ _ _ _ _ _ _ _ _ _ _ _)
    · -- a middle tile
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [Dat.leavesExact_idle (dat2 V c) 7 t (idleAt2_7_B t (fun h => h0 ((hcond2_0 t).mp h)) (fun h => h1 ((hcond2_1 t).mp h))) (noFlush2_7_B t (fun h => h0 ((hcond2_0 t).mp h)) (fun h => h1 ((hcond2_1 t).mp h)))]
      rw [Dat.leavesExact_idle (dat2 V c) 8 t (idleAt2_8_B t (fun h => h0 ((hcond2_0 t).mp h)) (fun h => h1 ((hcond2_1 t).mp h))) (noFlush2_8_B t (fun h => h0 ((hcond2_0 t).mp h)) (fun h => h1 ((hcond2_1 t).mp h)))]
      rw [outsAt2_B V c t h0 h1]
      unfold sout2_B_0 sout2_B_1; (try dsimp only)
      by_cases hz : t.val = 0
      · exfalso; omega
      ·
        rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_B_0 c _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 20 := N_2; omega)

end Cert.Kernel.Gen

end
-- ==== Proof.K.Norm3.lean ====
/-
  Region 1 of @main: the normalize kernel of the first layer (custom_call 1, `cc3_normalize_recompute_kernel`), its
  kernel half at a PARAMETER `V`, the TensorCore's buffer contents when the region is entered.

  The grid has 20 points and the kernel 12 windows. Windows 0–2 are tiles of 5000 rows of the node features `h`, of the
  aggregated neighbour features and of the inverse degrees, the tile's index the point; windows 3–10 are whole arrays
  (two 128×128 weight matrices, then bias, PReLU slope, mean, variance, gamma, beta: one row of 128 each), the same
  block at every point; window 11 is the output, a tile of 5000 rows written back at every point, its index the point.

  At a point the body loads every input window's staging buffer whole, loads the output's buffer once (the value is
  not used) and stores ONE value over the whole output buffer:
      y  = PReLU(bf16(h)·bf16(W_self) + bf16(agg·invdeg)·bf16(W_neigh) + bias)      (`k3_pay2`)
      out = (y − mean) · rsqrt(var + ε) · gamma + beta                                (`k3_pay1` over `k3_pay3`, `k3_pay4`)
  So what the body leaves in the output buffer is a closed function `out3_11` of the eleven input blocks at the point,
  and every input buffer is left as found. This module states that as the body's triple (`sound_kernel3`), packages it
  as the pipeline's proof data (`dat3`: the arrays as `V` has them; after the body each input's buffer at its block
  and the output's at `out3_11` of the input blocks) and proves the library's body obligation for it
  (`body_obligation3`). The load of the output buffer reads a buffer the body owns at SOME contents, which is all a
  load needs; nothing depends on what it read.
-/
import proofs.«129379_j32899449487582_2_alg».proof.Proof.K.Norm1
import proofs.«129379_j32899449487582_2_alg».proof.Proof.Gen.Kernel.Launch
import proofs.«129379_j32899449487582_2_alg».proof.Proof.Gen.Kernel.Skeleton
import proofs.«129379_j32899449487582_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of 5000 × 128 (`View.cover_of_tiled`): the elaborator's structural look recurses once per
-- coordinate of the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): unfetched, the block index
    has not moved (`Dat.before_in_eq_fetched`), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for ANY proof
    data whose array is `V`'s (`hA`) and whose body leaves the block in place (`hafter`): unfetched, the block index
    has not moved (`Dat.before_in_eq_fetched`), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for ANY proof
    data whose array is `V`'s (`hA`) and whose body leaves the block in place (`hafter`): unfetched, the block index
    has not moved (`Dat.before_in_eq_fetched`), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for ANY proof
    data whose array is `V`'s (`hA`) and whose body leaves the block in place (`hafter`): unfetched, the block index
    has not moved (`Dat.before_in_eq_fetched`), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for ANY proof
    data whose array is `V`'s (`hA`) and whose body leaves the block in place (`hafter`): unfetched, the block index
    has not moved (`Dat.before_in_eq_fetched`), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for ANY proof
    data whose array is `V`'s (`hA`) and whose body leaves the block in place (`hafter`): unfetched, the block index
    has not moved (`Dat.before_in_eq_fetched`), the window uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for ANY proof
    data whose array is `V`'s (`hA`) and whose body leaves the block in place (`hafter`): unfetched, the block index
    has not moved (`Dat.before_in_eq_fetched`), the window uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not, for ANY proof
    data whose array is `V`'s (`hA`) and whose body leaves the block in place (`hafter`): unfetched, the block index
    has not moved (`Dat.before_in_eq_fetched`), the window uncut and never idle. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not, for ANY proof
    data whose array is `V`'s (`hA`) and whose body leaves the block in place (`hafter`): unfetched, the block index
    has not moved (`Dat.before_in_eq_fetched`), the window uncut and never idle. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's current staging buffer holds its block at every point, fetched there or not, for ANY proof
    data whose array is `V`'s (`hA`) and whose body leaves the block in place (`hafter`): unfetched, the block index
    has not moved (`Dat.before_in_eq_fetched`), the window uncut and never idle. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- Input window 10's current staging buffer holds its block at every point, fetched there or not, for ANY proof
    data whose array is `V`'s (`hA`) and whose body leaves the block in place (`hafter`): unfetched, the block index
    has not moved (`Dat.before_in_eq_fetched`), the window uncut and never idle. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

noncomputable abbrev r3_0 : Rect S5000x128 := Rect.unit (s := S5000x128) ![0, 0] S5000x128.size inb_S5000x128_S5000x128_0_0
noncomputable abbrev r3_1 : Rect S5000x1 := Rect.unit (s := S5000x1) ![0, 0] S5000x1.size inb_S5000x1_S5000x1_0_0
noncomputable abbrev r3_2 : Rect S128x128 := Rect.unit (s := S128x128) ![0, 0] S128x128.size inb_S128x128_S128x128_0_0
noncomputable abbrev r3_3 : Rect S1x128 := Rect.unit (s := S1x128) ![0, 0] S1x128.size inb_S1x128_S1x128_0_0

/-! ## What the body leaves in the output window's buffer -/

/-- Window 11's staging buffer after the body, from the input windows' blocks: its 1 store as a piece
    (`View.canon`; the payloads are the skeleton's). The variance `x8` goes through `k3_pay3` (the reciprocal
    square root) and the mean `x7` through `k3_pay4`: the body loads the variance's window before the mean's. -/
noncomputable def out3_11 (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) : Vec F S5000x128 .f32 :=
  View.canon [⟨r3_0, k3_pay1 (k3_pay2 (View.ld x0 r3_0) (View.ld x1 r3_0) (View.ld x2 r3_1) (View.ld x3 r3_2) (View.ld x4 r3_2) (View.ld x5 r3_3) (View.ld x6 r3_3)) (k3_pay3 (View.ld x8 r3_3)) (k3_pay4 (View.ld x7 r3_3)) (View.ld x9 r3_3) (View.ld x10 r3_3)⟩]

/-- Its store tiles the buffer (checked by evaluation), so it covers it. -/
theorem cover3_11 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at read contents `xW` and the output's at anything, runs to
    the continuation holding the inputs' as they were and the output's at `out3_11` of the inputs': the printed
    functions are their skeletons, which the executor runs, through the part call. The load of the output's buffer
    steps like any load of an owned buffer; its value is dropped. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out3_11 x0 x1 x2 x3 x4 x5 x6 x7 x8 x9 x10)) -∗ K ⟨⟩))
      ⊢ wp frame (wpE (defs₀ (F := F)) Variants.none c none) E (cc3_normalize_recompute_kernel i arg1 harg1 arg2 harg2 arg3 harg3 arg4 harg4 arg5 harg5 arg6 harg6 arg7 harg7 arg8 harg8 arg9 harg9 arg10 harg10 arg11 harg11 arg12 harg12) K :=
  sound_kernel1 c E i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 K

/-! ## The pipeline's proof data -/

/-- The proof data of pipeline 1 on core `c`: the arrays as the region finds them (`V`); after the body at
    point `t` each input's buffer at its block and the output's at `out3_11` of the input blocks; the invariant the
    scoped rest and the generator register, untouched (`Pipeline.ΦA`); nothing owed; full shares. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.ΦA spec3 c
  q _ := fullShare
  owed _ := 0

/-- The proof data's arrays are the region-entry contents (the proof data's definition projected, by `dsimp`). -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

/-- Each input's current staging buffer holds its block at every point, fetched there or not (`before3_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

/-! ## The body obligation, at a generic point -/

/-- What the body is called with at point `t` (the body obligation's precondition, the windows one by one), -/
noncomputable def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

/-- and what it returns. -/
noncomputable def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Gen

end
-- ==== Proof.K.Stats4.lean ====
/- The first layer's statistics kernel, as the pipeline runs it on one core: a grid of 2 × 10 points, each point
   one tile of 5000 rows. At every point the body computes the tile's activations
   y = prelu (bf16 h · bf16 W_self + bf16 (raw_agg · invdeg) · bf16 W_neigh + bias), adds the column sums of y to a
   first accumulator row and the column sums of y · y to a second accumulator row; the two accumulator rows live in
   scratch buffers that keep their contents from one point to the next. At the first tile of a core (point ≡ 0 mod 10)
   both accumulators are first reset to zero; at the last tile of a core (point ≡ 9 mod 10) each accumulator row,
   repeated over 8 rows, is stored into the core's block of one of the two outputs, which is then written back.

   This module states and proves, for the contents V of the buffers when the region is entered: the body's triple in
   each of the three control cases (first / middle / last tile of a core), what the two outputs' buffers and the two
   accumulators hold after each point (by recursion on the point), the pipeline's proof data over these, and the
   body obligation at every point. -/
import proofs.«129379_j32899449487582_2_alg».proof.Proof.K.Stats0
import proofs.«129379_j32899449487582_2_alg».proof.Proof.Gen.Kernel.Launch
import proofs.«129379_j32899449487582_2_alg».proof.Proof.Gen.Kernel.Skeleton
import proofs.«129379_j32899449487582_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (an input that is
    not fetched at a point has the block index of the point before), for any proof data whose array is `V`'s and whose
    body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (an input that is
    not fetched at a point has the block index of the point before), for any proof data whose array is `V`'s and whose
    body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (an input that is
    not fetched at a point has the block index of the point before), for any proof data whose array is `V`'s and whose
    body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (an input that is
    not fetched at a point has the block index of the point before), for any proof data whose array is `V`'s and whose
    body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not (an input that is
    not fetched at a point has the block index of the point before), for any proof data whose array is `V`'s and whose
    body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not (an input that is
    not fetched at a point has the block index of the point before), for any proof data whose array is `V`'s and whose
    body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not (an input that is
    not fetched at a point has the block index of the point before), for any proof data whose array is `V`'s and whose
    body leaves the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first `scf.if` (reset the accumulators), from the grid coordinates. -/
noncomputable abbrev cond4_0 (i : grid4.Coords) : Prop := (Scalar.cmpi .ne (Scalar.extui (Scalar.cmpi .eq (BitVec.ofNat 32 (i 1).val) 0#32)) 0#32) = 1#1
/-- It holds at the points ≡ 0 (mod 10): the first tile of each core — decided over the grid. -/
theorem hcond4_0 : ∀ t : Fin cfg4.N, cond4_0 (grid4.coords t) ↔ t.val % 10 = 0 :=
  (by decide +kernel : ∀ t : Fin grid4.N, cond4_0 (grid4.coords t) ↔ t.val % 10 = 0)

/-- The condition of the body's second `scf.if` (store the accumulators into the outputs), from the grid coordinates. -/
noncomputable abbrev cond4_1 (i : grid4.Coords) : Prop := k4_cond2 i = 1#1
/-- It holds at the points ≡ 9 (mod 10): the last tile of each core — decided over the grid. -/
theorem hcond4_1 : ∀ t : Fin cfg4.N, cond4_1 (grid4.coords t) ↔ t.val % 10 = 9 :=
  (by decide +kernel : ∀ t : Fin grid4.N, cond4_1 (grid4.coords t) ↔ t.val % 10 = 9)

/-! ## Where the windows are idle -/

/-- Window 0 is never idle (an input). -/
theorem liveAt4_0 : ∀ t : Fin cfg4.N, cfg4.idle 0 (grid4.coords t) = false := by decide +kernel
/-- Window 1 is never idle (an input). -/
theorem liveAt4_1 : ∀ t : Fin cfg4.N, cfg4.idle 1 (grid4.coords t) = false := by decide +kernel
/-- Window 2 is never idle (an input). -/
theorem liveAt4_2 : ∀ t : Fin cfg4.N, cfg4.idle 2 (grid4.coords t) = false := by decide +kernel
/-- Window 3 is never idle (an input). -/
theorem liveAt4_3 : ∀ t : Fin cfg4.N, cfg4.idle 3 (grid4.coords t) = false := by decide +kernel
/-- Window 4 is never idle (an input). -/
theorem liveAt4_4 : ∀ t : Fin cfg4.N, cfg4.idle 4 (grid4.coords t) = false := by decide +kernel
/-- Window 5 is never idle (an input). -/
theorem liveAt4_5 : ∀ t : Fin cfg4.N, cfg4.idle 5 (grid4.coords t) = false := by decide +kernel
/-- Window 6 is never idle (an input). -/
theorem liveAt4_6 : ∀ t : Fin cfg4.N, cfg4.idle 6 (grid4.coords t) = false := by decide +kernel
/-- At a first tile output 7 is idle: nothing is stored into it, -/
theorem idleAt4_7_A : ∀ t : Fin cfg4.N, cond4_0 (grid4.coords t) → ¬cond4_1 (grid4.coords t) → cfg4.idle 7 (grid4.coords t) = true := by decide +kernel
/-- and its block is not written back. -/
theorem noFlush4_7_A : ∀ t : Fin cfg4.N, cond4_0 (grid4.coords t) → ¬cond4_1 (grid4.coords t) → (cfg4.win 7).flush t = false := by decide +kernel
/-- At a middle tile output 7 is idle: nothing is stored into it, -/
theorem idleAt4_7_B : ∀ t : Fin cfg4.N, ¬cond4_0 (grid4.coords t) → ¬cond4_1 (grid4.coords t) → cfg4.idle 7 (grid4.coords t) = true := by decide +kernel
/-- and its block is not written back. -/
theorem noFlush4_7_B : ∀ t : Fin cfg4.N, ¬cond4_0 (grid4.coords t) → ¬cond4_1 (grid4.coords t) → (cfg4.win 7).flush t = false := by decide +kernel
/-- At a last tile output 7 is live: the body stores its whole block. -/
theorem liveAt4_7_C : ∀ t : Fin cfg4.N, ¬cond4_0 (grid4.coords t) → cond4_1 (grid4.coords t) → cfg4.idle 7 (grid4.coords t) = false := by decide +kernel
/-- At a first tile output 8 is idle: nothing is stored into it, -/
theorem idleAt4_8_A : ∀ t : Fin cfg4.N, cond4_0 (grid4.coords t) → ¬cond4_1 (grid4.coords t) → cfg4.idle 8 (grid4.coords t) = true := by decide +kernel
/-- and its block is not written back. -/
theorem noFlush4_8_A : ∀ t : Fin cfg4.N, cond4_0 (grid4.coords t) → ¬cond4_1 (grid4.coords t) → (cfg4.win 8).flush t = false := by decide +kernel
/-- At a middle tile output 8 is idle: nothing is stored into it, -/
theorem idleAt4_8_B : ∀ t : Fin cfg4.N, ¬cond4_0 (grid4.coords t) → ¬cond4_1 (grid4.coords t) → cfg4.idle 8 (grid4.coords t) = true := by decide +kernel
/-- and its block is not written back. -/
theorem noFlush4_8_B : ∀ t : Fin cfg4.N, ¬cond4_0 (grid4.coords t) → ¬cond4_1 (grid4.coords t) → (cfg4.win 8).flush t = false := by decide +kernel
/-- At a last tile output 8 is live: the body stores its whole block. -/
theorem liveAt4_8_C : ∀ t : Fin cfg4.N, ¬cond4_0 (grid4.coords t) → cond4_1 (grid4.coords t) → cfg4.idle 8 (grid4.coords t) = false := by decide +kernel

/-! ## The memrefs the body is called with -/

/-- One staging buffer of output window 7, through which its contents are stated (the choice does not matter). -/
noncomputable abbrev VO4_7 : View sig .tc .vmem S8x128 .f32 := (Memref.whole cc4_stg7_0 : Memref sig .tc .vmem S8x128 .f32).view
/-- One staging buffer of output window 8, through which its contents are stated (the choice does not matter). -/
noncomputable abbrev VO4_8 : View sig .tc .vmem S8x128 .f32 := (Memref.whole cc4_stg8_0 : Memref sig .tc .vmem S8x128 .f32).view
/-- Each window's current staging memref at point `t`, spelled as the pipeline passes it, and its wholeness. -/
noncomputable abbrev ms4_0 (t : Fin cfg4.N) : Memref sig .tc .vmem S5000x128 .f32 := win4_0.stage (cfg4.slots t 0)
noncomputable abbrev hs4_0 (t : Fin cfg4.N) : (ms4_0 t).IsWhole := hstage4_0 ((cfg4.slots t 0).cast nbuf4_0)
noncomputable abbrev ms4_1 (t : Fin cfg4.N) : Memref sig .tc .vmem S5000x128 .f32 := win4_1.stage (cfg4.slots t 1)
noncomputable abbrev hs4_1 (t : Fin cfg4.N) : (ms4_1 t).IsWhole := hstage4_1 ((cfg4.slots t 1).cast nbuf4_1)
noncomputable abbrev ms4_2 (t : Fin cfg4.N) : Memref sig .tc .vmem S5000x1 .f32 := win4_2.stage (cfg4.slots t 2)
noncomputable abbrev hs4_2 (t : Fin cfg4.N) : (ms4_2 t).IsWhole := hstage4_2 ((cfg4.slots t 2).cast nbuf4_2)
noncomputable abbrev ms4_3 (t : Fin cfg4.N) : Memref sig .tc .vmem S128x128 .f32 := win4_3.stage (cfg4.slots t 3)
noncomputable abbrev hs4_3 (t : Fin cfg4.N) : (ms4_3 t).IsWhole := hstage4_3 ((cfg4.slots t 3).cast nbuf4_3)
noncomputable abbrev ms4_4 (t : Fin cfg4.N) : Memref sig .tc .vmem S128x128 .f32 := win4_4.stage (cfg4.slots t 4)
noncomputable abbrev hs4_4 (t : Fin cfg4.N) : (ms4_4 t).IsWhole := hstage4_4 ((cfg4.slots t 4).cast nbuf4_4)
noncomputable abbrev ms4_5 (t : Fin cfg4.N) : Memref sig .tc .vmem S1x128 .f32 := win4_5.stage (cfg4.slots t 5)
noncomputable abbrev hs4_5 (t : Fin cfg4.N) : (ms4_5 t).IsWhole := hstage4_5 ((cfg4.slots t 5).cast nbuf4_5)
noncomputable abbrev ms4_6 (t : Fin cfg4.N) : Memref sig .tc .vmem S1x128 .f32 := win4_6.stage (cfg4.slots t 6)
noncomputable abbrev hs4_6 (t : Fin cfg4.N) : (ms4_6 t).IsWhole := hstage4_6 ((cfg4.slots t 6).cast nbuf4_6)
noncomputable abbrev ms4_7 (t : Fin cfg4.N) : Memref sig .tc .vmem S8x128 .f32 := win4_7.stage (cfg4.slots t 7)
noncomputable abbrev hs4_7 (t : Fin cfg4.N) : (ms4_7 t).IsWhole := hstage4_7 ((cfg4.slots t 7).cast nbuf4_7)
noncomputable abbrev ms4_8 (t : Fin cfg4.N) : Memref sig .tc .vmem S8x128 .f32 := win4_8.stage (cfg4.slots t 8)
noncomputable abbrev hs4_8 (t : Fin cfg4.N) : (ms4_8 t).IsWhole := hstage4_8 ((cfg4.slots t 8).cast nbuf4_8)
/-- The two accumulator rows: whole scoped buffers of the kernel's own, passed beside the windows. -/
noncomputable abbrev scM4_0 : Memref sig .tc .vmem S1x128 .f32 := Memref.whole cc4_scratch0
noncomputable abbrev scM4_1 : Memref sig .tc .vmem S1x128 .f32 := Memref.whole cc4_scratch1
/-- Accumulator 0 as a view: what it holds is stated through it. -/
noncomputable abbrev VS4_0 : View sig .tc .vmem S1x128 .f32 := scM4_0.view
/-- Accumulator 1 as a view: what it holds is stated through it. -/
noncomputable abbrev VS4_1 : View sig .tc .vmem S1x128 .f32 := scM4_1.view

/-- The region's invariant with the two accumulators as memrefs owned at some contents; every other scoped buffer stays
    unopened beside them. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

-- (the run's proof term is large: the definition's epilogue walks it past the default budget)
set_option maxHeartbeats 1000000 in
/-- THE BODY IN CASE A: the first tile of a core (the accumulators are reset, the outputs are not stored); points 0, 10. What the body's stores leave in the
    two accumulators, as pieces (last first), WITH the proof that on whole memrefs — the inputs' at their contents
    `x·`, the outputs' at contents `xi·` handed back untouched, the accumulators at anything — the body runs to the
    continuation holding the inputs' as they were and each accumulator with its pieces written. The pieces are
    found by running the body. -/
noncomputable def kernelRun4_A (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc4_stats_kernel i arg2 harg2 arg3 harg3 arg4 harg4 arg5 harg5 arg6 harg6 arg7 harg7 arg8 harg8 arg9 harg9 arg10 harg10 arg11 harg11 arg12 harg12) K } :=
  kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6

-- (the run's proof term is large: the definition's epilogue walks it past the default budget)
set_option maxHeartbeats 1000000 in
/-- THE BODY IN CASE B: a middle tile of a core (the accumulators are not reset, the outputs are not stored); the other points. What the body's stores leave in the
    two accumulators, as pieces (last first), WITH the proof that on whole memrefs — the inputs' at their contents
    `x·`, the outputs' at contents `xi·` handed back untouched, the accumulators at what the point before left (`xs·`) — the body runs to the
    continuation holding the inputs' as they were and each accumulator with its pieces written. The pieces are
    found by running the body. -/
noncomputable def kernelRun4_B (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc4_stats_kernel i arg2 harg2 arg3 harg3 arg4 harg4 arg5 harg5 arg6 harg6 arg7 harg7 arg8 harg8 arg9 harg9 arg10 harg10 arg11 harg11 arg12 harg12) K } :=
  kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1

-- (the run's proof term is large: the definition's epilogue walks it past the default budget)
set_option maxHeartbeats 1000000 in
/-- THE BODY IN CASE C: the last tile of a core (the accumulators are not reset, the outputs are stored); points 9, 19. What the body's stores leave in the
    two outputs' staging memrefs and the two accumulators, as pieces (last first), WITH the proof that on whole memrefs — the inputs' at their contents
    `x·`, the outputs' at anything, the accumulators at what the point before left (`xs·`) — the body runs to the
    continuation holding the inputs' as they were, each output's buffer with its pieces written and each accumulator with its pieces written. The pieces are
    found by running the body. -/
noncomputable def kernelRun4_C (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc4_stats_kernel i arg2 harg2 arg3 harg3 arg4 harg4 arg5 harg5 arg6 harg6 arg7 harg7 arg8 harg8 arg9 harg9 arg10 harg10 arg11 harg11 arg12 harg12) K } :=
  kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1

/-! ## Case A (the first tile of a core): what the body leaves -/

/-- Case A stores nothing into output 7 (the window is idle at its points and not written back there): no pieces —
    a placeholder (junk read back) that nothing consults. -/
noncomputable def out4_A_7 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S8x128 .f32 :=
  VO4_7.read (Elt F) (VO4_7.writes (Elt F) VO4_7.junk (kernelRun4_A c i arg2 harg2 arg3 harg3 arg4 harg4 arg5 harg5 arg6 harg6 arg7 harg7 arg8 harg8 arg9 harg9 arg10 harg10 arg11 harg11 arg12 harg12 hc0 hc1 x0 x1 x2 x3 x4 x5 x6).1)

/-- Case A stores nothing into output 8 (the window is idle at its points and not written back there): no pieces —
    a placeholder (junk read back) that nothing consults. -/
noncomputable def out4_A_8 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S8x128 .f32 :=
  VO4_8.read (Elt F) (VO4_8.writes (Elt F) VO4_8.junk (kernelRun4_A c i arg2 harg2 arg3 harg3 arg4 harg4 arg5 harg5 arg6 harg6 arg7 harg7 arg8 harg8 arg9 harg9 arg10 harg10 arg11 harg11 arg12 harg12 hc0 hc1 x0 x1 x2 x3 x4 x5 x6).2.1)

/-- Case A's pieces for accumulator 0 cover it (each store is of the whole row). -/
theorem scover4_A_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (y : S1x128.Idx) :
    ∃ pc ∈ (kernelRun4_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun4_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1 S1x128.size (by sl_kernel_rfl) y

/-- What case A leaves in accumulator 0: its pieces read back over junk. -/
noncomputable def sout4_A_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S1x128 .f32 :=
  VS4_0.read (Elt F) (VS4_0.writes (Elt F) VS4_0.junk (kernelRun4_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1)

/-- Case A's pieces for accumulator 1 cover it (each store is of the whole row). -/
theorem scover4_A_1 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (y : S1x128.Idx) :
    ∃ pc ∈ (kernelRun4_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1, y ∈ pc.1.set :=
  View.cover_of_tiledL (kernelRun4_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1 S1x128.size (by sl_kernel_rfl) y

/-- What case A leaves in accumulator 1: its pieces read back over junk. -/
noncomputable def sout4_A_1 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S1x128 .f32 :=
  VS4_1.read (Elt F) (VS4_1.writes (Elt F) VS4_1.junk (kernelRun4_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1)

/-! ## Case B (a middle tile of a core): what the body leaves -/

/-- Case B stores nothing into output 7 (the window is idle at its points and not written back there): no pieces —
    a placeholder (junk read back) that nothing consults. -/
noncomputable def out4_B_7 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO4_7.read (Elt F) (VO4_7.writes (Elt F) VO4_7.junk (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- Case B stores nothing into output 8 (the window is idle at its points and not written back there): no pieces —
    a placeholder (junk read back) that nothing consults. -/
noncomputable def out4_B_8 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO4_8.read (Elt F) (VO4_8.writes (Elt F) VO4_8.junk (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- Case B's pieces for accumulator 0 cover it (each store is of the whole row). -/
theorem scover4_B_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What case B leaves in accumulator 0: its pieces read back over junk. -/
noncomputable def sout4_B_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS4_0.read (Elt F) (VS4_0.writes (Elt F) VS4_0.junk (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- Case B's pieces for accumulator 1 cover it (each store is of the whole row). -/
theorem scover4_B_1 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What case B leaves in accumulator 1: its pieces read back over junk. -/
noncomputable def sout4_B_1 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS4_1.read (Elt F) (VS4_1.writes (Elt F) VS4_1.junk (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-! ## Case C (the last tile of a core): what the body leaves -/

/-- Case C's pieces for output 7 tile its block (one store of the whole 8 × 128 block), so they cover it. -/
theorem cover4_C_7 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S8x128.Idx) :
    ∃ pc ∈ (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S8x128.size (by sl_kernel_rfl) y

/-- What case C leaves in output 7's staging buffer: its pieces read back over junk. -/
noncomputable def out4_C_7 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO4_7.read (Elt F) (VO4_7.writes (Elt F) VO4_7.junk (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- Case C's pieces for output 8 tile its block (one store of the whole 8 × 128 block), so they cover it. -/
theorem cover4_C_8 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S8x128.Idx) :
    ∃ pc ∈ (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S8x128.size (by sl_kernel_rfl) y

/-- What case C leaves in output 8's staging buffer: its pieces read back over junk. -/
noncomputable def out4_C_8 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO4_8.read (Elt F) (VO4_8.writes (Elt F) VO4_8.junk (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- Case C's pieces for accumulator 0 cover it (each store is of the whole row). -/
theorem scover4_C_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What case C leaves in accumulator 0: its pieces read back over junk. -/
noncomputable def sout4_C_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS4_0.read (Elt F) (VS4_0.writes (Elt F) VS4_0.junk (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- Case C's pieces for accumulator 1 cover it (each store is of the whole row). -/
theorem scover4_C_1 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What case C leaves in accumulator 1: its pieces read back over junk. -/
noncomputable def sout4_C_1 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS4_1.read (Elt F) (VS4_1.writes (Elt F) VS4_1.junk (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-! ## What the outputs and the accumulators hold after each point -/

/-- THE ACCUMULATION. What the two outputs' staging buffers and the two accumulators hold after the body at position
    `n` (a tuple: output 7, output 8, accumulator 0, accumulator 1): the case the closed forms select at `n`, run at
    the point's memrefs and input blocks, the accumulators at what this leaves at `n - 1` where the case does not reset
    them. An assignment of the conditions no point meets is no case. -/
noncomputable def outsAt4 (c : Dev nD) : (n : ℕ) → n < cfg4.N → Vec F S8x128 .f32 × Vec F S8x128 .f32 × Vec F S1x128 .f32 × Vec F S1x128 .f32
  | 0, hn => (out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩), out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩))
  | n + 1, hn =>
    if h0 : (n + 1) % 10 = 0 then
      if h1 : (n + 1) % 10 = 9 then
        False.elim (by omega)
      else
        (out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩), out4_A_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩))
    else
      if h1 : (n + 1) % 10 = 9 then
        (out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2.1 (outsAt4 c n (Nat.lt_of_succ_lt hn)).2.2.2, out4_C_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2.1 (outsAt4 c n (Nat.lt_of_succ_lt hn)).2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2.1 (outsAt4 c n (Nat.lt_of_succ_lt hn)).2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2.1 (outsAt4 c n (Nat.lt_of_succ_lt hn)).2.2.2)
      else
        (out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2.1 (outsAt4 c n (Nat.lt_of_succ_lt hn)).2.2.2, out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2.1 (outsAt4 c n (Nat.lt_of_succ_lt hn)).2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2.1 (outsAt4 c n (Nat.lt_of_succ_lt hn)).2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2.1 (outsAt4 c n (Nat.lt_of_succ_lt hn)).2.2.2)

/-- `outsAt4` at a first tile: that case's contents. -/
theorem outsAt4_A (c : Dev nD) (t : Fin cfg4.N) (h0 : t.val % 10 = 0) (h1 : ¬t.val % 10 = 9) :
    outsAt4 V c t.val t.isLt = (out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t), out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t)) := by
  obtain ⟨n, hn⟩ := t
  cases n with
  | zero => exact rfl
  | succ n => exact (dif_pos h0).trans ((dif_neg h1).trans rfl)

/-- `outsAt4` at a middle tile: that case's contents, over what the point before left. -/
theorem outsAt4_B (c : Dev nD) (t : Fin cfg4.N) (h0 : ¬t.val % 10 = 0) (h1 : ¬t.val % 10 = 9) :
    outsAt4 V c t.val t.isLt = (out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2, out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt4` at a last tile: that case's contents, over what the point before left. -/
theorem outsAt4_C (c : Dev nD) (t : Fin cfg4.N) (h0 : ¬t.val % 10 = 0) (h1 : t.val % 10 = 9) :
    outsAt4 V c t.val t.isLt = (out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2, out4_C_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer that is no
    staging buffer at anything, the generator register at some state); afterwards the same with the two accumulators at
    what the point before left in them (`outsAt4`'s last two components). -/
noncomputable def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.1) ∗ owns (c : Thread nD τ) scM4_1 fullShare ((outsAt4 V c n hn).2.2.2))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulators at that point's contents. -/
theorem PhiS4_succ (c : Dev nD) (n : ℕ) (hn : n < cfg4.N) :
    PhiS4 V c (n + 1) hn = iprop(iprop(iprop(owns (c : Thread nD τ) scM4_0 fullShare ((outsAt4 V c n hn).2.2.1) ∗ owns (c : Thread nD τ) scM4_1 fullShare ((outsAt4 V c n hn).2.2.2))
      ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the accumulators at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.1) ∗ owns (c : Thread nD τ) scM4_1 fullShare ((outsAt4 V c (n - 1) (by omega)).2.2.2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the outputs' at `outsAt4`'s first two components; the invariant `PhiS4`;
    nothing owed; full shares. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => (outsAt4 V c t.val t.isLt).1
    | ⟨8, _⟩ => (outsAt4 V c t.val t.isLt).2.1
  Φ t := PhiS4 V c t.val (Nat.le_of_lt_succ t.isLt)
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = (outsAt4 V c t.val t.isLt).1 := by dsimp only [dat4]
theorem after4_8 (c : Dev nD) (t : Fin cfg4.N) : (dat4 V c).after 8 t = (outsAt4 V c t.val t.isLt).2.1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t` (the windows one by one), -/
noncomputable def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
noncomputable def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4800000 in
/-- The body at any point: the inputs' memrefs hold their blocks; the closed forms say which case the point is in; so that
    case's run applies. The invariant hands the body the two accumulators at what the point before left (at anything at
    the first point) and takes them back at this point's contents; the other scoped buffers, the generator register and
    what the core owes pass through untouched. At a first or middle tile the outputs' buffers are handed back as found;
    at a last tile they are returned at the stored blocks. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  by_cases h0 : t.val % 10 = 0
  · by_cases h1 : t.val % 10 = 9
    · exfalso; omega
    · -- a first tile
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t], after4_6]
      rw [Dat.leavesExact_idle (dat4 V c) 7 t (idleAt4_7_A t ((hcond4_0 t).mpr h0) (fun h => h1 ((hcond4_1 t).mp h))) (noFlush4_7_A t ((hcond4_0 t).mpr h0) (fun h => h1 ((hcond4_1 t).mp h)))]
      rw [Dat.leavesExact_idle (dat4 V c) 8 t (idleAt4_8_A t ((hcond4_0 t).mpr h0) (fun h => h1 ((hcond4_1 t).mp h))) (noFlush4_8_A t ((hcond4_0 t).mpr h0) (fun h => h1 ((hcond4_1 t).mp h)))]
      rw [outsAt4_A V c t h0 h1]
      unfold sout4_A_0 sout4_A_1; (try dsimp only)
      by_cases hz : t.val = 0
      ·
        rw [PhiS4_castSucc V c t, PhiS4_zero V c _ _ hz, PhiA4_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_A c (grid4.coords t) _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover4_A_1 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
      ·
        rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_A c (grid4.coords t) _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexists _; iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover4_A_1 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
  · by_cases h1 : t.val % 10 = 9
    · -- a last tile
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t], after4_6]
      rw [show (dat4 V c).leavesExact 7 t = owns (c : Thread nD τ) (ms4_7 t) fullShare ((dat4 V c).after 7 t) from by
        unfold Dat.leavesExact; rw [liveAt4_7_C t (fun h => h0 ((hcond4_0 t).mp h)) ((hcond4_1 t).mpr h1)], after4_7]
      rw [show (dat4 V c).leavesExact 8 t = owns (c : Thread nD τ) (ms4_8 t) fullShare ((dat4 V c).after 8 t) from by
        unfold Dat.leavesExact; rw [liveAt4_8_C t (fun h => h0 ((hcond4_0 t).mp h)) ((hcond4_1 t).mpr h1)], after4_8]
      rw [outsAt4_C V c t h0 h1]
      unfold out4_C_7 out4_C_8 sout4_C_0 sout4_C_1; (try dsimp only)
      by_cases hz : t.val = 0
      · exfalso; omega
      ·
        rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_C c (grid4.coords t) _ _ _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        iintro ⟨H0, H1, H2, H3, H4, H5, H6, ⟨%e7, H7⟩, ⟨%e8, H8⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_C_0 c _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover4_C_1 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover4_C_7 c _ _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover4_C_8 c _ _ _ _ _ _ _ _ _ _ _ _ _ _ _ _ _ _ _ _ _ _ _ _ _ _ _ _ _ _ _ _ _ _)
    · -- a middle tile
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t], after4_6]
      rw [Dat.leavesExact_idle (dat4 V c) 7 t (idleAt4_7_B t (fun h => h0 ((hcond4_0 t).mp h)) (fun h => h1 ((hcond4_1 t).mp h))) (noFlush4_7_B t (fun h => h0 ((hcond4_0 t).mp h)) (fun h => h1 ((hcond4_1 t).mp h)))]
      rw [Dat.leavesExact_idle (dat4 V c) 8 t (idleAt4_8_B t (fun h => h0 ((hcond4_0 t).mp h)) (fun h => h1 ((hcond4_1 t).mp h))) (noFlush4_8_B t (fun h => h0 ((hcond4_0 t).mp h)) (fun h => h1 ((hcond4_1 t).mp h)))]
      rw [outsAt4_B V c t h0 h1]
      unfold sout4_B_0 sout4_B_1; (try dsimp only)
      by_cases hz : t.val = 0
      · exfalso; omega
      ·
        rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_B c (grid4.coords t) _ _ _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_B_0 c _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover4_B_1 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the launch's back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 20 := N_4; omega)

end Cert.Kernel.Gen

end
-- ==== Proof.K.Norm5.lean ====
/-
  Region 1 of @main: the normalize kernel of the first layer (custom_call 1, `cc5_normalize_recompute_kernel`), its
  kernel half at a PARAMETER `V`, the TensorCore's buffer contents when the region is entered.

  The grid has 20 points and the kernel 12 windows. Windows 0–2 are tiles of 5000 rows of the node features `h`, of the
  aggregated neighbour features and of the inverse degrees, the tile's index the point; windows 3–10 are whole arrays
  (two 128×128 weight matrices, then bias, PReLU slope, mean, variance, gamma, beta: one row of 128 each), the same
  block at every point; window 11 is the output, a tile of 5000 rows written back at every point, its index the point.

  At a point the body loads every input window's staging buffer whole, loads the output's buffer once (the value is
  not used) and stores ONE value over the whole output buffer:
      y  = PReLU(bf16(h)·bf16(W_self) + bf16(agg·invdeg)·bf16(W_neigh) + bias)      (`k5_pay2`)
      out = (y − mean) · rsqrt(var + ε) · gamma + beta                                (`k5_pay1` over `k5_pay3`, `k5_pay4`)
  So what the body leaves in the output buffer is a closed function `out5_11` of the eleven input blocks at the point,
  and every input buffer is left as found. This module states that as the body's triple (`sound_kernel5`), packages it
  as the pipeline's proof data (`dat5`: the arrays as `V` has them; after the body each input's buffer at its block
  and the output's at `out5_11` of the input blocks) and proves the library's body obligation for it
  (`body_obligation5`). The load of the output buffer reads a buffer the body owns at SOME contents, which is all a
  load needs; nothing depends on what it read.
-/
import proofs.«129379_j32899449487582_2_alg».proof.Proof.K.Norm1
import proofs.«129379_j32899449487582_2_alg».proof.Proof.Gen.Kernel.Launch
import proofs.«129379_j32899449487582_2_alg».proof.Proof.Gen.Kernel.Skeleton
import proofs.«129379_j32899449487582_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of 5000 × 128 (`View.cover_of_tiled`): the elaborator's structural look recurses once per
-- coordinate of the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): unfetched, the block index
    has not moved (`Dat.before_in_eq_fetched`), the window uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for ANY proof
    data whose array is `V`'s (`hA`) and whose body leaves the block in place (`hafter`): unfetched, the block index
    has not moved (`Dat.before_in_eq_fetched`), the window uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for ANY proof
    data whose array is `V`'s (`hA`) and whose body leaves the block in place (`hafter`): unfetched, the block index
    has not moved (`Dat.before_in_eq_fetched`), the window uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for ANY proof
    data whose array is `V`'s (`hA`) and whose body leaves the block in place (`hafter`): unfetched, the block index
    has not moved (`Dat.before_in_eq_fetched`), the window uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for ANY proof
    data whose array is `V`'s (`hA`) and whose body leaves the block in place (`hafter`): unfetched, the block index
    has not moved (`Dat.before_in_eq_fetched`), the window uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for ANY proof
    data whose array is `V`'s (`hA`) and whose body leaves the block in place (`hafter`): unfetched, the block index
    has not moved (`Dat.before_in_eq_fetched`), the window uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for ANY proof
    data whose array is `V`'s (`hA`) and whose body leaves the block in place (`hafter`): unfetched, the block index
    has not moved (`Dat.before_in_eq_fetched`), the window uncut and never idle. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, fetched there or not, for ANY proof
    data whose array is `V`'s (`hA`) and whose body leaves the block in place (`hafter`): unfetched, the block index
    has not moved (`Dat.before_in_eq_fetched`), the window uncut and never idle. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, fetched there or not, for ANY proof
    data whose array is `V`'s (`hA`) and whose body leaves the block in place (`hafter`): unfetched, the block index
    has not moved (`Dat.before_in_eq_fetched`), the window uncut and never idle. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-- Input window 9's current staging buffer holds its block at every point, fetched there or not, for ANY proof
    data whose array is `V`'s (`hA`) and whose body leaves the block in place (`hafter`): unfetched, the block index
    has not moved (`Dat.before_in_eq_fetched`), the window uncut and never idle. -/
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)

/-- Input window 10's current staging buffer holds its block at every point, fetched there or not, for ANY proof
    data whose array is `V`'s (`hA`) and whose body leaves the block in place (`hafter`): unfetched, the block index
    has not moved (`Dat.before_in_eq_fetched`), the window uncut and never idle. -/
theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

noncomputable abbrev r5_0 : Rect S5000x128 := Rect.unit (s := S5000x128) ![0, 0] S5000x128.size inb_S5000x128_S5000x128_0_0
noncomputable abbrev r5_1 : Rect S5000x1 := Rect.unit (s := S5000x1) ![0, 0] S5000x1.size inb_S5000x1_S5000x1_0_0
noncomputable abbrev r5_2 : Rect S128x128 := Rect.unit (s := S128x128) ![0, 0] S128x128.size inb_S128x128_S128x128_0_0
noncomputable abbrev r5_3 : Rect S1x128 := Rect.unit (s := S1x128) ![0, 0] S1x128.size inb_S1x128_S1x128_0_0

/-! ## What the body leaves in the output window's buffer -/

/-- Window 11's staging buffer after the body, from the input windows' blocks: its 1 store as a piece
    (`View.canon`; the payloads are the skeleton's). The variance `x8` goes through `k5_pay3` (the reciprocal
    square root) and the mean `x7` through `k5_pay4`: the body loads the variance's window before the mean's. -/
noncomputable def out5_11 (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) : Vec F S5000x128 .f32 :=
  View.canon [⟨r5_0, k5_pay1 (k5_pay2 (View.ld x0 r5_0) (View.ld x1 r5_0) (View.ld x2 r5_1) (View.ld x3 r5_2) (View.ld x4 r5_2) (View.ld x5 r5_3) (View.ld x6 r5_3)) (k5_pay3 (View.ld x8 r5_3)) (k5_pay4 (View.ld x7 r5_3)) (View.ld x9 r5_3) (View.ld x10 r5_3)⟩]

/-- Its store tiles the buffer (checked by evaluation), so it covers it. -/
theorem cover5_11 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at read contents `xW` and the output's at anything, runs to
    the continuation holding the inputs' as they were and the output's at `out5_11` of the inputs': the printed
    functions are their skeletons, which the executor runs, through the part call. The load of the output's buffer
    steps like any load of an owned buffer; its value is dropped. -/
theorem sound_kernel5 (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out5_11 x0 x1 x2 x3 x4 x5 x6 x7 x8 x9 x10)) -∗ K ⟨⟩))
      ⊢ wp frame (wpE (defs₀ (F := F)) Variants.none c none) E (cc5_normalize_recompute_kernel i arg1 harg1 arg2 harg2 arg3 harg3 arg4 harg4 arg5 harg5 arg6 harg6 arg7 harg7 arg8 harg8 arg9 harg9 arg10 harg10 arg11 harg11 arg12 harg12) K :=
  sound_kernel1 c E i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 K

/-! ## The pipeline's proof data -/

/-- The proof data of pipeline 1 on core `c`: the arrays as the region finds them (`V`); after the body at
    point `t` each input's buffer at its block and the output's at `out5_11` of the input blocks; the invariant the
    scoped rest and the generator register, untouched (`Pipeline.ΦA`); nothing owed; full shares. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => out5_11 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t)
  Φ _ := Pipeline.ΦA spec5 c
  q _ := fullShare
  owed _ := 0

/-- The proof data's arrays are the region-entry contents (the proof data's definition projected, by `dsimp`). -/
theorem A_eq5 (c : Dev nD) (w : Fin cfg5.W) : (dat5 V c).A w = V c (Pipeline.arrRef spec5 w) := by
  dsimp only [dat5]

/-- What the body leaves, window by window (the proof data's `match` reduced by `dsimp`). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = out5_11 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) := by dsimp only [dat5]

/-- Each input's current staging buffer holds its block at every point, fetched there or not (`before5_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d

/-! ## The body obligation, at a generic point -/

/-- What the body is called with at point `t` (the body obligation's precondition, the windows one by one), -/
noncomputable def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d)))

/-- and what it returns. -/
noncomputable def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10, after5_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel5 c Set.univ _ _ _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.Kernel.Gen

end
-- ==== Proof.K.Stats6.lean ====
/- The first layer's statistics kernel, as the pipeline runs it on one core: a grid of 2 × 10 points, each point
   one tile of 5000 rows. At every point the body computes the tile's activations
   y = prelu (bf16 h · bf16 W_self + bf16 (raw_agg · invdeg) · bf16 W_neigh + bias), adds the column sums of y to a
   first accumulator row and the column sums of y · y to a second accumulator row; the two accumulator rows live in
   scratch buffers that keep their contents from one point to the next. At the first tile of a core (point ≡ 0 mod 10)
   both accumulators are first reset to zero; at the last tile of a core (point ≡ 9 mod 10) each accumulator row,
   repeated over 8 rows, is stored into the core's block of one of the two outputs, which is then written back.

   This module states and proves, for the contents V of the buffers when the region is entered: the body's triple in
   each of the three control cases (first / middle / last tile of a core), what the two outputs' buffers and the two
   accumulators hold after each point (by recursion on the point), the pipeline's proof data over these, and the
   body obligation at every point. -/
import proofs.«129379_j32899449487582_2_alg».proof.Proof.K.Stats0
import proofs.«129379_j32899449487582_2_alg».proof.Proof.Gen.Kernel.Launch
import proofs.«129379_j32899449487582_2_alg».proof.Proof.Gen.Kernel.Skeleton
import proofs.«129379_j32899449487582_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not (an input that is
    not fetched at a point has the block index of the point before), for any proof data whose array is `V`'s and whose
    body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not (an input that is
    not fetched at a point has the block index of the point before), for any proof data whose array is `V`'s and whose
    body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not (an input that is
    not fetched at a point has the block index of the point before), for any proof data whose array is `V`'s and whose
    body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not (an input that is
    not fetched at a point has the block index of the point before), for any proof data whose array is `V`'s and whose
    body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not (an input that is
    not fetched at a point has the block index of the point before), for any proof data whose array is `V`'s and whose
    body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not (an input that is
    not fetched at a point has the block index of the point before), for any proof data whose array is `V`'s and whose
    body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not (an input that is
    not fetched at a point has the block index of the point before), for any proof data whose array is `V`'s and whose
    body leaves the block in place. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The body's branch conditions -/

/-- The condition of the body's first `scf.if` (reset the accumulators), from the grid coordinates. -/
noncomputable abbrev cond6_0 (i : grid6.Coords) : Prop := (Scalar.cmpi .ne (Scalar.extui (Scalar.cmpi .eq (BitVec.ofNat 32 (i 1).val) 0#32)) 0#32) = 1#1
/-- It holds at the points ≡ 0 (mod 10): the first tile of each core — decided over the grid. -/
theorem hcond6_0 : ∀ t : Fin cfg6.N, cond6_0 (grid6.coords t) ↔ t.val % 10 = 0 :=
  (by decide +kernel : ∀ t : Fin grid6.N, cond6_0 (grid6.coords t) ↔ t.val % 10 = 0)

/-- The condition of the body's second `scf.if` (store the accumulators into the outputs), from the grid coordinates. -/
noncomputable abbrev cond6_1 (i : grid6.Coords) : Prop := k6_cond2 i = 1#1
/-- It holds at the points ≡ 9 (mod 10): the last tile of each core — decided over the grid. -/
theorem hcond6_1 : ∀ t : Fin cfg6.N, cond6_1 (grid6.coords t) ↔ t.val % 10 = 9 :=
  (by decide +kernel : ∀ t : Fin grid6.N, cond6_1 (grid6.coords t) ↔ t.val % 10 = 9)

/-! ## Where the windows are idle -/

/-- Window 0 is never idle (an input). -/
theorem liveAt6_0 : ∀ t : Fin cfg6.N, cfg6.idle 0 (grid6.coords t) = false := by decide +kernel
/-- Window 1 is never idle (an input). -/
theorem liveAt6_1 : ∀ t : Fin cfg6.N, cfg6.idle 1 (grid6.coords t) = false := by decide +kernel
/-- Window 2 is never idle (an input). -/
theorem liveAt6_2 : ∀ t : Fin cfg6.N, cfg6.idle 2 (grid6.coords t) = false := by decide +kernel
/-- Window 3 is never idle (an input). -/
theorem liveAt6_3 : ∀ t : Fin cfg6.N, cfg6.idle 3 (grid6.coords t) = false := by decide +kernel
/-- Window 4 is never idle (an input). -/
theorem liveAt6_4 : ∀ t : Fin cfg6.N, cfg6.idle 4 (grid6.coords t) = false := by decide +kernel
/-- Window 5 is never idle (an input). -/
theorem liveAt6_5 : ∀ t : Fin cfg6.N, cfg6.idle 5 (grid6.coords t) = false := by decide +kernel
/-- Window 6 is never idle (an input). -/
theorem liveAt6_6 : ∀ t : Fin cfg6.N, cfg6.idle 6 (grid6.coords t) = false := by decide +kernel
/-- At a first tile output 7 is idle: nothing is stored into it, -/
theorem idleAt6_7_A : ∀ t : Fin cfg6.N, cond6_0 (grid6.coords t) → ¬cond6_1 (grid6.coords t) → cfg6.idle 7 (grid6.coords t) = true := by decide +kernel
/-- and its block is not written back. -/
theorem noFlush6_7_A : ∀ t : Fin cfg6.N, cond6_0 (grid6.coords t) → ¬cond6_1 (grid6.coords t) → (cfg6.win 7).flush t = false := by decide +kernel
/-- At a middle tile output 7 is idle: nothing is stored into it, -/
theorem idleAt6_7_B : ∀ t : Fin cfg6.N, ¬cond6_0 (grid6.coords t) → ¬cond6_1 (grid6.coords t) → cfg6.idle 7 (grid6.coords t) = true := by decide +kernel
/-- and its block is not written back. -/
theorem noFlush6_7_B : ∀ t : Fin cfg6.N, ¬cond6_0 (grid6.coords t) → ¬cond6_1 (grid6.coords t) → (cfg6.win 7).flush t = false := by decide +kernel
/-- At a last tile output 7 is live: the body stores its whole block. -/
theorem liveAt6_7_C : ∀ t : Fin cfg6.N, ¬cond6_0 (grid6.coords t) → cond6_1 (grid6.coords t) → cfg6.idle 7 (grid6.coords t) = false := by decide +kernel
/-- At a first tile output 8 is idle: nothing is stored into it, -/
theorem idleAt6_8_A : ∀ t : Fin cfg6.N, cond6_0 (grid6.coords t) → ¬cond6_1 (grid6.coords t) → cfg6.idle 8 (grid6.coords t) = true := by decide +kernel
/-- and its block is not written back. -/
theorem noFlush6_8_A : ∀ t : Fin cfg6.N, cond6_0 (grid6.coords t) → ¬cond6_1 (grid6.coords t) → (cfg6.win 8).flush t = false := by decide +kernel
/-- At a middle tile output 8 is idle: nothing is stored into it, -/
theorem idleAt6_8_B : ∀ t : Fin cfg6.N, ¬cond6_0 (grid6.coords t) → ¬cond6_1 (grid6.coords t) → cfg6.idle 8 (grid6.coords t) = true := by decide +kernel
/-- and its block is not written back. -/
theorem noFlush6_8_B : ∀ t : Fin cfg6.N, ¬cond6_0 (grid6.coords t) → ¬cond6_1 (grid6.coords t) → (cfg6.win 8).flush t = false := by decide +kernel
/-- At a last tile output 8 is live: the body stores its whole block. -/
theorem liveAt6_8_C : ∀ t : Fin cfg6.N, ¬cond6_0 (grid6.coords t) → cond6_1 (grid6.coords t) → cfg6.idle 8 (grid6.coords t) = false := by decide +kernel

/-! ## The memrefs the body is called with -/

/-- One staging buffer of output window 7, through which its contents are stated (the choice does not matter). -/
noncomputable abbrev VO6_7 : View sig .tc .vmem S8x128 .f32 := (Memref.whole cc6_stg7_0 : Memref sig .tc .vmem S8x128 .f32).view
/-- One staging buffer of output window 8, through which its contents are stated (the choice does not matter). -/
noncomputable abbrev VO6_8 : View sig .tc .vmem S8x128 .f32 := (Memref.whole cc6_stg8_0 : Memref sig .tc .vmem S8x128 .f32).view
/-- Each window's current staging memref at point `t`, spelled as the pipeline passes it, and its wholeness. -/
noncomputable abbrev ms6_0 (t : Fin cfg6.N) : Memref sig .tc .vmem S5000x128 .f32 := win6_0.stage (cfg6.slots t 0)
noncomputable abbrev hs6_0 (t : Fin cfg6.N) : (ms6_0 t).IsWhole := hstage6_0 ((cfg6.slots t 0).cast nbuf6_0)
noncomputable abbrev ms6_1 (t : Fin cfg6.N) : Memref sig .tc .vmem S5000x128 .f32 := win6_1.stage (cfg6.slots t 1)
noncomputable abbrev hs6_1 (t : Fin cfg6.N) : (ms6_1 t).IsWhole := hstage6_1 ((cfg6.slots t 1).cast nbuf6_1)
noncomputable abbrev ms6_2 (t : Fin cfg6.N) : Memref sig .tc .vmem S5000x1 .f32 := win6_2.stage (cfg6.slots t 2)
noncomputable abbrev hs6_2 (t : Fin cfg6.N) : (ms6_2 t).IsWhole := hstage6_2 ((cfg6.slots t 2).cast nbuf6_2)
noncomputable abbrev ms6_3 (t : Fin cfg6.N) : Memref sig .tc .vmem S128x128 .f32 := win6_3.stage (cfg6.slots t 3)
noncomputable abbrev hs6_3 (t : Fin cfg6.N) : (ms6_3 t).IsWhole := hstage6_3 ((cfg6.slots t 3).cast nbuf6_3)
noncomputable abbrev ms6_4 (t : Fin cfg6.N) : Memref sig .tc .vmem S128x128 .f32 := win6_4.stage (cfg6.slots t 4)
noncomputable abbrev hs6_4 (t : Fin cfg6.N) : (ms6_4 t).IsWhole := hstage6_4 ((cfg6.slots t 4).cast nbuf6_4)
noncomputable abbrev ms6_5 (t : Fin cfg6.N) : Memref sig .tc .vmem S1x128 .f32 := win6_5.stage (cfg6.slots t 5)
noncomputable abbrev hs6_5 (t : Fin cfg6.N) : (ms6_5 t).IsWhole := hstage6_5 ((cfg6.slots t 5).cast nbuf6_5)
noncomputable abbrev ms6_6 (t : Fin cfg6.N) : Memref sig .tc .vmem S1x128 .f32 := win6_6.stage (cfg6.slots t 6)
noncomputable abbrev hs6_6 (t : Fin cfg6.N) : (ms6_6 t).IsWhole := hstage6_6 ((cfg6.slots t 6).cast nbuf6_6)
noncomputable abbrev ms6_7 (t : Fin cfg6.N) : Memref sig .tc .vmem S8x128 .f32 := win6_7.stage (cfg6.slots t 7)
noncomputable abbrev hs6_7 (t : Fin cfg6.N) : (ms6_7 t).IsWhole := hstage6_7 ((cfg6.slots t 7).cast nbuf6_7)
noncomputable abbrev ms6_8 (t : Fin cfg6.N) : Memref sig .tc .vmem S8x128 .f32 := win6_8.stage (cfg6.slots t 8)
noncomputable abbrev hs6_8 (t : Fin cfg6.N) : (ms6_8 t).IsWhole := hstage6_8 ((cfg6.slots t 8).cast nbuf6_8)
/-- The two accumulator rows: whole scoped buffers of the kernel's own, passed beside the windows. -/
noncomputable abbrev scM6_0 : Memref sig .tc .vmem S1x128 .f32 := Memref.whole cc6_scratch0
noncomputable abbrev scM6_1 : Memref sig .tc .vmem S1x128 .f32 := Memref.whole cc6_scratch1
/-- Accumulator 0 as a view: what it holds is stated through it. -/
noncomputable abbrev VS6_0 : View sig .tc .vmem S1x128 .f32 := scM6_0.view
/-- Accumulator 1 as a view: what it holds is stated through it. -/
noncomputable abbrev VS6_1 : View sig .tc .vmem S1x128 .f32 := scM6_1.view

/-- The region's invariant with the two accumulators as memrefs owned at some contents; every other scoped buffer stays
    unopened beside them. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

-- (the run's proof term is large: the definition's epilogue walks it past the default budget)
set_option maxHeartbeats 1000000 in
/-- THE BODY IN CASE A: the first tile of a core (the accumulators are reset, the outputs are not stored); points 0, 10. What the body's stores leave in the
    two accumulators, as pieces (last first), WITH the proof that on whole memrefs — the inputs' at their contents
    `x·`, the outputs' at contents `xi·` handed back untouched, the accumulators at anything — the body runs to the
    continuation holding the inputs' as they were and each accumulator with its pieces written. The pieces are
    found by running the body. -/
noncomputable def kernelRun6_A (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc6_stats_kernel i arg2 harg2 arg3 harg3 arg4 harg4 arg5 harg5 arg6 harg6 arg7 harg7 arg8 harg8 arg9 harg9 arg10 harg10 arg11 harg11 arg12 harg12) K } :=
  kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6

-- (the run's proof term is large: the definition's epilogue walks it past the default budget)
set_option maxHeartbeats 1000000 in
/-- THE BODY IN CASE B: a middle tile of a core (the accumulators are not reset, the outputs are not stored); the other points. What the body's stores leave in the
    two accumulators, as pieces (last first), WITH the proof that on whole memrefs — the inputs' at their contents
    `x·`, the outputs' at contents `xi·` handed back untouched, the accumulators at what the point before left (`xs·`) — the body runs to the
    continuation holding the inputs' as they were and each accumulator with its pieces written. The pieces are
    found by running the body. -/
noncomputable def kernelRun6_B (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc6_stats_kernel i arg2 harg2 arg3 harg3 arg4 harg4 arg5 harg5 arg6 harg6 arg7 harg7 arg8 harg8 arg9 harg9 arg10 harg10 arg11 harg11 arg12 harg12) K } :=
  kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1

-- (the run's proof term is large: the definition's epilogue walks it past the default budget)
set_option maxHeartbeats 1000000 in
/-- THE BODY IN CASE C: the last tile of a core (the accumulators are not reset, the outputs are stored); points 9, 19. What the body's stores leave in the
    two outputs' staging memrefs and the two accumulators, as pieces (last first), WITH the proof that on whole memrefs — the inputs' at their contents
    `x·`, the outputs' at anything, the accumulators at what the point before left (`xs·`) — the body runs to the
    continuation holding the inputs' as they were, each output's buffer with its pieces written and each accumulator with its pieces written. The pieces are
    found by running the body. -/
noncomputable def kernelRun6_C (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc6_stats_kernel i arg2 harg2 arg3 harg3 arg4 harg4 arg5 harg5 arg6 harg6 arg7 harg7 arg8 harg8 arg9 harg9 arg10 harg10 arg11 harg11 arg12 harg12) K } :=
  kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1

/-! ## Case A (the first tile of a core): what the body leaves -/

/-- Case A stores nothing into output 7 (the window is idle at its points and not written back there): no pieces —
    a placeholder (junk read back) that nothing consults. -/
noncomputable def out6_A_7 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S8x128 .f32 :=
  VO6_7.read (Elt F) (VO6_7.writes (Elt F) VO6_7.junk (kernelRun6_A c i arg2 harg2 arg3 harg3 arg4 harg4 arg5 harg5 arg6 harg6 arg7 harg7 arg8 harg8 arg9 harg9 arg10 harg10 arg11 harg11 arg12 harg12 hc0 hc1 x0 x1 x2 x3 x4 x5 x6).1)

/-- Case A stores nothing into output 8 (the window is idle at its points and not written back there): no pieces —
    a placeholder (junk read back) that nothing consults. -/
noncomputable def out6_A_8 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S8x128 .f32 :=
  VO6_8.read (Elt F) (VO6_8.writes (Elt F) VO6_8.junk (kernelRun6_A c i arg2 harg2 arg3 harg3 arg4 harg4 arg5 harg5 arg6 harg6 arg7 harg7 arg8 harg8 arg9 harg9 arg10 harg10 arg11 harg11 arg12 harg12 hc0 hc1 x0 x1 x2 x3 x4 x5 x6).2.1)

/-- Case A's pieces for accumulator 0 cover it (each store is of the whole row). -/
theorem scover6_A_0 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (y : S1x128.Idx) :
    ∃ pc ∈ (kernelRun6_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun6_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1 S1x128.size (by sl_kernel_rfl) y

/-- What case A leaves in accumulator 0: its pieces read back over junk. -/
noncomputable def sout6_A_0 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S1x128 .f32 :=
  VS6_0.read (Elt F) (VS6_0.writes (Elt F) VS6_0.junk (kernelRun6_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1)

/-- Case A's pieces for accumulator 1 cover it (each store is of the whole row). -/
theorem scover6_A_1 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (y : S1x128.Idx) :
    ∃ pc ∈ (kernelRun6_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1, y ∈ pc.1.set :=
  View.cover_of_tiledL (kernelRun6_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1 S1x128.size (by sl_kernel_rfl) y

/-- What case A leaves in accumulator 1: its pieces read back over junk. -/
noncomputable def sout6_A_1 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S1x128 .f32 :=
  VS6_1.read (Elt F) (VS6_1.writes (Elt F) VS6_1.junk (kernelRun6_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1)

/-! ## Case B (a middle tile of a core): what the body leaves -/

/-- Case B stores nothing into output 7 (the window is idle at its points and not written back there): no pieces —
    a placeholder (junk read back) that nothing consults. -/
noncomputable def out6_B_7 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO6_7.read (Elt F) (VO6_7.writes (Elt F) VO6_7.junk (kernelRun6_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- Case B stores nothing into output 8 (the window is idle at its points and not written back there): no pieces —
    a placeholder (junk read back) that nothing consults. -/
noncomputable def out6_B_8 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO6_8.read (Elt F) (VO6_8.writes (Elt F) VO6_8.junk (kernelRun6_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- Case B's pieces for accumulator 0 cover it (each store is of the whole row). -/
theorem scover6_B_0 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun6_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun6_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What case B leaves in accumulator 0: its pieces read back over junk. -/
noncomputable def sout6_B_0 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS6_0.read (Elt F) (VS6_0.writes (Elt F) VS6_0.junk (kernelRun6_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- Case B's pieces for accumulator 1 cover it (each store is of the whole row). -/
theorem scover6_B_1 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun6_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun6_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What case B leaves in accumulator 1: its pieces read back over junk. -/
noncomputable def sout6_B_1 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS6_1.read (Elt F) (VS6_1.writes (Elt F) VS6_1.junk (kernelRun6_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-! ## Case C (the last tile of a core): what the body leaves -/

/-- Case C's pieces for output 7 tile its block (one store of the whole 8 × 128 block), so they cover it. -/
theorem cover6_C_7 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S8x128.Idx) :
    ∃ pc ∈ (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S8x128.size (by sl_kernel_rfl) y

/-- What case C leaves in output 7's staging buffer: its pieces read back over junk. -/
noncomputable def out6_C_7 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO6_7.read (Elt F) (VO6_7.writes (Elt F) VO6_7.junk (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- Case C's pieces for output 8 tile its block (one store of the whole 8 × 128 block), so they cover it. -/
theorem cover6_C_8 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S8x128.Idx) :
    ∃ pc ∈ (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S8x128.size (by sl_kernel_rfl) y

/-- What case C leaves in output 8's staging buffer: its pieces read back over junk. -/
noncomputable def out6_C_8 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO6_8.read (Elt F) (VO6_8.writes (Elt F) VO6_8.junk (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- Case C's pieces for accumulator 0 cover it (each store is of the whole row). -/
theorem scover6_C_0 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What case C leaves in accumulator 0: its pieces read back over junk. -/
noncomputable def sout6_C_0 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS6_0.read (Elt F) (VS6_0.writes (Elt F) VS6_0.junk (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- Case C's pieces for accumulator 1 cover it (each store is of the whole row). -/
theorem scover6_C_1 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What case C leaves in accumulator 1: its pieces read back over junk. -/
noncomputable def sout6_C_1 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS6_1.read (Elt F) (VS6_1.writes (Elt F) VS6_1.junk (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-! ## What the outputs and the accumulators hold after each point -/

/-- THE ACCUMULATION. What the two outputs' staging buffers and the two accumulators hold after the body at position
    `n` (a tuple: output 7, output 8, accumulator 0, accumulator 1): the case the closed forms select at `n`, run at
    the point's memrefs and input blocks, the accumulators at what this leaves at `n - 1` where the case does not reset
    them. An assignment of the conditions no point meets is no case. -/
noncomputable def outsAt6 (c : Dev nD) : (n : ℕ) → n < cfg6.N → Vec F S8x128 .f32 × Vec F S8x128 .f32 × Vec F S1x128 .f32 × Vec F S1x128 .f32
  | 0, hn => (out6_A_7 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (iblk6 V c 6 ⟨0, hn⟩), out6_A_8 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (iblk6 V c 6 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (iblk6 V c 6 ⟨0, hn⟩), sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (iblk6 V c 6 ⟨0, hn⟩))
  | n + 1, hn =>
    if h0 : (n + 1) % 10 = 0 then
      if h1 : (n + 1) % 10 = 9 then
        False.elim (by omega)
      else
        (out6_A_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩), out6_A_8 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩), sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩), sout6_A_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩))
    else
      if h1 : (n + 1) % 10 = 9 then
        (out6_C_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 c n (Nat.lt_of_succ_lt hn)).2.2.1 (outsAt6 c n (Nat.lt_of_succ_lt hn)).2.2.2, out6_C_8 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 c n (Nat.lt_of_succ_lt hn)).2.2.1 (outsAt6 c n (Nat.lt_of_succ_lt hn)).2.2.2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 c n (Nat.lt_of_succ_lt hn)).2.2.1 (outsAt6 c n (Nat.lt_of_succ_lt hn)).2.2.2, sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 c n (Nat.lt_of_succ_lt hn)).2.2.1 (outsAt6 c n (Nat.lt_of_succ_lt hn)).2.2.2)
      else
        (out6_B_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 c n (Nat.lt_of_succ_lt hn)).2.2.1 (outsAt6 c n (Nat.lt_of_succ_lt hn)).2.2.2, out6_B_8 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 c n (Nat.lt_of_succ_lt hn)).2.2.1 (outsAt6 c n (Nat.lt_of_succ_lt hn)).2.2.2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 c n (Nat.lt_of_succ_lt hn)).2.2.1 (outsAt6 c n (Nat.lt_of_succ_lt hn)).2.2.2, sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 c n (Nat.lt_of_succ_lt hn)).2.2.1 (outsAt6 c n (Nat.lt_of_succ_lt hn)).2.2.2)

/-- `outsAt6` at a first tile: that case's contents. -/
theorem outsAt6_A (c : Dev nD) (t : Fin cfg6.N) (h0 : t.val % 10 = 0) (h1 : ¬t.val % 10 = 9) :
    outsAt6 V c t.val t.isLt = (out6_A_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t), out6_A_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t), sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t), sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t)) := by
  obtain ⟨n, hn⟩ := t
  cases n with
  | zero => exact rfl
  | succ n => exact (dif_pos h0).trans ((dif_neg h1).trans rfl)

/-- `outsAt6` at a middle tile: that case's contents, over what the point before left. -/
theorem outsAt6_B (c : Dev nD) (t : Fin cfg6.N) (h0 : ¬t.val % 10 = 0) (h1 : ¬t.val % 10 = 9) :
    outsAt6 V c t.val t.isLt = (out6_B_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2, out6_B_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2, sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2, sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt6` at a last tile: that case's contents, over what the point before left. -/
theorem outsAt6_C (c : Dev nD) (t : Fin cfg6.N) (h0 : ¬t.val % 10 = 0) (h1 : t.val % 10 = 9) :
    outsAt6 V c t.val t.isLt = (out6_C_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2, out6_C_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2, sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2, sout6_C_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer that is no
    staging buffer at anything, the generator register at some state); afterwards the same with the two accumulators at
    what the point before left in them (`outsAt6`'s last two components). -/
noncomputable def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.2.1) ∗ owns (c : Thread nD τ) scM6_1 fullShare ((outsAt6 V c n hn).2.2.2))
      ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl

/-- After point `n` (before point `n + 1`): the accumulators at that point's contents. -/
theorem PhiS6_succ (c : Dev nD) (n : ℕ) (hn : n < cfg6.N) :
    PhiS6 V c (n + 1) hn = iprop(iprop(iprop(owns (c : Thread nD τ) scM6_0 fullShare ((outsAt6 V c n hn).2.2.1) ∗ owns (c : Thread nD τ) scM6_1 fullShare ((outsAt6 V c n hn).2.2.2))
      ∗ Pipeline.scopedRestBut (Ix := Unit) (Name := ℕ) (U := UR sig nD τ) (Lvl := ℕ) (Val := Elt F) spec6 c [cc6_scratch0, cc6_scratch1]) ∗ (∃ r, prngReg c r)) := rfl

/-- Before a point that is not the first: the accumulators at what the point before left. -/
theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.2.1) ∗ owns (c : Thread nD τ) scM6_1 fullShare ((outsAt6 V c (n - 1) (by omega)).2.2.2))
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the outputs' at `outsAt6`'s first two components; the invariant `PhiS6`;
    nothing owed; full shares. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => (outsAt6 V c t.val t.isLt).1
    | ⟨8, _⟩ => (outsAt6 V c t.val t.isLt).2.1
  Φ t := PhiS6 V c t.val (Nat.le_of_lt_succ t.isLt)
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- The invariant at a point's start, restated at `t.val`. -/
theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = (outsAt6 V c t.val t.isLt).1 := by dsimp only [dat6]
theorem after6_8 (c : Dev nD) (t : Fin cfg6.N) : (dat6 V c).after 8 t = (outsAt6 V c t.val t.isLt).2.1 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t` (the windows one by one), -/
noncomputable def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d)))

/-- and what it returns. -/
noncomputable def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t
    ∗ (dat6 V c).leavesExact 8 t)

set_option maxHeartbeats 4800000 in
/-- The body at any point: the inputs' memrefs hold their blocks; the closed forms say which case the point is in; so that
    case's run applies. The invariant hands the body the two accumulators at what the point before left (at anything at
    the first point) and takes them back at this point's contents; the other scoped buffers, the generator register and
    what the core owes pass through untouched. At a first or middle tile the outputs' buffers are handed back as found;
    at a last tile they are returned at the stored blocks. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).owesAt () t.succ = (dat6 V c).owesAt () t.castSucc from rfl]
  rw [show (dat6 V c).Φ t.succ = PhiS6 V c (t.val + 1) t.isLt from rfl, PhiS6_succ]
  have hN : t.val < 20 := lt_of_lt_of_eq t.isLt (show cfg6.N = 20 from N_6)
  by_cases h0 : t.val % 10 = 0
  · by_cases h1 : t.val % 10 = 9
    · exfalso; omega
    · -- a first tile
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t], after6_5]
      rw [show (dat6 V c).leavesExact 6 t = owns (c : Thread nD τ) (ms6_6 t) fullShare ((dat6 V c).after 6 t) from by
        unfold Dat.leavesExact; rw [liveAt6_6 t], after6_6]
      rw [Dat.leavesExact_idle (dat6 V c) 7 t (idleAt6_7_A t ((hcond6_0 t).mpr h0) (fun h => h1 ((hcond6_1 t).mp h))) (noFlush6_7_A t ((hcond6_0 t).mpr h0) (fun h => h1 ((hcond6_1 t).mp h)))]
      rw [Dat.leavesExact_idle (dat6 V c) 8 t (idleAt6_8_A t ((hcond6_0 t).mpr h0) (fun h => h1 ((hcond6_1 t).mp h))) (noFlush6_8_A t ((hcond6_0 t).mpr h0) (fun h => h1 ((hcond6_1 t).mp h)))]
      rw [outsAt6_A V c t h0 h1]
      unfold sout6_A_0 sout6_A_1; (try dsimp only)
      by_cases hz : t.val = 0
      ·
        rw [PhiS6_castSucc V c t, PhiS6_zero V c _ _ hz, PhiA6_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun6_A c (grid6.coords t) _ _ _ _ _ _ _ _ _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_A_0 c _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover6_A_1 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
      ·
        rw [PhiS6_castSucc V c t, PhiS6_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun6_A c (grid6.coords t) _ _ _ _ _ _ _ _ _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexists _; iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_A_0 c _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover6_A_1 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
  · by_cases h1 : t.val % 10 = 9
    · -- a last tile
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t], after6_5]
      rw [show (dat6 V c).leavesExact 6 t = owns (c : Thread nD τ) (ms6_6 t) fullShare ((dat6 V c).after 6 t) from by
        unfold Dat.leavesExact; rw [liveAt6_6 t], after6_6]
      rw [show (dat6 V c).leavesExact 7 t = owns (c : Thread nD τ) (ms6_7 t) fullShare ((dat6 V c).after 7 t) from by
        unfold Dat.leavesExact; rw [liveAt6_7_C t (fun h => h0 ((hcond6_0 t).mp h)) ((hcond6_1 t).mpr h1)], after6_7]
      rw [show (dat6 V c).leavesExact 8 t = owns (c : Thread nD τ) (ms6_8 t) fullShare ((dat6 V c).after 8 t) from by
        unfold Dat.leavesExact; rw [liveAt6_8_C t (fun h => h0 ((hcond6_0 t).mp h)) ((hcond6_1 t).mpr h1)], after6_8]
      rw [outsAt6_C V c t h0 h1]
      unfold out6_C_7 out6_C_8 sout6_C_0 sout6_C_1; (try dsimp only)
      by_cases hz : t.val = 0
      · exfalso; omega
      ·
        rw [PhiS6_castSucc V c t, PhiS6_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun6_C c (grid6.coords t) _ _ _ _ _ _ _ _ _ _ _ _ _ _ _ _ _ _ _ _ _ _ (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        iintro ⟨H0, H1, H2, H3, H4, H5, H6, ⟨%e7, H7⟩, ⟨%e8, H8⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_C_0 c _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover6_C_1 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover6_C_7 c _ _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover6_C_8 c _ _ _ _ _ _ _ _ _ _ _ _ _ _ _ _ _ _ _ _ _ _ _ _ _ _ _ _ _ _ _ _ _ _)
    · -- a middle tile
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t], after6_5]
      rw [show (dat6 V c).leavesExact 6 t = owns (c : Thread nD τ) (ms6_6 t) fullShare ((dat6 V c).after 6 t) from by
        unfold Dat.leavesExact; rw [liveAt6_6 t], after6_6]
      rw [Dat.leavesExact_idle (dat6 V c) 7 t (idleAt6_7_B t (fun h => h0 ((hcond6_0 t).mp h)) (fun h => h1 ((hcond6_1 t).mp h))) (noFlush6_7_B t (fun h => h0 ((hcond6_0 t).mp h)) (fun h => h1 ((hcond6_1 t).mp h)))]
      rw [Dat.leavesExact_idle (dat6 V c) 8 t (idleAt6_8_B t (fun h => h0 ((hcond6_0 t).mp h)) (fun h => h1 ((hcond6_1 t).mp h))) (noFlush6_8_B t (fun h => h0 ((hcond6_0 t).mp h)) (fun h => h1 ((hcond6_1 t).mp h)))]
      rw [outsAt6_B V c t h0 h1]
      unfold sout6_B_0 sout6_B_1; (try dsimp only)
      by_cases hz : t.val = 0
      · exfalso; omega
      ·
        rw [PhiS6_castSucc V c t, PhiS6_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun6_B c (grid6.coords t) _ _ _ _ _ _ _ _ _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_B_0 c _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover6_B_1 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the launch's back: the accumulators' named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout6 (c : Dev nD) : (dat6 V c).Φ (Fin.last cfg6.N) ⊢ Pipeline.ΦA spec6 c :=
  Phi_out6 V c _ (by rw [Fin.val_last]; have : cfg6.N = 20 := N_6; omega)

end Cert.Kernel.Gen

end
-- ==== Proof.K.Norm7.lean ====
/-
  Region 1 of @main: the normalize kernel of the first layer (custom_call 1, `cc7_normalize_recompute_kernel`), its
  kernel half at a PARAMETER `V`, the TensorCore's buffer contents when the region is entered.

  The grid has 20 points and the kernel 12 windows. Windows 0–2 are tiles of 5000 rows of the node features `h`, of the
  aggregated neighbour features and of the inverse degrees, the tile's index the point; windows 3–10 are whole arrays
  (two 128×128 weight matrices, then bias, PReLU slope, mean, variance, gamma, beta: one row of 128 each), the same
  block at every point; window 11 is the output, a tile of 5000 rows written back at every point, its index the point.

  At a point the body loads every input window's staging buffer whole, loads the output's buffer once (the value is
  not used) and stores ONE value over the whole output buffer:
      y  = PReLU(bf16(h)·bf16(W_self) + bf16(agg·invdeg)·bf16(W_neigh) + bias)      (`k7_pay2`)
      out = (y − mean) · rsqrt(var + ε) · gamma + beta                                (`k7_pay1` over `k7_pay3`, `k7_pay4`)
  So what the body leaves in the output buffer is a closed function `out7_11` of the eleven input blocks at the point,
  and every input buffer is left as found. This module states that as the body's triple (`sound_kernel7`), packages it
  as the pipeline's proof data (`dat7`: the arrays as `V` has them; after the body each input's buffer at its block
  and the output's at `out7_11` of the input blocks) and proves the library's body obligation for it
  (`body_obligation7`). The load of the output buffer reads a buffer the body owns at SOME contents, which is all a
  load needs; nothing depends on what it read.
-/
import proofs.«129379_j32899449487582_2_alg».proof.Proof.K.Norm1
import proofs.«129379_j32899449487582_2_alg».proof.Proof.Gen.Kernel.Launch
import proofs.«129379_j32899449487582_2_alg».proof.Proof.Gen.Kernel.Skeleton
import proofs.«129379_j32899449487582_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of 5000 × 128 (`View.cover_of_tiled`): the elaborator's structural look recurses once per
-- coordinate of the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for ANY proof
    data whose array is `V`'s (`hA`) and whose body leaves the block in place (`hafter`): unfetched, the block index
    has not moved (`Dat.before_in_eq_fetched`), the window uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for ANY proof
    data whose array is `V`'s (`hA`) and whose body leaves the block in place (`hafter`): unfetched, the block index
    has not moved (`Dat.before_in_eq_fetched`), the window uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for ANY proof
    data whose array is `V`'s (`hA`) and whose body leaves the block in place (`hafter`): unfetched, the block index
    has not moved (`Dat.before_in_eq_fetched`), the window uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for ANY proof
    data whose array is `V`'s (`hA`) and whose body leaves the block in place (`hafter`): unfetched, the block index
    has not moved (`Dat.before_in_eq_fetched`), the window uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for ANY proof
    data whose array is `V`'s (`hA`) and whose body leaves the block in place (`hafter`): unfetched, the block index
    has not moved (`Dat.before_in_eq_fetched`), the window uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not, for ANY proof
    data whose array is `V`'s (`hA`) and whose body leaves the block in place (`hafter`): unfetched, the block index
    has not moved (`Dat.before_in_eq_fetched`), the window uncut and never idle. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not, for ANY proof
    data whose array is `V`'s (`hA`) and whose body leaves the block in place (`hafter`): unfetched, the block index
    has not moved (`Dat.before_in_eq_fetched`), the window uncut and never idle. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- Input window 7's current staging buffer holds its block at every point, fetched there or not, for ANY proof
    data whose array is `V`'s (`hA`) and whose body leaves the block in place (`hafter`): unfetched, the block index
    has not moved (`Dat.before_in_eq_fetched`), the window uncut and never idle. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-- Input window 8's current staging buffer holds its block at every point, fetched there or not, for ANY proof
    data whose array is `V`'s (`hA`) and whose body leaves the block in place (`hafter`): unfetched, the block index
    has not moved (`Dat.before_in_eq_fetched`), the window uncut and never idle. -/
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-- Input window 9's current staging buffer holds its block at every point, fetched there or not, for ANY proof
    data whose array is `V`'s (`hA`) and whose body leaves the block in place (`hafter`): unfetched, the block index
    has not moved (`Dat.before_in_eq_fetched`), the window uncut and never idle. -/
theorem before7_9_of {c : Dev nD} (dat : Dat τ (Elt F) Unit ℕ (UR sig nD τ) ℕ cfg7 c) (hA : dat.A 9 = V c (Pipeline.arrRef spec7 9))
    (hafter : ∀ t, dat.after 9 t = iblk7 V c 9 t) (t : Fin cfg7.N) (d) : dat.before 9 t d = iblk7 V c 9 t :=
  (dat.before_in_eq_fetched 9 rfl (fun _ => rfl) (fun _ _ _ => rfl) (fun t => by rw [hafter]; unfold Dat.blockOf iblk7; rw [hA]; try rfl) t d).trans
    (by unfold Dat.fetched Dat.blockOf iblk7; rw [hA]; try rfl)

/-- Input window 10's current staging buffer holds its block at every point, fetched there or not, for ANY proof
    data whose array is `V`'s (`hA`) and whose body leaves the block in place (`hafter`): unfetched, the block index
    has not moved (`Dat.before_in_eq_fetched`), the window uncut and never idle. -/
theorem before7_10_of {c : Dev nD} (dat : Dat τ (Elt F) Unit ℕ (UR sig nD τ) ℕ cfg7 c) (hA : dat.A 10 = V c (Pipeline.arrRef spec7 10))
    (hafter : ∀ t, dat.after 10 t = iblk7 V c 10 t) (t : Fin cfg7.N) (d) : dat.before 10 t d = iblk7 V c 10 t :=
  (dat.before_in_eq_fetched 10 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

noncomputable abbrev r7_0 : Rect S5000x128 := Rect.unit (s := S5000x128) ![0, 0] S5000x128.size inb_S5000x128_S5000x128_0_0
noncomputable abbrev r7_1 : Rect S5000x1 := Rect.unit (s := S5000x1) ![0, 0] S5000x1.size inb_S5000x1_S5000x1_0_0
noncomputable abbrev r7_2 : Rect S128x128 := Rect.unit (s := S128x128) ![0, 0] S128x128.size inb_S128x128_S128x128_0_0
noncomputable abbrev r7_3 : Rect S1x128 := Rect.unit (s := S1x128) ![0, 0] S1x128.size inb_S1x128_S1x128_0_0

/-! ## What the body leaves in the output window's buffer -/

/-- Window 11's staging buffer after the body, from the input windows' blocks: its 1 store as a piece
    (`View.canon`; the payloads are the skeleton's). The variance `x8` goes through `k7_pay3` (the reciprocal
    square root) and the mean `x7` through `k7_pay4`: the body loads the variance's window before the mean's. -/
noncomputable def out7_11 (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) : Vec F S5000x128 .f32 :=
  View.canon [⟨r7_0, k7_pay1 (k7_pay2 (View.ld x0 r7_0) (View.ld x1 r7_0) (View.ld x2 r7_1) (View.ld x3 r7_2) (View.ld x4 r7_2) (View.ld x5 r7_3) (View.ld x6 r7_3)) (k7_pay3 (View.ld x8 r7_3)) (k7_pay4 (View.ld x7 r7_3)) (View.ld x9 r7_3) (View.ld x10 r7_3)⟩]

/-- Its store tiles the buffer (checked by evaluation), so it covers it. -/
theorem cover7_11 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

/-! ## The body's triple -/

set_option maxHeartbeats 1000000 in
/-- The kernel body on whole staging memrefs, the inputs' at read contents `xW` and the output's at anything, runs to
    the continuation holding the inputs' as they were and the output's at `out7_11` of the inputs': the printed
    functions are their skeletons, which the executor runs, through the part call. The load of the output's buffer
    steps like any load of an owned buffer; its value is dropped. -/
theorem sound_kernel7 (c : Dev nD) (E : Set ℕ) (i : grid7.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out7_11 x0 x1 x2 x3 x4 x5 x6 x7 x8 x9 x10)) -∗ K ⟨⟩))
      ⊢ wp frame (wpE (defs₀ (F := F)) Variants.none c none) E (cc7_normalize_recompute_kernel i arg1 harg1 arg2 harg2 arg3 harg3 arg4 harg4 arg5 harg5 arg6 harg6 arg7 harg7 arg8 harg8 arg9 harg9 arg10 harg10 arg11 harg11 arg12 harg12) K :=
  sound_kernel1 c E i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 K

/-! ## The pipeline's proof data -/

/-- The proof data of pipeline 1 on core `c`: the arrays as the region finds them (`V`); after the body at
    point `t` each input's buffer at its block and the output's at `out7_11` of the input blocks; the invariant the
    scoped rest and the generator register, untouched (`Pipeline.ΦA`); nothing owed; full shares. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => iblk7 V c 10 t
    | ⟨11, _⟩ => out7_11 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t)
  Φ _ := Pipeline.ΦA spec7 c
  q _ := fullShare
  owed _ := 0

/-- The proof data's arrays are the region-entry contents (the proof data's definition projected, by `dsimp`). -/
theorem A_eq7 (c : Dev nD) (w : Fin cfg7.W) : (dat7 V c).A w = V c (Pipeline.arrRef spec7 w) := by
  dsimp only [dat7]

/-- What the body leaves, window by window (the proof data's `match` reduced by `dsimp`). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = iblk7 V c 9 t := by dsimp only [dat7]
theorem after7_10 (c : Dev nD) (t : Fin cfg7.N) : (dat7 V c).after 10 t = iblk7 V c 10 t := by dsimp only [dat7]
theorem after7_11 (c : Dev nD) (t : Fin cfg7.N) : (dat7 V c).after 11 t = out7_11 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) := by dsimp only [dat7]

/-- Each input's current staging buffer holds its block at every point, fetched there or not (`before7_W_of`). -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d
theorem before7_9 (c : Dev nD) (t : Fin cfg7.N) (d) : (dat7 V c).before 9 t d = iblk7 V c 9 t :=
  before7_9_of V (dat7 V c) (A_eq7 V c 9) (after7_9 V c) t d
theorem before7_10 (c : Dev nD) (t : Fin cfg7.N) (d) : (dat7 V c).before 10 t d = iblk7 V c 10 t :=
  before7_10_of V (dat7 V c) (A_eq7 V c 10) (after7_10 V c) t d

/-! ## The body obligation, at a generic point -/

/-- What the body is called with at point `t` (the body obligation's precondition, the windows one by one), -/
noncomputable def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d))
    ∗ (∃ d, owns (c : Thread nD τ) (st7_11 t) fullShare ((dat7 V c).before 11 t d)))

/-- and what it returns. -/
noncomputable def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t)
    ∗ owns (c : Thread nD τ) (st7_11 t) fullShare ((dat7 V c).after 11 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8, before7_9, before7_10]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10, after7_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel7 c Set.univ _ _ _ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region7

end Cert.Kernel.Gen

end
-- ==== Proof.K.Fold.lean ====
/-
  The contents of the TensorCore's unscoped buffers at every boundary between two items of @main, as a fold
  from the launch memory: a host stretch applies its operations; a kernel region leaves each of its output
  arrays at what its write-backs fold to (the pipeline library's `Dat.arrAt` at the last point) and every other
  buffer as it found it. The fold fixes the unknowns `outs` of the generated valuations `Gen.VJ`.
-/
import proofs.«129379_j32899449487582_2_alg».proof.Proof.Gen.Kernel.Regions
import proofs.«129379_j32899449487582_2_alg».proof.Proof.K.Stats0
import proofs.«129379_j32899449487582_2_alg».proof.Proof.K.Norm1
import proofs.«129379_j32899449487582_2_alg».proof.Proof.K.Stats2
import proofs.«129379_j32899449487582_2_alg».proof.Proof.K.Norm3
import proofs.«129379_j32899449487582_2_alg».proof.Proof.K.Stats4
import proofs.«129379_j32899449487582_2_alg».proof.Proof.K.Norm5
import proofs.«129379_j32899449487582_2_alg».proof.Proof.K.Stats6
import proofs.«129379_j32899449487582_2_alg».proof.Proof.K.Norm7

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- A valuation read at the TensorCore's references: what a region's proof data take as its entry contents. -/
noncomputable abbrev atTc (c : Dev nD) (W : Valuation τ sig (Elt F)) (b : Ref sig .tc) : Buf (Elt F) ((c : Thread nD τ).loc b) := W b

/-- Overwriting a buffer with what the overwritten valuation already holds there changes nothing: one buffer, -/
theorem upd_self1 {α : Type} [DecidableEq α] {β : α → Type} (f : (a : α) → β a) (a : α) (x : β a) :
    Function.update f a (Function.update f a x a) = Function.update f a x := by rw [Function.update_self]
/-- and two distinct buffers. -/
theorem upd_self2 {α : Type} [DecidableEq α] {β : α → Type} (f : (a : α) → β a) (a b : α) (hab : a ≠ b) (x : β a) (y : β b) :
    Function.update (Function.update f a (Function.update (Function.update f a x) b y a)) b (Function.update (Function.update f a x) b y b)
      = Function.update (Function.update f a x) b y := by
  rw [Function.update_self, Function.update_of_ne hab, Function.update_self]

-- the regions' proof data are never opened here: only their names matter to the fold
attribute [local irreducible] dat0 dat1 dat2 dat3 dat4 dat5 dat6 dat7

/-- Region 0 is entered from the generated `V3` (no region before it). -/
noncomputable abbrev W3 (c : Dev nD) : Valuation τ sig (Elt F) := V3 m c

/-- After region 0: its output arrays at the folded write-backs, the rest as at its entry. -/
noncomputable def W4 (c : Dev nD) : Valuation τ sig (Elt F) :=
  Function.update (Function.update (W3 m c) main_v41_0 ((dat0 (fun c => atTc c (W3 m c)) c).arrAt 7 cfg0.N)) main_v41_1 ((dat0 (fun c => atTc c (W3 m c)) c).arrAt 8 cfg0.N)
/-- Region 0's output array `main_v41_0` after it: the folded write-backs of window 7. -/
theorem W4_at_main_v41_0 (c : Dev nD) : W4 m c main_v41_0 = (dat0 (fun c => atTc c (W3 m c)) c).arrAt 7 cfg0.N := by
  unfold W4
  rw [Function.update_of_ne (by decide), Function.update_self]
/-- Region 0's output array `main_v41_1` after it: the folded write-backs of window 8. -/
theorem W4_at_main_v41_1 (c : Dev nD) : W4 m c main_v41_1 = (dat0 (fun c => atTc c (W3 m c)) c).arrAt 8 cfg0.N := by
  unfold W4
  rw [Function.update_self]
/-- After the host stretch `hostOps1`: region 1's entry. -/
noncomputable abbrev W5 (c : Dev nD) : Valuation τ sig (Elt F) := StableHlo.after hostOps1 (W4 m c)

/-- After region 1: its output arrays at the folded write-backs, the rest as at its entry. -/
noncomputable def W6 (c : Dev nD) : Valuation τ sig (Elt F) :=
  Function.update (W5 m c) main_v64 ((dat1 (fun c => atTc c (W5 m c)) c).arrAt 11 cfg1.N)
/-- Region 1's output array `main_v64` after it: the folded write-backs of window 11. -/
theorem W6_at_main_v64 (c : Dev nD) : W6 m c main_v64 = (dat1 (fun c => atTc c (W5 m c)) c).arrAt 11 cfg1.N := by
  unfold W6
  rw [Function.update_self]
/-- After the host stretch `hostOps2`: region 2's entry. -/
noncomputable abbrev W7 (c : Dev nD) : Valuation τ sig (Elt F) := StableHlo.after hostOps2 (W6 m c)

/-- After region 2: its output arrays at the folded write-backs, the rest as at its entry. -/
noncomputable def W8 (c : Dev nD) : Valuation τ sig (Elt F) :=
  Function.update (Function.update (W7 m c) main_v91_0 ((dat2 (fun c => atTc c (W7 m c)) c).arrAt 7 cfg2.N)) main_v91_1 ((dat2 (fun c => atTc c (W7 m c)) c).arrAt 8 cfg2.N)
/-- Region 2's output array `main_v91_0` after it: the folded write-backs of window 7. -/
theorem W8_at_main_v91_0 (c : Dev nD) : W8 m c main_v91_0 = (dat2 (fun c => atTc c (W7 m c)) c).arrAt 7 cfg2.N := by
  unfold W8
  rw [Function.update_of_ne (by decide), Function.update_self]
/-- Region 2's output array `main_v91_1` after it: the folded write-backs of window 8. -/
theorem W8_at_main_v91_1 (c : Dev nD) : W8 m c main_v91_1 = (dat2 (fun c => atTc c (W7 m c)) c).arrAt 8 cfg2.N := by
  unfold W8
  rw [Function.update_self]
/-- After the host stretch `hostOps3`: region 3's entry. -/
noncomputable abbrev W9 (c : Dev nD) : Valuation τ sig (Elt F) := StableHlo.after hostOps3 (W8 m c)

/-- After region 3: its output arrays at the folded write-backs, the rest as at its entry. -/
noncomputable def W10 (c : Dev nD) : Valuation τ sig (Elt F) :=
  Function.update (W9 m c) main_v114 ((dat3 (fun c => atTc c (W9 m c)) c).arrAt 11 cfg3.N)
/-- Region 3's output array `main_v114` after it: the folded write-backs of window 11. -/
theorem W10_at_main_v114 (c : Dev nD) : W10 m c main_v114 = (dat3 (fun c => atTc c (W9 m c)) c).arrAt 11 cfg3.N := by
  unfold W10
  rw [Function.update_self]
/-- After the host stretch `hostOps4`: region 4's entry. -/
noncomputable abbrev W11 (c : Dev nD) : Valuation τ sig (Elt F) := StableHlo.after hostOps4 (W10 m c)

/-- After region 4: its output arrays at the folded write-backs, the rest as at its entry. -/
noncomputable def W12 (c : Dev nD) : Valuation τ sig (Elt F) :=
  Function.update (Function.update (W11 m c) main_v141_0 ((dat4 (fun c => atTc c (W11 m c)) c).arrAt 7 cfg4.N)) main_v141_1 ((dat4 (fun c => atTc c (W11 m c)) c).arrAt 8 cfg4.N)
/-- Region 4's output array `main_v141_0` after it: the folded write-backs of window 7. -/
theorem W12_at_main_v141_0 (c : Dev nD) : W12 m c main_v141_0 = (dat4 (fun c => atTc c (W11 m c)) c).arrAt 7 cfg4.N := by
  unfold W12
  rw [Function.update_of_ne (by decide), Function.update_self]
/-- Region 4's output array `main_v141_1` after it: the folded write-backs of window 8. -/
theorem W12_at_main_v141_1 (c : Dev nD) : W12 m c main_v141_1 = (dat4 (fun c => atTc c (W11 m c)) c).arrAt 8 cfg4.N := by
  unfold W12
  rw [Function.update_self]
/-- After the host stretch `hostOps5`: region 5's entry. -/
noncomputable abbrev W13 (c : Dev nD) : Valuation τ sig (Elt F) := StableHlo.after hostOps5 (W12 m c)

/-- After region 5: its output arrays at the folded write-backs, the rest as at its entry. -/
noncomputable def W14 (c : Dev nD) : Valuation τ sig (Elt F) :=
  Function.update (W13 m c) main_v164 ((dat5 (fun c => atTc c (W13 m c)) c).arrAt 11 cfg5.N)
/-- Region 5's output array `main_v164` after it: the folded write-backs of window 11. -/
theorem W14_at_main_v164 (c : Dev nD) : W14 m c main_v164 = (dat5 (fun c => atTc c (W13 m c)) c).arrAt 11 cfg5.N := by
  unfold W14
  rw [Function.update_self]
/-- After the host stretch `hostOps6`: region 6's entry. -/
noncomputable abbrev W15 (c : Dev nD) : Valuation τ sig (Elt F) := StableHlo.after hostOps6 (W14 m c)

/-- After region 6: its output arrays at the folded write-backs, the rest as at its entry. -/
noncomputable def W16 (c : Dev nD) : Valuation τ sig (Elt F) :=
  Function.update (Function.update (W15 m c) main_v191_0 ((dat6 (fun c => atTc c (W15 m c)) c).arrAt 7 cfg6.N)) main_v191_1 ((dat6 (fun c => atTc c (W15 m c)) c).arrAt 8 cfg6.N)
/-- Region 6's output array `main_v191_0` after it: the folded write-backs of window 7. -/
theorem W16_at_main_v191_0 (c : Dev nD) : W16 m c main_v191_0 = (dat6 (fun c => atTc c (W15 m c)) c).arrAt 7 cfg6.N := by
  unfold W16
  rw [Function.update_of_ne (by decide), Function.update_self]
/-- Region 6's output array `main_v191_1` after it: the folded write-backs of window 8. -/
theorem W16_at_main_v191_1 (c : Dev nD) : W16 m c main_v191_1 = (dat6 (fun c => atTc c (W15 m c)) c).arrAt 8 cfg6.N := by
  unfold W16
  rw [Function.update_self]
/-- After the host stretch `hostOps7`: region 7's entry. -/
noncomputable abbrev W17 (c : Dev nD) : Valuation τ sig (Elt F) := StableHlo.after hostOps7 (W16 m c)

/-- After region 7: its output arrays at the folded write-backs, the rest as at its entry. -/
noncomputable def W18 (c : Dev nD) : Valuation τ sig (Elt F) :=
  Function.update (W17 m c) main_v214 ((dat7 (fun c => atTc c (W17 m c)) c).arrAt 11 cfg7.N)
/-- Region 7's output array `main_v214` after it: the folded write-backs of window 11. -/
theorem W18_at_main_v214 (c : Dev nD) : W18 m c main_v214 = (dat7 (fun c => atTc c (W17 m c)) c).arrAt 11 cfg7.N := by
  unfold W18
  rw [Function.update_self]

/-- The unknowns of the generated valuations, fixed by the fold. -/
noncomputable def outs : Outs (F := F) := fun J r c => match J with
  | 4 => W4 m c r
  | 6 => W6 m c r
  | 8 => W8 m c r
  | 10 => W10 m c r
  | 12 => W12 m c r
  | 14 => W14 m c r
  | 16 => W16 m c r
  | 18 => W18 m c r
  | _ => V0 m c r
theorem outs_4 (r : Ref sig .tc) (c : Dev nD) : outs m 4 r c = W4 m c r := rfl
theorem outs_6 (r : Ref sig .tc) (c : Dev nD) : outs m 6 r c = W6 m c r := rfl
theorem outs_8 (r : Ref sig .tc) (c : Dev nD) : outs m 8 r c = W8 m c r := rfl
theorem outs_10 (r : Ref sig .tc) (c : Dev nD) : outs m 10 r c = W10 m c r := rfl
theorem outs_12 (r : Ref sig .tc) (c : Dev nD) : outs m 12 r c = W12 m c r := rfl
theorem outs_14 (r : Ref sig .tc) (c : Dev nD) : outs m 14 r c = W14 m c r := rfl
theorem outs_16 (r : Ref sig .tc) (c : Dev nD) : outs m 16 r c = W16 m c r := rfl
theorem outs_18 (r : Ref sig .tc) (c : Dev nD) : outs m 18 r c = W18 m c r := rfl

theorem V4_eq (c : Dev nD) : V4 m (outs m) c = W4 m c := by
  unfold V4
  rw [outs_4 m main_v41_0 c, outs_4 m main_v41_1 c, W4_at_main_v41_0 m c, W4_at_main_v41_1 m c]
  unfold W4
  rfl
theorem V5_eq (c : Dev nD) : V5 m (outs m) c = W5 m c := by
  unfold V5
  rw [V4_eq m c]

theorem V6_eq (c : Dev nD) : V6 m (outs m) c = W6 m c := by
  unfold V6
  rw [V5_eq m c, outs_6 m main_v64 c, W6_at_main_v64 m c]
  unfold W6
  rfl
theorem V7_eq (c : Dev nD) : V7 m (outs m) c = W7 m c := by
  unfold V7
  rw [V6_eq m c]

theorem V8_eq (c : Dev nD) : V8 m (outs m) c = W8 m c := by
  unfold V8
  rw [V7_eq m c, outs_8 m main_v91_0 c, outs_8 m main_v91_1 c, W8_at_main_v91_0 m c, W8_at_main_v91_1 m c]
  unfold W8
  rfl
theorem V9_eq (c : Dev nD) : V9 m (outs m) c = W9 m c := by
  unfold V9
  rw [V8_eq m c]

theorem V10_eq (c : Dev nD) : V10 m (outs m) c = W10 m c := by
  unfold V10
  rw [V9_eq m c, outs_10 m main_v114 c, W10_at_main_v114 m c]
  unfold W10
  rfl
theorem V11_eq (c : Dev nD) : V11 m (outs m) c = W11 m c := by
  unfold V11
  rw [V10_eq m c]

theorem V12_eq (c : Dev nD) : V12 m (outs m) c = W12 m c := by
  unfold V12
  rw [V11_eq m c, outs_12 m main_v141_0 c, outs_12 m main_v141_1 c, W12_at_main_v141_0 m c, W12_at_main_v141_1 m c]
  unfold W12
  rfl
theorem V13_eq (c : Dev nD) : V13 m (outs m) c = W13 m c := by
  unfold V13
  rw [V12_eq m c]

theorem V14_eq (c : Dev nD) : V14 m (outs m) c = W14 m c := by
  unfold V14
  rw [V13_eq m c, outs_14 m main_v164 c, W14_at_main_v164 m c]
  unfold W14
  rfl
theorem V15_eq (c : Dev nD) : V15 m (outs m) c = W15 m c := by
  unfold V15
  rw [V14_eq m c]

theorem V16_eq (c : Dev nD) : V16 m (outs m) c = W16 m c := by
  unfold V16
  rw [V15_eq m c, outs_16 m main_v191_0 c, outs_16 m main_v191_1 c, W16_at_main_v191_0 m c, W16_at_main_v191_1 m c]
  unfold W16
  rfl
theorem V17_eq (c : Dev nD) : V17 m (outs m) c = W17 m c := by
  unfold V17
  rw [V16_eq m c]

theorem V18_eq (c : Dev nD) : V18 m (outs m) c = W18 m c := by
  unfold V18
  rw [V17_eq m c, outs_18 m main_v214 c, W18_at_main_v214 m c]
  unfold W18
  rfl

/-! ## The proof data family and what rides beside the buffers -/

/-- Every pipeline's proof data, each at its region's entry contents: a literal match on the pipeline index. -/
noncomputable def pdats : (p : Fin 8) → (c : Dev nD) → Dat τ (Elt F) Unit ℕ (UR sig nD τ) ℕ (cfgs p) c
  | ⟨0, _⟩ => fun c => dat0 (fun c => atTc c (W3 m c)) c
  | ⟨1, _⟩ => fun c => dat1 (fun c => atTc c (W5 m c)) c
  | ⟨2, _⟩ => fun c => dat2 (fun c => atTc c (W7 m c)) c
  | ⟨3, _⟩ => fun c => dat3 (fun c => atTc c (W9 m c)) c
  | ⟨4, _⟩ => fun c => dat4 (fun c => atTc c (W11 m c)) c
  | ⟨5, _⟩ => fun c => dat5 (fun c => atTc c (W13 m c)) c
  | ⟨6, _⟩ => fun c => dat6 (fun c => atTc c (W15 m c)) c
  | ⟨7, _⟩ => fun c => dat7 (fun c => atTc c (W17 m c)) c

theorem pdats_0 (c : Dev nD) : pdats m 0 c = dat0 (fun c => atTc c (W3 m c)) c := rfl
theorem pdats_1 (c : Dev nD) : pdats m 1 c = dat1 (fun c => atTc c (W5 m c)) c := rfl
theorem pdats_2 (c : Dev nD) : pdats m 2 c = dat2 (fun c => atTc c (W7 m c)) c := rfl
theorem pdats_3 (c : Dev nD) : pdats m 3 c = dat3 (fun c => atTc c (W9 m c)) c := rfl
theorem pdats_4 (c : Dev nD) : pdats m 4 c = dat4 (fun c => atTc c (W11 m c)) c := rfl
theorem pdats_5 (c : Dev nD) : pdats m 5 c = dat5 (fun c => atTc c (W13 m c)) c := rfl
theorem pdats_6 (c : Dev nD) : pdats m 6 c = dat6 (fun c => atTc c (W15 m c)) c := rfl
theorem pdats_7 (c : Dev nD) : pdats m 7 c = dat7 (fun c => atTc c (W17 m c)) c := rfl

/-- No core owes another anything: no level is assigned. -/
noncomputable abbrev L0 : GSem nD τ sig → Finset Unit := fun _ => ∅
noncomputable abbrev lv0 : GSem nD τ sig → Unit → ℕ := fun _ _ => 0

local notation "𝕄" => MT nD τ sig Unit (Elt F) ℕ (UR sig nD τ) ℕ

/-- Beside the buffers through every item: the generator register at some state and the core owing nothing. -/
noncomputable abbrev Rst (c : Dev nD) : sProp 𝕄 := iprop((∃ r, prngReg c r) ∗ ∃ W, owes (c : Thread nD τ) (0 : CellTallies nD τ sig Unit) W)

end Cert.Kernel.Gen

end
-- ==== Proof.K.Reg0.lean ====
/-
  Region 0 of @main as a segment: entered from every unscoped buffer at the contents the fold reaches before it,
  left with its output arrays at their folded write-backs and every other buffer untouched; the generator register
  goes into the kernel's invariant and comes back; nothing is owed; the kernel has no semaphore of its own.
-/
import proofs.«129379_j32899449487582_2_alg».proof.Proof.K.Fold
import Idealize.ShloMosaic.Lib.Pipeline.RegionsLoop
import Idealize.ShloMosaic.Lib.Pipeline.FrameSuffix

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! At the region's exit each of its arrays holds what the pipeline leaves: an input its entry contents, an output
    its folded write-backs. -/
set_option maxHeartbeats 1000000 in
theorem hF0_w0 (c : Dev nD) : (pdats m 0 c).arrAt ⟨0, by decide⟩ cfg0.N = atTc c (W4 m c) (Pipeline.arrRef spec0 ⟨0, by decide⟩) := by
  rw [pdats_0]
  refine (((dat0 (fun c => atTc c (W3 m c)) c).arrAt_in ⟨0, by decide⟩ rfl _).trans (A_eq0 _ c ⟨0, by decide⟩)).trans ?_
  unfold W4; simp only [atTc]
  rw [Function.update_of_ne (by decide)]; rw [Function.update_of_ne (by decide)]
set_option maxHeartbeats 1000000 in
theorem hF0_w1 (c : Dev nD) : (pdats m 0 c).arrAt ⟨1, by decide⟩ cfg0.N = atTc c (W4 m c) (Pipeline.arrRef spec0 ⟨1, by decide⟩) := by
  rw [pdats_0]
  refine (((dat0 (fun c => atTc c (W3 m c)) c).arrAt_in ⟨1, by decide⟩ rfl _).trans (A_eq0 _ c ⟨1, by decide⟩)).trans ?_
  unfold W4; simp only [atTc]
  rw [Function.update_of_ne (by decide)]; rw [Function.update_of_ne (by decide)]
set_option maxHeartbeats 1000000 in
theorem hF0_w2 (c : Dev nD) : (pdats m 0 c).arrAt ⟨2, by decide⟩ cfg0.N = atTc c (W4 m c) (Pipeline.arrRef spec0 ⟨2, by decide⟩) := by
  rw [pdats_0]
  refine (((dat0 (fun c => atTc c (W3 m c)) c).arrAt_in ⟨2, by decide⟩ rfl _).trans (A_eq0 _ c ⟨2, by decide⟩)).trans ?_
  unfold W4; simp only [atTc]
  rw [Function.update_of_ne (by decide)]; rw [Function.update_of_ne (by decide)]
set_option maxHeartbeats 1000000 in
theorem hF0_w3 (c : Dev nD) : (pdats m 0 c).arrAt ⟨3, by decide⟩ cfg0.N = atTc c (W4 m c) (Pipeline.arrRef spec0 ⟨3, by decide⟩) := by
  rw [pdats_0]
  refine (((dat0 (fun c => atTc c (W3 m c)) c).arrAt_in ⟨3, by decide⟩ rfl _).trans (A_eq0 _ c ⟨3, by decide⟩)).trans ?_
  unfold W4; simp only [atTc]
  rw [Function.update_of_ne (by decide)]; rw [Function.update_of_ne (by decide)]
set_option maxHeartbeats 1000000 in
theorem hF0_w4 (c : Dev nD) : (pdats m 0 c).arrAt ⟨4, by decide⟩ cfg0.N = atTc c (W4 m c) (Pipeline.arrRef spec0 ⟨4, by decide⟩) := by
  rw [pdats_0]
  refine (((dat0 (fun c => atTc c (W3 m c)) c).arrAt_in ⟨4, by decide⟩ rfl _).trans (A_eq0 _ c ⟨4, by decide⟩)).trans ?_
  unfold W4; simp only [atTc]
  rw [Function.update_of_ne (by decide)]; rw [Function.update_of_ne (by decide)]
set_option maxHeartbeats 1000000 in
theorem hF0_w5 (c : Dev nD) : (pdats m 0 c).arrAt ⟨5, by decide⟩ cfg0.N = atTc c (W4 m c) (Pipeline.arrRef spec0 ⟨5, by decide⟩) := by
  rw [pdats_0]
  refine (((dat0 (fun c => atTc c (W3 m c)) c).arrAt_in ⟨5, by decide⟩ rfl _).trans (A_eq0 _ c ⟨5, by decide⟩)).trans ?_
  unfold W4; simp only [atTc]
  rw [Function.update_of_ne (by decide)]; rw [Function.update_of_ne (by decide)]
set_option maxHeartbeats 1000000 in
theorem hF0_w6 (c : Dev nD) : (pdats m 0 c).arrAt ⟨6, by decide⟩ cfg0.N = atTc c (W4 m c) (Pipeline.arrRef spec0 ⟨6, by decide⟩) := by
  rw [pdats_0]
  refine (((dat0 (fun c => atTc c (W3 m c)) c).arrAt_in ⟨6, by decide⟩ rfl _).trans (A_eq0 _ c ⟨6, by decide⟩)).trans ?_
  unfold W4; simp only [atTc]
  rw [Function.update_of_ne (by decide)]; rw [Function.update_of_ne (by decide)]
set_option maxHeartbeats 1000000 in
theorem hF0_w7 (c : Dev nD) : (pdats m 0 c).arrAt ⟨7, by decide⟩ cfg0.N = atTc c (W4 m c) (Pipeline.arrRef spec0 ⟨7, by decide⟩) := by
  rw [pdats_0]
  unfold W4; simp only [atTc]
  rw [Function.update_of_ne (by decide), Function.update_self]
  first | done | rfl
set_option maxHeartbeats 1000000 in
theorem hF0_w8 (c : Dev nD) : (pdats m 0 c).arrAt ⟨8, by decide⟩ cfg0.N = atTc c (W4 m c) (Pipeline.arrRef spec0 ⟨8, by decide⟩) := by
  rw [pdats_0]
  unfold W4; simp only [atTc]
  rw [Function.update_self]
  first | done | rfl

set_option maxHeartbeats 1000000 in
theorem hF0 (c : Dev nD) : ∀ w : Fin cfg0.W, (pdats m 0 c).arrAt w cfg0.N = atTc c (W4 m c) (Pipeline.arrRef spec0 w)
  | ⟨0, _⟩ => hF0_w0 m c
  | ⟨1, _⟩ => hF0_w1 m c
  | ⟨2, _⟩ => hF0_w2 m c
  | ⟨3, _⟩ => hF0_w3 m c
  | ⟨4, _⟩ => hF0_w4 m c
  | ⟨5, _⟩ => hF0_w5 m c
  | ⟨6, _⟩ => hF0_w6 m c
  | ⟨7, _⟩ => hF0_w7 m c
  | ⟨8, _⟩ => hF0_w8 m c

/-- Every buffer that is no array of the pipeline is as at the entry. -/
theorem hrest0 (c : Dev nD) : ∀ b, b ∉ Finset.univ.image (Pipeline.arrRef spec0) → atTc c (W4 m c) b = atTc c (W3 m c) b := by
  intro b hb
  unfold W4; simp only [atTc]
  rw [Function.update_of_ne (fun h => hb (Finset.mem_image.mpr ⟨⟨8, by decide⟩, Finset.mem_univ _, (Proc.devRef_injective _ h).symm⟩))]
  rw [Function.update_of_ne (fun h => hb (Finset.mem_image.mpr ⟨⟨7, by decide⟩, Finset.mem_univ _, (Proc.devRef_injective _ h).symm⟩))]

set_option backward.isDefEq.respectTransparency.types false in
noncomputable def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := by rw [pdats_0]; exact (body_obligation0 (fun c => atTc c (W3 m c)) c).loose
  hwaits := Pipeline.hwaits_of_owed_zero _ _ _ _ L0 lv0 0 fun _ _ => rfl
  pre c := iprop(StableHlo.held (c : Thread nD τ) (Pipeline.ucRefs τ sig) (V3 m c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (atTc c (W3 m c))
  hentry c := by
    rw [Pipeline.ownSems0_none]
    have hsplit := Pipeline.arrays_of_unscopedBufs (p := 0) (pcfgs (F := F)) adm (pdats m) launch0.win launch0.arr_whole c
      ((pdats m 0 c).share_full fun _ => rfl) (atTc c (W3 m c)) fun _ => rfl
    rw [Pipeline.unscopedBufs_held] at hsplit

    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [pdats_0]
    iintro ⟨Hp, -, Hr⟩
    iapply (hin0 (fun c => atTc c (W3 m c)) c)
    unfold Pipeline.ΦA
    isplitl [Hr]; · iexact Hr
    iexact Hp
  hout c := by
    rw [Pipeline.ownSems0_none, pdats_0]
    iintro H
    ihave H2 := (hout0 (fun c => atTc c (W3 m c)) c) $$ H
    unfold Pipeline.ΦA
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc c (W3 m c)) (atTc c (W4 m c)) ((pdats m 0 c).arrAt · cfg0.N) (hF0 m c) (hrest0 m c)
    rw [Pipeline.unscopedBufs_held] at hjoin
    rw [V4_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.K.Reg1.lean ====
/-
  Region 1 of @main as a segment: entered from every unscoped buffer at the contents the fold reaches before it,
  left with its output arrays at their folded write-backs and every other buffer untouched; the generator register
  goes into the kernel's invariant and comes back; nothing is owed; the kernel has no semaphore of its own.
-/
import proofs.«129379_j32899449487582_2_alg».proof.Proof.K.Fold
import Idealize.ShloMosaic.Lib.Pipeline.RegionsLoop
import Idealize.ShloMosaic.Lib.Pipeline.FrameSuffix

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! At the region's exit each of its arrays holds what the pipeline leaves: an input its entry contents, an output
    its folded write-backs. -/
set_option maxHeartbeats 1000000 in
theorem hF1_w0 (c : Dev nD) : (pdats m 1 c).arrAt ⟨0, by decide⟩ cfg1.N = atTc c (W6 m c) (Pipeline.arrRef spec1 ⟨0, by decide⟩) := by
  rw [pdats_1]
  refine (((dat1 (fun c => atTc c (W5 m c)) c).arrAt_in ⟨0, by decide⟩ rfl _).trans (A_eq1 _ c ⟨0, by decide⟩)).trans ?_
  unfold W6; simp only [atTc]
  rw [Function.update_of_ne (by decide)]
set_option maxHeartbeats 1000000 in
theorem hF1_w1 (c : Dev nD) : (pdats m 1 c).arrAt ⟨1, by decide⟩ cfg1.N = atTc c (W6 m c) (Pipeline.arrRef spec1 ⟨1, by decide⟩) := by
  rw [pdats_1]
  refine (((dat1 (fun c => atTc c (W5 m c)) c).arrAt_in ⟨1, by decide⟩ rfl _).trans (A_eq1 _ c ⟨1, by decide⟩)).trans ?_
  unfold W6; simp only [atTc]
  rw [Function.update_of_ne (by decide)]
set_option maxHeartbeats 1000000 in
theorem hF1_w2 (c : Dev nD) : (pdats m 1 c).arrAt ⟨2, by decide⟩ cfg1.N = atTc c (W6 m c) (Pipeline.arrRef spec1 ⟨2, by decide⟩) := by
  rw [pdats_1]
  refine (((dat1 (fun c => atTc c (W5 m c)) c).arrAt_in ⟨2, by decide⟩ rfl _).trans (A_eq1 _ c ⟨2, by decide⟩)).trans ?_
  unfold W6; simp only [atTc]
  rw [Function.update_of_ne (by decide)]
set_option maxHeartbeats 1000000 in
theorem hF1_w3 (c : Dev nD) : (pdats m 1 c).arrAt ⟨3, by decide⟩ cfg1.N = atTc c (W6 m c) (Pipeline.arrRef spec1 ⟨3, by decide⟩) := by
  rw [pdats_1]
  refine (((dat1 (fun c => atTc c (W5 m c)) c).arrAt_in ⟨3, by decide⟩ rfl _).trans (A_eq1 _ c ⟨3, by decide⟩)).trans ?_
  unfold W6; simp only [atTc]
  rw [Function.update_of_ne (by decide)]
set_option maxHeartbeats 1000000 in
theorem hF1_w4 (c : Dev nD) : (pdats m 1 c).arrAt ⟨4, by decide⟩ cfg1.N = atTc c (W6 m c) (Pipeline.arrRef spec1 ⟨4, by decide⟩) := by
  rw [pdats_1]
  refine (((dat1 (fun c => atTc c (W5 m c)) c).arrAt_in ⟨4, by decide⟩ rfl _).trans (A_eq1 _ c ⟨4, by decide⟩)).trans ?_
  unfold W6; simp only [atTc]
  rw [Function.update_of_ne (by decide)]
set_option maxHeartbeats 1000000 in
theorem hF1_w5 (c : Dev nD) : (pdats m 1 c).arrAt ⟨5, by decide⟩ cfg1.N = atTc c (W6 m c) (Pipeline.arrRef spec1 ⟨5, by decide⟩) := by
  rw [pdats_1]
  refine (((dat1 (fun c => atTc c (W5 m c)) c).arrAt_in ⟨5, by decide⟩ rfl _).trans (A_eq1 _ c ⟨5, by decide⟩)).trans ?_
  unfold W6; simp only [atTc]
  rw [Function.update_of_ne (by decide)]
set_option maxHeartbeats 1000000 in
theorem hF1_w6 (c : Dev nD) : (pdats m 1 c).arrAt ⟨6, by decide⟩ cfg1.N = atTc c (W6 m c) (Pipeline.arrRef spec1 ⟨6, by decide⟩) := by
  rw [pdats_1]
  refine (((dat1 (fun c => atTc c (W5 m c)) c).arrAt_in ⟨6, by decide⟩ rfl _).trans (A_eq1 _ c ⟨6, by decide⟩)).trans ?_
  unfold W6; simp only [atTc]
  rw [Function.update_of_ne (by decide)]
set_option maxHeartbeats 1000000 in
theorem hF1_w7 (c : Dev nD) : (pdats m 1 c).arrAt ⟨7, by decide⟩ cfg1.N = atTc c (W6 m c) (Pipeline.arrRef spec1 ⟨7, by decide⟩) := by
  rw [pdats_1]
  refine (((dat1 (fun c => atTc c (W5 m c)) c).arrAt_in ⟨7, by decide⟩ rfl _).trans (A_eq1 _ c ⟨7, by decide⟩)).trans ?_
  unfold W6; simp only [atTc]
  rw [Function.update_of_ne (by decide)]
set_option maxHeartbeats 1000000 in
theorem hF1_w8 (c : Dev nD) : (pdats m 1 c).arrAt ⟨8, by decide⟩ cfg1.N = atTc c (W6 m c) (Pipeline.arrRef spec1 ⟨8, by decide⟩) := by
  rw [pdats_1]
  refine (((dat1 (fun c => atTc c (W5 m c)) c).arrAt_in ⟨8, by decide⟩ rfl _).trans (A_eq1 _ c ⟨8, by decide⟩)).trans ?_
  unfold W6; simp only [atTc]
  rw [Function.update_of_ne (by decide)]
set_option maxHeartbeats 1000000 in
theorem hF1_w9 (c : Dev nD) : (pdats m 1 c).arrAt ⟨9, by decide⟩ cfg1.N = atTc c (W6 m c) (Pipeline.arrRef spec1 ⟨9, by decide⟩) := by
  rw [pdats_1]
  refine (((dat1 (fun c => atTc c (W5 m c)) c).arrAt_in ⟨9, by decide⟩ rfl _).trans (A_eq1 _ c ⟨9, by decide⟩)).trans ?_
  unfold W6; simp only [atTc]
  rw [Function.update_of_ne (by decide)]
set_option maxHeartbeats 1000000 in
theorem hF1_w10 (c : Dev nD) : (pdats m 1 c).arrAt ⟨10, by decide⟩ cfg1.N = atTc c (W6 m c) (Pipeline.arrRef spec1 ⟨10, by decide⟩) := by
  rw [pdats_1]
  refine (((dat1 (fun c => atTc c (W5 m c)) c).arrAt_in ⟨10, by decide⟩ rfl _).trans (A_eq1 _ c ⟨10, by decide⟩)).trans ?_
  unfold W6; simp only [atTc]
  rw [Function.update_of_ne (by decide)]
set_option maxHeartbeats 1000000 in
theorem hF1_w11 (c : Dev nD) : (pdats m 1 c).arrAt ⟨11, by decide⟩ cfg1.N = atTc c (W6 m c) (Pipeline.arrRef spec1 ⟨11, by decide⟩) := by
  rw [pdats_1]
  unfold W6; simp only [atTc]
  rw [Function.update_self]
  first | done | rfl

set_option maxHeartbeats 1000000 in
theorem hF1 (c : Dev nD) : ∀ w : Fin cfg1.W, (pdats m 1 c).arrAt w cfg1.N = atTc c (W6 m c) (Pipeline.arrRef spec1 w)
  | ⟨0, _⟩ => hF1_w0 m c
  | ⟨1, _⟩ => hF1_w1 m c
  | ⟨2, _⟩ => hF1_w2 m c
  | ⟨3, _⟩ => hF1_w3 m c
  | ⟨4, _⟩ => hF1_w4 m c
  | ⟨5, _⟩ => hF1_w5 m c
  | ⟨6, _⟩ => hF1_w6 m c
  | ⟨7, _⟩ => hF1_w7 m c
  | ⟨8, _⟩ => hF1_w8 m c
  | ⟨9, _⟩ => hF1_w9 m c
  | ⟨10, _⟩ => hF1_w10 m c
  | ⟨11, _⟩ => hF1_w11 m c

/-- Every buffer that is no array of the pipeline is as at the entry. -/
theorem hrest1 (c : Dev nD) : ∀ b, b ∉ Finset.univ.image (Pipeline.arrRef spec1) → atTc c (W6 m c) b = atTc c (W5 m c) b := by
  intro b hb
  unfold W6; simp only [atTc]
  rw [Function.update_of_ne (fun h => hb (Finset.mem_image.mpr ⟨⟨11, by decide⟩, Finset.mem_univ _, (Proc.devRef_injective _ h).symm⟩))]

set_option backward.isDefEq.respectTransparency.types false in
noncomputable def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := by rw [pdats_1]; exact (body_obligation1 (fun c => atTc c (W5 m c)) c).loose
  hwaits := Pipeline.hwaits_of_owed_zero _ _ _ _ L0 lv0 1 fun _ _ => rfl
  pre c := iprop(StableHlo.held (c : Thread nD τ) (Pipeline.ucRefs τ sig) (V5 m (outs m) c) ∗ Rst c)
  post c := iprop(StableHlo.held (c : Thread nD τ) (Pipeline.ucRefs τ sig) (V6 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (atTc c (W5 m c))
  hentry c := by
    rw [Pipeline.ownSems0_none]
    have hsplit := Pipeline.arrays_of_unscopedBufs (p := 1) (pcfgs (F := F)) adm (pdats m) launch1.win launch1.arr_whole c
      ((pdats m 1 c).share_full fun _ => rfl) (atTc c (W5 m c)) fun _ => rfl
    rw [Pipeline.unscopedBufs_held] at hsplit
    rw [V5_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc c (W5 m c)) (atTc c (W6 m c)) ((pdats m 1 c).arrAt · cfg1.N) (hF1 m c) (hrest1 m c)
    rw [Pipeline.unscopedBufs_held] at hjoin
    rw [V6_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.K.Reg2.lean ====
/-
  Region 2 of @main as a segment: entered from every unscoped buffer at the contents the fold reaches before it,
  left with its output arrays at their folded write-backs and every other buffer untouched; the generator register
  goes into the kernel's invariant and comes back; nothing is owed; the kernel has no semaphore of its own.
-/
import proofs.«129379_j32899449487582_2_alg».proof.Proof.K.Fold
import Idealize.ShloMosaic.Lib.Pipeline.RegionsLoop
import Idealize.ShloMosaic.Lib.Pipeline.FrameSuffix

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! At the region's exit each of its arrays holds what the pipeline leaves: an input its entry contents, an output
    its folded write-backs. -/
set_option maxHeartbeats 1000000 in
theorem hF2_w0 (c : Dev nD) : (pdats m 2 c).arrAt ⟨0, by decide⟩ cfg2.N = atTc c (W8 m c) (Pipeline.arrRef spec2 ⟨0, by decide⟩) := by
  rw [pdats_2]
  refine (((dat2 (fun c => atTc c (W7 m c)) c).arrAt_in ⟨0, by decide⟩ rfl _).trans (A_eq2 _ c ⟨0, by decide⟩)).trans ?_
  unfold W8; simp only [atTc]
  rw [Function.update_of_ne (by decide)]; rw [Function.update_of_ne (by decide)]
set_option maxHeartbeats 1000000 in
theorem hF2_w1 (c : Dev nD) : (pdats m 2 c).arrAt ⟨1, by decide⟩ cfg2.N = atTc c (W8 m c) (Pipeline.arrRef spec2 ⟨1, by decide⟩) := by
  rw [pdats_2]
  refine (((dat2 (fun c => atTc c (W7 m c)) c).arrAt_in ⟨1, by decide⟩ rfl _).trans (A_eq2 _ c ⟨1, by decide⟩)).trans ?_
  unfold W8; simp only [atTc]
  rw [Function.update_of_ne (by decide)]; rw [Function.update_of_ne (by decide)]
set_option maxHeartbeats 1000000 in
theorem hF2_w2 (c : Dev nD) : (pdats m 2 c).arrAt ⟨2, by decide⟩ cfg2.N = atTc c (W8 m c) (Pipeline.arrRef spec2 ⟨2, by decide⟩) := by
  rw [pdats_2]
  refine (((dat2 (fun c => atTc c (W7 m c)) c).arrAt_in ⟨2, by decide⟩ rfl _).trans (A_eq2 _ c ⟨2, by decide⟩)).trans ?_
  unfold W8; simp only [atTc]
  rw [Function.update_of_ne (by decide)]; rw [Function.update_of_ne (by decide)]
set_option maxHeartbeats 1000000 in
theorem hF2_w3 (c : Dev nD) : (pdats m 2 c).arrAt ⟨3, by decide⟩ cfg2.N = atTc c (W8 m c) (Pipeline.arrRef spec2 ⟨3, by decide⟩) := by
  rw [pdats_2]
  refine (((dat2 (fun c => atTc c (W7 m c)) c).arrAt_in ⟨3, by decide⟩ rfl _).trans (A_eq2 _ c ⟨3, by decide⟩)).trans ?_
  unfold W8; simp only [atTc]
  rw [Function.update_of_ne (by decide)]; rw [Function.update_of_ne (by decide)]
set_option maxHeartbeats 1000000 in
theorem hF2_w4 (c : Dev nD) : (pdats m 2 c).arrAt ⟨4, by decide⟩ cfg2.N = atTc c (W8 m c) (Pipeline.arrRef spec2 ⟨4, by decide⟩) := by
  rw [pdats_2]
  refine (((dat2 (fun c => atTc c (W7 m c)) c).arrAt_in ⟨4, by decide⟩ rfl _).trans (A_eq2 _ c ⟨4, by decide⟩)).trans ?_
  unfold W8; simp only [atTc]
  rw [Function.update_of_ne (by decide)]; rw [Function.update_of_ne (by decide)]
set_option maxHeartbeats 1000000 in
theorem hF2_w5 (c : Dev nD) : (pdats m 2 c).arrAt ⟨5, by decide⟩ cfg2.N = atTc c (W8 m c) (Pipeline.arrRef spec2 ⟨5, by decide⟩) := by
  rw [pdats_2]
  refine (((dat2 (fun c => atTc c (W7 m c)) c).arrAt_in ⟨5, by decide⟩ rfl _).trans (A_eq2 _ c ⟨5, by decide⟩)).trans ?_
  unfold W8; simp only [atTc]
  rw [Function.update_of_ne (by decide)]; rw [Function.update_of_ne (by decide)]
set_option maxHeartbeats 1000000 in
theorem hF2_w6 (c : Dev nD) : (pdats m 2 c).arrAt ⟨6, by decide⟩ cfg2.N = atTc c (W8 m c) (Pipeline.arrRef spec2 ⟨6, by decide⟩) := by
  rw [pdats_2]
  refine (((dat2 (fun c => atTc c (W7 m c)) c).arrAt_in ⟨6, by decide⟩ rfl _).trans (A_eq2 _ c ⟨6, by decide⟩)).trans ?_
  unfold W8; simp only [atTc]
  rw [Function.update_of_ne (by decide)]; rw [Function.update_of_ne (by decide)]
set_option maxHeartbeats 1000000 in
theorem hF2_w7 (c : Dev nD) : (pdats m 2 c).arrAt ⟨7, by decide⟩ cfg2.N = atTc c (W8 m c) (Pipeline.arrRef spec2 ⟨7, by decide⟩) := by
  rw [pdats_2]
  unfold W8; simp only [atTc]
  rw [Function.update_of_ne (by decide), Function.update_self]
  first | done | rfl
set_option maxHeartbeats 1000000 in
theorem hF2_w8 (c : Dev nD) : (pdats m 2 c).arrAt ⟨8, by decide⟩ cfg2.N = atTc c (W8 m c) (Pipeline.arrRef spec2 ⟨8, by decide⟩) := by
  rw [pdats_2]
  unfold W8; simp only [atTc]
  rw [Function.update_self]
  first | done | rfl

set_option maxHeartbeats 1000000 in
theorem hF2 (c : Dev nD) : ∀ w : Fin cfg2.W, (pdats m 2 c).arrAt w cfg2.N = atTc c (W8 m c) (Pipeline.arrRef spec2 w)
  | ⟨0, _⟩ => hF2_w0 m c
  | ⟨1, _⟩ => hF2_w1 m c
  | ⟨2, _⟩ => hF2_w2 m c
  | ⟨3, _⟩ => hF2_w3 m c
  | ⟨4, _⟩ => hF2_w4 m c
  | ⟨5, _⟩ => hF2_w5 m c
  | ⟨6, _⟩ => hF2_w6 m c
  | ⟨7, _⟩ => hF2_w7 m c
  | ⟨8, _⟩ => hF2_w8 m c

/-- Every buffer that is no array of the pipeline is as at the entry. -/
theorem hrest2 (c : Dev nD) : ∀ b, b ∉ Finset.univ.image (Pipeline.arrRef spec2) → atTc c (W8 m c) b = atTc c (W7 m c) b := by
  intro b hb
  unfold W8; simp only [atTc]
  rw [Function.update_of_ne (fun h => hb (Finset.mem_image.mpr ⟨⟨8, by decide⟩, Finset.mem_univ _, (Proc.devRef_injective _ h).symm⟩))]
  rw [Function.update_of_ne (fun h => hb (Finset.mem_image.mpr ⟨⟨7, by decide⟩, Finset.mem_univ _, (Proc.devRef_injective _ h).symm⟩))]

set_option backward.isDefEq.respectTransparency.types false in
noncomputable def reg2 : Pipeline.RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := by rw [pdats_2]; exact (body_obligation2 (fun c => atTc c (W7 m c)) c).loose
  hwaits := Pipeline.hwaits_of_owed_zero _ _ _ _ L0 lv0 2 fun _ _ => rfl
  pre c := iprop(StableHlo.held (c : Thread nD τ) (Pipeline.ucRefs τ sig) (V7 m (outs m) c) ∗ Rst c)
  post c := iprop(StableHlo.held (c : Thread nD τ) (Pipeline.ucRefs τ sig) (V8 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (atTc c (W7 m c))
  hentry c := by
    rw [Pipeline.ownSems0_none]
    have hsplit := Pipeline.arrays_of_unscopedBufs (p := 2) (pcfgs (F := F)) adm (pdats m) launch2.win launch2.arr_whole c
      ((pdats m 2 c).share_full fun _ => rfl) (atTc c (W7 m c)) fun _ => rfl
    rw [Pipeline.unscopedBufs_held] at hsplit
    rw [V7_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [pdats_2]
    iintro ⟨Hp, -, Hr⟩
    iapply (hin2 (fun c => atTc c (W7 m c)) c)
    unfold Pipeline.ΦA
    isplitl [Hr]; · iexact Hr
    iexact Hp
  hout c := by
    rw [Pipeline.ownSems0_none, pdats_2]
    iintro H
    ihave H2 := (hout2 (fun c => atTc c (W7 m c)) c) $$ H
    unfold Pipeline.ΦA
    icases H2 with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc c (W7 m c)) (atTc c (W8 m c)) ((pdats m 2 c).arrAt · cfg2.N) (hF2 m c) (hrest2 m c)
    rw [Pipeline.unscopedBufs_held] at hjoin
    rw [V8_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.K.Reg3.lean ====
/-
  Region 3 of @main as a segment: entered from every unscoped buffer at the contents the fold reaches before it,
  left with its output arrays at their folded write-backs and every other buffer untouched; the generator register
  goes into the kernel's invariant and comes back; nothing is owed; the kernel has no semaphore of its own.
-/
import proofs.«129379_j32899449487582_2_alg».proof.Proof.K.Fold
import Idealize.ShloMosaic.Lib.Pipeline.RegionsLoop
import Idealize.ShloMosaic.Lib.Pipeline.FrameSuffix

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! At the region's exit each of its arrays holds what the pipeline leaves: an input its entry contents, an output
    its folded write-backs. -/
set_option maxHeartbeats 1000000 in
theorem hF3_w0 (c : Dev nD) : (pdats m 3 c).arrAt ⟨0, by decide⟩ cfg3.N = atTc c (W10 m c) (Pipeline.arrRef spec3 ⟨0, by decide⟩) := by
  rw [pdats_3]
  refine (((dat3 (fun c => atTc c (W9 m c)) c).arrAt_in ⟨0, by decide⟩ rfl _).trans (A_eq3 _ c ⟨0, by decide⟩)).trans ?_
  unfold W10; simp only [atTc]
  rw [Function.update_of_ne (by decide)]
set_option maxHeartbeats 1000000 in
theorem hF3_w1 (c : Dev nD) : (pdats m 3 c).arrAt ⟨1, by decide⟩ cfg3.N = atTc c (W10 m c) (Pipeline.arrRef spec3 ⟨1, by decide⟩) := by
  rw [pdats_3]
  refine (((dat3 (fun c => atTc c (W9 m c)) c).arrAt_in ⟨1, by decide⟩ rfl _).trans (A_eq3 _ c ⟨1, by decide⟩)).trans ?_
  unfold W10; simp only [atTc]
  rw [Function.update_of_ne (by decide)]
set_option maxHeartbeats 1000000 in
theorem hF3_w2 (c : Dev nD) : (pdats m 3 c).arrAt ⟨2, by decide⟩ cfg3.N = atTc c (W10 m c) (Pipeline.arrRef spec3 ⟨2, by decide⟩) := by
  rw [pdats_3]
  refine (((dat3 (fun c => atTc c (W9 m c)) c).arrAt_in ⟨2, by decide⟩ rfl _).trans (A_eq3 _ c ⟨2, by decide⟩)).trans ?_
  unfold W10; simp only [atTc]
  rw [Function.update_of_ne (by decide)]
set_option maxHeartbeats 1000000 in
theorem hF3_w3 (c : Dev nD) : (pdats m 3 c).arrAt ⟨3, by decide⟩ cfg3.N = atTc c (W10 m c) (Pipeline.arrRef spec3 ⟨3, by decide⟩) := by
  rw [pdats_3]
  refine (((dat3 (fun c => atTc c (W9 m c)) c).arrAt_in ⟨3, by decide⟩ rfl _).trans (A_eq3 _ c ⟨3, by decide⟩)).trans ?_
  unfold W10; simp only [atTc]
  rw [Function.update_of_ne (by decide)]
set_option maxHeartbeats 1000000 in
theorem hF3_w4 (c : Dev nD) : (pdats m 3 c).arrAt ⟨4, by decide⟩ cfg3.N = atTc c (W10 m c) (Pipeline.arrRef spec3 ⟨4, by decide⟩) := by
  rw [pdats_3]
  refine (((dat3 (fun c => atTc c (W9 m c)) c).arrAt_in ⟨4, by decide⟩ rfl _).trans (A_eq3 _ c ⟨4, by decide⟩)).trans ?_
  unfold W10; simp only [atTc]
  rw [Function.update_of_ne (by decide)]
set_option maxHeartbeats 1000000 in
theorem hF3_w5 (c : Dev nD) : (pdats m 3 c).arrAt ⟨5, by decide⟩ cfg3.N = atTc c (W10 m c) (Pipeline.arrRef spec3 ⟨5, by decide⟩) := by
  rw [pdats_3]
  refine (((dat3 (fun c => atTc c (W9 m c)) c).arrAt_in ⟨5, by decide⟩ rfl _).trans (A_eq3 _ c ⟨5, by decide⟩)).trans ?_
  unfold W10; simp only [atTc]
  rw [Function.update_of_ne (by decide)]
set_option maxHeartbeats 1000000 in
theorem hF3_w6 (c : Dev nD) : (pdats m 3 c).arrAt ⟨6, by decide⟩ cfg3.N = atTc c (W10 m c) (Pipeline.arrRef spec3 ⟨6, by decide⟩) := by
  rw [pdats_3]
  refine (((dat3 (fun c => atTc c (W9 m c)) c).arrAt_in ⟨6, by decide⟩ rfl _).trans (A_eq3 _ c ⟨6, by decide⟩)).trans ?_
  unfold W10; simp only [atTc]
  rw [Function.update_of_ne (by decide)]
set_option maxHeartbeats 1000000 in
theorem hF3_w7 (c : Dev nD) : (pdats m 3 c).arrAt ⟨7, by decide⟩ cfg3.N = atTc c (W10 m c) (Pipeline.arrRef spec3 ⟨7, by decide⟩) := by
  rw [pdats_3]
  refine (((dat3 (fun c => atTc c (W9 m c)) c).arrAt_in ⟨7, by decide⟩ rfl _).trans (A_eq3 _ c ⟨7, by decide⟩)).trans ?_
  unfold W10; simp only [atTc]
  rw [Function.update_of_ne (by decide)]
set_option maxHeartbeats 1000000 in
theorem hF3_w8 (c : Dev nD) : (pdats m 3 c).arrAt ⟨8, by decide⟩ cfg3.N = atTc c (W10 m c) (Pipeline.arrRef spec3 ⟨8, by decide⟩) := by
  rw [pdats_3]
  refine (((dat3 (fun c => atTc c (W9 m c)) c).arrAt_in ⟨8, by decide⟩ rfl _).trans (A_eq3 _ c ⟨8, by decide⟩)).trans ?_
  unfold W10; simp only [atTc]
  rw [Function.update_of_ne (by decide)]
set_option maxHeartbeats 1000000 in
theorem hF3_w9 (c : Dev nD) : (pdats m 3 c).arrAt ⟨9, by decide⟩ cfg3.N = atTc c (W10 m c) (Pipeline.arrRef spec3 ⟨9, by decide⟩) := by
  rw [pdats_3]
  refine (((dat3 (fun c => atTc c (W9 m c)) c).arrAt_in ⟨9, by decide⟩ rfl _).trans (A_eq3 _ c ⟨9, by decide⟩)).trans ?_
  unfold W10; simp only [atTc]
  rw [Function.update_of_ne (by decide)]
set_option maxHeartbeats 1000000 in
theorem hF3_w10 (c : Dev nD) : (pdats m 3 c).arrAt ⟨10, by decide⟩ cfg3.N = atTc c (W10 m c) (Pipeline.arrRef spec3 ⟨10, by decide⟩) := by
  rw [pdats_3]
  refine (((dat3 (fun c => atTc c (W9 m c)) c).arrAt_in ⟨10, by decide⟩ rfl _).trans (A_eq3 _ c ⟨10, by decide⟩)).trans ?_
  unfold W10; simp only [atTc]
  rw [Function.update_of_ne (by decide)]
set_option maxHeartbeats 1000000 in
theorem hF3_w11 (c : Dev nD) : (pdats m 3 c).arrAt ⟨11, by decide⟩ cfg3.N = atTc c (W10 m c) (Pipeline.arrRef spec3 ⟨11, by decide⟩) := by
  rw [pdats_3]
  unfold W10; simp only [atTc]
  rw [Function.update_self]
  first | done | rfl

set_option maxHeartbeats 1000000 in
theorem hF3 (c : Dev nD) : ∀ w : Fin cfg3.W, (pdats m 3 c).arrAt w cfg3.N = atTc c (W10 m c) (Pipeline.arrRef spec3 w)
  | ⟨0, _⟩ => hF3_w0 m c
  | ⟨1, _⟩ => hF3_w1 m c
  | ⟨2, _⟩ => hF3_w2 m c
  | ⟨3, _⟩ => hF3_w3 m c
  | ⟨4, _⟩ => hF3_w4 m c
  | ⟨5, _⟩ => hF3_w5 m c
  | ⟨6, _⟩ => hF3_w6 m c
  | ⟨7, _⟩ => hF3_w7 m c
  | ⟨8, _⟩ => hF3_w8 m c
  | ⟨9, _⟩ => hF3_w9 m c
  | ⟨10, _⟩ => hF3_w10 m c
  | ⟨11, _⟩ => hF3_w11 m c

/-- Every buffer that is no array of the pipeline is as at the entry. -/
theorem hrest3 (c : Dev nD) : ∀ b, b ∉ Finset.univ.image (Pipeline.arrRef spec3) → atTc c (W10 m c) b = atTc c (W9 m c) b := by
  intro b hb
  unfold W10; simp only [atTc]
  rw [Function.update_of_ne (fun h => hb (Finset.mem_image.mpr ⟨⟨11, by decide⟩, Finset.mem_univ _, (Proc.devRef_injective _ h).symm⟩))]

set_option backward.isDefEq.respectTransparency.types false in
noncomputable def reg3 : Pipeline.RegionSeg (pcfgs (F := F)) adm (pdats m) () defs₀ Variants.none L0 lv0 3 where
  win := launch3.win.to₀
  block_pos := launch3.block_pos
  stage_whole := launch3.stage_whole
  K := PEmpty
  osem k := k.elim
  ho := Pipeline.OwnSemFacts.none _
  hbody c := by rw [pdats_3]; exact (body_obligation3 (fun c => atTc c (W9 m c)) c).loose
  hwaits := Pipeline.hwaits_of_owed_zero _ _ _ _ L0 lv0 3 fun _ _ => rfl
  pre c := iprop(StableHlo.held (c : Thread nD τ) (Pipeline.ucRefs τ sig) (V9 m (outs m) c) ∗ Rst c)
  post c := iprop(StableHlo.held (c : Thread nD τ) (Pipeline.ucRefs τ sig) (V10 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (atTc c (W9 m c))
  hentry c := by
    rw [Pipeline.ownSems0_none]
    have hsplit := Pipeline.arrays_of_unscopedBufs (p := 3) (pcfgs (F := F)) adm (pdats m) launch3.win launch3.arr_whole c
      ((pdats m 3 c).share_full fun _ => rfl) (atTc c (W9 m c)) fun _ => rfl
    rw [Pipeline.unscopedBufs_held] at hsplit
    rw [V9_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc c (W9 m c)) (atTc c (W10 m c)) ((pdats m 3 c).arrAt · cfg3.N) (hF3 m c) (hrest3 m c)
    rw [Pipeline.unscopedBufs_held] at hjoin
    rw [V10_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.K.Reg4.lean ====
/-
  Region 4 of @main as a segment: entered from every unscoped buffer at the contents the fold reaches before it,
  left with its output arrays at their folded write-backs and every other buffer untouched; the generator register
  goes into the kernel's invariant and comes back; nothing is owed; the kernel has no semaphore of its own.
-/
import proofs.«129379_j32899449487582_2_alg».proof.Proof.K.Fold
import Idealize.ShloMosaic.Lib.Pipeline.RegionsLoop
import Idealize.ShloMosaic.Lib.Pipeline.FrameSuffix

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! At the region's exit each of its arrays holds what the pipeline leaves: an input its entry contents, an output
    its folded write-backs. -/
set_option maxHeartbeats 1000000 in
theorem hF4_w0 (c : Dev nD) : (pdats m 4 c).arrAt ⟨0, by decide⟩ cfg4.N = atTc c (W12 m c) (Pipeline.arrRef spec4 ⟨0, by decide⟩) := by
  rw [pdats_4]
  refine (((dat4 (fun c => atTc c (W11 m c)) c).arrAt_in ⟨0, by decide⟩ rfl _).trans (A_eq4 _ c ⟨0, by decide⟩)).trans ?_
  unfold W12; simp only [atTc]
  rw [Function.update_of_ne (by decide)]; rw [Function.update_of_ne (by decide)]
set_option maxHeartbeats 1000000 in
theorem hF4_w1 (c : Dev nD) : (pdats m 4 c).arrAt ⟨1, by decide⟩ cfg4.N = atTc c (W12 m c) (Pipeline.arrRef spec4 ⟨1, by decide⟩) := by
  rw [pdats_4]
  refine (((dat4 (fun c => atTc c (W11 m c)) c).arrAt_in ⟨1, by decide⟩ rfl _).trans (A_eq4 _ c ⟨1, by decide⟩)).trans ?_
  unfold W12; simp only [atTc]
  rw [Function.update_of_ne (by decide)]; rw [Function.update_of_ne (by decide)]
set_option maxHeartbeats 1000000 in
theorem hF4_w2 (c : Dev nD) : (pdats m 4 c).arrAt ⟨2, by decide⟩ cfg4.N = atTc c (W12 m c) (Pipeline.arrRef spec4 ⟨2, by decide⟩) := by
  rw [pdats_4]
  refine (((dat4 (fun c => atTc c (W11 m c)) c).arrAt_in ⟨2, by decide⟩ rfl _).trans (A_eq4 _ c ⟨2, by decide⟩)).trans ?_
  unfold W12; simp only [atTc]
  rw [Function.update_of_ne (by decide)]; rw [Function.update_of_ne (by decide)]
set_option maxHeartbeats 1000000 in
theorem hF4_w3 (c : Dev nD) : (pdats m 4 c).arrAt ⟨3, by decide⟩ cfg4.N = atTc c (W12 m c) (Pipeline.arrRef spec4 ⟨3, by decide⟩) := by
  rw [pdats_4]
  refine (((dat4 (fun c => atTc c (W11 m c)) c).arrAt_in ⟨3, by decide⟩ rfl _).trans (A_eq4 _ c ⟨3, by decide⟩)).trans ?_
  unfold W12; simp only [atTc]
  rw [Function.update_of_ne (by decide)]; rw [Function.update_of_ne (by decide)]
set_option maxHeartbeats 1000000 in
theorem hF4_w4 (c : Dev nD) : (pdats m 4 c).arrAt ⟨4, by decide⟩ cfg4.N = atTc c (W12 m c) (Pipeline.arrRef spec4 ⟨4, by decide⟩) := by
  rw [pdats_4]
  refine (((dat4 (fun c => atTc c (W11 m c)) c).arrAt_in ⟨4, by decide⟩ rfl _).trans (A_eq4 _ c ⟨4, by decide⟩)).trans ?_
  unfold W12; simp only [atTc]
  rw [Function.update_of_ne (by decide)]; rw [Function.update_of_ne (by decide)]
set_option maxHeartbeats 1000000 in
theorem hF4_w5 (c : Dev nD) : (pdats m 4 c).arrAt ⟨5, by decide⟩ cfg4.N = atTc c (W12 m c) (Pipeline.arrRef spec4 ⟨5, by decide⟩) := by
  rw [pdats_4]
  refine (((dat4 (fun c => atTc c (W11 m c)) c).arrAt_in ⟨5, by decide⟩ rfl _).trans (A_eq4 _ c ⟨5, by decide⟩)).trans ?_
  unfold W12; simp only [atTc]
  rw [Function.update_of_ne (by decide)]; rw [Function.update_of_ne (by decide)]
set_option maxHeartbeats 1000000 in
theorem hF4_w6 (c : Dev nD) : (pdats m 4 c).arrAt ⟨6, by decide⟩ cfg4.N = atTc c (W12 m c) (Pipeline.arrRef spec4 ⟨6, by decide⟩) := by
  rw [pdats_4]
  refine (((dat4 (fun c => atTc c (W11 m c)) c).arrAt_in ⟨6, by decide⟩ rfl _).trans (A_eq4 _ c ⟨6, by decide⟩)).trans ?_
  unfold W12; simp only [atTc]
  rw [Function.update_of_ne (by decide)]; rw [Function.update_of_ne (by decide)]
set_option maxHeartbeats 1000000 in
theorem hF4_w7 (c : Dev nD) : (pdats m 4 c).arrAt ⟨7, by decide⟩ cfg4.N = atTc c (W12 m c) (Pipeline.arrRef spec4 ⟨7, by decide⟩) := by
  rw [pdats_4]
  unfold W12; simp only [atTc]
  rw [Function.update_of_ne (by decide), Function.update_self]
  first | done | rfl
set_option maxHeartbeats 1000000 in
theorem hF4_w8 (c : Dev nD) : (pdats m 4 c).arrAt ⟨8, by decide⟩ cfg4.N = atTc c (W12 m c) (Pipeline.arrRef spec4 ⟨8, by decide⟩) := by
  rw [pdats_4]
  unfold W12; simp only [atTc]
  rw [Function.update_self]
  first | done | rfl

set_option maxHeartbeats 1000000 in
theorem hF4 (c : Dev nD) : ∀ w : Fin cfg4.W, (pdats m 4 c).arrAt w cfg4.N = atTc c (W12 m c) (Pipeline.arrRef spec4 w)
  | ⟨0, _⟩ => hF4_w0 m c
  | ⟨1, _⟩ => hF4_w1 m c
  | ⟨2, _⟩ => hF4_w2 m c
  | ⟨3, _⟩ => hF4_w3 m c
  | ⟨4, _⟩ => hF4_w4 m c
  | ⟨5, _⟩ => hF4_w5 m c
  | ⟨6, _⟩ => hF4_w6 m c
  | ⟨7, _⟩ => hF4_w7 m c
  | ⟨8, _⟩ => hF4_w8 m c

/-- Every buffer that is no array of the pipeline is as at the entry. -/
theorem hrest4 (c : Dev nD) : ∀ b, b ∉ Finset.univ.image (Pipeline.arrRef spec4) → atTc c (W12 m c) b = atTc c (W11 m c) b := by
  intro b hb
  unfold W12; simp only [atTc]
  rw [Function.update_of_ne (fun h => hb (Finset.mem_image.mpr ⟨⟨8, by decide⟩, Finset.mem_univ _, (Proc.devRef_injective _ h).symm⟩))]
  rw [Function.update_of_ne (fun h => hb (Finset.mem_image.mpr ⟨⟨7, by decide⟩, Finset.mem_univ _, (Proc.devRef_injective _ h).symm⟩))]

set_option backward.isDefEq.respectTransparency.types false in
noncomputable def reg4 : Pipeline.RegionSeg (pcfgs (F := F)) adm (pdats m) () defs₀ Variants.none L0 lv0 4 where
  win := launch4.win.to₀
  block_pos := launch4.block_pos
  stage_whole := launch4.stage_whole
  K := PEmpty
  osem k := k.elim
  ho := Pipeline.OwnSemFacts.none _
  hbody c := by rw [pdats_4]; exact (body_obligation4 (fun c => atTc c (W11 m c)) c).loose
  hwaits := Pipeline.hwaits_of_owed_zero _ _ _ _ L0 lv0 4 fun _ _ => rfl
  pre c := iprop(StableHlo.held (c : Thread nD τ) (Pipeline.ucRefs τ sig) (V11 m (outs m) c) ∗ Rst c)
  post c := iprop(StableHlo.held (c : Thread nD τ) (Pipeline.ucRefs τ sig) (V12 m (outs m) c) ∗ Rst c)
  X c := iprop(∃ r, prngReg c r)
  Y c := iprop(∃ r, prngReg c r)
  Z c := Pipeline.unscopedRest (Ix := Unit) (Name := ℕ) (U := UR sig nD τ) (Lvl := ℕ) spec4 c (atTc c (W11 m c))
  hentry c := by
    rw [Pipeline.ownSems0_none]
    have hsplit := Pipeline.arrays_of_unscopedBufs (p := 4) (pcfgs (F := F)) adm (pdats m) launch4.win launch4.arr_whole c
      ((pdats m 4 c).share_full fun _ => rfl) (atTc c (W11 m c)) fun _ => rfl
    rw [Pipeline.unscopedBufs_held] at hsplit
    rw [V11_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [pdats_4]
    iintro ⟨Hp, -, Hr⟩
    iapply (hin4 (fun c => atTc c (W11 m c)) c)
    unfold Pipeline.ΦA
    isplitl [Hr]; · iexact Hr
    iexact Hp
  hout c := by
    rw [Pipeline.ownSems0_none, pdats_4]
    iintro H
    ihave H2 := (hout4 (fun c => atTc c (W11 m c)) c) $$ H
    unfold Pipeline.ΦA
    icases H2 with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc c (W11 m c)) (atTc c (W12 m c)) ((pdats m 4 c).arrAt · cfg4.N) (hF4 m c) (hrest4 m c)
    rw [Pipeline.unscopedBufs_held] at hjoin
    rw [V12_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.K.Reg5.lean ====
/-
  Region 5 of @main as a segment: entered from every unscoped buffer at the contents the fold reaches before it,
  left with its output arrays at their folded write-backs and every other buffer untouched; the generator register
  goes into the kernel's invariant and comes back; nothing is owed; the kernel has no semaphore of its own.
-/
import proofs.«129379_j32899449487582_2_alg».proof.Proof.K.Fold
import Idealize.ShloMosaic.Lib.Pipeline.RegionsLoop
import Idealize.ShloMosaic.Lib.Pipeline.FrameSuffix

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! At the region's exit each of its arrays holds what the pipeline leaves: an input its entry contents, an output
    its folded write-backs. -/
set_option maxHeartbeats 1000000 in
theorem hF5_w0 (c : Dev nD) : (pdats m 5 c).arrAt ⟨0, by decide⟩ cfg5.N = atTc c (W14 m c) (Pipeline.arrRef spec5 ⟨0, by decide⟩) := by
  rw [pdats_5]
  refine (((dat5 (fun c => atTc c (W13 m c)) c).arrAt_in ⟨0, by decide⟩ rfl _).trans (A_eq5 _ c ⟨0, by decide⟩)).trans ?_
  unfold W14; simp only [atTc]
  rw [Function.update_of_ne (by decide)]
set_option maxHeartbeats 1000000 in
theorem hF5_w1 (c : Dev nD) : (pdats m 5 c).arrAt ⟨1, by decide⟩ cfg5.N = atTc c (W14 m c) (Pipeline.arrRef spec5 ⟨1, by decide⟩) := by
  rw [pdats_5]
  refine (((dat5 (fun c => atTc c (W13 m c)) c).arrAt_in ⟨1, by decide⟩ rfl _).trans (A_eq5 _ c ⟨1, by decide⟩)).trans ?_
  unfold W14; simp only [atTc]
  rw [Function.update_of_ne (by decide)]
set_option maxHeartbeats 1000000 in
theorem hF5_w2 (c : Dev nD) : (pdats m 5 c).arrAt ⟨2, by decide⟩ cfg5.N = atTc c (W14 m c) (Pipeline.arrRef spec5 ⟨2, by decide⟩) := by
  rw [pdats_5]
  refine (((dat5 (fun c => atTc c (W13 m c)) c).arrAt_in ⟨2, by decide⟩ rfl _).trans (A_eq5 _ c ⟨2, by decide⟩)).trans ?_
  unfold W14; simp only [atTc]
  rw [Function.update_of_ne (by decide)]
set_option maxHeartbeats 1000000 in
theorem hF5_w3 (c : Dev nD) : (pdats m 5 c).arrAt ⟨3, by decide⟩ cfg5.N = atTc c (W14 m c) (Pipeline.arrRef spec5 ⟨3, by decide⟩) := by
  rw [pdats_5]
  refine (((dat5 (fun c => atTc c (W13 m c)) c).arrAt_in ⟨3, by decide⟩ rfl _).trans (A_eq5 _ c ⟨3, by decide⟩)).trans ?_
  unfold W14; simp only [atTc]
  rw [Function.update_of_ne (by decide)]
set_option maxHeartbeats 1000000 in
theorem hF5_w4 (c : Dev nD) : (pdats m 5 c).arrAt ⟨4, by decide⟩ cfg5.N = atTc c (W14 m c) (Pipeline.arrRef spec5 ⟨4, by decide⟩) := by
  rw [pdats_5]
  refine (((dat5 (fun c => atTc c (W13 m c)) c).arrAt_in ⟨4, by decide⟩ rfl _).trans (A_eq5 _ c ⟨4, by decide⟩)).trans ?_
  unfold W14; simp only [atTc]
  rw [Function.update_of_ne (by decide)]
set_option maxHeartbeats 1000000 in
theorem hF5_w5 (c : Dev nD) : (pdats m 5 c).arrAt ⟨5, by decide⟩ cfg5.N = atTc c (W14 m c) (Pipeline.arrRef spec5 ⟨5, by decide⟩) := by
  rw [pdats_5]
  refine (((dat5 (fun c => atTc c (W13 m c)) c).arrAt_in ⟨5, by decide⟩ rfl _).trans (A_eq5 _ c ⟨5, by decide⟩)).trans ?_
  unfold W14; simp only [atTc]
  rw [Function.update_of_ne (by decide)]
set_option maxHeartbeats 1000000 in
theorem hF5_w6 (c : Dev nD) : (pdats m 5 c).arrAt ⟨6, by decide⟩ cfg5.N = atTc c (W14 m c) (Pipeline.arrRef spec5 ⟨6, by decide⟩) := by
  rw [pdats_5]
  refine (((dat5 (fun c => atTc c (W13 m c)) c).arrAt_in ⟨6, by decide⟩ rfl _).trans (A_eq5 _ c ⟨6, by decide⟩)).trans ?_
  unfold W14; simp only [atTc]
  rw [Function.update_of_ne (by decide)]
set_option maxHeartbeats 1000000 in
theorem hF5_w7 (c : Dev nD) : (pdats m 5 c).arrAt ⟨7, by decide⟩ cfg5.N = atTc c (W14 m c) (Pipeline.arrRef spec5 ⟨7, by decide⟩) := by
  rw [pdats_5]
  refine (((dat5 (fun c => atTc c (W13 m c)) c).arrAt_in ⟨7, by decide⟩ rfl _).trans (A_eq5 _ c ⟨7, by decide⟩)).trans ?_
  unfold W14; simp only [atTc]
  rw [Function.update_of_ne (by decide)]
set_option maxHeartbeats 1000000 in
theorem hF5_w8 (c : Dev nD) : (pdats m 5 c).arrAt ⟨8, by decide⟩ cfg5.N = atTc c (W14 m c) (Pipeline.arrRef spec5 ⟨8, by decide⟩) := by
  rw [pdats_5]
  refine (((dat5 (fun c => atTc c (W13 m c)) c).arrAt_in ⟨8, by decide⟩ rfl _).trans (A_eq5 _ c ⟨8, by decide⟩)).trans ?_
  unfold W14; simp only [atTc]
  rw [Function.update_of_ne (by decide)]
set_option maxHeartbeats 1000000 in
theorem hF5_w9 (c : Dev nD) : (pdats m 5 c).arrAt ⟨9, by decide⟩ cfg5.N = atTc c (W14 m c) (Pipeline.arrRef spec5 ⟨9, by decide⟩) := by
  rw [pdats_5]
  refine (((dat5 (fun c => atTc c (W13 m c)) c).arrAt_in ⟨9, by decide⟩ rfl _).trans (A_eq5 _ c ⟨9, by decide⟩)).trans ?_
  unfold W14; simp only [atTc]
  rw [Function.update_of_ne (by decide)]
set_option maxHeartbeats 1000000 in
theorem hF5_w10 (c : Dev nD) : (pdats m 5 c).arrAt ⟨10, by decide⟩ cfg5.N = atTc c (W14 m c) (Pipeline.arrRef spec5 ⟨10, by decide⟩) := by
  rw [pdats_5]
  refine (((dat5 (fun c => atTc c (W13 m c)) c).arrAt_in ⟨10, by decide⟩ rfl _).trans (A_eq5 _ c ⟨10, by decide⟩)).trans ?_
  unfold W14; simp only [atTc]
  rw [Function.update_of_ne (by decide)]
set_option maxHeartbeats 1000000 in
theorem hF5_w11 (c : Dev nD) : (pdats m 5 c).arrAt ⟨11, by decide⟩ cfg5.N = atTc c (W14 m c) (Pipeline.arrRef spec5 ⟨11, by decide⟩) := by
  rw [pdats_5]
  unfold W14; simp only [atTc]
  rw [Function.update_self]
  first | done | rfl

set_option maxHeartbeats 1000000 in
theorem hF5 (c : Dev nD) : ∀ w : Fin cfg5.W, (pdats m 5 c).arrAt w cfg5.N = atTc c (W14 m c) (Pipeline.arrRef spec5 w)
  | ⟨0, _⟩ => hF5_w0 m c
  | ⟨1, _⟩ => hF5_w1 m c
  | ⟨2, _⟩ => hF5_w2 m c
  | ⟨3, _⟩ => hF5_w3 m c
  | ⟨4, _⟩ => hF5_w4 m c
  | ⟨5, _⟩ => hF5_w5 m c
  | ⟨6, _⟩ => hF5_w6 m c
  | ⟨7, _⟩ => hF5_w7 m c
  | ⟨8, _⟩ => hF5_w8 m c
  | ⟨9, _⟩ => hF5_w9 m c
  | ⟨10, _⟩ => hF5_w10 m c
  | ⟨11, _⟩ => hF5_w11 m c

/-- Every buffer that is no array of the pipeline is as at the entry. -/
theorem hrest5 (c : Dev nD) : ∀ b, b ∉ Finset.univ.image (Pipeline.arrRef spec5) → atTc c (W14 m c) b = atTc c (W13 m c) b := by
  intro b hb
  unfold W14; simp only [atTc]
  rw [Function.update_of_ne (fun h => hb (Finset.mem_image.mpr ⟨⟨11, by decide⟩, Finset.mem_univ _, (Proc.devRef_injective _ h).symm⟩))]

set_option backward.isDefEq.respectTransparency.types false in
noncomputable def reg5 : Pipeline.RegionSeg (pcfgs (F := F)) adm (pdats m) () defs₀ Variants.none L0 lv0 5 where
  win := launch5.win.to₀
  block_pos := launch5.block_pos
  stage_whole := launch5.stage_whole
  K := PEmpty
  osem k := k.elim
  ho := Pipeline.OwnSemFacts.none _
  hbody c := by rw [pdats_5]; exact (body_obligation5 (fun c => atTc c (W13 m c)) c).loose
  hwaits := Pipeline.hwaits_of_owed_zero _ _ _ _ L0 lv0 5 fun _ _ => rfl
  pre c := iprop(StableHlo.held (c : Thread nD τ) (Pipeline.ucRefs τ sig) (V13 m (outs m) c) ∗ Rst c)
  post c := iprop(StableHlo.held (c : Thread nD τ) (Pipeline.ucRefs τ sig) (V14 m (outs m) c) ∗ Rst c)
  X c := iprop(∃ r, prngReg c r)
  Y c := iprop(∃ r, prngReg c r)
  Z c := Pipeline.unscopedRest (Ix := Unit) (Name := ℕ) (U := UR sig nD τ) (Lvl := ℕ) spec5 c (atTc c (W13 m c))
  hentry c := by
    rw [Pipeline.ownSems0_none]
    have hsplit := Pipeline.arrays_of_unscopedBufs (p := 5) (pcfgs (F := F)) adm (pdats m) launch5.win launch5.arr_whole c
      ((pdats m 5 c).share_full fun _ => rfl) (atTc c (W13 m c)) fun _ => rfl
    rw [Pipeline.unscopedBufs_held] at hsplit
    rw [V13_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc c (W13 m c)) (atTc c (W14 m c)) ((pdats m 5 c).arrAt · cfg5.N) (hF5 m c) (hrest5 m c)
    rw [Pipeline.unscopedBufs_held] at hjoin
    rw [V14_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.K.Reg6.lean ====
/-
  Region 6 of @main as a segment: entered from every unscoped buffer at the contents the fold reaches before it,
  left with its output arrays at their folded write-backs and every other buffer untouched; the generator register
  goes into the kernel's invariant and comes back; nothing is owed; the kernel has no semaphore of its own.
-/
import proofs.«129379_j32899449487582_2_alg».proof.Proof.K.Fold
import Idealize.ShloMosaic.Lib.Pipeline.RegionsLoop
import Idealize.ShloMosaic.Lib.Pipeline.FrameSuffix

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! At the region's exit each of its arrays holds what the pipeline leaves: an input its entry contents, an output
    its folded write-backs. -/
set_option maxHeartbeats 1000000 in
theorem hF6_w0 (c : Dev nD) : (pdats m 6 c).arrAt ⟨0, by decide⟩ cfg6.N = atTc c (W16 m c) (Pipeline.arrRef spec6 ⟨0, by decide⟩) := by
  rw [pdats_6]
  refine (((dat6 (fun c => atTc c (W15 m c)) c).arrAt_in ⟨0, by decide⟩ rfl _).trans (A_eq6 _ c ⟨0, by decide⟩)).trans ?_
  unfold W16; simp only [atTc]
  rw [Function.update_of_ne (by decide)]; rw [Function.update_of_ne (by decide)]
set_option maxHeartbeats 1000000 in
theorem hF6_w1 (c : Dev nD) : (pdats m 6 c).arrAt ⟨1, by decide⟩ cfg6.N = atTc c (W16 m c) (Pipeline.arrRef spec6 ⟨1, by decide⟩) := by
  rw [pdats_6]
  refine (((dat6 (fun c => atTc c (W15 m c)) c).arrAt_in ⟨1, by decide⟩ rfl _).trans (A_eq6 _ c ⟨1, by decide⟩)).trans ?_
  unfold W16; simp only [atTc]
  rw [Function.update_of_ne (by decide)]; rw [Function.update_of_ne (by decide)]
set_option maxHeartbeats 1000000 in
theorem hF6_w2 (c : Dev nD) : (pdats m 6 c).arrAt ⟨2, by decide⟩ cfg6.N = atTc c (W16 m c) (Pipeline.arrRef spec6 ⟨2, by decide⟩) := by
  rw [pdats_6]
  refine (((dat6 (fun c => atTc c (W15 m c)) c).arrAt_in ⟨2, by decide⟩ rfl _).trans (A_eq6 _ c ⟨2, by decide⟩)).trans ?_
  unfold W16; simp only [atTc]
  rw [Function.update_of_ne (by decide)]; rw [Function.update_of_ne (by decide)]
set_option maxHeartbeats 1000000 in
theorem hF6_w3 (c : Dev nD) : (pdats m 6 c).arrAt ⟨3, by decide⟩ cfg6.N = atTc c (W16 m c) (Pipeline.arrRef spec6 ⟨3, by decide⟩) := by
  rw [pdats_6]
  refine (((dat6 (fun c => atTc c (W15 m c)) c).arrAt_in ⟨3, by decide⟩ rfl _).trans (A_eq6 _ c ⟨3, by decide⟩)).trans ?_
  unfold W16; simp only [atTc]
  rw [Function.update_of_ne (by decide)]; rw [Function.update_of_ne (by decide)]
set_option maxHeartbeats 1000000 in
theorem hF6_w4 (c : Dev nD) : (pdats m 6 c).arrAt ⟨4, by decide⟩ cfg6.N = atTc c (W16 m c) (Pipeline.arrRef spec6 ⟨4, by decide⟩) := by
  rw [pdats_6]
  refine (((dat6 (fun c => atTc c (W15 m c)) c).arrAt_in ⟨4, by decide⟩ rfl _).trans (A_eq6 _ c ⟨4, by decide⟩)).trans ?_
  unfold W16; simp only [atTc]
  rw [Function.update_of_ne (by decide)]; rw [Function.update_of_ne (by decide)]
set_option maxHeartbeats 1000000 in
theorem hF6_w5 (c : Dev nD) : (pdats m 6 c).arrAt ⟨5, by decide⟩ cfg6.N = atTc c (W16 m c) (Pipeline.arrRef spec6 ⟨5, by decide⟩) := by
  rw [pdats_6]
  refine (((dat6 (fun c => atTc c (W15 m c)) c).arrAt_in ⟨5, by decide⟩ rfl _).trans (A_eq6 _ c ⟨5, by decide⟩)).trans ?_
  unfold W16; simp only [atTc]
  rw [Function.update_of_ne (by decide)]; rw [Function.update_of_ne (by decide)]
set_option maxHeartbeats 1000000 in
theorem hF6_w6 (c : Dev nD) : (pdats m 6 c).arrAt ⟨6, by decide⟩ cfg6.N = atTc c (W16 m c) (Pipeline.arrRef spec6 ⟨6, by decide⟩) := by
  rw [pdats_6]
  refine (((dat6 (fun c => atTc c (W15 m c)) c).arrAt_in ⟨6, by decide⟩ rfl _).trans (A_eq6 _ c ⟨6, by decide⟩)).trans ?_
  unfold W16; simp only [atTc]
  rw [Function.update_of_ne (by decide)]; rw [Function.update_of_ne (by decide)]
set_option maxHeartbeats 1000000 in
theorem hF6_w7 (c : Dev nD) : (pdats m 6 c).arrAt ⟨7, by decide⟩ cfg6.N = atTc c (W16 m c) (Pipeline.arrRef spec6 ⟨7, by decide⟩) := by
  rw [pdats_6]
  unfold W16; simp only [atTc]
  rw [Function.update_of_ne (by decide), Function.update_self]
  first | done | rfl
set_option maxHeartbeats 1000000 in
theorem hF6_w8 (c : Dev nD) : (pdats m 6 c).arrAt ⟨8, by decide⟩ cfg6.N = atTc c (W16 m c) (Pipeline.arrRef spec6 ⟨8, by decide⟩) := by
  rw [pdats_6]
  unfold W16; simp only [atTc]
  rw [Function.update_self]
  first | done | rfl

set_option maxHeartbeats 1000000 in
theorem hF6 (c : Dev nD) : ∀ w : Fin cfg6.W, (pdats m 6 c).arrAt w cfg6.N = atTc c (W16 m c) (Pipeline.arrRef spec6 w)
  | ⟨0, _⟩ => hF6_w0 m c
  | ⟨1, _⟩ => hF6_w1 m c
  | ⟨2, _⟩ => hF6_w2 m c
  | ⟨3, _⟩ => hF6_w3 m c
  | ⟨4, _⟩ => hF6_w4 m c
  | ⟨5, _⟩ => hF6_w5 m c
  | ⟨6, _⟩ => hF6_w6 m c
  | ⟨7, _⟩ => hF6_w7 m c
  | ⟨8, _⟩ => hF6_w8 m c

/-- Every buffer that is no array of the pipeline is as at the entry. -/
theorem hrest6 (c : Dev nD) : ∀ b, b ∉ Finset.univ.image (Pipeline.arrRef spec6) → atTc c (W16 m c) b = atTc c (W15 m c) b := by
  intro b hb
  unfold W16; simp only [atTc]
  rw [Function.update_of_ne (fun h => hb (Finset.mem_image.mpr ⟨⟨8, by decide⟩, Finset.mem_univ _, (Proc.devRef_injective _ h).symm⟩))]
  rw [Function.update_of_ne (fun h => hb (Finset.mem_image.mpr ⟨⟨7, by decide⟩, Finset.mem_univ _, (Proc.devRef_injective _ h).symm⟩))]

set_option backward.isDefEq.respectTransparency.types false in
noncomputable def reg6 : Pipeline.RegionSeg (pcfgs (F := F)) adm (pdats m) () defs₀ Variants.none L0 lv0 6 where
  win := launch6.win.to₀
  block_pos := launch6.block_pos
  stage_whole := launch6.stage_whole
  K := PEmpty
  osem k := k.elim
  ho := Pipeline.OwnSemFacts.none _
  hbody c := by rw [pdats_6]; exact (body_obligation6 (fun c => atTc c (W15 m c)) c).loose
  hwaits := Pipeline.hwaits_of_owed_zero _ _ _ _ L0 lv0 6 fun _ _ => rfl
  pre c := iprop(StableHlo.held (c : Thread nD τ) (Pipeline.ucRefs τ sig) (V15 m (outs m) c) ∗ Rst c)
  post c := iprop(StableHlo.held (c : Thread nD τ) (Pipeline.ucRefs τ sig) (V16 m (outs m) c) ∗ Rst c)
  X c := iprop(∃ r, prngReg c r)
  Y c := iprop(∃ r, prngReg c r)
  Z c := Pipeline.unscopedRest (Ix := Unit) (Name := ℕ) (U := UR sig nD τ) (Lvl := ℕ) spec6 c (atTc c (W15 m c))
  hentry c := by
    rw [Pipeline.ownSems0_none]
    have hsplit := Pipeline.arrays_of_unscopedBufs (p := 6) (pcfgs (F := F)) adm (pdats m) launch6.win launch6.arr_whole c
      ((pdats m 6 c).share_full fun _ => rfl) (atTc c (W15 m c)) fun _ => rfl
    rw [Pipeline.unscopedBufs_held] at hsplit
    rw [V15_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [pdats_6]
    iintro ⟨Hp, -, Hr⟩
    iapply (hin6 (fun c => atTc c (W15 m c)) c)
    unfold Pipeline.ΦA
    isplitl [Hr]; · iexact Hr
    iexact Hp
  hout c := by
    rw [Pipeline.ownSems0_none, pdats_6]
    iintro H
    ihave H2 := (hout6 (fun c => atTc c (W15 m c)) c) $$ H
    unfold Pipeline.ΦA
    icases H2 with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc c (W15 m c)) (atTc c (W16 m c)) ((pdats m 6 c).arrAt · cfg6.N) (hF6 m c) (hrest6 m c)
    rw [Pipeline.unscopedBufs_held] at hjoin
    rw [V16_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.K.Reg7.lean ====
/-
  Region 7 of @main as a segment: entered from every unscoped buffer at the contents the fold reaches before it,
  left with its output arrays at their folded write-backs and every other buffer untouched; the generator register
  goes into the kernel's invariant and comes back; nothing is owed; the kernel has no semaphore of its own.
-/
import proofs.«129379_j32899449487582_2_alg».proof.Proof.K.Fold
import Idealize.ShloMosaic.Lib.Pipeline.RegionsLoop
import Idealize.ShloMosaic.Lib.Pipeline.FrameSuffix

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! At the region's exit each of its arrays holds what the pipeline leaves: an input its entry contents, an output
    its folded write-backs. -/
set_option maxHeartbeats 1000000 in
theorem hF7_w0 (c : Dev nD) : (pdats m 7 c).arrAt ⟨0, by decide⟩ cfg7.N = atTc c (W18 m c) (Pipeline.arrRef spec7 ⟨0, by decide⟩) := by
  rw [pdats_7]
  refine (((dat7 (fun c => atTc c (W17 m c)) c).arrAt_in ⟨0, by decide⟩ rfl _).trans (A_eq7 _ c ⟨0, by decide⟩)).trans ?_
  unfold W18; simp only [atTc]
  rw [Function.update_of_ne (by decide)]
set_option maxHeartbeats 1000000 in
theorem hF7_w1 (c : Dev nD) : (pdats m 7 c).arrAt ⟨1, by decide⟩ cfg7.N = atTc c (W18 m c) (Pipeline.arrRef spec7 ⟨1, by decide⟩) := by
  rw [pdats_7]
  refine (((dat7 (fun c => atTc c (W17 m c)) c).arrAt_in ⟨1, by decide⟩ rfl _).trans (A_eq7 _ c ⟨1, by decide⟩)).trans ?_
  unfold W18; simp only [atTc]
  rw [Function.update_of_ne (by decide)]
set_option maxHeartbeats 1000000 in
theorem hF7_w2 (c : Dev nD) : (pdats m 7 c).arrAt ⟨2, by decide⟩ cfg7.N = atTc c (W18 m c) (Pipeline.arrRef spec7 ⟨2, by decide⟩) := by
  rw [pdats_7]
  refine (((dat7 (fun c => atTc c (W17 m c)) c).arrAt_in ⟨2, by decide⟩ rfl _).trans (A_eq7 _ c ⟨2, by decide⟩)).trans ?_
  unfold W18; simp only [atTc]
  rw [Function.update_of_ne (by decide)]
set_option maxHeartbeats 1000000 in
theorem hF7_w3 (c : Dev nD) : (pdats m 7 c).arrAt ⟨3, by decide⟩ cfg7.N = atTc c (W18 m c) (Pipeline.arrRef spec7 ⟨3, by decide⟩) := by
  rw [pdats_7]
  refine (((dat7 (fun c => atTc c (W17 m c)) c).arrAt_in ⟨3, by decide⟩ rfl _).trans (A_eq7 _ c ⟨3, by decide⟩)).trans ?_
  unfold W18; simp only [atTc]
  rw [Function.update_of_ne (by decide)]
set_option maxHeartbeats 1000000 in
theorem hF7_w4 (c : Dev nD) : (pdats m 7 c).arrAt ⟨4, by decide⟩ cfg7.N = atTc c (W18 m c) (Pipeline.arrRef spec7 ⟨4, by decide⟩) := by
  rw [pdats_7]
  refine (((dat7 (fun c => atTc c (W17 m c)) c).arrAt_in ⟨4, by decide⟩ rfl _).trans (A_eq7 _ c ⟨4, by decide⟩)).trans ?_
  unfold W18; simp only [atTc]
  rw [Function.update_of_ne (by decide)]
set_option maxHeartbeats 1000000 in
theorem hF7_w5 (c : Dev nD) : (pdats m 7 c).arrAt ⟨5, by decide⟩ cfg7.N = atTc c (W18 m c) (Pipeline.arrRef spec7 ⟨5, by decide⟩) := by
  rw [pdats_7]
  refine (((dat7 (fun c => atTc c (W17 m c)) c).arrAt_in ⟨5, by decide⟩ rfl _).trans (A_eq7 _ c ⟨5, by decide⟩)).trans ?_
  unfold W18; simp only [atTc]
  rw [Function.update_of_ne (by decide)]
set_option maxHeartbeats 1000000 in
theorem hF7_w6 (c : Dev nD) : (pdats m 7 c).arrAt ⟨6, by decide⟩ cfg7.N = atTc c (W18 m c) (Pipeline.arrRef spec7 ⟨6, by decide⟩) := by
  rw [pdats_7]
  refine (((dat7 (fun c => atTc c (W17 m c)) c).arrAt_in ⟨6, by decide⟩ rfl _).trans (A_eq7 _ c ⟨6, by decide⟩)).trans ?_
  unfold W18; simp only [atTc]
  rw [Function.update_of_ne (by decide)]
set_option maxHeartbeats 1000000 in
theorem hF7_w7 (c : Dev nD) : (pdats m 7 c).arrAt ⟨7, by decide⟩ cfg7.N = atTc c (W18 m c) (Pipeline.arrRef spec7 ⟨7, by decide⟩) := by
  rw [pdats_7]
  refine (((dat7 (fun c => atTc c (W17 m c)) c).arrAt_in ⟨7, by decide⟩ rfl _).trans (A_eq7 _ c ⟨7, by decide⟩)).trans ?_
  unfold W18; simp only [atTc]
  rw [Function.update_of_ne (by decide)]
set_option maxHeartbeats 1000000 in
theorem hF7_w8 (c : Dev nD) : (pdats m 7 c).arrAt ⟨8, by decide⟩ cfg7.N = atTc c (W18 m c) (Pipeline.arrRef spec7 ⟨8, by decide⟩) := by
  rw [pdats_7]
  refine (((dat7 (fun c => atTc c (W17 m c)) c).arrAt_in ⟨8, by decide⟩ rfl _).trans (A_eq7 _ c ⟨8, by decide⟩)).trans ?_
  unfold W18; simp only [atTc]
  rw [Function.update_of_ne (by decide)]
set_option maxHeartbeats 1000000 in
theorem hF7_w9 (c : Dev nD) : (pdats m 7 c).arrAt ⟨9, by decide⟩ cfg7.N = atTc c (W18 m c) (Pipeline.arrRef spec7 ⟨9, by decide⟩) := by
  rw [pdats_7]
  refine (((dat7 (fun c => atTc c (W17 m c)) c).arrAt_in ⟨9, by decide⟩ rfl _).trans (A_eq7 _ c ⟨9, by decide⟩)).trans ?_
  unfold W18; simp only [atTc]
  rw [Function.update_of_ne (by decide)]
set_option maxHeartbeats 1000000 in
theorem hF7_w10 (c : Dev nD) : (pdats m 7 c).arrAt ⟨10, by decide⟩ cfg7.N = atTc c (W18 m c) (Pipeline.arrRef spec7 ⟨10, by decide⟩) := by
  rw [pdats_7]
  refine (((dat7 (fun c => atTc c (W17 m c)) c).arrAt_in ⟨10, by decide⟩ rfl _).trans (A_eq7 _ c ⟨10, by decide⟩)).trans ?_
  unfold W18; simp only [atTc]
  rw [Function.update_of_ne (by decide)]
set_option maxHeartbeats 1000000 in
theorem hF7_w11 (c : Dev nD) : (pdats m 7 c).arrAt ⟨11, by decide⟩ cfg7.N = atTc c (W18 m c) (Pipeline.arrRef spec7 ⟨11, by decide⟩) := by
  rw [pdats_7]
  unfold W18; simp only [atTc]
  rw [Function.update_self]
  first | done | rfl

set_option maxHeartbeats 1000000 in
theorem hF7 (c : Dev nD) : ∀ w : Fin cfg7.W, (pdats m 7 c).arrAt w cfg7.N = atTc c (W18 m c) (Pipeline.arrRef spec7 w)
  | ⟨0, _⟩ => hF7_w0 m c
  | ⟨1, _⟩ => hF7_w1 m c
  | ⟨2, _⟩ => hF7_w2 m c
  | ⟨3, _⟩ => hF7_w3 m c
  | ⟨4, _⟩ => hF7_w4 m c
  | ⟨5, _⟩ => hF7_w5 m c
  | ⟨6, _⟩ => hF7_w6 m c
  | ⟨7, _⟩ => hF7_w7 m c
  | ⟨8, _⟩ => hF7_w8 m c
  | ⟨9, _⟩ => hF7_w9 m c
  | ⟨10, _⟩ => hF7_w10 m c
  | ⟨11, _⟩ => hF7_w11 m c

/-- Every buffer that is no array of the pipeline is as at the entry. -/
theorem hrest7 (c : Dev nD) : ∀ b, b ∉ Finset.univ.image (Pipeline.arrRef spec7) → atTc c (W18 m c) b = atTc c (W17 m c) b := by
  intro b hb
  unfold W18; simp only [atTc]
  rw [Function.update_of_ne (fun h => hb (Finset.mem_image.mpr ⟨⟨11, by decide⟩, Finset.mem_univ _, (Proc.devRef_injective _ h).symm⟩))]

set_option backward.isDefEq.respectTransparency.types false in
noncomputable def reg7 : Pipeline.RegionSeg (pcfgs (F := F)) adm (pdats m) () defs₀ Variants.none L0 lv0 7 where
  win := launch7.win.to₀
  block_pos := launch7.block_pos
  stage_whole := launch7.stage_whole
  K := PEmpty
  osem k := k.elim
  ho := Pipeline.OwnSemFacts.none _
  hbody c := by rw [pdats_7]; exact (body_obligation7 (fun c => atTc c (W17 m c)) c).loose
  hwaits := Pipeline.hwaits_of_owed_zero _ _ _ _ L0 lv0 7 fun _ _ => rfl
  pre c := iprop(StableHlo.held (c : Thread nD τ) (Pipeline.ucRefs τ sig) (V17 m (outs m) c) ∗ Rst c)
  post c := iprop(StableHlo.held (c : Thread nD τ) (Pipeline.ucRefs τ sig) (V18 m (outs m) c) ∗ Rst c)
  X c := iprop(∃ r, prngReg c r)
  Y c := iprop(∃ r, prngReg c r)
  Z c := Pipeline.unscopedRest (Ix := Unit) (Name := ℕ) (U := UR sig nD τ) (Lvl := ℕ) spec7 c (atTc c (W17 m c))
  hentry c := by
    rw [Pipeline.ownSems0_none]
    have hsplit := Pipeline.arrays_of_unscopedBufs (p := 7) (pcfgs (F := F)) adm (pdats m) launch7.win launch7.arr_whole c
      ((pdats m 7 c).share_full fun _ => rfl) (atTc c (W17 m c)) fun _ => rfl
    rw [Pipeline.unscopedBufs_held] at hsplit
    rw [V17_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atTc c (W17 m c)) (atTc c (W18 m c)) ((pdats m 7 c).arrAt · cfg7.N) (hF7 m c) (hrest7 m c)
    rw [Pipeline.unscopedBufs_held] at hjoin
    rw [V18_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.K.Frame.lean ====
/-
  The frame of the program of eight kernel regions: the generated conditional frame applied to the eight regions'
  segment records, the launch dealing every core its generator register and the empty debt.
-/
import proofs.«129379_j32899449487582_2_alg».proof.Proof.K.Reg0
import proofs.«129379_j32899449487582_2_alg».proof.Proof.K.Reg1
import proofs.«129379_j32899449487582_2_alg».proof.Proof.K.Reg2
import proofs.«129379_j32899449487582_2_alg».proof.Proof.K.Reg3
import proofs.«129379_j32899449487582_2_alg».proof.Proof.K.Reg4
import proofs.«129379_j32899449487582_2_alg».proof.Proof.K.Reg5
import proofs.«129379_j32899449487582_2_alg».proof.Proof.K.Reg6
import proofs.«129379_j32899449487582_2_alg».proof.Proof.K.Reg7

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element is the pipeline library's own, with no ghost resource beside it. -/
theorem launch_elem : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals besides the buffers makes the first rest state on every core. -/
theorem launch_rest : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L0 lv0)
    ⊢ (|={Set.univ}=> bigSep Finset.univ (fun c : Dev nD => Rst (F := F) c) : sProp 𝕄) := by
  refine Pipeline.initEach L0 lv0 fun c => ?_
  iintro ⟨⟨-, HO, -, Hp, -⟩, -⟩
  imodintro
  isplitl [Hp]; · iexists _; iexact Hp
  iexists ∅; iexact HO

set_option backward.isDefEq.respectTransparency.types false in
/-- Every weakly fair execution of @main terminates without a fault and leaves each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m emb₁ () Variants.none L0 lv0 (fun _ _ => rfl) ρ (outs m) (pdats m) 0 (fun _ => iprop(emp))
    (initOf (Pipeline.cells cfgs cellOf_inj) (Pipeline.launchToks cfgs cellOf_inj)) launch_elem
    (fun _ c => Rst c) (launch_rest ρ) (fun c => by iintro ⟨-, HO⟩; iexact HO)
    (reg0 m) (fun c => .rfl) (fun c => .rfl)
    (reg1 m) (fun c => .rfl) (fun c => .rfl)
    (reg2 m) (fun c => .rfl) (fun c => .rfl)
    (reg3 m) (fun c => .rfl) (fun c => .rfl)
    (reg4 m) (fun c => .rfl) (fun c => .rfl)
    (reg5 m) (fun c => .rfl) (fun c => .rfl)
    (reg6 m) (fun c => .rfl) (fun c => .rfl)
    (reg7 m) (fun c => .rfl) (fun c => .rfl)

end Cert.Kernel.Gen

end
-- ==== Proof.KI.Stats0.lean ====
/- The first layer's statistics kernel, as the pipeline runs it on one core: a grid of 2 × 10 points, each point
   one tile of 5000 rows. At every point the body computes the tile's activations
   y = prelu (bf16 h · bf16 W_self + bf16 (raw_agg · invdeg) · bf16 W_neigh + bias), adds the column sums of y to a
   first accumulator row and the column sums of y · y to a second accumulator row; the two accumulator rows live in
   scratch buffers that keep their contents from one point to the next. At the first tile of a core (point ≡ 0 mod 10)
   both accumulators are first reset to zero; at the last tile of a core (point ≡ 9 mod 10) each accumulator row,
   repeated over 8 rows, is stored into the core's block of one of the two outputs, which is then written back.

   This module states and proves, for the contents V of the buffers when the region is entered: the body's triple in
   each of the three control cases (first / middle / last tile of a core), what the two outputs' buffers and the two
   accumulators hold after each point (by recursion on the point), the pipeline's proof data over these, and the
   body obligation at every point. -/
import proofs.«129379_j32899449487582_2_alg».proof.Proof.Gen.KernelIdeal.Launch
import proofs.«129379_j32899449487582_2_alg».proof.Proof.Gen.KernelIdeal.Skeleton
import proofs.«129379_j32899449487582_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an input that is
    not fetched at a point has the block index of the point before), for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an input that is
    not fetched at a point has the block index of the point before), for any proof data whose array is `V`'s and whose
    body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an input that is
    not fetched at a point has the block index of the point before), for any proof data whose array is `V`'s and whose
    body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an input that is
    not fetched at a point has the block index of the point before), for any proof data whose array is `V`'s and whose
    body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an input that is
    not fetched at a point has the block index of the point before), for any proof data whose array is `V`'s and whose
    body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an input that is
    not fetched at a point has the block index of the point before), for any proof data whose array is `V`'s and whose
    body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (an input that is
    not fetched at a point has the block index of the point before), for any proof data whose array is `V`'s and whose
    body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first `scf.if` (reset the accumulators), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 10): the first tile of each core — decided over the grid. -/
theorem hcond0_0 : ∀ t : Fin cfg0.N, cond0_0 (grid0.coords t) ↔ t.val % 10 = 0 :=
  (by decide +kernel : ∀ t : Fin grid0.N, cond0_0 (grid0.coords t) ↔ t.val % 10 = 0)

/-- The condition of the body's second `scf.if` (store the accumulators into the outputs), from the grid coordinates. -/
abbrev cond0_1 (i : grid0.Coords) : Prop := k0_cond2 i = 1#1
/-- It holds at the points ≡ 9 (mod 10): the last tile of each core — decided over the grid. -/
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- Window 6 is never idle (an input). -/
theorem liveAt0_6 : ∀ t : Fin cfg0.N, cfg0.idle 6 (grid0.coords t) = false := by decide +kernel
/-- At a first tile output 7 is idle: nothing is stored into it, -/
theorem idleAt0_7_A : ∀ t : Fin cfg0.N, cond0_0 (grid0.coords t) → ¬cond0_1 (grid0.coords t) → cfg0.idle 7 (grid0.coords t) = true := by decide +kernel
/-- and its block is not written back. -/
theorem noFlush0_7_A : ∀ t : Fin cfg0.N, cond0_0 (grid0.coords t) → ¬cond0_1 (grid0.coords t) → (cfg0.win 7).flush t = false := by decide +kernel
/-- At a middle tile output 7 is idle: nothing is stored into it, -/
theorem idleAt0_7_B : ∀ t : Fin cfg0.N, ¬cond0_0 (grid0.coords t) → ¬cond0_1 (grid0.coords t) → cfg0.idle 7 (grid0.coords t) = true := by decide +kernel
/-- and its block is not written back. -/
theorem noFlush0_7_B : ∀ t : Fin cfg0.N, ¬cond0_0 (grid0.coords t) → ¬cond0_1 (grid0.coords t) → (cfg0.win 7).flush t = false := by decide +kernel
/-- At a last tile output 7 is live: the body stores its whole block. -/
theorem liveAt0_7_C : ∀ t : Fin cfg0.N, ¬cond0_0 (grid0.coords t) → cond0_1 (grid0.coords t) → cfg0.idle 7 (grid0.coords t) = false := by decide +kernel
/-- At a first tile output 8 is idle: nothing is stored into it, -/
theorem idleAt0_8_A : ∀ t : Fin cfg0.N, cond0_0 (grid0.coords t) → ¬cond0_1 (grid0.coords t) → cfg0.idle 8 (grid0.coords t) = true := by decide +kernel
/-- and its block is not written back. -/
theorem noFlush0_8_A : ∀ t : Fin cfg0.N, cond0_0 (grid0.coords t) → ¬cond0_1 (grid0.coords t) → (cfg0.win 8).flush t = false := by decide +kernel
/-- At a middle tile output 8 is idle: nothing is stored into it, -/
theorem idleAt0_8_B : ∀ t : Fin cfg0.N, ¬cond0_0 (grid0.coords t) → ¬cond0_1 (grid0.coords t) → cfg0.idle 8 (grid0.coords t) = true := by decide +kernel
/-- and its block is not written back. -/
theorem noFlush0_8_B : ∀ t : Fin cfg0.N, ¬cond0_0 (grid0.coords t) → ¬cond0_1 (grid0.coords t) → (cfg0.win 8).flush t = false := by decide +kernel
/-- At a last tile output 8 is live: the body stores its whole block. -/
theorem liveAt0_8_C : ∀ t : Fin cfg0.N, ¬cond0_0 (grid0.coords t) → cond0_1 (grid0.coords t) → cfg0.idle 8 (grid0.coords t) = false := by decide +kernel

/-! ## The memrefs the body is called with -/

/-- One staging buffer of output window 7, through which its contents are stated (the choice does not matter). -/
abbrev VO0_7 : View sig .tc .vmem S8x128 .f32 := (Memref.whole cc0_stg7_0 : Memref sig .tc .vmem S8x128 .f32).view
/-- One staging buffer of output window 8, through which its contents are stated (the choice does not matter). -/
abbrev VO0_8 : View sig .tc .vmem S8x128 .f32 := (Memref.whole cc0_stg8_0 : Memref sig .tc .vmem S8x128 .f32).view
/-- Each window's current staging memref at point `t`, spelled as the pipeline passes it, and its wholeness. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128 .f32 := win0_8.stage (cfg0.slots t 8)
abbrev hs0_8 (t : Fin cfg0.N) : (ms0_8 t).IsWhole := hstage0_8 ((cfg0.slots t 8).cast nbuf0_8)
/-- The two accumulator rows: whole scoped buffers of the kernel's own, passed beside the windows. -/
abbrev scM0_0 : Memref sig .tc .vmem S1x128 .f32 := Memref.whole cc0_scratch0
abbrev scM0_1 : Memref sig .tc .vmem S1x128 .f32 := Memref.whole cc0_scratch1
/-- Accumulator 0 as a view: what it holds is stated through it. -/
abbrev VS0_0 : View sig .tc .vmem S1x128 .f32 := scM0_0.view
/-- Accumulator 1 as a view: what it holds is stated through it. -/
abbrev VS0_1 : View sig .tc .vmem S1x128 .f32 := scM0_1.view

/-- The region's invariant with the two accumulators as memrefs owned at some contents; every other scoped buffer stays
    unopened beside them. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

-- (the run's proof term is large: the definition's epilogue walks it past the default budget)
set_option maxHeartbeats 1000000 in
/-- THE BODY IN CASE A: the first tile of a core (the accumulators are reset, the outputs are not stored); points 0, 10. What the body's stores leave in the
    two accumulators, as pieces (last first), WITH the proof that on whole memrefs — the inputs' at their contents
    `x·`, the outputs' at contents `xi·` handed back untouched, the accumulators at anything — the body runs to the
    continuation holding the inputs' as they were and each accumulator with its pieces written. The pieces are
    found by running the body. -/
noncomputable def kernelRun0_A (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_stats_kernel i arg2 harg2 arg3 harg3 arg4 harg4 arg5 harg5 arg6 harg6 arg7 harg7 arg8 harg8 arg9 harg9 arg10 harg10 arg11 harg11 arg12 harg12) K } := by
  refine ⟨[], [], ?_, ?_, fun xi7 xi8 E K => ?run⟩
  case run =>
    simp only [cc0_stats_kernel_eq_skeleton]; unfold cc0_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

-- (the run's proof term is large: the definition's epilogue walks it past the default budget)
set_option maxHeartbeats 1000000 in
/-- THE BODY IN CASE B: a middle tile of a core (the accumulators are not reset, the outputs are not stored); the other points. What the body's stores leave in the
    two accumulators, as pieces (last first), WITH the proof that on whole memrefs — the inputs' at their contents
    `x·`, the outputs' at contents `xi·` handed back untouched, the accumulators at what the point before left (`xs·`) — the body runs to the
    continuation holding the inputs' as they were and each accumulator with its pieces written. The pieces are
    found by running the body. -/
noncomputable def kernelRun0_B (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_stats_kernel i arg2 harg2 arg3 harg3 arg4 harg4 arg5 harg5 arg6 harg6 arg7 harg7 arg8 harg8 arg9 harg9 arg10 harg10 arg11 harg11 arg12 harg12) K } := by
  refine ⟨[], [], ?_, ?_, fun xi7 xi8 E K => ?run⟩
  case run =>
    simp only [cc0_stats_kernel_eq_skeleton]; unfold cc0_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

-- (the run's proof term is large: the definition's epilogue walks it past the default budget)
set_option maxHeartbeats 1000000 in
/-- THE BODY IN CASE C: the last tile of a core (the accumulators are not reset, the outputs are stored); points 9, 19. What the body's stores leave in the
    two outputs' staging memrefs and the two accumulators, as pieces (last first), WITH the proof that on whole memrefs — the inputs' at their contents
    `x·`, the outputs' at anything, the accumulators at what the point before left (`xs·`) — the body runs to the
    continuation holding the inputs' as they were, each output's buffer with its pieces written and each accumulator with its pieces written. The pieces are
    found by running the body. -/
noncomputable def kernelRun0_C (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_stats_kernel i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_stats_kernel_eq_skeleton]; unfold cc0_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [HS0]; · iexists _; iexact HS0
    iexists _; iexact HS1

/-! ## Case A (the first tile of a core): what the body leaves -/

/-- Case A stores nothing into output 7 (the window is idle at its points and not written back there): no pieces —
    a placeholder (junk read back) that nothing consults. -/
def out0_A_7 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S8x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).1)

/-- Case A stores nothing into output 8 (the window is idle at its points and not written back there): no pieces —
    a placeholder (junk read back) that nothing consults. -/
def out0_A_8 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S8x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.1)

/-- Case A's pieces for accumulator 0 cover it (each store is of the whole row). -/
theorem scover0_A_0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1 S1x128.size (by sl_kernel_rfl) y

/-- What case A leaves in accumulator 0: its pieces read back over junk. -/
def sout0_A_0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S1x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1)

/-- Case A's pieces for accumulator 1 cover it (each store is of the whole row). -/
theorem scover0_A_1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1 S1x128.size (by sl_kernel_rfl) y

/-- What case A leaves in accumulator 1: its pieces read back over junk. -/
def sout0_A_1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S1x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1)

/-! ## Case B (a middle tile of a core): what the body leaves -/

/-- Case B stores nothing into output 7 (the window is idle at its points and not written back there): no pieces —
    a placeholder (junk read back) that nothing consults. -/
def out0_B_7 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- Case B stores nothing into output 8 (the window is idle at its points and not written back there): no pieces —
    a placeholder (junk read back) that nothing consults. -/
def out0_B_8 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- Case B's pieces for accumulator 0 cover it (each store is of the whole row). -/
theorem scover0_B_0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What case B leaves in accumulator 0: its pieces read back over junk. -/
def sout0_B_0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- Case B's pieces for accumulator 1 cover it (each store is of the whole row). -/
theorem scover0_B_1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What case B leaves in accumulator 1: its pieces read back over junk. -/
def sout0_B_1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-! ## Case C (the last tile of a core): what the body leaves -/

/-- Case C's pieces for output 7 tile its block (one store of the whole 8 × 128 block), so they cover it. -/
theorem cover0_C_7 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S8x128.size (by sl_kernel_rfl) y

/-- What case C leaves in output 7's staging buffer: its pieces read back over junk. -/
def out0_C_7 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- Case C's pieces for output 8 tile its block (one store of the whole 8 × 128 block), so they cover it. -/
theorem cover0_C_8 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S8x128.size (by sl_kernel_rfl) y

/-- What case C leaves in output 8's staging buffer: its pieces read back over junk. -/
def out0_C_8 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- Case C's pieces for accumulator 0 cover it (each store is of the whole row). -/
theorem scover0_C_0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What case C leaves in accumulator 0: its pieces read back over junk. -/
def sout0_C_0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- Case C's pieces for accumulator 1 cover it (each store is of the whole row). -/
theorem scover0_C_1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What case C leaves in accumulator 1: its pieces read back over junk. -/
def sout0_C_1 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-! ## What the outputs and the accumulators hold after each point -/

/-- THE ACCUMULATION. What the two outputs' staging buffers and the two accumulators hold after the body at position
    `n` (a tuple: output 7, output 8, accumulator 0, accumulator 1): the case the closed forms select at `n`, run at
    the point's memrefs and input blocks, the accumulators at what this leaves at `n - 1` where the case does not reset
    them. An assignment of the conditions no point meets is no case. -/
def outsAt0 (c : Dev nD) : (n : ℕ) → n < cfg0.N → Vec F S8x128 .f32 × Vec F S8x128 .f32 × Vec F S1x128 .f32 × Vec F S1x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 10 = 0 then
      if h1 : (n + 1) % 10 = 9 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 10 = 9 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2)

/-- `outsAt0` at a first tile: that case's contents. -/
theorem outsAt0_A (c : Dev nD) (t : Fin cfg0.N) (h0 : t.val % 10 = 0) (h1 : ¬t.val % 10 = 9) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

/-- `outsAt0` at a middle tile: that case's contents, over what the point before left. -/
theorem outsAt0_B (c : Dev nD) (t : Fin cfg0.N) (h0 : ¬t.val % 10 = 0) (h1 : ¬t.val % 10 = 9) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last tile: that case's contents, over what the point before left. -/
theorem outsAt0_C (c : Dev nD) (t : Fin cfg0.N) (h0 : ¬t.val % 10 = 0) (h1 : t.val % 10 = 9) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer that is no
    staging buffer at anything, the generator register at some state); afterwards the same with the two accumulators at
    what the point before left in them (`outsAt0`'s last two components). -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulators at that point's contents. -/
theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2))
      ∗ Pipeline.scopedRestBut (Ix := Unit) (Name := ℕ) (U := UR sig nD τ) (Lvl := ℕ) (Val := Elt F) spec0 c [cc0_scratch0, cc0_scratch1]) ∗ (∃ r, prngReg c r)) := rfl

/-- Before a point that is not the first: the accumulators at what the point before left. -/
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the outputs' at `outsAt0`'s first two components; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
  Φ t := PhiS0 V c t.val (Nat.le_of_lt_succ t.isLt)
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body at any point: the inputs' memrefs hold their blocks; the closed forms say which case the point is in; so that
    case's run applies. The invariant hands the body the two accumulators at what the point before left (at anything at
    the first point) and takes them back at this point's contents; the other scoped buffers, the generator register and
    what the core owes pass through untouched. At a first or middle tile the outputs' buffers are handed back as found;
    at a last tile they are returned at the stored blocks. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  by_cases h0 : t.val % 10 = 0
  · by_cases h1 : t.val % 10 = 9
    · exfalso; omega
    · -- a first tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [Dat.leavesExact_idle (dat0 V c) 8 t (idleAt0_8_A t ((hcond0_0 t).mpr h0) (fun h => h1 ((hcond0_1 t).mp h))) (noFlush0_8_A t ((hcond0_0 t).mpr h0) (fun h => h1 ((hcond0_1 t).mp h)))]
      rw [outsAt0_A V c t h0 h1]
      unfold sout0_A_0 sout0_A_1; (try dsimp only)
      by_cases hz : t.val = 0
      ·
        rw [PhiS0_castSucc V c t, PhiS0_zero V c _ _ hz, PhiA0_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
      ·
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexists _; iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
  · by_cases h1 : t.val % 10 = 9
    · -- a last tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [show (dat0 V c).leavesExact 8 t = owns (c : Thread nD τ) (ms0_8 t) fullShare ((dat0 V c).after 8 t) from by
        unfold Dat.leavesExact; rw [liveAt0_8_C t (fun h => h0 ((hcond0_0 t).mp h)) ((hcond0_1 t).mpr h1)], after0_8]
      rw [outsAt0_C V c t h0 h1]
      unfold out0_C_7 out0_C_8 sout0_C_0 sout0_C_1; (try dsimp only)
      by_cases hz : t.val = 0
      · exfalso; omega
      ·
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        iintro ⟨H0, H1, H2, H3, H4, H5, H6, ⟨%e7, H7⟩, ⟨%e8, H8⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _)
    · -- a middle tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dat0 V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      ·
        rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 20 := N_0; omega)

end Cert.KernelIdeal.Gen

end
-- ==== Proof.KI.Norm1.lean ====
/-
  Region 1 of @main: the normalize kernel of the first layer (custom_call 1, `cc1_normalize_recompute_kernel`), its
  kernel half at a PARAMETER `V`, the TensorCore's buffer contents when the region is entered.

  The grid has 20 points and the kernel 12 windows. Windows 0–2 are tiles of 5000 rows of the node features `h`, of the
  aggregated neighbour features and of the inverse degrees, the tile's index the point; windows 3–10 are whole arrays
  (two 128×128 weight matrices, then bias, PReLU slope, mean, variance, gamma, beta: one row of 128 each), the same
  block at every point; window 11 is the output, a tile of 5000 rows written back at every point, its index the point.

  At a point the body loads every input window's staging buffer whole, loads the output's buffer once (the value is
  not used) and stores ONE value over the whole output buffer:
      y  = PReLU(bf16(h)·bf16(W_self) + bf16(agg·invdeg)·bf16(W_neigh) + bias)      (`k1_pay2`)
      out = (y − mean) · rsqrt(var + ε) · gamma + beta                                (`k1_pay1` over `k1_pay3`, `k1_pay4`)
  So what the body leaves in the output buffer is a closed function `out1_11` of the eleven input blocks at the point,
  and every input buffer is left as found. This module states that as the body's triple (`sound_kernel1`), packages it
  as the pipeline's proof data (`dat1`: the arrays as `V` has them; after the body each input's buffer at its block
  and the output's at `out1_11` of the input blocks) and proves the library's body obligation for it
  (`body_obligation1`). The load of the output buffer reads a buffer the body owns at SOME contents, which is all a
  load needs; nothing depends on what it read.
-/
import proofs.«129379_j32899449487582_2_alg».proof.Proof.Gen.KernelIdeal.Launch
import proofs.«129379_j32899449487582_2_alg».proof.Proof.Gen.KernelIdeal.Skeleton
import proofs.«129379_j32899449487582_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of 5000 × 128 (`View.cover_of_tiled`): the elaborator's structural look recurses once per
-- coordinate of the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block index
    has not moved (`Dat.before_in_eq_fetched`), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): unfetched, the block index
    has not moved (`Dat.before_in_eq_fetched`), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): unfetched, the block index
    has not moved (`Dat.before_in_eq_fetched`), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): unfetched, the block index
    has not moved (`Dat.before_in_eq_fetched`), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for ANY proof
    data whose array is `V`'s (`hA`) and whose body leaves the block in place (`hafter`): unfetched, the block index
    has not moved (`Dat.before_in_eq_fetched`), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for ANY proof
    data whose array is `V`'s (`hA`) and whose body leaves the block in place (`hafter`): unfetched, the block index
    has not moved (`Dat.before_in_eq_fetched`), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for ANY proof
    data whose array is `V`'s (`hA`) and whose body leaves the block in place (`hafter`): unfetched, the block index
    has not moved (`Dat.before_in_eq_fetched`), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for ANY proof
    data whose array is `V`'s (`hA`) and whose body leaves the block in place (`hafter`): unfetched, the block index
    has not moved (`Dat.before_in_eq_fetched`), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for ANY proof
    data whose array is `V`'s (`hA`) and whose body leaves the block in place (`hafter`): unfetched, the block index
    has not moved (`Dat.before_in_eq_fetched`), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not, for ANY proof
    data whose array is `V`'s (`hA`) and whose body leaves the block in place (`hafter`): unfetched, the block index
    has not moved (`Dat.before_in_eq_fetched`), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current staging buffer holds its block at every point, fetched there or not, for ANY proof
    data whose array is `V`'s (`hA`) and whose body leaves the block in place (`hafter`): unfetched, the block index
    has not moved (`Dat.before_in_eq_fetched`), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S128x128 := Rect.unit (s := S128x128) ![0, 0] S128x128.size inb_S128x128_S128x128_0_0
abbrev r1_3 : Rect S1x128 := Rect.unit (s := S1x128) ![0, 0] S1x128.size inb_S1x128_S1x128_0_0

/-! ## What the body leaves in the output window's buffer -/

/-- Window 11's staging buffer after the body, from the input windows' blocks: its 1 store as a piece
    (`View.canon`; the payloads are the skeleton's). The variance `x8` goes through `k1_pay3` (the reciprocal
    square root) and the mean `x7` through `k1_pay4`: the body loads the variance's window before the mean's. -/
def out1_11 (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) : Vec F S5000x128 .f32 :=
  View.canon [⟨r1_0, k1_pay1 (k1_pay2 (View.ld x0 r1_0) (View.ld x1 r1_0) (View.ld x2 r1_1) (View.ld x3 r1_2) (View.ld x4 r1_2) (View.ld x5 r1_3) (View.ld x6 r1_3)) (k1_pay3 (View.ld x8 r1_3)) (k1_pay4 (View.ld x7 r1_3)) (View.ld x9 r1_3) (View.ld x10 r1_3)⟩]

/-- Its store tiles the buffer (checked by evaluation), so it covers it. -/
theorem cover1_11 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at read contents `xW` and the output's at anything, runs to
    the continuation holding the inputs' as they were and the output's at `out1_11` of the inputs': the printed
    functions are their skeletons, which the executor runs, through the part call. The load of the output's buffer
    steps like any load of an owned buffer; its value is dropped. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out1_11 x0 x1 x2 x3 x4 x5 x6 x7 x8 x9 x10)) -∗ K ⟨⟩))
      ⊢ wp frame (wpE (defs₀ (F := F)) Variants.none c none) E (cc1_normalize_recompute_kernel i arg1 harg1 arg2 harg2 arg3 harg3 arg4 harg4 arg5 harg5 arg6 harg6 arg7 harg7 arg8 harg8 arg9 harg9 arg10 harg10 arg11 harg11 arg12 harg12) K := by
  simp only [cc1_normalize_recompute_kernel_eq_skeleton]; unfold cc1_normalize_recompute_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover1_11 _)

/-! ## The pipeline's proof data -/

/-- The proof data of pipeline 1 on core `c`: the arrays as the region finds them (`V`); after the body at
    point `t` each input's buffer at its block and the output's at `out1_11` of the input blocks; the invariant the
    scoped rest and the generator register, untouched (`Pipeline.ΦA`); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

/-- The proof data's arrays are the region-entry contents (the proof data's definition projected, by `dsimp`). -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

/-- Each input's current staging buffer holds its block at every point, fetched there or not (`before1_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.KI.Stats2.lean ====
/- The first layer's statistics kernel, as the pipeline runs it on one core: a grid of 2 × 10 points, each point
   one tile of 5000 rows. At every point the body computes the tile's activations
   y = prelu (bf16 h · bf16 W_self + bf16 (raw_agg · invdeg) · bf16 W_neigh + bias), adds the column sums of y to a
   first accumulator row and the column sums of y · y to a second accumulator row; the two accumulator rows live in
   scratch buffers that keep their contents from one point to the next. At the first tile of a core (point ≡ 0 mod 10)
   both accumulators are first reset to zero; at the last tile of a core (point ≡ 9 mod 10) each accumulator row,
   repeated over 8 rows, is stored into the core's block of one of the two outputs, which is then written back.

   This module states and proves, for the contents V of the buffers when the region is entered: the body's triple in
   each of the three control cases (first / middle / last tile of a core), what the two outputs' buffers and the two
   accumulators hold after each point (by recursion on the point), the pipeline's proof data over these, and the
   body obligation at every point. -/
import proofs.«129379_j32899449487582_2_alg».proof.Proof.KI.Stats0
import proofs.«129379_j32899449487582_2_alg».proof.Proof.Gen.KernelIdeal.Launch
import proofs.«129379_j32899449487582_2_alg».proof.Proof.Gen.KernelIdeal.Skeleton
import proofs.«129379_j32899449487582_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (an input that is
    not fetched at a point has the block index of the point before), for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (an input that is
    not fetched at a point has the block index of the point before), for any proof data whose array is `V`'s and whose
    body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (an input that is
    not fetched at a point has the block index of the point before), for any proof data whose array is `V`'s and whose
    body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (an input that is
    not fetched at a point has the block index of the point before), for any proof data whose array is `V`'s and whose
    body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (an input that is
    not fetched at a point has the block index of the point before), for any proof data whose array is `V`'s and whose
    body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (an input that is
    not fetched at a point has the block index of the point before), for any proof data whose array is `V`'s and whose
    body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (an input that is
    not fetched at a point has the block index of the point before), for any proof data whose array is `V`'s and whose
    body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (reset the accumulators), from the grid coordinates. -/
noncomputable abbrev cond2_0 (i : grid2.Coords) : Prop := (Scalar.cmpi .ne (Scalar.extui (Scalar.cmpi .eq (BitVec.ofNat 32 (i 1).val) 0#32)) 0#32) = 1#1
/-- It holds at the points ≡ 0 (mod 10): the first tile of each core — decided over the grid. -/
theorem hcond2_0 : ∀ t : Fin cfg2.N, cond2_0 (grid2.coords t) ↔ t.val % 10 = 0 :=
  (by decide +kernel : ∀ t : Fin grid2.N, cond2_0 (grid2.coords t) ↔ t.val % 10 = 0)

/-- The condition of the body's second `scf.if` (store the accumulators into the outputs), from the grid coordinates. -/
noncomputable abbrev cond2_1 (i : grid2.Coords) : Prop := k2_cond2 i = 1#1
/-- It holds at the points ≡ 9 (mod 10): the last tile of each core — decided over the grid. -/
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- Window 5 is never idle (an input). -/
theorem liveAt2_5 : ∀ t : Fin cfg2.N, cfg2.idle 5 (grid2.coords t) = false := by decide +kernel
/-- Window 6 is never idle (an input). -/
theorem liveAt2_6 : ∀ t : Fin cfg2.N, cfg2.idle 6 (grid2.coords t) = false := by decide +kernel
/-- At a first tile output 7 is idle: nothing is stored into it, -/
theorem idleAt2_7_A : ∀ t : Fin cfg2.N, cond2_0 (grid2.coords t) → ¬cond2_1 (grid2.coords t) → cfg2.idle 7 (grid2.coords t) = true := by decide +kernel
/-- and its block is not written back. -/
theorem noFlush2_7_A : ∀ t : Fin cfg2.N, cond2_0 (grid2.coords t) → ¬cond2_1 (grid2.coords t) → (cfg2.win 7).flush t = false := by decide +kernel
/-- At a middle tile output 7 is idle: nothing is stored into it, -/
theorem idleAt2_7_B : ∀ t : Fin cfg2.N, ¬cond2_0 (grid2.coords t) → ¬cond2_1 (grid2.coords t) → cfg2.idle 7 (grid2.coords t) = true := by decide +kernel
/-- and its block is not written back. -/
theorem noFlush2_7_B : ∀ t : Fin cfg2.N, ¬cond2_0 (grid2.coords t) → ¬cond2_1 (grid2.coords t) → (cfg2.win 7).flush t = false := by decide +kernel
/-- At a last tile output 7 is live: the body stores its whole block. -/
theorem liveAt2_7_C : ∀ t : Fin cfg2.N, ¬cond2_0 (grid2.coords t) → cond2_1 (grid2.coords t) → cfg2.idle 7 (grid2.coords t) = false := by decide +kernel
/-- At a first tile output 8 is idle: nothing is stored into it, -/
theorem idleAt2_8_A : ∀ t : Fin cfg2.N, cond2_0 (grid2.coords t) → ¬cond2_1 (grid2.coords t) → cfg2.idle 8 (grid2.coords t) = true := by decide +kernel
/-- and its block is not written back. -/
theorem noFlush2_8_A : ∀ t : Fin cfg2.N, cond2_0 (grid2.coords t) → ¬cond2_1 (grid2.coords t) → (cfg2.win 8).flush t = false := by decide +kernel
/-- At a middle tile output 8 is idle: nothing is stored into it, -/
theorem idleAt2_8_B : ∀ t : Fin cfg2.N, ¬cond2_0 (grid2.coords t) → ¬cond2_1 (grid2.coords t) → cfg2.idle 8 (grid2.coords t) = true := by decide +kernel
/-- and its block is not written back. -/
theorem noFlush2_8_B : ∀ t : Fin cfg2.N, ¬cond2_0 (grid2.coords t) → ¬cond2_1 (grid2.coords t) → (cfg2.win 8).flush t = false := by decide +kernel
/-- At a last tile output 8 is live: the body stores its whole block. -/
theorem liveAt2_8_C : ∀ t : Fin cfg2.N, ¬cond2_0 (grid2.coords t) → cond2_1 (grid2.coords t) → cfg2.idle 8 (grid2.coords t) = false := by decide +kernel

/-! ## The memrefs the body is called with -/

/-- One staging buffer of output window 7, through which its contents are stated (the choice does not matter). -/
noncomputable abbrev VO2_7 : View sig .tc .vmem S8x128 .f32 := (Memref.whole cc2_stg7_0 : Memref sig .tc .vmem S8x128 .f32).view
/-- One staging buffer of output window 8, through which its contents are stated (the choice does not matter). -/
noncomputable abbrev VO2_8 : View sig .tc .vmem S8x128 .f32 := (Memref.whole cc2_stg8_0 : Memref sig .tc .vmem S8x128 .f32).view
/-- Each window's current staging memref at point `t`, spelled as the pipeline passes it, and its wholeness. -/
noncomputable abbrev ms2_0 (t : Fin cfg2.N) : Memref sig .tc .vmem S5000x128 .f32 := win2_0.stage (cfg2.slots t 0)
noncomputable abbrev hs2_0 (t : Fin cfg2.N) : (ms2_0 t).IsWhole := hstage2_0 ((cfg2.slots t 0).cast nbuf2_0)
noncomputable abbrev ms2_1 (t : Fin cfg2.N) : Memref sig .tc .vmem S5000x128 .f32 := win2_1.stage (cfg2.slots t 1)
noncomputable abbrev hs2_1 (t : Fin cfg2.N) : (ms2_1 t).IsWhole := hstage2_1 ((cfg2.slots t 1).cast nbuf2_1)
noncomputable abbrev ms2_2 (t : Fin cfg2.N) : Memref sig .tc .vmem S5000x1 .f32 := win2_2.stage (cfg2.slots t 2)
noncomputable abbrev hs2_2 (t : Fin cfg2.N) : (ms2_2 t).IsWhole := hstage2_2 ((cfg2.slots t 2).cast nbuf2_2)
noncomputable abbrev ms2_3 (t : Fin cfg2.N) : Memref sig .tc .vmem S128x128 .f32 := win2_3.stage (cfg2.slots t 3)
noncomputable abbrev hs2_3 (t : Fin cfg2.N) : (ms2_3 t).IsWhole := hstage2_3 ((cfg2.slots t 3).cast nbuf2_3)
noncomputable abbrev ms2_4 (t : Fin cfg2.N) : Memref sig .tc .vmem S128x128 .f32 := win2_4.stage (cfg2.slots t 4)
noncomputable abbrev hs2_4 (t : Fin cfg2.N) : (ms2_4 t).IsWhole := hstage2_4 ((cfg2.slots t 4).cast nbuf2_4)
noncomputable abbrev ms2_5 (t : Fin cfg2.N) : Memref sig .tc .vmem S1x128 .f32 := win2_5.stage (cfg2.slots t 5)
noncomputable abbrev hs2_5 (t : Fin cfg2.N) : (ms2_5 t).IsWhole := hstage2_5 ((cfg2.slots t 5).cast nbuf2_5)
noncomputable abbrev ms2_6 (t : Fin cfg2.N) : Memref sig .tc .vmem S1x128 .f32 := win2_6.stage (cfg2.slots t 6)
noncomputable abbrev hs2_6 (t : Fin cfg2.N) : (ms2_6 t).IsWhole := hstage2_6 ((cfg2.slots t 6).cast nbuf2_6)
noncomputable abbrev ms2_7 (t : Fin cfg2.N) : Memref sig .tc .vmem S8x128 .f32 := win2_7.stage (cfg2.slots t 7)
noncomputable abbrev hs2_7 (t : Fin cfg2.N) : (ms2_7 t).IsWhole := hstage2_7 ((cfg2.slots t 7).cast nbuf2_7)
noncomputable abbrev ms2_8 (t : Fin cfg2.N) : Memref sig .tc .vmem S8x128 .f32 := win2_8.stage (cfg2.slots t 8)
noncomputable abbrev hs2_8 (t : Fin cfg2.N) : (ms2_8 t).IsWhole := hstage2_8 ((cfg2.slots t 8).cast nbuf2_8)
/-- The two accumulator rows: whole scoped buffers of the kernel's own, passed beside the windows. -/
noncomputable abbrev scM2_0 : Memref sig .tc .vmem S1x128 .f32 := Memref.whole cc2_scratch0
noncomputable abbrev scM2_1 : Memref sig .tc .vmem S1x128 .f32 := Memref.whole cc2_scratch1
/-- Accumulator 0 as a view: what it holds is stated through it. -/
noncomputable abbrev VS2_0 : View sig .tc .vmem S1x128 .f32 := scM2_0.view
/-- Accumulator 1 as a view: what it holds is stated through it. -/
noncomputable abbrev VS2_1 : View sig .tc .vmem S1x128 .f32 := scM2_1.view

/-- The region's invariant with the two accumulators as memrefs owned at some contents; every other scoped buffer stays
    unopened beside them. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

-- (the run's proof term is large: the definition's epilogue walks it past the default budget)
set_option maxHeartbeats 1000000 in
/-- THE BODY IN CASE A: the first tile of a core (the accumulators are reset, the outputs are not stored); points 0, 10. What the body's stores leave in the
    two accumulators, as pieces (last first), WITH the proof that on whole memrefs — the inputs' at their contents
    `x·`, the outputs' at contents `xi·` handed back untouched, the accumulators at anything — the body runs to the
    continuation holding the inputs' as they were and each accumulator with its pieces written. The pieces are
    found by running the body. -/
noncomputable def kernelRun2_A (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc2_stats_kernel i arg2 harg2 arg3 harg3 arg4 harg4 arg5 harg5 arg6 harg6 arg7 harg7 arg8 harg8 arg9 harg9 arg10 harg10 arg11 harg11 arg12 harg12) K } :=
  kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6

-- (the run's proof term is large: the definition's epilogue walks it past the default budget)
set_option maxHeartbeats 1000000 in
/-- THE BODY IN CASE B: a middle tile of a core (the accumulators are not reset, the outputs are not stored); the other points. What the body's stores leave in the
    two accumulators, as pieces (last first), WITH the proof that on whole memrefs — the inputs' at their contents
    `x·`, the outputs' at contents `xi·` handed back untouched, the accumulators at what the point before left (`xs·`) — the body runs to the
    continuation holding the inputs' as they were and each accumulator with its pieces written. The pieces are
    found by running the body. -/
noncomputable def kernelRun2_B (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc2_stats_kernel i arg2 harg2 arg3 harg3 arg4 harg4 arg5 harg5 arg6 harg6 arg7 harg7 arg8 harg8 arg9 harg9 arg10 harg10 arg11 harg11 arg12 harg12) K } :=
  kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1

-- (the run's proof term is large: the definition's epilogue walks it past the default budget)
set_option maxHeartbeats 1000000 in
/-- THE BODY IN CASE C: the last tile of a core (the accumulators are not reset, the outputs are stored); points 9, 19. What the body's stores leave in the
    two outputs' staging memrefs and the two accumulators, as pieces (last first), WITH the proof that on whole memrefs — the inputs' at their contents
    `x·`, the outputs' at anything, the accumulators at what the point before left (`xs·`) — the body runs to the
    continuation holding the inputs' as they were, each output's buffer with its pieces written and each accumulator with its pieces written. The pieces are
    found by running the body. -/
noncomputable def kernelRun2_C (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc2_stats_kernel i arg2 harg2 arg3 harg3 arg4 harg4 arg5 harg5 arg6 harg6 arg7 harg7 arg8 harg8 arg9 harg9 arg10 harg10 arg11 harg11 arg12 harg12) K } :=
  kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1

/-! ## Case A (the first tile of a core): what the body leaves -/

/-- Case A stores nothing into output 7 (the window is idle at its points and not written back there): no pieces —
    a placeholder (junk read back) that nothing consults. -/
noncomputable def out2_A_7 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S8x128 .f32 :=
  VO2_7.read (Elt F) (VO2_7.writes (Elt F) VO2_7.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6).1)

/-- Case A stores nothing into output 8 (the window is idle at its points and not written back there): no pieces —
    a placeholder (junk read back) that nothing consults. -/
noncomputable def out2_A_8 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S8x128 .f32 :=
  VO2_8.read (Elt F) (VO2_8.writes (Elt F) VO2_8.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6).2.1)

/-- Case A's pieces for accumulator 0 cover it (each store is of the whole row). -/
theorem scover2_A_0 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (y : S1x128.Idx) :
    ∃ pc ∈ (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1 S1x128.size (by sl_kernel_rfl) y

/-- What case A leaves in accumulator 0: its pieces read back over junk. -/
noncomputable def sout2_A_0 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S1x128 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1)

/-- Case A's pieces for accumulator 1 cover it (each store is of the whole row). -/
theorem scover2_A_1 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (y : S1x128.Idx) :
    ∃ pc ∈ (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1 S1x128.size (by sl_kernel_rfl) y

/-- What case A leaves in accumulator 1: its pieces read back over junk. -/
noncomputable def sout2_A_1 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S1x128 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1)

/-! ## Case B (a middle tile of a core): what the body leaves -/

/-- Case B stores nothing into output 7 (the window is idle at its points and not written back there): no pieces —
    a placeholder (junk read back) that nothing consults. -/
noncomputable def out2_B_7 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO2_7.read (Elt F) (VO2_7.writes (Elt F) VO2_7.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- Case B stores nothing into output 8 (the window is idle at its points and not written back there): no pieces —
    a placeholder (junk read back) that nothing consults. -/
noncomputable def out2_B_8 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO2_8.read (Elt F) (VO2_8.writes (Elt F) VO2_8.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- Case B's pieces for accumulator 0 cover it (each store is of the whole row). -/
theorem scover2_B_0 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What case B leaves in accumulator 0: its pieces read back over junk. -/
noncomputable def sout2_B_0 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- Case B's pieces for accumulator 1 cover it (each store is of the whole row). -/
theorem scover2_B_1 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What case B leaves in accumulator 1: its pieces read back over junk. -/
noncomputable def sout2_B_1 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-! ## Case C (the last tile of a core): what the body leaves -/

/-- Case C's pieces for output 7 tile its block (one store of the whole 8 × 128 block), so they cover it. -/
theorem cover2_C_7 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S8x128.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S8x128.size (by sl_kernel_rfl) y

/-- What case C leaves in output 7's staging buffer: its pieces read back over junk. -/
noncomputable def out2_C_7 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO2_7.read (Elt F) (VO2_7.writes (Elt F) VO2_7.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- Case C's pieces for output 8 tile its block (one store of the whole 8 × 128 block), so they cover it. -/
theorem cover2_C_8 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S8x128.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S8x128.size (by sl_kernel_rfl) y

/-- What case C leaves in output 8's staging buffer: its pieces read back over junk. -/
noncomputable def out2_C_8 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO2_8.read (Elt F) (VO2_8.writes (Elt F) VO2_8.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- Case C's pieces for accumulator 0 cover it (each store is of the whole row). -/
theorem scover2_C_0 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What case C leaves in accumulator 0: its pieces read back over junk. -/
noncomputable def sout2_C_0 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- Case C's pieces for accumulator 1 cover it (each store is of the whole row). -/
theorem scover2_C_1 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What case C leaves in accumulator 1: its pieces read back over junk. -/
noncomputable def sout2_C_1 (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS2_1.read (Elt F) (VS2_1.writes (Elt F) VS2_1.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-! ## What the outputs and the accumulators hold after each point -/

/-- THE ACCUMULATION. What the two outputs' staging buffers and the two accumulators hold after the body at position
    `n` (a tuple: output 7, output 8, accumulator 0, accumulator 1): the case the closed forms select at `n`, run at
    the point's memrefs and input blocks, the accumulators at what this leaves at `n - 1` where the case does not reset
    them. An assignment of the conditions no point meets is no case. -/
noncomputable def outsAt2 (c : Dev nD) : (n : ℕ) → n < cfg2.N → Vec F S8x128 .f32 × Vec F S8x128 .f32 × Vec F S1x128 .f32 × Vec F S1x128 .f32
  | 0, hn => (out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))
  | n + 1, hn =>
    if h0 : (n + 1) % 10 = 0 then
      if h1 : (n + 1) % 10 = 9 then
        False.elim (by omega)
      else
        (out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩))
    else
      if h1 : (n + 1) % 10 = 9 then
        (out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.1 (outsAt2 c n (Nat.lt_of_succ_lt hn)).2.2.2, out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.1 (outsAt2 c n (Nat.lt_of_succ_lt hn)).2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.1 (outsAt2 c n (Nat.lt_of_succ_lt hn)).2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.1 (outsAt2 c n (Nat.lt_of_succ_lt hn)).2.2.2)
      else
        (out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.1 (outsAt2 c n (Nat.lt_of_succ_lt hn)).2.2.2, out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.1 (outsAt2 c n (Nat.lt_of_succ_lt hn)).2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.1 (outsAt2 c n (Nat.lt_of_succ_lt hn)).2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.1 (outsAt2 c n (Nat.lt_of_succ_lt hn)).2.2.2)

/-- `outsAt2` at a first tile: that case's contents. -/
theorem outsAt2_A (c : Dev nD) (t : Fin cfg2.N) (h0 : t.val % 10 = 0) (h1 : ¬t.val % 10 = 9) :
    outsAt2 V c t.val t.isLt = (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact (dif_pos h0).trans ((dif_neg h1).trans rfl)

/-- `outsAt2` at a middle tile: that case's contents, over what the point before left. -/
theorem outsAt2_B (c : Dev nD) (t : Fin cfg2.N) (h0 : ¬t.val % 10 = 0) (h1 : ¬t.val % 10 = 9) :
    outsAt2 V c t.val t.isLt = (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2, out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a last tile: that case's contents, over what the point before left. -/
theorem outsAt2_C (c : Dev nD) (t : Fin cfg2.N) (h0 : ¬t.val % 10 = 0) (h1 : t.val % 10 = 9) :
    outsAt2 V c t.val t.isLt = (out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2, out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer that is no
    staging buffer at anything, the generator register at some state); afterwards the same with the two accumulators at
    what the point before left in them (`outsAt2`'s last two components). -/
noncomputable def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulators at that point's contents. -/
theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2))
      ∗ Pipeline.scopedRestBut (Ix := Unit) (Name := ℕ) (U := UR sig nD τ) (Lvl := ℕ) (Val := Elt F) spec2 c [cc2_scratch0, cc2_scratch1]) ∗ (∃ r, prngReg c r)) := rfl

/-- Before a point that is not the first: the accumulators at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the outputs' at `outsAt2`'s first two components; the invariant `PhiS2`;
    nothing owed; full shares. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
    | ⟨8, _⟩ => (outsAt2 V c t.val t.isLt).2.1
  Φ t := PhiS2 V c t.val (Nat.le_of_lt_succ t.isLt)
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]
theorem after2_8 (c : Dev nD) (t : Fin cfg2.N) : (dat2 V c).after 8 t = (outsAt2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t` (the windows one by one), -/
noncomputable def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
noncomputable def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body at any point: the inputs' memrefs hold their blocks; the closed forms say which case the point is in; so that
    case's run applies. The invariant hands the body the two accumulators at what the point before left (at anything at
    the first point) and takes them back at this point's contents; the other scoped buffers, the generator register and
    what the core owes pass through untouched. At a first or middle tile the outputs' buffers are handed back as found;
    at a last tile they are returned at the stored blocks. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  by_cases h0 : t.val % 10 = 0
  · by_cases h1 : t.val % 10 = 9
    · exfalso; omega
    · -- a first tile
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [Dat.leavesExact_idle (dat2 V c) 7 t (idleAt2_7_A t ((hcond2_0 t).mpr h0) (fun h => h1 ((hcond2_1 t).mp h))) (noFlush2_7_A t ((hcond2_0 t).mpr h0) (fun h => h1 ((hcond2_1 t).mp h)))]
      rw [Dat.leavesExact_idle (dat2 V c) 8 t (idleAt2_8_A t ((hcond2_0 t).mpr h0) (fun h => h1 ((hcond2_1 t).mp h))) (noFlush2_8_A t ((hcond2_0 t).mpr h0) (fun h => h1 ((hcond2_1 t).mp h)))]
      rw [outsAt2_A V c t h0 h1]
      unfold sout2_A_0 sout2_A_1; (try dsimp only)
      by_cases hz : t.val = 0
      ·
        rw [PhiS2_castSucc V c t, PhiS2_zero V c _ _ hz, PhiA2_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover2_A_1 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
      ·
        rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexists _; iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover2_A_1 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
  · by_cases h1 : t.val % 10 = 9
    · -- a last tile
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7_C t (fun h => h0 ((hcond2_0 t).mp h)) ((hcond2_1 t).mpr h1)], after2_7]
      rw [show (dat2 V c).leavesExact 8 t = owns (c : Thread nD τ) (ms2_8 t) fullShare ((dat2 V c).after 8 t) from by
        unfold Dat.leavesExact; rw [liveAt2_8_C t (fun h => h0 ((hcond2_0 t).mp h)) ((hcond2_1 t).mpr h1)], after2_8]
      rw [outsAt2_C V c t h0 h1]
      unfold out2_C_7 out2_C_8 sout2_C_0 sout2_C_1; (try dsimp only)
      by_cases hz : t.val = 0
      · exfalso; omega
      ·
        rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        iintro ⟨H0, H1, H2, H3, H4, H5, H6, ⟨%e7, H7⟩, ⟨%e8, H8⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_C_0 c _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover2_C_7 c _ _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover2_C_8 c _ _ _ _ _ _ _ _ _ _ _ _ _ _ _ _ _ _ _ _ _ _ _ _ _ _ _ _ _ _ _ _ _ _)
    · -- a middle tile
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [Dat.leavesExact_idle (dat2 V c) 7 t (idleAt2_7_B t (fun h => h0 ((hcond2_0 t).mp h)) (fun h => h1 ((hcond2_1 t).mp h))) (noFlush2_7_B t (fun h => h0 ((hcond2_0 t).mp h)) (fun h => h1 ((hcond2_1 t).mp h)))]
      rw [Dat.leavesExact_idle (dat2 V c) 8 t (idleAt2_8_B t (fun h => h0 ((hcond2_0 t).mp h)) (fun h => h1 ((hcond2_1 t).mp h))) (noFlush2_8_B t (fun h => h0 ((hcond2_0 t).mp h)) (fun h => h1 ((hcond2_1 t).mp h)))]
      rw [outsAt2_B V c t h0 h1]
      unfold sout2_B_0 sout2_B_1; (try dsimp only)
      by_cases hz : t.val = 0
      · exfalso; omega
      ·
        rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_B_0 c _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 20 := N_2; omega)

end Cert.KernelIdeal.Gen

end
-- ==== Proof.KI.Norm3.lean ====
/-
  Region 1 of @main: the normalize kernel of the first layer (custom_call 1, `cc3_normalize_recompute_kernel`), its
  kernel half at a PARAMETER `V`, the TensorCore's buffer contents when the region is entered.

  The grid has 20 points and the kernel 12 windows. Windows 0–2 are tiles of 5000 rows of the node features `h`, of the
  aggregated neighbour features and of the inverse degrees, the tile's index the point; windows 3–10 are whole arrays
  (two 128×128 weight matrices, then bias, PReLU slope, mean, variance, gamma, beta: one row of 128 each), the same
  block at every point; window 11 is the output, a tile of 5000 rows written back at every point, its index the point.

  At a point the body loads every input window's staging buffer whole, loads the output's buffer once (the value is
  not used) and stores ONE value over the whole output buffer:
      y  = PReLU(bf16(h)·bf16(W_self) + bf16(agg·invdeg)·bf16(W_neigh) + bias)      (`k3_pay2`)
      out = (y − mean) · rsqrt(var + ε) · gamma + beta                                (`k3_pay1` over `k3_pay3`, `k3_pay4`)
  So what the body leaves in the output buffer is a closed function `out3_11` of the eleven input blocks at the point,
  and every input buffer is left as found. This module states that as the body's triple (`sound_kernel3`), packages it
  as the pipeline's proof data (`dat3`: the arrays as `V` has them; after the body each input's buffer at its block
  and the output's at `out3_11` of the input blocks) and proves the library's body obligation for it
  (`body_obligation3`). The load of the output buffer reads a buffer the body owns at SOME contents, which is all a
  load needs; nothing depends on what it read.
-/
import proofs.«129379_j32899449487582_2_alg».proof.Proof.KI.Norm1
import proofs.«129379_j32899449487582_2_alg».proof.Proof.Gen.KernelIdeal.Launch
import proofs.«129379_j32899449487582_2_alg».proof.Proof.Gen.KernelIdeal.Skeleton
import proofs.«129379_j32899449487582_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of 5000 × 128 (`View.cover_of_tiled`): the elaborator's structural look recurses once per
-- coordinate of the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): unfetched, the block index
    has not moved (`Dat.before_in_eq_fetched`), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for ANY proof
    data whose array is `V`'s (`hA`) and whose body leaves the block in place (`hafter`): unfetched, the block index
    has not moved (`Dat.before_in_eq_fetched`), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for ANY proof
    data whose array is `V`'s (`hA`) and whose body leaves the block in place (`hafter`): unfetched, the block index
    has not moved (`Dat.before_in_eq_fetched`), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for ANY proof
    data whose array is `V`'s (`hA`) and whose body leaves the block in place (`hafter`): unfetched, the block index
    has not moved (`Dat.before_in_eq_fetched`), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for ANY proof
    data whose array is `V`'s (`hA`) and whose body leaves the block in place (`hafter`): unfetched, the block index
    has not moved (`Dat.before_in_eq_fetched`), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for ANY proof
    data whose array is `V`'s (`hA`) and whose body leaves the block in place (`hafter`): unfetched, the block index
    has not moved (`Dat.before_in_eq_fetched`), the window uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for ANY proof
    data whose array is `V`'s (`hA`) and whose body leaves the block in place (`hafter`): unfetched, the block index
    has not moved (`Dat.before_in_eq_fetched`), the window uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not, for ANY proof
    data whose array is `V`'s (`hA`) and whose body leaves the block in place (`hafter`): unfetched, the block index
    has not moved (`Dat.before_in_eq_fetched`), the window uncut and never idle. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not, for ANY proof
    data whose array is `V`'s (`hA`) and whose body leaves the block in place (`hafter`): unfetched, the block index
    has not moved (`Dat.before_in_eq_fetched`), the window uncut and never idle. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's current staging buffer holds its block at every point, fetched there or not, for ANY proof
    data whose array is `V`'s (`hA`) and whose body leaves the block in place (`hafter`): unfetched, the block index
    has not moved (`Dat.before_in_eq_fetched`), the window uncut and never idle. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- Input window 10's current staging buffer holds its block at every point, fetched there or not, for ANY proof
    data whose array is `V`'s (`hA`) and whose body leaves the block in place (`hafter`): unfetched, the block index
    has not moved (`Dat.before_in_eq_fetched`), the window uncut and never idle. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

noncomputable abbrev r3_0 : Rect S5000x128 := Rect.unit (s := S5000x128) ![0, 0] S5000x128.size inb_S5000x128_S5000x128_0_0
noncomputable abbrev r3_1 : Rect S5000x1 := Rect.unit (s := S5000x1) ![0, 0] S5000x1.size inb_S5000x1_S5000x1_0_0
noncomputable abbrev r3_2 : Rect S128x128 := Rect.unit (s := S128x128) ![0, 0] S128x128.size inb_S128x128_S128x128_0_0
noncomputable abbrev r3_3 : Rect S1x128 := Rect.unit (s := S1x128) ![0, 0] S1x128.size inb_S1x128_S1x128_0_0

/-! ## What the body leaves in the output window's buffer -/

/-- Window 11's staging buffer after the body, from the input windows' blocks: its 1 store as a piece
    (`View.canon`; the payloads are the skeleton's). The variance `x8` goes through `k3_pay3` (the reciprocal
    square root) and the mean `x7` through `k3_pay4`: the body loads the variance's window before the mean's. -/
noncomputable def out3_11 (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) : Vec F S5000x128 .f32 :=
  View.canon [⟨r3_0, k3_pay1 (k3_pay2 (View.ld x0 r3_0) (View.ld x1 r3_0) (View.ld x2 r3_1) (View.ld x3 r3_2) (View.ld x4 r3_2) (View.ld x5 r3_3) (View.ld x6 r3_3)) (k3_pay3 (View.ld x8 r3_3)) (k3_pay4 (View.ld x7 r3_3)) (View.ld x9 r3_3) (View.ld x10 r3_3)⟩]

/-- Its store tiles the buffer (checked by evaluation), so it covers it. -/
theorem cover3_11 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at read contents `xW` and the output's at anything, runs to
    the continuation holding the inputs' as they were and the output's at `out3_11` of the inputs': the printed
    functions are their skeletons, which the executor runs, through the part call. The load of the output's buffer
    steps like any load of an owned buffer; its value is dropped. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out3_11 x0 x1 x2 x3 x4 x5 x6 x7 x8 x9 x10)) -∗ K ⟨⟩))
      ⊢ wp frame (wpE (defs₀ (F := F)) Variants.none c none) E (cc3_normalize_recompute_kernel i arg1 harg1 arg2 harg2 arg3 harg3 arg4 harg4 arg5 harg5 arg6 harg6 arg7 harg7 arg8 harg8 arg9 harg9 arg10 harg10 arg11 harg11 arg12 harg12) K :=
  sound_kernel1 c E i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 K

/-! ## The pipeline's proof data -/

/-- The proof data of pipeline 1 on core `c`: the arrays as the region finds them (`V`); after the body at
    point `t` each input's buffer at its block and the output's at `out3_11` of the input blocks; the invariant the
    scoped rest and the generator register, untouched (`Pipeline.ΦA`); nothing owed; full shares. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.ΦA spec3 c
  q _ := fullShare
  owed _ := 0

/-- The proof data's arrays are the region-entry contents (the proof data's definition projected, by `dsimp`). -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

/-- Each input's current staging buffer holds its block at every point, fetched there or not (`before3_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

/-! ## The body obligation, at a generic point -/

/-- What the body is called with at point `t` (the body obligation's precondition, the windows one by one), -/
noncomputable def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

/-- and what it returns. -/
noncomputable def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Gen

end
-- ==== Proof.KI.Stats4.lean ====
/- The first layer's statistics kernel, as the pipeline runs it on one core: a grid of 2 × 10 points, each point
   one tile of 5000 rows. At every point the body computes the tile's activations
   y = prelu (bf16 h · bf16 W_self + bf16 (raw_agg · invdeg) · bf16 W_neigh + bias), adds the column sums of y to a
   first accumulator row and the column sums of y · y to a second accumulator row; the two accumulator rows live in
   scratch buffers that keep their contents from one point to the next. At the first tile of a core (point ≡ 0 mod 10)
   both accumulators are first reset to zero; at the last tile of a core (point ≡ 9 mod 10) each accumulator row,
   repeated over 8 rows, is stored into the core's block of one of the two outputs, which is then written back.

   This module states and proves, for the contents V of the buffers when the region is entered: the body's triple in
   each of the three control cases (first / middle / last tile of a core), what the two outputs' buffers and the two
   accumulators hold after each point (by recursion on the point), the pipeline's proof data over these, and the
   body obligation at every point. -/
import proofs.«129379_j32899449487582_2_alg».proof.Proof.KI.Stats0
import proofs.«129379_j32899449487582_2_alg».proof.Proof.Gen.KernelIdeal.Launch
import proofs.«129379_j32899449487582_2_alg».proof.Proof.Gen.KernelIdeal.Skeleton
import proofs.«129379_j32899449487582_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (an input that is
    not fetched at a point has the block index of the point before), for any proof data whose array is `V`'s and whose
    body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (an input that is
    not fetched at a point has the block index of the point before), for any proof data whose array is `V`'s and whose
    body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (an input that is
    not fetched at a point has the block index of the point before), for any proof data whose array is `V`'s and whose
    body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (an input that is
    not fetched at a point has the block index of the point before), for any proof data whose array is `V`'s and whose
    body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not (an input that is
    not fetched at a point has the block index of the point before), for any proof data whose array is `V`'s and whose
    body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not (an input that is
    not fetched at a point has the block index of the point before), for any proof data whose array is `V`'s and whose
    body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not (an input that is
    not fetched at a point has the block index of the point before), for any proof data whose array is `V`'s and whose
    body leaves the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first `scf.if` (reset the accumulators), from the grid coordinates. -/
noncomputable abbrev cond4_0 (i : grid4.Coords) : Prop := (Scalar.cmpi .ne (Scalar.extui (Scalar.cmpi .eq (BitVec.ofNat 32 (i 1).val) 0#32)) 0#32) = 1#1
/-- It holds at the points ≡ 0 (mod 10): the first tile of each core — decided over the grid. -/
theorem hcond4_0 : ∀ t : Fin cfg4.N, cond4_0 (grid4.coords t) ↔ t.val % 10 = 0 :=
  (by decide +kernel : ∀ t : Fin grid4.N, cond4_0 (grid4.coords t) ↔ t.val % 10 = 0)

/-- The condition of the body's second `scf.if` (store the accumulators into the outputs), from the grid coordinates. -/
noncomputable abbrev cond4_1 (i : grid4.Coords) : Prop := k4_cond2 i = 1#1
/-- It holds at the points ≡ 9 (mod 10): the last tile of each core — decided over the grid. -/
theorem hcond4_1 : ∀ t : Fin cfg4.N, cond4_1 (grid4.coords t) ↔ t.val % 10 = 9 :=
  (by decide +kernel : ∀ t : Fin grid4.N, cond4_1 (grid4.coords t) ↔ t.val % 10 = 9)

/-! ## Where the windows are idle -/

/-- Window 0 is never idle (an input). -/
theorem liveAt4_0 : ∀ t : Fin cfg4.N, cfg4.idle 0 (grid4.coords t) = false := by decide +kernel
/-- Window 1 is never idle (an input). -/
theorem liveAt4_1 : ∀ t : Fin cfg4.N, cfg4.idle 1 (grid4.coords t) = false := by decide +kernel
/-- Window 2 is never idle (an input). -/
theorem liveAt4_2 : ∀ t : Fin cfg4.N, cfg4.idle 2 (grid4.coords t) = false := by decide +kernel
/-- Window 3 is never idle (an input). -/
theorem liveAt4_3 : ∀ t : Fin cfg4.N, cfg4.idle 3 (grid4.coords t) = false := by decide +kernel
/-- Window 4 is never idle (an input). -/
theorem liveAt4_4 : ∀ t : Fin cfg4.N, cfg4.idle 4 (grid4.coords t) = false := by decide +kernel
/-- Window 5 is never idle (an input). -/
theorem liveAt4_5 : ∀ t : Fin cfg4.N, cfg4.idle 5 (grid4.coords t) = false := by decide +kernel
/-- Window 6 is never idle (an input). -/
theorem liveAt4_6 : ∀ t : Fin cfg4.N, cfg4.idle 6 (grid4.coords t) = false := by decide +kernel
/-- At a first tile output 7 is idle: nothing is stored into it, -/
theorem idleAt4_7_A : ∀ t : Fin cfg4.N, cond4_0 (grid4.coords t) → ¬cond4_1 (grid4.coords t) → cfg4.idle 7 (grid4.coords t) = true := by decide +kernel
/-- and its block is not written back. -/
theorem noFlush4_7_A : ∀ t : Fin cfg4.N, cond4_0 (grid4.coords t) → ¬cond4_1 (grid4.coords t) → (cfg4.win 7).flush t = false := by decide +kernel
/-- At a middle tile output 7 is idle: nothing is stored into it, -/
theorem idleAt4_7_B : ∀ t : Fin cfg4.N, ¬cond4_0 (grid4.coords t) → ¬cond4_1 (grid4.coords t) → cfg4.idle 7 (grid4.coords t) = true := by decide +kernel
/-- and its block is not written back. -/
theorem noFlush4_7_B : ∀ t : Fin cfg4.N, ¬cond4_0 (grid4.coords t) → ¬cond4_1 (grid4.coords t) → (cfg4.win 7).flush t = false := by decide +kernel
/-- At a last tile output 7 is live: the body stores its whole block. -/
theorem liveAt4_7_C : ∀ t : Fin cfg4.N, ¬cond4_0 (grid4.coords t) → cond4_1 (grid4.coords t) → cfg4.idle 7 (grid4.coords t) = false := by decide +kernel
/-- At a first tile output 8 is idle: nothing is stored into it, -/
theorem idleAt4_8_A : ∀ t : Fin cfg4.N, cond4_0 (grid4.coords t) → ¬cond4_1 (grid4.coords t) → cfg4.idle 8 (grid4.coords t) = true := by decide +kernel
/-- and its block is not written back. -/
theorem noFlush4_8_A : ∀ t : Fin cfg4.N, cond4_0 (grid4.coords t) → ¬cond4_1 (grid4.coords t) → (cfg4.win 8).flush t = false := by decide +kernel
/-- At a middle tile output 8 is idle: nothing is stored into it, -/
theorem idleAt4_8_B : ∀ t : Fin cfg4.N, ¬cond4_0 (grid4.coords t) → ¬cond4_1 (grid4.coords t) → cfg4.idle 8 (grid4.coords t) = true := by decide +kernel
/-- and its block is not written back. -/
theorem noFlush4_8_B : ∀ t : Fin cfg4.N, ¬cond4_0 (grid4.coords t) → ¬cond4_1 (grid4.coords t) → (cfg4.win 8).flush t = false := by decide +kernel
/-- At a last tile output 8 is live: the body stores its whole block. -/
theorem liveAt4_8_C : ∀ t : Fin cfg4.N, ¬cond4_0 (grid4.coords t) → cond4_1 (grid4.coords t) → cfg4.idle 8 (grid4.coords t) = false := by decide +kernel

/-! ## The memrefs the body is called with -/

/-- One staging buffer of output window 7, through which its contents are stated (the choice does not matter). -/
noncomputable abbrev VO4_7 : View sig .tc .vmem S8x128 .f32 := (Memref.whole cc4_stg7_0 : Memref sig .tc .vmem S8x128 .f32).view
/-- One staging buffer of output window 8, through which its contents are stated (the choice does not matter). -/
noncomputable abbrev VO4_8 : View sig .tc .vmem S8x128 .f32 := (Memref.whole cc4_stg8_0 : Memref sig .tc .vmem S8x128 .f32).view
/-- Each window's current staging memref at point `t`, spelled as the pipeline passes it, and its wholeness. -/
noncomputable abbrev ms4_0 (t : Fin cfg4.N) : Memref sig .tc .vmem S5000x128 .f32 := win4_0.stage (cfg4.slots t 0)
noncomputable abbrev hs4_0 (t : Fin cfg4.N) : (ms4_0 t).IsWhole := hstage4_0 ((cfg4.slots t 0).cast nbuf4_0)
noncomputable abbrev ms4_1 (t : Fin cfg4.N) : Memref sig .tc .vmem S5000x128 .f32 := win4_1.stage (cfg4.slots t 1)
noncomputable abbrev hs4_1 (t : Fin cfg4.N) : (ms4_1 t).IsWhole := hstage4_1 ((cfg4.slots t 1).cast nbuf4_1)
noncomputable abbrev ms4_2 (t : Fin cfg4.N) : Memref sig .tc .vmem S5000x1 .f32 := win4_2.stage (cfg4.slots t 2)
noncomputable abbrev hs4_2 (t : Fin cfg4.N) : (ms4_2 t).IsWhole := hstage4_2 ((cfg4.slots t 2).cast nbuf4_2)
noncomputable abbrev ms4_3 (t : Fin cfg4.N) : Memref sig .tc .vmem S128x128 .f32 := win4_3.stage (cfg4.slots t 3)
noncomputable abbrev hs4_3 (t : Fin cfg4.N) : (ms4_3 t).IsWhole := hstage4_3 ((cfg4.slots t 3).cast nbuf4_3)
noncomputable abbrev ms4_4 (t : Fin cfg4.N) : Memref sig .tc .vmem S128x128 .f32 := win4_4.stage (cfg4.slots t 4)
noncomputable abbrev hs4_4 (t : Fin cfg4.N) : (ms4_4 t).IsWhole := hstage4_4 ((cfg4.slots t 4).cast nbuf4_4)
noncomputable abbrev ms4_5 (t : Fin cfg4.N) : Memref sig .tc .vmem S1x128 .f32 := win4_5.stage (cfg4.slots t 5)
noncomputable abbrev hs4_5 (t : Fin cfg4.N) : (ms4_5 t).IsWhole := hstage4_5 ((cfg4.slots t 5).cast nbuf4_5)
noncomputable abbrev ms4_6 (t : Fin cfg4.N) : Memref sig .tc .vmem S1x128 .f32 := win4_6.stage (cfg4.slots t 6)
noncomputable abbrev hs4_6 (t : Fin cfg4.N) : (ms4_6 t).IsWhole := hstage4_6 ((cfg4.slots t 6).cast nbuf4_6)
noncomputable abbrev ms4_7 (t : Fin cfg4.N) : Memref sig .tc .vmem S8x128 .f32 := win4_7.stage (cfg4.slots t 7)
noncomputable abbrev hs4_7 (t : Fin cfg4.N) : (ms4_7 t).IsWhole := hstage4_7 ((cfg4.slots t 7).cast nbuf4_7)
noncomputable abbrev ms4_8 (t : Fin cfg4.N) : Memref sig .tc .vmem S8x128 .f32 := win4_8.stage (cfg4.slots t 8)
noncomputable abbrev hs4_8 (t : Fin cfg4.N) : (ms4_8 t).IsWhole := hstage4_8 ((cfg4.slots t 8).cast nbuf4_8)
/-- The two accumulator rows: whole scoped buffers of the kernel's own, passed beside the windows. -/
noncomputable abbrev scM4_0 : Memref sig .tc .vmem S1x128 .f32 := Memref.whole cc4_scratch0
noncomputable abbrev scM4_1 : Memref sig .tc .vmem S1x128 .f32 := Memref.whole cc4_scratch1
/-- Accumulator 0 as a view: what it holds is stated through it. -/
noncomputable abbrev VS4_0 : View sig .tc .vmem S1x128 .f32 := scM4_0.view
/-- Accumulator 1 as a view: what it holds is stated through it. -/
noncomputable abbrev VS4_1 : View sig .tc .vmem S1x128 .f32 := scM4_1.view

/-- The region's invariant with the two accumulators as memrefs owned at some contents; every other scoped buffer stays
    unopened beside them. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

-- (the run's proof term is large: the definition's epilogue walks it past the default budget)
set_option maxHeartbeats 1000000 in
/-- THE BODY IN CASE A: the first tile of a core (the accumulators are reset, the outputs are not stored); points 0, 10. What the body's stores leave in the
    two accumulators, as pieces (last first), WITH the proof that on whole memrefs — the inputs' at their contents
    `x·`, the outputs' at contents `xi·` handed back untouched, the accumulators at anything — the body runs to the
    continuation holding the inputs' as they were and each accumulator with its pieces written. The pieces are
    found by running the body. -/
noncomputable def kernelRun4_A (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc4_stats_kernel i arg2 harg2 arg3 harg3 arg4 harg4 arg5 harg5 arg6 harg6 arg7 harg7 arg8 harg8 arg9 harg9 arg10 harg10 arg11 harg11 arg12 harg12) K } :=
  kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6

-- (the run's proof term is large: the definition's epilogue walks it past the default budget)
set_option maxHeartbeats 1000000 in
/-- THE BODY IN CASE B: a middle tile of a core (the accumulators are not reset, the outputs are not stored); the other points. What the body's stores leave in the
    two accumulators, as pieces (last first), WITH the proof that on whole memrefs — the inputs' at their contents
    `x·`, the outputs' at contents `xi·` handed back untouched, the accumulators at what the point before left (`xs·`) — the body runs to the
    continuation holding the inputs' as they were and each accumulator with its pieces written. The pieces are
    found by running the body. -/
noncomputable def kernelRun4_B (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc4_stats_kernel i arg2 harg2 arg3 harg3 arg4 harg4 arg5 harg5 arg6 harg6 arg7 harg7 arg8 harg8 arg9 harg9 arg10 harg10 arg11 harg11 arg12 harg12) K } :=
  kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1

-- (the run's proof term is large: the definition's epilogue walks it past the default budget)
set_option maxHeartbeats 1000000 in
/-- THE BODY IN CASE C: the last tile of a core (the accumulators are not reset, the outputs are stored); points 9, 19. What the body's stores leave in the
    two outputs' staging memrefs and the two accumulators, as pieces (last first), WITH the proof that on whole memrefs — the inputs' at their contents
    `x·`, the outputs' at anything, the accumulators at what the point before left (`xs·`) — the body runs to the
    continuation holding the inputs' as they were, each output's buffer with its pieces written and each accumulator with its pieces written. The pieces are
    found by running the body. -/
noncomputable def kernelRun4_C (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc4_stats_kernel i arg2 harg2 arg3 harg3 arg4 harg4 arg5 harg5 arg6 harg6 arg7 harg7 arg8 harg8 arg9 harg9 arg10 harg10 arg11 harg11 arg12 harg12) K } :=
  kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1

/-! ## Case A (the first tile of a core): what the body leaves -/

/-- Case A stores nothing into output 7 (the window is idle at its points and not written back there): no pieces —
    a placeholder (junk read back) that nothing consults. -/
noncomputable def out4_A_7 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S8x128 .f32 :=
  VO4_7.read (Elt F) (VO4_7.writes (Elt F) VO4_7.junk (kernelRun4_A c i arg2 harg2 arg3 harg3 arg4 harg4 arg5 harg5 arg6 harg6 arg7 harg7 arg8 harg8 arg9 harg9 arg10 harg10 arg11 harg11 arg12 harg12 hc0 hc1 x0 x1 x2 x3 x4 x5 x6).1)

/-- Case A stores nothing into output 8 (the window is idle at its points and not written back there): no pieces —
    a placeholder (junk read back) that nothing consults. -/
noncomputable def out4_A_8 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S8x128 .f32 :=
  VO4_8.read (Elt F) (VO4_8.writes (Elt F) VO4_8.junk (kernelRun4_A c i arg2 harg2 arg3 harg3 arg4 harg4 arg5 harg5 arg6 harg6 arg7 harg7 arg8 harg8 arg9 harg9 arg10 harg10 arg11 harg11 arg12 harg12 hc0 hc1 x0 x1 x2 x3 x4 x5 x6).2.1)

/-- Case A's pieces for accumulator 0 cover it (each store is of the whole row). -/
theorem scover4_A_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (y : S1x128.Idx) :
    ∃ pc ∈ (kernelRun4_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun4_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1 S1x128.size (by sl_kernel_rfl) y

/-- What case A leaves in accumulator 0: its pieces read back over junk. -/
noncomputable def sout4_A_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S1x128 .f32 :=
  VS4_0.read (Elt F) (VS4_0.writes (Elt F) VS4_0.junk (kernelRun4_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1)

/-- Case A's pieces for accumulator 1 cover it (each store is of the whole row). -/
theorem scover4_A_1 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (y : S1x128.Idx) :
    ∃ pc ∈ (kernelRun4_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1, y ∈ pc.1.set :=
  View.cover_of_tiledL (kernelRun4_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1 S1x128.size (by sl_kernel_rfl) y

/-- What case A leaves in accumulator 1: its pieces read back over junk. -/
noncomputable def sout4_A_1 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S1x128 .f32 :=
  VS4_1.read (Elt F) (VS4_1.writes (Elt F) VS4_1.junk (kernelRun4_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1)

/-! ## Case B (a middle tile of a core): what the body leaves -/

/-- Case B stores nothing into output 7 (the window is idle at its points and not written back there): no pieces —
    a placeholder (junk read back) that nothing consults. -/
noncomputable def out4_B_7 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO4_7.read (Elt F) (VO4_7.writes (Elt F) VO4_7.junk (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- Case B stores nothing into output 8 (the window is idle at its points and not written back there): no pieces —
    a placeholder (junk read back) that nothing consults. -/
noncomputable def out4_B_8 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO4_8.read (Elt F) (VO4_8.writes (Elt F) VO4_8.junk (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- Case B's pieces for accumulator 0 cover it (each store is of the whole row). -/
theorem scover4_B_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What case B leaves in accumulator 0: its pieces read back over junk. -/
noncomputable def sout4_B_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS4_0.read (Elt F) (VS4_0.writes (Elt F) VS4_0.junk (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- Case B's pieces for accumulator 1 cover it (each store is of the whole row). -/
theorem scover4_B_1 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What case B leaves in accumulator 1: its pieces read back over junk. -/
noncomputable def sout4_B_1 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS4_1.read (Elt F) (VS4_1.writes (Elt F) VS4_1.junk (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-! ## Case C (the last tile of a core): what the body leaves -/

/-- Case C's pieces for output 7 tile its block (one store of the whole 8 × 128 block), so they cover it. -/
theorem cover4_C_7 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S8x128.Idx) :
    ∃ pc ∈ (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S8x128.size (by sl_kernel_rfl) y

/-- What case C leaves in output 7's staging buffer: its pieces read back over junk. -/
noncomputable def out4_C_7 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO4_7.read (Elt F) (VO4_7.writes (Elt F) VO4_7.junk (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- Case C's pieces for output 8 tile its block (one store of the whole 8 × 128 block), so they cover it. -/
theorem cover4_C_8 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S8x128.Idx) :
    ∃ pc ∈ (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S8x128.size (by sl_kernel_rfl) y

/-- What case C leaves in output 8's staging buffer: its pieces read back over junk. -/
noncomputable def out4_C_8 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO4_8.read (Elt F) (VO4_8.writes (Elt F) VO4_8.junk (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- Case C's pieces for accumulator 0 cover it (each store is of the whole row). -/
theorem scover4_C_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What case C leaves in accumulator 0: its pieces read back over junk. -/
noncomputable def sout4_C_0 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS4_0.read (Elt F) (VS4_0.writes (Elt F) VS4_0.junk (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- Case C's pieces for accumulator 1 cover it (each store is of the whole row). -/
theorem scover4_C_1 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What case C leaves in accumulator 1: its pieces read back over junk. -/
noncomputable def sout4_C_1 (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS4_1.read (Elt F) (VS4_1.writes (Elt F) VS4_1.junk (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-! ## What the outputs and the accumulators hold after each point -/

/-- THE ACCUMULATION. What the two outputs' staging buffers and the two accumulators hold after the body at position
    `n` (a tuple: output 7, output 8, accumulator 0, accumulator 1): the case the closed forms select at `n`, run at
    the point's memrefs and input blocks, the accumulators at what this leaves at `n - 1` where the case does not reset
    them. An assignment of the conditions no point meets is no case. -/
noncomputable def outsAt4 (c : Dev nD) : (n : ℕ) → n < cfg4.N → Vec F S8x128 .f32 × Vec F S8x128 .f32 × Vec F S1x128 .f32 × Vec F S1x128 .f32
  | 0, hn => (out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩), out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩))
  | n + 1, hn =>
    if h0 : (n + 1) % 10 = 0 then
      if h1 : (n + 1) % 10 = 9 then
        False.elim (by omega)
      else
        (out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩), out4_A_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩))
    else
      if h1 : (n + 1) % 10 = 9 then
        (out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2.1 (outsAt4 c n (Nat.lt_of_succ_lt hn)).2.2.2, out4_C_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2.1 (outsAt4 c n (Nat.lt_of_succ_lt hn)).2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2.1 (outsAt4 c n (Nat.lt_of_succ_lt hn)).2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2.1 (outsAt4 c n (Nat.lt_of_succ_lt hn)).2.2.2)
      else
        (out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2.1 (outsAt4 c n (Nat.lt_of_succ_lt hn)).2.2.2, out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2.1 (outsAt4 c n (Nat.lt_of_succ_lt hn)).2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2.1 (outsAt4 c n (Nat.lt_of_succ_lt hn)).2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2.1 (outsAt4 c n (Nat.lt_of_succ_lt hn)).2.2.2)

/-- `outsAt4` at a first tile: that case's contents. -/
theorem outsAt4_A (c : Dev nD) (t : Fin cfg4.N) (h0 : t.val % 10 = 0) (h1 : ¬t.val % 10 = 9) :
    outsAt4 V c t.val t.isLt = (out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t), out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t)) := by
  obtain ⟨n, hn⟩ := t
  cases n with
  | zero => exact rfl
  | succ n => exact (dif_pos h0).trans ((dif_neg h1).trans rfl)

/-- `outsAt4` at a middle tile: that case's contents, over what the point before left. -/
theorem outsAt4_B (c : Dev nD) (t : Fin cfg4.N) (h0 : ¬t.val % 10 = 0) (h1 : ¬t.val % 10 = 9) :
    outsAt4 V c t.val t.isLt = (out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2, out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt4` at a last tile: that case's contents, over what the point before left. -/
theorem outsAt4_C (c : Dev nD) (t : Fin cfg4.N) (h0 : ¬t.val % 10 = 0) (h1 : t.val % 10 = 9) :
    outsAt4 V c t.val t.isLt = (out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2, out4_C_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer that is no
    staging buffer at anything, the generator register at some state); afterwards the same with the two accumulators at
    what the point before left in them (`outsAt4`'s last two components). -/
noncomputable def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.1) ∗ owns (c : Thread nD τ) scM4_1 fullShare ((outsAt4 V c n hn).2.2.2))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulators at that point's contents. -/
theorem PhiS4_succ (c : Dev nD) (n : ℕ) (hn : n < cfg4.N) :
    PhiS4 V c (n + 1) hn = iprop(iprop(iprop(owns (c : Thread nD τ) scM4_0 fullShare ((outsAt4 V c n hn).2.2.1) ∗ owns (c : Thread nD τ) scM4_1 fullShare ((outsAt4 V c n hn).2.2.2))
      ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the accumulators at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.1) ∗ owns (c : Thread nD τ) scM4_1 fullShare ((outsAt4 V c (n - 1) (by omega)).2.2.2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the outputs' at `outsAt4`'s first two components; the invariant `PhiS4`;
    nothing owed; full shares. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => (outsAt4 V c t.val t.isLt).1
    | ⟨8, _⟩ => (outsAt4 V c t.val t.isLt).2.1
  Φ t := PhiS4 V c t.val (Nat.le_of_lt_succ t.isLt)
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = (outsAt4 V c t.val t.isLt).1 := by dsimp only [dat4]
theorem after4_8 (c : Dev nD) (t : Fin cfg4.N) : (dat4 V c).after 8 t = (outsAt4 V c t.val t.isLt).2.1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t` (the windows one by one), -/
noncomputable def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
noncomputable def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4800000 in
/-- The body at any point: the inputs' memrefs hold their blocks; the closed forms say which case the point is in; so that
    case's run applies. The invariant hands the body the two accumulators at what the point before left (at anything at
    the first point) and takes them back at this point's contents; the other scoped buffers, the generator register and
    what the core owes pass through untouched. At a first or middle tile the outputs' buffers are handed back as found;
    at a last tile they are returned at the stored blocks. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  by_cases h0 : t.val % 10 = 0
  · by_cases h1 : t.val % 10 = 9
    · exfalso; omega
    · -- a first tile
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t], after4_6]
      rw [Dat.leavesExact_idle (dat4 V c) 7 t (idleAt4_7_A t ((hcond4_0 t).mpr h0) (fun h => h1 ((hcond4_1 t).mp h))) (noFlush4_7_A t ((hcond4_0 t).mpr h0) (fun h => h1 ((hcond4_1 t).mp h)))]
      rw [Dat.leavesExact_idle (dat4 V c) 8 t (idleAt4_8_A t ((hcond4_0 t).mpr h0) (fun h => h1 ((hcond4_1 t).mp h))) (noFlush4_8_A t ((hcond4_0 t).mpr h0) (fun h => h1 ((hcond4_1 t).mp h)))]
      rw [outsAt4_A V c t h0 h1]
      unfold sout4_A_0 sout4_A_1; (try dsimp only)
      by_cases hz : t.val = 0
      ·
        rw [PhiS4_castSucc V c t, PhiS4_zero V c _ _ hz, PhiA4_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_A c (grid4.coords t) _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover4_A_1 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
      ·
        rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_A c (grid4.coords t) _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexists _; iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover4_A_1 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
  · by_cases h1 : t.val % 10 = 9
    · -- a last tile
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t], after4_6]
      rw [show (dat4 V c).leavesExact 7 t = owns (c : Thread nD τ) (ms4_7 t) fullShare ((dat4 V c).after 7 t) from by
        unfold Dat.leavesExact; rw [liveAt4_7_C t (fun h => h0 ((hcond4_0 t).mp h)) ((hcond4_1 t).mpr h1)], after4_7]
      rw [show (dat4 V c).leavesExact 8 t = owns (c : Thread nD τ) (ms4_8 t) fullShare ((dat4 V c).after 8 t) from by
        unfold Dat.leavesExact; rw [liveAt4_8_C t (fun h => h0 ((hcond4_0 t).mp h)) ((hcond4_1 t).mpr h1)], after4_8]
      rw [outsAt4_C V c t h0 h1]
      unfold out4_C_7 out4_C_8 sout4_C_0 sout4_C_1; (try dsimp only)
      by_cases hz : t.val = 0
      · exfalso; omega
      ·
        rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_C c (grid4.coords t) _ _ _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        iintro ⟨H0, H1, H2, H3, H4, H5, H6, ⟨%e7, H7⟩, ⟨%e8, H8⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_C_0 c _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover4_C_1 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover4_C_7 c _ _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover4_C_8 c _ _ _ _ _ _ _ _ _ _ _ _ _ _ _ _ _ _ _ _ _ _ _ _ _ _ _ _ _ _ _ _ _ _)
    · -- a middle tile
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t], after4_6]
      rw [Dat.leavesExact_idle (dat4 V c) 7 t (idleAt4_7_B t (fun h => h0 ((hcond4_0 t).mp h)) (fun h => h1 ((hcond4_1 t).mp h))) (noFlush4_7_B t (fun h => h0 ((hcond4_0 t).mp h)) (fun h => h1 ((hcond4_1 t).mp h)))]
      rw [Dat.leavesExact_idle (dat4 V c) 8 t (idleAt4_8_B t (fun h => h0 ((hcond4_0 t).mp h)) (fun h => h1 ((hcond4_1 t).mp h))) (noFlush4_8_B t (fun h => h0 ((hcond4_0 t).mp h)) (fun h => h1 ((hcond4_1 t).mp h)))]
      rw [outsAt4_B V c t h0 h1]
      unfold sout4_B_0 sout4_B_1; (try dsimp only)
      by_cases hz : t.val = 0
      · exfalso; omega
      ·
        rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_B c (grid4.coords t) _ _ _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_B_0 c _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover4_B_1 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the launch's back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 20 := N_4; omega)

end Cert.KernelIdeal.Gen

end
-- ==== Proof.KI.Norm5.lean ====
/-
  Region 1 of @main: the normalize kernel of the first layer (custom_call 1, `cc5_normalize_recompute_kernel`), its
  kernel half at a PARAMETER `V`, the TensorCore's buffer contents when the region is entered.

  The grid has 20 points and the kernel 12 windows. Windows 0–2 are tiles of 5000 rows of the node features `h`, of the
  aggregated neighbour features and of the inverse degrees, the tile's index the point; windows 3–10 are whole arrays
  (two 128×128 weight matrices, then bias, PReLU slope, mean, variance, gamma, beta: one row of 128 each), the same
  block at every point; window 11 is the output, a tile of 5000 rows written back at every point, its index the point.

  At a point the body loads every input window's staging buffer whole, loads the output's buffer once (the value is
  not used) and stores ONE value over the whole output buffer:
      y  = PReLU(bf16(h)·bf16(W_self) + bf16(agg·invdeg)·bf16(W_neigh) + bias)      (`k5_pay2`)
      out = (y − mean) · rsqrt(var + ε) · gamma + beta                                (`k5_pay1` over `k5_pay3`, `k5_pay4`)
  So what the body leaves in the output buffer is a closed function `out5_11` of the eleven input blocks at the point,
  and every input buffer is left as found. This module states that as the body's triple (`sound_kernel5`), packages it
  as the pipeline's proof data (`dat5`: the arrays as `V` has them; after the body each input's buffer at its block
  and the output's at `out5_11` of the input blocks) and proves the library's body obligation for it
  (`body_obligation5`). The load of the output buffer reads a buffer the body owns at SOME contents, which is all a
  load needs; nothing depends on what it read.
-/
import proofs.«129379_j32899449487582_2_alg».proof.Proof.KI.Norm1
import proofs.«129379_j32899449487582_2_alg».proof.Proof.Gen.KernelIdeal.Launch
import proofs.«129379_j32899449487582_2_alg».proof.Proof.Gen.KernelIdeal.Skeleton
import proofs.«129379_j32899449487582_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of 5000 × 128 (`View.cover_of_tiled`): the elaborator's structural look recurses once per
-- coordinate of the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): unfetched, the block index
    has not moved (`Dat.before_in_eq_fetched`), the window uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for ANY proof
    data whose array is `V`'s (`hA`) and whose body leaves the block in place (`hafter`): unfetched, the block index
    has not moved (`Dat.before_in_eq_fetched`), the window uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for ANY proof
    data whose array is `V`'s (`hA`) and whose body leaves the block in place (`hafter`): unfetched, the block index
    has not moved (`Dat.before_in_eq_fetched`), the window uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for ANY proof
    data whose array is `V`'s (`hA`) and whose body leaves the block in place (`hafter`): unfetched, the block index
    has not moved (`Dat.before_in_eq_fetched`), the window uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for ANY proof
    data whose array is `V`'s (`hA`) and whose body leaves the block in place (`hafter`): unfetched, the block index
    has not moved (`Dat.before_in_eq_fetched`), the window uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for ANY proof
    data whose array is `V`'s (`hA`) and whose body leaves the block in place (`hafter`): unfetched, the block index
    has not moved (`Dat.before_in_eq_fetched`), the window uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for ANY proof
    data whose array is `V`'s (`hA`) and whose body leaves the block in place (`hafter`): unfetched, the block index
    has not moved (`Dat.before_in_eq_fetched`), the window uncut and never idle. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, fetched there or not, for ANY proof
    data whose array is `V`'s (`hA`) and whose body leaves the block in place (`hafter`): unfetched, the block index
    has not moved (`Dat.before_in_eq_fetched`), the window uncut and never idle. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, fetched there or not, for ANY proof
    data whose array is `V`'s (`hA`) and whose body leaves the block in place (`hafter`): unfetched, the block index
    has not moved (`Dat.before_in_eq_fetched`), the window uncut and never idle. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-- Input window 9's current staging buffer holds its block at every point, fetched there or not, for ANY proof
    data whose array is `V`'s (`hA`) and whose body leaves the block in place (`hafter`): unfetched, the block index
    has not moved (`Dat.before_in_eq_fetched`), the window uncut and never idle. -/
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)

/-- Input window 10's current staging buffer holds its block at every point, fetched there or not, for ANY proof
    data whose array is `V`'s (`hA`) and whose body leaves the block in place (`hafter`): unfetched, the block index
    has not moved (`Dat.before_in_eq_fetched`), the window uncut and never idle. -/
theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

noncomputable abbrev r5_0 : Rect S5000x128 := Rect.unit (s := S5000x128) ![0, 0] S5000x128.size inb_S5000x128_S5000x128_0_0
noncomputable abbrev r5_1 : Rect S5000x1 := Rect.unit (s := S5000x1) ![0, 0] S5000x1.size inb_S5000x1_S5000x1_0_0
noncomputable abbrev r5_2 : Rect S128x128 := Rect.unit (s := S128x128) ![0, 0] S128x128.size inb_S128x128_S128x128_0_0
noncomputable abbrev r5_3 : Rect S1x128 := Rect.unit (s := S1x128) ![0, 0] S1x128.size inb_S1x128_S1x128_0_0

/-! ## What the body leaves in the output window's buffer -/

/-- Window 11's staging buffer after the body, from the input windows' blocks: its 1 store as a piece
    (`View.canon`; the payloads are the skeleton's). The variance `x8` goes through `k5_pay3` (the reciprocal
    square root) and the mean `x7` through `k5_pay4`: the body loads the variance's window before the mean's. -/
noncomputable def out5_11 (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) : Vec F S5000x128 .f32 :=
  View.canon [⟨r5_0, k5_pay1 (k5_pay2 (View.ld x0 r5_0) (View.ld x1 r5_0) (View.ld x2 r5_1) (View.ld x3 r5_2) (View.ld x4 r5_2) (View.ld x5 r5_3) (View.ld x6 r5_3)) (k5_pay3 (View.ld x8 r5_3)) (k5_pay4 (View.ld x7 r5_3)) (View.ld x9 r5_3) (View.ld x10 r5_3)⟩]

/-- Its store tiles the buffer (checked by evaluation), so it covers it. -/
theorem cover5_11 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at read contents `xW` and the output's at anything, runs to
    the continuation holding the inputs' as they were and the output's at `out5_11` of the inputs': the printed
    functions are their skeletons, which the executor runs, through the part call. The load of the output's buffer
    steps like any load of an owned buffer; its value is dropped. -/
theorem sound_kernel5 (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out5_11 x0 x1 x2 x3 x4 x5 x6 x7 x8 x9 x10)) -∗ K ⟨⟩))
      ⊢ wp frame (wpE (defs₀ (F := F)) Variants.none c none) E (cc5_normalize_recompute_kernel i arg1 harg1 arg2 harg2 arg3 harg3 arg4 harg4 arg5 harg5 arg6 harg6 arg7 harg7 arg8 harg8 arg9 harg9 arg10 harg10 arg11 harg11 arg12 harg12) K :=
  sound_kernel1 c E i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 K

/-! ## The pipeline's proof data -/

/-- The proof data of pipeline 1 on core `c`: the arrays as the region finds them (`V`); after the body at
    point `t` each input's buffer at its block and the output's at `out5_11` of the input blocks; the invariant the
    scoped rest and the generator register, untouched (`Pipeline.ΦA`); nothing owed; full shares. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => out5_11 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t)
  Φ _ := Pipeline.ΦA spec5 c
  q _ := fullShare
  owed _ := 0

/-- The proof data's arrays are the region-entry contents (the proof data's definition projected, by `dsimp`). -/
theorem A_eq5 (c : Dev nD) (w : Fin cfg5.W) : (dat5 V c).A w = V c (Pipeline.arrRef spec5 w) := by
  dsimp only [dat5]

/-- What the body leaves, window by window (the proof data's `match` reduced by `dsimp`). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = out5_11 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) := by dsimp only [dat5]

/-- Each input's current staging buffer holds its block at every point, fetched there or not (`before5_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d

/-! ## The body obligation, at a generic point -/

/-- What the body is called with at point `t` (the body obligation's precondition, the windows one by one), -/
noncomputable def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d)))

/-- and what it returns. -/
noncomputable def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10, after5_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel5 c Set.univ _ _ _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.KernelIdeal.Gen

end
-- ==== Proof.KI.Stats6.lean ====
/- The first layer's statistics kernel, as the pipeline runs it on one core: a grid of 2 × 10 points, each point
   one tile of 5000 rows. At every point the body computes the tile's activations
   y = prelu (bf16 h · bf16 W_self + bf16 (raw_agg · invdeg) · bf16 W_neigh + bias), adds the column sums of y to a
   first accumulator row and the column sums of y · y to a second accumulator row; the two accumulator rows live in
   scratch buffers that keep their contents from one point to the next. At the first tile of a core (point ≡ 0 mod 10)
   both accumulators are first reset to zero; at the last tile of a core (point ≡ 9 mod 10) each accumulator row,
   repeated over 8 rows, is stored into the core's block of one of the two outputs, which is then written back.

   This module states and proves, for the contents V of the buffers when the region is entered: the body's triple in
   each of the three control cases (first / middle / last tile of a core), what the two outputs' buffers and the two
   accumulators hold after each point (by recursion on the point), the pipeline's proof data over these, and the
   body obligation at every point. -/
import proofs.«129379_j32899449487582_2_alg».proof.Proof.KI.Stats0
import proofs.«129379_j32899449487582_2_alg».proof.Proof.Gen.KernelIdeal.Launch
import proofs.«129379_j32899449487582_2_alg».proof.Proof.Gen.KernelIdeal.Skeleton
import proofs.«129379_j32899449487582_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not (an input that is
    not fetched at a point has the block index of the point before), for any proof data whose array is `V`'s and whose
    body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not (an input that is
    not fetched at a point has the block index of the point before), for any proof data whose array is `V`'s and whose
    body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not (an input that is
    not fetched at a point has the block index of the point before), for any proof data whose array is `V`'s and whose
    body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not (an input that is
    not fetched at a point has the block index of the point before), for any proof data whose array is `V`'s and whose
    body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not (an input that is
    not fetched at a point has the block index of the point before), for any proof data whose array is `V`'s and whose
    body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not (an input that is
    not fetched at a point has the block index of the point before), for any proof data whose array is `V`'s and whose
    body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not (an input that is
    not fetched at a point has the block index of the point before), for any proof data whose array is `V`'s and whose
    body leaves the block in place. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The body's branch conditions -/

/-- The condition of the body's first `scf.if` (reset the accumulators), from the grid coordinates. -/
noncomputable abbrev cond6_0 (i : grid6.Coords) : Prop := (Scalar.cmpi .ne (Scalar.extui (Scalar.cmpi .eq (BitVec.ofNat 32 (i 1).val) 0#32)) 0#32) = 1#1
/-- It holds at the points ≡ 0 (mod 10): the first tile of each core — decided over the grid. -/
theorem hcond6_0 : ∀ t : Fin cfg6.N, cond6_0 (grid6.coords t) ↔ t.val % 10 = 0 :=
  (by decide +kernel : ∀ t : Fin grid6.N, cond6_0 (grid6.coords t) ↔ t.val % 10 = 0)

/-- The condition of the body's second `scf.if` (store the accumulators into the outputs), from the grid coordinates. -/
noncomputable abbrev cond6_1 (i : grid6.Coords) : Prop := k6_cond2 i = 1#1
/-- It holds at the points ≡ 9 (mod 10): the last tile of each core — decided over the grid. -/
theorem hcond6_1 : ∀ t : Fin cfg6.N, cond6_1 (grid6.coords t) ↔ t.val % 10 = 9 :=
  (by decide +kernel : ∀ t : Fin grid6.N, cond6_1 (grid6.coords t) ↔ t.val % 10 = 9)

/-! ## Where the windows are idle -/

/-- Window 0 is never idle (an input). -/
theorem liveAt6_0 : ∀ t : Fin cfg6.N, cfg6.idle 0 (grid6.coords t) = false := by decide +kernel
/-- Window 1 is never idle (an input). -/
theorem liveAt6_1 : ∀ t : Fin cfg6.N, cfg6.idle 1 (grid6.coords t) = false := by decide +kernel
/-- Window 2 is never idle (an input). -/
theorem liveAt6_2 : ∀ t : Fin cfg6.N, cfg6.idle 2 (grid6.coords t) = false := by decide +kernel
/-- Window 3 is never idle (an input). -/
theorem liveAt6_3 : ∀ t : Fin cfg6.N, cfg6.idle 3 (grid6.coords t) = false := by decide +kernel
/-- Window 4 is never idle (an input). -/
theorem liveAt6_4 : ∀ t : Fin cfg6.N, cfg6.idle 4 (grid6.coords t) = false := by decide +kernel
/-- Window 5 is never idle (an input). -/
theorem liveAt6_5 : ∀ t : Fin cfg6.N, cfg6.idle 5 (grid6.coords t) = false := by decide +kernel
/-- Window 6 is never idle (an input). -/
theorem liveAt6_6 : ∀ t : Fin cfg6.N, cfg6.idle 6 (grid6.coords t) = false := by decide +kernel
/-- At a first tile output 7 is idle: nothing is stored into it, -/
theorem idleAt6_7_A : ∀ t : Fin cfg6.N, cond6_0 (grid6.coords t) → ¬cond6_1 (grid6.coords t) → cfg6.idle 7 (grid6.coords t) = true := by decide +kernel
/-- and its block is not written back. -/
theorem noFlush6_7_A : ∀ t : Fin cfg6.N, cond6_0 (grid6.coords t) → ¬cond6_1 (grid6.coords t) → (cfg6.win 7).flush t = false := by decide +kernel
/-- At a middle tile output 7 is idle: nothing is stored into it, -/
theorem idleAt6_7_B : ∀ t : Fin cfg6.N, ¬cond6_0 (grid6.coords t) → ¬cond6_1 (grid6.coords t) → cfg6.idle 7 (grid6.coords t) = true := by decide +kernel
/-- and its block is not written back. -/
theorem noFlush6_7_B : ∀ t : Fin cfg6.N, ¬cond6_0 (grid6.coords t) → ¬cond6_1 (grid6.coords t) → (cfg6.win 7).flush t = false := by decide +kernel
/-- At a last tile output 7 is live: the body stores its whole block. -/
theorem liveAt6_7_C : ∀ t : Fin cfg6.N, ¬cond6_0 (grid6.coords t) → cond6_1 (grid6.coords t) → cfg6.idle 7 (grid6.coords t) = false := by decide +kernel
/-- At a first tile output 8 is idle: nothing is stored into it, -/
theorem idleAt6_8_A : ∀ t : Fin cfg6.N, cond6_0 (grid6.coords t) → ¬cond6_1 (grid6.coords t) → cfg6.idle 8 (grid6.coords t) = true := by decide +kernel
/-- and its block is not written back. -/
theorem noFlush6_8_A : ∀ t : Fin cfg6.N, cond6_0 (grid6.coords t) → ¬cond6_1 (grid6.coords t) → (cfg6.win 8).flush t = false := by decide +kernel
/-- At a middle tile output 8 is idle: nothing is stored into it, -/
theorem idleAt6_8_B : ∀ t : Fin cfg6.N, ¬cond6_0 (grid6.coords t) → ¬cond6_1 (grid6.coords t) → cfg6.idle 8 (grid6.coords t) = true := by decide +kernel
/-- and its block is not written back. -/
theorem noFlush6_8_B : ∀ t : Fin cfg6.N, ¬cond6_0 (grid6.coords t) → ¬cond6_1 (grid6.coords t) → (cfg6.win 8).flush t = false := by decide +kernel
/-- At a last tile output 8 is live: the body stores its whole block. -/
theorem liveAt6_8_C : ∀ t : Fin cfg6.N, ¬cond6_0 (grid6.coords t) → cond6_1 (grid6.coords t) → cfg6.idle 8 (grid6.coords t) = false := by decide +kernel

/-! ## The memrefs the body is called with -/

/-- One staging buffer of output window 7, through which its contents are stated (the choice does not matter). -/
noncomputable abbrev VO6_7 : View sig .tc .vmem S8x128 .f32 := (Memref.whole cc6_stg7_0 : Memref sig .tc .vmem S8x128 .f32).view
/-- One staging buffer of output window 8, through which its contents are stated (the choice does not matter). -/
noncomputable abbrev VO6_8 : View sig .tc .vmem S8x128 .f32 := (Memref.whole cc6_stg8_0 : Memref sig .tc .vmem S8x128 .f32).view
/-- Each window's current staging memref at point `t`, spelled as the pipeline passes it, and its wholeness. -/
noncomputable abbrev ms6_0 (t : Fin cfg6.N) : Memref sig .tc .vmem S5000x128 .f32 := win6_0.stage (cfg6.slots t 0)
noncomputable abbrev hs6_0 (t : Fin cfg6.N) : (ms6_0 t).IsWhole := hstage6_0 ((cfg6.slots t 0).cast nbuf6_0)
noncomputable abbrev ms6_1 (t : Fin cfg6.N) : Memref sig .tc .vmem S5000x128 .f32 := win6_1.stage (cfg6.slots t 1)
noncomputable abbrev hs6_1 (t : Fin cfg6.N) : (ms6_1 t).IsWhole := hstage6_1 ((cfg6.slots t 1).cast nbuf6_1)
noncomputable abbrev ms6_2 (t : Fin cfg6.N) : Memref sig .tc .vmem S5000x1 .f32 := win6_2.stage (cfg6.slots t 2)
noncomputable abbrev hs6_2 (t : Fin cfg6.N) : (ms6_2 t).IsWhole := hstage6_2 ((cfg6.slots t 2).cast nbuf6_2)
noncomputable abbrev ms6_3 (t : Fin cfg6.N) : Memref sig .tc .vmem S128x128 .f32 := win6_3.stage (cfg6.slots t 3)
noncomputable abbrev hs6_3 (t : Fin cfg6.N) : (ms6_3 t).IsWhole := hstage6_3 ((cfg6.slots t 3).cast nbuf6_3)
noncomputable abbrev ms6_4 (t : Fin cfg6.N) : Memref sig .tc .vmem S128x128 .f32 := win6_4.stage (cfg6.slots t 4)
noncomputable abbrev hs6_4 (t : Fin cfg6.N) : (ms6_4 t).IsWhole := hstage6_4 ((cfg6.slots t 4).cast nbuf6_4)
noncomputable abbrev ms6_5 (t : Fin cfg6.N) : Memref sig .tc .vmem S1x128 .f32 := win6_5.stage (cfg6.slots t 5)
noncomputable abbrev hs6_5 (t : Fin cfg6.N) : (ms6_5 t).IsWhole := hstage6_5 ((cfg6.slots t 5).cast nbuf6_5)
noncomputable abbrev ms6_6 (t : Fin cfg6.N) : Memref sig .tc .vmem S1x128 .f32 := win6_6.stage (cfg6.slots t 6)
noncomputable abbrev hs6_6 (t : Fin cfg6.N) : (ms6_6 t).IsWhole := hstage6_6 ((cfg6.slots t 6).cast nbuf6_6)
noncomputable abbrev ms6_7 (t : Fin cfg6.N) : Memref sig .tc .vmem S8x128 .f32 := win6_7.stage (cfg6.slots t 7)
noncomputable abbrev hs6_7 (t : Fin cfg6.N) : (ms6_7 t).IsWhole := hstage6_7 ((cfg6.slots t 7).cast nbuf6_7)
noncomputable abbrev ms6_8 (t : Fin cfg6.N) : Memref sig .tc .vmem S8x128 .f32 := win6_8.stage (cfg6.slots t 8)
noncomputable abbrev hs6_8 (t : Fin cfg6.N) : (ms6_8 t).IsWhole := hstage6_8 ((cfg6.slots t 8).cast nbuf6_8)
/-- The two accumulator rows: whole scoped buffers of the kernel's own, passed beside the windows. -/
noncomputable abbrev scM6_0 : Memref sig .tc .vmem S1x128 .f32 := Memref.whole cc6_scratch0
noncomputable abbrev scM6_1 : Memref sig .tc .vmem S1x128 .f32 := Memref.whole cc6_scratch1
/-- Accumulator 0 as a view: what it holds is stated through it. -/
noncomputable abbrev VS6_0 : View sig .tc .vmem S1x128 .f32 := scM6_0.view
/-- Accumulator 1 as a view: what it holds is stated through it. -/
noncomputable abbrev VS6_1 : View sig .tc .vmem S1x128 .f32 := scM6_1.view

/-- The region's invariant with the two accumulators as memrefs owned at some contents; every other scoped buffer stays
    unopened beside them. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

-- (the run's proof term is large: the definition's epilogue walks it past the default budget)
set_option maxHeartbeats 1000000 in
/-- THE BODY IN CASE A: the first tile of a core (the accumulators are reset, the outputs are not stored); points 0, 10. What the body's stores leave in the
    two accumulators, as pieces (last first), WITH the proof that on whole memrefs — the inputs' at their contents
    `x·`, the outputs' at contents `xi·` handed back untouched, the accumulators at anything — the body runs to the
    continuation holding the inputs' as they were and each accumulator with its pieces written. The pieces are
    found by running the body. -/
noncomputable def kernelRun6_A (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc6_stats_kernel i arg2 harg2 arg3 harg3 arg4 harg4 arg5 harg5 arg6 harg6 arg7 harg7 arg8 harg8 arg9 harg9 arg10 harg10 arg11 harg11 arg12 harg12) K } :=
  kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6

-- (the run's proof term is large: the definition's epilogue walks it past the default budget)
set_option maxHeartbeats 1000000 in
/-- THE BODY IN CASE B: a middle tile of a core (the accumulators are not reset, the outputs are not stored); the other points. What the body's stores leave in the
    two accumulators, as pieces (last first), WITH the proof that on whole memrefs — the inputs' at their contents
    `x·`, the outputs' at contents `xi·` handed back untouched, the accumulators at what the point before left (`xs·`) — the body runs to the
    continuation holding the inputs' as they were and each accumulator with its pieces written. The pieces are
    found by running the body. -/
noncomputable def kernelRun6_B (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (xi7 : Vec F S8x128 .f32) (xi8 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc6_stats_kernel i arg2 harg2 arg3 harg3 arg4 harg4 arg5 harg5 arg6 harg6 arg7 harg7 arg8 harg8 arg9 harg9 arg10 harg10 arg11 harg11 arg12 harg12) K } :=
  kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1

-- (the run's proof term is large: the definition's epilogue walks it past the default budget)
set_option maxHeartbeats 1000000 in
/-- THE BODY IN CASE C: the last tile of a core (the accumulators are not reset, the outputs are stored); points 9, 19. What the body's stores leave in the
    two outputs' staging memrefs and the two accumulators, as pieces (last first), WITH the proof that on whole memrefs — the inputs' at their contents
    `x·`, the outputs' at anything, the accumulators at what the point before left (`xs·`) — the body runs to the
    continuation holding the inputs' as they were, each output's buffer with its pieces written and each accumulator with its pieces written. The pieces are
    found by running the body. -/
noncomputable def kernelRun6_C (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    Σ' (L7 : List (View.Piece (Elt F) S8x128 .f32)) (L8 : List (View.Piece (Elt F) S8x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc6_stats_kernel i arg2 harg2 arg3 harg3 arg4 harg4 arg5 harg5 arg6 harg6 arg7 harg7 arg8 harg8 arg9 harg9 arg10 harg10 arg11 harg11 arg12 harg12) K } :=
  kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1

/-! ## Case A (the first tile of a core): what the body leaves -/

/-- Case A stores nothing into output 7 (the window is idle at its points and not written back there): no pieces —
    a placeholder (junk read back) that nothing consults. -/
noncomputable def out6_A_7 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S8x128 .f32 :=
  VO6_7.read (Elt F) (VO6_7.writes (Elt F) VO6_7.junk (kernelRun6_A c i arg2 harg2 arg3 harg3 arg4 harg4 arg5 harg5 arg6 harg6 arg7 harg7 arg8 harg8 arg9 harg9 arg10 harg10 arg11 harg11 arg12 harg12 hc0 hc1 x0 x1 x2 x3 x4 x5 x6).1)

/-- Case A stores nothing into output 8 (the window is idle at its points and not written back there): no pieces —
    a placeholder (junk read back) that nothing consults. -/
noncomputable def out6_A_8 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S8x128 .f32 :=
  VO6_8.read (Elt F) (VO6_8.writes (Elt F) VO6_8.junk (kernelRun6_A c i arg2 harg2 arg3 harg3 arg4 harg4 arg5 harg5 arg6 harg6 arg7 harg7 arg8 harg8 arg9 harg9 arg10 harg10 arg11 harg11 arg12 harg12 hc0 hc1 x0 x1 x2 x3 x4 x5 x6).2.1)

/-- Case A's pieces for accumulator 0 cover it (each store is of the whole row). -/
theorem scover6_A_0 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (y : S1x128.Idx) :
    ∃ pc ∈ (kernelRun6_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun6_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1 S1x128.size (by sl_kernel_rfl) y

/-- What case A leaves in accumulator 0: its pieces read back over junk. -/
noncomputable def sout6_A_0 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S1x128 .f32 :=
  VS6_0.read (Elt F) (VS6_0.writes (Elt F) VS6_0.junk (kernelRun6_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1)

/-- Case A's pieces for accumulator 1 cover it (each store is of the whole row). -/
theorem scover6_A_1 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (y : S1x128.Idx) :
    ∃ pc ∈ (kernelRun6_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1, y ∈ pc.1.set :=
  View.cover_of_tiledL (kernelRun6_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1 S1x128.size (by sl_kernel_rfl) y

/-- What case A leaves in accumulator 1: its pieces read back over junk. -/
noncomputable def sout6_A_1 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) : Vec F S1x128 .f32 :=
  VS6_1.read (Elt F) (VS6_1.writes (Elt F) VS6_1.junk (kernelRun6_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1)

/-! ## Case B (a middle tile of a core): what the body leaves -/

/-- Case B stores nothing into output 7 (the window is idle at its points and not written back there): no pieces —
    a placeholder (junk read back) that nothing consults. -/
noncomputable def out6_B_7 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO6_7.read (Elt F) (VO6_7.writes (Elt F) VO6_7.junk (kernelRun6_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- Case B stores nothing into output 8 (the window is idle at its points and not written back there): no pieces —
    a placeholder (junk read back) that nothing consults. -/
noncomputable def out6_B_8 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO6_8.read (Elt F) (VO6_8.writes (Elt F) VO6_8.junk (kernelRun6_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- Case B's pieces for accumulator 0 cover it (each store is of the whole row). -/
theorem scover6_B_0 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun6_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun6_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What case B leaves in accumulator 0: its pieces read back over junk. -/
noncomputable def sout6_B_0 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS6_0.read (Elt F) (VS6_0.writes (Elt F) VS6_0.junk (kernelRun6_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- Case B's pieces for accumulator 1 cover it (each store is of the whole row). -/
theorem scover6_B_1 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun6_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun6_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What case B leaves in accumulator 1: its pieces read back over junk. -/
noncomputable def sout6_B_1 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS6_1.read (Elt F) (VS6_1.writes (Elt F) VS6_1.junk (kernelRun6_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-! ## Case C (the last tile of a core): what the body leaves -/

/-- Case C's pieces for output 7 tile its block (one store of the whole 8 × 128 block), so they cover it. -/
theorem cover6_C_7 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S8x128.Idx) :
    ∃ pc ∈ (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S8x128.size (by sl_kernel_rfl) y

/-- What case C leaves in output 7's staging buffer: its pieces read back over junk. -/
noncomputable def out6_C_7 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO6_7.read (Elt F) (VO6_7.writes (Elt F) VO6_7.junk (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- Case C's pieces for output 8 tile its block (one store of the whole 8 × 128 block), so they cover it. -/
theorem cover6_C_8 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S8x128.Idx) :
    ∃ pc ∈ (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S8x128.size (by sl_kernel_rfl) y

/-- What case C leaves in output 8's staging buffer: its pieces read back over junk. -/
noncomputable def out6_C_8 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S8x128 .f32 :=
  VO6_8.read (Elt F) (VO6_8.writes (Elt F) VO6_8.junk (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- Case C's pieces for accumulator 0 cover it (each store is of the whole row). -/
theorem scover6_C_0 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What case C leaves in accumulator 0: its pieces read back over junk. -/
noncomputable def sout6_C_0 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS6_0.read (Elt F) (VS6_0.writes (Elt F) VS6_0.junk (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- Case C's pieces for accumulator 1 cover it (each store is of the whole row). -/
theorem scover6_C_1 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) (y : S1x128.Idx) :
    ∃ pc ∈ (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What case C leaves in accumulator 1: its pieces read back over junk. -/
noncomputable def sout6_C_1 (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) : Vec F S1x128 .f32 :=
  VS6_1.read (Elt F) (VS6_1.writes (Elt F) VS6_1.junk (kernelRun6_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-! ## What the outputs and the accumulators hold after each point -/

/-- THE ACCUMULATION. What the two outputs' staging buffers and the two accumulators hold after the body at position
    `n` (a tuple: output 7, output 8, accumulator 0, accumulator 1): the case the closed forms select at `n`, run at
    the point's memrefs and input blocks, the accumulators at what this leaves at `n - 1` where the case does not reset
    them. An assignment of the conditions no point meets is no case. -/
noncomputable def outsAt6 (c : Dev nD) : (n : ℕ) → n < cfg6.N → Vec F S8x128 .f32 × Vec F S8x128 .f32 × Vec F S1x128 .f32 × Vec F S1x128 .f32
  | 0, hn => (out6_A_7 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (iblk6 V c 6 ⟨0, hn⟩), out6_A_8 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (iblk6 V c 6 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (iblk6 V c 6 ⟨0, hn⟩), sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (iblk6 V c 6 ⟨0, hn⟩))
  | n + 1, hn =>
    if h0 : (n + 1) % 10 = 0 then
      if h1 : (n + 1) % 10 = 9 then
        False.elim (by omega)
      else
        (out6_A_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩), out6_A_8 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩), sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩), sout6_A_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩))
    else
      if h1 : (n + 1) % 10 = 9 then
        (out6_C_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 c n (Nat.lt_of_succ_lt hn)).2.2.1 (outsAt6 c n (Nat.lt_of_succ_lt hn)).2.2.2, out6_C_8 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 c n (Nat.lt_of_succ_lt hn)).2.2.1 (outsAt6 c n (Nat.lt_of_succ_lt hn)).2.2.2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 c n (Nat.lt_of_succ_lt hn)).2.2.1 (outsAt6 c n (Nat.lt_of_succ_lt hn)).2.2.2, sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 c n (Nat.lt_of_succ_lt hn)).2.2.1 (outsAt6 c n (Nat.lt_of_succ_lt hn)).2.2.2)
      else
        (out6_B_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 c n (Nat.lt_of_succ_lt hn)).2.2.1 (outsAt6 c n (Nat.lt_of_succ_lt hn)).2.2.2, out6_B_8 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 c n (Nat.lt_of_succ_lt hn)).2.2.1 (outsAt6 c n (Nat.lt_of_succ_lt hn)).2.2.2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 c n (Nat.lt_of_succ_lt hn)).2.2.1 (outsAt6 c n (Nat.lt_of_succ_lt hn)).2.2.2, sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 c n (Nat.lt_of_succ_lt hn)).2.2.1 (outsAt6 c n (Nat.lt_of_succ_lt hn)).2.2.2)

/-- `outsAt6` at a first tile: that case's contents. -/
theorem outsAt6_A (c : Dev nD) (t : Fin cfg6.N) (h0 : t.val % 10 = 0) (h1 : ¬t.val % 10 = 9) :
    outsAt6 V c t.val t.isLt = (out6_A_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t), out6_A_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t), sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t), sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t)) := by
  obtain ⟨n, hn⟩ := t
  cases n with
  | zero => exact rfl
  | succ n => exact (dif_pos h0).trans ((dif_neg h1).trans rfl)

/-- `outsAt6` at a middle tile: that case's contents, over what the point before left. -/
theorem outsAt6_B (c : Dev nD) (t : Fin cfg6.N) (h0 : ¬t.val % 10 = 0) (h1 : ¬t.val % 10 = 9) :
    outsAt6 V c t.val t.isLt = (out6_B_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2, out6_B_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2, sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2, sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt6` at a last tile: that case's contents, over what the point before left. -/
theorem outsAt6_C (c : Dev nD) (t : Fin cfg6.N) (h0 : ¬t.val % 10 = 0) (h1 : t.val % 10 = 9) :
    outsAt6 V c t.val t.isLt = (out6_C_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2, out6_C_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2, sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2, sout6_C_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer that is no
    staging buffer at anything, the generator register at some state); afterwards the same with the two accumulators at
    what the point before left in them (`outsAt6`'s last two components). -/
noncomputable def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.2.1) ∗ owns (c : Thread nD τ) scM6_1 fullShare ((outsAt6 V c n hn).2.2.2))
      ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl

/-- After point `n` (before point `n + 1`): the accumulators at that point's contents. -/
theorem PhiS6_succ (c : Dev nD) (n : ℕ) (hn : n < cfg6.N) :
    PhiS6 V c (n + 1) hn = iprop(iprop(iprop(owns (c : Thread nD τ) scM6_0 fullShare ((outsAt6 V c n hn).2.2.1) ∗ owns (c : Thread nD τ) scM6_1 fullShare ((outsAt6 V c n hn).2.2.2))
      ∗ Pipeline.scopedRestBut (Ix := Unit) (Name := ℕ) (U := UR sig nD τ) (Lvl := ℕ) (Val := Elt F) spec6 c [cc6_scratch0, cc6_scratch1]) ∗ (∃ r, prngReg c r)) := rfl

/-- Before a point that is not the first: the accumulators at what the point before left. -/
theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.2.1) ∗ owns (c : Thread nD τ) scM6_1 fullShare ((outsAt6 V c (n - 1) (by omega)).2.2.2))
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the outputs' at `outsAt6`'s first two components; the invariant `PhiS6`;
    nothing owed; full shares. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => (outsAt6 V c t.val t.isLt).1
    | ⟨8, _⟩ => (outsAt6 V c t.val t.isLt).2.1
  Φ t := PhiS6 V c t.val (Nat.le_of_lt_succ t.isLt)
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- The invariant at a point's start, restated at `t.val`. -/
theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = (outsAt6 V c t.val t.isLt).1 := by dsimp only [dat6]
theorem after6_8 (c : Dev nD) (t : Fin cfg6.N) : (dat6 V c).after 8 t = (outsAt6 V c t.val t.isLt).2.1 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t` (the windows one by one), -/
noncomputable def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d)))

/-- and what it returns. -/
noncomputable def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t
    ∗ (dat6 V c).leavesExact 8 t)

set_option maxHeartbeats 4800000 in
/-- The body at any point: the inputs' memrefs hold their blocks; the closed forms say which case the point is in; so that
    case's run applies. The invariant hands the body the two accumulators at what the point before left (at anything at
    the first point) and takes them back at this point's contents; the other scoped buffers, the generator register and
    what the core owes pass through untouched. At a first or middle tile the outputs' buffers are handed back as found;
    at a last tile they are returned at the stored blocks. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).owesAt () t.succ = (dat6 V c).owesAt () t.castSucc from rfl]
  rw [show (dat6 V c).Φ t.succ = PhiS6 V c (t.val + 1) t.isLt from rfl, PhiS6_succ]
  have hN : t.val < 20 := lt_of_lt_of_eq t.isLt (show cfg6.N = 20 from N_6)
  by_cases h0 : t.val % 10 = 0
  · by_cases h1 : t.val % 10 = 9
    · exfalso; omega
    · -- a first tile
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t], after6_5]
      rw [show (dat6 V c).leavesExact 6 t = owns (c : Thread nD τ) (ms6_6 t) fullShare ((dat6 V c).after 6 t) from by
        unfold Dat.leavesExact; rw [liveAt6_6 t], after6_6]
      rw [Dat.leavesExact_idle (dat6 V c) 7 t (idleAt6_7_A t ((hcond6_0 t).mpr h0) (fun h => h1 ((hcond6_1 t).mp h))) (noFlush6_7_A t ((hcond6_0 t).mpr h0) (fun h => h1 ((hcond6_1 t).mp h)))]
      rw [Dat.leavesExact_idle (dat6 V c) 8 t (idleAt6_8_A t ((hcond6_0 t).mpr h0) (fun h => h1 ((hcond6_1 t).mp h))) (noFlush6_8_A t ((hcond6_0 t).mpr h0) (fun h => h1 ((hcond6_1 t).mp h)))]
      rw [outsAt6_A V c t h0 h1]
      unfold sout6_A_0 sout6_A_1; (try dsimp only)
      by_cases hz : t.val = 0
      ·
        rw [PhiS6_castSucc V c t, PhiS6_zero V c _ _ hz, PhiA6_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun6_A c (grid6.coords t) _ _ _ _ _ _ _ _ _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_A_0 c _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover6_A_1 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
      ·
        rw [PhiS6_castSucc V c t, PhiS6_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun6_A c (grid6.coords t) _ _ _ _ _ _ _ _ _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexists _; iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_A_0 c _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover6_A_1 c _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
  · by_cases h1 : t.val % 10 = 9
    · -- a last tile
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t], after6_5]
      rw [show (dat6 V c).leavesExact 6 t = owns (c : Thread nD τ) (ms6_6 t) fullShare ((dat6 V c).after 6 t) from by
        unfold Dat.leavesExact; rw [liveAt6_6 t], after6_6]
      rw [show (dat6 V c).leavesExact 7 t = owns (c : Thread nD τ) (ms6_7 t) fullShare ((dat6 V c).after 7 t) from by
        unfold Dat.leavesExact; rw [liveAt6_7_C t (fun h => h0 ((hcond6_0 t).mp h)) ((hcond6_1 t).mpr h1)], after6_7]
      rw [show (dat6 V c).leavesExact 8 t = owns (c : Thread nD τ) (ms6_8 t) fullShare ((dat6 V c).after 8 t) from by
        unfold Dat.leavesExact; rw [liveAt6_8_C t (fun h => h0 ((hcond6_0 t).mp h)) ((hcond6_1 t).mpr h1)], after6_8]
      rw [outsAt6_C V c t h0 h1]
      unfold out6_C_7 out6_C_8 sout6_C_0 sout6_C_1; (try dsimp only)
      by_cases hz : t.val = 0
      · exfalso; omega
      ·
        rw [PhiS6_castSucc V c t, PhiS6_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun6_C c (grid6.coords t) _ _ _ _ _ _ _ _ _ _ _ _ _ _ _ _ _ _ _ _ _ _ (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        iintro ⟨H0, H1, H2, H3, H4, H5, H6, ⟨%e7, H7⟩, ⟨%e8, H8⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_C_0 c _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover6_C_1 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover6_C_7 c _ _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover6_C_8 c _ _ _ _ _ _ _ _ _ _ _ _ _ _ _ _ _ _ _ _ _ _ _ _ _ _ _ _ _ _ _ _ _ _)
    · -- a middle tile
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t], after6_4]
      rw [show (dat6 V c).leavesExact 5 t = owns (c : Thread nD τ) (ms6_5 t) fullShare ((dat6 V c).after 5 t) from by
        unfold Dat.leavesExact; rw [liveAt6_5 t], after6_5]
      rw [show (dat6 V c).leavesExact 6 t = owns (c : Thread nD τ) (ms6_6 t) fullShare ((dat6 V c).after 6 t) from by
        unfold Dat.leavesExact; rw [liveAt6_6 t], after6_6]
      rw [Dat.leavesExact_idle (dat6 V c) 7 t (idleAt6_7_B t (fun h => h0 ((hcond6_0 t).mp h)) (fun h => h1 ((hcond6_1 t).mp h))) (noFlush6_7_B t (fun h => h0 ((hcond6_0 t).mp h)) (fun h => h1 ((hcond6_1 t).mp h)))]
      rw [Dat.leavesExact_idle (dat6 V c) 8 t (idleAt6_8_B t (fun h => h0 ((hcond6_0 t).mp h)) (fun h => h1 ((hcond6_1 t).mp h))) (noFlush6_8_B t (fun h => h0 ((hcond6_0 t).mp h)) (fun h => h1 ((hcond6_1 t).mp h)))]
      rw [outsAt6_B V c t h0 h1]
      unfold sout6_B_0 sout6_B_1; (try dsimp only)
      by_cases hz : t.val = 0
      · exfalso; omega
      ·
        rw [PhiS6_castSucc V c t, PhiS6_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun6_B c (grid6.coords t) _ _ _ _ _ _ _ _ _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_B_0 c _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover6_B_1 c _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the launch's back: the accumulators' named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout6 (c : Dev nD) : (dat6 V c).Φ (Fin.last cfg6.N) ⊢ Pipeline.ΦA spec6 c :=
  Phi_out6 V c _ (by rw [Fin.val_last]; have : cfg6.N = 20 := N_6; omega)

end Cert.KernelIdeal.Gen

end
-- ==== Proof.KI.Norm7.lean ====
/-
  Region 1 of @main: the normalize kernel of the first layer (custom_call 1, `cc7_normalize_recompute_kernel`), its
  kernel half at a PARAMETER `V`, the TensorCore's buffer contents when the region is entered.

  The grid has 20 points and the kernel 12 windows. Windows 0–2 are tiles of 5000 rows of the node features `h`, of the
  aggregated neighbour features and of the inverse degrees, the tile's index the point; windows 3–10 are whole arrays
  (two 128×128 weight matrices, then bias, PReLU slope, mean, variance, gamma, beta: one row of 128 each), the same
  block at every point; window 11 is the output, a tile of 5000 rows written back at every point, its index the point.

  At a point the body loads every input window's staging buffer whole, loads the output's buffer once (the value is
  not used) and stores ONE value over the whole output buffer:
      y  = PReLU(bf16(h)·bf16(W_self) + bf16(agg·invdeg)·bf16(W_neigh) + bias)      (`k7_pay2`)
      out = (y − mean) · rsqrt(var + ε) · gamma + beta                                (`k7_pay1` over `k7_pay3`, `k7_pay4`)
  So what the body leaves in the output buffer is a closed function `out7_11` of the eleven input blocks at the point,
  and every input buffer is left as found. This module states that as the body's triple (`sound_kernel7`), packages it
  as the pipeline's proof data (`dat7`: the arrays as `V` has them; after the body each input's buffer at its block
  and the output's at `out7_11` of the input blocks) and proves the library's body obligation for it
  (`body_obligation7`). The load of the output buffer reads a buffer the body owns at SOME contents, which is all a
  load needs; nothing depends on what it read.
-/
import proofs.«129379_j32899449487582_2_alg».proof.Proof.KI.Norm1
import proofs.«129379_j32899449487582_2_alg».proof.Proof.Gen.KernelIdeal.Launch
import proofs.«129379_j32899449487582_2_alg».proof.Proof.Gen.KernelIdeal.Skeleton
import proofs.«129379_j32899449487582_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of 5000 × 128 (`View.cover_of_tiled`): the elaborator's structural look recurses once per
-- coordinate of the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for ANY proof
    data whose array is `V`'s (`hA`) and whose body leaves the block in place (`hafter`): unfetched, the block index
    has not moved (`Dat.before_in_eq_fetched`), the window uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for ANY proof
    data whose array is `V`'s (`hA`) and whose body leaves the block in place (`hafter`): unfetched, the block index
    has not moved (`Dat.before_in_eq_fetched`), the window uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for ANY proof
    data whose array is `V`'s (`hA`) and whose body leaves the block in place (`hafter`): unfetched, the block index
    has not moved (`Dat.before_in_eq_fetched`), the window uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for ANY proof
    data whose array is `V`'s (`hA`) and whose body leaves the block in place (`hafter`): unfetched, the block index
    has not moved (`Dat.before_in_eq_fetched`), the window uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for ANY proof
    data whose array is `V`'s (`hA`) and whose body leaves the block in place (`hafter`): unfetched, the block index
    has not moved (`Dat.before_in_eq_fetched`), the window uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not, for ANY proof
    data whose array is `V`'s (`hA`) and whose body leaves the block in place (`hafter`): unfetched, the block index
    has not moved (`Dat.before_in_eq_fetched`), the window uncut and never idle. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not, for ANY proof
    data whose array is `V`'s (`hA`) and whose body leaves the block in place (`hafter`): unfetched, the block index
    has not moved (`Dat.before_in_eq_fetched`), the window uncut and never idle. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- Input window 7's current staging buffer holds its block at every point, fetched there or not, for ANY proof
    data whose array is `V`'s (`hA`) and whose body leaves the block in place (`hafter`): unfetched, the block index
    has not moved (`Dat.before_in_eq_fetched`), the window uncut and never idle. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-- Input window 8's current staging buffer holds its block at every point, fetched there or not, for ANY proof
    data whose array is `V`'s (`hA`) and whose body leaves the block in place (`hafter`): unfetched, the block index
    has not moved (`Dat.before_in_eq_fetched`), the window uncut and never idle. -/
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-- Input window 9's current staging buffer holds its block at every point, fetched there or not, for ANY proof
    data whose array is `V`'s (`hA`) and whose body leaves the block in place (`hafter`): unfetched, the block index
    has not moved (`Dat.before_in_eq_fetched`), the window uncut and never idle. -/
theorem before7_9_of {c : Dev nD} (dat : Dat τ (Elt F) Unit ℕ (UR sig nD τ) ℕ cfg7 c) (hA : dat.A 9 = V c (Pipeline.arrRef spec7 9))
    (hafter : ∀ t, dat.after 9 t = iblk7 V c 9 t) (t : Fin cfg7.N) (d) : dat.before 9 t d = iblk7 V c 9 t :=
  (dat.before_in_eq_fetched 9 rfl (fun _ => rfl) (fun _ _ _ => rfl) (fun t => by rw [hafter]; unfold Dat.blockOf iblk7; rw [hA]; try rfl) t d).trans
    (by unfold Dat.fetched Dat.blockOf iblk7; rw [hA]; try rfl)

/-- Input window 10's current staging buffer holds its block at every point, fetched there or not, for ANY proof
    data whose array is `V`'s (`hA`) and whose body leaves the block in place (`hafter`): unfetched, the block index
    has not moved (`Dat.before_in_eq_fetched`), the window uncut and never idle. -/
theorem before7_10_of {c : Dev nD} (dat : Dat τ (Elt F) Unit ℕ (UR sig nD τ) ℕ cfg7 c) (hA : dat.A 10 = V c (Pipeline.arrRef spec7 10))
    (hafter : ∀ t, dat.after 10 t = iblk7 V c 10 t) (t : Fin cfg7.N) (d) : dat.before 10 t d = iblk7 V c 10 t :=
  (dat.before_in_eq_fetched 10 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

noncomputable abbrev r7_0 : Rect S5000x128 := Rect.unit (s := S5000x128) ![0, 0] S5000x128.size inb_S5000x128_S5000x128_0_0
noncomputable abbrev r7_1 : Rect S5000x1 := Rect.unit (s := S5000x1) ![0, 0] S5000x1.size inb_S5000x1_S5000x1_0_0
noncomputable abbrev r7_2 : Rect S128x128 := Rect.unit (s := S128x128) ![0, 0] S128x128.size inb_S128x128_S128x128_0_0
noncomputable abbrev r7_3 : Rect S1x128 := Rect.unit (s := S1x128) ![0, 0] S1x128.size inb_S1x128_S1x128_0_0

/-! ## What the body leaves in the output window's buffer -/

/-- Window 11's staging buffer after the body, from the input windows' blocks: its 1 store as a piece
    (`View.canon`; the payloads are the skeleton's). The variance `x8` goes through `k7_pay3` (the reciprocal
    square root) and the mean `x7` through `k7_pay4`: the body loads the variance's window before the mean's. -/
noncomputable def out7_11 (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) : Vec F S5000x128 .f32 :=
  View.canon [⟨r7_0, k7_pay1 (k7_pay2 (View.ld x0 r7_0) (View.ld x1 r7_0) (View.ld x2 r7_1) (View.ld x3 r7_2) (View.ld x4 r7_2) (View.ld x5 r7_3) (View.ld x6 r7_3)) (k7_pay3 (View.ld x8 r7_3)) (k7_pay4 (View.ld x7 r7_3)) (View.ld x9 r7_3) (View.ld x10 r7_3)⟩]

/-- Its store tiles the buffer (checked by evaluation), so it covers it. -/
theorem cover7_11 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

/-! ## The body's triple -/

set_option maxHeartbeats 1000000 in
/-- The kernel body on whole staging memrefs, the inputs' at read contents `xW` and the output's at anything, runs to
    the continuation holding the inputs' as they were and the output's at `out7_11` of the inputs': the printed
    functions are their skeletons, which the executor runs, through the part call. The load of the output's buffer
    steps like any load of an owned buffer; its value is dropped. -/
theorem sound_kernel7 (c : Dev nD) (E : Set ℕ) (i : grid7.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out7_11 x0 x1 x2 x3 x4 x5 x6 x7 x8 x9 x10)) -∗ K ⟨⟩))
      ⊢ wp frame (wpE (defs₀ (F := F)) Variants.none c none) E (cc7_normalize_recompute_kernel i arg1 harg1 arg2 harg2 arg3 harg3 arg4 harg4 arg5 harg5 arg6 harg6 arg7 harg7 arg8 harg8 arg9 harg9 arg10 harg10 arg11 harg11 arg12 harg12) K :=
  sound_kernel1 c E i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 K

/-! ## The pipeline's proof data -/

/-- The proof data of pipeline 1 on core `c`: the arrays as the region finds them (`V`); after the body at
    point `t` each input's buffer at its block and the output's at `out7_11` of the input blocks; the invariant the
    scoped rest and the generator register, untouched (`Pipeline.ΦA`); nothing owed; full shares. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => iblk7 V c 10 t
    | ⟨11, _⟩ => out7_11 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t)
  Φ _ := Pipeline.ΦA spec7 c
  q _ := fullShare
  owed _ := 0

/-- The proof data's arrays are the region-entry contents (the proof data's definition projected, by `dsimp`). -/
theorem A_eq7 (c : Dev nD) (w : Fin cfg7.W) : (dat7 V c).A w = V c (Pipeline.arrRef spec7 w) := by
  dsimp only [dat7]

/-- What the body leaves, window by window (the proof data's `match` reduced by `dsimp`). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = iblk7 V c 9 t := by dsimp only [dat7]
theorem after7_10 (c : Dev nD) (t : Fin cfg7.N) : (dat7 V c).after 10 t = iblk7 V c 10 t := by dsimp only [dat7]
theorem after7_11 (c : Dev nD) (t : Fin cfg7.N) : (dat7 V c).after 11 t = out7_11 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) := by dsimp only [dat7]

/-- Each input's current staging buffer holds its block at every point, fetched there or not (`before7_W_of`). -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d
theorem before7_9 (c : Dev nD) (t : Fin cfg7.N) (d) : (dat7 V c).before 9 t d = iblk7 V c 9 t :=
  before7_9_of V (dat7 V c) (A_eq7 V c 9) (after7_9 V c) t d
theorem before7_10 (c : Dev nD) (t : Fin cfg7.N) (d) : (dat7 V c).before 10 t d = iblk7 V c 10 t :=
  before7_10_of V (dat7 V c) (A_eq7 V c 10) (after7_10 V c) t d

/-! ## The body obligation, at a generic point -/

/-- What the body is called with at point `t` (the body obligation's precondition, the windows one by one), -/
noncomputable def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d))
    ∗ (∃ d, owns (c : Thread nD τ) (st7_11 t) fullShare ((dat7 V c).before 11 t d)))

/-- and what it returns. -/
noncomputable def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t)
    ∗ owns (c : Thread nD τ) (st7_11 t) fullShare ((dat7 V c).after 11 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8, before7_9, before7_10]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10, after7_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel7 c Set.univ _ _ _ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region7

end Cert.KernelIdeal.Gen

end
-- ==== Proof.KI.Fold.lean ====
/-
  The contents of the TensorCore's unscoped buffers at every boundary between two items of @main, as a fold
  from the launch memory: a host stretch applies its operations; a kernel region leaves each of its output
  arrays at what its write-backs fold to (the pipeline library's `Dat.arrAt` at the last point) and every other
  buffer as it found it. The fold fixes the unknowns `outs` of the generated valuations `Gen.VJ`.
-/
import proofs.«129379_j32899449487582_2_alg».proof.Proof.Gen.KernelIdeal.Regions
import proofs.«129379_j32899449487582_2_alg».proof.Proof.KI.Stats0
import proofs.«129379_j32899449487582_2_alg».proof.Proof.KI.Norm1
import proofs.«129379_j32899449487582_2_alg».proof.Proof.KI.Stats2
import proofs.«129379_j32899449487582_2_alg».proof.Proof.KI.Norm3
import proofs.«129379_j32899449487582_2_alg».proof.Proof.KI.Stats4
import proofs.«129379_j32899449487582_2_alg».proof.Proof.KI.Norm5
import proofs.«129379_j32899449487582_2_alg».proof.Proof.KI.Stats6
import proofs.«129379_j32899449487582_2_alg».proof.Proof.KI.Norm7

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- A valuation read at the TensorCore's references: what a region's proof data take as its entry contents. -/
noncomputable abbrev atTc (c : Dev nD) (W : Valuation τ sig (Elt F)) (b : Ref sig .tc) : Buf (Elt F) ((c : Thread nD τ).loc b) := W b

/-- Overwriting a buffer with what the overwritten valuation already holds there changes nothing: one buffer, -/
theorem upd_self1 {α : Type} [DecidableEq α] {β : α → Type} (f : (a : α) → β a) (a : α) (x : β a) :
    Function.update f a (Function.update f a x a) = Function.update f a x := by rw [Function.update_self]
/-- and two distinct buffers. -/
theorem upd_self2 {α : Type} [DecidableEq α] {β : α → Type} (f : (a : α) → β a) (a b : α) (hab : a ≠ b) (x : β a) (y : β b) :
    Function.update (Function.update f a (Function.update (Function.update f a x) b y a)) b (Function.update (Function.update f a x) b y b)
      = Function.update (Function.update f a x) b y := by
  rw [Function.update_self, Function.update_of_ne hab, Function.update_self]

-- the regions' proof data are never opened here: only their names matter to the fold
attribute [local irreducible] dat0 dat1 dat2 dat3 dat4 dat5 dat6 dat7

/-- Region 0 is entered from the generated `V3` (no region before it). -/
noncomputable abbrev W3 (c : Dev nD) : Valuation τ sig (Elt F) := V3 m c

/-- After region 0: its output arrays at the folded write-backs, the rest as at its entry. -/
noncomputable def W4 (c : Dev nD) : Valuation τ sig (Elt F) :=
  Function.update (Function.update (W3 m c) main_v41_0 ((dat0 (fun c => atTc c (W3 m c)) c).arrAt 7 cfg0.N)) main_v41_1 ((dat0 (fun c => atTc c (W3 m c)) c).arrAt 8 cfg0.N)
/-- Region 0's output array `main_v41_0` after it: the folded write-backs of window 7. -/
theorem W4_at_main_v41_0 (c : Dev nD) : W4 m c main_v41_0 = (dat0 (fun c => atTc c (W3 m c)) c).arrAt 7 cfg0.N := by
  unfold W4
  rw [Function.update_of_ne (by decide), Function.update_self]
/-- Region 0's output array `main_v41_1` after it: the folded write-backs of window 8. -/
theorem W4_at_main_v41_1 (c : Dev nD) : W4 m c main_v41_1 = (dat0 (fun c => atTc c (W3 m c)) c).arrAt 8 cfg0.N := by
  unfold W4
  rw [Function.update_self]
/-- After the host stretch `hostOps1`: region 1's entry. -/
noncomputable abbrev W5 (c : Dev nD) : Valuation τ sig (Elt F) := StableHlo.after hostOps1 (W4 m c)

/-- After region 1: its output arrays at the folded write-backs, the rest as at its entry. -/
noncomputable def W6 (c : Dev nD) : Valuation τ sig (Elt F) :=
  Function.update (W5 m c) main_v64 ((dat1 (fun c => atTc c (W5 m c)) c).arrAt 11 cfg1.N)
/-- Region 1's output array `main_v64` after it: the folded write-backs of window 11. -/
theorem W6_at_main_v64 (c : Dev nD) : W6 m c main_v64 = (dat1 (fun c => atTc c (W5 m c)) c).arrAt 11 cfg1.N := by
  unfold W6
  rw [Function.update_self]
/-- After the host stretch `hostOps2`: region 2's entry. -/
noncomputable abbrev W7 (c : Dev nD) : Valuation τ sig (Elt F) := StableHlo.after hostOps2 (W6 m c)

/-- After region 2: its output arrays at the folded write-backs, the rest as at its entry. -/
noncomputable def W8 (c : Dev nD) : Valuation τ sig (Elt F) :=
  Function.update (Function.update (W7 m c) main_v91_0 ((dat2 (fun c => atTc c (W7 m c)) c).arrAt 7 cfg2.N)) main_v91_1 ((dat2 (fun c => atTc c (W7 m c)) c).arrAt 8 cfg2.N)
/-- Region 2's output array `main_v91_0` after it: the folded write-backs of window 7. -/
theorem W8_at_main_v91_0 (c : Dev nD) : W8 m c main_v91_0 = (dat2 (fun c => atTc c (W7 m c)) c).arrAt 7 cfg2.N := by
  unfold W8
  rw [Function.update_of_ne (by decide), Function.update_self]
/-- Region 2's output array `main_v91_1` after it: the folded write-backs of window 8. -/
theorem W8_at_main_v91_1 (c : Dev nD) : W8 m c main_v91_1 = (dat2 (fun c => atTc c (W7 m c)) c).arrAt 8 cfg2.N := by
  unfold W8
  rw [Function.update_self]
/-- After the host stretch `hostOps3`: region 3's entry. -/
noncomputable abbrev W9 (c : Dev nD) : Valuation τ sig (Elt F) := StableHlo.after hostOps3 (W8 m c)

/-- After region 3: its output arrays at the folded write-backs, the rest as at its entry. -/
noncomputable def W10 (c : Dev nD) : Valuation τ sig (Elt F) :=
  Function.update (W9 m c) main_v114 ((dat3 (fun c => atTc c (W9 m c)) c).arrAt 11 cfg3.N)
/-- Region 3's output array `main_v114` after it: the folded write-backs of window 11. -/
theorem W10_at_main_v114 (c : Dev nD) : W10 m c main_v114 = (dat3 (fun c => atTc c (W9 m c)) c).arrAt 11 cfg3.N := by
  unfold W10
  rw [Function.update_self]
/-- After the host stretch `hostOps4`: region 4's entry. -/
noncomputable abbrev W11 (c : Dev nD) : Valuation τ sig (Elt F) := StableHlo.after hostOps4 (W10 m c)

/-- After region 4: its output arrays at the folded write-backs, the rest as at its entry. -/
noncomputable def W12 (c : Dev nD) : Valuation τ sig (Elt F) :=
  Function.update (Function.update (W11 m c) main_v141_0 ((dat4 (fun c => atTc c (W11 m c)) c).arrAt 7 cfg4.N)) main_v141_1 ((dat4 (fun c => atTc c (W11 m c)) c).arrAt 8 cfg4.N)
/-- Region 4's output array `main_v141_0` after it: the folded write-backs of window 7. -/
theorem W12_at_main_v141_0 (c : Dev nD) : W12 m c main_v141_0 = (dat4 (fun c => atTc c (W11 m c)) c).arrAt 7 cfg4.N := by
  unfold W12
  rw [Function.update_of_ne (by decide), Function.update_self]
/-- Region 4's output array `main_v141_1` after it: the folded write-backs of window 8. -/
theorem W12_at_main_v141_1 (c : Dev nD) : W12 m c main_v141_1 = (dat4 (fun c => atTc c (W11 m c)) c).arrAt 8 cfg4.N := by
  unfold W12
  rw [Function.update_self]
/-- After the host stretch `hostOps5`: region 5's entry. -/
noncomputable abbrev W13 (c : Dev nD) : Valuation τ sig (Elt F) := StableHlo.after hostOps5 (W12 m c)

/-- After region 5: its output arrays at the folded write-backs, the rest as at its entry. -/
noncomputable def W14 (c : Dev nD) : Valuation τ sig (Elt F) :=
  Function.update (W13 m c) main_v164 ((dat5 (fun c => atTc c (W13 m c)) c).arrAt 11 cfg5.N)
/-- Region 5's output array `main_v164` after it: the folded write-backs of window 11. -/
theorem W14_at_main_v164 (c : Dev nD) : W14 m c main_v164 = (dat5 (fun c => atTc c (W13 m c)) c).arrAt 11 cfg5.N := by
  unfold W14
  rw [Function.update_self]
/-- After the host stretch `hostOps6`: region 6's entry. -/
noncomputable abbrev W15 (c : Dev nD) : Valuation τ sig (Elt F) := StableHlo.after hostOps6 (W14 m c)

/-- After region 6: its output arrays at the folded write-backs, the rest as at its entry. -/
noncomputable def W16 (c : Dev nD) : Valuation τ sig (Elt F) :=
  Function.update (Function.update (W15 m c) main_v191_0 ((dat6 (fun c => atTc c (W15 m c)) c).arrAt 7 cfg6.N)) main_v191_1 ((dat6 (fun c => atTc c (W15 m c)) c).arrAt 8 cfg6.N)
/-- Region 6's output array `main_v191_0` after it: the folded write-backs of window 7. -/
theorem W16_at_main_v191_0 (c : Dev nD) : W16 m c main_v191_0 = (dat6 (fun c => atTc c (W15 m c)) c).arrAt 7 cfg6.N := by
  unfold W16
  rw [Function.update_of_ne (by decide), Function.update_self]
/-- Region 6's output array `main_v191_1` after it: the folded write-backs of window 8. -/
theorem W16_at_main_v191_1 (c : Dev nD) : W16 m c main_v191_1 = (dat6 (fun c => atTc c (W15 m c)) c).arrAt 8 cfg6.N := by
  unfold W16
  rw [Function.update_self]
/-- After the host stretch `hostOps7`: region 7's entry. -/
noncomputable abbrev W17 (c : Dev nD) : Valuation τ sig (Elt F) := StableHlo.after hostOps7 (W16 m c)

/-- After region 7: its output arrays at the folded write-backs, the rest as at its entry. -/
noncomputable def W18 (c : Dev nD) : Valuation τ sig (Elt F) :=
  Function.update (W17 m c) main_v214 ((dat7 (fun c => atTc c (W17 m c)) c).arrAt 11 cfg7.N)
/-- Region 7's output array `main_v214` after it: the folded write-backs of window 11. -/
theorem W18_at_main_v214 (c : Dev nD) : W18 m c main_v214 = (dat7 (fun c => atTc c (W17 m c)) c).arrAt 11 cfg7.N := by
  unfold W18
  rw [Function.update_self]

/-- The unknowns of the generated valuations, fixed by the fold. -/
noncomputable def outs : Outs (F := F) := fun J r c => match J with
  | 4 => W4 m c r
  | 6 => W6 m c r
  | 8 => W8 m c r
  | 10 => W10 m c r
  | 12 => W12 m c r
  | 14 => W14 m c r
  | 16 => W16 m c r
  | 18 => W18 m c r
  | _ => V0 m c r
theorem outs_4 (r : Ref sig .tc) (c : Dev nD) : outs m 4 r c = W4 m c r := rfl
theorem outs_6 (r : Ref sig .tc) (c : Dev nD) : outs m 6 r c = W6 m c r := rfl
theorem outs_8 (r : Ref sig .tc) (c : Dev nD) : outs m 8 r c = W8 m c r := rfl
theorem outs_10 (r : Ref sig .tc) (c : Dev nD) : outs m 10 r c = W10 m c r := rfl
theorem outs_12 (r : Ref sig .tc) (c : Dev nD) : outs m 12 r c = W12 m c r := rfl
theorem outs_14 (r : Ref sig .tc) (c : Dev nD) : outs m 14 r c = W14 m c r := rfl
theorem outs_16 (r : Ref sig .tc) (c : Dev nD) : outs m 16 r c = W16 m c r := rfl
theorem outs_18 (r : Ref sig .tc) (c : Dev nD) : outs m 18 r c = W18 m c r := rfl

theorem V4_eq (c : Dev nD) : V4 m (outs m) c = W4 m c := by
  unfold V4
  rw [outs_4 m main_v41_0 c, outs_4 m main_v41_1 c, W4_at_main_v41_0 m c, W4_at_main_v41_1 m c]
  unfold W4
  rfl
theorem V5_eq (c : Dev nD) : V5 m (outs m) c = W5 m c := by
  unfold V5
  rw [V4_eq m c]

theorem V6_eq (c : Dev nD) : V6 m (outs m) c = W6 m c := by
  unfold V6
  rw [V5_eq m c, outs_6 m main_v64 c, W6_at_main_v64 m c]
  unfold W6
  rfl
theorem V7_eq (c : Dev nD) : V7 m (outs m) c = W7 m c := by
  unfold V7
  rw [V6_eq m c]

theorem V8_eq (c : Dev nD) : V8 m (outs m) c = W8 m c := by
  unfold V8
  rw [V7_eq m c, outs_8 m main_v91_0 c, outs_8 m main_v91_1 c, W8_at_main_v91_0 m c, W8_at_main_v91_1 m c]
  unfold W8
  rfl
theorem V9_eq (c : Dev nD) : V9 m (outs m) c = W9 m c := by
  unfold V9
  rw [V8_eq m c]

theorem V10_eq (c : Dev nD) : V10 m (outs m) c = W10 m c := by
  unfold V10
  rw [V9_eq m c, outs_10 m main_v114 c, W10_at_main_v114 m c]
  unfold W10
  rfl
theorem V11_eq (c : Dev nD) : V11 m (outs m) c = W11 m c := by
  unfold V11
  rw [V10_eq m c]

theorem V12_eq (c : Dev nD) : V12 m (outs m) c = W12 m c := by
  unfold V12
  rw [V11_eq m c, outs_12 m main_v141_0 c, outs_12 m main_v141_1 c, W12_at_main_v141_0 m c, W12_at_main_v141_1 m c]
  unfold W12
  rfl
theorem V13_eq (c : Dev nD) : V13 m (outs m) c = W13 m c := by
  unfold V13
  rw [V12_eq m c]

theorem V14_eq (c : Dev nD) : V14 m (outs m) c = W14 m c := by
  unfold V14
  rw [V13_eq m c, outs_14 m main_v164 c, W14_at_main_v164 m c]
  unfold W14
  rfl
theorem V15_eq (c : Dev nD) : V15 m (outs m) c = W15 m c := by
  unfold V15
  rw [V14_eq m c]

theorem V16_eq (c : Dev nD) : V16 m (outs m) c = W16 m c := by
  unfold V16
  rw [V15_eq m c, outs_16 m main_v191_0 c, outs_16 m main_v191_1 c, W16_at_main_v191_0 m c, W16_at_main_v191_1 m c]
  unfold W16
  rfl
theorem V17_eq (c : Dev nD) : V17 m (outs m) c = W17 m c := by
  unfold V17
  rw [V16_eq m c]

theorem V18_eq (c : Dev nD) : V18 m (outs m) c = W18 m c := by
  unfold V18
  rw [V17_eq m c, outs_18 m main_v214 c, W18_at_main_v214 m c]
  unfold W18
  rfl

/-! ## The proof data family and what rides beside the buffers -/

/-- Every pipeline's proof data, each at its region's entry contents: a literal match on the pipeline index. -/
noncomputable def pdats : (p : Fin 8) → (c : Dev nD) → Dat τ (Elt F) Unit ℕ (UR sig nD τ) ℕ (cfgs p) c
  | ⟨0, _⟩ => fun c => dat0 (fun c => atTc c (W3 m c)) c
  | ⟨1, _⟩ => fun c => dat1 (fun c => atTc c (W5 m c)) c
  | ⟨2, _⟩ => fun c => dat2 (fun c => atTc c (W7 m c)) c
  | ⟨3, _⟩ => fun c => dat3 (fun c => atTc c (W9 m c)) c
  | ⟨4, _⟩ => fun c => dat4 (fun c => atTc c (W11 m c)) c
  | ⟨5, _⟩ => fun c => dat5 (fun c => atTc c (W13 m c)) c
  | ⟨6, _⟩ => fun c => dat6 (fun c => atTc c (W15 m c)) c
  | ⟨7, _⟩ => fun c => dat7 (fun c => atTc c (W17 m c)) c

theorem pdats_0 (c : Dev nD) : pdats m 0 c = dat0 (fun c => atTc c (W3 m c)) c := rfl
theorem pdats_1 (c : Dev nD) : pdats m 1 c = dat1 (fun c => atTc c (W5 m c)) c := rfl
theorem pdats_2 (c : Dev nD) : pdats m 2 c = dat2 (fun c => atTc c (W7 m c)) c := rfl
theorem pdats_3 (c : Dev nD) : pdats m 3 c = dat3 (fun c => atTc c (W9 m c)) c := rfl
theorem pdats_4 (c : Dev nD) : pdats m 4 c = dat4 (fun c => atTc c (W11 m c)) c := rfl
theorem pdats_5 (c : Dev nD) : pdats m 5 c = dat5 (fun c => atTc c (W13 m c)) c := rfl
theorem pdats_6 (c : Dev nD) : pdats m 6 c = dat6 (fun c => atTc c (W15 m c)) c := rfl
theorem pdats_7 (c : Dev nD) : pdats m 7 c = dat7 (fun c => atTc c (W17 m c)) c := rfl

/-- No core owes another anything: no level is assigned. -/
noncomputable abbrev L0 : GSem nD τ sig → Finset Unit := fun _ => ∅
noncomputable abbrev lv0 : GSem nD τ sig → Unit → ℕ := fun _ _ => 0

local notation "𝕄" => MT nD τ sig Unit (Elt F) ℕ (UR sig nD τ) ℕ

/-- Beside the buffers through every item: the generator register at some state and the core owing nothing. -/
noncomputable abbrev Rst (c : Dev nD) : sProp 𝕄 := iprop((∃ r, prngReg c r) ∗ ∃ W, owes (c : Thread nD τ) (0 : CellTallies nD τ sig Unit) W)

end Cert.KernelIdeal.Gen

end
-- ==== Proof.KI.Reg0.lean ====
/-
  Region 0 of @main as a segment: entered from every unscoped buffer at the contents the fold reaches before it,
  left with its output arrays at their folded write-backs and every other buffer untouched; the generator register
  goes into the kernel's invariant and comes back; nothing is owed; the kernel has no semaphore of its own.
-/
import proofs.«129379_j32899449487582_2_alg».proof.Proof.KI.Fold
import Idealize.ShloMosaic.Lib.Pipeline.RegionsLoop
import Idealize.ShloMosaic.Lib.Pipeline.FrameSuffix

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! At the region's exit each of its arrays holds what the pipeline leaves: an input its entry contents, an output
    its folded write-backs. -/
set_option maxHeartbeats 1000000 in
theorem hF0_w0 (c : Dev nD) : (pdats m 0 c).arrAt ⟨0, by decide⟩ cfg0.N = atTc c (W4 m c) (Pipeline.arrRef spec0 ⟨0, by decide⟩) := by
  rw [pdats_0]
  refine (((dat0 (fun c => atTc c (W3 m c)) c).arrAt_in ⟨0, by decide⟩ rfl _).trans (A_eq0 _ c ⟨0, by decide⟩)).trans ?_
  unfold W4; simp only [atTc]
  rw [Function.update_of_ne (by decide)]; rw [Function.update_of_ne (by decide)]
set_option maxHeartbeats 1000000 in
theorem hF0_w1 (c : Dev nD) : (pdats m 0 c).arrAt ⟨1, by decide⟩ cfg0.N = atTc c (W4 m c) (Pipeline.arrRef spec0 ⟨1, by decide⟩) := by
  rw [pdats_0]
  refine (((dat0 (fun c => atTc c (W3 m c)) c).arrAt_in ⟨1, by decide⟩ rfl _).trans (A_eq0 _ c ⟨1, by decide⟩)).trans ?_
  unfold W4; simp only [atTc]
  rw [Function.update_of_ne (by decide)]; rw [Function.update_of_ne (by decide)]
set_option maxHeartbeats 1000000 in
theorem hF0_w2 (c : Dev nD) : (pdats m 0 c).arrAt ⟨2, by decide⟩ cfg0.N = atTc c (W4 m c) (Pipeline.arrRef spec0 ⟨2, by decide⟩) := by
  rw [pdats_0]
  refine (((dat0 (fun c => atTc c (W3 m c)) c).arrAt_in ⟨2, by decide⟩ rfl _).trans (A_eq0 _ c ⟨2, by decide⟩)).trans ?_
  unfold W4; simp only [atTc]
  rw [Function.update_of_ne (by decide)]; rw [Function.update_of_ne (by decide)]
set_option maxHeartbeats 1000000 in
theorem hF0_w3 (c : Dev nD) : (pdats m 0 c).arrAt ⟨3, by decide⟩ cfg0.N = atTc c (W4 m c) (Pipeline.arrRef spec0 ⟨3, by decide⟩) := by
  rw [pdats_0]
  refine (((dat0 (fun c => atTc c (W3 m c)) c).arrAt_in ⟨3, by decide⟩ rfl _).trans (A_eq0 _ c ⟨3, by decide⟩)).trans ?_
  unfold W4; simp only [atTc]
  rw [Function.update_of_ne (by decide)]; rw [Function.update_of_ne (by decide)]
set_option maxHeartbeats 1000000 in
theorem hF0_w4 (c : Dev nD) : (pdats m 0 c).arrAt ⟨4, by decide⟩ cfg0.N = atTc c (W4 m c) (Pipeline.arrRef spec0 ⟨4, by decide⟩) := by
  rw [pdats_0]
  refine (((dat0 (fun c => atTc c (W3 m c)) c).arrAt_in ⟨4, by decide⟩ rfl _).trans (A_eq0 _ c ⟨4, by decide⟩)).trans ?_
  unfold W4; simp only [atTc]
  rw [Function.update_of_ne (by decide)]; rw [Function.update_of_ne (by decide)]
set_option maxHeartbeats 1000000 in
theorem hF0_w5 (c : Dev nD) : (pdats m 0 c).arrAt ⟨5, by decide⟩ cfg0.N = atTc c (W4 m c) (Pipeline.arrRef spec0 ⟨5, by decide⟩) := by
  rw [pdats_0]
  refine (((dat0 (fun c => atTc c (W3 m c)) c).arrAt_in ⟨5, by decide⟩ rfl _).trans (A_eq0 _ c ⟨5, by decide⟩)).trans ?_
  unfold W4; simp only [atTc]
  rw [Function.update_of_ne (by decide)]; rw [Function.update_of_ne (by decide)]
set_option maxHeartbeats 1000000 in
theorem hF0_w6 (c : Dev nD) : (pdats m 0 c).arrAt ⟨6, by decide⟩ cfg0.N = atTc c (W4 m c) (Pipeline.arrRef spec0 ⟨6, by decide⟩) := by
  rw [pdats_0]
  refine (((dat0 (fun c => atTc c (W3 m c)) c).arrAt_in ⟨6, by decide⟩ rfl _).trans (A_eq0 _ c ⟨6, by decide⟩)).trans ?_
  unfold W4; simp only [atTc]
  rw [Function.update_of_ne (by decide)]; rw [Function.update_of_ne (by decide)]
set_option maxHeartbeats 1000000 in
theorem hF0_w7 (c : Dev nD) : (pdats m 0 c).arrAt ⟨7, by decide⟩ cfg0.N = atTc c (W4 m c) (Pipeline.arrRef spec0 ⟨7, by decide⟩) := by
  rw [pdats_0]
  unfold W4; simp only [atTc]
  rw [Function.update_of_ne (by decide), Function.update_self]
  first | done | rfl
set_option maxHeartbeats 1000000 in
theorem hF0_w8 (c : Dev nD) : (pdats m 0 c).arrAt ⟨8, by decide⟩ cfg0.N = atTc c (W4 m c) (Pipeline.arrRef spec0 ⟨8, by decide⟩) := by
  rw [pdats_0]
  unfold W4; simp only [atTc]
  rw [Function.update_self]
  first | done | rfl

set_option maxHeartbeats 1000000 in
theorem hF0 (c : Dev nD) : ∀ w : Fin cfg0.W, (pdats m 0 c).arrAt w cfg0.N = atTc c (W4 m c) (Pipeline.arrRef spec0 w)
  | ⟨0, _⟩ => hF0_w0 m c
  | ⟨1, _⟩ => hF0_w1 m c
  | ⟨2, _⟩ => hF0_w2 m c
  | ⟨3, _⟩ => hF0_w3 m c
  | ⟨4, _⟩ => hF0_w4 m c
  | ⟨5, _⟩ => hF0_w5 m c
  | ⟨6, _⟩ => hF0_w6 m c
  | ⟨7, _⟩ => hF0_w7 m c
  | ⟨8, _⟩ => hF0_w8 m c

/-- Every buffer that is no array of the pipeline is as at the entry. -/
theorem hrest0 (c : Dev nD) : ∀ b, b ∉ Finset.univ.image (Pipeline.arrRef spec0) → atTc c (W4 m c) b = atTc c (W3 m c) b := by
  intro b hb
  unfold W4; simp only [atTc]
  rw [Function.update_of_ne (fun h => hb (Finset.mem_image.mpr ⟨⟨8, by decide⟩, Finset.mem_univ _, (Proc.devRef_injective _ h).symm⟩))]
  rw [Function.update_of_ne (fun h => hb (Finset.mem_image.mpr ⟨⟨7, by decide⟩, Finset.mem_univ _, (Proc.devRef_injective _ h).symm⟩))]

set_option backward.isDefEq.respectTransparency.types false in
noncomputable def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := by rw [pdats_0]; exact (body_obligation0 (fun c => atTc c (W3 m c)) c).loose
  hwaits := Pipeline.hwaits_of_owed_zero _ _ _ _ L0 lv0 0 fun _ _ => rfl
  pre c := iprop(StableHlo.held (c : Thread nD τ) (Pipeline.ucRefs τ sig) (V3 m c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (atTc c (W3 m c))
  hentry c := by
    rw [Pipeline.ownSems0_none]
    have hsplit := Pipeline.arrays_of_unscopedBufs (p := 0) (pcfgs (F := F)) adm (pdats m) launch0.win launch0.arr_whole c
      ((pdats m 0 c).share_full fun _ => rfl) (atTc c (W3 m c)) fun _ => rfl
    rw [Pipeline.unscopedBufs_held] at hsplit

    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [pdats_0]
    iintro ⟨Hp, -, Hr⟩
    iapply (hin0 (fun c => atTc c (W3 m c)) c)
    unfold Pipeline.ΦA
    isplitl [Hr]; · iexact Hr
    iexact Hp
  hout c := by
    rw [Pipeline.ownSems0_none, pdats_0]
    iintro H
    ihave H2 := (hout0 (fun c => atTc c (W3 m c)) c) $$ H
    unfold Pipeline.ΦA
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc c (W3 m c)) (atTc c (W4 m c)) ((pdats m 0 c).arrAt · cfg0.N) (hF0 m c) (hrest0 m c)
    rw [Pipeline.unscopedBufs_held] at hjoin
    rw [V4_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg1.lean ====
/-
  Region 1 of @main as a segment: entered from every unscoped buffer at the contents the fold reaches before it,
  left with its output arrays at their folded write-backs and every other buffer untouched; the generator register
  goes into the kernel's invariant and comes back; nothing is owed; the kernel has no semaphore of its own.
-/
import proofs.«129379_j32899449487582_2_alg».proof.Proof.KI.Fold
import Idealize.ShloMosaic.Lib.Pipeline.RegionsLoop
import Idealize.ShloMosaic.Lib.Pipeline.FrameSuffix

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! At the region's exit each of its arrays holds what the pipeline leaves: an input its entry contents, an output
    its folded write-backs. -/
set_option maxHeartbeats 1000000 in
theorem hF1_w0 (c : Dev nD) : (pdats m 1 c).arrAt ⟨0, by decide⟩ cfg1.N = atTc c (W6 m c) (Pipeline.arrRef spec1 ⟨0, by decide⟩) := by
  rw [pdats_1]
  refine (((dat1 (fun c => atTc c (W5 m c)) c).arrAt_in ⟨0, by decide⟩ rfl _).trans (A_eq1 _ c ⟨0, by decide⟩)).trans ?_
  unfold W6; simp only [atTc]
  rw [Function.update_of_ne (by decide)]
set_option maxHeartbeats 1000000 in
theorem hF1_w1 (c : Dev nD) : (pdats m 1 c).arrAt ⟨1, by decide⟩ cfg1.N = atTc c (W6 m c) (Pipeline.arrRef spec1 ⟨1, by decide⟩) := by
  rw [pdats_1]
  refine (((dat1 (fun c => atTc c (W5 m c)) c).arrAt_in ⟨1, by decide⟩ rfl _).trans (A_eq1 _ c ⟨1, by decide⟩)).trans ?_
  unfold W6; simp only [atTc]
  rw [Function.update_of_ne (by decide)]
set_option maxHeartbeats 1000000 in
theorem hF1_w2 (c : Dev nD) : (pdats m 1 c).arrAt ⟨2, by decide⟩ cfg1.N = atTc c (W6 m c) (Pipeline.arrRef spec1 ⟨2, by decide⟩) := by
  rw [pdats_1]
  refine (((dat1 (fun c => atTc c (W5 m c)) c).arrAt_in ⟨2, by decide⟩ rfl _).trans (A_eq1 _ c ⟨2, by decide⟩)).trans ?_
  unfold W6; simp only [atTc]
  rw [Function.update_of_ne (by decide)]
set_option maxHeartbeats 1000000 in
theorem hF1_w3 (c : Dev nD) : (pdats m 1 c).arrAt ⟨3, by decide⟩ cfg1.N = atTc c (W6 m c) (Pipeline.arrRef spec1 ⟨3, by decide⟩) := by
  rw [pdats_1]
  refine (((dat1 (fun c => atTc c (W5 m c)) c).arrAt_in ⟨3, by decide⟩ rfl _).trans (A_eq1 _ c ⟨3, by decide⟩)).trans ?_
  unfold W6; simp only [atTc]
  rw [Function.update_of_ne (by decide)]
set_option maxHeartbeats 1000000 in
theorem hF1_w4 (c : Dev nD) : (pdats m 1 c).arrAt ⟨4, by decide⟩ cfg1.N = atTc c (W6 m c) (Pipeline.arrRef spec1 ⟨4, by decide⟩) := by
  rw [pdats_1]
  refine (((dat1 (fun c => atTc c (W5 m c)) c).arrAt_in ⟨4, by decide⟩ rfl _).trans (A_eq1 _ c ⟨4, by decide⟩)).trans ?_
  unfold W6; simp only [atTc]
  rw [Function.update_of_ne (by decide)]
set_option maxHeartbeats 1000000 in
theorem hF1_w5 (c : Dev nD) : (pdats m 1 c).arrAt ⟨5, by decide⟩ cfg1.N = atTc c (W6 m c) (Pipeline.arrRef spec1 ⟨5, by decide⟩) := by
  rw [pdats_1]
  refine (((dat1 (fun c => atTc c (W5 m c)) c).arrAt_in ⟨5, by decide⟩ rfl _).trans (A_eq1 _ c ⟨5, by decide⟩)).trans ?_
  unfold W6; simp only [atTc]
  rw [Function.update_of_ne (by decide)]
set_option maxHeartbeats 1000000 in
theorem hF1_w6 (c : Dev nD) : (pdats m 1 c).arrAt ⟨6, by decide⟩ cfg1.N = atTc c (W6 m c) (Pipeline.arrRef spec1 ⟨6, by decide⟩) := by
  rw [pdats_1]
  refine (((dat1 (fun c => atTc c (W5 m c)) c).arrAt_in ⟨6, by decide⟩ rfl _).trans (A_eq1 _ c ⟨6, by decide⟩)).trans ?_
  unfold W6; simp only [atTc]
  rw [Function.update_of_ne (by decide)]
set_option maxHeartbeats 1000000 in
theorem hF1_w7 (c : Dev nD) : (pdats m 1 c).arrAt ⟨7, by decide⟩ cfg1.N = atTc c (W6 m c) (Pipeline.arrRef spec1 ⟨7, by decide⟩) := by
  rw [pdats_1]
  refine (((dat1 (fun c => atTc c (W5 m c)) c).arrAt_in ⟨7, by decide⟩ rfl _).trans (A_eq1 _ c ⟨7, by decide⟩)).trans ?_
  unfold W6; simp only [atTc]
  rw [Function.update_of_ne (by decide)]
set_option maxHeartbeats 1000000 in
theorem hF1_w8 (c : Dev nD) : (pdats m 1 c).arrAt ⟨8, by decide⟩ cfg1.N = atTc c (W6 m c) (Pipeline.arrRef spec1 ⟨8, by decide⟩) := by
  rw [pdats_1]
  refine (((dat1 (fun c => atTc c (W5 m c)) c).arrAt_in ⟨8, by decide⟩ rfl _).trans (A_eq1 _ c ⟨8, by decide⟩)).trans ?_
  unfold W6; simp only [atTc]
  rw [Function.update_of_ne (by decide)]
set_option maxHeartbeats 1000000 in
theorem hF1_w9 (c : Dev nD) : (pdats m 1 c).arrAt ⟨9, by decide⟩ cfg1.N = atTc c (W6 m c) (Pipeline.arrRef spec1 ⟨9, by decide⟩) := by
  rw [pdats_1]
  refine (((dat1 (fun c => atTc c (W5 m c)) c).arrAt_in ⟨9, by decide⟩ rfl _).trans (A_eq1 _ c ⟨9, by decide⟩)).trans ?_
  unfold W6; simp only [atTc]
  rw [Function.update_of_ne (by decide)]
set_option maxHeartbeats 1000000 in
theorem hF1_w10 (c : Dev nD) : (pdats m 1 c).arrAt ⟨10, by decide⟩ cfg1.N = atTc c (W6 m c) (Pipeline.arrRef spec1 ⟨10, by decide⟩) := by
  rw [pdats_1]
  refine (((dat1 (fun c => atTc c (W5 m c)) c).arrAt_in ⟨10, by decide⟩ rfl _).trans (A_eq1 _ c ⟨10, by decide⟩)).trans ?_
  unfold W6; simp only [atTc]
  rw [Function.update_of_ne (by decide)]
set_option maxHeartbeats 1000000 in
theorem hF1_w11 (c : Dev nD) : (pdats m 1 c).arrAt ⟨11, by decide⟩ cfg1.N = atTc c (W6 m c) (Pipeline.arrRef spec1 ⟨11, by decide⟩) := by
  rw [pdats_1]
  unfold W6; simp only [atTc]
  rw [Function.update_self]
  first | done | rfl

set_option maxHeartbeats 1000000 in
theorem hF1 (c : Dev nD) : ∀ w : Fin cfg1.W, (pdats m 1 c).arrAt w cfg1.N = atTc c (W6 m c) (Pipeline.arrRef spec1 w)
  | ⟨0, _⟩ => hF1_w0 m c
  | ⟨1, _⟩ => hF1_w1 m c
  | ⟨2, _⟩ => hF1_w2 m c
  | ⟨3, _⟩ => hF1_w3 m c
  | ⟨4, _⟩ => hF1_w4 m c
  | ⟨5, _⟩ => hF1_w5 m c
  | ⟨6, _⟩ => hF1_w6 m c
  | ⟨7, _⟩ => hF1_w7 m c
  | ⟨8, _⟩ => hF1_w8 m c
  | ⟨9, _⟩ => hF1_w9 m c
  | ⟨10, _⟩ => hF1_w10 m c
  | ⟨11, _⟩ => hF1_w11 m c

/-- Every buffer that is no array of the pipeline is as at the entry. -/
theorem hrest1 (c : Dev nD) : ∀ b, b ∉ Finset.univ.image (Pipeline.arrRef spec1) → atTc c (W6 m c) b = atTc c (W5 m c) b := by
  intro b hb
  unfold W6; simp only [atTc]
  rw [Function.update_of_ne (fun h => hb (Finset.mem_image.mpr ⟨⟨11, by decide⟩, Finset.mem_univ _, (Proc.devRef_injective _ h).symm⟩))]

set_option backward.isDefEq.respectTransparency.types false in
noncomputable def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := by rw [pdats_1]; exact (body_obligation1 (fun c => atTc c (W5 m c)) c).loose
  hwaits := Pipeline.hwaits_of_owed_zero _ _ _ _ L0 lv0 1 fun _ _ => rfl
  pre c := iprop(StableHlo.held (c : Thread nD τ) (Pipeline.ucRefs τ sig) (V5 m (outs m) c) ∗ Rst c)
  post c := iprop(StableHlo.held (c : Thread nD τ) (Pipeline.ucRefs τ sig) (V6 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (atTc c (W5 m c))
  hentry c := by
    rw [Pipeline.ownSems0_none]
    have hsplit := Pipeline.arrays_of_unscopedBufs (p := 1) (pcfgs (F := F)) adm (pdats m) launch1.win launch1.arr_whole c
      ((pdats m 1 c).share_full fun _ => rfl) (atTc c (W5 m c)) fun _ => rfl
    rw [Pipeline.unscopedBufs_held] at hsplit
    rw [V5_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc c (W5 m c)) (atTc c (W6 m c)) ((pdats m 1 c).arrAt · cfg1.N) (hF1 m c) (hrest1 m c)
    rw [Pipeline.unscopedBufs_held] at hjoin
    rw [V6_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg2.lean ====
/-
  Region 2 of @main as a segment: entered from every unscoped buffer at the contents the fold reaches before it,
  left with its output arrays at their folded write-backs and every other buffer untouched; the generator register
  goes into the kernel's invariant and comes back; nothing is owed; the kernel has no semaphore of its own.
-/
import proofs.«129379_j32899449487582_2_alg».proof.Proof.KI.Fold
import Idealize.ShloMosaic.Lib.Pipeline.RegionsLoop
import Idealize.ShloMosaic.Lib.Pipeline.FrameSuffix

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! At the region's exit each of its arrays holds what the pipeline leaves: an input its entry contents, an output
    its folded write-backs. -/
set_option maxHeartbeats 1000000 in
theorem hF2_w0 (c : Dev nD) : (pdats m 2 c).arrAt ⟨0, by decide⟩ cfg2.N = atTc c (W8 m c) (Pipeline.arrRef spec2 ⟨0, by decide⟩) := by
  rw [pdats_2]
  refine (((dat2 (fun c => atTc c (W7 m c)) c).arrAt_in ⟨0, by decide⟩ rfl _).trans (A_eq2 _ c ⟨0, by decide⟩)).trans ?_
  unfold W8; simp only [atTc]
  rw [Function.update_of_ne (by decide)]; rw [Function.update_of_ne (by decide)]
set_option maxHeartbeats 1000000 in
theorem hF2_w1 (c : Dev nD) : (pdats m 2 c).arrAt ⟨1, by decide⟩ cfg2.N = atTc c (W8 m c) (Pipeline.arrRef spec2 ⟨1, by decide⟩) := by
  rw [pdats_2]
  refine (((dat2 (fun c => atTc c (W7 m c)) c).arrAt_in ⟨1, by decide⟩ rfl _).trans (A_eq2 _ c ⟨1, by decide⟩)).trans ?_
  unfold W8; simp only [atTc]
  rw [Function.update_of_ne (by decide)]; rw [Function.update_of_ne (by decide)]
set_option maxHeartbeats 1000000 in
theorem hF2_w2 (c : Dev nD) : (pdats m 2 c).arrAt ⟨2, by decide⟩ cfg2.N = atTc c (W8 m c) (Pipeline.arrRef spec2 ⟨2, by decide⟩) := by
  rw [pdats_2]
  refine (((dat2 (fun c => atTc c (W7 m c)) c).arrAt_in ⟨2, by decide⟩ rfl _).trans (A_eq2 _ c ⟨2, by decide⟩)).trans ?_
  unfold W8; simp only [atTc]
  rw [Function.update_of_ne (by decide)]; rw [Function.update_of_ne (by decide)]
set_option maxHeartbeats 1000000 in
theorem hF2_w3 (c : Dev nD) : (pdats m 2 c).arrAt ⟨3, by decide⟩ cfg2.N = atTc c (W8 m c) (Pipeline.arrRef spec2 ⟨3, by decide⟩) := by
  rw [pdats_2]
  refine (((dat2 (fun c => atTc c (W7 m c)) c).arrAt_in ⟨3, by decide⟩ rfl _).trans (A_eq2 _ c ⟨3, by decide⟩)).trans ?_
  unfold W8; simp only [atTc]
  rw [Function.update_of_ne (by decide)]; rw [Function.update_of_ne (by decide)]
set_option maxHeartbeats 1000000 in
theorem hF2_w4 (c : Dev nD) : (pdats m 2 c).arrAt ⟨4, by decide⟩ cfg2.N = atTc c (W8 m c) (Pipeline.arrRef spec2 ⟨4, by decide⟩) := by
  rw [pdats_2]
  refine (((dat2 (fun c => atTc c (W7 m c)) c).arrAt_in ⟨4, by decide⟩ rfl _).trans (A_eq2 _ c ⟨4, by decide⟩)).trans ?_
  unfold W8; simp only [atTc]
  rw [Function.update_of_ne (by decide)]; rw [Function.update_of_ne (by decide)]
set_option maxHeartbeats 1000000 in
theorem hF2_w5 (c : Dev nD) : (pdats m 2 c).arrAt ⟨5, by decide⟩ cfg2.N = atTc c (W8 m c) (Pipeline.arrRef spec2 ⟨5, by decide⟩) := by
  rw [pdats_2]
  refine (((dat2 (fun c => atTc c (W7 m c)) c).arrAt_in ⟨5, by decide⟩ rfl _).trans (A_eq2 _ c ⟨5, by decide⟩)).trans ?_
  unfold W8; simp only [atTc]
  rw [Function.update_of_ne (by decide)]; rw [Function.update_of_ne (by decide)]
set_option maxHeartbeats 1000000 in
theorem hF2_w6 (c : Dev nD) : (pdats m 2 c).arrAt ⟨6, by decide⟩ cfg2.N = atTc c (W8 m c) (Pipeline.arrRef spec2 ⟨6, by decide⟩) := by
  rw [pdats_2]
  refine (((dat2 (fun c => atTc c (W7 m c)) c).arrAt_in ⟨6, by decide⟩ rfl _).trans (A_eq2 _ c ⟨6, by decide⟩)).trans ?_
  unfold W8; simp only [atTc]
  rw [Function.update_of_ne (by decide)]; rw [Function.update_of_ne (by decide)]
set_option maxHeartbeats 1000000 in
theorem hF2_w7 (c : Dev nD) : (pdats m 2 c).arrAt ⟨7, by decide⟩ cfg2.N = atTc c (W8 m c) (Pipeline.arrRef spec2 ⟨7, by decide⟩) := by
  rw [pdats_2]
  unfold W8; simp only [atTc]
  rw [Function.update_of_ne (by decide), Function.update_self]
  first | done | rfl
set_option maxHeartbeats 1000000 in
theorem hF2_w8 (c : Dev nD) : (pdats m 2 c).arrAt ⟨8, by decide⟩ cfg2.N = atTc c (W8 m c) (Pipeline.arrRef spec2 ⟨8, by decide⟩) := by
  rw [pdats_2]
  unfold W8; simp only [atTc]
  rw [Function.update_self]
  first | done | rfl

set_option maxHeartbeats 1000000 in
theorem hF2 (c : Dev nD) : ∀ w : Fin cfg2.W, (pdats m 2 c).arrAt w cfg2.N = atTc c (W8 m c) (Pipeline.arrRef spec2 w)
  | ⟨0, _⟩ => hF2_w0 m c
  | ⟨1, _⟩ => hF2_w1 m c
  | ⟨2, _⟩ => hF2_w2 m c
  | ⟨3, _⟩ => hF2_w3 m c
  | ⟨4, _⟩ => hF2_w4 m c
  | ⟨5, _⟩ => hF2_w5 m c
  | ⟨6, _⟩ => hF2_w6 m c
  | ⟨7, _⟩ => hF2_w7 m c
  | ⟨8, _⟩ => hF2_w8 m c

/-- Every buffer that is no array of the pipeline is as at the entry. -/
theorem hrest2 (c : Dev nD) : ∀ b, b ∉ Finset.univ.image (Pipeline.arrRef spec2) → atTc c (W8 m c) b = atTc c (W7 m c) b := by
  intro b hb
  unfold W8; simp only [atTc]
  rw [Function.update_of_ne (fun h => hb (Finset.mem_image.mpr ⟨⟨8, by decide⟩, Finset.mem_univ _, (Proc.devRef_injective _ h).symm⟩))]
  rw [Function.update_of_ne (fun h => hb (Finset.mem_image.mpr ⟨⟨7, by decide⟩, Finset.mem_univ _, (Proc.devRef_injective _ h).symm⟩))]

set_option backward.isDefEq.respectTransparency.types false in
noncomputable def reg2 : Pipeline.RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := by rw [pdats_2]; exact (body_obligation2 (fun c => atTc c (W7 m c)) c).loose
  hwaits := Pipeline.hwaits_of_owed_zero _ _ _ _ L0 lv0 2 fun _ _ => rfl
  pre c := iprop(StableHlo.held (c : Thread nD τ) (Pipeline.ucRefs τ sig) (V7 m (outs m) c) ∗ Rst c)
  post c := iprop(StableHlo.held (c : Thread nD τ) (Pipeline.ucRefs τ sig) (V8 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (atTc c (W7 m c))
  hentry c := by
    rw [Pipeline.ownSems0_none]
    have hsplit := Pipeline.arrays_of_unscopedBufs (p := 2) (pcfgs (F := F)) adm (pdats m) launch2.win launch2.arr_whole c
      ((pdats m 2 c).share_full fun _ => rfl) (atTc c (W7 m c)) fun _ => rfl
    rw [Pipeline.unscopedBufs_held] at hsplit
    rw [V7_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [pdats_2]
    iintro ⟨Hp, -, Hr⟩
    iapply (hin2 (fun c => atTc c (W7 m c)) c)
    unfold Pipeline.ΦA
    isplitl [Hr]; · iexact Hr
    iexact Hp
  hout c := by
    rw [Pipeline.ownSems0_none, pdats_2]
    iintro H
    ihave H2 := (hout2 (fun c => atTc c (W7 m c)) c) $$ H
    unfold Pipeline.ΦA
    icases H2 with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc c (W7 m c)) (atTc c (W8 m c)) ((pdats m 2 c).arrAt · cfg2.N) (hF2 m c) (hrest2 m c)
    rw [Pipeline.unscopedBufs_held] at hjoin
    rw [V8_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg3.lean ====
/-
  Region 3 of @main as a segment: entered from every unscoped buffer at the contents the fold reaches before it,
  left with its output arrays at their folded write-backs and every other buffer untouched; the generator register
  goes into the kernel's invariant and comes back; nothing is owed; the kernel has no semaphore of its own.
-/
import proofs.«129379_j32899449487582_2_alg».proof.Proof.KI.Fold
import Idealize.ShloMosaic.Lib.Pipeline.RegionsLoop
import Idealize.ShloMosaic.Lib.Pipeline.FrameSuffix

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! At the region's exit each of its arrays holds what the pipeline leaves: an input its entry contents, an output
    its folded write-backs. -/
set_option maxHeartbeats 1000000 in
theorem hF3_w0 (c : Dev nD) : (pdats m 3 c).arrAt ⟨0, by decide⟩ cfg3.N = atTc c (W10 m c) (Pipeline.arrRef spec3 ⟨0, by decide⟩) := by
  rw [pdats_3]
  refine (((dat3 (fun c => atTc c (W9 m c)) c).arrAt_in ⟨0, by decide⟩ rfl _).trans (A_eq3 _ c ⟨0, by decide⟩)).trans ?_
  unfold W10; simp only [atTc]
  rw [Function.update_of_ne (by decide)]
set_option maxHeartbeats 1000000 in
theorem hF3_w1 (c : Dev nD) : (pdats m 3 c).arrAt ⟨1, by decide⟩ cfg3.N = atTc c (W10 m c) (Pipeline.arrRef spec3 ⟨1, by decide⟩) := by
  rw [pdats_3]
  refine (((dat3 (fun c => atTc c (W9 m c)) c).arrAt_in ⟨1, by decide⟩ rfl _).trans (A_eq3 _ c ⟨1, by decide⟩)).trans ?_
  unfold W10; simp only [atTc]
  rw [Function.update_of_ne (by decide)]
set_option maxHeartbeats 1000000 in
theorem hF3_w2 (c : Dev nD) : (pdats m 3 c).arrAt ⟨2, by decide⟩ cfg3.N = atTc c (W10 m c) (Pipeline.arrRef spec3 ⟨2, by decide⟩) := by
  rw [pdats_3]
  refine (((dat3 (fun c => atTc c (W9 m c)) c).arrAt_in ⟨2, by decide⟩ rfl _).trans (A_eq3 _ c ⟨2, by decide⟩)).trans ?_
  unfold W10; simp only [atTc]
  rw [Function.update_of_ne (by decide)]
set_option maxHeartbeats 1000000 in
theorem hF3_w3 (c : Dev nD) : (pdats m 3 c).arrAt ⟨3, by decide⟩ cfg3.N = atTc c (W10 m c) (Pipeline.arrRef spec3 ⟨3, by decide⟩) := by
  rw [pdats_3]
  refine (((dat3 (fun c => atTc c (W9 m c)) c).arrAt_in ⟨3, by decide⟩ rfl _).trans (A_eq3 _ c ⟨3, by decide⟩)).trans ?_
  unfold W10; simp only [atTc]
  rw [Function.update_of_ne (by decide)]
set_option maxHeartbeats 1000000 in
theorem hF3_w4 (c : Dev nD) : (pdats m 3 c).arrAt ⟨4, by decide⟩ cfg3.N = atTc c (W10 m c) (Pipeline.arrRef spec3 ⟨4, by decide⟩) := by
  rw [pdats_3]
  refine (((dat3 (fun c => atTc c (W9 m c)) c).arrAt_in ⟨4, by decide⟩ rfl _).trans (A_eq3 _ c ⟨4, by decide⟩)).trans ?_
  unfold W10; simp only [atTc]
  rw [Function.update_of_ne (by decide)]
set_option maxHeartbeats 1000000 in
theorem hF3_w5 (c : Dev nD) : (pdats m 3 c).arrAt ⟨5, by decide⟩ cfg3.N = atTc c (W10 m c) (Pipeline.arrRef spec3 ⟨5, by decide⟩) := by
  rw [pdats_3]
  refine (((dat3 (fun c => atTc c (W9 m c)) c).arrAt_in ⟨5, by decide⟩ rfl _).trans (A_eq3 _ c ⟨5, by decide⟩)).trans ?_
  unfold W10; simp only [atTc]
  rw [Function.update_of_ne (by decide)]
set_option maxHeartbeats 1000000 in
theorem hF3_w6 (c : Dev nD) : (pdats m 3 c).arrAt ⟨6, by decide⟩ cfg3.N = atTc c (W10 m c) (Pipeline.arrRef spec3 ⟨6, by decide⟩) := by
  rw [pdats_3]
  refine (((dat3 (fun c => atTc c (W9 m c)) c).arrAt_in ⟨6, by decide⟩ rfl _).trans (A_eq3 _ c ⟨6, by decide⟩)).trans ?_
  unfold W10; simp only [atTc]
  rw [Function.update_of_ne (by decide)]
set_option maxHeartbeats 1000000 in
theorem hF3_w7 (c : Dev nD) : (pdats m 3 c).arrAt ⟨7, by decide⟩ cfg3.N = atTc c (W10 m c) (Pipeline.arrRef spec3 ⟨7, by decide⟩) := by
  rw [pdats_3]
  refine (((dat3 (fun c => atTc c (W9 m c)) c).arrAt_in ⟨7, by decide⟩ rfl _).trans (A_eq3 _ c ⟨7, by decide⟩)).trans ?_
  unfold W10; simp only [atTc]
  rw [Function.update_of_ne (by decide)]
set_option maxHeartbeats 1000000 in
theorem hF3_w8 (c : Dev nD) : (pdats m 3 c).arrAt ⟨8, by decide⟩ cfg3.N = atTc c (W10 m c) (Pipeline.arrRef spec3 ⟨8, by decide⟩) := by
  rw [pdats_3]
  refine (((dat3 (fun c => atTc c (W9 m c)) c).arrAt_in ⟨8, by decide⟩ rfl _).trans (A_eq3 _ c ⟨8, by decide⟩)).trans ?_
  unfold W10; simp only [atTc]
  rw [Function.update_of_ne (by decide)]
set_option maxHeartbeats 1000000 in
theorem hF3_w9 (c : Dev nD) : (pdats m 3 c).arrAt ⟨9, by decide⟩ cfg3.N = atTc c (W10 m c) (Pipeline.arrRef spec3 ⟨9, by decide⟩) := by
  rw [pdats_3]
  refine (((dat3 (fun c => atTc c (W9 m c)) c).arrAt_in ⟨9, by decide⟩ rfl _).trans (A_eq3 _ c ⟨9, by decide⟩)).trans ?_
  unfold W10; simp only [atTc]
  rw [Function.update_of_ne (by decide)]
set_option maxHeartbeats 1000000 in
theorem hF3_w10 (c : Dev nD) : (pdats m 3 c).arrAt ⟨10, by decide⟩ cfg3.N = atTc c (W10 m c) (Pipeline.arrRef spec3 ⟨10, by decide⟩) := by
  rw [pdats_3]
  refine (((dat3 (fun c => atTc c (W9 m c)) c).arrAt_in ⟨10, by decide⟩ rfl _).trans (A_eq3 _ c ⟨10, by decide⟩)).trans ?_
  unfold W10; simp only [atTc]
  rw [Function.update_of_ne (by decide)]
set_option maxHeartbeats 1000000 in
theorem hF3_w11 (c : Dev nD) : (pdats m 3 c).arrAt ⟨11, by decide⟩ cfg3.N = atTc c (W10 m c) (Pipeline.arrRef spec3 ⟨11, by decide⟩) := by
  rw [pdats_3]
  unfold W10; simp only [atTc]
  rw [Function.update_self]
  first | done | rfl

set_option maxHeartbeats 1000000 in
theorem hF3 (c : Dev nD) : ∀ w : Fin cfg3.W, (pdats m 3 c).arrAt w cfg3.N = atTc c (W10 m c) (Pipeline.arrRef spec3 w)
  | ⟨0, _⟩ => hF3_w0 m c
  | ⟨1, _⟩ => hF3_w1 m c
  | ⟨2, _⟩ => hF3_w2 m c
  | ⟨3, _⟩ => hF3_w3 m c
  | ⟨4, _⟩ => hF3_w4 m c
  | ⟨5, _⟩ => hF3_w5 m c
  | ⟨6, _⟩ => hF3_w6 m c
  | ⟨7, _⟩ => hF3_w7 m c
  | ⟨8, _⟩ => hF3_w8 m c
  | ⟨9, _⟩ => hF3_w9 m c
  | ⟨10, _⟩ => hF3_w10 m c
  | ⟨11, _⟩ => hF3_w11 m c

/-- Every buffer that is no array of the pipeline is as at the entry. -/
theorem hrest3 (c : Dev nD) : ∀ b, b ∉ Finset.univ.image (Pipeline.arrRef spec3) → atTc c (W10 m c) b = atTc c (W9 m c) b := by
  intro b hb
  unfold W10; simp only [atTc]
  rw [Function.update_of_ne (fun h => hb (Finset.mem_image.mpr ⟨⟨11, by decide⟩, Finset.mem_univ _, (Proc.devRef_injective _ h).symm⟩))]

set_option backward.isDefEq.respectTransparency.types false in
noncomputable def reg3 : Pipeline.RegionSeg (pcfgs (F := F)) adm (pdats m) () defs₀ Variants.none L0 lv0 3 where
  win := launch3.win.to₀
  block_pos := launch3.block_pos
  stage_whole := launch3.stage_whole
  K := PEmpty
  osem k := k.elim
  ho := Pipeline.OwnSemFacts.none _
  hbody c := by rw [pdats_3]; exact (body_obligation3 (fun c => atTc c (W9 m c)) c).loose
  hwaits := Pipeline.hwaits_of_owed_zero _ _ _ _ L0 lv0 3 fun _ _ => rfl
  pre c := iprop(StableHlo.held (c : Thread nD τ) (Pipeline.ucRefs τ sig) (V9 m (outs m) c) ∗ Rst c)
  post c := iprop(StableHlo.held (c : Thread nD τ) (Pipeline.ucRefs τ sig) (V10 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (atTc c (W9 m c))
  hentry c := by
    rw [Pipeline.ownSems0_none]
    have hsplit := Pipeline.arrays_of_unscopedBufs (p := 3) (pcfgs (F := F)) adm (pdats m) launch3.win launch3.arr_whole c
      ((pdats m 3 c).share_full fun _ => rfl) (atTc c (W9 m c)) fun _ => rfl
    rw [Pipeline.unscopedBufs_held] at hsplit
    rw [V9_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc c (W9 m c)) (atTc c (W10 m c)) ((pdats m 3 c).arrAt · cfg3.N) (hF3 m c) (hrest3 m c)
    rw [Pipeline.unscopedBufs_held] at hjoin
    rw [V10_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg4.lean ====
/-
  Region 4 of @main as a segment: entered from every unscoped buffer at the contents the fold reaches before it,
  left with its output arrays at their folded write-backs and every other buffer untouched; the generator register
  goes into the kernel's invariant and comes back; nothing is owed; the kernel has no semaphore of its own.
-/
import proofs.«129379_j32899449487582_2_alg».proof.Proof.KI.Fold
import Idealize.ShloMosaic.Lib.Pipeline.RegionsLoop
import Idealize.ShloMosaic.Lib.Pipeline.FrameSuffix

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! At the region's exit each of its arrays holds what the pipeline leaves: an input its entry contents, an output
    its folded write-backs. -/
set_option maxHeartbeats 1000000 in
theorem hF4_w0 (c : Dev nD) : (pdats m 4 c).arrAt ⟨0, by decide⟩ cfg4.N = atTc c (W12 m c) (Pipeline.arrRef spec4 ⟨0, by decide⟩) := by
  rw [pdats_4]
  refine (((dat4 (fun c => atTc c (W11 m c)) c).arrAt_in ⟨0, by decide⟩ rfl _).trans (A_eq4 _ c ⟨0, by decide⟩)).trans ?_
  unfold W12; simp only [atTc]
  rw [Function.update_of_ne (by decide)]; rw [Function.update_of_ne (by decide)]
set_option maxHeartbeats 1000000 in
theorem hF4_w1 (c : Dev nD) : (pdats m 4 c).arrAt ⟨1, by decide⟩ cfg4.N = atTc c (W12 m c) (Pipeline.arrRef spec4 ⟨1, by decide⟩) := by
  rw [pdats_4]
  refine (((dat4 (fun c => atTc c (W11 m c)) c).arrAt_in ⟨1, by decide⟩ rfl _).trans (A_eq4 _ c ⟨1, by decide⟩)).trans ?_
  unfold W12; simp only [atTc]
  rw [Function.update_of_ne (by decide)]; rw [Function.update_of_ne (by decide)]
set_option maxHeartbeats 1000000 in
theorem hF4_w2 (c : Dev nD) : (pdats m 4 c).arrAt ⟨2, by decide⟩ cfg4.N = atTc c (W12 m c) (Pipeline.arrRef spec4 ⟨2, by decide⟩) := by
  rw [pdats_4]
  refine (((dat4 (fun c => atTc c (W11 m c)) c).arrAt_in ⟨2, by decide⟩ rfl _).trans (A_eq4 _ c ⟨2, by decide⟩)).trans ?_
  unfold W12; simp only [atTc]
  rw [Function.update_of_ne (by decide)]; rw [Function.update_of_ne (by decide)]
set_option maxHeartbeats 1000000 in
theorem hF4_w3 (c : Dev nD) : (pdats m 4 c).arrAt ⟨3, by decide⟩ cfg4.N = atTc c (W12 m c) (Pipeline.arrRef spec4 ⟨3, by decide⟩) := by
  rw [pdats_4]
  refine (((dat4 (fun c => atTc c (W11 m c)) c).arrAt_in ⟨3, by decide⟩ rfl _).trans (A_eq4 _ c ⟨3, by decide⟩)).trans ?_
  unfold W12; simp only [atTc]
  rw [Function.update_of_ne (by decide)]; rw [Function.update_of_ne (by decide)]
set_option maxHeartbeats 1000000 in
theorem hF4_w4 (c : Dev nD) : (pdats m 4 c).arrAt ⟨4, by decide⟩ cfg4.N = atTc c (W12 m c) (Pipeline.arrRef spec4 ⟨4, by decide⟩) := by
  rw [pdats_4]
  refine (((dat4 (fun c => atTc c (W11 m c)) c).arrAt_in ⟨4, by decide⟩ rfl _).trans (A_eq4 _ c ⟨4, by decide⟩)).trans ?_
  unfold W12; simp only [atTc]
  rw [Function.update_of_ne (by decide)]; rw [Function.update_of_ne (by decide)]
set_option maxHeartbeats 1000000 in
theorem hF4_w5 (c : Dev nD) : (pdats m 4 c).arrAt ⟨5, by decide⟩ cfg4.N = atTc c (W12 m c) (Pipeline.arrRef spec4 ⟨5, by decide⟩) := by
  rw [pdats_4]
  refine (((dat4 (fun c => atTc c (W11 m c)) c).arrAt_in ⟨5, by decide⟩ rfl _).trans (A_eq4 _ c ⟨5, by decide⟩)).trans ?_
  unfold W12; simp only [atTc]
  rw [Function.update_of_ne (by decide)]; rw [Function.update_of_ne (by decide)]
set_option maxHeartbeats 1000000 in
theorem hF4_w6 (c : Dev nD) : (pdats m 4 c).arrAt ⟨6, by decide⟩ cfg4.N = atTc c (W12 m c) (Pipeline.arrRef spec4 ⟨6, by decide⟩) := by
  rw [pdats_4]
  refine (((dat4 (fun c => atTc c (W11 m c)) c).arrAt_in ⟨6, by decide⟩ rfl _).trans (A_eq4 _ c ⟨6, by decide⟩)).trans ?_
  unfold W12; simp only [atTc]
  rw [Function.update_of_ne (by decide)]; rw [Function.update_of_ne (by decide)]
set_option maxHeartbeats 1000000 in
theorem hF4_w7 (c : Dev nD) : (pdats m 4 c).arrAt ⟨7, by decide⟩ cfg4.N = atTc c (W12 m c) (Pipeline.arrRef spec4 ⟨7, by decide⟩) := by
  rw [pdats_4]
  unfold W12; simp only [atTc]
  rw [Function.update_of_ne (by decide), Function.update_self]
  first | done | rfl
set_option maxHeartbeats 1000000 in
theorem hF4_w8 (c : Dev nD) : (pdats m 4 c).arrAt ⟨8, by decide⟩ cfg4.N = atTc c (W12 m c) (Pipeline.arrRef spec4 ⟨8, by decide⟩) := by
  rw [pdats_4]
  unfold W12; simp only [atTc]
  rw [Function.update_self]
  first | done | rfl

set_option maxHeartbeats 1000000 in
theorem hF4 (c : Dev nD) : ∀ w : Fin cfg4.W, (pdats m 4 c).arrAt w cfg4.N = atTc c (W12 m c) (Pipeline.arrRef spec4 w)
  | ⟨0, _⟩ => hF4_w0 m c
  | ⟨1, _⟩ => hF4_w1 m c
  | ⟨2, _⟩ => hF4_w2 m c
  | ⟨3, _⟩ => hF4_w3 m c
  | ⟨4, _⟩ => hF4_w4 m c
  | ⟨5, _⟩ => hF4_w5 m c
  | ⟨6, _⟩ => hF4_w6 m c
  | ⟨7, _⟩ => hF4_w7 m c
  | ⟨8, _⟩ => hF4_w8 m c

/-- Every buffer that is no array of the pipeline is as at the entry. -/
theorem hrest4 (c : Dev nD) : ∀ b, b ∉ Finset.univ.image (Pipeline.arrRef spec4) → atTc c (W12 m c) b = atTc c (W11 m c) b := by
  intro b hb
  unfold W12; simp only [atTc]
  rw [Function.update_of_ne (fun h => hb (Finset.mem_image.mpr ⟨⟨8, by decide⟩, Finset.mem_univ _, (Proc.devRef_injective _ h).symm⟩))]
  rw [Function.update_of_ne (fun h => hb (Finset.mem_image.mpr ⟨⟨7, by decide⟩, Finset.mem_univ _, (Proc.devRef_injective _ h).symm⟩))]

set_option backward.isDefEq.respectTransparency.types false in
noncomputable def reg4 : Pipeline.RegionSeg (pcfgs (F := F)) adm (pdats m) () defs₀ Variants.none L0 lv0 4 where
  win := launch4.win.to₀
  block_pos := launch4.block_pos
  stage_whole := launch4.stage_whole
  K := PEmpty
  osem k := k.elim
  ho := Pipeline.OwnSemFacts.none _
  hbody c := by rw [pdats_4]; exact (body_obligation4 (fun c => atTc c (W11 m c)) c).loose
  hwaits := Pipeline.hwaits_of_owed_zero _ _ _ _ L0 lv0 4 fun _ _ => rfl
  pre c := iprop(StableHlo.held (c : Thread nD τ) (Pipeline.ucRefs τ sig) (V11 m (outs m) c) ∗ Rst c)
  post c := iprop(StableHlo.held (c : Thread nD τ) (Pipeline.ucRefs τ sig) (V12 m (outs m) c) ∗ Rst c)
  X c := iprop(∃ r, prngReg c r)
  Y c := iprop(∃ r, prngReg c r)
  Z c := Pipeline.unscopedRest (Ix := Unit) (Name := ℕ) (U := UR sig nD τ) (Lvl := ℕ) spec4 c (atTc c (W11 m c))
  hentry c := by
    rw [Pipeline.ownSems0_none]
    have hsplit := Pipeline.arrays_of_unscopedBufs (p := 4) (pcfgs (F := F)) adm (pdats m) launch4.win launch4.arr_whole c
      ((pdats m 4 c).share_full fun _ => rfl) (atTc c (W11 m c)) fun _ => rfl
    rw [Pipeline.unscopedBufs_held] at hsplit
    rw [V11_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [pdats_4]
    iintro ⟨Hp, -, Hr⟩
    iapply (hin4 (fun c => atTc c (W11 m c)) c)
    unfold Pipeline.ΦA
    isplitl [Hr]; · iexact Hr
    iexact Hp
  hout c := by
    rw [Pipeline.ownSems0_none, pdats_4]
    iintro H
    ihave H2 := (hout4 (fun c => atTc c (W11 m c)) c) $$ H
    unfold Pipeline.ΦA
    icases H2 with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc c (W11 m c)) (atTc c (W12 m c)) ((pdats m 4 c).arrAt · cfg4.N) (hF4 m c) (hrest4 m c)
    rw [Pipeline.unscopedBufs_held] at hjoin
    rw [V12_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg5.lean ====
/-
  Region 5 of @main as a segment: entered from every unscoped buffer at the contents the fold reaches before it,
  left with its output arrays at their folded write-backs and every other buffer untouched; the generator register
  goes into the kernel's invariant and comes back; nothing is owed; the kernel has no semaphore of its own.
-/
import proofs.«129379_j32899449487582_2_alg».proof.Proof.KI.Fold
import Idealize.ShloMosaic.Lib.Pipeline.RegionsLoop
import Idealize.ShloMosaic.Lib.Pipeline.FrameSuffix

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! At the region's exit each of its arrays holds what the pipeline leaves: an input its entry contents, an output
    its folded write-backs. -/
set_option maxHeartbeats 1000000 in
theorem hF5_w0 (c : Dev nD) : (pdats m 5 c).arrAt ⟨0, by decide⟩ cfg5.N = atTc c (W14 m c) (Pipeline.arrRef spec5 ⟨0, by decide⟩) := by
  rw [pdats_5]
  refine (((dat5 (fun c => atTc c (W13 m c)) c).arrAt_in ⟨0, by decide⟩ rfl _).trans (A_eq5 _ c ⟨0, by decide⟩)).trans ?_
  unfold W14; simp only [atTc]
  rw [Function.update_of_ne (by decide)]
set_option maxHeartbeats 1000000 in
theorem hF5_w1 (c : Dev nD) : (pdats m 5 c).arrAt ⟨1, by decide⟩ cfg5.N = atTc c (W14 m c) (Pipeline.arrRef spec5 ⟨1, by decide⟩) := by
  rw [pdats_5]
  refine (((dat5 (fun c => atTc c (W13 m c)) c).arrAt_in ⟨1, by decide⟩ rfl _).trans (A_eq5 _ c ⟨1, by decide⟩)).trans ?_
  unfold W14; simp only [atTc]
  rw [Function.update_of_ne (by decide)]
set_option maxHeartbeats 1000000 in
theorem hF5_w2 (c : Dev nD) : (pdats m 5 c).arrAt ⟨2, by decide⟩ cfg5.N = atTc c (W14 m c) (Pipeline.arrRef spec5 ⟨2, by decide⟩) := by
  rw [pdats_5]
  refine (((dat5 (fun c => atTc c (W13 m c)) c).arrAt_in ⟨2, by decide⟩ rfl _).trans (A_eq5 _ c ⟨2, by decide⟩)).trans ?_
  unfold W14; simp only [atTc]
  rw [Function.update_of_ne (by decide)]
set_option maxHeartbeats 1000000 in
theorem hF5_w3 (c : Dev nD) : (pdats m 5 c).arrAt ⟨3, by decide⟩ cfg5.N = atTc c (W14 m c) (Pipeline.arrRef spec5 ⟨3, by decide⟩) := by
  rw [pdats_5]
  refine (((dat5 (fun c => atTc c (W13 m c)) c).arrAt_in ⟨3, by decide⟩ rfl _).trans (A_eq5 _ c ⟨3, by decide⟩)).trans ?_
  unfold W14; simp only [atTc]
  rw [Function.update_of_ne (by decide)]
set_option maxHeartbeats 1000000 in
theorem hF5_w4 (c : Dev nD) : (pdats m 5 c).arrAt ⟨4, by decide⟩ cfg5.N = atTc c (W14 m c) (Pipeline.arrRef spec5 ⟨4, by decide⟩) := by
  rw [pdats_5]
  refine (((dat5 (fun c => atTc c (W13 m c)) c).arrAt_in ⟨4, by decide⟩ rfl _).trans (A_eq5 _ c ⟨4, by decide⟩)).trans ?_
  unfold W14; simp only [atTc]
  rw [Function.update_of_ne (by decide)]
set_option maxHeartbeats 1000000 in
theorem hF5_w5 (c : Dev nD) : (pdats m 5 c).arrAt ⟨5, by decide⟩ cfg5.N = atTc c (W14 m c) (Pipeline.arrRef spec5 ⟨5, by decide⟩) := by
  rw [pdats_5]
  refine (((dat5 (fun c => atTc c (W13 m c)) c).arrAt_in ⟨5, by decide⟩ rfl _).trans (A_eq5 _ c ⟨5, by decide⟩)).trans ?_
  unfold W14; simp only [atTc]
  rw [Function.update_of_ne (by decide)]
set_option maxHeartbeats 1000000 in
theorem hF5_w6 (c : Dev nD) : (pdats m 5 c).arrAt ⟨6, by decide⟩ cfg5.N = atTc c (W14 m c) (Pipeline.arrRef spec5 ⟨6, by decide⟩) := by
  rw [pdats_5]
  refine (((dat5 (fun c => atTc c (W13 m c)) c).arrAt_in ⟨6, by decide⟩ rfl _).trans (A_eq5 _ c ⟨6, by decide⟩)).trans ?_
  unfold W14; simp only [atTc]
  rw [Function.update_of_ne (by decide)]
set_option maxHeartbeats 1000000 in
theorem hF5_w7 (c : Dev nD) : (pdats m 5 c).arrAt ⟨7, by decide⟩ cfg5.N = atTc c (W14 m c) (Pipeline.arrRef spec5 ⟨7, by decide⟩) := by
  rw [pdats_5]
  refine (((dat5 (fun c => atTc c (W13 m c)) c).arrAt_in ⟨7, by decide⟩ rfl _).trans (A_eq5 _ c ⟨7, by decide⟩)).trans ?_
  unfold W14; simp only [atTc]
  rw [Function.update_of_ne (by decide)]
set_option maxHeartbeats 1000000 in
theorem hF5_w8 (c : Dev nD) : (pdats m 5 c).arrAt ⟨8, by decide⟩ cfg5.N = atTc c (W14 m c) (Pipeline.arrRef spec5 ⟨8, by decide⟩) := by
  rw [pdats_5]
  refine (((dat5 (fun c => atTc c (W13 m c)) c).arrAt_in ⟨8, by decide⟩ rfl _).trans (A_eq5 _ c ⟨8, by decide⟩)).trans ?_
  unfold W14; simp only [atTc]
  rw [Function.update_of_ne (by decide)]
set_option maxHeartbeats 1000000 in
theorem hF5_w9 (c : Dev nD) : (pdats m 5 c).arrAt ⟨9, by decide⟩ cfg5.N = atTc c (W14 m c) (Pipeline.arrRef spec5 ⟨9, by decide⟩) := by
  rw [pdats_5]
  refine (((dat5 (fun c => atTc c (W13 m c)) c).arrAt_in ⟨9, by decide⟩ rfl _).trans (A_eq5 _ c ⟨9, by decide⟩)).trans ?_
  unfold W14; simp only [atTc]
  rw [Function.update_of_ne (by decide)]
set_option maxHeartbeats 1000000 in
theorem hF5_w10 (c : Dev nD) : (pdats m 5 c).arrAt ⟨10, by decide⟩ cfg5.N = atTc c (W14 m c) (Pipeline.arrRef spec5 ⟨10, by decide⟩) := by
  rw [pdats_5]
  refine (((dat5 (fun c => atTc c (W13 m c)) c).arrAt_in ⟨10, by decide⟩ rfl _).trans (A_eq5 _ c ⟨10, by decide⟩)).trans ?_
  unfold W14; simp only [atTc]
  rw [Function.update_of_ne (by decide)]
set_option maxHeartbeats 1000000 in
theorem hF5_w11 (c : Dev nD) : (pdats m 5 c).arrAt ⟨11, by decide⟩ cfg5.N = atTc c (W14 m c) (Pipeline.arrRef spec5 ⟨11, by decide⟩) := by
  rw [pdats_5]
  unfold W14; simp only [atTc]
  rw [Function.update_self]
  first | done | rfl

set_option maxHeartbeats 1000000 in
theorem hF5 (c : Dev nD) : ∀ w : Fin cfg5.W, (pdats m 5 c).arrAt w cfg5.N = atTc c (W14 m c) (Pipeline.arrRef spec5 w)
  | ⟨0, _⟩ => hF5_w0 m c
  | ⟨1, _⟩ => hF5_w1 m c
  | ⟨2, _⟩ => hF5_w2 m c
  | ⟨3, _⟩ => hF5_w3 m c
  | ⟨4, _⟩ => hF5_w4 m c
  | ⟨5, _⟩ => hF5_w5 m c
  | ⟨6, _⟩ => hF5_w6 m c
  | ⟨7, _⟩ => hF5_w7 m c
  | ⟨8, _⟩ => hF5_w8 m c
  | ⟨9, _⟩ => hF5_w9 m c
  | ⟨10, _⟩ => hF5_w10 m c
  | ⟨11, _⟩ => hF5_w11 m c

/-- Every buffer that is no array of the pipeline is as at the entry. -/
theorem hrest5 (c : Dev nD) : ∀ b, b ∉ Finset.univ.image (Pipeline.arrRef spec5) → atTc c (W14 m c) b = atTc c (W13 m c) b := by
  intro b hb
  unfold W14; simp only [atTc]
  rw [Function.update_of_ne (fun h => hb (Finset.mem_image.mpr ⟨⟨11, by decide⟩, Finset.mem_univ _, (Proc.devRef_injective _ h).symm⟩))]

set_option backward.isDefEq.respectTransparency.types false in
noncomputable def reg5 : Pipeline.RegionSeg (pcfgs (F := F)) adm (pdats m) () defs₀ Variants.none L0 lv0 5 where
  win := launch5.win.to₀
  block_pos := launch5.block_pos
  stage_whole := launch5.stage_whole
  K := PEmpty
  osem k := k.elim
  ho := Pipeline.OwnSemFacts.none _
  hbody c := by rw [pdats_5]; exact (body_obligation5 (fun c => atTc c (W13 m c)) c).loose
  hwaits := Pipeline.hwaits_of_owed_zero _ _ _ _ L0 lv0 5 fun _ _ => rfl
  pre c := iprop(StableHlo.held (c : Thread nD τ) (Pipeline.ucRefs τ sig) (V13 m (outs m) c) ∗ Rst c)
  post c := iprop(StableHlo.held (c : Thread nD τ) (Pipeline.ucRefs τ sig) (V14 m (outs m) c) ∗ Rst c)
  X c := iprop(∃ r, prngReg c r)
  Y c := iprop(∃ r, prngReg c r)
  Z c := Pipeline.unscopedRest (Ix := Unit) (Name := ℕ) (U := UR sig nD τ) (Lvl := ℕ) spec5 c (atTc c (W13 m c))
  hentry c := by
    rw [Pipeline.ownSems0_none]
    have hsplit := Pipeline.arrays_of_unscopedBufs (p := 5) (pcfgs (F := F)) adm (pdats m) launch5.win launch5.arr_whole c
      ((pdats m 5 c).share_full fun _ => rfl) (atTc c (W13 m c)) fun _ => rfl
    rw [Pipeline.unscopedBufs_held] at hsplit
    rw [V13_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc c (W13 m c)) (atTc c (W14 m c)) ((pdats m 5 c).arrAt · cfg5.N) (hF5 m c) (hrest5 m c)
    rw [Pipeline.unscopedBufs_held] at hjoin
    rw [V14_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg6.lean ====
/-
  Region 6 of @main as a segment: entered from every unscoped buffer at the contents the fold reaches before it,
  left with its output arrays at their folded write-backs and every other buffer untouched; the generator register
  goes into the kernel's invariant and comes back; nothing is owed; the kernel has no semaphore of its own.
-/
import proofs.«129379_j32899449487582_2_alg».proof.Proof.KI.Fold
import Idealize.ShloMosaic.Lib.Pipeline.RegionsLoop
import Idealize.ShloMosaic.Lib.Pipeline.FrameSuffix

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! At the region's exit each of its arrays holds what the pipeline leaves: an input its entry contents, an output
    its folded write-backs. -/
set_option maxHeartbeats 1000000 in
theorem hF6_w0 (c : Dev nD) : (pdats m 6 c).arrAt ⟨0, by decide⟩ cfg6.N = atTc c (W16 m c) (Pipeline.arrRef spec6 ⟨0, by decide⟩) := by
  rw [pdats_6]
  refine (((dat6 (fun c => atTc c (W15 m c)) c).arrAt_in ⟨0, by decide⟩ rfl _).trans (A_eq6 _ c ⟨0, by decide⟩)).trans ?_
  unfold W16; simp only [atTc]
  rw [Function.update_of_ne (by decide)]; rw [Function.update_of_ne (by decide)]
set_option maxHeartbeats 1000000 in
theorem hF6_w1 (c : Dev nD) : (pdats m 6 c).arrAt ⟨1, by decide⟩ cfg6.N = atTc c (W16 m c) (Pipeline.arrRef spec6 ⟨1, by decide⟩) := by
  rw [pdats_6]
  refine (((dat6 (fun c => atTc c (W15 m c)) c).arrAt_in ⟨1, by decide⟩ rfl _).trans (A_eq6 _ c ⟨1, by decide⟩)).trans ?_
  unfold W16; simp only [atTc]
  rw [Function.update_of_ne (by decide)]; rw [Function.update_of_ne (by decide)]
set_option maxHeartbeats 1000000 in
theorem hF6_w2 (c : Dev nD) : (pdats m 6 c).arrAt ⟨2, by decide⟩ cfg6.N = atTc c (W16 m c) (Pipeline.arrRef spec6 ⟨2, by decide⟩) := by
  rw [pdats_6]
  refine (((dat6 (fun c => atTc c (W15 m c)) c).arrAt_in ⟨2, by decide⟩ rfl _).trans (A_eq6 _ c ⟨2, by decide⟩)).trans ?_
  unfold W16; simp only [atTc]
  rw [Function.update_of_ne (by decide)]; rw [Function.update_of_ne (by decide)]
set_option maxHeartbeats 1000000 in
theorem hF6_w3 (c : Dev nD) : (pdats m 6 c).arrAt ⟨3, by decide⟩ cfg6.N = atTc c (W16 m c) (Pipeline.arrRef spec6 ⟨3, by decide⟩) := by
  rw [pdats_6]
  refine (((dat6 (fun c => atTc c (W15 m c)) c).arrAt_in ⟨3, by decide⟩ rfl _).trans (A_eq6 _ c ⟨3, by decide⟩)).trans ?_
  unfold W16; simp only [atTc]
  rw [Function.update_of_ne (by decide)]; rw [Function.update_of_ne (by decide)]
set_option maxHeartbeats 1000000 in
theorem hF6_w4 (c : Dev nD) : (pdats m 6 c).arrAt ⟨4, by decide⟩ cfg6.N = atTc c (W16 m c) (Pipeline.arrRef spec6 ⟨4, by decide⟩) := by
  rw [pdats_6]
  refine (((dat6 (fun c => atTc c (W15 m c)) c).arrAt_in ⟨4, by decide⟩ rfl _).trans (A_eq6 _ c ⟨4, by decide⟩)).trans ?_
  unfold W16; simp only [atTc]
  rw [Function.update_of_ne (by decide)]; rw [Function.update_of_ne (by decide)]
set_option maxHeartbeats 1000000 in
theorem hF6_w5 (c : Dev nD) : (pdats m 6 c).arrAt ⟨5, by decide⟩ cfg6.N = atTc c (W16 m c) (Pipeline.arrRef spec6 ⟨5, by decide⟩) := by
  rw [pdats_6]
  refine (((dat6 (fun c => atTc c (W15 m c)) c).arrAt_in ⟨5, by decide⟩ rfl _).trans (A_eq6 _ c ⟨5, by decide⟩)).trans ?_
  unfold W16; simp only [atTc]
  rw [Function.update_of_ne (by decide)]; rw [Function.update_of_ne (by decide)]
set_option maxHeartbeats 1000000 in
theorem hF6_w6 (c : Dev nD) : (pdats m 6 c).arrAt ⟨6, by decide⟩ cfg6.N = atTc c (W16 m c) (Pipeline.arrRef spec6 ⟨6, by decide⟩) := by
  rw [pdats_6]
  refine (((dat6 (fun c => atTc c (W15 m c)) c).arrAt_in ⟨6, by decide⟩ rfl _).trans (A_eq6 _ c ⟨6, by decide⟩)).trans ?_
  unfold W16; simp only [atTc]
  rw [Function.update_of_ne (by decide)]; rw [Function.update_of_ne (by decide)]
set_option maxHeartbeats 1000000 in
theorem hF6_w7 (c : Dev nD) : (pdats m 6 c).arrAt ⟨7, by decide⟩ cfg6.N = atTc c (W16 m c) (Pipeline.arrRef spec6 ⟨7, by decide⟩) := by
  rw [pdats_6]
  unfold W16; simp only [atTc]
  rw [Function.update_of_ne (by decide), Function.update_self]
  first | done | rfl
set_option maxHeartbeats 1000000 in
theorem hF6_w8 (c : Dev nD) : (pdats m 6 c).arrAt ⟨8, by decide⟩ cfg6.N = atTc c (W16 m c) (Pipeline.arrRef spec6 ⟨8, by decide⟩) := by
  rw [pdats_6]
  unfold W16; simp only [atTc]
  rw [Function.update_self]
  first | done | rfl

set_option maxHeartbeats 1000000 in
theorem hF6 (c : Dev nD) : ∀ w : Fin cfg6.W, (pdats m 6 c).arrAt w cfg6.N = atTc c (W16 m c) (Pipeline.arrRef spec6 w)
  | ⟨0, _⟩ => hF6_w0 m c
  | ⟨1, _⟩ => hF6_w1 m c
  | ⟨2, _⟩ => hF6_w2 m c
  | ⟨3, _⟩ => hF6_w3 m c
  | ⟨4, _⟩ => hF6_w4 m c
  | ⟨5, _⟩ => hF6_w5 m c
  | ⟨6, _⟩ => hF6_w6 m c
  | ⟨7, _⟩ => hF6_w7 m c
  | ⟨8, _⟩ => hF6_w8 m c

/-- Every buffer that is no array of the pipeline is as at the entry. -/
theorem hrest6 (c : Dev nD) : ∀ b, b ∉ Finset.univ.image (Pipeline.arrRef spec6) → atTc c (W16 m c) b = atTc c (W15 m c) b := by
  intro b hb
  unfold W16; simp only [atTc]
  rw [Function.update_of_ne (fun h => hb (Finset.mem_image.mpr ⟨⟨8, by decide⟩, Finset.mem_univ _, (Proc.devRef_injective _ h).symm⟩))]
  rw [Function.update_of_ne (fun h => hb (Finset.mem_image.mpr ⟨⟨7, by decide⟩, Finset.mem_univ _, (Proc.devRef_injective _ h).symm⟩))]

set_option backward.isDefEq.respectTransparency.types false in
noncomputable def reg6 : Pipeline.RegionSeg (pcfgs (F := F)) adm (pdats m) () defs₀ Variants.none L0 lv0 6 where
  win := launch6.win.to₀
  block_pos := launch6.block_pos
  stage_whole := launch6.stage_whole
  K := PEmpty
  osem k := k.elim
  ho := Pipeline.OwnSemFacts.none _
  hbody c := by rw [pdats_6]; exact (body_obligation6 (fun c => atTc c (W15 m c)) c).loose
  hwaits := Pipeline.hwaits_of_owed_zero _ _ _ _ L0 lv0 6 fun _ _ => rfl
  pre c := iprop(StableHlo.held (c : Thread nD τ) (Pipeline.ucRefs τ sig) (V15 m (outs m) c) ∗ Rst c)
  post c := iprop(StableHlo.held (c : Thread nD τ) (Pipeline.ucRefs τ sig) (V16 m (outs m) c) ∗ Rst c)
  X c := iprop(∃ r, prngReg c r)
  Y c := iprop(∃ r, prngReg c r)
  Z c := Pipeline.unscopedRest (Ix := Unit) (Name := ℕ) (U := UR sig nD τ) (Lvl := ℕ) spec6 c (atTc c (W15 m c))
  hentry c := by
    rw [Pipeline.ownSems0_none]
    have hsplit := Pipeline.arrays_of_unscopedBufs (p := 6) (pcfgs (F := F)) adm (pdats m) launch6.win launch6.arr_whole c
      ((pdats m 6 c).share_full fun _ => rfl) (atTc c (W15 m c)) fun _ => rfl
    rw [Pipeline.unscopedBufs_held] at hsplit
    rw [V15_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [pdats_6]
    iintro ⟨Hp, -, Hr⟩
    iapply (hin6 (fun c => atTc c (W15 m c)) c)
    unfold Pipeline.ΦA
    isplitl [Hr]; · iexact Hr
    iexact Hp
  hout c := by
    rw [Pipeline.ownSems0_none, pdats_6]
    iintro H
    ihave H2 := (hout6 (fun c => atTc c (W15 m c)) c) $$ H
    unfold Pipeline.ΦA
    icases H2 with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc c (W15 m c)) (atTc c (W16 m c)) ((pdats m 6 c).arrAt · cfg6.N) (hF6 m c) (hrest6 m c)
    rw [Pipeline.unscopedBufs_held] at hjoin
    rw [V16_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg7.lean ====
/-
  Region 7 of @main as a segment: entered from every unscoped buffer at the contents the fold reaches before it,
  left with its output arrays at their folded write-backs and every other buffer untouched; the generator register
  goes into the kernel's invariant and comes back; nothing is owed; the kernel has no semaphore of its own.
-/
import proofs.«129379_j32899449487582_2_alg».proof.Proof.KI.Fold
import Idealize.ShloMosaic.Lib.Pipeline.RegionsLoop
import Idealize.ShloMosaic.Lib.Pipeline.FrameSuffix

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! At the region's exit each of its arrays holds what the pipeline leaves: an input its entry contents, an output
    its folded write-backs. -/
set_option maxHeartbeats 1000000 in
theorem hF7_w0 (c : Dev nD) : (pdats m 7 c).arrAt ⟨0, by decide⟩ cfg7.N = atTc c (W18 m c) (Pipeline.arrRef spec7 ⟨0, by decide⟩) := by
  rw [pdats_7]
  refine (((dat7 (fun c => atTc c (W17 m c)) c).arrAt_in ⟨0, by decide⟩ rfl _).trans (A_eq7 _ c ⟨0, by decide⟩)).trans ?_
  unfold W18; simp only [atTc]
  rw [Function.update_of_ne (by decide)]
set_option maxHeartbeats 1000000 in
theorem hF7_w1 (c : Dev nD) : (pdats m 7 c).arrAt ⟨1, by decide⟩ cfg7.N = atTc c (W18 m c) (Pipeline.arrRef spec7 ⟨1, by decide⟩) := by
  rw [pdats_7]
  refine (((dat7 (fun c => atTc c (W17 m c)) c).arrAt_in ⟨1, by decide⟩ rfl _).trans (A_eq7 _ c ⟨1, by decide⟩)).trans ?_
  unfold W18; simp only [atTc]
  rw [Function.update_of_ne (by decide)]
set_option maxHeartbeats 1000000 in
theorem hF7_w2 (c : Dev nD) : (pdats m 7 c).arrAt ⟨2, by decide⟩ cfg7.N = atTc c (W18 m c) (Pipeline.arrRef spec7 ⟨2, by decide⟩) := by
  rw [pdats_7]
  refine (((dat7 (fun c => atTc c (W17 m c)) c).arrAt_in ⟨2, by decide⟩ rfl _).trans (A_eq7 _ c ⟨2, by decide⟩)).trans ?_
  unfold W18; simp only [atTc]
  rw [Function.update_of_ne (by decide)]
set_option maxHeartbeats 1000000 in
theorem hF7_w3 (c : Dev nD) : (pdats m 7 c).arrAt ⟨3, by decide⟩ cfg7.N = atTc c (W18 m c) (Pipeline.arrRef spec7 ⟨3, by decide⟩) := by
  rw [pdats_7]
  refine (((dat7 (fun c => atTc c (W17 m c)) c).arrAt_in ⟨3, by decide⟩ rfl _).trans (A_eq7 _ c ⟨3, by decide⟩)).trans ?_
  unfold W18; simp only [atTc]
  rw [Function.update_of_ne (by decide)]
set_option maxHeartbeats 1000000 in
theorem hF7_w4 (c : Dev nD) : (pdats m 7 c).arrAt ⟨4, by decide⟩ cfg7.N = atTc c (W18 m c) (Pipeline.arrRef spec7 ⟨4, by decide⟩) := by
  rw [pdats_7]
  refine (((dat7 (fun c => atTc c (W17 m c)) c).arrAt_in ⟨4, by decide⟩ rfl _).trans (A_eq7 _ c ⟨4, by decide⟩)).trans ?_
  unfold W18; simp only [atTc]
  rw [Function.update_of_ne (by decide)]
set_option maxHeartbeats 1000000 in
theorem hF7_w5 (c : Dev nD) : (pdats m 7 c).arrAt ⟨5, by decide⟩ cfg7.N = atTc c (W18 m c) (Pipeline.arrRef spec7 ⟨5, by decide⟩) := by
  rw [pdats_7]
  refine (((dat7 (fun c => atTc c (W17 m c)) c).arrAt_in ⟨5, by decide⟩ rfl _).trans (A_eq7 _ c ⟨5, by decide⟩)).trans ?_
  unfold W18; simp only [atTc]
  rw [Function.update_of_ne (by decide)]
set_option maxHeartbeats 1000000 in
theorem hF7_w6 (c : Dev nD) : (pdats m 7 c).arrAt ⟨6, by decide⟩ cfg7.N = atTc c (W18 m c) (Pipeline.arrRef spec7 ⟨6, by decide⟩) := by
  rw [pdats_7]
  refine (((dat7 (fun c => atTc c (W17 m c)) c).arrAt_in ⟨6, by decide⟩ rfl _).trans (A_eq7 _ c ⟨6, by decide⟩)).trans ?_
  unfold W18; simp only [atTc]
  rw [Function.update_of_ne (by decide)]
set_option maxHeartbeats 1000000 in
theorem hF7_w7 (c : Dev nD) : (pdats m 7 c).arrAt ⟨7, by decide⟩ cfg7.N = atTc c (W18 m c) (Pipeline.arrRef spec7 ⟨7, by decide⟩) := by
  rw [pdats_7]
  refine (((dat7 (fun c => atTc c (W17 m c)) c).arrAt_in ⟨7, by decide⟩ rfl _).trans (A_eq7 _ c ⟨7, by decide⟩)).trans ?_
  unfold W18; simp only [atTc]
  rw [Function.update_of_ne (by decide)]
set_option maxHeartbeats 1000000 in
theorem hF7_w8 (c : Dev nD) : (pdats m 7 c).arrAt ⟨8, by decide⟩ cfg7.N = atTc c (W18 m c) (Pipeline.arrRef spec7 ⟨8, by decide⟩) := by
  rw [pdats_7]
  refine (((dat7 (fun c => atTc c (W17 m c)) c).arrAt_in ⟨8, by decide⟩ rfl _).trans (A_eq7 _ c ⟨8, by decide⟩)).trans ?_
  unfold W18; simp only [atTc]
  rw [Function.update_of_ne (by decide)]
set_option maxHeartbeats 1000000 in
theorem hF7_w9 (c : Dev nD) : (pdats m 7 c).arrAt ⟨9, by decide⟩ cfg7.N = atTc c (W18 m c) (Pipeline.arrRef spec7 ⟨9, by decide⟩) := by
  rw [pdats_7]
  refine (((dat7 (fun c => atTc c (W17 m c)) c).arrAt_in ⟨9, by decide⟩ rfl _).trans (A_eq7 _ c ⟨9, by decide⟩)).trans ?_
  unfold W18; simp only [atTc]
  rw [Function.update_of_ne (by decide)]
set_option maxHeartbeats 1000000 in
theorem hF7_w10 (c : Dev nD) : (pdats m 7 c).arrAt ⟨10, by decide⟩ cfg7.N = atTc c (W18 m c) (Pipeline.arrRef spec7 ⟨10, by decide⟩) := by
  rw [pdats_7]
  refine (((dat7 (fun c => atTc c (W17 m c)) c).arrAt_in ⟨10, by decide⟩ rfl _).trans (A_eq7 _ c ⟨10, by decide⟩)).trans ?_
  unfold W18; simp only [atTc]
  rw [Function.update_of_ne (by decide)]
set_option maxHeartbeats 1000000 in
theorem hF7_w11 (c : Dev nD) : (pdats m 7 c).arrAt ⟨11, by decide⟩ cfg7.N = atTc c (W18 m c) (Pipeline.arrRef spec7 ⟨11, by decide⟩) := by
  rw [pdats_7]
  unfold W18; simp only [atTc]
  rw [Function.update_self]
  first | done | rfl

set_option maxHeartbeats 1000000 in
theorem hF7 (c : Dev nD) : ∀ w : Fin cfg7.W, (pdats m 7 c).arrAt w cfg7.N = atTc c (W18 m c) (Pipeline.arrRef spec7 w)
  | ⟨0, _⟩ => hF7_w0 m c
  | ⟨1, _⟩ => hF7_w1 m c
  | ⟨2, _⟩ => hF7_w2 m c
  | ⟨3, _⟩ => hF7_w3 m c
  | ⟨4, _⟩ => hF7_w4 m c
  | ⟨5, _⟩ => hF7_w5 m c
  | ⟨6, _⟩ => hF7_w6 m c
  | ⟨7, _⟩ => hF7_w7 m c
  | ⟨8, _⟩ => hF7_w8 m c
  | ⟨9, _⟩ => hF7_w9 m c
  | ⟨10, _⟩ => hF7_w10 m c
  | ⟨11, _⟩ => hF7_w11 m c

/-- Every buffer that is no array of the pipeline is as at the entry. -/
theorem hrest7 (c : Dev nD) : ∀ b, b ∉ Finset.univ.image (Pipeline.arrRef spec7) → atTc c (W18 m c) b = atTc c (W17 m c) b := by
  intro b hb
  unfold W18; simp only [atTc]
  rw [Function.update_of_ne (fun h => hb (Finset.mem_image.mpr ⟨⟨11, by decide⟩, Finset.mem_univ _, (Proc.devRef_injective _ h).symm⟩))]

set_option backward.isDefEq.respectTransparency.types false in
noncomputable def reg7 : Pipeline.RegionSeg (pcfgs (F := F)) adm (pdats m) () defs₀ Variants.none L0 lv0 7 where
  win := launch7.win.to₀
  block_pos := launch7.block_pos
  stage_whole := launch7.stage_whole
  K := PEmpty
  osem k := k.elim
  ho := Pipeline.OwnSemFacts.none _
  hbody c := by rw [pdats_7]; exact (body_obligation7 (fun c => atTc c (W17 m c)) c).loose
  hwaits := Pipeline.hwaits_of_owed_zero _ _ _ _ L0 lv0 7 fun _ _ => rfl
  pre c := iprop(StableHlo.held (c : Thread nD τ) (Pipeline.ucRefs τ sig) (V17 m (outs m) c) ∗ Rst c)
  post c := iprop(StableHlo.held (c : Thread nD τ) (Pipeline.ucRefs τ sig) (V18 m (outs m) c) ∗ Rst c)
  X c := iprop(∃ r, prngReg c r)
  Y c := iprop(∃ r, prngReg c r)
  Z c := Pipeline.unscopedRest (Ix := Unit) (Name := ℕ) (U := UR sig nD τ) (Lvl := ℕ) spec7 c (atTc c (W17 m c))
  hentry c := by
    rw [Pipeline.ownSems0_none]
    have hsplit := Pipeline.arrays_of_unscopedBufs (p := 7) (pcfgs (F := F)) adm (pdats m) launch7.win launch7.arr_whole c
      ((pdats m 7 c).share_full fun _ => rfl) (atTc c (W17 m c)) fun _ => rfl
    rw [Pipeline.unscopedBufs_held] at hsplit
    rw [V17_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atTc c (W17 m c)) (atTc c (W18 m c)) ((pdats m 7 c).arrAt · cfg7.N) (hF7 m c) (hrest7 m c)
    rw [Pipeline.unscopedBufs_held] at hjoin
    rw [V18_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Frame.lean ====
/-
  The frame of the program of eight kernel regions: the generated conditional frame applied to the eight regions'
  segment records, the launch dealing every core its generator register and the empty debt.
-/
import proofs.«129379_j32899449487582_2_alg».proof.Proof.KI.FrameCondVal
import proofs.«129379_j32899449487582_2_alg».proof.Proof.KI.Reg0
import proofs.«129379_j32899449487582_2_alg».proof.Proof.KI.Reg1
import proofs.«129379_j32899449487582_2_alg».proof.Proof.KI.Reg2
import proofs.«129379_j32899449487582_2_alg».proof.Proof.KI.Reg3
import proofs.«129379_j32899449487582_2_alg».proof.Proof.KI.Reg4
import proofs.«129379_j32899449487582_2_alg».proof.Proof.KI.Reg5
import proofs.«129379_j32899449487582_2_alg».proof.Proof.KI.Reg6
import proofs.«129379_j32899449487582_2_alg».proof.Proof.KI.Reg7

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element is the pipeline library's own, with no ghost resource beside it. -/
theorem launch_elem : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals besides the buffers makes the first rest state on every core. -/
theorem launch_rest : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L0 lv0)
    ⊢ (|={Set.univ}=> bigSep Finset.univ (fun c : Dev nD => Rst (F := F) c) : sProp 𝕄) := by
  refine Pipeline.initEach L0 lv0 fun c => ?_
  iintro ⟨⟨-, HO, -, Hp, -⟩, -⟩
  imodintro
  isplitl [Hp]; · iexists _; iexact Hp
  iexists ∅; iexact HO

set_option backward.isDefEq.respectTransparency.types false in
/-- Every weakly fair execution of @main terminates without a fault and leaves each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m emb₁ () Variants.none L0 lv0 (fun _ _ => rfl) ρ (outs m) (pdats m) 0 (fun _ => iprop(emp))
    (initOf (Pipeline.cells cfgs cellOf_inj) (Pipeline.launchToks cfgs cellOf_inj)) launch_elem
    (fun _ c => Rst c) (launch_rest ρ) (fun c => by iintro ⟨-, HO⟩; iexact HO)
    (reg0 m) (fun c => .rfl) (fun c => .rfl)
    (reg1 m) (fun c => .rfl) (fun c => .rfl)
    (reg2 m) (fun c => .rfl) (fun c => .rfl)
    (reg3 m) (fun c => .rfl) (fun c => .rfl)
    (reg4 m) (fun c => .rfl) (fun c => .rfl)
    (reg5 m) (fun c => .rfl) (fun c => .rfl)
    (reg6 m) (fun c => .rfl) (fun c => .rfl)
    (reg7 m) (fun c => .rfl) (fun c => .rfl)

set_option backward.isDefEq.respectTransparency.types false in
/-- The same run, with the result buffer at the last boundary's contents. -/
theorem run_val : θ_run defs (onTc (τ := τ) (main (F := F))) ⟨m, fun _ => 0, ρ⟩ (fun r => ∀ c : Dev nD,
      r.2.mem ((c.tc : Thread nD τ).loc main_v244) = V21 m (outs m) c main_v244
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond_val m emb₁ () Variants.none L0 lv0 (fun _ _ => rfl) ρ (outs m) (pdats m) 0 (fun _ => iprop(emp))
    (initOf (Pipeline.cells cfgs cellOf_inj) (Pipeline.launchToks cfgs cellOf_inj)) launch_elem
    (fun _ c => Rst c) (launch_rest ρ) (fun c => by iintro ⟨-, HO⟩; iexact HO)
    (reg0 m) (fun c => .rfl) (fun c => .rfl)
    (reg1 m) (fun c => .rfl) (fun c => .rfl)
    (reg2 m) (fun c => .rfl) (fun c => .rfl)
    (reg3 m) (fun c => .rfl) (fun c => .rfl)
    (reg4 m) (fun c => .rfl) (fun c => .rfl)
    (reg5 m) (fun c => .rfl) (fun c => .rfl)
    (reg6 m) (fun c => .rfl) (fun c => .rfl)
    (reg7 m) (fun c => .rfl) (fun c => .rfl)

end Cert.KernelIdeal.Gen

end
-- ==== Proof.RI.RunDefs.lean ====
/-
  The reference network as a pure function of its eleven argument arrays, stage by stage.

  The reference is a four-layer message-passing network over a graph of 100000 nodes and 1600000 edges:
  a0 the nodes' table indices, a1 / a2 the edges' source / destination nodes, a3 the nodes' graphs (128 of
  them), a4 the embedding table (257 × 128), a5 / a6 the layers' two weight matrices (4 × 128 × 128), a7 the
  biases, a8 / a9 the normalisations' scale and shift, a10 the rectifiers' slopes (each 4 × 128).
  `emb0` gathers the embedding, `deg` counts in-degrees; a layer takes the previous node features `h` to
  `norm x (mu x) (var x) g bt` at `x = rst (lin h (agg h a1 a2 dg) ws wn b) s`: the mean over incoming edges
  (`agg`), an affine map of `h` and that mean (`lin`), a parametric rectifier (`rst`), and a normalisation of
  every column by its mean and variance over the nodes (`mu`, `var`, `norm`); `pooled` sets the four layers'
  outputs side by side and averages them per graph. Each definition is the composition of the pure operations
  of the program's lines that compute it, in the program's own terms; the four layers share `agg`, `lin`,
  `rst`, `mu`, `var`, `norm` and differ in the row of the stacked parameters they read (`mat_l`, `row_l`).
-/
import proofs.«129379_j32899449487582_2_alg».proof.Proof.Gen.ReferenceIdeal

set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The gathered embedding: row `a0 n` of the table `a4` for every node `n` (a negative index wrapped by the table's 257 rows first). -/
def emb0 (a0 : (⟨S100000, .i32⟩ : BufTy).Contents (Elt F)) (a4 : (⟨S257x128, .f32⟩ : BufTy).Contents (Elt F)) : (⟨S100000x128, .f32⟩ : BufTy).Contents (Elt F) :=
  Host.gather gather_S257x128_S100000x1_S100000x128_1_0_n_n_0_1_1128 a4 (broadcastInDim S100000x1 ![0] bcast_S100000_S100000x1_0 (select (cmpi .slt a0 (broadcastInDim S100000 ![] bcast_S_S100000 (constantI S_ 32 0#32))) (addi a0 (broadcastInDim S100000 ![] bcast_S_S100000 (constantI S_ 32 257#32))) a0))

/-- Every node's in-degree: one added at `a2 e` for every edge `e` (a scatter-add over zeros), then clipped below at one. -/
def deg (a2 : (⟨S1600000, .i32⟩ : BufTy).Contents (Elt F)) : (⟨S100000, .f32⟩ : BufTy).Contents (Elt F) :=
  maximumf (broadcastInDim S100000 ![] bcast_S_S100000 (id (constant S_ .f32 0x3F800000#32))) (Host.scatterAdd scatter_S100000_S1600000x1_S1600000_n_0_0_1 (broadcastInDim S100000 ![] bcast_S_S100000 (constant S_ .f32 0x00000000#32)) (broadcastInDim S1600000x1 ![0] bcast_S1600000_S1600000x1_0 a2) (broadcastInDim S1600000 ![] bcast_S_S1600000 (constant S_ .f32 0x3F800000#32)))

/-- The mean over incoming edges: the rows `h (a1 e)` (a negative index wrapped by the 100000 nodes) scatter-added at `a2 e` over zeros, each node's sum divided by its degree `dg`. -/
def agg (h : (⟨S100000x128, .f32⟩ : BufTy).Contents (Elt F)) (a1 : (⟨S1600000, .i32⟩ : BufTy).Contents (Elt F)) (a2 : (⟨S1600000, .i32⟩ : BufTy).Contents (Elt F)) (dg : (⟨S100000, .f32⟩ : BufTy).Contents (Elt F)) : (⟨S100000x128, .f32⟩ : BufTy).Contents (Elt F) :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 a2) (Host.gather gather_S100000x128_S1600000x1_S1600000x128_1_0_n_n_0_1_1128 h (broadcastInDim S1600000x1 ![0] bcast_S1600000_S1600000x1_0 (select (cmpi .slt a1 (broadcastInDim S1600000 ![] bcast_S_S1600000 (constantI S_ 32 0#32))) (addi a1 (broadcastInDim S1600000 ![] bcast_S_S1600000 (constantI S_ 32 100000#32))) a1)))) (broadcastInDim S100000x128 ![0, 1] bcast_S100000x1_S100000x128_0_1 (broadcastInDim S100000x1 ![0] bcast_S100000_S100000x1_0 dg))

/-- The layer's affine map: `h · ws + ag · wn + b`, the bias `b` broadcast over the nodes. -/
def lin (h : (⟨S100000x128, .f32⟩ : BufTy).Contents (Elt F)) (ag : (⟨S100000x128, .f32⟩ : BufTy).Contents (Elt F)) (ws : (⟨S128x128, .f32⟩ : BufTy).Contents (Elt F)) (wn : (⟨S128x128, .f32⟩ : BufTy).Contents (Elt F)) (b : (⟨S128, .f32⟩ : BufTy).Contents (Elt F)) : (⟨S100000x128, .f32⟩ : BufTy).Contents (Elt F) :=
  addf (addf (Host.dotGeneral dot_S100000x128_S128x128_S100000x128_1_0_0_1_n_n none h ws) (Host.dotGeneral dot_S100000x128_S128x128_S100000x128_1_0_0_1_n_n none ag wn)) (broadcastInDim S100000x128 ![0, 1] bcast_S1x128_S100000x128_0_1 (broadcastInDim S1x128 ![1] bcast_S128_S1x128_1 b))

/-- The parametric rectifier: `x` where it is positive, the slope `s` (per column) times `x` elsewhere. -/
def rst (x : (⟨S100000x128, .f32⟩ : BufTy).Contents (Elt F)) (s : (⟨S128, .f32⟩ : BufTy).Contents (Elt F)) : (⟨S100000x128, .f32⟩ : BufTy).Contents (Elt F) :=
  select (cmpf .ogt x (broadcastInDim S100000x128 ![] bcast_S_S100000x128 (constant S_ .f32 0x00000000#32))) x (mulf (broadcastInDim S100000x128 ![0, 1] bcast_S1x128_S100000x128_0_1 (broadcastInDim S1x128 ![1] bcast_S128_S1x128_1 s)) x)

/-- The column means over the 100000 nodes: the column sums divided by 1e5. -/
def mu (x : (⟨S100000x128, .f32⟩ : BufTy).Contents (Elt F)) : (⟨S128, .f32⟩ : BufTy).Contents (Elt F) :=
  Host.divf (Host.reduceAdd x (constant S_ .f32 0x00000000#32) reducesTo_S100000x128_S128_d0 h_S_) (broadcastInDim S128 ![] bcast_S_S128 (constant S_ .f32 0x47C35000#32))

/-- `x` minus its column means (the means computed as the variance computes them: the sums broadcast to one row, then divided by 1e5). -/
def varCentered (x : (⟨S100000x128, .f32⟩ : BufTy).Contents (Elt F)) : (⟨S100000x128, .f32⟩ : BufTy).Contents (Elt F) :=
  subf x (broadcastInDim S100000x128 ![0, 1] bcast_S1x128_S100000x128_0_1 (Host.divf (broadcastInDim S1x128 ![1] bcast_S128_S1x128_1 (Host.reduceAdd x (constant S_ .f32 0x00000000#32) reducesTo_S100000x128_S128_d0 h_S_)) (broadcastInDim S1x128 ![] bcast_S_S1x128 (constant S_ .f32 0x47C35000#32))))

/-- The variance's divisor: 1e5 minus the correction 0. -/
def varDof : (⟨S_, .f32⟩ : BufTy).Contents (Elt F) :=
  subf (constant S_ .f32 0x47C35000#32) (sitofp .f32 (constantI S_ 32 0#32))

/-- The column variances: the column sums of the squared centred entries over the divisor `varDof` (not-a-number were the divisor not positive). -/
def var (x : (⟨S100000x128, .f32⟩ : BufTy).Contents (Elt F)) : (⟨S128, .f32⟩ : BufTy).Contents (Elt F) :=
  select (broadcastInDim S128 ![] bcast_S_S128 (cmpf .ogt (varDof (F := F)) (constant S_ .f32 0x00000000#32))) (Host.divf (Host.reduceAdd (mulf (varCentered x) (varCentered x)) (constant S_ .f32 0x00000000#32) reducesTo_S100000x128_S128_d0 h_S_) (broadcastInDim S128 ![] bcast_S_S128 (varDof (F := F)))) (broadcastInDim S128 ![] bcast_S_S128 (id (constant S_ .f32 0x7FC00000#32)))

/-- The normalisation: `(x - m) * rsqrt (v + 1e-5) * g + bt`, the four rows broadcast over the nodes. -/
def norm (x : (⟨S100000x128, .f32⟩ : BufTy).Contents (Elt F)) (m : (⟨S128, .f32⟩ : BufTy).Contents (Elt F)) (v : (⟨S128, .f32⟩ : BufTy).Contents (Elt F)) (g : (⟨S128, .f32⟩ : BufTy).Contents (Elt F)) (bt : (⟨S128, .f32⟩ : BufTy).Contents (Elt F)) : (⟨S100000x128, .f32⟩ : BufTy).Contents (Elt F) :=
  addf (mulf (mulf (subf x (broadcastInDim S100000x128 ![0, 1] bcast_S1x128_S100000x128_0_1 (broadcastInDim S1x128 ![1] bcast_S128_S1x128_1 m))) (broadcastInDim S100000x128 ![0, 1] bcast_S1x128_S100000x128_0_1 (broadcastInDim S1x128 ![1] bcast_S128_S1x128_1 (Host.rsqrt (addf v (broadcastInDim S128 ![] bcast_S_S128 (constant S_ .f32 0x3727C5AC#32))))))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 bt))

/-- The normalisation of `x` by its own column means and variances. -/
def normed (x : (⟨S100000x128, .f32⟩ : BufTy).Contents (Elt F)) (g bt : (⟨S128, .f32⟩ : BufTy).Contents (Elt F)) : (⟨S100000x128, .f32⟩ : BufTy).Contents (Elt F) :=
  norm x (mu x) (var x) g bt

/-- One layer, over its parameters: from the node features `h`, the edges `a1` → `a2` and the degrees `dg`. -/
def layer (h : (⟨S100000x128, .f32⟩ : BufTy).Contents (Elt F)) (a1 a2 : (⟨S1600000, .i32⟩ : BufTy).Contents (Elt F)) (dg : (⟨S100000, .f32⟩ : BufTy).Contents (Elt F))
    (ws wn : (⟨S128x128, .f32⟩ : BufTy).Contents (Elt F)) (b g bt s : (⟨S128, .f32⟩ : BufTy).Contents (Elt F)) : (⟨S100000x128, .f32⟩ : BufTy).Contents (Elt F) :=
  normed (rst (lin h (agg h a1 a2 dg) ws wn b) s) g bt

/-- Layer 0's 128×128 matrix out of a stack of four. -/
def mat_0 (w : (⟨S4x128x128, .f32⟩ : BufTy).Contents (Elt F)) : (⟨S128x128, .f32⟩ : BufTy).Contents (Elt F) :=
  shapeCast S128x128 (extractStridedSlice S1x128x128 ![0, 0, 0] w slices_S4x128x128_S1x128x128_0_0_0) shapeCasts_S1x128x128_S128x128

/-- Layer 0's row of 128 out of a stack of four. -/
def row_0 (r : (⟨S4x128, .f32⟩ : BufTy).Contents (Elt F)) : (⟨S128, .f32⟩ : BufTy).Contents (Elt F) :=
  shapeCast S128 (extractStridedSlice S1x128 ![0, 0] r slices_S4x128_S1x128_0_0) shapeCasts_S1x128_S128

/-- Layer 0: `layer` at row 0 of the stacked parameters. -/
def layer_0 (h : (⟨S100000x128, .f32⟩ : BufTy).Contents (Elt F)) (a1 a2 : (⟨S1600000, .i32⟩ : BufTy).Contents (Elt F)) (a5 a6 : (⟨S4x128x128, .f32⟩ : BufTy).Contents (Elt F))
    (a7 a8 a9 a10 : (⟨S4x128, .f32⟩ : BufTy).Contents (Elt F)) (dg : (⟨S100000, .f32⟩ : BufTy).Contents (Elt F)) : (⟨S100000x128, .f32⟩ : BufTy).Contents (Elt F) :=
  layer h a1 a2 dg (mat_0 a5) (mat_0 a6) (row_0 a7) (row_0 a8) (row_0 a9) (row_0 a10)

/-- Layer 1's 128×128 matrix out of a stack of four. -/
def mat_1 (w : (⟨S4x128x128, .f32⟩ : BufTy).Contents (Elt F)) : (⟨S128x128, .f32⟩ : BufTy).Contents (Elt F) :=
  shapeCast S128x128 (extractStridedSlice S1x128x128 ![1, 0, 0] w slices_S4x128x128_S1x128x128_1_0_0) shapeCasts_S1x128x128_S128x128

/-- Layer 1's row of 128 out of a stack of four. -/
def row_1 (r : (⟨S4x128, .f32⟩ : BufTy).Contents (Elt F)) : (⟨S128, .f32⟩ : BufTy).Contents (Elt F) :=
  shapeCast S128 (extractStridedSlice S1x128 ![1, 0] r slices_S4x128_S1x128_1_0) shapeCasts_S1x128_S128

/-- Layer 1: `layer` at row 1 of the stacked parameters. -/
def layer_1 (h : (⟨S100000x128, .f32⟩ : BufTy).Contents (Elt F)) (a1 a2 : (⟨S1600000, .i32⟩ : BufTy).Contents (Elt F)) (a5 a6 : (⟨S4x128x128, .f32⟩ : BufTy).Contents (Elt F))
    (a7 a8 a9 a10 : (⟨S4x128, .f32⟩ : BufTy).Contents (Elt F)) (dg : (⟨S100000, .f32⟩ : BufTy).Contents (Elt F)) : (⟨S100000x128, .f32⟩ : BufTy).Contents (Elt F) :=
  layer h a1 a2 dg (mat_1 a5) (mat_1 a6) (row_1 a7) (row_1 a8) (row_1 a9) (row_1 a10)

/-- Layer 2's 128×128 matrix out of a stack of four. -/
def mat_2 (w : (⟨S4x128x128, .f32⟩ : BufTy).Contents (Elt F)) : (⟨S128x128, .f32⟩ : BufTy).Contents (Elt F) :=
  shapeCast S128x128 (extractStridedSlice S1x128x128 ![2, 0, 0] w slices_S4x128x128_S1x128x128_2_0_0) shapeCasts_S1x128x128_S128x128

/-- Layer 2's row of 128 out of a stack of four. -/
def row_2 (r : (⟨S4x128, .f32⟩ : BufTy).Contents (Elt F)) : (⟨S128, .f32⟩ : BufTy).Contents (Elt F) :=
  shapeCast S128 (extractStridedSlice S1x128 ![2, 0] r slices_S4x128_S1x128_2_0) shapeCasts_S1x128_S128

/-- Layer 2: `layer` at row 2 of the stacked parameters. -/
def layer_2 (h : (⟨S100000x128, .f32⟩ : BufTy).Contents (Elt F)) (a1 a2 : (⟨S1600000, .i32⟩ : BufTy).Contents (Elt F)) (a5 a6 : (⟨S4x128x128, .f32⟩ : BufTy).Contents (Elt F))
    (a7 a8 a9 a10 : (⟨S4x128, .f32⟩ : BufTy).Contents (Elt F)) (dg : (⟨S100000, .f32⟩ : BufTy).Contents (Elt F)) : (⟨S100000x128, .f32⟩ : BufTy).Contents (Elt F) :=
  layer h a1 a2 dg (mat_2 a5) (mat_2 a6) (row_2 a7) (row_2 a8) (row_2 a9) (row_2 a10)

/-- Layer 3's 128×128 matrix out of a stack of four. -/
def mat_3 (w : (⟨S4x128x128, .f32⟩ : BufTy).Contents (Elt F)) : (⟨S128x128, .f32⟩ : BufTy).Contents (Elt F) :=
  shapeCast S128x128 (extractStridedSlice S1x128x128 ![3, 0, 0] w slices_S4x128x128_S1x128x128_3_0_0) shapeCasts_S1x128x128_S128x128

/-- Layer 3's row of 128 out of a stack of four. -/
def row_3 (r : (⟨S4x128, .f32⟩ : BufTy).Contents (Elt F)) : (⟨S128, .f32⟩ : BufTy).Contents (Elt F) :=
  shapeCast S128 (extractStridedSlice S1x128 ![3, 0] r slices_S4x128_S1x128_3_0) shapeCasts_S1x128_S128

/-- Layer 3: `layer` at row 3 of the stacked parameters. -/
def layer_3 (h : (⟨S100000x128, .f32⟩ : BufTy).Contents (Elt F)) (a1 a2 : (⟨S1600000, .i32⟩ : BufTy).Contents (Elt F)) (a5 a6 : (⟨S4x128x128, .f32⟩ : BufTy).Contents (Elt F))
    (a7 a8 a9 a10 : (⟨S4x128, .f32⟩ : BufTy).Contents (Elt F)) (dg : (⟨S100000, .f32⟩ : BufTy).Contents (Elt F)) : (⟨S100000x128, .f32⟩ : BufTy).Contents (Elt F) :=
  layer h a1 a2 dg (mat_3 a5) (mat_3 a6) (row_3 a7) (row_3 a8) (row_3 a9) (row_3 a10)

/-- Every graph's node count: one added at `a3 n` for every node `n` over zeros, clipped below at one. -/
def graphCount (a3 : (⟨S100000, .i32⟩ : BufTy).Contents (Elt F)) : (⟨S128, .f32⟩ : BufTy).Contents (Elt F) :=
  maximumf (broadcastInDim S128 ![] bcast_S_S128 (id (constant S_ .f32 0x3F800000#32))) (Host.scatterAdd scatter_S128_S100000x1_S100000_n_0_0_1 (broadcastInDim S128 ![] bcast_S_S128 (constant S_ .f32 0x00000000#32)) (broadcastInDim S100000x1 ![0] bcast_S100000_S100000x1_0 a3) (broadcastInDim S100000 ![] bcast_S_S100000 (constant S_ .f32 0x3F800000#32)))

/-- The result: the four layers' outputs side by side (512 columns), every node's row scatter-added at its graph `a3 n` over zeros, each graph's sum divided by its node count. -/
def pooled (h1 : (⟨S100000x128, .f32⟩ : BufTy).Contents (Elt F)) (h2 : (⟨S100000x128, .f32⟩ : BufTy).Contents (Elt F)) (h3 : (⟨S100000x128, .f32⟩ : BufTy).Contents (Elt F)) (h4 : (⟨S100000x128, .f32⟩ : BufTy).Contents (Elt F)) (a3 : (⟨S100000, .i32⟩ : BufTy).Contents (Elt F)) : (⟨S128x512, .f32⟩ : BufTy).Contents (Elt F) :=
  Host.divf (Host.scatterAdd scatter_S128x512_S100000x1_S100000x512_1_0_0_1 (broadcastInDim S128x512 ![] bcast_S_S128x512 (constant S_ .f32 0x00000000#32)) (broadcastInDim S100000x1 ![0] bcast_S100000_S100000x1_0 a3) (concatenate S100000x512 1 [⟨S100000x128, h1⟩, ⟨S100000x128, h2⟩, ⟨S100000x128, h3⟩, ⟨S100000x128, h4⟩] concatenates_S100000x128_S100000x128_S100000x128_S100000x128_S100000x512_d1)) (broadcastInDim S128x512 ![0, 1] bcast_S128x1_S128x512_0_1 (broadcastInDim S128x1 ![0] bcast_S128_S128x1_0 (graphCount a3)))

/-- The node features after layer 0. -/
def hid1 (a0 : (⟨S100000, .i32⟩ : BufTy).Contents (Elt F)) (a1 a2 : (⟨S1600000, .i32⟩ : BufTy).Contents (Elt F)) (a4 : (⟨S257x128, .f32⟩ : BufTy).Contents (Elt F)) (a5 a6 : (⟨S4x128x128, .f32⟩ : BufTy).Contents (Elt F)) (a7 a8 a9 a10 : (⟨S4x128, .f32⟩ : BufTy).Contents (Elt F)) : (⟨S100000x128, .f32⟩ : BufTy).Contents (Elt F) :=
  layer_0 (emb0 a0 a4) a1 a2 a5 a6 a7 a8 a9 a10 (deg a2)

/-- The node features after layer 1. -/
def hid2 (a0 : (⟨S100000, .i32⟩ : BufTy).Contents (Elt F)) (a1 a2 : (⟨S1600000, .i32⟩ : BufTy).Contents (Elt F)) (a4 : (⟨S257x128, .f32⟩ : BufTy).Contents (Elt F)) (a5 a6 : (⟨S4x128x128, .f32⟩ : BufTy).Contents (Elt F)) (a7 a8 a9 a10 : (⟨S4x128, .f32⟩ : BufTy).Contents (Elt F)) : (⟨S100000x128, .f32⟩ : BufTy).Contents (Elt F) :=
  layer_1 (hid1 a0 a1 a2 a4 a5 a6 a7 a8 a9 a10) a1 a2 a5 a6 a7 a8 a9 a10 (deg a2)

/-- The node features after layer 2. -/
def hid3 (a0 : (⟨S100000, .i32⟩ : BufTy).Contents (Elt F)) (a1 a2 : (⟨S1600000, .i32⟩ : BufTy).Contents (Elt F)) (a4 : (⟨S257x128, .f32⟩ : BufTy).Contents (Elt F)) (a5 a6 : (⟨S4x128x128, .f32⟩ : BufTy).Contents (Elt F)) (a7 a8 a9 a10 : (⟨S4x128, .f32⟩ : BufTy).Contents (Elt F)) : (⟨S100000x128, .f32⟩ : BufTy).Contents (Elt F) :=
  layer_2 (hid2 a0 a1 a2 a4 a5 a6 a7 a8 a9 a10) a1 a2 a5 a6 a7 a8 a9 a10 (deg a2)

/-- The node features after layer 3. -/
def hid4 (a0 : (⟨S100000, .i32⟩ : BufTy).Contents (Elt F)) (a1 a2 : (⟨S1600000, .i32⟩ : BufTy).Contents (Elt F)) (a4 : (⟨S257x128, .f32⟩ : BufTy).Contents (Elt F)) (a5 a6 : (⟨S4x128x128, .f32⟩ : BufTy).Contents (Elt F)) (a7 a8 a9 a10 : (⟨S4x128, .f32⟩ : BufTy).Contents (Elt F)) : (⟨S100000x128, .f32⟩ : BufTy).Contents (Elt F) :=
  layer_3 (hid3 a0 a1 a2 a4 a5 a6 a7 a8 a9 a10) a1 a2 a5 a6 a7 a8 a9 a10 (deg a2)

/-- The reference's result as a function of its eleven arguments. -/
def out (a0 : (⟨S100000, .i32⟩ : BufTy).Contents (Elt F)) (a1 a2 : (⟨S1600000, .i32⟩ : BufTy).Contents (Elt F)) (a3 : (⟨S100000, .i32⟩ : BufTy).Contents (Elt F)) (a4 : (⟨S257x128, .f32⟩ : BufTy).Contents (Elt F)) (a5 a6 : (⟨S4x128x128, .f32⟩ : BufTy).Contents (Elt F))
    (a7 a8 a9 a10 : (⟨S4x128, .f32⟩ : BufTy).Contents (Elt F)) : (⟨S128x512, .f32⟩ : BufTy).Contents (Elt F) :=
  pooled (hid1 a0 a1 a2 a4 a5 a6 a7 a8 a9 a10) (hid2 a0 a1 a2 a4 a5 a6 a7 a8 a9 a10) (hid3 a0 a1 a2 a4 a5 a6 a7 a8 a9 a10) (hid4 a0 a1 a2 a4 a5 a6 a7 a8 a9 a10) a3

end Cert.ReferenceIdeal.Run

end
-- ==== Proof.RI.RunPre.lean ====
/-
  The reference's lines for the embedding and the in-degrees, as lists of host operations in program order (a function's lines
  listed at its call, over the call's buffers), and what each list leaves in the buffers later lines read: the
  stage's function (RunDefs.lean) of the contents it started from. Every other buffer keeps its contents.
-/
import proofs.«129379_j32899449487582_2_alg».proof.Proof.RI.RunDefs
import Idealize.ShloMosaic.Lib.StableHlo.Run

set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is in the list's. -/
local macro "written_in_list" : tactic =>
  `(tactic| (simp only [nullary_writes, unary_writes, binary_writes, ternary_writes, quaternary_writes, reshape_writes, binaryIndexed_writes, nary_writes, unaryIndexed_writes, Finset.singleton_subset_iff, List.mem_toFinset]; exact List.mem_map_of_mem (by decide)))

/-- The embedding gather: lines %c … %6. -/
def embC : List (HloOp τ sig (Elt F)) :=
  [
    StableHlo.nullary main_c (constantI S_ 32 0#32),
    StableHlo.unary main_c main_v0 (broadcastInDim S100000 ![] bcast_S_S100000 : (⟨S_, .i32⟩ : BufTy).Contents (Elt F) → (⟨S100000, .i32⟩ : BufTy).Contents (Elt F)),
    StableHlo.binary main_arg0 main_v0 main_v1 (cmpi .slt : (⟨S100000, .i32⟩ : BufTy).Contents (Elt F) → (⟨S100000, .i32⟩ : BufTy).Contents (Elt F) → (⟨S100000, .i1⟩ : BufTy).Contents (Elt F)),
    StableHlo.nullary main_c_0 (constantI S_ 32 257#32),
    StableHlo.unary main_c_0 main_v2 (broadcastInDim S100000 ![] bcast_S_S100000 : (⟨S_, .i32⟩ : BufTy).Contents (Elt F) → (⟨S100000, .i32⟩ : BufTy).Contents (Elt F)),
    StableHlo.binary main_arg0 main_v2 main_v3 (addi : (⟨S100000, .i32⟩ : BufTy).Contents (Elt F) → (⟨S100000, .i32⟩ : BufTy).Contents (Elt F) → (⟨S100000, .i32⟩ : BufTy).Contents (Elt F)),
    StableHlo.ternary main_v1 main_v3 main_arg0 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v4 main_v5 (broadcastInDim S100000x1 ![0] bcast_S100000_S100000x1_0 : (⟨S100000, .i32⟩ : BufTy).Contents (Elt F) → (⟨S100000x1, .i32⟩ : BufTy).Contents (Elt F)),
    StableHlo.binary main_arg4 main_v5 main_v6 ((fun x i => Host.gather gather_S257x128_S100000x1_S100000x128_1_0_n_n_0_1_1128 x i) : (⟨S257x128, .f32⟩ : BufTy).Contents (Elt F) → (⟨S100000x1, .i32⟩ : BufTy).Contents (Elt F) → (⟨S100000x128, .f32⟩ : BufTy).Contents (Elt F)) ]

theorem embC_sub : (embC : List (HloOp τ sig (Elt F))).Forall fun op => op.bufs ⊆ tcRefs τ sig := by
  unfold embC
  exact ⟨nullary_bufs_sub .., unary_bufs_sub .., binary_bufs_sub .., nullary_bufs_sub .., unary_bufs_sub .., binary_bufs_sub .., ternary_bufs_sub .., unary_bufs_sub .., binary_bufs_sub ..⟩

theorem embC_fresh : (embC : List (HloOp τ sig (Elt F))).Forall fun op => op.fresh = ∅ := by
  unfold embC
  exact ⟨rfl, rfl, rfl, rfl, rfl, rfl, rfl, rfl, rfl⟩

/-- The buffers `embC` writes. -/
abbrev embC_W : List (Ref sig .tc) := [main_c, main_v0, main_v1, main_c_0, main_v2, main_v3, main_v4, main_v5, main_v6]

theorem embC_writes : (embC : List (HloOp τ sig (Elt F))).Forall fun op => op.writes ⊆ (embC_W.map (Proc.devRef (τ := τ) .tc)).toFinset := by
  unfold embC
  simp only [List.Forall]
  exact ⟨(by written_in_list), (by written_in_list), (by written_in_list), (by written_in_list), (by written_in_list), (by written_in_list), (by written_in_list), (by written_in_list), (by written_in_list)⟩

/-- A buffer `embC` does not write keeps its contents through it. -/
theorem embC_keep (W : Valuation τ sig (Elt F)) (r : Ref sig .tc) (h : r ∉ embC_W) :
    after embC W (Proc.devRef .tc r) = W (Proc.devRef .tc r) :=
  after_of_writes_sub embC _ embC_writes h

set_option maxHeartbeats 1000000 in
/-- What `emb0` says of `main_v6` after `embC`, from any contents `W`. -/
theorem embC_main_v6 (W : Valuation τ sig (Elt F)) :
    after embC W (Proc.devRef .tc main_v6)
      = emb0 (W (Proc.devRef .tc main_arg0)) (W (Proc.devRef .tc main_arg4)) := by
  unfold embC
  after_results_simp
  all_goals rfl

/-- The in-degrees: lines %cst … %11 (the clip's three lines at its call). -/
def degC : List (HloOp τ sig (Elt F)) :=
  [
    StableHlo.nullary main_cst (constant S_ .f32 0x3F800000#32),
    StableHlo.unary main_cst main_v7 (broadcastInDim S1600000 ![] bcast_S_S1600000 : (⟨S_, .f32⟩ : BufTy).Contents (Elt F) → (⟨S1600000, .f32⟩ : BufTy).Contents (Elt F)),
    StableHlo.nullary main_cst_1 (constant S_ .f32 0x00000000#32),
    StableHlo.unary main_cst_1 main_v8 (broadcastInDim S100000 ![] bcast_S_S100000 : (⟨S_, .f32⟩ : BufTy).Contents (Elt F) → (⟨S100000, .f32⟩ : BufTy).Contents (Elt F)),
    StableHlo.unary main_arg2 main_v9 (broadcastInDim S1600000x1 ![0] bcast_S1600000_S1600000x1_0 : (⟨S1600000, .i32⟩ : BufTy).Contents (Elt F) → (⟨S1600000x1, .i32⟩ : BufTy).Contents (Elt F)),
    StableHlo.ternary main_v8 main_v9 main_v7 main_v10 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.TRef.unary (.of main_cst_2) main_call0.v0 id,
    StableHlo.TRef.unary main_call0.v0 main_call0.v1 (broadcastInDim S100000 ![] bcast_S_S100000),
    StableHlo.TRef.binary main_call0.v1 (.of main_v10) main_call0.v2 maximumf ]

theorem degC_sub : (degC : List (HloOp τ sig (Elt F))).Forall fun op => op.bufs ⊆ tcRefs τ sig := by
  unfold degC
  exact ⟨nullary_bufs_sub .., unary_bufs_sub .., nullary_bufs_sub .., unary_bufs_sub .., unary_bufs_sub .., ternary_bufs_sub .., nullary_bufs_sub .., unary_bufs_sub .., unary_bufs_sub .., binary_bufs_sub ..⟩

theorem degC_fresh : (degC : List (HloOp τ sig (Elt F))).Forall fun op => op.fresh = ∅ := by
  unfold degC
  exact ⟨rfl, rfl, rfl, rfl, rfl, rfl, rfl, rfl, rfl, rfl⟩

/-- The buffers `degC` writes. -/
abbrev degC_W : List (Ref sig .tc) := [main_cst, main_v7, main_cst_1, main_v8, main_v9, main_v10, main_cst_2, main_call0_v0, main_call0_v1, main_v11]

theorem degC_writes : (degC : List (HloOp τ sig (Elt F))).Forall fun op => op.writes ⊆ (degC_W.map (Proc.devRef (τ := τ) .tc)).toFinset := by
  unfold degC
  simp only [List.Forall]
  exact ⟨(by written_in_list), (by written_in_list), (by written_in_list), (by written_in_list), (by written_in_list), (by written_in_list), (by written_in_list), (by written_in_list), (by written_in_list), (by written_in_list)⟩

/-- A buffer `degC` does not write keeps its contents through it. -/
theorem degC_keep (W : Valuation τ sig (Elt F)) (r : Ref sig .tc) (h : r ∉ degC_W) :
    after degC W (Proc.devRef .tc r) = W (Proc.devRef .tc r) :=
  after_of_writes_sub degC _ degC_writes h

set_option maxHeartbeats 1000000 in
/-- What `deg` says of `main_v11` after `degC`, from any contents `W`. -/
theorem degC_main_v11 (W : Valuation τ sig (Elt F)) :
    after degC W (Proc.devRef .tc main_v11)
      = deg (W (Proc.devRef .tc main_arg2)) := by
  unfold degC
  after_results_simp
  all_goals rfl

end Cert.ReferenceIdeal.Run

end
-- ==== Proof.RI.RunL0.lean ====
/-
  The reference's lines for layer 0, as lists of host operations in program order (a function's lines
  listed at its call, over the call's buffers), and what each list leaves in the buffers later lines read: the
  stage's function (RunDefs.lean) of the contents it started from. Every other buffer keeps its contents.
-/
import proofs.«129379_j32899449487582_2_alg».proof.Proof.RI.RunDefs
import Idealize.ShloMosaic.Lib.StableHlo.Run

set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is in the list's. -/
local macro "written_in_list" : tactic =>
  `(tactic| (simp only [nullary_writes, unary_writes, binary_writes, ternary_writes, quaternary_writes, reshape_writes, binaryIndexed_writes, nary_writes, unaryIndexed_writes, Finset.singleton_subset_iff, List.mem_toFinset]; exact List.mem_map_of_mem (by decide)))

/-- Layer 0, the mean over incoming edges (the gather at the sources, the scatter-add at the destinations, the division by the degrees): operations 20 … 35 of 377. -/
def agg0C : List (HloOp τ sig (Elt F)) :=
  [
    StableHlo.nullary main_c_3 (constantI S_ 32 0#32),
    StableHlo.unary main_c_3 main_v12 (broadcastInDim S1600000 ![] bcast_S_S1600000 : (⟨S_, .i32⟩ : BufTy).Contents (Elt F) → (⟨S1600000, .i32⟩ : BufTy).Contents (Elt F)),
    StableHlo.binary main_arg1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v14 (broadcastInDim S1600000 ![] bcast_S_S1600000 : (⟨S_, .i32⟩ : BufTy).Contents (Elt F) → (⟨S1600000, .i32⟩ : BufTy).Contents (Elt F)),
    StableHlo.binary main_arg1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_arg1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v6 main_v17 main_v18 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_5 (constant S_ .f32 0x00000000#32),
    StableHlo.unary main_cst_5 main_v19 (broadcastInDim S100000x128 ![] bcast_S_S100000x128 : (⟨S_, .f32⟩ : BufTy).Contents (Elt F) → (⟨S100000x128, .f32⟩ : BufTy).Contents (Elt F)),
    StableHlo.unary main_arg2 main_v20 (broadcastInDim S1600000x1 ![0] bcast_S1600000_S1600000x1_0 : (⟨S1600000, .i32⟩ : BufTy).Contents (Elt F) → (⟨S1600000x1, .i32⟩ : BufTy).Contents (Elt F)),
    StableHlo.ternary main_v19 main_v20 main_v18 main_v21 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v11 main_v22 (broadcastInDim S100000x1 ![0] bcast_S100000_S100000x1_0 : (⟨S100000, .f32⟩ : BufTy).Contents (Elt F) → (⟨S100000x1, .f32⟩ : BufTy).Contents (Elt F)),
    StableHlo.unary main_v22 main_v23 (broadcastInDim S100000x128 ![0, 1] bcast_S100000x1_S100000x128_0_1 : (⟨S100000x1, .f32⟩ : BufTy).Contents (Elt F) → (⟨S100000x128, .f32⟩ : BufTy).Contents (Elt F)),
    StableHlo.binary main_v21 main_v23 main_v24 (Host.divf : (⟨S100000x128, .f32⟩ : BufTy).Contents (Elt F) → (⟨S100000x128, .f32⟩ : BufTy).Contents (Elt F) → (⟨S100000x128, .f32⟩ : BufTy).Contents (Elt F)) ]

theorem agg0C_sub : (agg0C : List (HloOp τ sig (Elt F))).Forall fun op => op.bufs ⊆ tcRefs τ sig := by
  unfold agg0C
  exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩

theorem agg0C_fresh : (agg0C : List (HloOp τ sig (Elt F))).Forall fun op => op.fresh = ∅ := by
  unfold agg0C
  exact ⟨rfl, rfl, rfl, rfl, rfl, rfl, rfl, rfl, rfl, rfl, rfl, rfl, rfl, rfl, rfl, rfl⟩

/-- The buffers `agg0C` writes. -/
abbrev agg0C_W : List (Ref sig .tc) := [main_c_3, main_v12, main_v13, main_c_4, main_v14, main_v15, main_v16, main_v17, main_v18, main_cst_5, main_v19, main_v20, main_v21, main_v22, main_v23, main_v24]

theorem agg0C_writes : (agg0C : List (HloOp τ sig (Elt F))).Forall fun op => op.writes ⊆ (agg0C_W.map (Proc.devRef (τ := τ) .tc)).toFinset := by
  unfold agg0C
  simp only [List.Forall]
  exact ⟨(by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list)⟩

/-- A buffer `agg0C` does not write keeps its contents through it. -/
theorem agg0C_keep (W : Valuation τ sig (Elt F)) (r : Ref sig .tc) (h : r ∉ agg0C_W) :
    after agg0C W (Proc.devRef .tc r) = W (Proc.devRef .tc r) :=
  after_of_writes_sub agg0C _ agg0C_writes h

set_option maxHeartbeats 1000000 in
/-- What `agg` says of `main_v24` after `agg0C`, from any contents `W`. -/
theorem agg0C_main_v24 (W : Valuation τ sig (Elt F)) :
    after agg0C W (Proc.devRef .tc main_v24)
      = agg (W (Proc.devRef .tc main_v6)) (W (Proc.devRef .tc main_arg1)) (W (Proc.devRef .tc main_arg2)) (W (Proc.devRef .tc main_v11)) := by
  unfold agg0C
  after_results_simp
  all_goals rfl

/-- Layer 0, the affine map (the two matrices' slices, the two products, the bias): operations 36 … 47 of 377. -/
def lin0C : List (HloOp τ sig (Elt F)) :=
  [
    StableHlo.unary main_arg5 main_v25 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v25 main_v26 rfl shapeCasts_S1x128x128_S128x128,
    StableHlo.binary main_v6 main_v26 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v28 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v28 main_v29 rfl shapeCasts_S1x128x128_S128x128,
    StableHlo.binary main_v24 main_v29 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v27 main_v30 main_v31 (addf : (⟨S100000x128, .f32⟩ : BufTy).Contents (Elt F) → (⟨S100000x128, .f32⟩ : BufTy).Contents (Elt F) → (⟨S100000x128, .f32⟩ : BufTy).Contents (Elt F)),
    StableHlo.unary main_arg7 main_v32 ((extractStridedSlice S1x128 ![0, 0] · slices_S4x128_S1x128_0_0) : (⟨S4x128, .f32⟩ : BufTy).Contents (Elt F) → (⟨S1x128, .f32⟩ : BufTy).Contents (Elt F)),
    StableHlo.reshape main_v32 main_v33 rfl shapeCasts_S1x128_S128,
    StableHlo.unary main_v33 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v35 main_v36 (addf : (⟨S100000x128, .f32⟩ : BufTy).Contents (Elt F) → (⟨S100000x128, .f32⟩ : BufTy).Contents (Elt F) → (⟨S100000x128, .f32⟩ : BufTy).Contents (Elt F)) ]

theorem lin0C_sub : (lin0C : List (HloOp τ sig (Elt F))).Forall fun op => op.bufs ⊆ tcRefs τ sig := by
  unfold lin0C
  exact ⟨unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub ..⟩

theorem lin0C_fresh : (lin0C : List (HloOp τ sig (Elt F))).Forall fun op => op.fresh = ∅ := by
  unfold lin0C
  exact ⟨rfl, rfl, rfl, rfl, rfl, rfl, rfl, rfl, rfl, rfl, rfl, rfl⟩

/-- The buffers `lin0C` writes. -/
abbrev lin0C_W : List (Ref sig .tc) := [main_v25, main_v26, main_v27, main_v28, main_v29, main_v30, main_v31, main_v32, main_v33, main_v34, main_v35, main_v36]

theorem lin0C_writes : (lin0C : List (HloOp τ sig (Elt F))).Forall fun op => op.writes ⊆ (lin0C_W.map (Proc.devRef (τ := τ) .tc)).toFinset := by
  unfold lin0C
  simp only [List.Forall]
  exact ⟨(by written_in_list), (by written_in_list), (by written_in_list), (by written_in_list), (by written_in_list), (by written_in_list), (by written_in_list), (by written_in_list), (by written_in_list), (by written_in_list), (by written_in_list), (by written_in_list)⟩

/-- A buffer `lin0C` does not write keeps its contents through it. -/
theorem lin0C_keep (W : Valuation τ sig (Elt F)) (r : Ref sig .tc) (h : r ∉ lin0C_W) :
    after lin0C W (Proc.devRef .tc r) = W (Proc.devRef .tc r) :=
  after_of_writes_sub lin0C _ lin0C_writes h

set_option maxHeartbeats 1000000 in
/-- What `lin` says of `main_v36` after `lin0C`, from any contents `W`. -/
theorem lin0C_main_v36 (W : Valuation τ sig (Elt F)) :
    after lin0C W (Proc.devRef .tc main_v36)
      = lin (W (Proc.devRef .tc main_v6)) (W (Proc.devRef .tc main_v24)) (mat_0 (W (Proc.devRef .tc main_arg5))) (mat_0 (W (Proc.devRef .tc main_arg6))) (row_0 (W (Proc.devRef .tc main_arg7))) := by
  unfold lin0C
  after_results_simp
  all_goals rfl

/-- Layer 0, the rectifier and the column means: operations 48 … 61 of 377. -/
def rst0C : List (HloOp τ sig (Elt F)) :=
  [
    StableHlo.nullary main_cst_6 (constant S_ .f32 0x00000000#32),
    StableHlo.unary main_cst_6 main_v37 (broadcastInDim S100000x128 ![] bcast_S_S100000x128 : (⟨S_, .f32⟩ : BufTy).Contents (Elt F) → (⟨S100000x128, .f32⟩ : BufTy).Contents (Elt F)),
    StableHlo.binary main_v36 main_v37 main_v38 (cmpf .ogt : (⟨S100000x128, .f32⟩ : BufTy).Contents (Elt F) → (⟨S100000x128, .f32⟩ : BufTy).Contents (Elt F) → (⟨S100000x128, .i1⟩ : BufTy).Contents (Elt F)),
    StableHlo.unary main_arg10 main_v39 ((extractStridedSlice S1x128 ![0, 0] · slices_S4x128_S1x128_0_0) : (⟨S4x128, .f32⟩ : BufTy).Contents (Elt F) → (⟨S1x128, .f32⟩ : BufTy).Contents (Elt F)),
    StableHlo.reshape main_v39 main_v40 rfl shapeCasts_S1x128_S128,
    StableHlo.unary main_v40 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v42 main_v36 main_v43 (mulf : (⟨S100000x128, .f32⟩ : BufTy).Contents (Elt F) → (⟨S100000x128, .f32⟩ : BufTy).Contents (Elt F) → (⟨S100000x128, .f32⟩ : BufTy).Contents (Elt F)),
    StableHlo.TRef.ternary (.of main_v38) (.of main_v36) (.of main_v43) main_call1.v0 select,
    StableHlo.nullary main_cst_7 (constant S_ .f32 0x00000000#32),
    StableHlo.binary main_v44 main_cst_7 main_v45 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_8 (constant S_ .f32 0x47C35000#32),
    StableHlo.unary main_cst_8 main_v46 (broadcastInDim S128 ![] bcast_S_S128 : (⟨S_, .f32⟩ : BufTy).Contents (Elt F) → (⟨S128, .f32⟩ : BufTy).Contents (Elt F)),
    StableHlo.binary main_v45 main_v46 main_v47 (Host.divf : (⟨S128, .f32⟩ : BufTy).Contents (Elt F) → (⟨S128, .f32⟩ : BufTy).Contents (Elt F) → (⟨S128, .f32⟩ : BufTy).Contents (Elt F)) ]

theorem rst0C_sub : (rst0C : List (HloOp τ sig (Elt F))).Forall fun op => op.bufs ⊆ tcRefs τ sig := by
  unfold rst0C
  exact ⟨nullary_bufs_sub .., unary_bufs_sub .., binary_bufs_sub .., unary_bufs_sub .., reshape_bufs_sub .., unary_bufs_sub .., unary_bufs_sub .., binary_bufs_sub .., ternary_bufs_sub .., nullary_bufs_sub .., binary_bufs_sub .., nullary_bufs_sub .., unary_bufs_sub .., binary_bufs_sub ..⟩

theorem rst0C_fresh : (rst0C : List (HloOp τ sig (Elt F))).Forall fun op => op.fresh = ∅ := by
  unfold rst0C
  exact ⟨rfl, rfl, rfl, rfl, rfl, rfl, rfl, rfl, rfl, rfl, rfl, rfl, rfl, rfl⟩

/-- The buffers `rst0C` writes. -/
abbrev rst0C_W : List (Ref sig .tc) := [main_cst_6, main_v37, main_v38, main_v39, main_v40, main_v41, main_v42, main_v43, main_v44, main_cst_7, main_v45, main_cst_8, main_v46, main_v47]

theorem rst0C_writes : (rst0C : List (HloOp τ sig (Elt F))).Forall fun op => op.writes ⊆ (rst0C_W.map (Proc.devRef (τ := τ) .tc)).toFinset := by
  unfold rst0C
  simp only [List.Forall]
  exact ⟨(by written_in_list), (by written_in_list), (by written_in_list), (by written_in_list), (by written_in_list), (by written_in_list), (by written_in_list), (by written_in_list), (by written_in_list), (by written_in_list), (by written_in_list), (by written_in_list), (by written_in_list), (by written_in_list)⟩

/-- A buffer `rst0C` does not write keeps its contents through it. -/
theorem rst0C_keep (W : Valuation τ sig (Elt F)) (r : Ref sig .tc) (h : r ∉ rst0C_W) :
    after rst0C W (Proc.devRef .tc r) = W (Proc.devRef .tc r) :=
  after_of_writes_sub rst0C _ rst0C_writes h

set_option maxHeartbeats 1000000 in
/-- What `rst` says of `main_v44` after `rst0C`, from any contents `W`. -/
theorem rst0C_main_v44 (W : Valuation τ sig (Elt F)) :
    after rst0C W (Proc.devRef .tc main_v44)
      = rst (W (Proc.devRef .tc main_v36)) (row_0 (W (Proc.devRef .tc main_arg10))) := by
  unfold rst0C
  after_results_simp
  all_goals rfl

set_option maxHeartbeats 1000000 in
/-- What `mu` says of `main_v47` after `rst0C`, from any contents `W`. -/
theorem rst0C_main_v47 (W : Valuation τ sig (Elt F)) :
    after rst0C W (Proc.devRef .tc main_v47)
      = mu (rst (W (Proc.devRef .tc main_v36)) (row_0 (W (Proc.devRef .tc main_arg10)))) := by
  unfold rst0C
  after_results_simp
  all_goals rfl

/-- Layer 0, the column variances (the variance's lines at its call), part 1 of 2: operations 62 … 62 of 377. -/
def var0Ca : List (HloOp τ sig (Elt F)) :=
  [
    StableHlo.nullary main_c_9 (constantI S_ 32 0#32) ]

theorem var0Ca_sub : (var0Ca : List (HloOp τ sig (Elt F))).Forall fun op => op.bufs ⊆ tcRefs τ sig := by
  unfold var0Ca
  exact nullary_bufs_sub ..

theorem var0Ca_fresh : (var0Ca : List (HloOp τ sig (Elt F))).Forall fun op => op.fresh = ∅ := by
  unfold var0Ca
  exact rfl

/-- The buffers `var0Ca` writes. -/
abbrev var0Ca_W : List (Ref sig .tc) := [main_c_9]

theorem var0Ca_writes : (var0Ca : List (HloOp τ sig (Elt F))).Forall fun op => op.writes ⊆ (var0Ca_W.map (Proc.devRef (τ := τ) .tc)).toFinset := by
  unfold var0Ca
  simp only [List.Forall]
  exact (by written_in_list)

/-- A buffer `var0Ca` does not write keeps its contents through it. -/
theorem var0Ca_keep (W : Valuation τ sig (Elt F)) (r : Ref sig .tc) (h : r ∉ var0Ca_W) :
    after var0Ca W (Proc.devRef .tc r) = W (Proc.devRef .tc r) :=
  after_of_writes_sub var0Ca _ var0Ca_writes h

/-- Layer 0, the column variances (the variance's lines at its call), part 2 of 2: operations 63 … 84 of 377. -/
def var0Cb : List (HloOp τ sig (Elt F)) :=
  [
    StableHlo.TRef.nullary main_call2.cst (constant S_ .f32 0x00000000#32),
    StableHlo.TRef.binary (.of main_v44) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v44) main_call2.v4 main_call2.v5 subf,
    StableHlo.TRef.binary main_call2.v5 main_call2.v5 main_call2.v6 mulf,
    StableHlo.TRef.unary (.of main_c_9) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

theorem var0Cb_sub : (var0Cb : List (HloOp τ sig (Elt F))).Forall fun op => op.bufs ⊆ tcRefs τ sig := by
  unfold var0Cb
  exact ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem var0Cb_fresh : (var0Cb : List (HloOp τ sig (Elt F))).Forall fun op => op.fresh = ∅ := by
  unfold var0Cb
  exact ⟨rfl, rfl, rfl, rfl, rfl, rfl, rfl, rfl, rfl, rfl, rfl, rfl, rfl, rfl, rfl, rfl, rfl, rfl, rfl, rfl, rfl, rfl⟩

/-- The buffers `var0Cb` writes. -/
abbrev var0Cb_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v48]

theorem var0Cb_writes : (var0Cb : List (HloOp τ sig (Elt F))).Forall fun op => op.writes ⊆ (var0Cb_W.map (Proc.devRef (τ := τ) .tc)).toFinset := by
  unfold var0Cb
  simp only [List.Forall]
  exact ⟨(by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list)⟩

/-- A buffer `var0Cb` does not write keeps its contents through it. -/
theorem var0Cb_keep (W : Valuation τ sig (Elt F)) (r : Ref sig .tc) (h : r ∉ var0Cb_W) :
    after var0Cb W (Proc.devRef .tc r) = W (Proc.devRef .tc r) :=
  after_of_writes_sub var0Cb _ var0Cb_writes h

set_option maxHeartbeats 1000000 in
/-- What `var` says of `main_v48` after `var0Ca` then `var0Cb`, from any contents `W`. -/
theorem var0C_main_v48 (W : Valuation τ sig (Elt F)) :
    after var0Cb (after var0Ca W) (Proc.devRef .tc main_v48)
      = var (W (Proc.devRef .tc main_v44)) := by
  unfold var0Ca var0Cb
  after_results_simp
  all_goals rfl

theorem var0C_keep (W : Valuation τ sig (Elt F)) (r : Ref sig .tc) (h1 : r ∉ var0Ca_W) (h2 : r ∉ var0Cb_W) :
    after var0Cb (after var0Ca W) (Proc.devRef .tc r) = W (Proc.devRef .tc r) :=
  (var0Cb_keep _ r h2).trans (var0Ca_keep W r h1)

/-- Layer 0, the normalisation: operations 85 … 104 of 377. -/
def norm0C : List (HloOp τ sig (Elt F)) :=
  [
    StableHlo.unary main_v47 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v50 main_v51 (subf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3727C5AC#32),
    StableHlo.unary main_cst_10 main_v52 (broadcastInDim S128 ![] bcast_S_S128 : (⟨S_, .f32⟩ : BufTy).Contents (Elt F) → (⟨S128, .f32⟩ : BufTy).Contents (Elt F)),
    StableHlo.binary main_v48 main_v52 main_v53 (addf : (⟨S128, .f32⟩ : BufTy).Contents (Elt F) → (⟨S128, .f32⟩ : BufTy).Contents (Elt F) → (⟨S128, .f32⟩ : BufTy).Contents (Elt F)),
    StableHlo.unary main_v53 main_v54 (Host.rsqrt : (⟨S128, .f32⟩ : BufTy).Contents (Elt F) → (⟨S128, .f32⟩ : BufTy).Contents (Elt F)),
    StableHlo.unary main_v54 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S100000x128 ![0, 1] bcast_S1x128_S100000x128_0_1 : (⟨S1x128, .f32⟩ : BufTy).Contents (Elt F) → (⟨S100000x128, .f32⟩ : BufTy).Contents (Elt F)),
    StableHlo.binary main_v51 main_v56 main_v57 (mulf : (⟨S100000x128, .f32⟩ : BufTy).Contents (Elt F) → (⟨S100000x128, .f32⟩ : BufTy).Contents (Elt F) → (⟨S100000x128, .f32⟩ : BufTy).Contents (Elt F)),
    StableHlo.unary main_arg8 main_v58 ((extractStridedSlice S1x128 ![0, 0] · slices_S4x128_S1x128_0_0) : (⟨S4x128, .f32⟩ : BufTy).Contents (Elt F) → (⟨S1x128, .f32⟩ : BufTy).Contents (Elt F)),
    StableHlo.reshape main_v58 main_v59 rfl shapeCasts_S1x128_S128,
    StableHlo.unary main_v59 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v61 main_v62 (mulf : (⟨S100000x128, .f32⟩ : BufTy).Contents (Elt F) → (⟨S100000x128, .f32⟩ : BufTy).Contents (Elt F) → (⟨S100000x128, .f32⟩ : BufTy).Contents (Elt F)),
    StableHlo.unary main_arg9 main_v63 ((extractStridedSlice S1x128 ![0, 0] · slices_S4x128_S1x128_0_0) : (⟨S4x128, .f32⟩ : BufTy).Contents (Elt F) → (⟨S1x128, .f32⟩ : BufTy).Contents (Elt F)),
    StableHlo.reshape main_v63 main_v64 rfl shapeCasts_S1x128_S128,
    StableHlo.unary main_v64 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v62 main_v66 main_v67 (addf : (⟨S100000x128, .f32⟩ : BufTy).Contents (Elt F) → (⟨S100000x128, .f32⟩ : BufTy).Contents (Elt F) → (⟨S100000x128, .f32⟩ : BufTy).Contents (Elt F)) ]

theorem norm0C_sub : (norm0C : List (HloOp τ sig (Elt F))).Forall fun op => op.bufs ⊆ tcRefs τ sig := by
  unfold norm0C
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩

theorem norm0C_fresh : (norm0C : List (HloOp τ sig (Elt F))).Forall fun op => op.fresh = ∅ := by
  unfold norm0C
  exact ⟨rfl, rfl, rfl, rfl, rfl, rfl, rfl, rfl, rfl, rfl, rfl, rfl, rfl, rfl, rfl, rfl, rfl, rfl, rfl, rfl⟩

/-- The buffers `norm0C` writes. -/
abbrev norm0C_W : List (Ref sig .tc) := [main_v49, main_v50, main_v51, main_cst_10, main_v52, main_v53, main_v54, main_v55, main_v56, main_v57, main_v58, main_v59, main_v60, main_v61, main_v62, main_v63, main_v64, main_v65, main_v66, main_v67]

theorem norm0C_writes : (norm0C : List (HloOp τ sig (Elt F))).Forall fun op => op.writes ⊆ (norm0C_W.map (Proc.devRef (τ := τ) .tc)).toFinset := by
  unfold norm0C
  simp only [List.Forall]
  exact ⟨(by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list)⟩

/-- A buffer `norm0C` does not write keeps its contents through it. -/
theorem norm0C_keep (W : Valuation τ sig (Elt F)) (r : Ref sig .tc) (h : r ∉ norm0C_W) :
    after norm0C W (Proc.devRef .tc r) = W (Proc.devRef .tc r) :=
  after_of_writes_sub norm0C _ norm0C_writes h

set_option maxHeartbeats 1000000 in
/-- What `norm` says of `main_v67` after `norm0C`, from any contents `W`. -/
theorem norm0C_main_v67 (W : Valuation τ sig (Elt F)) :
    after norm0C W (Proc.devRef .tc main_v67)
      = norm (W (Proc.devRef .tc main_v44)) (W (Proc.devRef .tc main_v47)) (W (Proc.devRef .tc main_v48)) (row_0 (W (Proc.devRef .tc main_arg8))) (row_0 (W (Proc.devRef .tc main_arg9))) := by
  unfold norm0C
  after_results_simp
  all_goals rfl

end Cert.ReferenceIdeal.Run

end
-- ==== Proof.RI.RunL1.lean ====
/-
  The reference's lines for layer 1, as lists of host operations in program order (a function's lines
  listed at its call, over the call's buffers), and what each list leaves in the buffers later lines read: the
  stage's function (RunDefs.lean) of the contents it started from. Every other buffer keeps its contents.
-/
import proofs.«129379_j32899449487582_2_alg».proof.Proof.RI.RunDefs
import Idealize.ShloMosaic.Lib.StableHlo.Run

set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is in the list's. -/
local macro "written_in_list" : tactic =>
  `(tactic| (simp only [nullary_writes, unary_writes, binary_writes, ternary_writes, quaternary_writes, reshape_writes, binaryIndexed_writes, nary_writes, unaryIndexed_writes, Finset.singleton_subset_iff, List.mem_toFinset]; exact List.mem_map_of_mem (by decide)))

/-- Layer 1, the mean over incoming edges (the gather at the sources, the scatter-add at the destinations, the division by the degrees): operations 105 … 120 of 377. -/
def agg1C : List (HloOp τ sig (Elt F)) :=
  [
    StableHlo.nullary main_c_11 (constantI S_ 32 0#32),
    StableHlo.unary main_c_11 main_v68 (broadcastInDim S1600000 ![] bcast_S_S1600000 : (⟨S_, .i32⟩ : BufTy).Contents (Elt F) → (⟨S1600000, .i32⟩ : BufTy).Contents (Elt F)),
    StableHlo.binary main_arg1 main_v68 main_v69 (cmpi .slt : (⟨S1600000, .i32⟩ : BufTy).Contents (Elt F) → (⟨S1600000, .i32⟩ : BufTy).Contents (Elt F) → (⟨S1600000, .i1⟩ : BufTy).Contents (Elt F)),
    StableHlo.nullary main_c_12 (constantI S_ 32 100000#32),
    StableHlo.unary main_c_12 main_v70 (broadcastInDim S1600000 ![] bcast_S_S1600000 : (⟨S_, .i32⟩ : BufTy).Contents (Elt F) → (⟨S1600000, .i32⟩ : BufTy).Contents (Elt F)),
    StableHlo.binary main_arg1 main_v70 main_v71 (addi : (⟨S1600000, .i32⟩ : BufTy).Contents (Elt F) → (⟨S1600000, .i32⟩ : BufTy).Contents (Elt F) → (⟨S1600000, .i32⟩ : BufTy).Contents (Elt F)),
    StableHlo.ternary main_v69 main_v71 main_arg1 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v72 main_v73 (broadcastInDim S1600000x1 ![0] bcast_S1600000_S1600000x1_0 : (⟨S1600000, .i32⟩ : BufTy).Contents (Elt F) → (⟨S1600000x1, .i32⟩ : BufTy).Contents (Elt F)),
    StableHlo.binary main_v67 main_v73 main_v74 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_13 (constant S_ .f32 0x00000000#32),
    StableHlo.unary main_cst_13 main_v75 (broadcastInDim S100000x128 ![] bcast_S_S100000x128 : (⟨S_, .f32⟩ : BufTy).Contents (Elt F) → (⟨S100000x128, .f32⟩ : BufTy).Contents (Elt F)),
    StableHlo.unary main_arg2 main_v76 (broadcastInDim S1600000x1 ![0] bcast_S1600000_S1600000x1_0 : (⟨S1600000, .i32⟩ : BufTy).Contents (Elt F) → (⟨S1600000x1, .i32⟩ : BufTy).Contents (Elt F)),
    StableHlo.ternary main_v75 main_v76 main_v74 main_v77 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v11 main_v78 (broadcastInDim S100000x1 ![0] bcast_S100000_S100000x1_0 : (⟨S100000, .f32⟩ : BufTy).Contents (Elt F) → (⟨S100000x1, .f32⟩ : BufTy).Contents (Elt F)),
    StableHlo.unary main_v78 main_v79 (broadcastInDim S100000x128 ![0, 1] bcast_S100000x1_S100000x128_0_1 : (⟨S100000x1, .f32⟩ : BufTy).Contents (Elt F) → (⟨S100000x128, .f32⟩ : BufTy).Contents (Elt F)),
    StableHlo.binary main_v77 main_v79 main_v80 (Host.divf : (⟨S100000x128, .f32⟩ : BufTy).Contents (Elt F) → (⟨S100000x128, .f32⟩ : BufTy).Contents (Elt F) → (⟨S100000x128, .f32⟩ : BufTy).Contents (Elt F)) ]

theorem agg1C_sub : (agg1C : List (HloOp τ sig (Elt F))).Forall fun op => op.bufs ⊆ tcRefs τ sig := by
  unfold agg1C
  exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩

theorem agg1C_fresh : (agg1C : List (HloOp τ sig (Elt F))).Forall fun op => op.fresh = ∅ := by
  unfold agg1C
  exact ⟨rfl, rfl, rfl, rfl, rfl, rfl, rfl, rfl, rfl, rfl, rfl, rfl, rfl, rfl, rfl, rfl⟩

/-- The buffers `agg1C` writes. -/
abbrev agg1C_W : List (Ref sig .tc) := [main_c_11, main_v68, main_v69, main_c_12, main_v70, main_v71, main_v72, main_v73, main_v74, main_cst_13, main_v75, main_v76, main_v77, main_v78, main_v79, main_v80]

theorem agg1C_writes : (agg1C : List (HloOp τ sig (Elt F))).Forall fun op => op.writes ⊆ (agg1C_W.map (Proc.devRef (τ := τ) .tc)).toFinset := by
  unfold agg1C
  simp only [List.Forall]
  exact ⟨(by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list)⟩

/-- A buffer `agg1C` does not write keeps its contents through it. -/
theorem agg1C_keep (W : Valuation τ sig (Elt F)) (r : Ref sig .tc) (h : r ∉ agg1C_W) :
    after agg1C W (Proc.devRef .tc r) = W (Proc.devRef .tc r) :=
  after_of_writes_sub agg1C _ agg1C_writes h

set_option maxHeartbeats 1000000 in
/-- What `agg` says of `main_v80` after `agg1C`, from any contents `W`. -/
theorem agg1C_main_v80 (W : Valuation τ sig (Elt F)) :
    after agg1C W (Proc.devRef .tc main_v80)
      = agg (W (Proc.devRef .tc main_v67)) (W (Proc.devRef .tc main_arg1)) (W (Proc.devRef .tc main_arg2)) (W (Proc.devRef .tc main_v11)) := by
  unfold agg1C
  after_results_simp
  all_goals rfl

/-- Layer 1, the affine map (the two matrices' slices, the two products, the bias): operations 121 … 132 of 377. -/
def lin1C : List (HloOp τ sig (Elt F)) :=
  [
    StableHlo.unary main_arg5 main_v81 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v81 main_v82 rfl shapeCasts_S1x128x128_S128x128,
    StableHlo.binary main_v67 main_v82 main_v83 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v84 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v84 main_v85 rfl shapeCasts_S1x128x128_S128x128,
    StableHlo.binary main_v80 main_v85 main_v86 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v83 main_v86 main_v87 (addf : (⟨S100000x128, .f32⟩ : BufTy).Contents (Elt F) → (⟨S100000x128, .f32⟩ : BufTy).Contents (Elt F) → (⟨S100000x128, .f32⟩ : BufTy).Contents (Elt F)),
    StableHlo.unary main_arg7 main_v88 ((extractStridedSlice S1x128 ![1, 0] · slices_S4x128_S1x128_1_0) : (⟨S4x128, .f32⟩ : BufTy).Contents (Elt F) → (⟨S1x128, .f32⟩ : BufTy).Contents (Elt F)),
    StableHlo.reshape main_v88 main_v89 rfl shapeCasts_S1x128_S128,
    StableHlo.unary main_v89 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S100000x128 ![0, 1] bcast_S1x128_S100000x128_0_1 : (⟨S1x128, .f32⟩ : BufTy).Contents (Elt F) → (⟨S100000x128, .f32⟩ : BufTy).Contents (Elt F)),
    StableHlo.binary main_v87 main_v91 main_v92 (addf : (⟨S100000x128, .f32⟩ : BufTy).Contents (Elt F) → (⟨S100000x128, .f32⟩ : BufTy).Contents (Elt F) → (⟨S100000x128, .f32⟩ : BufTy).Contents (Elt F)) ]

theorem lin1C_sub : (lin1C : List (HloOp τ sig (Elt F))).Forall fun op => op.bufs ⊆ tcRefs τ sig := by
  unfold lin1C
  exact ⟨unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub ..⟩

theorem lin1C_fresh : (lin1C : List (HloOp τ sig (Elt F))).Forall fun op => op.fresh = ∅ := by
  unfold lin1C
  exact ⟨rfl, rfl, rfl, rfl, rfl, rfl, rfl, rfl, rfl, rfl, rfl, rfl⟩

/-- The buffers `lin1C` writes. -/
abbrev lin1C_W : List (Ref sig .tc) := [main_v81, main_v82, main_v83, main_v84, main_v85, main_v86, main_v87, main_v88, main_v89, main_v90, main_v91, main_v92]

theorem lin1C_writes : (lin1C : List (HloOp τ sig (Elt F))).Forall fun op => op.writes ⊆ (lin1C_W.map (Proc.devRef (τ := τ) .tc)).toFinset := by
  unfold lin1C
  simp only [List.Forall]
  exact ⟨(by written_in_list), (by written_in_list), (by written_in_list), (by written_in_list), (by written_in_list), (by written_in_list), (by written_in_list), (by written_in_list), (by written_in_list), (by written_in_list), (by written_in_list), (by written_in_list)⟩

/-- A buffer `lin1C` does not write keeps its contents through it. -/
theorem lin1C_keep (W : Valuation τ sig (Elt F)) (r : Ref sig .tc) (h : r ∉ lin1C_W) :
    after lin1C W (Proc.devRef .tc r) = W (Proc.devRef .tc r) :=
  after_of_writes_sub lin1C _ lin1C_writes h

set_option maxHeartbeats 1000000 in
/-- What `lin` says of `main_v92` after `lin1C`, from any contents `W`. -/
theorem lin1C_main_v92 (W : Valuation τ sig (Elt F)) :
    after lin1C W (Proc.devRef .tc main_v92)
      = lin (W (Proc.devRef .tc main_v67)) (W (Proc.devRef .tc main_v80)) (mat_1 (W (Proc.devRef .tc main_arg5))) (mat_1 (W (Proc.devRef .tc main_arg6))) (row_1 (W (Proc.devRef .tc main_arg7))) := by
  unfold lin1C
  after_results_simp
  all_goals rfl

/-- Layer 1, the rectifier and the column means, part 1 of 2: operations 133 … 143 of 377. -/
def rst1Ca : List (HloOp τ sig (Elt F)) :=
  [
    StableHlo.nullary main_cst_14 (constant S_ .f32 0x00000000#32),
    StableHlo.unary main_cst_14 main_v93 (broadcastInDim S100000x128 ![] bcast_S_S100000x128 : (⟨S_, .f32⟩ : BufTy).Contents (Elt F) → (⟨S100000x128, .f32⟩ : BufTy).Contents (Elt F)),
    StableHlo.binary main_v92 main_v93 main_v94 (cmpf .ogt : (⟨S100000x128, .f32⟩ : BufTy).Contents (Elt F) → (⟨S100000x128, .f32⟩ : BufTy).Contents (Elt F) → (⟨S100000x128, .i1⟩ : BufTy).Contents (Elt F)),
    StableHlo.unary main_arg10 main_v95 ((extractStridedSlice S1x128 ![1, 0] · slices_S4x128_S1x128_1_0) : (⟨S4x128, .f32⟩ : BufTy).Contents (Elt F) → (⟨S1x128, .f32⟩ : BufTy).Contents (Elt F)),
    StableHlo.reshape main_v95 main_v96 rfl shapeCasts_S1x128_S128,
    StableHlo.unary main_v96 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S100000x128 ![0, 1] bcast_S1x128_S100000x128_0_1 : (⟨S1x128, .f32⟩ : BufTy).Contents (Elt F) → (⟨S100000x128, .f32⟩ : BufTy).Contents (Elt F)),
    StableHlo.binary main_v98 main_v92 main_v99 (mulf : (⟨S100000x128, .f32⟩ : BufTy).Contents (Elt F) → (⟨S100000x128, .f32⟩ : BufTy).Contents (Elt F) → (⟨S100000x128, .f32⟩ : BufTy).Contents (Elt F)),
    StableHlo.TRef.ternary (.of main_v94) (.of main_v92) (.of main_v99) main_call3.v0 select,
    StableHlo.nullary main_cst_15 (constant S_ .f32 0x00000000#32),
    StableHlo.binary main_v100 main_cst_15 main_v101 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ]

theorem rst1Ca_sub : (rst1Ca : List (HloOp τ sig (Elt F))).Forall fun op => op.bufs ⊆ tcRefs τ sig := by
  unfold rst1Ca
  exact ⟨nullary_bufs_sub .., unary_bufs_sub .., binary_bufs_sub .., unary_bufs_sub .., reshape_bufs_sub .., unary_bufs_sub .., unary_bufs_sub .., binary_bufs_sub .., ternary_bufs_sub .., nullary_bufs_sub .., binary_bufs_sub ..⟩

theorem rst1Ca_fresh : (rst1Ca : List (HloOp τ sig (Elt F))).Forall fun op => op.fresh = ∅ := by
  unfold rst1Ca
  exact ⟨rfl, rfl, rfl, rfl, rfl, rfl, rfl, rfl, rfl, rfl, rfl⟩

/-- The buffers `rst1Ca` writes. -/
abbrev rst1Ca_W : List (Ref sig .tc) := [main_cst_14, main_v93, main_v94, main_v95, main_v96, main_v97, main_v98, main_v99, main_v100, main_cst_15, main_v101]

theorem rst1Ca_writes : (rst1Ca : List (HloOp τ sig (Elt F))).Forall fun op => op.writes ⊆ (rst1Ca_W.map (Proc.devRef (τ := τ) .tc)).toFinset := by
  unfold rst1Ca
  simp only [List.Forall]
  exact ⟨(by written_in_list), (by written_in_list), (by written_in_list), (by written_in_list), (by written_in_list), (by written_in_list), (by written_in_list), (by written_in_list), (by written_in_list), (by written_in_list), (by written_in_list)⟩

/-- A buffer `rst1Ca` does not write keeps its contents through it. -/
theorem rst1Ca_keep (W : Valuation τ sig (Elt F)) (r : Ref sig .tc) (h : r ∉ rst1Ca_W) :
    after rst1Ca W (Proc.devRef .tc r) = W (Proc.devRef .tc r) :=
  after_of_writes_sub rst1Ca _ rst1Ca_writes h

/-- Layer 1, the rectifier and the column means, part 2 of 2: operations 144 … 146 of 377. -/
def rst1Cb : List (HloOp τ sig (Elt F)) :=
  [
    StableHlo.nullary main_cst_16 (constant S_ .f32 0x47C35000#32),
    StableHlo.unary main_cst_16 main_v102 (broadcastInDim S128 ![] bcast_S_S128 : (⟨S_, .f32⟩ : BufTy).Contents (Elt F) → (⟨S128, .f32⟩ : BufTy).Contents (Elt F)),
    StableHlo.binary main_v101 main_v102 main_v103 (Host.divf : (⟨S128, .f32⟩ : BufTy).Contents (Elt F) → (⟨S128, .f32⟩ : BufTy).Contents (Elt F) → (⟨S128, .f32⟩ : BufTy).Contents (Elt F)) ]

theorem rst1Cb_sub : (rst1Cb : List (HloOp τ sig (Elt F))).Forall fun op => op.bufs ⊆ tcRefs τ sig := by
  unfold rst1Cb
  exact ⟨nullary_bufs_sub .., unary_bufs_sub .., binary_bufs_sub ..⟩

theorem rst1Cb_fresh : (rst1Cb : List (HloOp τ sig (Elt F))).Forall fun op => op.fresh = ∅ := by
  unfold rst1Cb
  exact ⟨rfl, rfl, rfl⟩

/-- The buffers `rst1Cb` writes. -/
abbrev rst1Cb_W : List (Ref sig .tc) := [main_cst_16, main_v102, main_v103]

theorem rst1Cb_writes : (rst1Cb : List (HloOp τ sig (Elt F))).Forall fun op => op.writes ⊆ (rst1Cb_W.map (Proc.devRef (τ := τ) .tc)).toFinset := by
  unfold rst1Cb
  simp only [List.Forall]
  exact ⟨(by written_in_list), (by written_in_list), (by written_in_list)⟩

/-- A buffer `rst1Cb` does not write keeps its contents through it. -/
theorem rst1Cb_keep (W : Valuation τ sig (Elt F)) (r : Ref sig .tc) (h : r ∉ rst1Cb_W) :
    after rst1Cb W (Proc.devRef .tc r) = W (Proc.devRef .tc r) :=
  after_of_writes_sub rst1Cb _ rst1Cb_writes h

set_option maxHeartbeats 1000000 in
/-- What `rst` says of `main_v100` after `rst1Ca` then `rst1Cb`, from any contents `W`. -/
theorem rst1C_main_v100 (W : Valuation τ sig (Elt F)) :
    after rst1Cb (after rst1Ca W) (Proc.devRef .tc main_v100)
      = rst (W (Proc.devRef .tc main_v92)) (row_1 (W (Proc.devRef .tc main_arg10))) := by
  unfold rst1Ca rst1Cb
  after_results_simp
  all_goals rfl

set_option maxHeartbeats 1000000 in
/-- What `mu` says of `main_v103` after `rst1Ca` then `rst1Cb`, from any contents `W`. -/
theorem rst1C_main_v103 (W : Valuation τ sig (Elt F)) :
    after rst1Cb (after rst1Ca W) (Proc.devRef .tc main_v103)
      = mu (rst (W (Proc.devRef .tc main_v92)) (row_1 (W (Proc.devRef .tc main_arg10)))) := by
  unfold rst1Ca rst1Cb
  after_results_simp
  all_goals rfl

theorem rst1C_keep (W : Valuation τ sig (Elt F)) (r : Ref sig .tc) (h1 : r ∉ rst1Ca_W) (h2 : r ∉ rst1Cb_W) :
    after rst1Cb (after rst1Ca W) (Proc.devRef .tc r) = W (Proc.devRef .tc r) :=
  (rst1Cb_keep _ r h2).trans (rst1Ca_keep W r h1)

/-- Layer 1, the column variances (the variance's lines at its call): operations 147 … 169 of 377. -/
def var1C : List (HloOp τ sig (Elt F)) :=
  [
    StableHlo.nullary main_c_17 (constantI S_ 32 0#32),
    StableHlo.TRef.nullary main_call4.cst (constant S_ .f32 0x00000000#32),
    StableHlo.TRef.binary (.of main_v100) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v100) main_call4.v4 main_call4.v5 subf,
    StableHlo.TRef.binary main_call4.v5 main_call4.v5 main_call4.v6 mulf,
    StableHlo.TRef.unary (.of main_c_17) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

theorem var1C_sub : (var1C : List (HloOp τ sig (Elt F))).Forall fun op => op.bufs ⊆ tcRefs τ sig := by
  unfold var1C
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem var1C_fresh : (var1C : List (HloOp τ sig (Elt F))).Forall fun op => op.fresh = ∅ := by
  unfold var1C
  exact ⟨rfl, rfl, rfl, rfl, rfl, rfl, rfl, rfl, rfl, rfl, rfl, rfl, rfl, rfl, rfl, rfl, rfl, rfl, rfl, rfl, rfl, rfl, rfl⟩

/-- The buffers `var1C` writes. -/
abbrev var1C_W : List (Ref sig .tc) := [main_c_17, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v104]

theorem var1C_writes : (var1C : List (HloOp τ sig (Elt F))).Forall fun op => op.writes ⊆ (var1C_W.map (Proc.devRef (τ := τ) .tc)).toFinset := by
  unfold var1C
  simp only [List.Forall]
  exact ⟨(by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list)⟩

/-- A buffer `var1C` does not write keeps its contents through it. -/
theorem var1C_keep (W : Valuation τ sig (Elt F)) (r : Ref sig .tc) (h : r ∉ var1C_W) :
    after var1C W (Proc.devRef .tc r) = W (Proc.devRef .tc r) :=
  after_of_writes_sub var1C _ var1C_writes h

set_option maxHeartbeats 1000000 in
/-- What `var` says of `main_v104` after `var1C`, from any contents `W`. -/
theorem var1C_main_v104 (W : Valuation τ sig (Elt F)) :
    after var1C W (Proc.devRef .tc main_v104)
      = var (W (Proc.devRef .tc main_v100)) := by
  unfold var1C
  after_results_simp
  all_goals rfl

/-- Layer 1, the normalisation: operations 170 … 189 of 377. -/
def norm1C : List (HloOp τ sig (Elt F)) :=
  [
    StableHlo.unary main_v103 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S100000x128 ![0, 1] bcast_S1x128_S100000x128_0_1 : (⟨S1x128, .f32⟩ : BufTy).Contents (Elt F) → (⟨S100000x128, .f32⟩ : BufTy).Contents (Elt F)),
    StableHlo.binary main_v100 main_v106 main_v107 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v108 (broadcastInDim S128 ![] bcast_S_S128 : (⟨S_, .f32⟩ : BufTy).Contents (Elt F) → (⟨S128, .f32⟩ : BufTy).Contents (Elt F)),
    StableHlo.binary main_v104 main_v108 main_v109 (addf : (⟨S128, .f32⟩ : BufTy).Contents (Elt F) → (⟨S128, .f32⟩ : BufTy).Contents (Elt F) → (⟨S128, .f32⟩ : BufTy).Contents (Elt F)),
    StableHlo.unary main_v109 main_v110 (Host.rsqrt : (⟨S128, .f32⟩ : BufTy).Contents (Elt F) → (⟨S128, .f32⟩ : BufTy).Contents (Elt F)),
    StableHlo.unary main_v110 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S100000x128 ![0, 1] bcast_S1x128_S100000x128_0_1 : (⟨S1x128, .f32⟩ : BufTy).Contents (Elt F) → (⟨S100000x128, .f32⟩ : BufTy).Contents (Elt F)),
    StableHlo.binary main_v107 main_v112 main_v113 (mulf : (⟨S100000x128, .f32⟩ : BufTy).Contents (Elt F) → (⟨S100000x128, .f32⟩ : BufTy).Contents (Elt F) → (⟨S100000x128, .f32⟩ : BufTy).Contents (Elt F)),
    StableHlo.unary main_arg8 main_v114 ((extractStridedSlice S1x128 ![1, 0] · slices_S4x128_S1x128_1_0) : (⟨S4x128, .f32⟩ : BufTy).Contents (Elt F) → (⟨S1x128, .f32⟩ : BufTy).Contents (Elt F)),
    StableHlo.reshape main_v114 main_v115 rfl shapeCasts_S1x128_S128,
    StableHlo.unary main_v115 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S100000x128 ![0, 1] bcast_S1x128_S100000x128_0_1 : (⟨S1x128, .f32⟩ : BufTy).Contents (Elt F) → (⟨S100000x128, .f32⟩ : BufTy).Contents (Elt F)),
    StableHlo.binary main_v113 main_v117 main_v118 (mulf : (⟨S100000x128, .f32⟩ : BufTy).Contents (Elt F) → (⟨S100000x128, .f32⟩ : BufTy).Contents (Elt F) → (⟨S100000x128, .f32⟩ : BufTy).Contents (Elt F)),
    StableHlo.unary main_arg9 main_v119 ((extractStridedSlice S1x128 ![1, 0] · slices_S4x128_S1x128_1_0) : (⟨S4x128, .f32⟩ : BufTy).Contents (Elt F) → (⟨S1x128, .f32⟩ : BufTy).Contents (Elt F)),
    StableHlo.reshape main_v119 main_v120 rfl shapeCasts_S1x128_S128,
    StableHlo.unary main_v120 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S100000x128 ![0, 1] bcast_S1x128_S100000x128_0_1 : (⟨S1x128, .f32⟩ : BufTy).Contents (Elt F) → (⟨S100000x128, .f32⟩ : BufTy).Contents (Elt F)),
    StableHlo.binary main_v118 main_v122 main_v123 (addf : (⟨S100000x128, .f32⟩ : BufTy).Contents (Elt F) → (⟨S100000x128, .f32⟩ : BufTy).Contents (Elt F) → (⟨S100000x128, .f32⟩ : BufTy).Contents (Elt F)) ]

theorem norm1C_sub : (norm1C : List (HloOp τ sig (Elt F))).Forall fun op => op.bufs ⊆ tcRefs τ sig := by
  unfold norm1C
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩

theorem norm1C_fresh : (norm1C : List (HloOp τ sig (Elt F))).Forall fun op => op.fresh = ∅ := by
  unfold norm1C
  exact ⟨rfl, rfl, rfl, rfl, rfl, rfl, rfl, rfl, rfl, rfl, rfl, rfl, rfl, rfl, rfl, rfl, rfl, rfl, rfl, rfl⟩

/-- The buffers `norm1C` writes. -/
abbrev norm1C_W : List (Ref sig .tc) := [main_v105, main_v106, main_v107, main_cst_18, main_v108, main_v109, main_v110, main_v111, main_v112, main_v113, main_v114, main_v115, main_v116, main_v117, main_v118, main_v119, main_v120, main_v121, main_v122, main_v123]

theorem norm1C_writes : (norm1C : List (HloOp τ sig (Elt F))).Forall fun op => op.writes ⊆ (norm1C_W.map (Proc.devRef (τ := τ) .tc)).toFinset := by
  unfold norm1C
  simp only [List.Forall]
  exact ⟨(by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list)⟩

/-- A buffer `norm1C` does not write keeps its contents through it. -/
theorem norm1C_keep (W : Valuation τ sig (Elt F)) (r : Ref sig .tc) (h : r ∉ norm1C_W) :
    after norm1C W (Proc.devRef .tc r) = W (Proc.devRef .tc r) :=
  after_of_writes_sub norm1C _ norm1C_writes h

set_option maxHeartbeats 1000000 in
/-- What `norm` says of `main_v123` after `norm1C`, from any contents `W`. -/
theorem norm1C_main_v123 (W : Valuation τ sig (Elt F)) :
    after norm1C W (Proc.devRef .tc main_v123)
      = norm (W (Proc.devRef .tc main_v100)) (W (Proc.devRef .tc main_v103)) (W (Proc.devRef .tc main_v104)) (row_1 (W (Proc.devRef .tc main_arg8))) (row_1 (W (Proc.devRef .tc main_arg9))) := by
  unfold norm1C
  after_results_simp
  all_goals rfl

end Cert.ReferenceIdeal.Run

end
-- ==== Proof.RI.RunL2.lean ====
/-
  The reference's lines for layer 2, as lists of host operations in program order (a function's lines
  listed at its call, over the call's buffers), and what each list leaves in the buffers later lines read: the
  stage's function (RunDefs.lean) of the contents it started from. Every other buffer keeps its contents.
-/
import proofs.«129379_j32899449487582_2_alg».proof.Proof.RI.RunDefs
import Idealize.ShloMosaic.Lib.StableHlo.Run

set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is in the list's. -/
local macro "written_in_list" : tactic =>
  `(tactic| (simp only [nullary_writes, unary_writes, binary_writes, ternary_writes, quaternary_writes, reshape_writes, binaryIndexed_writes, nary_writes, unaryIndexed_writes, Finset.singleton_subset_iff, List.mem_toFinset]; exact List.mem_map_of_mem (by decide)))

/-- Layer 2, the mean over incoming edges (the gather at the sources, the scatter-add at the destinations, the division by the degrees): operations 190 … 205 of 377. -/
def agg2C : List (HloOp τ sig (Elt F)) :=
  [
    StableHlo.nullary main_c_19 (constantI S_ 32 0#32),
    StableHlo.unary main_c_19 main_v124 (broadcastInDim S1600000 ![] bcast_S_S1600000 : (⟨S_, .i32⟩ : BufTy).Contents (Elt F) → (⟨S1600000, .i32⟩ : BufTy).Contents (Elt F)),
    StableHlo.binary main_arg1 main_v124 main_v125 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v126 (broadcastInDim S1600000 ![] bcast_S_S1600000 : (⟨S_, .i32⟩ : BufTy).Contents (Elt F) → (⟨S1600000, .i32⟩ : BufTy).Contents (Elt F)),
    StableHlo.binary main_arg1 main_v126 main_v127 (addi : (⟨S1600000, .i32⟩ : BufTy).Contents (Elt F) → (⟨S1600000, .i32⟩ : BufTy).Contents (Elt F) → (⟨S1600000, .i32⟩ : BufTy).Contents (Elt F)),
    StableHlo.ternary main_v125 main_v127 main_arg1 main_v128 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v128 main_v129 (broadcastInDim S1600000x1 ![0] bcast_S1600000_S1600000x1_0 : (⟨S1600000, .i32⟩ : BufTy).Contents (Elt F) → (⟨S1600000x1, .i32⟩ : BufTy).Contents (Elt F)),
    StableHlo.binary main_v123 main_v129 main_v130 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_21 (constant S_ .f32 0x00000000#32),
    StableHlo.unary main_cst_21 main_v131 (broadcastInDim S100000x128 ![] bcast_S_S100000x128 : (⟨S_, .f32⟩ : BufTy).Contents (Elt F) → (⟨S100000x128, .f32⟩ : BufTy).Contents (Elt F)),
    StableHlo.unary main_arg2 main_v132 (broadcastInDim S1600000x1 ![0] bcast_S1600000_S1600000x1_0 : (⟨S1600000, .i32⟩ : BufTy).Contents (Elt F) → (⟨S1600000x1, .i32⟩ : BufTy).Contents (Elt F)),
    StableHlo.ternary main_v131 main_v132 main_v130 main_v133 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v11 main_v134 (broadcastInDim S100000x1 ![0] bcast_S100000_S100000x1_0 : (⟨S100000, .f32⟩ : BufTy).Contents (Elt F) → (⟨S100000x1, .f32⟩ : BufTy).Contents (Elt F)),
    StableHlo.unary main_v134 main_v135 (broadcastInDim S100000x128 ![0, 1] bcast_S100000x1_S100000x128_0_1 : (⟨S100000x1, .f32⟩ : BufTy).Contents (Elt F) → (⟨S100000x128, .f32⟩ : BufTy).Contents (Elt F)),
    StableHlo.binary main_v133 main_v135 main_v136 (Host.divf : (⟨S100000x128, .f32⟩ : BufTy).Contents (Elt F) → (⟨S100000x128, .f32⟩ : BufTy).Contents (Elt F) → (⟨S100000x128, .f32⟩ : BufTy).Contents (Elt F)) ]

theorem agg2C_sub : (agg2C : List (HloOp τ sig (Elt F))).Forall fun op => op.bufs ⊆ tcRefs τ sig := by
  unfold agg2C
  exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩

theorem agg2C_fresh : (agg2C : List (HloOp τ sig (Elt F))).Forall fun op => op.fresh = ∅ := by
  unfold agg2C
  exact ⟨rfl, rfl, rfl, rfl, rfl, rfl, rfl, rfl, rfl, rfl, rfl, rfl, rfl, rfl, rfl, rfl⟩

/-- The buffers `agg2C` writes. -/
abbrev agg2C_W : List (Ref sig .tc) := [main_c_19, main_v124, main_v125, main_c_20, main_v126, main_v127, main_v128, main_v129, main_v130, main_cst_21, main_v131, main_v132, main_v133, main_v134, main_v135, main_v136]

theorem agg2C_writes : (agg2C : List (HloOp τ sig (Elt F))).Forall fun op => op.writes ⊆ (agg2C_W.map (Proc.devRef (τ := τ) .tc)).toFinset := by
  unfold agg2C
  simp only [List.Forall]
  exact ⟨(by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list)⟩

/-- A buffer `agg2C` does not write keeps its contents through it. -/
theorem agg2C_keep (W : Valuation τ sig (Elt F)) (r : Ref sig .tc) (h : r ∉ agg2C_W) :
    after agg2C W (Proc.devRef .tc r) = W (Proc.devRef .tc r) :=
  after_of_writes_sub agg2C _ agg2C_writes h

set_option maxHeartbeats 1000000 in
/-- What `agg` says of `main_v136` after `agg2C`, from any contents `W`. -/
theorem agg2C_main_v136 (W : Valuation τ sig (Elt F)) :
    after agg2C W (Proc.devRef .tc main_v136)
      = agg (W (Proc.devRef .tc main_v123)) (W (Proc.devRef .tc main_arg1)) (W (Proc.devRef .tc main_arg2)) (W (Proc.devRef .tc main_v11)) := by
  unfold agg2C
  after_results_simp
  all_goals rfl

/-- Layer 2, the affine map (the two matrices' slices, the two products, the bias): operations 206 … 217 of 377. -/
def lin2C : List (HloOp τ sig (Elt F)) :=
  [
    StableHlo.unary main_arg5 main_v137 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v137 main_v138 rfl shapeCasts_S1x128x128_S128x128,
    StableHlo.binary main_v123 main_v138 main_v139 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v140 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v140 main_v141 rfl shapeCasts_S1x128x128_S128x128,
    StableHlo.binary main_v136 main_v141 main_v142 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v139 main_v142 main_v143 (addf : (⟨S100000x128, .f32⟩ : BufTy).Contents (Elt F) → (⟨S100000x128, .f32⟩ : BufTy).Contents (Elt F) → (⟨S100000x128, .f32⟩ : BufTy).Contents (Elt F)),
    StableHlo.unary main_arg7 main_v144 ((extractStridedSlice S1x128 ![2, 0] · slices_S4x128_S1x128_2_0) : (⟨S4x128, .f32⟩ : BufTy).Contents (Elt F) → (⟨S1x128, .f32⟩ : BufTy).Contents (Elt F)),
    StableHlo.reshape main_v144 main_v145 rfl shapeCasts_S1x128_S128,
    StableHlo.unary main_v145 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S100000x128 ![0, 1] bcast_S1x128_S100000x128_0_1 : (⟨S1x128, .f32⟩ : BufTy).Contents (Elt F) → (⟨S100000x128, .f32⟩ : BufTy).Contents (Elt F)),
    StableHlo.binary main_v143 main_v147 main_v148 (addf : (⟨S100000x128, .f32⟩ : BufTy).Contents (Elt F) → (⟨S100000x128, .f32⟩ : BufTy).Contents (Elt F) → (⟨S100000x128, .f32⟩ : BufTy).Contents (Elt F)) ]

theorem lin2C_sub : (lin2C : List (HloOp τ sig (Elt F))).Forall fun op => op.bufs ⊆ tcRefs τ sig := by
  unfold lin2C
  exact ⟨unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub ..⟩

theorem lin2C_fresh : (lin2C : List (HloOp τ sig (Elt F))).Forall fun op => op.fresh = ∅ := by
  unfold lin2C
  exact ⟨rfl, rfl, rfl, rfl, rfl, rfl, rfl, rfl, rfl, rfl, rfl, rfl⟩

/-- The buffers `lin2C` writes. -/
abbrev lin2C_W : List (Ref sig .tc) := [main_v137, main_v138, main_v139, main_v140, main_v141, main_v142, main_v143, main_v144, main_v145, main_v146, main_v147, main_v148]

theorem lin2C_writes : (lin2C : List (HloOp τ sig (Elt F))).Forall fun op => op.writes ⊆ (lin2C_W.map (Proc.devRef (τ := τ) .tc)).toFinset := by
  unfold lin2C
  simp only [List.Forall]
  exact ⟨(by written_in_list), (by written_in_list), (by written_in_list), (by written_in_list), (by written_in_list), (by written_in_list), (by written_in_list), (by written_in_list), (by written_in_list), (by written_in_list), (by written_in_list), (by written_in_list)⟩

/-- A buffer `lin2C` does not write keeps its contents through it. -/
theorem lin2C_keep (W : Valuation τ sig (Elt F)) (r : Ref sig .tc) (h : r ∉ lin2C_W) :
    after lin2C W (Proc.devRef .tc r) = W (Proc.devRef .tc r) :=
  after_of_writes_sub lin2C _ lin2C_writes h

set_option maxHeartbeats 1000000 in
/-- What `lin` says of `main_v148` after `lin2C`, from any contents `W`. -/
theorem lin2C_main_v148 (W : Valuation τ sig (Elt F)) :
    after lin2C W (Proc.devRef .tc main_v148)
      = lin (W (Proc.devRef .tc main_v123)) (W (Proc.devRef .tc main_v136)) (mat_2 (W (Proc.devRef .tc main_arg5))) (mat_2 (W (Proc.devRef .tc main_arg6))) (row_2 (W (Proc.devRef .tc main_arg7))) := by
  unfold lin2C
  after_results_simp
  all_goals rfl

/-- Layer 2, the rectifier and the column means, part 1 of 2: operations 218 … 224 of 377. -/
def rst2Ca : List (HloOp τ sig (Elt F)) :=
  [
    StableHlo.nullary main_cst_22 (constant S_ .f32 0x00000000#32),
    StableHlo.unary main_cst_22 main_v149 (broadcastInDim S100000x128 ![] bcast_S_S100000x128 : (⟨S_, .f32⟩ : BufTy).Contents (Elt F) → (⟨S100000x128, .f32⟩ : BufTy).Contents (Elt F)),
    StableHlo.binary main_v148 main_v149 main_v150 (cmpf .ogt : (⟨S100000x128, .f32⟩ : BufTy).Contents (Elt F) → (⟨S100000x128, .f32⟩ : BufTy).Contents (Elt F) → (⟨S100000x128, .i1⟩ : BufTy).Contents (Elt F)),
    StableHlo.unary main_arg10 main_v151 ((extractStridedSlice S1x128 ![2, 0] · slices_S4x128_S1x128_2_0) : (⟨S4x128, .f32⟩ : BufTy).Contents (Elt F) → (⟨S1x128, .f32⟩ : BufTy).Contents (Elt F)),
    StableHlo.reshape main_v151 main_v152 rfl shapeCasts_S1x128_S128,
    StableHlo.unary main_v152 main_v153 (broadcastInDim S1x128 ![1] bcast_S128_S1x128_1 : (⟨S128, .f32⟩ : BufTy).Contents (Elt F) → (⟨S1x128, .f32⟩ : BufTy).Contents (Elt F)),
    StableHlo.unary main_v153 main_v154 (broadcastInDim S100000x128 ![0, 1] bcast_S1x128_S100000x128_0_1 : (⟨S1x128, .f32⟩ : BufTy).Contents (Elt F) → (⟨S100000x128, .f32⟩ : BufTy).Contents (Elt F)) ]

theorem rst2Ca_sub : (rst2Ca : List (HloOp τ sig (Elt F))).Forall fun op => op.bufs ⊆ tcRefs τ sig := by
  unfold rst2Ca
  exact ⟨nullary_bufs_sub .., unary_bufs_sub .., binary_bufs_sub .., unary_bufs_sub .., reshape_bufs_sub .., unary_bufs_sub .., unary_bufs_sub ..⟩

theorem rst2Ca_fresh : (rst2Ca : List (HloOp τ sig (Elt F))).Forall fun op => op.fresh = ∅ := by
  unfold rst2Ca
  exact ⟨rfl, rfl, rfl, rfl, rfl, rfl, rfl⟩

/-- The buffers `rst2Ca` writes. -/
abbrev rst2Ca_W : List (Ref sig .tc) := [main_cst_22, main_v149, main_v150, main_v151, main_v152, main_v153, main_v154]

theorem rst2Ca_writes : (rst2Ca : List (HloOp τ sig (Elt F))).Forall fun op => op.writes ⊆ (rst2Ca_W.map (Proc.devRef (τ := τ) .tc)).toFinset := by
  unfold rst2Ca
  simp only [List.Forall]
  exact ⟨(by written_in_list), (by written_in_list), (by written_in_list), (by written_in_list), (by written_in_list), (by written_in_list), (by written_in_list)⟩

/-- A buffer `rst2Ca` does not write keeps its contents through it. -/
theorem rst2Ca_keep (W : Valuation τ sig (Elt F)) (r : Ref sig .tc) (h : r ∉ rst2Ca_W) :
    after rst2Ca W (Proc.devRef .tc r) = W (Proc.devRef .tc r) :=
  after_of_writes_sub rst2Ca _ rst2Ca_writes h

/-- Layer 2, the rectifier and the column means, part 2 of 2: operations 225 … 231 of 377. -/
def rst2Cb : List (HloOp τ sig (Elt F)) :=
  [
    StableHlo.binary main_v154 main_v148 main_v155 (mulf : (⟨S100000x128, .f32⟩ : BufTy).Contents (Elt F) → (⟨S100000x128, .f32⟩ : BufTy).Contents (Elt F) → (⟨S100000x128, .f32⟩ : BufTy).Contents (Elt F)),
    StableHlo.TRef.ternary (.of main_v150) (.of main_v148) (.of main_v155) main_call5.v0 select,
    StableHlo.nullary main_cst_23 (constant S_ .f32 0x00000000#32),
    StableHlo.binary main_v156 main_cst_23 main_v157 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_24 (constant S_ .f32 0x47C35000#32),
    StableHlo.unary main_cst_24 main_v158 (broadcastInDim S128 ![] bcast_S_S128 : (⟨S_, .f32⟩ : BufTy).Contents (Elt F) → (⟨S128, .f32⟩ : BufTy).Contents (Elt F)),
    StableHlo.binary main_v157 main_v158 main_v159 (Host.divf : (⟨S128, .f32⟩ : BufTy).Contents (Elt F) → (⟨S128, .f32⟩ : BufTy).Contents (Elt F) → (⟨S128, .f32⟩ : BufTy).Contents (Elt F)) ]

theorem rst2Cb_sub : (rst2Cb : List (HloOp τ sig (Elt F))).Forall fun op => op.bufs ⊆ tcRefs τ sig := by
  unfold rst2Cb
  exact ⟨binary_bufs_sub .., ternary_bufs_sub .., nullary_bufs_sub .., binary_bufs_sub .., nullary_bufs_sub .., unary_bufs_sub .., binary_bufs_sub ..⟩

theorem rst2Cb_fresh : (rst2Cb : List (HloOp τ sig (Elt F))).Forall fun op => op.fresh = ∅ := by
  unfold rst2Cb
  exact ⟨rfl, rfl, rfl, rfl, rfl, rfl, rfl⟩

/-- The buffers `rst2Cb` writes. -/
abbrev rst2Cb_W : List (Ref sig .tc) := [main_v155, main_v156, main_cst_23, main_v157, main_cst_24, main_v158, main_v159]

theorem rst2Cb_writes : (rst2Cb : List (HloOp τ sig (Elt F))).Forall fun op => op.writes ⊆ (rst2Cb_W.map (Proc.devRef (τ := τ) .tc)).toFinset := by
  unfold rst2Cb
  simp only [List.Forall]
  exact ⟨(by written_in_list), (by written_in_list), (by written_in_list), (by written_in_list), (by written_in_list), (by written_in_list), (by written_in_list)⟩

/-- A buffer `rst2Cb` does not write keeps its contents through it. -/
theorem rst2Cb_keep (W : Valuation τ sig (Elt F)) (r : Ref sig .tc) (h : r ∉ rst2Cb_W) :
    after rst2Cb W (Proc.devRef .tc r) = W (Proc.devRef .tc r) :=
  after_of_writes_sub rst2Cb _ rst2Cb_writes h

set_option maxHeartbeats 1000000 in
/-- What `rst` says of `main_v156` after `rst2Ca` then `rst2Cb`, from any contents `W`. -/
theorem rst2C_main_v156 (W : Valuation τ sig (Elt F)) :
    after rst2Cb (after rst2Ca W) (Proc.devRef .tc main_v156)
      = rst (W (Proc.devRef .tc main_v148)) (row_2 (W (Proc.devRef .tc main_arg10))) := by
  unfold rst2Ca rst2Cb
  after_results_simp
  all_goals rfl

set_option maxHeartbeats 1000000 in
/-- What `mu` says of `main_v159` after `rst2Ca` then `rst2Cb`, from any contents `W`. -/
theorem rst2C_main_v159 (W : Valuation τ sig (Elt F)) :
    after rst2Cb (after rst2Ca W) (Proc.devRef .tc main_v159)
      = mu (rst (W (Proc.devRef .tc main_v148)) (row_2 (W (Proc.devRef .tc main_arg10)))) := by
  unfold rst2Ca rst2Cb
  after_results_simp
  all_goals rfl

theorem rst2C_keep (W : Valuation τ sig (Elt F)) (r : Ref sig .tc) (h1 : r ∉ rst2Ca_W) (h2 : r ∉ rst2Cb_W) :
    after rst2Cb (after rst2Ca W) (Proc.devRef .tc r) = W (Proc.devRef .tc r) :=
  (rst2Cb_keep _ r h2).trans (rst2Ca_keep W r h1)

/-- Layer 2, the column variances (the variance's lines at its call): operations 232 … 254 of 377. -/
def var2C : List (HloOp τ sig (Elt F)) :=
  [
    StableHlo.nullary main_c_25 (constantI S_ 32 0#32),
    StableHlo.TRef.nullary main_call6.cst (constant S_ .f32 0x00000000#32),
    StableHlo.TRef.binary (.of main_v156) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (.of main_v156) main_call6.v4 main_call6.v5 subf,
    StableHlo.TRef.binary main_call6.v5 main_call6.v5 main_call6.v6 mulf,
    StableHlo.TRef.unary (.of main_c_25) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b) ]

theorem var2C_sub : (var2C : List (HloOp τ sig (Elt F))).Forall fun op => op.bufs ⊆ tcRefs τ sig := by
  unfold var2C
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem var2C_fresh : (var2C : List (HloOp τ sig (Elt F))).Forall fun op => op.fresh = ∅ := by
  unfold var2C
  exact ⟨rfl, rfl, rfl, rfl, rfl, rfl, rfl, rfl, rfl, rfl, rfl, rfl, rfl, rfl, rfl, rfl, rfl, rfl, rfl, rfl, rfl, rfl, rfl⟩

/-- The buffers `var2C` writes. -/
abbrev var2C_W : List (Ref sig .tc) := [main_c_25, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v160]

theorem var2C_writes : (var2C : List (HloOp τ sig (Elt F))).Forall fun op => op.writes ⊆ (var2C_W.map (Proc.devRef (τ := τ) .tc)).toFinset := by
  unfold var2C
  simp only [List.Forall]
  exact ⟨(by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list)⟩

/-- A buffer `var2C` does not write keeps its contents through it. -/
theorem var2C_keep (W : Valuation τ sig (Elt F)) (r : Ref sig .tc) (h : r ∉ var2C_W) :
    after var2C W (Proc.devRef .tc r) = W (Proc.devRef .tc r) :=
  after_of_writes_sub var2C _ var2C_writes h

set_option maxHeartbeats 1000000 in
/-- What `var` says of `main_v160` after `var2C`, from any contents `W`. -/
theorem var2C_main_v160 (W : Valuation τ sig (Elt F)) :
    after var2C W (Proc.devRef .tc main_v160)
      = var (W (Proc.devRef .tc main_v156)) := by
  unfold var2C
  after_results_simp
  all_goals rfl

/-- Layer 2, the normalisation: operations 255 … 274 of 377. -/
def norm2C : List (HloOp τ sig (Elt F)) :=
  [
    StableHlo.unary main_v159 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S100000x128 ![0, 1] bcast_S1x128_S100000x128_0_1 : (⟨S1x128, .f32⟩ : BufTy).Contents (Elt F) → (⟨S100000x128, .f32⟩ : BufTy).Contents (Elt F)),
    StableHlo.binary main_v156 main_v162 main_v163 (subf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x3727C5AC#32),
    StableHlo.unary main_cst_26 main_v164 (broadcastInDim S128 ![] bcast_S_S128 : (⟨S_, .f32⟩ : BufTy).Contents (Elt F) → (⟨S128, .f32⟩ : BufTy).Contents (Elt F)),
    StableHlo.binary main_v160 main_v164 main_v165 (addf : (⟨S128, .f32⟩ : BufTy).Contents (Elt F) → (⟨S128, .f32⟩ : BufTy).Contents (Elt F) → (⟨S128, .f32⟩ : BufTy).Contents (Elt F)),
    StableHlo.unary main_v165 main_v166 (Host.rsqrt : (⟨S128, .f32⟩ : BufTy).Contents (Elt F) → (⟨S128, .f32⟩ : BufTy).Contents (Elt F)),
    StableHlo.unary main_v166 main_v167 (broadcastInDim S1x128 ![1] bcast_S128_S1x128_1 : (⟨S128, .f32⟩ : BufTy).Contents (Elt F) → (⟨S1x128, .f32⟩ : BufTy).Contents (Elt F)),
    StableHlo.unary main_v167 main_v168 (broadcastInDim S100000x128 ![0, 1] bcast_S1x128_S100000x128_0_1 : (⟨S1x128, .f32⟩ : BufTy).Contents (Elt F) → (⟨S100000x128, .f32⟩ : BufTy).Contents (Elt F)),
    StableHlo.binary main_v163 main_v168 main_v169 (mulf : (⟨S100000x128, .f32⟩ : BufTy).Contents (Elt F) → (⟨S100000x128, .f32⟩ : BufTy).Contents (Elt F) → (⟨S100000x128, .f32⟩ : BufTy).Contents (Elt F)),
    StableHlo.unary main_arg8 main_v170 ((extractStridedSlice S1x128 ![2, 0] · slices_S4x128_S1x128_2_0) : (⟨S4x128, .f32⟩ : BufTy).Contents (Elt F) → (⟨S1x128, .f32⟩ : BufTy).Contents (Elt F)),
    StableHlo.reshape main_v170 main_v171 rfl shapeCasts_S1x128_S128,
    StableHlo.unary main_v171 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S100000x128 ![0, 1] bcast_S1x128_S100000x128_0_1 : (⟨S1x128, .f32⟩ : BufTy).Contents (Elt F) → (⟨S100000x128, .f32⟩ : BufTy).Contents (Elt F)),
    StableHlo.binary main_v169 main_v173 main_v174 (mulf : (⟨S100000x128, .f32⟩ : BufTy).Contents (Elt F) → (⟨S100000x128, .f32⟩ : BufTy).Contents (Elt F) → (⟨S100000x128, .f32⟩ : BufTy).Contents (Elt F)),
    StableHlo.unary main_arg9 main_v175 ((extractStridedSlice S1x128 ![2, 0] · slices_S4x128_S1x128_2_0) : (⟨S4x128, .f32⟩ : BufTy).Contents (Elt F) → (⟨S1x128, .f32⟩ : BufTy).Contents (Elt F)),
    StableHlo.reshape main_v175 main_v176 rfl shapeCasts_S1x128_S128,
    StableHlo.unary main_v176 main_v177 (broadcastInDim S1x128 ![1] bcast_S128_S1x128_1 : (⟨S128, .f32⟩ : BufTy).Contents (Elt F) → (⟨S1x128, .f32⟩ : BufTy).Contents (Elt F)),
    StableHlo.unary main_v177 main_v178 (broadcastInDim S100000x128 ![0, 1] bcast_S1x128_S100000x128_0_1 : (⟨S1x128, .f32⟩ : BufTy).Contents (Elt F) → (⟨S100000x128, .f32⟩ : BufTy).Contents (Elt F)),
    StableHlo.binary main_v174 main_v178 main_v179 (addf : (⟨S100000x128, .f32⟩ : BufTy).Contents (Elt F) → (⟨S100000x128, .f32⟩ : BufTy).Contents (Elt F) → (⟨S100000x128, .f32⟩ : BufTy).Contents (Elt F)) ]

theorem norm2C_sub : (norm2C : List (HloOp τ sig (Elt F))).Forall fun op => op.bufs ⊆ tcRefs τ sig := by
  unfold norm2C
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩

theorem norm2C_fresh : (norm2C : List (HloOp τ sig (Elt F))).Forall fun op => op.fresh = ∅ := by
  unfold norm2C
  exact ⟨rfl, rfl, rfl, rfl, rfl, rfl, rfl, rfl, rfl, rfl, rfl, rfl, rfl, rfl, rfl, rfl, rfl, rfl, rfl, rfl⟩

/-- The buffers `norm2C` writes. -/
abbrev norm2C_W : List (Ref sig .tc) := [main_v161, main_v162, main_v163, main_cst_26, main_v164, main_v165, main_v166, main_v167, main_v168, main_v169, main_v170, main_v171, main_v172, main_v173, main_v174, main_v175, main_v176, main_v177, main_v178, main_v179]

theorem norm2C_writes : (norm2C : List (HloOp τ sig (Elt F))).Forall fun op => op.writes ⊆ (norm2C_W.map (Proc.devRef (τ := τ) .tc)).toFinset := by
  unfold norm2C
  simp only [List.Forall]
  exact ⟨(by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list)⟩

/-- A buffer `norm2C` does not write keeps its contents through it. -/
theorem norm2C_keep (W : Valuation τ sig (Elt F)) (r : Ref sig .tc) (h : r ∉ norm2C_W) :
    after norm2C W (Proc.devRef .tc r) = W (Proc.devRef .tc r) :=
  after_of_writes_sub norm2C _ norm2C_writes h

set_option maxHeartbeats 1000000 in
/-- What `norm` says of `main_v179` after `norm2C`, from any contents `W`. -/
theorem norm2C_main_v179 (W : Valuation τ sig (Elt F)) :
    after norm2C W (Proc.devRef .tc main_v179)
      = norm (W (Proc.devRef .tc main_v156)) (W (Proc.devRef .tc main_v159)) (W (Proc.devRef .tc main_v160)) (row_2 (W (Proc.devRef .tc main_arg8))) (row_2 (W (Proc.devRef .tc main_arg9))) := by
  unfold norm2C
  after_results_simp
  all_goals rfl

end Cert.ReferenceIdeal.Run

end
-- ==== Proof.RI.RunL3.lean ====
/-
  The reference's lines for layer 3, as lists of host operations in program order (a function's lines
  listed at its call, over the call's buffers), and what each list leaves in the buffers later lines read: the
  stage's function (RunDefs.lean) of the contents it started from. Every other buffer keeps its contents.
-/
import proofs.«129379_j32899449487582_2_alg».proof.Proof.RI.RunDefs
import Idealize.ShloMosaic.Lib.StableHlo.Run

set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is in the list's. -/
local macro "written_in_list" : tactic =>
  `(tactic| (simp only [nullary_writes, unary_writes, binary_writes, ternary_writes, quaternary_writes, reshape_writes, binaryIndexed_writes, nary_writes, unaryIndexed_writes, Finset.singleton_subset_iff, List.mem_toFinset]; exact List.mem_map_of_mem (by decide)))

/-- Layer 3, the mean over incoming edges (the gather at the sources, the scatter-add at the destinations, the division by the degrees): operations 275 … 290 of 377. -/
def agg3C : List (HloOp τ sig (Elt F)) :=
  [
    StableHlo.nullary main_c_27 (constantI S_ 32 0#32),
    StableHlo.unary main_c_27 main_v180 (broadcastInDim S1600000 ![] bcast_S_S1600000 : (⟨S_, .i32⟩ : BufTy).Contents (Elt F) → (⟨S1600000, .i32⟩ : BufTy).Contents (Elt F)),
    StableHlo.binary main_arg1 main_v180 main_v181 (cmpi .slt : (⟨S1600000, .i32⟩ : BufTy).Contents (Elt F) → (⟨S1600000, .i32⟩ : BufTy).Contents (Elt F) → (⟨S1600000, .i1⟩ : BufTy).Contents (Elt F)),
    StableHlo.nullary main_c_28 (constantI S_ 32 100000#32),
    StableHlo.unary main_c_28 main_v182 (broadcastInDim S1600000 ![] bcast_S_S1600000 : (⟨S_, .i32⟩ : BufTy).Contents (Elt F) → (⟨S1600000, .i32⟩ : BufTy).Contents (Elt F)),
    StableHlo.binary main_arg1 main_v182 main_v183 (addi : (⟨S1600000, .i32⟩ : BufTy).Contents (Elt F) → (⟨S1600000, .i32⟩ : BufTy).Contents (Elt F) → (⟨S1600000, .i32⟩ : BufTy).Contents (Elt F)),
    StableHlo.ternary main_v181 main_v183 main_arg1 main_v184 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v184 main_v185 (broadcastInDim S1600000x1 ![0] bcast_S1600000_S1600000x1_0 : (⟨S1600000, .i32⟩ : BufTy).Contents (Elt F) → (⟨S1600000x1, .i32⟩ : BufTy).Contents (Elt F)),
    StableHlo.binary main_v179 main_v185 main_v186 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_29 (constant S_ .f32 0x00000000#32),
    StableHlo.unary main_cst_29 main_v187 (broadcastInDim S100000x128 ![] bcast_S_S100000x128 : (⟨S_, .f32⟩ : BufTy).Contents (Elt F) → (⟨S100000x128, .f32⟩ : BufTy).Contents (Elt F)),
    StableHlo.unary main_arg2 main_v188 (broadcastInDim S1600000x1 ![0] bcast_S1600000_S1600000x1_0 : (⟨S1600000, .i32⟩ : BufTy).Contents (Elt F) → (⟨S1600000x1, .i32⟩ : BufTy).Contents (Elt F)),
    StableHlo.ternary main_v187 main_v188 main_v186 main_v189 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v11 main_v190 (broadcastInDim S100000x1 ![0] bcast_S100000_S100000x1_0 : (⟨S100000, .f32⟩ : BufTy).Contents (Elt F) → (⟨S100000x1, .f32⟩ : BufTy).Contents (Elt F)),
    StableHlo.unary main_v190 main_v191 (broadcastInDim S100000x128 ![0, 1] bcast_S100000x1_S100000x128_0_1 : (⟨S100000x1, .f32⟩ : BufTy).Contents (Elt F) → (⟨S100000x128, .f32⟩ : BufTy).Contents (Elt F)),
    StableHlo.binary main_v189 main_v191 main_v192 (Host.divf : (⟨S100000x128, .f32⟩ : BufTy).Contents (Elt F) → (⟨S100000x128, .f32⟩ : BufTy).Contents (Elt F) → (⟨S100000x128, .f32⟩ : BufTy).Contents (Elt F)) ]

theorem agg3C_sub : (agg3C : List (HloOp τ sig (Elt F))).Forall fun op => op.bufs ⊆ tcRefs τ sig := by
  unfold agg3C
  exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩

theorem agg3C_fresh : (agg3C : List (HloOp τ sig (Elt F))).Forall fun op => op.fresh = ∅ := by
  unfold agg3C
  exact ⟨rfl, rfl, rfl, rfl, rfl, rfl, rfl, rfl, rfl, rfl, rfl, rfl, rfl, rfl, rfl, rfl⟩

/-- The buffers `agg3C` writes. -/
abbrev agg3C_W : List (Ref sig .tc) := [main_c_27, main_v180, main_v181, main_c_28, main_v182, main_v183, main_v184, main_v185, main_v186, main_cst_29, main_v187, main_v188, main_v189, main_v190, main_v191, main_v192]

theorem agg3C_writes : (agg3C : List (HloOp τ sig (Elt F))).Forall fun op => op.writes ⊆ (agg3C_W.map (Proc.devRef (τ := τ) .tc)).toFinset := by
  unfold agg3C
  simp only [List.Forall]
  exact ⟨(by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list)⟩

/-- A buffer `agg3C` does not write keeps its contents through it. -/
theorem agg3C_keep (W : Valuation τ sig (Elt F)) (r : Ref sig .tc) (h : r ∉ agg3C_W) :
    after agg3C W (Proc.devRef .tc r) = W (Proc.devRef .tc r) :=
  after_of_writes_sub agg3C _ agg3C_writes h

set_option maxHeartbeats 1000000 in
/-- What `agg` says of `main_v192` after `agg3C`, from any contents `W`. -/
theorem agg3C_main_v192 (W : Valuation τ sig (Elt F)) :
    after agg3C W (Proc.devRef .tc main_v192)
      = agg (W (Proc.devRef .tc main_v179)) (W (Proc.devRef .tc main_arg1)) (W (Proc.devRef .tc main_arg2)) (W (Proc.devRef .tc main_v11)) := by
  unfold agg3C
  after_results_simp
  all_goals rfl

/-- Layer 3, the affine map (the two matrices' slices, the two products, the bias): operations 291 … 302 of 377. -/
def lin3C : List (HloOp τ sig (Elt F)) :=
  [
    StableHlo.unary main_arg5 main_v193 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v193 main_v194 rfl shapeCasts_S1x128x128_S128x128,
    StableHlo.binary main_v179 main_v194 main_v195 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v196 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v196 main_v197 rfl shapeCasts_S1x128x128_S128x128,
    StableHlo.binary main_v192 main_v197 main_v198 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v195 main_v198 main_v199 (addf : (⟨S100000x128, .f32⟩ : BufTy).Contents (Elt F) → (⟨S100000x128, .f32⟩ : BufTy).Contents (Elt F) → (⟨S100000x128, .f32⟩ : BufTy).Contents (Elt F)),
    StableHlo.unary main_arg7 main_v200 ((extractStridedSlice S1x128 ![3, 0] · slices_S4x128_S1x128_3_0) : (⟨S4x128, .f32⟩ : BufTy).Contents (Elt F) → (⟨S1x128, .f32⟩ : BufTy).Contents (Elt F)),
    StableHlo.reshape main_v200 main_v201 rfl shapeCasts_S1x128_S128,
    StableHlo.unary main_v201 main_v202 (broadcastInDim S1x128 ![1] bcast_S128_S1x128_1 : (⟨S128, .f32⟩ : BufTy).Contents (Elt F) → (⟨S1x128, .f32⟩ : BufTy).Contents (Elt F)),
    StableHlo.unary main_v202 main_v203 (broadcastInDim S100000x128 ![0, 1] bcast_S1x128_S100000x128_0_1 : (⟨S1x128, .f32⟩ : BufTy).Contents (Elt F) → (⟨S100000x128, .f32⟩ : BufTy).Contents (Elt F)),
    StableHlo.binary main_v199 main_v203 main_v204 (addf : (⟨S100000x128, .f32⟩ : BufTy).Contents (Elt F) → (⟨S100000x128, .f32⟩ : BufTy).Contents (Elt F) → (⟨S100000x128, .f32⟩ : BufTy).Contents (Elt F)) ]

theorem lin3C_sub : (lin3C : List (HloOp τ sig (Elt F))).Forall fun op => op.bufs ⊆ tcRefs τ sig := by
  unfold lin3C
  exact ⟨unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub ..⟩

theorem lin3C_fresh : (lin3C : List (HloOp τ sig (Elt F))).Forall fun op => op.fresh = ∅ := by
  unfold lin3C
  exact ⟨rfl, rfl, rfl, rfl, rfl, rfl, rfl, rfl, rfl, rfl, rfl, rfl⟩

/-- The buffers `lin3C` writes. -/
abbrev lin3C_W : List (Ref sig .tc) := [main_v193, main_v194, main_v195, main_v196, main_v197, main_v198, main_v199, main_v200, main_v201, main_v202, main_v203, main_v204]

theorem lin3C_writes : (lin3C : List (HloOp τ sig (Elt F))).Forall fun op => op.writes ⊆ (lin3C_W.map (Proc.devRef (τ := τ) .tc)).toFinset := by
  unfold lin3C
  simp only [List.Forall]
  exact ⟨(by written_in_list), (by written_in_list), (by written_in_list), (by written_in_list), (by written_in_list), (by written_in_list), (by written_in_list), (by written_in_list), (by written_in_list), (by written_in_list), (by written_in_list), (by written_in_list)⟩

/-- A buffer `lin3C` does not write keeps its contents through it. -/
theorem lin3C_keep (W : Valuation τ sig (Elt F)) (r : Ref sig .tc) (h : r ∉ lin3C_W) :
    after lin3C W (Proc.devRef .tc r) = W (Proc.devRef .tc r) :=
  after_of_writes_sub lin3C _ lin3C_writes h

set_option maxHeartbeats 1000000 in
/-- What `lin` says of `main_v204` after `lin3C`, from any contents `W`. -/
theorem lin3C_main_v204 (W : Valuation τ sig (Elt F)) :
    after lin3C W (Proc.devRef .tc main_v204)
      = lin (W (Proc.devRef .tc main_v179)) (W (Proc.devRef .tc main_v192)) (mat_3 (W (Proc.devRef .tc main_arg5))) (mat_3 (W (Proc.devRef .tc main_arg6))) (row_3 (W (Proc.devRef .tc main_arg7))) := by
  unfold lin3C
  after_results_simp
  all_goals rfl

/-- Layer 3, the rectifier and the column means, part 1 of 2: operations 303 … 305 of 377. -/
def rst3Ca : List (HloOp τ sig (Elt F)) :=
  [
    StableHlo.nullary main_cst_30 (constant S_ .f32 0x00000000#32),
    StableHlo.unary main_cst_30 main_v205 (broadcastInDim S100000x128 ![] bcast_S_S100000x128 : (⟨S_, .f32⟩ : BufTy).Contents (Elt F) → (⟨S100000x128, .f32⟩ : BufTy).Contents (Elt F)),
    StableHlo.binary main_v204 main_v205 main_v206 (cmpf .ogt : (⟨S100000x128, .f32⟩ : BufTy).Contents (Elt F) → (⟨S100000x128, .f32⟩ : BufTy).Contents (Elt F) → (⟨S100000x128, .i1⟩ : BufTy).Contents (Elt F)) ]

theorem rst3Ca_sub : (rst3Ca : List (HloOp τ sig (Elt F))).Forall fun op => op.bufs ⊆ tcRefs τ sig := by
  unfold rst3Ca
  exact ⟨nullary_bufs_sub .., unary_bufs_sub .., binary_bufs_sub ..⟩

theorem rst3Ca_fresh : (rst3Ca : List (HloOp τ sig (Elt F))).Forall fun op => op.fresh = ∅ := by
  unfold rst3Ca
  exact ⟨rfl, rfl, rfl⟩

/-- The buffers `rst3Ca` writes. -/
abbrev rst3Ca_W : List (Ref sig .tc) := [main_cst_30, main_v205, main_v206]

theorem rst3Ca_writes : (rst3Ca : List (HloOp τ sig (Elt F))).Forall fun op => op.writes ⊆ (rst3Ca_W.map (Proc.devRef (τ := τ) .tc)).toFinset := by
  unfold rst3Ca
  simp only [List.Forall]
  exact ⟨(by written_in_list), (by written_in_list), (by written_in_list)⟩

/-- A buffer `rst3Ca` does not write keeps its contents through it. -/
theorem rst3Ca_keep (W : Valuation τ sig (Elt F)) (r : Ref sig .tc) (h : r ∉ rst3Ca_W) :
    after rst3Ca W (Proc.devRef .tc r) = W (Proc.devRef .tc r) :=
  after_of_writes_sub rst3Ca _ rst3Ca_writes h

/-- Layer 3, the rectifier and the column means, part 2 of 2: operations 306 … 316 of 377. -/
def rst3Cb : List (HloOp τ sig (Elt F)) :=
  [
    StableHlo.unary main_arg10 main_v207 ((extractStridedSlice S1x128 ![3, 0] · slices_S4x128_S1x128_3_0) : (⟨S4x128, .f32⟩ : BufTy).Contents (Elt F) → (⟨S1x128, .f32⟩ : BufTy).Contents (Elt F)),
    StableHlo.reshape main_v207 main_v208 rfl shapeCasts_S1x128_S128,
    StableHlo.unary main_v208 main_v209 (broadcastInDim S1x128 ![1] bcast_S128_S1x128_1 : (⟨S128, .f32⟩ : BufTy).Contents (Elt F) → (⟨S1x128, .f32⟩ : BufTy).Contents (Elt F)),
    StableHlo.unary main_v209 main_v210 (broadcastInDim S100000x128 ![0, 1] bcast_S1x128_S100000x128_0_1 : (⟨S1x128, .f32⟩ : BufTy).Contents (Elt F) → (⟨S100000x128, .f32⟩ : BufTy).Contents (Elt F)),
    StableHlo.binary main_v210 main_v204 main_v211 (mulf : (⟨S100000x128, .f32⟩ : BufTy).Contents (Elt F) → (⟨S100000x128, .f32⟩ : BufTy).Contents (Elt F) → (⟨S100000x128, .f32⟩ : BufTy).Contents (Elt F)),
    StableHlo.TRef.ternary (.of main_v206) (.of main_v204) (.of main_v211) main_call7.v0 select,
    StableHlo.nullary main_cst_31 (constant S_ .f32 0x00000000#32),
    StableHlo.binary main_v212 main_cst_31 main_v213 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_32 (constant S_ .f32 0x47C35000#32),
    StableHlo.unary main_cst_32 main_v214 (broadcastInDim S128 ![] bcast_S_S128 : (⟨S_, .f32⟩ : BufTy).Contents (Elt F) → (⟨S128, .f32⟩ : BufTy).Contents (Elt F)),
    StableHlo.binary main_v213 main_v214 main_v215 (Host.divf : (⟨S128, .f32⟩ : BufTy).Contents (Elt F) → (⟨S128, .f32⟩ : BufTy).Contents (Elt F) → (⟨S128, .f32⟩ : BufTy).Contents (Elt F)) ]

theorem rst3Cb_sub : (rst3Cb : List (HloOp τ sig (Elt F))).Forall fun op => op.bufs ⊆ tcRefs τ sig := by
  unfold rst3Cb
  exact ⟨unary_bufs_sub .., reshape_bufs_sub .., unary_bufs_sub .., unary_bufs_sub .., binary_bufs_sub .., ternary_bufs_sub .., nullary_bufs_sub .., binary_bufs_sub .., nullary_bufs_sub .., unary_bufs_sub .., binary_bufs_sub ..⟩

theorem rst3Cb_fresh : (rst3Cb : List (HloOp τ sig (Elt F))).Forall fun op => op.fresh = ∅ := by
  unfold rst3Cb
  exact ⟨rfl, rfl, rfl, rfl, rfl, rfl, rfl, rfl, rfl, rfl, rfl⟩

/-- The buffers `rst3Cb` writes. -/
abbrev rst3Cb_W : List (Ref sig .tc) := [main_v207, main_v208, main_v209, main_v210, main_v211, main_v212, main_cst_31, main_v213, main_cst_32, main_v214, main_v215]

theorem rst3Cb_writes : (rst3Cb : List (HloOp τ sig (Elt F))).Forall fun op => op.writes ⊆ (rst3Cb_W.map (Proc.devRef (τ := τ) .tc)).toFinset := by
  unfold rst3Cb
  simp only [List.Forall]
  exact ⟨(by written_in_list), (by written_in_list), (by written_in_list), (by written_in_list), (by written_in_list), (by written_in_list), (by written_in_list), (by written_in_list), (by written_in_list), (by written_in_list), (by written_in_list)⟩

/-- A buffer `rst3Cb` does not write keeps its contents through it. -/
theorem rst3Cb_keep (W : Valuation τ sig (Elt F)) (r : Ref sig .tc) (h : r ∉ rst3Cb_W) :
    after rst3Cb W (Proc.devRef .tc r) = W (Proc.devRef .tc r) :=
  after_of_writes_sub rst3Cb _ rst3Cb_writes h

set_option maxHeartbeats 1000000 in
/-- What `rst` says of `main_v212` after `rst3Ca` then `rst3Cb`, from any contents `W`. -/
theorem rst3C_main_v212 (W : Valuation τ sig (Elt F)) :
    after rst3Cb (after rst3Ca W) (Proc.devRef .tc main_v212)
      = rst (W (Proc.devRef .tc main_v204)) (row_3 (W (Proc.devRef .tc main_arg10))) := by
  unfold rst3Ca rst3Cb
  after_results_simp
  all_goals rfl

set_option maxHeartbeats 1000000 in
/-- What `mu` says of `main_v215` after `rst3Ca` then `rst3Cb`, from any contents `W`. -/
theorem rst3C_main_v215 (W : Valuation τ sig (Elt F)) :
    after rst3Cb (after rst3Ca W) (Proc.devRef .tc main_v215)
      = mu (rst (W (Proc.devRef .tc main_v204)) (row_3 (W (Proc.devRef .tc main_arg10)))) := by
  unfold rst3Ca rst3Cb
  after_results_simp
  all_goals rfl

theorem rst3C_keep (W : Valuation τ sig (Elt F)) (r : Ref sig .tc) (h1 : r ∉ rst3Ca_W) (h2 : r ∉ rst3Cb_W) :
    after rst3Cb (after rst3Ca W) (Proc.devRef .tc r) = W (Proc.devRef .tc r) :=
  (rst3Cb_keep _ r h2).trans (rst3Ca_keep W r h1)

/-- Layer 3, the column variances (the variance's lines at its call): operations 317 … 339 of 377. -/
def var3C : List (HloOp τ sig (Elt F)) :=
  [
    StableHlo.nullary main_c_33 (constantI S_ 32 0#32),
    StableHlo.TRef.nullary main_call8.cst (constant S_ .f32 0x00000000#32),
    StableHlo.TRef.binary (.of main_v212) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (.of main_v212) main_call8.v4 main_call8.v5 subf,
    StableHlo.TRef.binary main_call8.v5 main_call8.v5 main_call8.v6 mulf,
    StableHlo.TRef.unary (.of main_c_33) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b) ]

theorem var3C_sub : (var3C : List (HloOp τ sig (Elt F))).Forall fun op => op.bufs ⊆ tcRefs τ sig := by
  unfold var3C
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem var3C_fresh : (var3C : List (HloOp τ sig (Elt F))).Forall fun op => op.fresh = ∅ := by
  unfold var3C
  exact ⟨rfl, rfl, rfl, rfl, rfl, rfl, rfl, rfl, rfl, rfl, rfl, rfl, rfl, rfl, rfl, rfl, rfl, rfl, rfl, rfl, rfl, rfl, rfl⟩

/-- The buffers `var3C` writes. -/
abbrev var3C_W : List (Ref sig .tc) := [main_c_33, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v216]

theorem var3C_writes : (var3C : List (HloOp τ sig (Elt F))).Forall fun op => op.writes ⊆ (var3C_W.map (Proc.devRef (τ := τ) .tc)).toFinset := by
  unfold var3C
  simp only [List.Forall]
  exact ⟨(by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list)⟩

/-- A buffer `var3C` does not write keeps its contents through it. -/
theorem var3C_keep (W : Valuation τ sig (Elt F)) (r : Ref sig .tc) (h : r ∉ var3C_W) :
    after var3C W (Proc.devRef .tc r) = W (Proc.devRef .tc r) :=
  after_of_writes_sub var3C _ var3C_writes h

set_option maxHeartbeats 1000000 in
/-- What `var` says of `main_v216` after `var3C`, from any contents `W`. -/
theorem var3C_main_v216 (W : Valuation τ sig (Elt F)) :
    after var3C W (Proc.devRef .tc main_v216)
      = var (W (Proc.devRef .tc main_v212)) := by
  unfold var3C
  after_results_simp
  all_goals rfl

/-- Layer 3, the normalisation: operations 340 … 359 of 377. -/
def norm3C : List (HloOp τ sig (Elt F)) :=
  [
    StableHlo.unary main_v215 main_v217 (broadcastInDim S1x128 ![1] bcast_S128_S1x128_1 : (⟨S128, .f32⟩ : BufTy).Contents (Elt F) → (⟨S1x128, .f32⟩ : BufTy).Contents (Elt F)),
    StableHlo.unary main_v217 main_v218 (broadcastInDim S100000x128 ![0, 1] bcast_S1x128_S100000x128_0_1 : (⟨S1x128, .f32⟩ : BufTy).Contents (Elt F) → (⟨S100000x128, .f32⟩ : BufTy).Contents (Elt F)),
    StableHlo.binary main_v212 main_v218 main_v219 (subf : (⟨S100000x128, .f32⟩ : BufTy).Contents (Elt F) → (⟨S100000x128, .f32⟩ : BufTy).Contents (Elt F) → (⟨S100000x128, .f32⟩ : BufTy).Contents (Elt F)),
    StableHlo.nullary main_cst_34 (constant S_ .f32 0x3727C5AC#32),
    StableHlo.unary main_cst_34 main_v220 (broadcastInDim S128 ![] bcast_S_S128 : (⟨S_, .f32⟩ : BufTy).Contents (Elt F) → (⟨S128, .f32⟩ : BufTy).Contents (Elt F)),
    StableHlo.binary main_v216 main_v220 main_v221 (addf : (⟨S128, .f32⟩ : BufTy).Contents (Elt F) → (⟨S128, .f32⟩ : BufTy).Contents (Elt F) → (⟨S128, .f32⟩ : BufTy).Contents (Elt F)),
    StableHlo.unary main_v221 main_v222 (Host.rsqrt : (⟨S128, .f32⟩ : BufTy).Contents (Elt F) → (⟨S128, .f32⟩ : BufTy).Contents (Elt F)),
    StableHlo.unary main_v222 main_v223 (broadcastInDim S1x128 ![1] bcast_S128_S1x128_1 : (⟨S128, .f32⟩ : BufTy).Contents (Elt F) → (⟨S1x128, .f32⟩ : BufTy).Contents (Elt F)),
    StableHlo.unary main_v223 main_v224 (broadcastInDim S100000x128 ![0, 1] bcast_S1x128_S100000x128_0_1 : (⟨S1x128, .f32⟩ : BufTy).Contents (Elt F) → (⟨S100000x128, .f32⟩ : BufTy).Contents (Elt F)),
    StableHlo.binary main_v219 main_v224 main_v225 (mulf : (⟨S100000x128, .f32⟩ : BufTy).Contents (Elt F) → (⟨S100000x128, .f32⟩ : BufTy).Contents (Elt F) → (⟨S100000x128, .f32⟩ : BufTy).Contents (Elt F)),
    StableHlo.unary main_arg8 main_v226 ((extractStridedSlice S1x128 ![3, 0] · slices_S4x128_S1x128_3_0) : (⟨S4x128, .f32⟩ : BufTy).Contents (Elt F) → (⟨S1x128, .f32⟩ : BufTy).Contents (Elt F)),
    StableHlo.reshape main_v226 main_v227 rfl shapeCasts_S1x128_S128,
    StableHlo.unary main_v227 main_v228 (broadcastInDim S1x128 ![1] bcast_S128_S1x128_1 : (⟨S128, .f32⟩ : BufTy).Contents (Elt F) → (⟨S1x128, .f32⟩ : BufTy).Contents (Elt F)),
    StableHlo.unary main_v228 main_v229 (broadcastInDim S100000x128 ![0, 1] bcast_S1x128_S100000x128_0_1 : (⟨S1x128, .f32⟩ : BufTy).Contents (Elt F) → (⟨S100000x128, .f32⟩ : BufTy).Contents (Elt F)),
    StableHlo.binary main_v225 main_v229 main_v230 (mulf : (⟨S100000x128, .f32⟩ : BufTy).Contents (Elt F) → (⟨S100000x128, .f32⟩ : BufTy).Contents (Elt F) → (⟨S100000x128, .f32⟩ : BufTy).Contents (Elt F)),
    StableHlo.unary main_arg9 main_v231 ((extractStridedSlice S1x128 ![3, 0] · slices_S4x128_S1x128_3_0) : (⟨S4x128, .f32⟩ : BufTy).Contents (Elt F) → (⟨S1x128, .f32⟩ : BufTy).Contents (Elt F)),
    StableHlo.reshape main_v231 main_v232 rfl shapeCasts_S1x128_S128,
    StableHlo.unary main_v232 main_v233 (broadcastInDim S1x128 ![1] bcast_S128_S1x128_1 : (⟨S128, .f32⟩ : BufTy).Contents (Elt F) → (⟨S1x128, .f32⟩ : BufTy).Contents (Elt F)),
    StableHlo.unary main_v233 main_v234 (broadcastInDim S100000x128 ![0, 1] bcast_S1x128_S100000x128_0_1 : (⟨S1x128, .f32⟩ : BufTy).Contents (Elt F) → (⟨S100000x128, .f32⟩ : BufTy).Contents (Elt F)),
    StableHlo.binary main_v230 main_v234 main_v235 (addf : (⟨S100000x128, .f32⟩ : BufTy).Contents (Elt F) → (⟨S100000x128, .f32⟩ : BufTy).Contents (Elt F) → (⟨S100000x128, .f32⟩ : BufTy).Contents (Elt F)) ]

theorem norm3C_sub : (norm3C : List (HloOp τ sig (Elt F))).Forall fun op => op.bufs ⊆ tcRefs τ sig := by
  unfold norm3C
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩

theorem norm3C_fresh : (norm3C : List (HloOp τ sig (Elt F))).Forall fun op => op.fresh = ∅ := by
  unfold norm3C
  exact ⟨rfl, rfl, rfl, rfl, rfl, rfl, rfl, rfl, rfl, rfl, rfl, rfl, rfl, rfl, rfl, rfl, rfl, rfl, rfl, rfl⟩

/-- The buffers `norm3C` writes. -/
abbrev norm3C_W : List (Ref sig .tc) := [main_v217, main_v218, main_v219, main_cst_34, main_v220, main_v221, main_v222, main_v223, main_v224, main_v225, main_v226, main_v227, main_v228, main_v229, main_v230, main_v231, main_v232, main_v233, main_v234, main_v235]

theorem norm3C_writes : (norm3C : List (HloOp τ sig (Elt F))).Forall fun op => op.writes ⊆ (norm3C_W.map (Proc.devRef (τ := τ) .tc)).toFinset := by
  unfold norm3C
  simp only [List.Forall]
  exact ⟨(by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list)⟩

/-- A buffer `norm3C` does not write keeps its contents through it. -/
theorem norm3C_keep (W : Valuation τ sig (Elt F)) (r : Ref sig .tc) (h : r ∉ norm3C_W) :
    after norm3C W (Proc.devRef .tc r) = W (Proc.devRef .tc r) :=
  after_of_writes_sub norm3C _ norm3C_writes h

set_option maxHeartbeats 1000000 in
/-- What `norm` says of `main_v235` after `norm3C`, from any contents `W`. -/
theorem norm3C_main_v235 (W : Valuation τ sig (Elt F)) :
    after norm3C W (Proc.devRef .tc main_v235)
      = norm (W (Proc.devRef .tc main_v212)) (W (Proc.devRef .tc main_v215)) (W (Proc.devRef .tc main_v216)) (row_3 (W (Proc.devRef .tc main_arg8))) (row_3 (W (Proc.devRef .tc main_arg9))) := by
  unfold norm3C
  after_results_simp
  all_goals rfl

end Cert.ReferenceIdeal.Run

end
-- ==== Proof.RI.RunPost.lean ====
/-
  The reference's lines for the readout, as lists of host operations in program order (a function's lines
  listed at its call, over the call's buffers), and what each list leaves in the buffers later lines read: the
  stage's function (RunDefs.lean) of the contents it started from. Every other buffer keeps its contents.
-/
import proofs.«129379_j32899449487582_2_alg».proof.Proof.RI.RunDefs
import Idealize.ShloMosaic.Lib.StableHlo.Run

set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is in the list's. -/
local macro "written_in_list" : tactic =>
  `(tactic| (simp only [nullary_writes, unary_writes, binary_writes, ternary_writes, quaternary_writes, reshape_writes, binaryIndexed_writes, nary_writes, unaryIndexed_writes, Finset.singleton_subset_iff, List.mem_toFinset]; exact List.mem_map_of_mem (by decide)))

/-- The readout: the concatenation, the two scatter-adds over the graphs, the clip's three lines at its call, the division: lines %236 … %247. -/
def poolC : List (HloOp τ sig (Elt F)) :=
  [
    StableHlo.nary ![main_v67, main_v123, main_v179, main_v235] main_v236 (fun u => concatenate S100000x512 1 [⟨S100000x128, u 0⟩, ⟨S100000x128, u 1⟩, ⟨S100000x128, u 2⟩, ⟨S100000x128, u 3⟩] concatenates_S100000x128_S100000x128_S100000x128_S100000x128_S100000x512_d1),
    StableHlo.nullary main_cst_35 (constant S_ .f32 0x3F800000#32),
    StableHlo.unary main_cst_35 main_v237 (broadcastInDim S100000 ![] bcast_S_S100000 : (⟨S_, .f32⟩ : BufTy).Contents (Elt F) → (⟨S100000, .f32⟩ : BufTy).Contents (Elt F)),
    StableHlo.nullary main_cst_36 (constant S_ .f32 0x00000000#32),
    StableHlo.unary main_cst_36 main_v238 (broadcastInDim S128 ![] bcast_S_S128 : (⟨S_, .f32⟩ : BufTy).Contents (Elt F) → (⟨S128, .f32⟩ : BufTy).Contents (Elt F)),
    StableHlo.unary main_arg3 main_v239 (broadcastInDim S100000x1 ![0] bcast_S100000_S100000x1_0 : (⟨S100000, .i32⟩ : BufTy).Contents (Elt F) → (⟨S100000x1, .i32⟩ : BufTy).Contents (Elt F)),
    StableHlo.ternary main_v238 main_v239 main_v237 main_v240 ((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)),
    StableHlo.nullary main_cst_37 (constant S_ .f32 0x3F800000#32),
    StableHlo.TRef.unary (.of main_cst_37) main_call9.v0 id,
    StableHlo.TRef.unary main_call9.v0 main_call9.v1 (broadcastInDim S128 ![] bcast_S_S128),
    StableHlo.TRef.binary main_call9.v1 (.of main_v240) main_call9.v2 maximumf,
    StableHlo.nullary main_cst_38 (constant S_ .f32 0x00000000#32),
    StableHlo.unary main_cst_38 main_v242 (broadcastInDim S128x512 ![] bcast_S_S128x512 : (⟨S_, .f32⟩ : BufTy).Contents (Elt F) → (⟨S128x512, .f32⟩ : BufTy).Contents (Elt F)),
    StableHlo.unary main_arg3 main_v243 (broadcastInDim S100000x1 ![0] bcast_S100000_S100000x1_0 : (⟨S100000, .i32⟩ : BufTy).Contents (Elt F) → (⟨S100000x1, .i32⟩ : BufTy).Contents (Elt F)),
    StableHlo.ternary main_v242 main_v243 main_v236 main_v244 ((fun x i u => Host.scatterAdd scatter_S128x512_S100000x1_S100000x512_1_0_0_1 x i u) : (⟨S128x512, .f32⟩ : BufTy).Contents (Elt F) → (⟨S100000x1, .i32⟩ : BufTy).Contents (Elt F) → (⟨S100000x512, .f32⟩ : BufTy).Contents (Elt F) → (⟨S128x512, .f32⟩ : BufTy).Contents (Elt F)),
    StableHlo.unary main_v241 main_v245 (broadcastInDim S128x1 ![0] bcast_S128_S128x1_0 : (⟨S128, .f32⟩ : BufTy).Contents (Elt F) → (⟨S128x1, .f32⟩ : BufTy).Contents (Elt F)),
    StableHlo.unary main_v245 main_v246 (broadcastInDim S128x512 ![0, 1] bcast_S128x1_S128x512_0_1 : (⟨S128x1, .f32⟩ : BufTy).Contents (Elt F) → (⟨S128x512, .f32⟩ : BufTy).Contents (Elt F)),
    StableHlo.binary main_v244 main_v246 main_v247 (Host.divf : (⟨S128x512, .f32⟩ : BufTy).Contents (Elt F) → (⟨S128x512, .f32⟩ : BufTy).Contents (Elt F) → (⟨S128x512, .f32⟩ : BufTy).Contents (Elt F)) ]

theorem poolC_sub : (poolC : List (HloOp τ sig (Elt F))).Forall fun op => op.bufs ⊆ tcRefs τ sig := by
  unfold poolC
  exact ⟨nary_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

theorem poolC_fresh : (poolC : List (HloOp τ sig (Elt F))).Forall fun op => op.fresh = ∅ := by
  unfold poolC
  exact ⟨rfl, rfl, rfl, rfl, rfl, rfl, rfl, rfl, rfl, rfl, rfl, rfl, rfl, rfl, rfl, rfl, rfl, rfl⟩

/-- The buffers `poolC` writes. -/
abbrev poolC_W : List (Ref sig .tc) := [main_v236, main_cst_35, main_v237, main_cst_36, main_v238, main_v239, main_v240, main_cst_37, main_call9_v0, main_call9_v1, main_v241, main_cst_38, main_v242, main_v243, main_v244, main_v245, main_v246, main_v247]

theorem poolC_writes : (poolC : List (HloOp τ sig (Elt F))).Forall fun op => op.writes ⊆ (poolC_W.map (Proc.devRef (τ := τ) .tc)).toFinset := by
  unfold poolC
  simp only [List.Forall]
  exact ⟨(by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list), (by written_in_list)⟩

/-- A buffer `poolC` does not write keeps its contents through it. -/
theorem poolC_keep (W : Valuation τ sig (Elt F)) (r : Ref sig .tc) (h : r ∉ poolC_W) :
    after poolC W (Proc.devRef .tc r) = W (Proc.devRef .tc r) :=
  after_of_writes_sub poolC _ poolC_writes h

set_option maxHeartbeats 1000000 in
/-- What `pooled` says of `main_v247` after `poolC`, from any contents `W`. -/
theorem poolC_main_v247 (W : Valuation τ sig (Elt F)) :
    after poolC W (Proc.devRef .tc main_v247)
      = pooled (W (Proc.devRef .tc main_v67)) (W (Proc.devRef .tc main_v123)) (W (Proc.devRef .tc main_v179)) (W (Proc.devRef .tc main_v235)) (W (Proc.devRef .tc main_arg3)) := by
  unfold poolC
  after_results_simp
  all_goals rfl

end Cert.ReferenceIdeal.Run

end
-- ==== Proof.RI.RunAll.lean ====
/-
  The reference's run, assembled: the program is the straight line of the stage lists in order (each window of
  the printed program is the lists it spans, a function's lines at its call), so from any launch memory every
  weakly fair execution terminates with each buffer at the lists' fold over the launch contents; the fold is read
  stage by stage — after each stage list every buffer still to be read holds its stage's function (RunDefs.lean) of
  the argument arrays — and ends with the result buffer at `out` of the eleven arguments and the arguments unchanged.
-/
import proofs.«129379_j32899449487582_2_alg».proof.Proof.RI.RunPre
import proofs.«129379_j32899449487582_2_alg».proof.Proof.RI.RunL0
import proofs.«129379_j32899449487582_2_alg».proof.Proof.RI.RunL1
import proofs.«129379_j32899449487582_2_alg».proof.Proof.RI.RunL2
import proofs.«129379_j32899449487582_2_alg».proof.Proof.RI.RunL3
import proofs.«129379_j32899449487582_2_alg».proof.Proof.RI.RunPost
import Idealize.ShloMosaic.Lib.StableHlo.Run

set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- A concatenation's fold is the second list's over the first's. -/
theorem after_app (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

/-- What holds of every operation of two lists holds of every operation of their concatenation. -/
theorem forall_app {p : HloOp τ sig (Elt F) → Prop} {l₁ l₂ : List (HloOp τ sig (Elt F))} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-! ## The program as the stage lists in order -/

/-- The operations of the printed program's window 0 (statements 1 … 60). -/
def win0 : List (HloOp τ sig (Elt F)) :=
  embC ++ (degC ++ (agg0C ++ (lin0C ++ (rst0C ++ (var0Ca)))))

set_option maxHeartbeats 4000000 in
theorem main_part0_eq (c : Dev nD) : main_part0 (F := F) c = seq win0 := rfl

theorem win0_sub : (win0 : List (HloOp τ sig (Elt F))).Forall fun op => op.bufs ⊆ tcRefs τ sig :=
  forall_app embC_sub (forall_app degC_sub (forall_app agg0C_sub (forall_app lin0C_sub (forall_app rst0C_sub (var0Ca_sub)))))

theorem win0_fresh : (win0 : List (HloOp τ sig (Elt F))).Forall fun op => op.fresh = ∅ :=
  forall_app embC_fresh (forall_app degC_fresh (forall_app agg0C_fresh (forall_app lin0C_fresh (forall_app rst0C_fresh (var0Ca_fresh)))))

/-- The operations of the printed program's window 1 (statements 61 … 120). -/
def win1 : List (HloOp τ sig (Elt F)) :=
  var0Cb ++ (norm0C ++ (agg1C ++ (lin1C ++ (rst1Ca))))

set_option maxHeartbeats 4000000 in
theorem main_part1_eq (c : Dev nD) : main_part1 (F := F) c = seq win1 := rfl

theorem win1_sub : (win1 : List (HloOp τ sig (Elt F))).Forall fun op => op.bufs ⊆ tcRefs τ sig :=
  forall_app var0Cb_sub (forall_app norm0C_sub (forall_app agg1C_sub (forall_app lin1C_sub (rst1Ca_sub))))

theorem win1_fresh : (win1 : List (HloOp τ sig (Elt F))).Forall fun op => op.fresh = ∅ :=
  forall_app var0Cb_fresh (forall_app norm0C_fresh (forall_app agg1C_fresh (forall_app lin1C_fresh (rst1Ca_fresh))))

/-- The operations of the printed program's window 2 (statements 121 … 180). -/
def win2 : List (HloOp τ sig (Elt F)) :=
  rst1Cb ++ (var1C ++ (norm1C ++ (agg2C ++ (lin2C ++ (rst2Ca)))))

set_option maxHeartbeats 4000000 in
theorem main_part2_eq (c : Dev nD) : main_part2 (F := F) c = seq win2 := rfl

theorem win2_sub : (win2 : List (HloOp τ sig (Elt F))).Forall fun op => op.bufs ⊆ tcRefs τ sig :=
  forall_app rst1Cb_sub (forall_app var1C_sub (forall_app norm1C_sub (forall_app agg2C_sub (forall_app lin2C_sub (rst2Ca_sub)))))

theorem win2_fresh : (win2 : List (HloOp τ sig (Elt F))).Forall fun op => op.fresh = ∅ :=
  forall_app rst1Cb_fresh (forall_app var1C_fresh (forall_app norm1C_fresh (forall_app agg2C_fresh (forall_app lin2C_fresh (rst2Ca_fresh)))))

/-- The operations of the printed program's window 3 (statements 181 … 240). -/
def win3 : List (HloOp τ sig (Elt F)) :=
  rst2Cb ++ (var2C ++ (norm2C ++ (agg3C ++ (lin3C ++ (rst3Ca)))))

set_option maxHeartbeats 4000000 in
theorem main_part3_eq (c : Dev nD) : main_part3 (F := F) c = seq win3 := rfl

theorem win3_sub : (win3 : List (HloOp τ sig (Elt F))).Forall fun op => op.bufs ⊆ tcRefs τ sig :=
  forall_app rst2Cb_sub (forall_app var2C_sub (forall_app norm2C_sub (forall_app agg3C_sub (forall_app lin3C_sub (rst3Ca_sub)))))

theorem win3_fresh : (win3 : List (HloOp τ sig (Elt F))).Forall fun op => op.fresh = ∅ :=
  forall_app rst2Cb_fresh (forall_app var2C_fresh (forall_app norm2C_fresh (forall_app agg3C_fresh (forall_app lin3C_fresh (rst3Ca_fresh)))))

/-- The operations of the printed program's window 4 (statements 241 … 289). -/
def win4 : List (HloOp τ sig (Elt F)) :=
  rst3Cb ++ (var3C ++ (norm3C ++ (poolC)))

set_option maxHeartbeats 4000000 in
theorem main_part4_eq (c : Dev nD) : main_part4 (F := F) c = seq win4 := rfl

theorem win4_sub : (win4 : List (HloOp τ sig (Elt F))).Forall fun op => op.bufs ⊆ tcRefs τ sig :=
  forall_app rst3Cb_sub (forall_app var3C_sub (forall_app norm3C_sub (poolC_sub)))

theorem win4_fresh : (win4 : List (HloOp τ sig (Elt F))).Forall fun op => op.fresh = ∅ :=
  forall_app rst3Cb_fresh (forall_app var3C_fresh (forall_app norm3C_fresh (poolC_fresh)))

/-- @main's 377 operations, in order. -/
def ops : List (HloOp τ sig (Elt F)) :=
  win0 ++ (win1 ++ (win2 ++ (win3 ++ win4)))

theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app win0_sub (forall_app win1_sub (forall_app win2_sub (forall_app win3_sub win4_sub)))

theorem ops_fresh : ∀ op ∈ (ops : List (HloOp τ sig (Elt F))), op.fresh = ∅ :=
  List.forall_iff_forall_mem.mp (forall_app win0_fresh (forall_app win1_fresh (forall_app win2_fresh (forall_app win3_fresh win4_fresh))))

/-! ## The fold, stage by stage

`valK V0`: the buffers' contents after the first K stage lists, from contents `V0`; `valK_‹buffer›`: what a buffer
still to be read holds then, as the stages' functions of the argument arrays. -/

/-- The buffers' contents before the first stage list. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl

/-- The buffers' contents after `embC`. -/
def val1 (V0 : Valuation τ sig (Elt F)) : Valuation τ sig (Elt F) := after embC (val0 V0)
theorem val1_main_v6 (V0 : Valuation τ sig (Elt F)) : val1 V0 (no_index (Proc.devRef .tc main_v6)) = emb0 (V0 (Proc.devRef .tc main_arg0)) (V0 (Proc.devRef .tc main_arg4)) :=
  (embC_main_v6 (val0 V0)).trans (by simp only [val0_main_arg0, val0_main_arg4])
theorem val1_main_arg0 (V0 : Valuation τ sig (Elt F)) : val1 V0 (no_index (Proc.devRef .tc main_arg0)) = V0 (Proc.devRef .tc main_arg0) :=
  (embC_keep _ main_arg0 (by decide)).trans (val0_main_arg0 V0)
theorem val1_main_arg1 (V0 : Valuation τ sig (Elt F)) : val1 V0 (no_index (Proc.devRef .tc main_arg1)) = V0 (Proc.devRef .tc main_arg1) :=
  (embC_keep _ main_arg1 (by decide)).trans (val0_main_arg1 V0)
theorem val1_main_arg2 (V0 : Valuation τ sig (Elt F)) : val1 V0 (no_index (Proc.devRef .tc main_arg2)) = V0 (Proc.devRef .tc main_arg2) :=
  (embC_keep _ main_arg2 (by decide)).trans (val0_main_arg2 V0)
theorem val1_main_arg3 (V0 : Valuation τ sig (Elt F)) : val1 V0 (no_index (Proc.devRef .tc main_arg3)) = V0 (Proc.devRef .tc main_arg3) :=
  (embC_keep _ main_arg3 (by decide)).trans (val0_main_arg3 V0)
theorem val1_main_arg4 (V0 : Valuation τ sig (Elt F)) : val1 V0 (no_index (Proc.devRef .tc main_arg4)) = V0 (Proc.devRef .tc main_arg4) :=
  (embC_keep _ main_arg4 (by decide)).trans (val0_main_arg4 V0)
theorem val1_main_arg5 (V0 : Valuation τ sig (Elt F)) : val1 V0 (no_index (Proc.devRef .tc main_arg5)) = V0 (Proc.devRef .tc main_arg5) :=
  (embC_keep _ main_arg5 (by decide)).trans (val0_main_arg5 V0)
theorem val1_main_arg6 (V0 : Valuation τ sig (Elt F)) : val1 V0 (no_index (Proc.devRef .tc main_arg6)) = V0 (Proc.devRef .tc main_arg6) :=
  (embC_keep _ main_arg6 (by decide)).trans (val0_main_arg6 V0)
theorem val1_main_arg7 (V0 : Valuation τ sig (Elt F)) : val1 V0 (no_index (Proc.devRef .tc main_arg7)) = V0 (Proc.devRef .tc main_arg7) :=
  (embC_keep _ main_arg7 (by decide)).trans (val0_main_arg7 V0)
theorem val1_main_arg8 (V0 : Valuation τ sig (Elt F)) : val1 V0 (no_index (Proc.devRef .tc main_arg8)) = V0 (Proc.devRef .tc main_arg8) :=
  (embC_keep _ main_arg8 (by decide)).trans (val0_main_arg8 V0)
theorem val1_main_arg9 (V0 : Valuation τ sig (Elt F)) : val1 V0 (no_index (Proc.devRef .tc main_arg9)) = V0 (Proc.devRef .tc main_arg9) :=
  (embC_keep _ main_arg9 (by decide)).trans (val0_main_arg9 V0)
theorem val1_main_arg10 (V0 : Valuation τ sig (Elt F)) : val1 V0 (no_index (Proc.devRef .tc main_arg10)) = V0 (Proc.devRef .tc main_arg10) :=
  (embC_keep _ main_arg10 (by decide)).trans (val0_main_arg10 V0)

/-- The buffers' contents after `degC`. -/
def val2 (V0 : Valuation τ sig (Elt F)) : Valuation τ sig (Elt F) := after degC (val1 V0)
theorem val2_main_v6 (V0 : Valuation τ sig (Elt F)) : val2 V0 (no_index (Proc.devRef .tc main_v6)) = emb0 (V0 (Proc.devRef .tc main_arg0)) (V0 (Proc.devRef .tc main_arg4)) :=
  (degC_keep _ main_v6 (by decide)).trans (val1_main_v6 V0)
theorem val2_main_v11 (V0 : Valuation τ sig (Elt F)) : val2 V0 (no_index (Proc.devRef .tc main_v11)) = deg (V0 (Proc.devRef .tc main_arg2)) :=
  (degC_main_v11 (val1 V0)).trans (by simp only [val1_main_arg2])
theorem val2_main_arg0 (V0 : Valuation τ sig (Elt F)) : val2 V0 (no_index (Proc.devRef .tc main_arg0)) = V0 (Proc.devRef .tc main_arg0) :=
  (degC_keep _ main_arg0 (by decide)).trans (val1_main_arg0 V0)
theorem val2_main_arg1 (V0 : Valuation τ sig (Elt F)) : val2 V0 (no_index (Proc.devRef .tc main_arg1)) = V0 (Proc.devRef .tc main_arg1) :=
  (degC_keep _ main_arg1 (by decide)).trans (val1_main_arg1 V0)
theorem val2_main_arg2 (V0 : Valuation τ sig (Elt F)) : val2 V0 (no_index (Proc.devRef .tc main_arg2)) = V0 (Proc.devRef .tc main_arg2) :=
  (degC_keep _ main_arg2 (by decide)).trans (val1_main_arg2 V0)
theorem val2_main_arg3 (V0 : Valuation τ sig (Elt F)) : val2 V0 (no_index (Proc.devRef .tc main_arg3)) = V0 (Proc.devRef .tc main_arg3) :=
  (degC_keep _ main_arg3 (by decide)).trans (val1_main_arg3 V0)
theorem val2_main_arg4 (V0 : Valuation τ sig (Elt F)) : val2 V0 (no_index (Proc.devRef .tc main_arg4)) = V0 (Proc.devRef .tc main_arg4) :=
  (degC_keep _ main_arg4 (by decide)).trans (val1_main_arg4 V0)
theorem val2_main_arg5 (V0 : Valuation τ sig (Elt F)) : val2 V0 (no_index (Proc.devRef .tc main_arg5)) = V0 (Proc.devRef .tc main_arg5) :=
  (degC_keep _ main_arg5 (by decide)).trans (val1_main_arg5 V0)
theorem val2_main_arg6 (V0 : Valuation τ sig (Elt F)) : val2 V0 (no_index (Proc.devRef .tc main_arg6)) = V0 (Proc.devRef .tc main_arg6) :=
  (degC_keep _ main_arg6 (by decide)).trans (val1_main_arg6 V0)
theorem val2_main_arg7 (V0 : Valuation τ sig (Elt F)) : val2 V0 (no_index (Proc.devRef .tc main_arg7)) = V0 (Proc.devRef .tc main_arg7) :=
  (degC_keep _ main_arg7 (by decide)).trans (val1_main_arg7 V0)
theorem val2_main_arg8 (V0 : Valuation τ sig (Elt F)) : val2 V0 (no_index (Proc.devRef .tc main_arg8)) = V0 (Proc.devRef .tc main_arg8) :=
  (degC_keep _ main_arg8 (by decide)).trans (val1_main_arg8 V0)
theorem val2_main_arg9 (V0 : Valuation τ sig (Elt F)) : val2 V0 (no_index (Proc.devRef .tc main_arg9)) = V0 (Proc.devRef .tc main_arg9) :=
  (degC_keep _ main_arg9 (by decide)).trans (val1_main_arg9 V0)
theorem val2_main_arg10 (V0 : Valuation τ sig (Elt F)) : val2 V0 (no_index (Proc.devRef .tc main_arg10)) = V0 (Proc.devRef .tc main_arg10) :=
  (degC_keep _ main_arg10 (by decide)).trans (val1_main_arg10 V0)

/-- The buffers' contents after `agg0C`. -/
def val3 (V0 : Valuation τ sig (Elt F)) : Valuation τ sig (Elt F) := after agg0C (val2 V0)
theorem val3_main_v6 (V0 : Valuation τ sig (Elt F)) : val3 V0 (no_index (Proc.devRef .tc main_v6)) = emb0 (V0 (Proc.devRef .tc main_arg0)) (V0 (Proc.devRef .tc main_arg4)) :=
  (agg0C_keep _ main_v6 (by decide)).trans (val2_main_v6 V0)
theorem val3_main_v11 (V0 : Valuation τ sig (Elt F)) : val3 V0 (no_index (Proc.devRef .tc main_v11)) = deg (V0 (Proc.devRef .tc main_arg2)) :=
  (agg0C_keep _ main_v11 (by decide)).trans (val2_main_v11 V0)
theorem val3_main_v24 (V0 : Valuation τ sig (Elt F)) : val3 V0 (no_index (Proc.devRef .tc main_v24)) = agg (emb0 (V0 (Proc.devRef .tc main_arg0)) (V0 (Proc.devRef .tc main_arg4))) (V0 (Proc.devRef .tc main_arg1)) (V0 (Proc.devRef .tc main_arg2)) (deg (V0 (Proc.devRef .tc main_arg2))) :=
  (agg0C_main_v24 (val2 V0)).trans (by simp only [val2_main_v6, val2_main_arg1, val2_main_arg2, val2_main_v11])
theorem val3_main_arg0 (V0 : Valuation τ sig (Elt F)) : val3 V0 (no_index (Proc.devRef .tc main_arg0)) = V0 (Proc.devRef .tc main_arg0) :=
  (agg0C_keep _ main_arg0 (by decide)).trans (val2_main_arg0 V0)
theorem val3_main_arg1 (V0 : Valuation τ sig (Elt F)) : val3 V0 (no_index (Proc.devRef .tc main_arg1)) = V0 (Proc.devRef .tc main_arg1) :=
  (agg0C_keep _ main_arg1 (by decide)).trans (val2_main_arg1 V0)
theorem val3_main_arg2 (V0 : Valuation τ sig (Elt F)) : val3 V0 (no_index (Proc.devRef .tc main_arg2)) = V0 (Proc.devRef .tc main_arg2) :=
  (agg0C_keep _ main_arg2 (by decide)).trans (val2_main_arg2 V0)
theorem val3_main_arg3 (V0 : Valuation τ sig (Elt F)) : val3 V0 (no_index (Proc.devRef .tc main_arg3)) = V0 (Proc.devRef .tc main_arg3) :=
  (agg0C_keep _ main_arg3 (by decide)).trans (val2_main_arg3 V0)
theorem val3_main_arg4 (V0 : Valuation τ sig (Elt F)) : val3 V0 (no_index (Proc.devRef .tc main_arg4)) = V0 (Proc.devRef .tc main_arg4) :=
  (agg0C_keep _ main_arg4 (by decide)).trans (val2_main_arg4 V0)
theorem val3_main_arg5 (V0 : Valuation τ sig (Elt F)) : val3 V0 (no_index (Proc.devRef .tc main_arg5)) = V0 (Proc.devRef .tc main_arg5) :=
  (agg0C_keep _ main_arg5 (by decide)).trans (val2_main_arg5 V0)
theorem val3_main_arg6 (V0 : Valuation τ sig (Elt F)) : val3 V0 (no_index (Proc.devRef .tc main_arg6)) = V0 (Proc.devRef .tc main_arg6) :=
  (agg0C_keep _ main_arg6 (by decide)).trans (val2_main_arg6 V0)
theorem val3_main_arg7 (V0 : Valuation τ sig (Elt F)) : val3 V0 (no_index (Proc.devRef .tc main_arg7)) = V0 (Proc.devRef .tc main_arg7) :=
  (agg0C_keep _ main_arg7 (by decide)).trans (val2_main_arg7 V0)
theorem val3_main_arg8 (V0 : Valuation τ sig (Elt F)) : val3 V0 (no_index (Proc.devRef .tc main_arg8)) = V0 (Proc.devRef .tc main_arg8) :=
  (agg0C_keep _ main_arg8 (by decide)).trans (val2_main_arg8 V0)
theorem val3_main_arg9 (V0 : Valuation τ sig (Elt F)) : val3 V0 (no_index (Proc.devRef .tc main_arg9)) = V0 (Proc.devRef .tc main_arg9) :=
  (agg0C_keep _ main_arg9 (by decide)).trans (val2_main_arg9 V0)
theorem val3_main_arg10 (V0 : Valuation τ sig (Elt F)) : val3 V0 (no_index (Proc.devRef .tc main_arg10)) = V0 (Proc.devRef .tc main_arg10) :=
  (agg0C_keep _ main_arg10 (by decide)).trans (val2_main_arg10 V0)

/-- The buffers' contents after `lin0C`. -/
def val4 (V0 : Valuation τ sig (Elt F)) : Valuation τ sig (Elt F) := after lin0C (val3 V0)
theorem val4_main_v11 (V0 : Valuation τ sig (Elt F)) : val4 V0 (no_index (Proc.devRef .tc main_v11)) = deg (V0 (Proc.devRef .tc main_arg2)) :=
  (lin0C_keep _ main_v11 (by decide)).trans (val3_main_v11 V0)
theorem val4_main_v36 (V0 : Valuation τ sig (Elt F)) : val4 V0 (no_index (Proc.devRef .tc main_v36)) = lin (emb0 (V0 (Proc.devRef .tc main_arg0)) (V0 (Proc.devRef .tc main_arg4))) (agg (emb0 (V0 (Proc.devRef .tc main_arg0)) (V0 (Proc.devRef .tc main_arg4))) (V0 (Proc.devRef .tc main_arg1)) (V0 (Proc.devRef .tc main_arg2)) (deg (V0 (Proc.devRef .tc main_arg2)))) (mat_0 (V0 (Proc.devRef .tc main_arg5))) (mat_0 (V0 (Proc.devRef .tc main_arg6))) (row_0 (V0 (Proc.devRef .tc main_arg7))) :=
  (lin0C_main_v36 (val3 V0)).trans (by simp only [val3_main_v6, val3_main_v24, val3_main_arg5, val3_main_arg6, val3_main_arg7])
theorem val4_main_arg0 (V0 : Valuation τ sig (Elt F)) : val4 V0 (no_index (Proc.devRef .tc main_arg0)) = V0 (Proc.devRef .tc main_arg0) :=
  (lin0C_keep _ main_arg0 (by decide)).trans (val3_main_arg0 V0)
theorem val4_main_arg1 (V0 : Valuation τ sig (Elt F)) : val4 V0 (no_index (Proc.devRef .tc main_arg1)) = V0 (Proc.devRef .tc main_arg1) :=
  (lin0C_keep _ main_arg1 (by decide)).trans (val3_main_arg1 V0)
theorem val4_main_arg2 (V0 : Valuation τ sig (Elt F)) : val4 V0 (no_index (Proc.devRef .tc main_arg2)) = V0 (Proc.devRef .tc main_arg2) :=
  (lin0C_keep _ main_arg2 (by decide)).trans (val3_main_arg2 V0)
theorem val4_main_arg3 (V0 : Valuation τ sig (Elt F)) : val4 V0 (no_index (Proc.devRef .tc main_arg3)) = V0 (Proc.devRef .tc main_arg3) :=
  (lin0C_keep _ main_arg3 (by decide)).trans (val3_main_arg3 V0)
theorem val4_main_arg4 (V0 : Valuation τ sig (Elt F)) : val4 V0 (no_index (Proc.devRef .tc main_arg4)) = V0 (Proc.devRef .tc main_arg4) :=
  (lin0C_keep _ main_arg4 (by decide)).trans (val3_main_arg4 V0)
theorem val4_main_arg5 (V0 : Valuation τ sig (Elt F)) : val4 V0 (no_index (Proc.devRef .tc main_arg5)) = V0 (Proc.devRef .tc main_arg5) :=
  (lin0C_keep _ main_arg5 (by decide)).trans (val3_main_arg5 V0)
theorem val4_main_arg6 (V0 : Valuation τ sig (Elt F)) : val4 V0 (no_index (Proc.devRef .tc main_arg6)) = V0 (Proc.devRef .tc main_arg6) :=
  (lin0C_keep _ main_arg6 (by decide)).trans (val3_main_arg6 V0)
theorem val4_main_arg7 (V0 : Valuation τ sig (Elt F)) : val4 V0 (no_index (Proc.devRef .tc main_arg7)) = V0 (Proc.devRef .tc main_arg7) :=
  (lin0C_keep _ main_arg7 (by decide)).trans (val3_main_arg7 V0)
theorem val4_main_arg8 (V0 : Valuation τ sig (Elt F)) : val4 V0 (no_index (Proc.devRef .tc main_arg8)) = V0 (Proc.devRef .tc main_arg8) :=
  (lin0C_keep _ main_arg8 (by decide)).trans (val3_main_arg8 V0)
theorem val4_main_arg9 (V0 : Valuation τ sig (Elt F)) : val4 V0 (no_index (Proc.devRef .tc main_arg9)) = V0 (Proc.devRef .tc main_arg9) :=
  (lin0C_keep _ main_arg9 (by decide)).trans (val3_main_arg9 V0)
theorem val4_main_arg10 (V0 : Valuation τ sig (Elt F)) : val4 V0 (no_index (Proc.devRef .tc main_arg10)) = V0 (Proc.devRef .tc main_arg10) :=
  (lin0C_keep _ main_arg10 (by decide)).trans (val3_main_arg10 V0)

/-- The buffers' contents after `rst0C`. -/
def val5 (V0 : Valuation τ sig (Elt F)) : Valuation τ sig (Elt F) := after rst0C (val4 V0)
theorem val5_main_v11 (V0 : Valuation τ sig (Elt F)) : val5 V0 (no_index (Proc.devRef .tc main_v11)) = deg (V0 (Proc.devRef .tc main_arg2)) :=
  (rst0C_keep _ main_v11 (by decide)).trans (val4_main_v11 V0)
theorem val5_main_v44 (V0 : Valuation τ sig (Elt F)) : val5 V0 (no_index (Proc.devRef .tc main_v44)) = rst (lin (emb0 (V0 (Proc.devRef .tc main_arg0)) (V0 (Proc.devRef .tc main_arg4))) (agg (emb0 (V0 (Proc.devRef .tc main_arg0)) (V0 (Proc.devRef .tc main_arg4))) (V0 (Proc.devRef .tc main_arg1)) (V0 (Proc.devRef .tc main_arg2)) (deg (V0 (Proc.devRef .tc main_arg2)))) (mat_0 (V0 (Proc.devRef .tc main_arg5))) (mat_0 (V0 (Proc.devRef .tc main_arg6))) (row_0 (V0 (Proc.devRef .tc main_arg7)))) (row_0 (V0 (Proc.devRef .tc main_arg10))) :=
  (rst0C_main_v44 (val4 V0)).trans (by simp only [val4_main_v36, val4_main_arg10])
theorem val5_main_v47 (V0 : Valuation τ sig (Elt F)) : val5 V0 (no_index (Proc.devRef .tc main_v47)) = mu (rst (lin (emb0 (V0 (Proc.devRef .tc main_arg0)) (V0 (Proc.devRef .tc main_arg4))) (agg (emb0 (V0 (Proc.devRef .tc main_arg0)) (V0 (Proc.devRef .tc main_arg4))) (V0 (Proc.devRef .tc main_arg1)) (V0 (Proc.devRef .tc main_arg2)) (deg (V0 (Proc.devRef .tc main_arg2)))) (mat_0 (V0 (Proc.devRef .tc main_arg5))) (mat_0 (V0 (Proc.devRef .tc main_arg6))) (row_0 (V0 (Proc.devRef .tc main_arg7)))) (row_0 (V0 (Proc.devRef .tc main_arg10)))) :=
  (rst0C_main_v47 (val4 V0)).trans (by simp only [val4_main_v36, val4_main_arg10])
theorem val5_main_arg0 (V0 : Valuation τ sig (Elt F)) : val5 V0 (no_index (Proc.devRef .tc main_arg0)) = V0 (Proc.devRef .tc main_arg0) :=
  (rst0C_keep _ main_arg0 (by decide)).trans (val4_main_arg0 V0)
theorem val5_main_arg1 (V0 : Valuation τ sig (Elt F)) : val5 V0 (no_index (Proc.devRef .tc main_arg1)) = V0 (Proc.devRef .tc main_arg1) :=
  (rst0C_keep _ main_arg1 (by decide)).trans (val4_main_arg1 V0)
theorem val5_main_arg2 (V0 : Valuation τ sig (Elt F)) : val5 V0 (no_index (Proc.devRef .tc main_arg2)) = V0 (Proc.devRef .tc main_arg2) :=
  (rst0C_keep _ main_arg2 (by decide)).trans (val4_main_arg2 V0)
theorem val5_main_arg3 (V0 : Valuation τ sig (Elt F)) : val5 V0 (no_index (Proc.devRef .tc main_arg3)) = V0 (Proc.devRef .tc main_arg3) :=
  (rst0C_keep _ main_arg3 (by decide)).trans (val4_main_arg3 V0)
theorem val5_main_arg4 (V0 : Valuation τ sig (Elt F)) : val5 V0 (no_index (Proc.devRef .tc main_arg4)) = V0 (Proc.devRef .tc main_arg4) :=
  (rst0C_keep _ main_arg4 (by decide)).trans (val4_main_arg4 V0)
theorem val5_main_arg5 (V0 : Valuation τ sig (Elt F)) : val5 V0 (no_index (Proc.devRef .tc main_arg5)) = V0 (Proc.devRef .tc main_arg5) :=
  (rst0C_keep _ main_arg5 (by decide)).trans (val4_main_arg5 V0)
theorem val5_main_arg6 (V0 : Valuation τ sig (Elt F)) : val5 V0 (no_index (Proc.devRef .tc main_arg6)) = V0 (Proc.devRef .tc main_arg6) :=
  (rst0C_keep _ main_arg6 (by decide)).trans (val4_main_arg6 V0)
theorem val5_main_arg7 (V0 : Valuation τ sig (Elt F)) : val5 V0 (no_index (Proc.devRef .tc main_arg7)) = V0 (Proc.devRef .tc main_arg7) :=
  (rst0C_keep _ main_arg7 (by decide)).trans (val4_main_arg7 V0)
theorem val5_main_arg8 (V0 : Valuation τ sig (Elt F)) : val5 V0 (no_index (Proc.devRef .tc main_arg8)) = V0 (Proc.devRef .tc main_arg8) :=
  (rst0C_keep _ main_arg8 (by decide)).trans (val4_main_arg8 V0)
theorem val5_main_arg9 (V0 : Valuation τ sig (Elt F)) : val5 V0 (no_index (Proc.devRef .tc main_arg9)) = V0 (Proc.devRef .tc main_arg9) :=
  (rst0C_keep _ main_arg9 (by decide)).trans (val4_main_arg9 V0)
theorem val5_main_arg10 (V0 : Valuation τ sig (Elt F)) : val5 V0 (no_index (Proc.devRef .tc main_arg10)) = V0 (Proc.devRef .tc main_arg10) :=
  (rst0C_keep _ main_arg10 (by decide)).trans (val4_main_arg10 V0)

/-- The buffers' contents after `var0Cb`. -/
def val6 (V0 : Valuation τ sig (Elt F)) : Valuation τ sig (Elt F) := after var0Cb (after var0Ca (val5 V0))
theorem val6_main_v11 (V0 : Valuation τ sig (Elt F)) : val6 V0 (no_index (Proc.devRef .tc main_v11)) = deg (V0 (Proc.devRef .tc main_arg2)) :=
  (var0C_keep _ main_v11 (by decide) (by decide)).trans (val5_main_v11 V0)
theorem val6_main_v44 (V0 : Valuation τ sig (Elt F)) : val6 V0 (no_index (Proc.devRef .tc main_v44)) = rst (lin (emb0 (V0 (Proc.devRef .tc main_arg0)) (V0 (Proc.devRef .tc main_arg4))) (agg (emb0 (V0 (Proc.devRef .tc main_arg0)) (V0 (Proc.devRef .tc main_arg4))) (V0 (Proc.devRef .tc main_arg1)) (V0 (Proc.devRef .tc main_arg2)) (deg (V0 (Proc.devRef .tc main_arg2)))) (mat_0 (V0 (Proc.devRef .tc main_arg5))) (mat_0 (V0 (Proc.devRef .tc main_arg6))) (row_0 (V0 (Proc.devRef .tc main_arg7)))) (row_0 (V0 (Proc.devRef .tc main_arg10))) :=
  (var0C_keep _ main_v44 (by decide) (by decide)).trans (val5_main_v44 V0)
theorem val6_main_v47 (V0 : Valuation τ sig (Elt F)) : val6 V0 (no_index (Proc.devRef .tc main_v47)) = mu (rst (lin (emb0 (V0 (Proc.devRef .tc main_arg0)) (V0 (Proc.devRef .tc main_arg4))) (agg (emb0 (V0 (Proc.devRef .tc main_arg0)) (V0 (Proc.devRef .tc main_arg4))) (V0 (Proc.devRef .tc main_arg1)) (V0 (Proc.devRef .tc main_arg2)) (deg (V0 (Proc.devRef .tc main_arg2)))) (mat_0 (V0 (Proc.devRef .tc main_arg5))) (mat_0 (V0 (Proc.devRef .tc main_arg6))) (row_0 (V0 (Proc.devRef .tc main_arg7)))) (row_0 (V0 (Proc.devRef .tc main_arg10)))) :=
  (var0C_keep _ main_v47 (by decide) (by decide)).trans (val5_main_v47 V0)
theorem val6_main_v48 (V0 : Valuation τ sig (Elt F)) : val6 V0 (no_index (Proc.devRef .tc main_v48)) = var (rst (lin (emb0 (V0 (Proc.devRef .tc main_arg0)) (V0 (Proc.devRef .tc main_arg4))) (agg (emb0 (V0 (Proc.devRef .tc main_arg0)) (V0 (Proc.devRef .tc main_arg4))) (V0 (Proc.devRef .tc main_arg1)) (V0 (Proc.devRef .tc main_arg2)) (deg (V0 (Proc.devRef .tc main_arg2)))) (mat_0 (V0 (Proc.devRef .tc main_arg5))) (mat_0 (V0 (Proc.devRef .tc main_arg6))) (row_0 (V0 (Proc.devRef .tc main_arg7)))) (row_0 (V0 (Proc.devRef .tc main_arg10)))) :=
  (var0C_main_v48 (val5 V0)).trans (by simp only [val5_main_v44])
theorem val6_main_arg0 (V0 : Valuation τ sig (Elt F)) : val6 V0 (no_index (Proc.devRef .tc main_arg0)) = V0 (Proc.devRef .tc main_arg0) :=
  (var0C_keep _ main_arg0 (by decide) (by decide)).trans (val5_main_arg0 V0)
theorem val6_main_arg1 (V0 : Valuation τ sig (Elt F)) : val6 V0 (no_index (Proc.devRef .tc main_arg1)) = V0 (Proc.devRef .tc main_arg1) :=
  (var0C_keep _ main_arg1 (by decide) (by decide)).trans (val5_main_arg1 V0)
theorem val6_main_arg2 (V0 : Valuation τ sig (Elt F)) : val6 V0 (no_index (Proc.devRef .tc main_arg2)) = V0 (Proc.devRef .tc main_arg2) :=
  (var0C_keep _ main_arg2 (by decide) (by decide)).trans (val5_main_arg2 V0)
theorem val6_main_arg3 (V0 : Valuation τ sig (Elt F)) : val6 V0 (no_index (Proc.devRef .tc main_arg3)) = V0 (Proc.devRef .tc main_arg3) :=
  (var0C_keep _ main_arg3 (by decide) (by decide)).trans (val5_main_arg3 V0)
theorem val6_main_arg4 (V0 : Valuation τ sig (Elt F)) : val6 V0 (no_index (Proc.devRef .tc main_arg4)) = V0 (Proc.devRef .tc main_arg4) :=
  (var0C_keep _ main_arg4 (by decide) (by decide)).trans (val5_main_arg4 V0)
theorem val6_main_arg5 (V0 : Valuation τ sig (Elt F)) : val6 V0 (no_index (Proc.devRef .tc main_arg5)) = V0 (Proc.devRef .tc main_arg5) :=
  (var0C_keep _ main_arg5 (by decide) (by decide)).trans (val5_main_arg5 V0)
theorem val6_main_arg6 (V0 : Valuation τ sig (Elt F)) : val6 V0 (no_index (Proc.devRef .tc main_arg6)) = V0 (Proc.devRef .tc main_arg6) :=
  (var0C_keep _ main_arg6 (by decide) (by decide)).trans (val5_main_arg6 V0)
theorem val6_main_arg7 (V0 : Valuation τ sig (Elt F)) : val6 V0 (no_index (Proc.devRef .tc main_arg7)) = V0 (Proc.devRef .tc main_arg7) :=
  (var0C_keep _ main_arg7 (by decide) (by decide)).trans (val5_main_arg7 V0)
theorem val6_main_arg8 (V0 : Valuation τ sig (Elt F)) : val6 V0 (no_index (Proc.devRef .tc main_arg8)) = V0 (Proc.devRef .tc main_arg8) :=
  (var0C_keep _ main_arg8 (by decide) (by decide)).trans (val5_main_arg8 V0)
theorem val6_main_arg9 (V0 : Valuation τ sig (Elt F)) : val6 V0 (no_index (Proc.devRef .tc main_arg9)) = V0 (Proc.devRef .tc main_arg9) :=
  (var0C_keep _ main_arg9 (by decide) (by decide)).trans (val5_main_arg9 V0)
theorem val6_main_arg10 (V0 : Valuation τ sig (Elt F)) : val6 V0 (no_index (Proc.devRef .tc main_arg10)) = V0 (Proc.devRef .tc main_arg10) :=
  (var0C_keep _ main_arg10 (by decide) (by decide)).trans (val5_main_arg10 V0)

/-- The buffers' contents after `norm0C`. -/
def val7 (V0 : Valuation τ sig (Elt F)) : Valuation τ sig (Elt F) := after norm0C (val6 V0)
theorem val7_main_v11 (V0 : Valuation τ sig (Elt F)) : val7 V0 (no_index (Proc.devRef .tc main_v11)) = deg (V0 (Proc.devRef .tc main_arg2)) :=
  (norm0C_keep _ main_v11 (by decide)).trans (val6_main_v11 V0)
theorem val7_main_v67 (V0 : Valuation τ sig (Elt F)) : val7 V0 (no_index (Proc.devRef .tc main_v67)) = hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (norm0C_main_v67 (val6 V0)).trans (by simp only [val6_main_v44, val6_main_v47, val6_main_v48, val6_main_arg8, val6_main_arg9]; rfl)
theorem val7_main_arg0 (V0 : Valuation τ sig (Elt F)) : val7 V0 (no_index (Proc.devRef .tc main_arg0)) = V0 (Proc.devRef .tc main_arg0) :=
  (norm0C_keep _ main_arg0 (by decide)).trans (val6_main_arg0 V0)
theorem val7_main_arg1 (V0 : Valuation τ sig (Elt F)) : val7 V0 (no_index (Proc.devRef .tc main_arg1)) = V0 (Proc.devRef .tc main_arg1) :=
  (norm0C_keep _ main_arg1 (by decide)).trans (val6_main_arg1 V0)
theorem val7_main_arg2 (V0 : Valuation τ sig (Elt F)) : val7 V0 (no_index (Proc.devRef .tc main_arg2)) = V0 (Proc.devRef .tc main_arg2) :=
  (norm0C_keep _ main_arg2 (by decide)).trans (val6_main_arg2 V0)
theorem val7_main_arg3 (V0 : Valuation τ sig (Elt F)) : val7 V0 (no_index (Proc.devRef .tc main_arg3)) = V0 (Proc.devRef .tc main_arg3) :=
  (norm0C_keep _ main_arg3 (by decide)).trans (val6_main_arg3 V0)
theorem val7_main_arg4 (V0 : Valuation τ sig (Elt F)) : val7 V0 (no_index (Proc.devRef .tc main_arg4)) = V0 (Proc.devRef .tc main_arg4) :=
  (norm0C_keep _ main_arg4 (by decide)).trans (val6_main_arg4 V0)
theorem val7_main_arg5 (V0 : Valuation τ sig (Elt F)) : val7 V0 (no_index (Proc.devRef .tc main_arg5)) = V0 (Proc.devRef .tc main_arg5) :=
  (norm0C_keep _ main_arg5 (by decide)).trans (val6_main_arg5 V0)
theorem val7_main_arg6 (V0 : Valuation τ sig (Elt F)) : val7 V0 (no_index (Proc.devRef .tc main_arg6)) = V0 (Proc.devRef .tc main_arg6) :=
  (norm0C_keep _ main_arg6 (by decide)).trans (val6_main_arg6 V0)
theorem val7_main_arg7 (V0 : Valuation τ sig (Elt F)) : val7 V0 (no_index (Proc.devRef .tc main_arg7)) = V0 (Proc.devRef .tc main_arg7) :=
  (norm0C_keep _ main_arg7 (by decide)).trans (val6_main_arg7 V0)
theorem val7_main_arg8 (V0 : Valuation τ sig (Elt F)) : val7 V0 (no_index (Proc.devRef .tc main_arg8)) = V0 (Proc.devRef .tc main_arg8) :=
  (norm0C_keep _ main_arg8 (by decide)).trans (val6_main_arg8 V0)
theorem val7_main_arg9 (V0 : Valuation τ sig (Elt F)) : val7 V0 (no_index (Proc.devRef .tc main_arg9)) = V0 (Proc.devRef .tc main_arg9) :=
  (norm0C_keep _ main_arg9 (by decide)).trans (val6_main_arg9 V0)
theorem val7_main_arg10 (V0 : Valuation τ sig (Elt F)) : val7 V0 (no_index (Proc.devRef .tc main_arg10)) = V0 (Proc.devRef .tc main_arg10) :=
  (norm0C_keep _ main_arg10 (by decide)).trans (val6_main_arg10 V0)

/-- The buffers' contents after `agg1C`. -/
def val8 (V0 : Valuation τ sig (Elt F)) : Valuation τ sig (Elt F) := after agg1C (val7 V0)
theorem val8_main_v11 (V0 : Valuation τ sig (Elt F)) : val8 V0 (no_index (Proc.devRef .tc main_v11)) = deg (V0 (Proc.devRef .tc main_arg2)) :=
  (agg1C_keep _ main_v11 (by decide)).trans (val7_main_v11 V0)
theorem val8_main_v67 (V0 : Valuation τ sig (Elt F)) : val8 V0 (no_index (Proc.devRef .tc main_v67)) = hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (agg1C_keep _ main_v67 (by decide)).trans (val7_main_v67 V0)
theorem val8_main_v80 (V0 : Valuation τ sig (Elt F)) : val8 V0 (no_index (Proc.devRef .tc main_v80)) = agg (hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2))) :=
  (agg1C_main_v80 (val7 V0)).trans (by simp only [val7_main_v67, val7_main_arg1, val7_main_arg2, val7_main_v11])
theorem val8_main_arg0 (V0 : Valuation τ sig (Elt F)) : val8 V0 (no_index (Proc.devRef .tc main_arg0)) = V0 (Proc.devRef .tc main_arg0) :=
  (agg1C_keep _ main_arg0 (by decide)).trans (val7_main_arg0 V0)
theorem val8_main_arg1 (V0 : Valuation τ sig (Elt F)) : val8 V0 (no_index (Proc.devRef .tc main_arg1)) = V0 (Proc.devRef .tc main_arg1) :=
  (agg1C_keep _ main_arg1 (by decide)).trans (val7_main_arg1 V0)
theorem val8_main_arg2 (V0 : Valuation τ sig (Elt F)) : val8 V0 (no_index (Proc.devRef .tc main_arg2)) = V0 (Proc.devRef .tc main_arg2) :=
  (agg1C_keep _ main_arg2 (by decide)).trans (val7_main_arg2 V0)
theorem val8_main_arg3 (V0 : Valuation τ sig (Elt F)) : val8 V0 (no_index (Proc.devRef .tc main_arg3)) = V0 (Proc.devRef .tc main_arg3) :=
  (agg1C_keep _ main_arg3 (by decide)).trans (val7_main_arg3 V0)
theorem val8_main_arg4 (V0 : Valuation τ sig (Elt F)) : val8 V0 (no_index (Proc.devRef .tc main_arg4)) = V0 (Proc.devRef .tc main_arg4) :=
  (agg1C_keep _ main_arg4 (by decide)).trans (val7_main_arg4 V0)
theorem val8_main_arg5 (V0 : Valuation τ sig (Elt F)) : val8 V0 (no_index (Proc.devRef .tc main_arg5)) = V0 (Proc.devRef .tc main_arg5) :=
  (agg1C_keep _ main_arg5 (by decide)).trans (val7_main_arg5 V0)
theorem val8_main_arg6 (V0 : Valuation τ sig (Elt F)) : val8 V0 (no_index (Proc.devRef .tc main_arg6)) = V0 (Proc.devRef .tc main_arg6) :=
  (agg1C_keep _ main_arg6 (by decide)).trans (val7_main_arg6 V0)
theorem val8_main_arg7 (V0 : Valuation τ sig (Elt F)) : val8 V0 (no_index (Proc.devRef .tc main_arg7)) = V0 (Proc.devRef .tc main_arg7) :=
  (agg1C_keep _ main_arg7 (by decide)).trans (val7_main_arg7 V0)
theorem val8_main_arg8 (V0 : Valuation τ sig (Elt F)) : val8 V0 (no_index (Proc.devRef .tc main_arg8)) = V0 (Proc.devRef .tc main_arg8) :=
  (agg1C_keep _ main_arg8 (by decide)).trans (val7_main_arg8 V0)
theorem val8_main_arg9 (V0 : Valuation τ sig (Elt F)) : val8 V0 (no_index (Proc.devRef .tc main_arg9)) = V0 (Proc.devRef .tc main_arg9) :=
  (agg1C_keep _ main_arg9 (by decide)).trans (val7_main_arg9 V0)
theorem val8_main_arg10 (V0 : Valuation τ sig (Elt F)) : val8 V0 (no_index (Proc.devRef .tc main_arg10)) = V0 (Proc.devRef .tc main_arg10) :=
  (agg1C_keep _ main_arg10 (by decide)).trans (val7_main_arg10 V0)

/-- The buffers' contents after `lin1C`. -/
def val9 (V0 : Valuation τ sig (Elt F)) : Valuation τ sig (Elt F) := after lin1C (val8 V0)
theorem val9_main_v11 (V0 : Valuation τ sig (Elt F)) : val9 V0 (no_index (Proc.devRef .tc main_v11)) = deg (V0 (Proc.devRef .tc main_arg2)) :=
  (lin1C_keep _ main_v11 (by decide)).trans (val8_main_v11 V0)
theorem val9_main_v67 (V0 : Valuation τ sig (Elt F)) : val9 V0 (no_index (Proc.devRef .tc main_v67)) = hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (lin1C_keep _ main_v67 (by decide)).trans (val8_main_v67 V0)
theorem val9_main_v92 (V0 : Valuation τ sig (Elt F)) : val9 V0 (no_index (Proc.devRef .tc main_v92)) = lin (hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (agg (hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2)))) (mat_1 (V0 (Proc.devRef .tc main_arg5))) (mat_1 (V0 (Proc.devRef .tc main_arg6))) (row_1 (V0 (Proc.devRef .tc main_arg7))) :=
  (lin1C_main_v92 (val8 V0)).trans (by simp only [val8_main_v67, val8_main_v80, val8_main_arg5, val8_main_arg6, val8_main_arg7])
theorem val9_main_arg0 (V0 : Valuation τ sig (Elt F)) : val9 V0 (no_index (Proc.devRef .tc main_arg0)) = V0 (Proc.devRef .tc main_arg0) :=
  (lin1C_keep _ main_arg0 (by decide)).trans (val8_main_arg0 V0)
theorem val9_main_arg1 (V0 : Valuation τ sig (Elt F)) : val9 V0 (no_index (Proc.devRef .tc main_arg1)) = V0 (Proc.devRef .tc main_arg1) :=
  (lin1C_keep _ main_arg1 (by decide)).trans (val8_main_arg1 V0)
theorem val9_main_arg2 (V0 : Valuation τ sig (Elt F)) : val9 V0 (no_index (Proc.devRef .tc main_arg2)) = V0 (Proc.devRef .tc main_arg2) :=
  (lin1C_keep _ main_arg2 (by decide)).trans (val8_main_arg2 V0)
theorem val9_main_arg3 (V0 : Valuation τ sig (Elt F)) : val9 V0 (no_index (Proc.devRef .tc main_arg3)) = V0 (Proc.devRef .tc main_arg3) :=
  (lin1C_keep _ main_arg3 (by decide)).trans (val8_main_arg3 V0)
theorem val9_main_arg4 (V0 : Valuation τ sig (Elt F)) : val9 V0 (no_index (Proc.devRef .tc main_arg4)) = V0 (Proc.devRef .tc main_arg4) :=
  (lin1C_keep _ main_arg4 (by decide)).trans (val8_main_arg4 V0)
theorem val9_main_arg5 (V0 : Valuation τ sig (Elt F)) : val9 V0 (no_index (Proc.devRef .tc main_arg5)) = V0 (Proc.devRef .tc main_arg5) :=
  (lin1C_keep _ main_arg5 (by decide)).trans (val8_main_arg5 V0)
theorem val9_main_arg6 (V0 : Valuation τ sig (Elt F)) : val9 V0 (no_index (Proc.devRef .tc main_arg6)) = V0 (Proc.devRef .tc main_arg6) :=
  (lin1C_keep _ main_arg6 (by decide)).trans (val8_main_arg6 V0)
theorem val9_main_arg7 (V0 : Valuation τ sig (Elt F)) : val9 V0 (no_index (Proc.devRef .tc main_arg7)) = V0 (Proc.devRef .tc main_arg7) :=
  (lin1C_keep _ main_arg7 (by decide)).trans (val8_main_arg7 V0)
theorem val9_main_arg8 (V0 : Valuation τ sig (Elt F)) : val9 V0 (no_index (Proc.devRef .tc main_arg8)) = V0 (Proc.devRef .tc main_arg8) :=
  (lin1C_keep _ main_arg8 (by decide)).trans (val8_main_arg8 V0)
theorem val9_main_arg9 (V0 : Valuation τ sig (Elt F)) : val9 V0 (no_index (Proc.devRef .tc main_arg9)) = V0 (Proc.devRef .tc main_arg9) :=
  (lin1C_keep _ main_arg9 (by decide)).trans (val8_main_arg9 V0)
theorem val9_main_arg10 (V0 : Valuation τ sig (Elt F)) : val9 V0 (no_index (Proc.devRef .tc main_arg10)) = V0 (Proc.devRef .tc main_arg10) :=
  (lin1C_keep _ main_arg10 (by decide)).trans (val8_main_arg10 V0)

/-- The buffers' contents after `rst1Cb`. -/
def val10 (V0 : Valuation τ sig (Elt F)) : Valuation τ sig (Elt F) := after rst1Cb (after rst1Ca (val9 V0))
theorem val10_main_v11 (V0 : Valuation τ sig (Elt F)) : val10 V0 (no_index (Proc.devRef .tc main_v11)) = deg (V0 (Proc.devRef .tc main_arg2)) :=
  (rst1C_keep _ main_v11 (by decide) (by decide)).trans (val9_main_v11 V0)
theorem val10_main_v67 (V0 : Valuation τ sig (Elt F)) : val10 V0 (no_index (Proc.devRef .tc main_v67)) = hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (rst1C_keep _ main_v67 (by decide) (by decide)).trans (val9_main_v67 V0)
theorem val10_main_v100 (V0 : Valuation τ sig (Elt F)) : val10 V0 (no_index (Proc.devRef .tc main_v100)) = rst (lin (hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (agg (hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2)))) (mat_1 (V0 (Proc.devRef .tc main_arg5))) (mat_1 (V0 (Proc.devRef .tc main_arg6))) (row_1 (V0 (Proc.devRef .tc main_arg7)))) (row_1 (V0 (Proc.devRef .tc main_arg10))) :=
  (rst1C_main_v100 (val9 V0)).trans (by simp only [val9_main_v92, val9_main_arg10])
theorem val10_main_v103 (V0 : Valuation τ sig (Elt F)) : val10 V0 (no_index (Proc.devRef .tc main_v103)) = mu (rst (lin (hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (agg (hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2)))) (mat_1 (V0 (Proc.devRef .tc main_arg5))) (mat_1 (V0 (Proc.devRef .tc main_arg6))) (row_1 (V0 (Proc.devRef .tc main_arg7)))) (row_1 (V0 (Proc.devRef .tc main_arg10)))) :=
  (rst1C_main_v103 (val9 V0)).trans (by simp only [val9_main_v92, val9_main_arg10])
theorem val10_main_arg0 (V0 : Valuation τ sig (Elt F)) : val10 V0 (no_index (Proc.devRef .tc main_arg0)) = V0 (Proc.devRef .tc main_arg0) :=
  (rst1C_keep _ main_arg0 (by decide) (by decide)).trans (val9_main_arg0 V0)
theorem val10_main_arg1 (V0 : Valuation τ sig (Elt F)) : val10 V0 (no_index (Proc.devRef .tc main_arg1)) = V0 (Proc.devRef .tc main_arg1) :=
  (rst1C_keep _ main_arg1 (by decide) (by decide)).trans (val9_main_arg1 V0)
theorem val10_main_arg2 (V0 : Valuation τ sig (Elt F)) : val10 V0 (no_index (Proc.devRef .tc main_arg2)) = V0 (Proc.devRef .tc main_arg2) :=
  (rst1C_keep _ main_arg2 (by decide) (by decide)).trans (val9_main_arg2 V0)
theorem val10_main_arg3 (V0 : Valuation τ sig (Elt F)) : val10 V0 (no_index (Proc.devRef .tc main_arg3)) = V0 (Proc.devRef .tc main_arg3) :=
  (rst1C_keep _ main_arg3 (by decide) (by decide)).trans (val9_main_arg3 V0)
theorem val10_main_arg4 (V0 : Valuation τ sig (Elt F)) : val10 V0 (no_index (Proc.devRef .tc main_arg4)) = V0 (Proc.devRef .tc main_arg4) :=
  (rst1C_keep _ main_arg4 (by decide) (by decide)).trans (val9_main_arg4 V0)
theorem val10_main_arg5 (V0 : Valuation τ sig (Elt F)) : val10 V0 (no_index (Proc.devRef .tc main_arg5)) = V0 (Proc.devRef .tc main_arg5) :=
  (rst1C_keep _ main_arg5 (by decide) (by decide)).trans (val9_main_arg5 V0)
theorem val10_main_arg6 (V0 : Valuation τ sig (Elt F)) : val10 V0 (no_index (Proc.devRef .tc main_arg6)) = V0 (Proc.devRef .tc main_arg6) :=
  (rst1C_keep _ main_arg6 (by decide) (by decide)).trans (val9_main_arg6 V0)
theorem val10_main_arg7 (V0 : Valuation τ sig (Elt F)) : val10 V0 (no_index (Proc.devRef .tc main_arg7)) = V0 (Proc.devRef .tc main_arg7) :=
  (rst1C_keep _ main_arg7 (by decide) (by decide)).trans (val9_main_arg7 V0)
theorem val10_main_arg8 (V0 : Valuation τ sig (Elt F)) : val10 V0 (no_index (Proc.devRef .tc main_arg8)) = V0 (Proc.devRef .tc main_arg8) :=
  (rst1C_keep _ main_arg8 (by decide) (by decide)).trans (val9_main_arg8 V0)
theorem val10_main_arg9 (V0 : Valuation τ sig (Elt F)) : val10 V0 (no_index (Proc.devRef .tc main_arg9)) = V0 (Proc.devRef .tc main_arg9) :=
  (rst1C_keep _ main_arg9 (by decide) (by decide)).trans (val9_main_arg9 V0)
theorem val10_main_arg10 (V0 : Valuation τ sig (Elt F)) : val10 V0 (no_index (Proc.devRef .tc main_arg10)) = V0 (Proc.devRef .tc main_arg10) :=
  (rst1C_keep _ main_arg10 (by decide) (by decide)).trans (val9_main_arg10 V0)

/-- The buffers' contents after `var1C`. -/
def val11 (V0 : Valuation τ sig (Elt F)) : Valuation τ sig (Elt F) := after var1C (val10 V0)
theorem val11_main_v11 (V0 : Valuation τ sig (Elt F)) : val11 V0 (no_index (Proc.devRef .tc main_v11)) = deg (V0 (Proc.devRef .tc main_arg2)) :=
  (var1C_keep _ main_v11 (by decide)).trans (val10_main_v11 V0)
theorem val11_main_v67 (V0 : Valuation τ sig (Elt F)) : val11 V0 (no_index (Proc.devRef .tc main_v67)) = hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (var1C_keep _ main_v67 (by decide)).trans (val10_main_v67 V0)
theorem val11_main_v100 (V0 : Valuation τ sig (Elt F)) : val11 V0 (no_index (Proc.devRef .tc main_v100)) = rst (lin (hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (agg (hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2)))) (mat_1 (V0 (Proc.devRef .tc main_arg5))) (mat_1 (V0 (Proc.devRef .tc main_arg6))) (row_1 (V0 (Proc.devRef .tc main_arg7)))) (row_1 (V0 (Proc.devRef .tc main_arg10))) :=
  (var1C_keep _ main_v100 (by decide)).trans (val10_main_v100 V0)
theorem val11_main_v103 (V0 : Valuation τ sig (Elt F)) : val11 V0 (no_index (Proc.devRef .tc main_v103)) = mu (rst (lin (hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (agg (hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2)))) (mat_1 (V0 (Proc.devRef .tc main_arg5))) (mat_1 (V0 (Proc.devRef .tc main_arg6))) (row_1 (V0 (Proc.devRef .tc main_arg7)))) (row_1 (V0 (Proc.devRef .tc main_arg10)))) :=
  (var1C_keep _ main_v103 (by decide)).trans (val10_main_v103 V0)
theorem val11_main_v104 (V0 : Valuation τ sig (Elt F)) : val11 V0 (no_index (Proc.devRef .tc main_v104)) = var (rst (lin (hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (agg (hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2)))) (mat_1 (V0 (Proc.devRef .tc main_arg5))) (mat_1 (V0 (Proc.devRef .tc main_arg6))) (row_1 (V0 (Proc.devRef .tc main_arg7)))) (row_1 (V0 (Proc.devRef .tc main_arg10)))) :=
  (var1C_main_v104 (val10 V0)).trans (by simp only [val10_main_v100])
theorem val11_main_arg0 (V0 : Valuation τ sig (Elt F)) : val11 V0 (no_index (Proc.devRef .tc main_arg0)) = V0 (Proc.devRef .tc main_arg0) :=
  (var1C_keep _ main_arg0 (by decide)).trans (val10_main_arg0 V0)
theorem val11_main_arg1 (V0 : Valuation τ sig (Elt F)) : val11 V0 (no_index (Proc.devRef .tc main_arg1)) = V0 (Proc.devRef .tc main_arg1) :=
  (var1C_keep _ main_arg1 (by decide)).trans (val10_main_arg1 V0)
theorem val11_main_arg2 (V0 : Valuation τ sig (Elt F)) : val11 V0 (no_index (Proc.devRef .tc main_arg2)) = V0 (Proc.devRef .tc main_arg2) :=
  (var1C_keep _ main_arg2 (by decide)).trans (val10_main_arg2 V0)
theorem val11_main_arg3 (V0 : Valuation τ sig (Elt F)) : val11 V0 (no_index (Proc.devRef .tc main_arg3)) = V0 (Proc.devRef .tc main_arg3) :=
  (var1C_keep _ main_arg3 (by decide)).trans (val10_main_arg3 V0)
theorem val11_main_arg4 (V0 : Valuation τ sig (Elt F)) : val11 V0 (no_index (Proc.devRef .tc main_arg4)) = V0 (Proc.devRef .tc main_arg4) :=
  (var1C_keep _ main_arg4 (by decide)).trans (val10_main_arg4 V0)
theorem val11_main_arg5 (V0 : Valuation τ sig (Elt F)) : val11 V0 (no_index (Proc.devRef .tc main_arg5)) = V0 (Proc.devRef .tc main_arg5) :=
  (var1C_keep _ main_arg5 (by decide)).trans (val10_main_arg5 V0)
theorem val11_main_arg6 (V0 : Valuation τ sig (Elt F)) : val11 V0 (no_index (Proc.devRef .tc main_arg6)) = V0 (Proc.devRef .tc main_arg6) :=
  (var1C_keep _ main_arg6 (by decide)).trans (val10_main_arg6 V0)
theorem val11_main_arg7 (V0 : Valuation τ sig (Elt F)) : val11 V0 (no_index (Proc.devRef .tc main_arg7)) = V0 (Proc.devRef .tc main_arg7) :=
  (var1C_keep _ main_arg7 (by decide)).trans (val10_main_arg7 V0)
theorem val11_main_arg8 (V0 : Valuation τ sig (Elt F)) : val11 V0 (no_index (Proc.devRef .tc main_arg8)) = V0 (Proc.devRef .tc main_arg8) :=
  (var1C_keep _ main_arg8 (by decide)).trans (val10_main_arg8 V0)
theorem val11_main_arg9 (V0 : Valuation τ sig (Elt F)) : val11 V0 (no_index (Proc.devRef .tc main_arg9)) = V0 (Proc.devRef .tc main_arg9) :=
  (var1C_keep _ main_arg9 (by decide)).trans (val10_main_arg9 V0)
theorem val11_main_arg10 (V0 : Valuation τ sig (Elt F)) : val11 V0 (no_index (Proc.devRef .tc main_arg10)) = V0 (Proc.devRef .tc main_arg10) :=
  (var1C_keep _ main_arg10 (by decide)).trans (val10_main_arg10 V0)

/-- The buffers' contents after `norm1C`. -/
def val12 (V0 : Valuation τ sig (Elt F)) : Valuation τ sig (Elt F) := after norm1C (val11 V0)
theorem val12_main_v11 (V0 : Valuation τ sig (Elt F)) : val12 V0 (no_index (Proc.devRef .tc main_v11)) = deg (V0 (Proc.devRef .tc main_arg2)) :=
  (norm1C_keep _ main_v11 (by decide)).trans (val11_main_v11 V0)
theorem val12_main_v67 (V0 : Valuation τ sig (Elt F)) : val12 V0 (no_index (Proc.devRef .tc main_v67)) = hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (norm1C_keep _ main_v67 (by decide)).trans (val11_main_v67 V0)
theorem val12_main_v123 (V0 : Valuation τ sig (Elt F)) : val12 V0 (no_index (Proc.devRef .tc main_v123)) = hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (norm1C_main_v123 (val11 V0)).trans (by simp only [val11_main_v100, val11_main_v103, val11_main_v104, val11_main_arg8, val11_main_arg9]; rfl)
theorem val12_main_arg0 (V0 : Valuation τ sig (Elt F)) : val12 V0 (no_index (Proc.devRef .tc main_arg0)) = V0 (Proc.devRef .tc main_arg0) :=
  (norm1C_keep _ main_arg0 (by decide)).trans (val11_main_arg0 V0)
theorem val12_main_arg1 (V0 : Valuation τ sig (Elt F)) : val12 V0 (no_index (Proc.devRef .tc main_arg1)) = V0 (Proc.devRef .tc main_arg1) :=
  (norm1C_keep _ main_arg1 (by decide)).trans (val11_main_arg1 V0)
theorem val12_main_arg2 (V0 : Valuation τ sig (Elt F)) : val12 V0 (no_index (Proc.devRef .tc main_arg2)) = V0 (Proc.devRef .tc main_arg2) :=
  (norm1C_keep _ main_arg2 (by decide)).trans (val11_main_arg2 V0)
theorem val12_main_arg3 (V0 : Valuation τ sig (Elt F)) : val12 V0 (no_index (Proc.devRef .tc main_arg3)) = V0 (Proc.devRef .tc main_arg3) :=
  (norm1C_keep _ main_arg3 (by decide)).trans (val11_main_arg3 V0)
theorem val12_main_arg4 (V0 : Valuation τ sig (Elt F)) : val12 V0 (no_index (Proc.devRef .tc main_arg4)) = V0 (Proc.devRef .tc main_arg4) :=
  (norm1C_keep _ main_arg4 (by decide)).trans (val11_main_arg4 V0)
theorem val12_main_arg5 (V0 : Valuation τ sig (Elt F)) : val12 V0 (no_index (Proc.devRef .tc main_arg5)) = V0 (Proc.devRef .tc main_arg5) :=
  (norm1C_keep _ main_arg5 (by decide)).trans (val11_main_arg5 V0)
theorem val12_main_arg6 (V0 : Valuation τ sig (Elt F)) : val12 V0 (no_index (Proc.devRef .tc main_arg6)) = V0 (Proc.devRef .tc main_arg6) :=
  (norm1C_keep _ main_arg6 (by decide)).trans (val11_main_arg6 V0)
theorem val12_main_arg7 (V0 : Valuation τ sig (Elt F)) : val12 V0 (no_index (Proc.devRef .tc main_arg7)) = V0 (Proc.devRef .tc main_arg7) :=
  (norm1C_keep _ main_arg7 (by decide)).trans (val11_main_arg7 V0)
theorem val12_main_arg8 (V0 : Valuation τ sig (Elt F)) : val12 V0 (no_index (Proc.devRef .tc main_arg8)) = V0 (Proc.devRef .tc main_arg8) :=
  (norm1C_keep _ main_arg8 (by decide)).trans (val11_main_arg8 V0)
theorem val12_main_arg9 (V0 : Valuation τ sig (Elt F)) : val12 V0 (no_index (Proc.devRef .tc main_arg9)) = V0 (Proc.devRef .tc main_arg9) :=
  (norm1C_keep _ main_arg9 (by decide)).trans (val11_main_arg9 V0)
theorem val12_main_arg10 (V0 : Valuation τ sig (Elt F)) : val12 V0 (no_index (Proc.devRef .tc main_arg10)) = V0 (Proc.devRef .tc main_arg10) :=
  (norm1C_keep _ main_arg10 (by decide)).trans (val11_main_arg10 V0)

/-- The buffers' contents after `agg2C`. -/
def val13 (V0 : Valuation τ sig (Elt F)) : Valuation τ sig (Elt F) := after agg2C (val12 V0)
theorem val13_main_v11 (V0 : Valuation τ sig (Elt F)) : val13 V0 (no_index (Proc.devRef .tc main_v11)) = deg (V0 (Proc.devRef .tc main_arg2)) :=
  (agg2C_keep _ main_v11 (by decide)).trans (val12_main_v11 V0)
theorem val13_main_v67 (V0 : Valuation τ sig (Elt F)) : val13 V0 (no_index (Proc.devRef .tc main_v67)) = hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (agg2C_keep _ main_v67 (by decide)).trans (val12_main_v67 V0)
theorem val13_main_v123 (V0 : Valuation τ sig (Elt F)) : val13 V0 (no_index (Proc.devRef .tc main_v123)) = hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (agg2C_keep _ main_v123 (by decide)).trans (val12_main_v123 V0)
theorem val13_main_v136 (V0 : Valuation τ sig (Elt F)) : val13 V0 (no_index (Proc.devRef .tc main_v136)) = agg (hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2))) :=
  (agg2C_main_v136 (val12 V0)).trans (by simp only [val12_main_v123, val12_main_arg1, val12_main_arg2, val12_main_v11])
theorem val13_main_arg0 (V0 : Valuation τ sig (Elt F)) : val13 V0 (no_index (Proc.devRef .tc main_arg0)) = V0 (Proc.devRef .tc main_arg0) :=
  (agg2C_keep _ main_arg0 (by decide)).trans (val12_main_arg0 V0)
theorem val13_main_arg1 (V0 : Valuation τ sig (Elt F)) : val13 V0 (no_index (Proc.devRef .tc main_arg1)) = V0 (Proc.devRef .tc main_arg1) :=
  (agg2C_keep _ main_arg1 (by decide)).trans (val12_main_arg1 V0)
theorem val13_main_arg2 (V0 : Valuation τ sig (Elt F)) : val13 V0 (no_index (Proc.devRef .tc main_arg2)) = V0 (Proc.devRef .tc main_arg2) :=
  (agg2C_keep _ main_arg2 (by decide)).trans (val12_main_arg2 V0)
theorem val13_main_arg3 (V0 : Valuation τ sig (Elt F)) : val13 V0 (no_index (Proc.devRef .tc main_arg3)) = V0 (Proc.devRef .tc main_arg3) :=
  (agg2C_keep _ main_arg3 (by decide)).trans (val12_main_arg3 V0)
theorem val13_main_arg4 (V0 : Valuation τ sig (Elt F)) : val13 V0 (no_index (Proc.devRef .tc main_arg4)) = V0 (Proc.devRef .tc main_arg4) :=
  (agg2C_keep _ main_arg4 (by decide)).trans (val12_main_arg4 V0)
theorem val13_main_arg5 (V0 : Valuation τ sig (Elt F)) : val13 V0 (no_index (Proc.devRef .tc main_arg5)) = V0 (Proc.devRef .tc main_arg5) :=
  (agg2C_keep _ main_arg5 (by decide)).trans (val12_main_arg5 V0)
theorem val13_main_arg6 (V0 : Valuation τ sig (Elt F)) : val13 V0 (no_index (Proc.devRef .tc main_arg6)) = V0 (Proc.devRef .tc main_arg6) :=
  (agg2C_keep _ main_arg6 (by decide)).trans (val12_main_arg6 V0)
theorem val13_main_arg7 (V0 : Valuation τ sig (Elt F)) : val13 V0 (no_index (Proc.devRef .tc main_arg7)) = V0 (Proc.devRef .tc main_arg7) :=
  (agg2C_keep _ main_arg7 (by decide)).trans (val12_main_arg7 V0)
theorem val13_main_arg8 (V0 : Valuation τ sig (Elt F)) : val13 V0 (no_index (Proc.devRef .tc main_arg8)) = V0 (Proc.devRef .tc main_arg8) :=
  (agg2C_keep _ main_arg8 (by decide)).trans (val12_main_arg8 V0)
theorem val13_main_arg9 (V0 : Valuation τ sig (Elt F)) : val13 V0 (no_index (Proc.devRef .tc main_arg9)) = V0 (Proc.devRef .tc main_arg9) :=
  (agg2C_keep _ main_arg9 (by decide)).trans (val12_main_arg9 V0)
theorem val13_main_arg10 (V0 : Valuation τ sig (Elt F)) : val13 V0 (no_index (Proc.devRef .tc main_arg10)) = V0 (Proc.devRef .tc main_arg10) :=
  (agg2C_keep _ main_arg10 (by decide)).trans (val12_main_arg10 V0)

/-- The buffers' contents after `lin2C`. -/
def val14 (V0 : Valuation τ sig (Elt F)) : Valuation τ sig (Elt F) := after lin2C (val13 V0)
theorem val14_main_v11 (V0 : Valuation τ sig (Elt F)) : val14 V0 (no_index (Proc.devRef .tc main_v11)) = deg (V0 (Proc.devRef .tc main_arg2)) :=
  (lin2C_keep _ main_v11 (by decide)).trans (val13_main_v11 V0)
theorem val14_main_v67 (V0 : Valuation τ sig (Elt F)) : val14 V0 (no_index (Proc.devRef .tc main_v67)) = hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (lin2C_keep _ main_v67 (by decide)).trans (val13_main_v67 V0)
theorem val14_main_v123 (V0 : Valuation τ sig (Elt F)) : val14 V0 (no_index (Proc.devRef .tc main_v123)) = hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (lin2C_keep _ main_v123 (by decide)).trans (val13_main_v123 V0)
theorem val14_main_v148 (V0 : Valuation τ sig (Elt F)) : val14 V0 (no_index (Proc.devRef .tc main_v148)) = lin (hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (agg (hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2)))) (mat_2 (V0 (Proc.devRef .tc main_arg5))) (mat_2 (V0 (Proc.devRef .tc main_arg6))) (row_2 (V0 (Proc.devRef .tc main_arg7))) :=
  (lin2C_main_v148 (val13 V0)).trans (by simp only [val13_main_v123, val13_main_v136, val13_main_arg5, val13_main_arg6, val13_main_arg7])
theorem val14_main_arg0 (V0 : Valuation τ sig (Elt F)) : val14 V0 (no_index (Proc.devRef .tc main_arg0)) = V0 (Proc.devRef .tc main_arg0) :=
  (lin2C_keep _ main_arg0 (by decide)).trans (val13_main_arg0 V0)
theorem val14_main_arg1 (V0 : Valuation τ sig (Elt F)) : val14 V0 (no_index (Proc.devRef .tc main_arg1)) = V0 (Proc.devRef .tc main_arg1) :=
  (lin2C_keep _ main_arg1 (by decide)).trans (val13_main_arg1 V0)
theorem val14_main_arg2 (V0 : Valuation τ sig (Elt F)) : val14 V0 (no_index (Proc.devRef .tc main_arg2)) = V0 (Proc.devRef .tc main_arg2) :=
  (lin2C_keep _ main_arg2 (by decide)).trans (val13_main_arg2 V0)
theorem val14_main_arg3 (V0 : Valuation τ sig (Elt F)) : val14 V0 (no_index (Proc.devRef .tc main_arg3)) = V0 (Proc.devRef .tc main_arg3) :=
  (lin2C_keep _ main_arg3 (by decide)).trans (val13_main_arg3 V0)
theorem val14_main_arg4 (V0 : Valuation τ sig (Elt F)) : val14 V0 (no_index (Proc.devRef .tc main_arg4)) = V0 (Proc.devRef .tc main_arg4) :=
  (lin2C_keep _ main_arg4 (by decide)).trans (val13_main_arg4 V0)
theorem val14_main_arg5 (V0 : Valuation τ sig (Elt F)) : val14 V0 (no_index (Proc.devRef .tc main_arg5)) = V0 (Proc.devRef .tc main_arg5) :=
  (lin2C_keep _ main_arg5 (by decide)).trans (val13_main_arg5 V0)
theorem val14_main_arg6 (V0 : Valuation τ sig (Elt F)) : val14 V0 (no_index (Proc.devRef .tc main_arg6)) = V0 (Proc.devRef .tc main_arg6) :=
  (lin2C_keep _ main_arg6 (by decide)).trans (val13_main_arg6 V0)
theorem val14_main_arg7 (V0 : Valuation τ sig (Elt F)) : val14 V0 (no_index (Proc.devRef .tc main_arg7)) = V0 (Proc.devRef .tc main_arg7) :=
  (lin2C_keep _ main_arg7 (by decide)).trans (val13_main_arg7 V0)
theorem val14_main_arg8 (V0 : Valuation τ sig (Elt F)) : val14 V0 (no_index (Proc.devRef .tc main_arg8)) = V0 (Proc.devRef .tc main_arg8) :=
  (lin2C_keep _ main_arg8 (by decide)).trans (val13_main_arg8 V0)
theorem val14_main_arg9 (V0 : Valuation τ sig (Elt F)) : val14 V0 (no_index (Proc.devRef .tc main_arg9)) = V0 (Proc.devRef .tc main_arg9) :=
  (lin2C_keep _ main_arg9 (by decide)).trans (val13_main_arg9 V0)
theorem val14_main_arg10 (V0 : Valuation τ sig (Elt F)) : val14 V0 (no_index (Proc.devRef .tc main_arg10)) = V0 (Proc.devRef .tc main_arg10) :=
  (lin2C_keep _ main_arg10 (by decide)).trans (val13_main_arg10 V0)

/-- The buffers' contents after `rst2Cb`. -/
def val15 (V0 : Valuation τ sig (Elt F)) : Valuation τ sig (Elt F) := after rst2Cb (after rst2Ca (val14 V0))
theorem val15_main_v11 (V0 : Valuation τ sig (Elt F)) : val15 V0 (no_index (Proc.devRef .tc main_v11)) = deg (V0 (Proc.devRef .tc main_arg2)) :=
  (rst2C_keep _ main_v11 (by decide) (by decide)).trans (val14_main_v11 V0)
theorem val15_main_v67 (V0 : Valuation τ sig (Elt F)) : val15 V0 (no_index (Proc.devRef .tc main_v67)) = hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (rst2C_keep _ main_v67 (by decide) (by decide)).trans (val14_main_v67 V0)
theorem val15_main_v123 (V0 : Valuation τ sig (Elt F)) : val15 V0 (no_index (Proc.devRef .tc main_v123)) = hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (rst2C_keep _ main_v123 (by decide) (by decide)).trans (val14_main_v123 V0)
theorem val15_main_v156 (V0 : Valuation τ sig (Elt F)) : val15 V0 (no_index (Proc.devRef .tc main_v156)) = rst (lin (hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (agg (hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2)))) (mat_2 (V0 (Proc.devRef .tc main_arg5))) (mat_2 (V0 (Proc.devRef .tc main_arg6))) (row_2 (V0 (Proc.devRef .tc main_arg7)))) (row_2 (V0 (Proc.devRef .tc main_arg10))) :=
  (rst2C_main_v156 (val14 V0)).trans (by simp only [val14_main_v148, val14_main_arg10])
theorem val15_main_v159 (V0 : Valuation τ sig (Elt F)) : val15 V0 (no_index (Proc.devRef .tc main_v159)) = mu (rst (lin (hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (agg (hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2)))) (mat_2 (V0 (Proc.devRef .tc main_arg5))) (mat_2 (V0 (Proc.devRef .tc main_arg6))) (row_2 (V0 (Proc.devRef .tc main_arg7)))) (row_2 (V0 (Proc.devRef .tc main_arg10)))) :=
  (rst2C_main_v159 (val14 V0)).trans (by simp only [val14_main_v148, val14_main_arg10])
theorem val15_main_arg0 (V0 : Valuation τ sig (Elt F)) : val15 V0 (no_index (Proc.devRef .tc main_arg0)) = V0 (Proc.devRef .tc main_arg0) :=
  (rst2C_keep _ main_arg0 (by decide) (by decide)).trans (val14_main_arg0 V0)
theorem val15_main_arg1 (V0 : Valuation τ sig (Elt F)) : val15 V0 (no_index (Proc.devRef .tc main_arg1)) = V0 (Proc.devRef .tc main_arg1) :=
  (rst2C_keep _ main_arg1 (by decide) (by decide)).trans (val14_main_arg1 V0)
theorem val15_main_arg2 (V0 : Valuation τ sig (Elt F)) : val15 V0 (no_index (Proc.devRef .tc main_arg2)) = V0 (Proc.devRef .tc main_arg2) :=
  (rst2C_keep _ main_arg2 (by decide) (by decide)).trans (val14_main_arg2 V0)
theorem val15_main_arg3 (V0 : Valuation τ sig (Elt F)) : val15 V0 (no_index (Proc.devRef .tc main_arg3)) = V0 (Proc.devRef .tc main_arg3) :=
  (rst2C_keep _ main_arg3 (by decide) (by decide)).trans (val14_main_arg3 V0)
theorem val15_main_arg4 (V0 : Valuation τ sig (Elt F)) : val15 V0 (no_index (Proc.devRef .tc main_arg4)) = V0 (Proc.devRef .tc main_arg4) :=
  (rst2C_keep _ main_arg4 (by decide) (by decide)).trans (val14_main_arg4 V0)
theorem val15_main_arg5 (V0 : Valuation τ sig (Elt F)) : val15 V0 (no_index (Proc.devRef .tc main_arg5)) = V0 (Proc.devRef .tc main_arg5) :=
  (rst2C_keep _ main_arg5 (by decide) (by decide)).trans (val14_main_arg5 V0)
theorem val15_main_arg6 (V0 : Valuation τ sig (Elt F)) : val15 V0 (no_index (Proc.devRef .tc main_arg6)) = V0 (Proc.devRef .tc main_arg6) :=
  (rst2C_keep _ main_arg6 (by decide) (by decide)).trans (val14_main_arg6 V0)
theorem val15_main_arg7 (V0 : Valuation τ sig (Elt F)) : val15 V0 (no_index (Proc.devRef .tc main_arg7)) = V0 (Proc.devRef .tc main_arg7) :=
  (rst2C_keep _ main_arg7 (by decide) (by decide)).trans (val14_main_arg7 V0)
theorem val15_main_arg8 (V0 : Valuation τ sig (Elt F)) : val15 V0 (no_index (Proc.devRef .tc main_arg8)) = V0 (Proc.devRef .tc main_arg8) :=
  (rst2C_keep _ main_arg8 (by decide) (by decide)).trans (val14_main_arg8 V0)
theorem val15_main_arg9 (V0 : Valuation τ sig (Elt F)) : val15 V0 (no_index (Proc.devRef .tc main_arg9)) = V0 (Proc.devRef .tc main_arg9) :=
  (rst2C_keep _ main_arg9 (by decide) (by decide)).trans (val14_main_arg9 V0)
theorem val15_main_arg10 (V0 : Valuation τ sig (Elt F)) : val15 V0 (no_index (Proc.devRef .tc main_arg10)) = V0 (Proc.devRef .tc main_arg10) :=
  (rst2C_keep _ main_arg10 (by decide) (by decide)).trans (val14_main_arg10 V0)

/-- The buffers' contents after `var2C`. -/
def val16 (V0 : Valuation τ sig (Elt F)) : Valuation τ sig (Elt F) := after var2C (val15 V0)
theorem val16_main_v11 (V0 : Valuation τ sig (Elt F)) : val16 V0 (no_index (Proc.devRef .tc main_v11)) = deg (V0 (Proc.devRef .tc main_arg2)) :=
  (var2C_keep _ main_v11 (by decide)).trans (val15_main_v11 V0)
theorem val16_main_v67 (V0 : Valuation τ sig (Elt F)) : val16 V0 (no_index (Proc.devRef .tc main_v67)) = hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (var2C_keep _ main_v67 (by decide)).trans (val15_main_v67 V0)
theorem val16_main_v123 (V0 : Valuation τ sig (Elt F)) : val16 V0 (no_index (Proc.devRef .tc main_v123)) = hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (var2C_keep _ main_v123 (by decide)).trans (val15_main_v123 V0)
theorem val16_main_v156 (V0 : Valuation τ sig (Elt F)) : val16 V0 (no_index (Proc.devRef .tc main_v156)) = rst (lin (hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (agg (hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2)))) (mat_2 (V0 (Proc.devRef .tc main_arg5))) (mat_2 (V0 (Proc.devRef .tc main_arg6))) (row_2 (V0 (Proc.devRef .tc main_arg7)))) (row_2 (V0 (Proc.devRef .tc main_arg10))) :=
  (var2C_keep _ main_v156 (by decide)).trans (val15_main_v156 V0)
theorem val16_main_v159 (V0 : Valuation τ sig (Elt F)) : val16 V0 (no_index (Proc.devRef .tc main_v159)) = mu (rst (lin (hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (agg (hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2)))) (mat_2 (V0 (Proc.devRef .tc main_arg5))) (mat_2 (V0 (Proc.devRef .tc main_arg6))) (row_2 (V0 (Proc.devRef .tc main_arg7)))) (row_2 (V0 (Proc.devRef .tc main_arg10)))) :=
  (var2C_keep _ main_v159 (by decide)).trans (val15_main_v159 V0)
theorem val16_main_v160 (V0 : Valuation τ sig (Elt F)) : val16 V0 (no_index (Proc.devRef .tc main_v160)) = var (rst (lin (hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (agg (hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2)))) (mat_2 (V0 (Proc.devRef .tc main_arg5))) (mat_2 (V0 (Proc.devRef .tc main_arg6))) (row_2 (V0 (Proc.devRef .tc main_arg7)))) (row_2 (V0 (Proc.devRef .tc main_arg10)))) :=
  (var2C_main_v160 (val15 V0)).trans (by simp only [val15_main_v156])
theorem val16_main_arg0 (V0 : Valuation τ sig (Elt F)) : val16 V0 (no_index (Proc.devRef .tc main_arg0)) = V0 (Proc.devRef .tc main_arg0) :=
  (var2C_keep _ main_arg0 (by decide)).trans (val15_main_arg0 V0)
theorem val16_main_arg1 (V0 : Valuation τ sig (Elt F)) : val16 V0 (no_index (Proc.devRef .tc main_arg1)) = V0 (Proc.devRef .tc main_arg1) :=
  (var2C_keep _ main_arg1 (by decide)).trans (val15_main_arg1 V0)
theorem val16_main_arg2 (V0 : Valuation τ sig (Elt F)) : val16 V0 (no_index (Proc.devRef .tc main_arg2)) = V0 (Proc.devRef .tc main_arg2) :=
  (var2C_keep _ main_arg2 (by decide)).trans (val15_main_arg2 V0)
theorem val16_main_arg3 (V0 : Valuation τ sig (Elt F)) : val16 V0 (no_index (Proc.devRef .tc main_arg3)) = V0 (Proc.devRef .tc main_arg3) :=
  (var2C_keep _ main_arg3 (by decide)).trans (val15_main_arg3 V0)
theorem val16_main_arg4 (V0 : Valuation τ sig (Elt F)) : val16 V0 (no_index (Proc.devRef .tc main_arg4)) = V0 (Proc.devRef .tc main_arg4) :=
  (var2C_keep _ main_arg4 (by decide)).trans (val15_main_arg4 V0)
theorem val16_main_arg5 (V0 : Valuation τ sig (Elt F)) : val16 V0 (no_index (Proc.devRef .tc main_arg5)) = V0 (Proc.devRef .tc main_arg5) :=
  (var2C_keep _ main_arg5 (by decide)).trans (val15_main_arg5 V0)
theorem val16_main_arg6 (V0 : Valuation τ sig (Elt F)) : val16 V0 (no_index (Proc.devRef .tc main_arg6)) = V0 (Proc.devRef .tc main_arg6) :=
  (var2C_keep _ main_arg6 (by decide)).trans (val15_main_arg6 V0)
theorem val16_main_arg7 (V0 : Valuation τ sig (Elt F)) : val16 V0 (no_index (Proc.devRef .tc main_arg7)) = V0 (Proc.devRef .tc main_arg7) :=
  (var2C_keep _ main_arg7 (by decide)).trans (val15_main_arg7 V0)
theorem val16_main_arg8 (V0 : Valuation τ sig (Elt F)) : val16 V0 (no_index (Proc.devRef .tc main_arg8)) = V0 (Proc.devRef .tc main_arg8) :=
  (var2C_keep _ main_arg8 (by decide)).trans (val15_main_arg8 V0)
theorem val16_main_arg9 (V0 : Valuation τ sig (Elt F)) : val16 V0 (no_index (Proc.devRef .tc main_arg9)) = V0 (Proc.devRef .tc main_arg9) :=
  (var2C_keep _ main_arg9 (by decide)).trans (val15_main_arg9 V0)
theorem val16_main_arg10 (V0 : Valuation τ sig (Elt F)) : val16 V0 (no_index (Proc.devRef .tc main_arg10)) = V0 (Proc.devRef .tc main_arg10) :=
  (var2C_keep _ main_arg10 (by decide)).trans (val15_main_arg10 V0)

/-- The buffers' contents after `norm2C`. -/
def val17 (V0 : Valuation τ sig (Elt F)) : Valuation τ sig (Elt F) := after norm2C (val16 V0)
theorem val17_main_v11 (V0 : Valuation τ sig (Elt F)) : val17 V0 (no_index (Proc.devRef .tc main_v11)) = deg (V0 (Proc.devRef .tc main_arg2)) :=
  (norm2C_keep _ main_v11 (by decide)).trans (val16_main_v11 V0)
theorem val17_main_v67 (V0 : Valuation τ sig (Elt F)) : val17 V0 (no_index (Proc.devRef .tc main_v67)) = hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (norm2C_keep _ main_v67 (by decide)).trans (val16_main_v67 V0)
theorem val17_main_v123 (V0 : Valuation τ sig (Elt F)) : val17 V0 (no_index (Proc.devRef .tc main_v123)) = hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (norm2C_keep _ main_v123 (by decide)).trans (val16_main_v123 V0)
theorem val17_main_v179 (V0 : Valuation τ sig (Elt F)) : val17 V0 (no_index (Proc.devRef .tc main_v179)) = hid3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (norm2C_main_v179 (val16 V0)).trans (by simp only [val16_main_v156, val16_main_v159, val16_main_v160, val16_main_arg8, val16_main_arg9]; rfl)
theorem val17_main_arg0 (V0 : Valuation τ sig (Elt F)) : val17 V0 (no_index (Proc.devRef .tc main_arg0)) = V0 (Proc.devRef .tc main_arg0) :=
  (norm2C_keep _ main_arg0 (by decide)).trans (val16_main_arg0 V0)
theorem val17_main_arg1 (V0 : Valuation τ sig (Elt F)) : val17 V0 (no_index (Proc.devRef .tc main_arg1)) = V0 (Proc.devRef .tc main_arg1) :=
  (norm2C_keep _ main_arg1 (by decide)).trans (val16_main_arg1 V0)
theorem val17_main_arg2 (V0 : Valuation τ sig (Elt F)) : val17 V0 (no_index (Proc.devRef .tc main_arg2)) = V0 (Proc.devRef .tc main_arg2) :=
  (norm2C_keep _ main_arg2 (by decide)).trans (val16_main_arg2 V0)
theorem val17_main_arg3 (V0 : Valuation τ sig (Elt F)) : val17 V0 (no_index (Proc.devRef .tc main_arg3)) = V0 (Proc.devRef .tc main_arg3) :=
  (norm2C_keep _ main_arg3 (by decide)).trans (val16_main_arg3 V0)
theorem val17_main_arg4 (V0 : Valuation τ sig (Elt F)) : val17 V0 (no_index (Proc.devRef .tc main_arg4)) = V0 (Proc.devRef .tc main_arg4) :=
  (norm2C_keep _ main_arg4 (by decide)).trans (val16_main_arg4 V0)
theorem val17_main_arg5 (V0 : Valuation τ sig (Elt F)) : val17 V0 (no_index (Proc.devRef .tc main_arg5)) = V0 (Proc.devRef .tc main_arg5) :=
  (norm2C_keep _ main_arg5 (by decide)).trans (val16_main_arg5 V0)
theorem val17_main_arg6 (V0 : Valuation τ sig (Elt F)) : val17 V0 (no_index (Proc.devRef .tc main_arg6)) = V0 (Proc.devRef .tc main_arg6) :=
  (norm2C_keep _ main_arg6 (by decide)).trans (val16_main_arg6 V0)
theorem val17_main_arg7 (V0 : Valuation τ sig (Elt F)) : val17 V0 (no_index (Proc.devRef .tc main_arg7)) = V0 (Proc.devRef .tc main_arg7) :=
  (norm2C_keep _ main_arg7 (by decide)).trans (val16_main_arg7 V0)
theorem val17_main_arg8 (V0 : Valuation τ sig (Elt F)) : val17 V0 (no_index (Proc.devRef .tc main_arg8)) = V0 (Proc.devRef .tc main_arg8) :=
  (norm2C_keep _ main_arg8 (by decide)).trans (val16_main_arg8 V0)
theorem val17_main_arg9 (V0 : Valuation τ sig (Elt F)) : val17 V0 (no_index (Proc.devRef .tc main_arg9)) = V0 (Proc.devRef .tc main_arg9) :=
  (norm2C_keep _ main_arg9 (by decide)).trans (val16_main_arg9 V0)
theorem val17_main_arg10 (V0 : Valuation τ sig (Elt F)) : val17 V0 (no_index (Proc.devRef .tc main_arg10)) = V0 (Proc.devRef .tc main_arg10) :=
  (norm2C_keep _ main_arg10 (by decide)).trans (val16_main_arg10 V0)

/-- The buffers' contents after `agg3C`. -/
def val18 (V0 : Valuation τ sig (Elt F)) : Valuation τ sig (Elt F) := after agg3C (val17 V0)
theorem val18_main_v67 (V0 : Valuation τ sig (Elt F)) : val18 V0 (no_index (Proc.devRef .tc main_v67)) = hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (agg3C_keep _ main_v67 (by decide)).trans (val17_main_v67 V0)
theorem val18_main_v123 (V0 : Valuation τ sig (Elt F)) : val18 V0 (no_index (Proc.devRef .tc main_v123)) = hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (agg3C_keep _ main_v123 (by decide)).trans (val17_main_v123 V0)
theorem val18_main_v179 (V0 : Valuation τ sig (Elt F)) : val18 V0 (no_index (Proc.devRef .tc main_v179)) = hid3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (agg3C_keep _ main_v179 (by decide)).trans (val17_main_v179 V0)
theorem val18_main_v192 (V0 : Valuation τ sig (Elt F)) : val18 V0 (no_index (Proc.devRef .tc main_v192)) = agg (hid3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2))) :=
  (agg3C_main_v192 (val17 V0)).trans (by simp only [val17_main_v179, val17_main_arg1, val17_main_arg2, val17_main_v11])
theorem val18_main_arg0 (V0 : Valuation τ sig (Elt F)) : val18 V0 (no_index (Proc.devRef .tc main_arg0)) = V0 (Proc.devRef .tc main_arg0) :=
  (agg3C_keep _ main_arg0 (by decide)).trans (val17_main_arg0 V0)
theorem val18_main_arg1 (V0 : Valuation τ sig (Elt F)) : val18 V0 (no_index (Proc.devRef .tc main_arg1)) = V0 (Proc.devRef .tc main_arg1) :=
  (agg3C_keep _ main_arg1 (by decide)).trans (val17_main_arg1 V0)
theorem val18_main_arg2 (V0 : Valuation τ sig (Elt F)) : val18 V0 (no_index (Proc.devRef .tc main_arg2)) = V0 (Proc.devRef .tc main_arg2) :=
  (agg3C_keep _ main_arg2 (by decide)).trans (val17_main_arg2 V0)
theorem val18_main_arg3 (V0 : Valuation τ sig (Elt F)) : val18 V0 (no_index (Proc.devRef .tc main_arg3)) = V0 (Proc.devRef .tc main_arg3) :=
  (agg3C_keep _ main_arg3 (by decide)).trans (val17_main_arg3 V0)
theorem val18_main_arg4 (V0 : Valuation τ sig (Elt F)) : val18 V0 (no_index (Proc.devRef .tc main_arg4)) = V0 (Proc.devRef .tc main_arg4) :=
  (agg3C_keep _ main_arg4 (by decide)).trans (val17_main_arg4 V0)
theorem val18_main_arg5 (V0 : Valuation τ sig (Elt F)) : val18 V0 (no_index (Proc.devRef .tc main_arg5)) = V0 (Proc.devRef .tc main_arg5) :=
  (agg3C_keep _ main_arg5 (by decide)).trans (val17_main_arg5 V0)
theorem val18_main_arg6 (V0 : Valuation τ sig (Elt F)) : val18 V0 (no_index (Proc.devRef .tc main_arg6)) = V0 (Proc.devRef .tc main_arg6) :=
  (agg3C_keep _ main_arg6 (by decide)).trans (val17_main_arg6 V0)
theorem val18_main_arg7 (V0 : Valuation τ sig (Elt F)) : val18 V0 (no_index (Proc.devRef .tc main_arg7)) = V0 (Proc.devRef .tc main_arg7) :=
  (agg3C_keep _ main_arg7 (by decide)).trans (val17_main_arg7 V0)
theorem val18_main_arg8 (V0 : Valuation τ sig (Elt F)) : val18 V0 (no_index (Proc.devRef .tc main_arg8)) = V0 (Proc.devRef .tc main_arg8) :=
  (agg3C_keep _ main_arg8 (by decide)).trans (val17_main_arg8 V0)
theorem val18_main_arg9 (V0 : Valuation τ sig (Elt F)) : val18 V0 (no_index (Proc.devRef .tc main_arg9)) = V0 (Proc.devRef .tc main_arg9) :=
  (agg3C_keep _ main_arg9 (by decide)).trans (val17_main_arg9 V0)
theorem val18_main_arg10 (V0 : Valuation τ sig (Elt F)) : val18 V0 (no_index (Proc.devRef .tc main_arg10)) = V0 (Proc.devRef .tc main_arg10) :=
  (agg3C_keep _ main_arg10 (by decide)).trans (val17_main_arg10 V0)

/-- The buffers' contents after `lin3C`. -/
def val19 (V0 : Valuation τ sig (Elt F)) : Valuation τ sig (Elt F) := after lin3C (val18 V0)
theorem val19_main_v67 (V0 : Valuation τ sig (Elt F)) : val19 V0 (no_index (Proc.devRef .tc main_v67)) = hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (lin3C_keep _ main_v67 (by decide)).trans (val18_main_v67 V0)
theorem val19_main_v123 (V0 : Valuation τ sig (Elt F)) : val19 V0 (no_index (Proc.devRef .tc main_v123)) = hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (lin3C_keep _ main_v123 (by decide)).trans (val18_main_v123 V0)
theorem val19_main_v179 (V0 : Valuation τ sig (Elt F)) : val19 V0 (no_index (Proc.devRef .tc main_v179)) = hid3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (lin3C_keep _ main_v179 (by decide)).trans (val18_main_v179 V0)
theorem val19_main_v204 (V0 : Valuation τ sig (Elt F)) : val19 V0 (no_index (Proc.devRef .tc main_v204)) = lin (hid3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (agg (hid3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2)))) (mat_3 (V0 (Proc.devRef .tc main_arg5))) (mat_3 (V0 (Proc.devRef .tc main_arg6))) (row_3 (V0 (Proc.devRef .tc main_arg7))) :=
  (lin3C_main_v204 (val18 V0)).trans (by simp only [val18_main_v179, val18_main_v192, val18_main_arg5, val18_main_arg6, val18_main_arg7])
theorem val19_main_arg0 (V0 : Valuation τ sig (Elt F)) : val19 V0 (no_index (Proc.devRef .tc main_arg0)) = V0 (Proc.devRef .tc main_arg0) :=
  (lin3C_keep _ main_arg0 (by decide)).trans (val18_main_arg0 V0)
theorem val19_main_arg1 (V0 : Valuation τ sig (Elt F)) : val19 V0 (no_index (Proc.devRef .tc main_arg1)) = V0 (Proc.devRef .tc main_arg1) :=
  (lin3C_keep _ main_arg1 (by decide)).trans (val18_main_arg1 V0)
theorem val19_main_arg2 (V0 : Valuation τ sig (Elt F)) : val19 V0 (no_index (Proc.devRef .tc main_arg2)) = V0 (Proc.devRef .tc main_arg2) :=
  (lin3C_keep _ main_arg2 (by decide)).trans (val18_main_arg2 V0)
theorem val19_main_arg3 (V0 : Valuation τ sig (Elt F)) : val19 V0 (no_index (Proc.devRef .tc main_arg3)) = V0 (Proc.devRef .tc main_arg3) :=
  (lin3C_keep _ main_arg3 (by decide)).trans (val18_main_arg3 V0)
theorem val19_main_arg4 (V0 : Valuation τ sig (Elt F)) : val19 V0 (no_index (Proc.devRef .tc main_arg4)) = V0 (Proc.devRef .tc main_arg4) :=
  (lin3C_keep _ main_arg4 (by decide)).trans (val18_main_arg4 V0)
theorem val19_main_arg5 (V0 : Valuation τ sig (Elt F)) : val19 V0 (no_index (Proc.devRef .tc main_arg5)) = V0 (Proc.devRef .tc main_arg5) :=
  (lin3C_keep _ main_arg5 (by decide)).trans (val18_main_arg5 V0)
theorem val19_main_arg6 (V0 : Valuation τ sig (Elt F)) : val19 V0 (no_index (Proc.devRef .tc main_arg6)) = V0 (Proc.devRef .tc main_arg6) :=
  (lin3C_keep _ main_arg6 (by decide)).trans (val18_main_arg6 V0)
theorem val19_main_arg7 (V0 : Valuation τ sig (Elt F)) : val19 V0 (no_index (Proc.devRef .tc main_arg7)) = V0 (Proc.devRef .tc main_arg7) :=
  (lin3C_keep _ main_arg7 (by decide)).trans (val18_main_arg7 V0)
theorem val19_main_arg8 (V0 : Valuation τ sig (Elt F)) : val19 V0 (no_index (Proc.devRef .tc main_arg8)) = V0 (Proc.devRef .tc main_arg8) :=
  (lin3C_keep _ main_arg8 (by decide)).trans (val18_main_arg8 V0)
theorem val19_main_arg9 (V0 : Valuation τ sig (Elt F)) : val19 V0 (no_index (Proc.devRef .tc main_arg9)) = V0 (Proc.devRef .tc main_arg9) :=
  (lin3C_keep _ main_arg9 (by decide)).trans (val18_main_arg9 V0)
theorem val19_main_arg10 (V0 : Valuation τ sig (Elt F)) : val19 V0 (no_index (Proc.devRef .tc main_arg10)) = V0 (Proc.devRef .tc main_arg10) :=
  (lin3C_keep _ main_arg10 (by decide)).trans (val18_main_arg10 V0)

/-- The buffers' contents after `rst3Cb`. -/
def val20 (V0 : Valuation τ sig (Elt F)) : Valuation τ sig (Elt F) := after rst3Cb (after rst3Ca (val19 V0))
theorem val20_main_v67 (V0 : Valuation τ sig (Elt F)) : val20 V0 (no_index (Proc.devRef .tc main_v67)) = hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (rst3C_keep _ main_v67 (by decide) (by decide)).trans (val19_main_v67 V0)
theorem val20_main_v123 (V0 : Valuation τ sig (Elt F)) : val20 V0 (no_index (Proc.devRef .tc main_v123)) = hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (rst3C_keep _ main_v123 (by decide) (by decide)).trans (val19_main_v123 V0)
theorem val20_main_v179 (V0 : Valuation τ sig (Elt F)) : val20 V0 (no_index (Proc.devRef .tc main_v179)) = hid3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (rst3C_keep _ main_v179 (by decide) (by decide)).trans (val19_main_v179 V0)
theorem val20_main_v212 (V0 : Valuation τ sig (Elt F)) : val20 V0 (no_index (Proc.devRef .tc main_v212)) = rst (lin (hid3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (agg (hid3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2)))) (mat_3 (V0 (Proc.devRef .tc main_arg5))) (mat_3 (V0 (Proc.devRef .tc main_arg6))) (row_3 (V0 (Proc.devRef .tc main_arg7)))) (row_3 (V0 (Proc.devRef .tc main_arg10))) :=
  (rst3C_main_v212 (val19 V0)).trans (by simp only [val19_main_v204, val19_main_arg10])
theorem val20_main_v215 (V0 : Valuation τ sig (Elt F)) : val20 V0 (no_index (Proc.devRef .tc main_v215)) = mu (rst (lin (hid3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (agg (hid3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2)))) (mat_3 (V0 (Proc.devRef .tc main_arg5))) (mat_3 (V0 (Proc.devRef .tc main_arg6))) (row_3 (V0 (Proc.devRef .tc main_arg7)))) (row_3 (V0 (Proc.devRef .tc main_arg10)))) :=
  (rst3C_main_v215 (val19 V0)).trans (by simp only [val19_main_v204, val19_main_arg10])
theorem val20_main_arg0 (V0 : Valuation τ sig (Elt F)) : val20 V0 (no_index (Proc.devRef .tc main_arg0)) = V0 (Proc.devRef .tc main_arg0) :=
  (rst3C_keep _ main_arg0 (by decide) (by decide)).trans (val19_main_arg0 V0)
theorem val20_main_arg1 (V0 : Valuation τ sig (Elt F)) : val20 V0 (no_index (Proc.devRef .tc main_arg1)) = V0 (Proc.devRef .tc main_arg1) :=
  (rst3C_keep _ main_arg1 (by decide) (by decide)).trans (val19_main_arg1 V0)
theorem val20_main_arg2 (V0 : Valuation τ sig (Elt F)) : val20 V0 (no_index (Proc.devRef .tc main_arg2)) = V0 (Proc.devRef .tc main_arg2) :=
  (rst3C_keep _ main_arg2 (by decide) (by decide)).trans (val19_main_arg2 V0)
theorem val20_main_arg3 (V0 : Valuation τ sig (Elt F)) : val20 V0 (no_index (Proc.devRef .tc main_arg3)) = V0 (Proc.devRef .tc main_arg3) :=
  (rst3C_keep _ main_arg3 (by decide) (by decide)).trans (val19_main_arg3 V0)
theorem val20_main_arg4 (V0 : Valuation τ sig (Elt F)) : val20 V0 (no_index (Proc.devRef .tc main_arg4)) = V0 (Proc.devRef .tc main_arg4) :=
  (rst3C_keep _ main_arg4 (by decide) (by decide)).trans (val19_main_arg4 V0)
theorem val20_main_arg5 (V0 : Valuation τ sig (Elt F)) : val20 V0 (no_index (Proc.devRef .tc main_arg5)) = V0 (Proc.devRef .tc main_arg5) :=
  (rst3C_keep _ main_arg5 (by decide) (by decide)).trans (val19_main_arg5 V0)
theorem val20_main_arg6 (V0 : Valuation τ sig (Elt F)) : val20 V0 (no_index (Proc.devRef .tc main_arg6)) = V0 (Proc.devRef .tc main_arg6) :=
  (rst3C_keep _ main_arg6 (by decide) (by decide)).trans (val19_main_arg6 V0)
theorem val20_main_arg7 (V0 : Valuation τ sig (Elt F)) : val20 V0 (no_index (Proc.devRef .tc main_arg7)) = V0 (Proc.devRef .tc main_arg7) :=
  (rst3C_keep _ main_arg7 (by decide) (by decide)).trans (val19_main_arg7 V0)
theorem val20_main_arg8 (V0 : Valuation τ sig (Elt F)) : val20 V0 (no_index (Proc.devRef .tc main_arg8)) = V0 (Proc.devRef .tc main_arg8) :=
  (rst3C_keep _ main_arg8 (by decide) (by decide)).trans (val19_main_arg8 V0)
theorem val20_main_arg9 (V0 : Valuation τ sig (Elt F)) : val20 V0 (no_index (Proc.devRef .tc main_arg9)) = V0 (Proc.devRef .tc main_arg9) :=
  (rst3C_keep _ main_arg9 (by decide) (by decide)).trans (val19_main_arg9 V0)
theorem val20_main_arg10 (V0 : Valuation τ sig (Elt F)) : val20 V0 (no_index (Proc.devRef .tc main_arg10)) = V0 (Proc.devRef .tc main_arg10) :=
  (rst3C_keep _ main_arg10 (by decide) (by decide)).trans (val19_main_arg10 V0)

/-- The buffers' contents after `var3C`. -/
def val21 (V0 : Valuation τ sig (Elt F)) : Valuation τ sig (Elt F) := after var3C (val20 V0)
theorem val21_main_v67 (V0 : Valuation τ sig (Elt F)) : val21 V0 (no_index (Proc.devRef .tc main_v67)) = hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (var3C_keep _ main_v67 (by decide)).trans (val20_main_v67 V0)
theorem val21_main_v123 (V0 : Valuation τ sig (Elt F)) : val21 V0 (no_index (Proc.devRef .tc main_v123)) = hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (var3C_keep _ main_v123 (by decide)).trans (val20_main_v123 V0)
theorem val21_main_v179 (V0 : Valuation τ sig (Elt F)) : val21 V0 (no_index (Proc.devRef .tc main_v179)) = hid3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (var3C_keep _ main_v179 (by decide)).trans (val20_main_v179 V0)
theorem val21_main_v212 (V0 : Valuation τ sig (Elt F)) : val21 V0 (no_index (Proc.devRef .tc main_v212)) = rst (lin (hid3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (agg (hid3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2)))) (mat_3 (V0 (Proc.devRef .tc main_arg5))) (mat_3 (V0 (Proc.devRef .tc main_arg6))) (row_3 (V0 (Proc.devRef .tc main_arg7)))) (row_3 (V0 (Proc.devRef .tc main_arg10))) :=
  (var3C_keep _ main_v212 (by decide)).trans (val20_main_v212 V0)
theorem val21_main_v215 (V0 : Valuation τ sig (Elt F)) : val21 V0 (no_index (Proc.devRef .tc main_v215)) = mu (rst (lin (hid3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (agg (hid3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2)))) (mat_3 (V0 (Proc.devRef .tc main_arg5))) (mat_3 (V0 (Proc.devRef .tc main_arg6))) (row_3 (V0 (Proc.devRef .tc main_arg7)))) (row_3 (V0 (Proc.devRef .tc main_arg10)))) :=
  (var3C_keep _ main_v215 (by decide)).trans (val20_main_v215 V0)
theorem val21_main_v216 (V0 : Valuation τ sig (Elt F)) : val21 V0 (no_index (Proc.devRef .tc main_v216)) = var (rst (lin (hid3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (agg (hid3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (deg (V0 (Proc.devRef .tc main_arg2)))) (mat_3 (V0 (Proc.devRef .tc main_arg5))) (mat_3 (V0 (Proc.devRef .tc main_arg6))) (row_3 (V0 (Proc.devRef .tc main_arg7)))) (row_3 (V0 (Proc.devRef .tc main_arg10)))) :=
  (var3C_main_v216 (val20 V0)).trans (by simp only [val20_main_v212])
theorem val21_main_arg0 (V0 : Valuation τ sig (Elt F)) : val21 V0 (no_index (Proc.devRef .tc main_arg0)) = V0 (Proc.devRef .tc main_arg0) :=
  (var3C_keep _ main_arg0 (by decide)).trans (val20_main_arg0 V0)
theorem val21_main_arg1 (V0 : Valuation τ sig (Elt F)) : val21 V0 (no_index (Proc.devRef .tc main_arg1)) = V0 (Proc.devRef .tc main_arg1) :=
  (var3C_keep _ main_arg1 (by decide)).trans (val20_main_arg1 V0)
theorem val21_main_arg2 (V0 : Valuation τ sig (Elt F)) : val21 V0 (no_index (Proc.devRef .tc main_arg2)) = V0 (Proc.devRef .tc main_arg2) :=
  (var3C_keep _ main_arg2 (by decide)).trans (val20_main_arg2 V0)
theorem val21_main_arg3 (V0 : Valuation τ sig (Elt F)) : val21 V0 (no_index (Proc.devRef .tc main_arg3)) = V0 (Proc.devRef .tc main_arg3) :=
  (var3C_keep _ main_arg3 (by decide)).trans (val20_main_arg3 V0)
theorem val21_main_arg4 (V0 : Valuation τ sig (Elt F)) : val21 V0 (no_index (Proc.devRef .tc main_arg4)) = V0 (Proc.devRef .tc main_arg4) :=
  (var3C_keep _ main_arg4 (by decide)).trans (val20_main_arg4 V0)
theorem val21_main_arg5 (V0 : Valuation τ sig (Elt F)) : val21 V0 (no_index (Proc.devRef .tc main_arg5)) = V0 (Proc.devRef .tc main_arg5) :=
  (var3C_keep _ main_arg5 (by decide)).trans (val20_main_arg5 V0)
theorem val21_main_arg6 (V0 : Valuation τ sig (Elt F)) : val21 V0 (no_index (Proc.devRef .tc main_arg6)) = V0 (Proc.devRef .tc main_arg6) :=
  (var3C_keep _ main_arg6 (by decide)).trans (val20_main_arg6 V0)
theorem val21_main_arg7 (V0 : Valuation τ sig (Elt F)) : val21 V0 (no_index (Proc.devRef .tc main_arg7)) = V0 (Proc.devRef .tc main_arg7) :=
  (var3C_keep _ main_arg7 (by decide)).trans (val20_main_arg7 V0)
theorem val21_main_arg8 (V0 : Valuation τ sig (Elt F)) : val21 V0 (no_index (Proc.devRef .tc main_arg8)) = V0 (Proc.devRef .tc main_arg8) :=
  (var3C_keep _ main_arg8 (by decide)).trans (val20_main_arg8 V0)
theorem val21_main_arg9 (V0 : Valuation τ sig (Elt F)) : val21 V0 (no_index (Proc.devRef .tc main_arg9)) = V0 (Proc.devRef .tc main_arg9) :=
  (var3C_keep _ main_arg9 (by decide)).trans (val20_main_arg9 V0)
theorem val21_main_arg10 (V0 : Valuation τ sig (Elt F)) : val21 V0 (no_index (Proc.devRef .tc main_arg10)) = V0 (Proc.devRef .tc main_arg10) :=
  (var3C_keep _ main_arg10 (by decide)).trans (val20_main_arg10 V0)

/-- The buffers' contents after `norm3C`. -/
def val22 (V0 : Valuation τ sig (Elt F)) : Valuation τ sig (Elt F) := after norm3C (val21 V0)
theorem val22_main_v67 (V0 : Valuation τ sig (Elt F)) : val22 V0 (no_index (Proc.devRef .tc main_v67)) = hid1 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (norm3C_keep _ main_v67 (by decide)).trans (val21_main_v67 V0)
theorem val22_main_v123 (V0 : Valuation τ sig (Elt F)) : val22 V0 (no_index (Proc.devRef .tc main_v123)) = hid2 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (norm3C_keep _ main_v123 (by decide)).trans (val21_main_v123 V0)
theorem val22_main_v179 (V0 : Valuation τ sig (Elt F)) : val22 V0 (no_index (Proc.devRef .tc main_v179)) = hid3 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (norm3C_keep _ main_v179 (by decide)).trans (val21_main_v179 V0)
theorem val22_main_v235 (V0 : Valuation τ sig (Elt F)) : val22 V0 (no_index (Proc.devRef .tc main_v235)) = hid4 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (norm3C_main_v235 (val21 V0)).trans (by simp only [val21_main_v212, val21_main_v215, val21_main_v216, val21_main_arg8, val21_main_arg9]; rfl)
theorem val22_main_arg0 (V0 : Valuation τ sig (Elt F)) : val22 V0 (no_index (Proc.devRef .tc main_arg0)) = V0 (Proc.devRef .tc main_arg0) :=
  (norm3C_keep _ main_arg0 (by decide)).trans (val21_main_arg0 V0)
theorem val22_main_arg1 (V0 : Valuation τ sig (Elt F)) : val22 V0 (no_index (Proc.devRef .tc main_arg1)) = V0 (Proc.devRef .tc main_arg1) :=
  (norm3C_keep _ main_arg1 (by decide)).trans (val21_main_arg1 V0)
theorem val22_main_arg2 (V0 : Valuation τ sig (Elt F)) : val22 V0 (no_index (Proc.devRef .tc main_arg2)) = V0 (Proc.devRef .tc main_arg2) :=
  (norm3C_keep _ main_arg2 (by decide)).trans (val21_main_arg2 V0)
theorem val22_main_arg3 (V0 : Valuation τ sig (Elt F)) : val22 V0 (no_index (Proc.devRef .tc main_arg3)) = V0 (Proc.devRef .tc main_arg3) :=
  (norm3C_keep _ main_arg3 (by decide)).trans (val21_main_arg3 V0)
theorem val22_main_arg4 (V0 : Valuation τ sig (Elt F)) : val22 V0 (no_index (Proc.devRef .tc main_arg4)) = V0 (Proc.devRef .tc main_arg4) :=
  (norm3C_keep _ main_arg4 (by decide)).trans (val21_main_arg4 V0)
theorem val22_main_arg5 (V0 : Valuation τ sig (Elt F)) : val22 V0 (no_index (Proc.devRef .tc main_arg5)) = V0 (Proc.devRef .tc main_arg5) :=
  (norm3C_keep _ main_arg5 (by decide)).trans (val21_main_arg5 V0)
theorem val22_main_arg6 (V0 : Valuation τ sig (Elt F)) : val22 V0 (no_index (Proc.devRef .tc main_arg6)) = V0 (Proc.devRef .tc main_arg6) :=
  (norm3C_keep _ main_arg6 (by decide)).trans (val21_main_arg6 V0)
theorem val22_main_arg7 (V0 : Valuation τ sig (Elt F)) : val22 V0 (no_index (Proc.devRef .tc main_arg7)) = V0 (Proc.devRef .tc main_arg7) :=
  (norm3C_keep _ main_arg7 (by decide)).trans (val21_main_arg7 V0)
theorem val22_main_arg8 (V0 : Valuation τ sig (Elt F)) : val22 V0 (no_index (Proc.devRef .tc main_arg8)) = V0 (Proc.devRef .tc main_arg8) :=
  (norm3C_keep _ main_arg8 (by decide)).trans (val21_main_arg8 V0)
theorem val22_main_arg9 (V0 : Valuation τ sig (Elt F)) : val22 V0 (no_index (Proc.devRef .tc main_arg9)) = V0 (Proc.devRef .tc main_arg9) :=
  (norm3C_keep _ main_arg9 (by decide)).trans (val21_main_arg9 V0)
theorem val22_main_arg10 (V0 : Valuation τ sig (Elt F)) : val22 V0 (no_index (Proc.devRef .tc main_arg10)) = V0 (Proc.devRef .tc main_arg10) :=
  (norm3C_keep _ main_arg10 (by decide)).trans (val21_main_arg10 V0)

/-- The buffers' contents after `poolC`. -/
def val23 (V0 : Valuation τ sig (Elt F)) : Valuation τ sig (Elt F) := after poolC (val22 V0)
theorem val23_main_v247 (V0 : Valuation τ sig (Elt F)) : val23 V0 (no_index (Proc.devRef .tc main_v247)) = out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (poolC_main_v247 (val22 V0)).trans (by simp only [val22_main_v67, val22_main_v123, val22_main_v179, val22_main_v235, val22_main_arg3]; rfl)
theorem val23_main_arg0 (V0 : Valuation τ sig (Elt F)) : val23 V0 (no_index (Proc.devRef .tc main_arg0)) = V0 (Proc.devRef .tc main_arg0) :=
  (poolC_keep _ main_arg0 (by decide)).trans (val22_main_arg0 V0)
theorem val23_main_arg1 (V0 : Valuation τ sig (Elt F)) : val23 V0 (no_index (Proc.devRef .tc main_arg1)) = V0 (Proc.devRef .tc main_arg1) :=
  (poolC_keep _ main_arg1 (by decide)).trans (val22_main_arg1 V0)
theorem val23_main_arg2 (V0 : Valuation τ sig (Elt F)) : val23 V0 (no_index (Proc.devRef .tc main_arg2)) = V0 (Proc.devRef .tc main_arg2) :=
  (poolC_keep _ main_arg2 (by decide)).trans (val22_main_arg2 V0)
theorem val23_main_arg3 (V0 : Valuation τ sig (Elt F)) : val23 V0 (no_index (Proc.devRef .tc main_arg3)) = V0 (Proc.devRef .tc main_arg3) :=
  (poolC_keep _ main_arg3 (by decide)).trans (val22_main_arg3 V0)
theorem val23_main_arg4 (V0 : Valuation τ sig (Elt F)) : val23 V0 (no_index (Proc.devRef .tc main_arg4)) = V0 (Proc.devRef .tc main_arg4) :=
  (poolC_keep _ main_arg4 (by decide)).trans (val22_main_arg4 V0)
theorem val23_main_arg5 (V0 : Valuation τ sig (Elt F)) : val23 V0 (no_index (Proc.devRef .tc main_arg5)) = V0 (Proc.devRef .tc main_arg5) :=
  (poolC_keep _ main_arg5 (by decide)).trans (val22_main_arg5 V0)
theorem val23_main_arg6 (V0 : Valuation τ sig (Elt F)) : val23 V0 (no_index (Proc.devRef .tc main_arg6)) = V0 (Proc.devRef .tc main_arg6) :=
  (poolC_keep _ main_arg6 (by decide)).trans (val22_main_arg6 V0)
theorem val23_main_arg7 (V0 : Valuation τ sig (Elt F)) : val23 V0 (no_index (Proc.devRef .tc main_arg7)) = V0 (Proc.devRef .tc main_arg7) :=
  (poolC_keep _ main_arg7 (by decide)).trans (val22_main_arg7 V0)
theorem val23_main_arg8 (V0 : Valuation τ sig (Elt F)) : val23 V0 (no_index (Proc.devRef .tc main_arg8)) = V0 (Proc.devRef .tc main_arg8) :=
  (poolC_keep _ main_arg8 (by decide)).trans (val22_main_arg8 V0)
theorem val23_main_arg9 (V0 : Valuation τ sig (Elt F)) : val23 V0 (no_index (Proc.devRef .tc main_arg9)) = V0 (Proc.devRef .tc main_arg9) :=
  (poolC_keep _ main_arg9 (by decide)).trans (val22_main_arg9 V0)
theorem val23_main_arg10 (V0 : Valuation τ sig (Elt F)) : val23 V0 (no_index (Proc.devRef .tc main_arg10)) = V0 (Proc.devRef .tc main_arg10) :=
  (poolC_keep _ main_arg10 (by decide)).trans (val22_main_arg10 V0)

theorem after_ops (V0 : Valuation τ sig (Elt F)) : after ops V0 = val23 V0 := by
  simp only [ops, win0, win1, win2, win3, win4, after_app]
  rfl

/-! ## The run -/

/-- On every device, for any float values, from any memory with zero counters: every weakly fair execution of
    @main terminates with the result at `out` of the eleven arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v247) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v247).trans (by simp only [after_ops]; exact val23_main_v247 (launchContents m c)),
      (h c main_arg0).trans (by simp only [after_ops]; exact val23_main_arg0 (launchContents m c)),
      (h c main_arg1).trans (by simp only [after_ops]; exact val23_main_arg1 (launchContents m c)),
      (h c main_arg2).trans (by simp only [after_ops]; exact val23_main_arg2 (launchContents m c)),
      (h c main_arg3).trans (by simp only [after_ops]; exact val23_main_arg3 (launchContents m c)),
      (h c main_arg4).trans (by simp only [after_ops]; exact val23_main_arg4 (launchContents m c)),
      (h c main_arg5).trans (by simp only [after_ops]; exact val23_main_arg5 (launchContents m c)),
      (h c main_arg6).trans (by simp only [after_ops]; exact val23_main_arg6 (launchContents m c)),
      (h c main_arg7).trans (by simp only [after_ops]; exact val23_main_arg7 (launchContents m c)),
      (h c main_arg8).trans (by simp only [after_ops]; exact val23_main_arg8 (launchContents m c)),
      (h c main_arg9).trans (by simp only [after_ops]; exact val23_main_arg9 (launchContents m c)),
      (h c main_arg10).trans (by simp only [after_ops]; exact val23_main_arg10 (launchContents m c))⟩)
    (run_seq scopedRefs_eq scopedSems_eq defs main (fun _ => ops) main_eq (fun _ => ops_sub) m ρ (fun _ => ops_fresh))

end Cert.ReferenceIdeal.Run

end
-- ==== Proof.Spec.lean ====
/-
  The mathematics of one layer of the network, stated once over abstract finite index types and the extended
  reals, in the two arrangements the two programs compute it.

  A layer maps node features `h` (rows `R`, features `K`) and the raw neighbour sums `raw` to
      out = (x - mean x) · rsqrt (var x + eps) · gamma + beta,   x = prelu (h·W_self + agg·W_neigh + b),
  with `agg = raw / deg`. One arrangement multiplies `raw` by the reciprocal `1 / deg` and takes the variance as
  the mean of squares minus the squared mean; the other divides by `deg` and takes the variance as the mean of the
  squared deviations. Over finite (real) data the two agree; the extended reals need the finiteness because
  distributing a product over a sum fails at the infinities.
-/
import Idealize.ShloMosaic.PureOps.Ideal
import Mathlib.Data.EReal.Operations
import Mathlib.Algebra.BigOperators.Ring.Finset

noncomputable section

namespace Cert.Spec

open Idealize.ShloMosaic

variable {R K : Type} [Fintype R] [Fintype K]

/-- The affine part: `h·W_self + agg·W_neigh + b`, entry by entry. -/
def lin (h a : R → K → EReal) (Ws Wn : K → K → EReal) (b : K → EReal) : R → K → EReal :=
  fun r j => (∑ k, h r k * Ws k j) + (∑ k, a r k * Wn k j) + b j

/-- The parametric rectifier: `x` where the test `C` holds of it, `p · x` elsewhere. -/
def prelu (C : EReal → Prop) [DecidablePred C] (p : K → EReal) (x : R → K → EReal) : R → K → EReal :=
  fun r j => if C (x r j) then x r j else p j * x r j

/-- Neighbour mean as the product with the reciprocal degree. -/
def aggMul (raw : R → K → EReal) (deg : R → EReal) : R → K → EReal :=
  fun r k => raw r k * Ideal.div 1 (deg r)

/-- Neighbour mean as the quotient by the degree. -/
def aggDiv (raw : R → K → EReal) (deg : R → EReal) : R → K → EReal :=
  fun r k => Ideal.div (raw r k) (deg r)

/-- Column sums. -/
def colSum (x : R → K → EReal) : K → EReal := fun j => ∑ r, x r j

/-- Column means: the column sum over the row count `n`. -/
def mean (n : EReal) (x : R → K → EReal) : K → EReal := fun j => Ideal.div (colSum x j) n

/-- Variance as mean of squares minus squared mean. -/
def varSq (n : EReal) (x : R → K → EReal) : K → EReal :=
  fun j => Ideal.div (∑ r, x r j * x r j) n - mean n x j * mean n x j

/-- Variance as the mean of the squared deviations from the mean. -/
def varDev (n : EReal) (x : R → K → EReal) : K → EReal :=
  fun j => Ideal.div (∑ r, (x r j - mean n x j) * (x r j - mean n x j)) n

/-- The normalisation with scale and shift. -/
def normalize (eps : EReal) (x : R → K → EReal) (mu var g be : K → EReal) : R → K → EReal :=
  fun r j => (x r j - mu j) * Ideal.rsqrt (var j + eps) * g j + be j

/-- One layer, reciprocal-degree product and mean-of-squares variance. -/
def layerMul (C : EReal → Prop) [DecidablePred C] (n eps : EReal) (h raw : R → K → EReal) (deg : R → EReal)
    (Ws Wn : K → K → EReal) (b p g be : K → EReal) : R → K → EReal :=
  let x := prelu C p (lin h (aggMul raw deg) Ws Wn b)
  normalize eps x (mean n x) (varSq n x) g be

/-- One layer, quotient by the degree and mean-of-squared-deviations variance. -/
def layerDiv (C : EReal → Prop) [DecidablePred C] (n eps : EReal) (h raw : R → K → EReal) (deg : R → EReal)
    (Ws Wn : K → K → EReal) (b p g be : K → EReal) : R → K → EReal :=
  let x := prelu C p (lin h (aggDiv raw deg) Ws Wn b)
  normalize eps x (mean n x) (varDev n x) g be

end Cert.Spec

end
-- ==== Proof.KI.PayIdeal.lean ====
/-
  The payloads of the two kernels read at an index, at the extended reals.

  The statistics kernel's pre-normalisation block is, entry by entry, the rectified affine map of `Spec.lean`:
      x[r, j] = prelu (∑ₖ h[r, k] · Ws[k, j] + ∑ₖ (raw[r, k] · inv[r, 0]) · Wn[k, j] + b[0, j]),
  (the narrowing to bf16 before the products is the identity on the extended reals, a product into the zero splat is the
  bare sum over the contracted axis, a `[5000, 1]` column and a `[1, 128]` row broadcast read their one column / row);
  its column sums and sums of squares accumulate into `[1, 128]` rows, and the finished rows are replicated over eight
  sublanes. The normalising kernel recomputes the same block, takes `rsqrt (var + eps)` and applies
      (x - mu) · rs · g + be.
-/
import proofs.«129379_j32899449487582_2_alg».proof.Proof.Gen.KernelIdeal.Skeleton
import proofs.«129379_j32899449487582_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.KernelIdeal.PayIdeal

open Cert.KernelIdeal Cert.KernelIdeal.Gen Idealize.ShloMosaic
open Idealize.ShloMosaic.ValueIdx

/-! ## Layout and contraction operations at coordinates -/

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row is the output's row. -/
theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contracted coordinate. -/
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row is the contracted coordinate. -/
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column is the output's column. -/
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The `[5000, 128] × [128, 128]` product into the zero splat, at `(r, j)`: `∑ₖ x[r, k] · w[k, j]`. -/
theorem matmul_dot_apply (x : FVec Ideal S5000x128 .bf16) (w : FVec Ideal S128x128 .bf16) (r : Fin 5000) (j : Fin 128) :
    matmul dot_S5000x128_S128x128_S5000x128_1_0_0_1_n_n none x w (constant (F := Ideal) S5000x128 .f32 0x00000000#32) (ix2 r j)
      = ∑ k : Fin 128, x (ix2 r k) * w (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k :=
    funext fun a => Fin.ext (by
      match a with
      | ⟨0, _⟩ => exact lhs_dot_0 _ _
      | ⟨1, _⟩ => exact (lhs_dot_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j :=
    funext fun a => Fin.ext (by
      match a with
      | ⟨0, _⟩ => exact (rhs_dot_0 _ _).trans hk
      | ⟨1, _⟩ => exact rhs_dot_1 _ _)
  rw [el, er]

/-- The sum over the rows of a `[5000, 128]` block, at lane `j`: `∑ᵣ x[r, j]`. -/
theorem colsum_apply (x : FVec Ideal S5000x128 .f32) (h : S5000x128.Reduces [0] S128) (hφ : FKind.Formats .f32)
    (hacc : (0x00000000#32 : BitVec 32) = FKind.add.neutral .f32 hφ) (j : Fin 128) :
    multiReduction (F := Ideal) .add [0] S128 x 0x00000000#32 h hφ hacc (ix1 j) = ∑ r : Fin 5000, x (ix2 r j) := by
  refine (Ideal.multiReduction_add_single x 0x00000000#32 h hφ hacc (ix1 j)).trans ?_
  refine Finset.sum_congr rfl fun r _ => congrArg x ?_
  funext a
  match a with
  | ⟨0, _⟩ => rfl
  | ⟨1, _⟩ => rfl

/-! ## The rectified affine block both kernels compute -/

/-- The rectifier's test on the extended reals: the ordered comparison `x > 0` answers the bit `1`. -/
abbrev posTest (x : EReal) : Prop := Ideal.cmp .ogt x (Ideal.ofBits .f32 0x00000000#32) = 1#1

instance : DecidablePred posTest := fun x => inferInstanceAs (Decidable (Ideal.cmp .ogt x (Ideal.ofBits .f32 0x00000000#32) = 1#1))

/-- The test is strict positivity. -/
theorem posTest_iff (x : EReal) : posTest x ↔ 0 < x := by
  unfold posTest Ideal.cmp
  rw [Ideal.ofBits_zero_f32]
  by_cases hx : (0 : EReal) < x <;> simp [hx]

/-- The affine block before the rectifier: both products narrowed to bf16 (the identity here), summed, plus the bias
    row. -/
def preact (h raw : FVec Ideal S5000x128 .f32) (inv : FVec Ideal S5000x1 .f32) (Ws Wn : FVec Ideal S128x128 .f32)
    (b : FVec Ideal S1x128 .f32) : FVec Ideal S5000x128 .f32 :=
  addf
    (addf
      (matmul dot_S5000x128_S128x128_S5000x128_1_0_0_1_n_n none (truncf .bf16 h bitsLt_bf16_f32) (truncf .bf16 Ws bitsLt_bf16_f32)
        (constant (F := Ideal) S5000x128 .f32 0x00000000#32))
      (matmul dot_S5000x128_S128x128_S5000x128_1_0_0_1_n_n none
        (truncf .bf16 (mulf raw (broadcastTo S5000x128 inv broadcasts_S5000x1_S5000x128)) bitsLt_bf16_f32)
        (truncf .bf16 Wn bitsLt_bf16_f32) (constant (F := Ideal) S5000x128 .f32 0x00000000#32)))
    (broadcastTo S5000x128 b broadcasts_S1x128_S5000x128)

/-- The rectifier over a block: `x` where `x > 0`, the slope row times `x` elsewhere. -/
def rect (x : FVec Ideal S5000x128 .f32) (p : FVec Ideal S1x128 .f32) : FVec Ideal S5000x128 .f32 :=
  select (cmpf .ogt x (broadcast S5000x128 (Scalar.ofBits (F := Ideal) .f32 0x00000000#32))) x
    (mulf (broadcastTo S5000x128 p broadcasts_S1x128_S5000x128) x)

/-- The affine block at `(r, j)`: `Spec.lin` of the blocks read by coordinates, the neighbour term being
    `raw[r, k] · inv[r, 0]`. -/
theorem preact_apply (h raw : FVec Ideal S5000x128 .f32) (inv : FVec Ideal S5000x1 .f32)
    (Ws Wn : FVec Ideal S128x128 .f32) (b : FVec Ideal S1x128 .f32) (r : Fin 5000) (j : Fin 128) :
    preact h raw inv Ws Wn b (ix2 r j)
      = Spec.lin (R := Fin 5000) (K := Fin 128) (fun r k => h (ix2 r k))
          (fun r k => raw (ix2 r k) * inv (ix2 r (0 : Fin 1)))
          (fun k j => Ws (ix2 k j)) (fun k j => Wn (ix2 k j)) (fun j => b (ix2 (0 : Fin 1) j)) r j := by
  unfold preact
  rw [addf_apply, addf_apply, matmul_dot_apply, matmul_dot_apply, broadcastTo_1b_ab_apply]
  simp only [truncf_apply, mulf_apply, broadcastTo_a1_ab_apply]
  rfl

/-- The rectifier at `(r, j)`. -/
theorem rect_apply (x : FVec Ideal S5000x128 .f32) (p : FVec Ideal S1x128 .f32) (r : Fin 5000) (j : Fin 128) :
    rect x p (ix2 r j)
      = if posTest (x (ix2 r j)) then x (ix2 r j) else p (ix2 (0 : Fin 1) j) * x (ix2 r j) := by
  unfold rect
  rw [select_apply, cmpf_apply, mulf_apply, broadcastTo_1b_ab_apply, broadcast_apply]
  rfl

/-! ## The statistics kernel's payloads -/

/-- The statistics kernel's block is the rectified affine block. -/
theorem k0_pay7_eq (h raw : FVec Ideal S5000x128 .f32) (inv : FVec Ideal S5000x1 .f32)
    (Ws Wn : FVec Ideal S128x128 .f32) (b p : FVec Ideal S1x128 .f32) :
    k0_pay7 (F := Ideal) h raw inv Ws Wn b p = rect (preact h raw inv Ws Wn b) p := by
  unfold k0_pay7 rect preact
  simp only [shapeCast_self]

/-- The statistics kernel's block at `(r, j)`: the rectified affine map of `Spec.lean`. -/
theorem pay7_apply (h raw : FVec Ideal S5000x128 .f32) (inv : FVec Ideal S5000x1 .f32)
    (Ws Wn : FVec Ideal S128x128 .f32) (b p : FVec Ideal S1x128 .f32) (r : Fin 5000) (j : Fin 128) :
    k0_pay7 (F := Ideal) h raw inv Ws Wn b p (ix2 r j)
      = Spec.prelu (R := Fin 5000) (K := Fin 128) posTest (fun j => p (ix2 (0 : Fin 1) j))
          (Spec.lin (fun r k => h (ix2 r k)) (fun r k => raw (ix2 r k) * inv (ix2 r (0 : Fin 1)))
            (fun k j => Ws (ix2 k j)) (fun k j => Wn (ix2 k j)) (fun j => b (ix2 (0 : Fin 1) j))) r j := by
  rw [k0_pay7_eq, rect_apply, preact_apply]
  rfl

/-- The block's column sums: lane `j` is the sum over the rows. -/
theorem pay8_apply (h raw : FVec Ideal S5000x128 .f32) (inv : FVec Ideal S5000x1 .f32)
    (Ws Wn : FVec Ideal S128x128 .f32) (b p : FVec Ideal S1x128 .f32) (j : Fin 128) :
    k0_pay8 (F := Ideal) h raw inv Ws Wn b p (ix1 j)
      = ∑ r : Fin 5000, k0_pay7 (F := Ideal) h raw inv Ws Wn b p (ix2 r j) := by
  unfold k0_pay8
  exact colsum_apply _ _ _ _ j

/-- The running column sum: the stored row plus the block's column sums. -/
theorem pay1_apply (s : FVec Ideal S1x128 .f32) (v : FVec Ideal S128 .f32) (j : Fin 128) :
    k0_pay1 (F := Ideal) s v (ix2 (0 : Fin 1) j) = s (ix2 (0 : Fin 1) j) + v (ix1 j) := by
  unfold k0_pay1
  rw [shapeCast_self, addf_apply, shapeCast_a_1a_apply]

/-- The running sum of squares: the stored row plus the column sums of the block's squares. -/
theorem pay2_apply (x : FVec Ideal S5000x128 .f32) (q : FVec Ideal S1x128 .f32) (j : Fin 128) :
    k0_pay2 (F := Ideal) x q (ix2 (0 : Fin 1) j)
      = q (ix2 (0 : Fin 1) j) + ∑ r : Fin 5000, x (ix2 r j) * x (ix2 r j) := by
  unfold k0_pay2
  rw [shapeCast_self, addf_apply, shapeCast_a_1a_apply]
  exact congrArg (q (ix2 (0 : Fin 1) j) + ·) (colsum_apply _ _ _ _ j)

/-- The finished sum row replicated over eight sublanes. -/
theorem pay3_apply (s : FVec Ideal S1x128 .f32) (a : Fin 8) (j : Fin 128) :
    k0_pay3 (F := Ideal) s (ix2 a j) = s (ix2 (0 : Fin 1) j) := by
  unfold k0_pay3
  rw [shapeCast_self, broadcastTo_1b_ab_apply]

/-- The finished sum-of-squares row replicated over eight sublanes. -/
theorem pay4_apply (s : FVec Ideal S1x128 .f32) (a : Fin 8) (j : Fin 128) :
    k0_pay4 (F := Ideal) s (ix2 a j) = s (ix2 (0 : Fin 1) j) := by
  unfold k0_pay4
  rw [shapeCast_self, broadcastTo_1b_ab_apply]

/-- The sum row starts at zero. -/
theorem pay5_apply (j : Fin 128) : (k0_pay5 (F := Ideal)) (ix2 (0 : Fin 1) j) = 0 := by
  unfold k0_pay5
  rw [shapeCast_self, broadcast_apply]
  exact Ideal.ofBits_zero_f32

/-- The sum-of-squares row starts at zero. -/
theorem pay6_apply (j : Fin 128) : (k0_pay6 (F := Ideal)) (ix2 (0 : Fin 1) j) = 0 := by
  unfold k0_pay6
  rw [shapeCast_self, broadcast_apply]
  exact Ideal.ofBits_zero_f32

/-! ## The normalising kernel's payloads -/

/-- The normalising kernel recomputes the same rectified affine block. -/
theorem k1_pay2_eq (h raw : FVec Ideal S5000x128 .f32) (inv : FVec Ideal S5000x1 .f32)
    (Ws Wn : FVec Ideal S128x128 .f32) (b p : FVec Ideal S1x128 .f32) :
    k1_pay2 (F := Ideal) h raw inv Ws Wn b p = rect (preact h raw inv Ws Wn b) p := by
  unfold k1_pay2 rect preact
  simp only [shapeCast_self]

/-- So the two kernels' blocks are the same array. -/
theorem k1_pay2_eq_k0_pay7 (h raw : FVec Ideal S5000x128 .f32) (inv : FVec Ideal S5000x1 .f32)
    (Ws Wn : FVec Ideal S128x128 .f32) (b p : FVec Ideal S1x128 .f32) :
    k1_pay2 (F := Ideal) h raw inv Ws Wn b p = k0_pay7 (F := Ideal) h raw inv Ws Wn b p := by
  rw [k1_pay2_eq, k0_pay7_eq]

/-- The recomputed block at `(r, j)`. -/
theorem k1_pay2_apply (h raw : FVec Ideal S5000x128 .f32) (inv : FVec Ideal S5000x1 .f32)
    (Ws Wn : FVec Ideal S128x128 .f32) (b p : FVec Ideal S1x128 .f32) (r : Fin 5000) (j : Fin 128) :
    k1_pay2 (F := Ideal) h raw inv Ws Wn b p (ix2 r j)
      = Spec.prelu (R := Fin 5000) (K := Fin 128) posTest (fun j => p (ix2 (0 : Fin 1) j))
          (Spec.lin (fun r k => h (ix2 r k)) (fun r k => raw (ix2 r k) * inv (ix2 r (0 : Fin 1)))
            (fun k j => Ws (ix2 k j)) (fun k j => Wn (ix2 k j)) (fun j => b (ix2 (0 : Fin 1) j))) r j := by
  rw [k1_pay2_eq_k0_pay7, pay7_apply]

/-- The reciprocal standard deviation row: `rsqrt (var + eps)`, `eps` the f32 constant `0x3727C5AC`. -/
theorem k1_pay3_apply (v : FVec Ideal S1x128 .f32) (j : Fin 128) :
    k1_pay3 (F := Ideal) v (ix2 (0 : Fin 1) j)
      = Ideal.rsqrt (v (ix2 (0 : Fin 1) j) + Ideal.ofBits .f32 0x3727C5AC#32) := by
  unfold k1_pay3
  rw [shapeCast_self]
  rfl

/-- The mean row is passed on as it is. -/
theorem k1_pay4_eq (v : FVec Ideal S1x128 .f32) : k1_pay4 (F := Ideal) v = v := by
  unfold k1_pay4
  rw [shapeCast_self]

/-- The normalised block at `(r, j)`: `(x - mu) · rs · g + be`. -/
theorem k1_pay1_apply (x : FVec Ideal S5000x128 .f32) (rs mu g be : FVec Ideal S1x128 .f32) (r : Fin 5000) (j : Fin 128) :
    k1_pay1 (F := Ideal) x rs mu g be (ix2 r j)
      = (x (ix2 r j) - mu (ix2 (0 : Fin 1) j)) * rs (ix2 (0 : Fin 1) j) * g (ix2 (0 : Fin 1) j)
          + be (ix2 (0 : Fin 1) j) := by
  unfold k1_pay1
  simp only [shapeCast_self]
  rw [addf_apply, mulf_apply, mulf_apply, subf_apply]
  simp only [broadcastTo_1b_ab_apply]

end Cert.KernelIdeal.PayIdeal

end
-- ==== Proof.SpecLaws.lean ====
/-
  Laws of the one-layer mathematics of `Spec.lean`.

  (1) Multiplying by the reciprocal degree `1 / d` and dividing by `d` agree whenever `d ≠ 0`: both are the
      product with `d⁻¹`, at the infinities too.
  (2) Over real data with `n` the (nonzero) number of rows, the mean of squares minus the squared mean equals the
      mean of the squared deviations,
          (∑ x²)/n - ((∑ x)/n)² = (∑ (x - (∑ x)/n)²)/n,
      and the common value is a real `≥ 0`.
  (3) A layer over real data, with every degree `≥ 1`, `n > 0` the number of rows and `eps > 0`, stays real:
      the affine part is a finite sum of products of reals, either branch of the rectifier is real, the mean and the
      variance are real, the variance is `≥ 0` so `var + eps > 0` and its reciprocal square root is the real
      `(√(var + eps))⁻¹`. By (1) and (2) the two arrangements of the layer then agree.
  (4) A sum over `Fin (a * b)` regroups as `a` tiles of `b` entries, and a left-nested running sum
      `A (n+1) = A n + g (n+1)`, `A 0 = z + g 0` is `z` plus the sum of the first `n + 1` terms.
-/
import proofs.«129379_j32899449487582_2_alg».proof.Proof.Spec
import Mathlib.Logic.Equiv.Fin.Basic
import Mathlib.Data.Fintype.BigOperators
import Mathlib.Tactic.Ring
import Mathlib.Tactic.FieldSimp

noncomputable section

namespace Cert.Spec

open Idealize.ShloMosaic

variable {R K : Type} [Fintype R] [Fintype K]

/-! ### (1) Reciprocal-degree product = quotient by the degree -/

/-- `raw * (1 / d) = raw / d` for `d ≠ 0`: `1 / d = 1 * d⁻¹ = d⁻¹`, and `raw / d = raw * d⁻¹`. -/
theorem aggMul_eq_aggDiv (raw : R → K → EReal) (deg : R → EReal) (hdeg : ∀ r, deg r ≠ 0) :
    aggMul raw deg = aggDiv raw deg := by
  funext r k
  simp only [aggMul, aggDiv, Ideal.div, if_neg (hdeg r), one_mul]

/-! ### (4) Regrouping a sum by tiles; a running sum -/

/-- Entry `s` of tile `t` (tiles of `b` entries) lies below `a * b`. -/
theorem tile_index_lt {a b : ℕ} (t : Fin a) (s : Fin b) : t.val * b + s.val < a * b :=
  calc t.val * b + s.val < t.val * b + b := Nat.add_lt_add_left s.isLt _
    _ = (t.val + 1) * b := (Nat.succ_mul _ _).symm
    _ ≤ a * b := Nat.mul_le_mul_right _ t.isLt

/-- A sum over `a * b` indices is the sum over the `a` tiles of the sums over each tile's `b` entries. -/
theorem sum_eq_sum_tiles {a b : ℕ} (f : Fin (a * b) → EReal) :
    ∑ i, f i = ∑ t : Fin a, ∑ s : Fin b, f ⟨t.val * b + s.val, tile_index_lt t s⟩ := by
  rw [← finProdFinEquiv.sum_comp f, Fintype.sum_prod_type]
  refine Finset.sum_congr rfl fun t _ => Finset.sum_congr rfl fun s _ => ?_
  congr 1
  apply Fin.ext
  simp only [finProdFinEquiv_apply_val]
  rw [Nat.mul_comm, Nat.add_comm]

/-- A left-nested running sum started at `z + g 0` holds, after step `n`, `z` plus the first `n + 1` terms. -/
theorem running_sum_eq (z : EReal) (g : ℕ → EReal) :
    ∀ A : ℕ → EReal, A 0 = z + g 0 → (∀ n, A (n + 1) = A n + g (n + 1)) →
      ∀ n, A n = z + ∑ i ∈ Finset.range (n + 1), g i := by
  intro A h0 hs n
  induction n with
  | zero => rw [h0, Finset.sum_range_one]
  | succ n ih => rw [hs, ih, Finset.sum_range_succ g (n + 1), add_assoc]

/-! ### (2) The two variance formulas over real data -/

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- In the reals, with `n` the number of rows: `(∑ x²)/n - ((∑ x)/n)² = (∑ (x - (∑ x)/n)²)/n`. Expanding the
    square, `∑ (x - m)² = ∑ x² - 2 m ∑ x + n m²`, and `m = (∑ x)/n` turns the last two terms into `-(∑ x)²/n`. -/
theorem real_varSq_eq_varDev (x : R → ℝ) (n : ℝ) (hn : n ≠ 0) (hcard : n = (Fintype.card R : ℝ)) :
    (∑ r, x r * x r) * (1 / n) - (∑ r, x r) * (1 / n) * ((∑ r, x r) * (1 / n))
      = (∑ r, (x r - (∑ r, x r) * (1 / n)) * (x r - (∑ r, x r) * (1 / n))) * (1 / n) := by
  have h : ∀ m : ℝ, ∑ r, (x r - m) * (x r - m) = (∑ r, x r * x r) - 2 * m * (∑ r, x r) + n * (m * m) := by
    intro m
    have e : ∀ r, (x r - m) * (x r - m) = x r * x r - 2 * m * x r + m * m := fun r => by ring
    simp only [e]
    rw [Finset.sum_add_distrib, Finset.sum_sub_distrib, ← Finset.mul_sum, Finset.sum_const, Finset.card_univ,
      nsmul_eq_mul, ← hcard]
  rw [h]
  field_simp
  ring

/-- The column means of real data are real: `(∑ x)/n = (∑ x) * (1 / n)`. -/
theorem mean_coe (x : R → K → ℝ) (n : ℝ) (hn : n ≠ 0) :
    mean (n : EReal) (fun r j => (x r j : EReal)) = fun j => (((∑ r, x r j) * (1 / n) : ℝ) : EReal) := by
  funext j
  simp only [mean, colSum]
  rw [Ideal.div_coe hn, EReal.coe_mul, coe_sum]

/-- The mean-of-squares variance of real data, as a real. -/
theorem varSq_coe (x : R → K → ℝ) (n : ℝ) (hn : n ≠ 0) :
    varSq (n : EReal) (fun r j => (x r j : EReal))
      = fun j => (((∑ r, x r j * x r j) * (1 / n) - (∑ r, x r j) * (1 / n) * ((∑ r, x r j) * (1 / n)) : ℝ) : EReal) := by
  funext j
  simp only [varSq, mean_coe x n hn, Ideal.div_coe hn, EReal.coe_sub, EReal.coe_mul, coe_sum]

/-- The mean-of-squared-deviations variance of real data, as a real. -/
theorem varDev_coe (x : R → K → ℝ) (n : ℝ) (hn : n ≠ 0) :
    varDev (n : EReal) (fun r j => (x r j : EReal))
      = fun j => (((∑ r, (x r j - (∑ r, x r j) * (1 / n)) * (x r j - (∑ r, x r j) * (1 / n))) * (1 / n) : ℝ) : EReal) := by
  funext j
  simp only [varDev, mean_coe x n hn, Ideal.div_coe hn, EReal.coe_sub, EReal.coe_mul, coe_sum]

/-- Over real data with `n` the number of rows the two variance formulas agree. -/
theorem varSq_eq_varDev (x : R → K → ℝ) (n : ℝ) (hn : n ≠ 0) (hcard : n = (Fintype.card R : ℝ)) :
    varSq (n : EReal) (fun r j => (x r j : EReal)) = varDev (n : EReal) (fun r j => (x r j : EReal)) := by
  rw [varSq_coe x n hn, varDev_coe x n hn]
  funext j
  rw [real_varSq_eq_varDev (fun r => x r j) n hn hcard]

/-- ... and the common value is a real `≥ 0`: a sum of squares over a positive count. -/
theorem varDev_real_nonneg (x : R → K → ℝ) (n : ℝ) (hn : n ≠ 0) (hcard : n = (Fintype.card R : ℝ)) :
    ∃ v : K → ℝ, (∀ j, 0 ≤ v j) ∧ varDev (n : EReal) (fun r j => (x r j : EReal)) = fun j => (v j : EReal) := by
  refine ⟨_, fun j => ?_, varDev_coe x n hn⟩
  refine mul_nonneg (Finset.sum_nonneg fun r _ => mul_self_nonneg _) (one_div_nonneg.mpr ?_)
  rw [hcard]
  exact Nat.cast_nonneg _

/-! ### (3) A layer over real data stays real, and its two arrangements agree -/

/-- The quotient of real data by nonzero real degrees is real. -/
theorem aggDiv_coe (raw : R → K → ℝ) (deg : R → ℝ) (hdeg : ∀ r, deg r ≠ 0) :
    aggDiv (fun r k => (raw r k : EReal)) (fun r => (deg r : EReal))
      = fun r k => ((raw r k * (1 / deg r) : ℝ) : EReal) := by
  funext r k
  simp only [aggDiv]
  rw [Ideal.div_coe (hdeg r), EReal.coe_mul]

/-- The affine part of real data is real: finite sums of products of reals. -/
theorem lin_coe (h a : R → K → ℝ) (Ws Wn : K → K → ℝ) (b : K → ℝ) :
    lin (fun r k => (h r k : EReal)) (fun r k => (a r k : EReal)) (fun k j => (Ws k j : EReal))
        (fun k j => (Wn k j : EReal)) (fun j => (b j : EReal))
      = fun r j => (((∑ k, h r k * Ws k j) + (∑ k, a r k * Wn k j) + b j : ℝ) : EReal) := by
  funext r j
  simp only [lin, EReal.coe_add, EReal.coe_mul, coe_sum]

/-- The rectifier of real data is real, whichever branch the test picks. -/
theorem prelu_coe (C : EReal → Prop) [DecidablePred C] (p : K → ℝ) (x : R → K → ℝ) :
    prelu C (fun j => (p j : EReal)) (fun r j => (x r j : EReal))
      = fun r j => ((if C (x r j : EReal) then x r j else p j * x r j : ℝ) : EReal) := by
  funext r j
  by_cases hc : C (x r j : EReal)
  · simp only [prelu, if_pos hc]
  · simp only [prelu, if_neg hc, EReal.coe_mul]

/-- The reciprocal square root of a positive real is the real `(√v)⁻¹`. -/
theorem rsqrt_coe_of_pos {v : ℝ} (hv : 0 < v) :
    Ideal.rsqrt (v : EReal) = (((Real.sqrt v)⁻¹ : ℝ) : EReal) := by
  rw [Ideal.rsqrt_coe, if_neg (not_lt.mpr hv.le), if_neg hv.ne']

/-- Normalising real data with real mean, scale and shift, and `var + eps > 0`, is real. -/
theorem normalize_coe (eps : ℝ) (x : R → K → ℝ) (mu var g be : K → ℝ) (hpos : ∀ j, 0 < var j + eps) :
    normalize (eps : EReal) (fun r j => (x r j : EReal)) (fun j => (mu j : EReal)) (fun j => (var j : EReal))
        (fun j => (g j : EReal)) (fun j => (be j : EReal))
      = fun r j => (((x r j - mu j) * (Real.sqrt (var j + eps))⁻¹ * g j + be j : ℝ) : EReal) := by
  funext r j
  simp only [normalize]
  rw [← EReal.coe_add (var j) eps, rsqrt_coe_of_pos (hpos j)]
  simp only [EReal.coe_add, EReal.coe_mul, EReal.coe_sub]

/-- The rectified affine part of a layer over real data (quotient arrangement), as a real array. -/
theorem preact_real (C : EReal → Prop) [DecidablePred C] (h raw : R → K → ℝ) (deg : R → ℝ)
    (Ws Wn : K → K → ℝ) (b p : K → ℝ) (hdeg : ∀ r, 1 ≤ deg r) :
    ∃ x : R → K → ℝ,
      prelu C (fun j => (p j : EReal))
          (lin (fun r k => (h r k : EReal))
            (aggDiv (fun r k => (raw r k : EReal)) (fun r => (deg r : EReal)))
            (fun k j => (Ws k j : EReal)) (fun k j => (Wn k j : EReal)) (fun j => (b j : EReal)))
        = fun r j => (x r j : EReal) := by
  have hdeg0 : ∀ r, deg r ≠ 0 := fun r => (lt_of_lt_of_le one_pos (hdeg r)).ne'
  rw [aggDiv_coe raw deg hdeg0, lin_coe, prelu_coe]
  exact ⟨_, rfl⟩

/-- Over real data, with degrees `≥ 1` and `n > 0` the number of rows, the two arrangements of a layer agree. -/
theorem layer_eq (C : EReal → Prop) [DecidablePred C] (n eps : ℝ) (h raw : R → K → ℝ) (deg : R → ℝ)
    (Ws Wn : K → K → ℝ) (b p g be : K → ℝ)
    (hdeg : ∀ r, 1 ≤ deg r) (hn : 0 < n) (hcard : n = (Fintype.card R : ℝ)) :
    layerMul C (n : EReal) (eps : EReal) (fun r k => (h r k : EReal)) (fun r k => (raw r k : EReal))
        (fun r => (deg r : EReal)) (fun k j => (Ws k j : EReal)) (fun k j => (Wn k j : EReal))
        (fun j => (b j : EReal)) (fun j => (p j : EReal)) (fun j => (g j : EReal)) (fun j => (be j : EReal))
      = layerDiv C (n : EReal) (eps : EReal) (fun r k => (h r k : EReal)) (fun r k => (raw r k : EReal))
        (fun r => (deg r : EReal)) (fun k j => (Ws k j : EReal)) (fun k j => (Wn k j : EReal))
        (fun j => (b j : EReal)) (fun j => (p j : EReal)) (fun j => (g j : EReal)) (fun j => (be j : EReal)) := by
  have hdegE : ∀ r, (fun r => (deg r : EReal)) r ≠ 0 := fun r =>
    EReal.coe_ne_zero.mpr (lt_of_lt_of_le one_pos (hdeg r)).ne'
  obtain ⟨x, hx⟩ := preact_real C h raw deg Ws Wn b p hdeg
  simp only [layerMul, layerDiv]
  rw [aggMul_eq_aggDiv _ _ hdegE, hx, varSq_eq_varDev x n hn.ne' hcard]

/-- Over real data, with degrees `≥ 1`, `n > 0` the number of rows and `eps > 0`, a layer's output is real. -/
theorem layer_real (C : EReal → Prop) [DecidablePred C] (n eps : ℝ) (h raw : R → K → ℝ) (deg : R → ℝ)
    (Ws Wn : K → K → ℝ) (b p g be : K → ℝ)
    (hdeg : ∀ r, 1 ≤ deg r) (hn : 0 < n) (hcard : n = (Fintype.card R : ℝ)) (heps : 0 < eps) :
    ∃ o : R → K → ℝ,
      layerDiv C (n : EReal) (eps : EReal) (fun r k => (h r k : EReal)) (fun r k => (raw r k : EReal))
        (fun r => (deg r : EReal)) (fun k j => (Ws k j : EReal)) (fun k j => (Wn k j : EReal))
        (fun j => (b j : EReal)) (fun j => (p j : EReal)) (fun j => (g j : EReal)) (fun j => (be j : EReal))
        = fun r j => (o r j : EReal) := by
  obtain ⟨x, hx⟩ := preact_real C h raw deg Ws Wn b p hdeg
  obtain ⟨v, hv0, hv⟩ := varDev_real_nonneg x n hn.ne' hcard
  simp only [layerDiv]
  rw [hx, hv, mean_coe x n hn.ne',
    normalize_coe eps x _ v g be (fun j => add_pos_of_nonneg_of_pos (hv0 j) heps)]
  exact ⟨_, rfl⟩

/-- An array of extended reals none of which is infinite is the coercion of a real array. -/
theorem exists_real_of_finite {A : Type} (f : A → EReal) (hf : ∀ a, f a ≠ ⊤ ∧ f a ≠ ⊥) :
    ∃ g : A → ℝ, f = fun a => (g a : EReal) :=
  ⟨fun a => (f a).toReal, funext fun a => (EReal.coe_toReal (hf a).1 (hf a).2).symm⟩

end Cert.Spec

end
-- ==== Proof.KI.KDefs.lean ====
/-
  The kernel program's host stages as pure functions of the arrays they read, stage by stage.

  The program is a four-layer message-passing network over a graph of 100000 nodes and 1600000 edges:
  a0 the nodes' table indices, a1 / a2 the edges' source / destination nodes, a3 the nodes' graphs (128 of
  them), a4 the embedding table (257 × 128), a5 / a6 the layers' two weight matrices (4 × 128 × 128), a7 the
  biases, a8 / a9 the normalisations' scale and shift, a10 the rectifiers' slopes (each 4 × 128).
  Between its kernels the program computes on the host: `emb0`, the gathered embedding; `deg`, the in-degrees
  clipped below at one, and `invdeg`, their reciprocals as a column; per layer `rawAgg`, the sum over incoming
  edges of the previous node features (the division by the degree is the kernels'), and the layer's rows of
  the stacked parameters (`mat_l` a 128 × 128 matrix, `row2_l` a 1 × 128 row); between a layer's two kernels,
  from the first one's two 16 × 128 arrays `S` (partial column sums: one row per core, rows 0 and 8) and `Q`
  (partial column sums of squares), the column mean `meanOf S` = (row 0 + row 8) / 1e5 and the column variance
  `varOf S Q` = (the same of `Q`) − mean², each as a 1 × 128 row; and at the end `graphCount`, every graph's
  node count clipped below at one, `poolOne`, one layer's node features summed per graph and divided by that
  count, and `result`, the four layers' pooled features side by side (512 columns). Each definition is the
  composition of the pure operations of the program's lines that compute it, in the program's own terms; the
  four layers share every function and differ in the row of the stacked parameters they read.
-/
import proofs.«129379_j32899449487582_2_alg».proof.Proof.Gen.KernelIdeal

set_option maxRecDepth 8192

noncomputable section

namespace Cert.KernelIdeal.KRead

open Cert.KernelIdeal Cert.KernelIdeal.Gen Idealize.ShloMosaic Idealize.ShloMosaic.TcCoe Idealize.SL.Sem Idealize.ShloMosaic.StableHlo

variable {F : FTy → Type} [FloatOps F]

/-- The gathered embedding: row `a0 n` of the table `a4` for every node `n` (a negative index wrapped by the table's 257 rows first). -/
def emb0 (a0 : (⟨S100000, .i32⟩ : BufTy).Contents (Elt F)) (a4 : (⟨S257x128, .f32⟩ : BufTy).Contents (Elt F)) : (⟨S100000x128, .f32⟩ : BufTy).Contents (Elt F) :=
  Host.gather gather_S257x128_S100000x1_S100000x128_1_0_n_n_0_1_1128 a4 (broadcastInDim S100000x1 ![0] bcast_S100000_S100000x1_0 (select (cmpi .slt a0 (broadcastInDim S100000 ![] bcast_S_S100000 (constantI S_ 32 0#32))) (addi a0 (broadcastInDim S100000 ![] bcast_S_S100000 (constantI S_ 32 257#32))) a0))

/-- Every node's in-degree before the clip: one added at `a2 e` for every edge `e` (a scatter-add over zeros). -/
def degSum (a2 : (⟨S1600000, .i32⟩ : BufTy).Contents (Elt F)) : (⟨S100000, .f32⟩ : BufTy).Contents (Elt F) :=
  Host.scatterAdd scatter_S100000_S1600000x1_S1600000_n_0_0_1 (broadcastInDim S100000 ![] bcast_S_S100000 (constant S_ .f32 0x00000000#32)) (broadcastInDim S1600000x1 ![0] bcast_S1600000_S1600000x1_0 a2) (broadcastInDim S1600000 ![] bcast_S_S1600000 (constant S_ .f32 0x3F800000#32))

/-- Every node's in-degree, clipped below at one. -/
def deg (a2 : (⟨S1600000, .i32⟩ : BufTy).Contents (Elt F)) : (⟨S100000, .f32⟩ : BufTy).Contents (Elt F) :=
  maximumf (broadcastInDim S100000 ![] bcast_S_S100000 (id (constant S_ .f32 0x3F800000#32))) (degSum a2)

/-- One over every node's clipped in-degree, as a column (100000 × 1). -/
def invdeg (a2 : (⟨S1600000, .i32⟩ : BufTy).Contents (Elt F)) : (⟨S100000x1, .f32⟩ : BufTy).Contents (Elt F) :=
  shapeCast S100000x1 (Host.divf (broadcastInDim S100000 ![] bcast_S_S100000 (constant S_ .f32 0x3F800000#32)) (deg a2)) shapeCasts_S100000_S100000x1

/-- The sum over incoming edges: the rows `h (a1 e)` (a negative index wrapped by the 100000 nodes) scatter-added at `a2 e` over zeros. -/
def rawAgg (h : (⟨S100000x128, .f32⟩ : BufTy).Contents (Elt F)) (a1 : (⟨S1600000, .i32⟩ : BufTy).Contents (Elt F)) (a2 : (⟨S1600000, .i32⟩ : BufTy).Contents (Elt F)) : (⟨S100000x128, .f32⟩ : BufTy).Contents (Elt F) :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 a2) (Host.gather gather_S100000x128_S1600000x1_S1600000x128_1_0_n_n_0_1_1128 h (broadcastInDim S1600000x1 ![0] bcast_S1600000_S1600000x1_0 (select (cmpi .slt a1 (broadcastInDim S1600000 ![] bcast_S_S1600000 (constantI S_ 32 0#32))) (addi a1 (broadcastInDim S1600000 ![] bcast_S_S1600000 (constantI S_ 32 100000#32))) a1)))

/-- Layer 0's 128 × 128 matrix out of a stack of four. -/
def mat_0 (w : (⟨S4x128x128, .f32⟩ : BufTy).Contents (Elt F)) : (⟨S128x128, .f32⟩ : BufTy).Contents (Elt F) :=
  shapeCast S128x128 (extractStridedSlice S1x128x128 ![0, 0, 0] w slices_S4x128x128_S1x128x128_0_0_0) shapeCasts_S1x128x128_S128x128

/-- Layer 0's row of 128 out of a stack of four, as the kernels take it: a 1 × 128 array (the slice flattened, then set up as a row again). -/
def row2_0 (r : (⟨S4x128, .f32⟩ : BufTy).Contents (Elt F)) : (⟨S1x128, .f32⟩ : BufTy).Contents (Elt F) :=
  shapeCast S1x128 (shapeCast S128 (extractStridedSlice S1x128 ![0, 0] r slices_S4x128_S1x128_0_0) shapeCasts_S1x128_S128) shapeCasts_S128_S1x128

/-- Layer 1's 128 × 128 matrix out of a stack of four. -/
def mat_1 (w : (⟨S4x128x128, .f32⟩ : BufTy).Contents (Elt F)) : (⟨S128x128, .f32⟩ : BufTy).Contents (Elt F) :=
  shapeCast S128x128 (extractStridedSlice S1x128x128 ![1, 0, 0] w slices_S4x128x128_S1x128x128_1_0_0) shapeCasts_S1x128x128_S128x128

/-- Layer 1's row of 128 out of a stack of four, as the kernels take it: a 1 × 128 array (the slice flattened, then set up as a row again). -/
def row2_1 (r : (⟨S4x128, .f32⟩ : BufTy).Contents (Elt F)) : (⟨S1x128, .f32⟩ : BufTy).Contents (Elt F) :=
  shapeCast S1x128 (shapeCast S128 (extractStridedSlice S1x128 ![1, 0] r slices_S4x128_S1x128_1_0) shapeCasts_S1x128_S128) shapeCasts_S128_S1x128

/-- Layer 2's 128 × 128 matrix out of a stack of four. -/
def mat_2 (w : (⟨S4x128x128, .f32⟩ : BufTy).Contents (Elt F)) : (⟨S128x128, .f32⟩ : BufTy).Contents (Elt F) :=
  shapeCast S128x128 (extractStridedSlice S1x128x128 ![2, 0, 0] w slices_S4x128x128_S1x128x128_2_0_0) shapeCasts_S1x128x128_S128x128

/-- Layer 2's row of 128 out of a stack of four, as the kernels take it: a 1 × 128 array (the slice flattened, then set up as a row again). -/
def row2_2 (r : (⟨S4x128, .f32⟩ : BufTy).Contents (Elt F)) : (⟨S1x128, .f32⟩ : BufTy).Contents (Elt F) :=
  shapeCast S1x128 (shapeCast S128 (extractStridedSlice S1x128 ![2, 0] r slices_S4x128_S1x128_2_0) shapeCasts_S1x128_S128) shapeCasts_S128_S1x128

/-- Layer 3's 128 × 128 matrix out of a stack of four. -/
def mat_3 (w : (⟨S4x128x128, .f32⟩ : BufTy).Contents (Elt F)) : (⟨S128x128, .f32⟩ : BufTy).Contents (Elt F) :=
  shapeCast S128x128 (extractStridedSlice S1x128x128 ![3, 0, 0] w slices_S4x128x128_S1x128x128_3_0_0) shapeCasts_S1x128x128_S128x128

/-- Layer 3's row of 128 out of a stack of four, as the kernels take it: a 1 × 128 array (the slice flattened, then set up as a row again). -/
def row2_3 (r : (⟨S4x128, .f32⟩ : BufTy).Contents (Elt F)) : (⟨S1x128, .f32⟩ : BufTy).Contents (Elt F) :=
  shapeCast S1x128 (shapeCast S128 (extractStridedSlice S1x128 ![3, 0] r slices_S4x128_S1x128_3_0) shapeCasts_S1x128_S128) shapeCasts_S128_S1x128

/-- The two cores' partial column sums added: row 0 plus row 8 of a 16 × 128 array. -/
def sumRows (S : (⟨S16x128, .f32⟩ : BufTy).Contents (Elt F)) : (⟨S128, .f32⟩ : BufTy).Contents (Elt F) :=
  addf (shapeCast S128 (extractStridedSlice S1x128 ![0, 0] S slices_S16x128_S1x128_0_0) shapeCasts_S1x128_S128) (shapeCast S128 (extractStridedSlice S1x128 ![8, 0] S slices_S16x128_S1x128_8_0) shapeCasts_S1x128_S128)

/-- The column sums over 1e5, the number of nodes. -/
def meanVec (S : (⟨S16x128, .f32⟩ : BufTy).Contents (Elt F)) : (⟨S128, .f32⟩ : BufTy).Contents (Elt F) :=
  Host.divf (sumRows S) (broadcastInDim S128 ![] bcast_S_S128 (constant S_ .f32 0x47C35000#32))

/-- The column means from the partial column sums `S`, as a 1 × 128 row. -/
def meanOf (S : (⟨S16x128, .f32⟩ : BufTy).Contents (Elt F)) : (⟨S1x128, .f32⟩ : BufTy).Contents (Elt F) :=
  shapeCast S1x128 (meanVec S) shapeCasts_S128_S1x128

/-- The column variances from the partial column sums `S` and sums of squares `Q`: the mean of the squares minus the squared mean, as a 1 × 128 row. -/
def varOf (S : (⟨S16x128, .f32⟩ : BufTy).Contents (Elt F)) (Q : (⟨S16x128, .f32⟩ : BufTy).Contents (Elt F)) : (⟨S1x128, .f32⟩ : BufTy).Contents (Elt F) :=
  shapeCast S1x128 (subf (meanVec Q) (mulf (meanVec S) (meanVec S))) shapeCasts_S128_S1x128

/-- Every graph's node count: one added at `a3 n` for every node `n` over zeros, clipped below at one. -/
def graphCount (a3 : (⟨S100000, .i32⟩ : BufTy).Contents (Elt F)) : (⟨S128, .f32⟩ : BufTy).Contents (Elt F) :=
  maximumf (broadcastInDim S128 ![] bcast_S_S128 (id (constant S_ .f32 0x3F800000#32))) (Host.scatterAdd scatter_S128_S100000x1_S100000_n_0_0_1 (broadcastInDim S128 ![] bcast_S_S128 (constant S_ .f32 0x00000000#32)) (broadcastInDim S100000x1 ![0] bcast_S100000_S100000x1_0 a3) (broadcastInDim S100000 ![] bcast_S_S100000 (constant S_ .f32 0x3F800000#32)))

/-- One layer's node features pooled: every node's row scatter-added at its graph `a3 n` over zeros, each graph's sum divided by its node count. -/
def poolOne (h : (⟨S100000x128, .f32⟩ : BufTy).Contents (Elt F)) (a3 : (⟨S100000, .i32⟩ : BufTy).Contents (Elt F)) : (⟨S128x128, .f32⟩ : BufTy).Contents (Elt F) :=
  Host.divf (Host.scatterAdd scatter_S128x128_S100000x1_S100000x128_1_0_0_1 (broadcastInDim S128x128 ![] bcast_S_S128x128 (constant S_ .f32 0x00000000#32)) (broadcastInDim S100000x1 ![0] bcast_S100000_S100000x1_0 a3) h) (broadcastInDim S128x128 ![0, 1] bcast_S128x1_S128x128_0_1 (broadcastInDim S128x1 ![0] bcast_S128_S128x1_0 (graphCount a3)))

/-- The result: the four layers' pooled features side by side (512 columns). -/
def result (p1 : (⟨S128x128, .f32⟩ : BufTy).Contents (Elt F)) (p2 : (⟨S128x128, .f32⟩ : BufTy).Contents (Elt F)) (p3 : (⟨S128x128, .f32⟩ : BufTy).Contents (Elt F)) (p4 : (⟨S128x128, .f32⟩ : BufTy).Contents (Elt F)) : (⟨S128x512, .f32⟩ : BufTy).Contents (Elt F) :=
  concatenate S128x512 1 [⟨S128x128, p1⟩, ⟨S128x128, p2⟩, ⟨S128x128, p3⟩, ⟨S128x128, p4⟩] concatenates_S128x128_S128x128_S128x128_S128x128_S128x512_d1

end Cert.KernelIdeal.KRead

end
-- ==== Proof.KI.KLayer.lean ====
/-
  The kernel's layer in the form of `Spec.lean`, at the extended reals.

  The statistics kernel cuts the 100000 rows into 20 tiles of 5000, ten per core; on a tile it computes the rectified
  affine block `X t`, and core `c` accumulates the column sums and the column sums of squares of its ten tiles into row
  `8c` of the two 16 × 128 arrays `S`, `Q`. Regrouping the sum over the rows by tiles, and the tiles by cores,
      ∑_R x[R, j] = ∑_{c < 2} ∑_{t < 10} ∑_{r < 5000} x[5000 (10 c + t) + r, j] = S[0, j] + S[8, j],
  so the host's `meanOf S` is the column mean over all rows and `varOf S Q` the mean of squares minus the squared mean;
  the reciprocal degree column is `1 / deg`, so `raw · inv` is the reciprocal-degree product of `Spec.aggMul`; and the
  normalising kernel writes `(x - mean) · rsqrt (var + eps) · g + be` tile by tile. Together: `Spec.layerMul`.
-/
import proofs.«129379_j32899449487582_2_alg».proof.Proof.KI.PayIdeal
import proofs.«129379_j32899449487582_2_alg».proof.Proof.SpecLaws
import proofs.«129379_j32899449487582_2_alg».proof.Proof.KI.KDefs
import Mathlib.Tactic.NormNum

set_option synthInstance.maxSize 4096
set_option maxRecDepth 8192

noncomputable section

namespace Cert.KernelIdeal.KLayer

open Cert.KernelIdeal Cert.KernelIdeal.Gen Idealize.ShloMosaic
open Idealize.ShloMosaic.ValueIdx
open Cert.KernelIdeal.PayIdeal

/-! ## Rows, tiles and cores -/

/-- Row `r` of tile `t` (tiles of 5000 rows) is a row of the array. -/
theorem row_lt (t : Fin 20) (r : Fin 5000) : 5000 * t.val + r.val < 100000 := by omega

/-- Tile `t` of core `c` (ten tiles a core) is one of the twenty. -/
theorem core_lt (c : Fin 2) (t : Fin 10) : 10 * c.val + t.val < 20 := by omega

/-- Sublane `a` of core `c`'s eight rows is one of the sixteen. -/
theorem srow_lt (c : Fin 2) (a : Fin 8) : 8 * c.val + a.val < 16 := by omega

/-- Every row is a row of a tile. -/
theorem exists_tile_row (R : Fin 100000) : ∃ (t : Fin 20) (r : Fin 5000), R = ⟨5000 * t.val + r.val, row_lt t r⟩ :=
  ⟨⟨R.val / 5000, by omega⟩, ⟨R.val % 5000, by omega⟩, Fin.ext (by show R.val = 5000 * (R.val / 5000) + R.val % 5000; omega)⟩

/-- The sum over `a · b` indices by tiles of `b`, the index written `b · t + s`. -/
theorem sum_tiles_comm {a b : ℕ} (f : Fin (a * b) → EReal) (hlt : ∀ (t : Fin a) (s : Fin b), b * t.val + s.val < a * b) :
    ∑ i, f i = ∑ t : Fin a, ∑ s : Fin b, f ⟨b * t.val + s.val, hlt t s⟩ := by
  rw [Spec.sum_eq_sum_tiles]
  refine Finset.sum_congr rfl fun t _ => Finset.sum_congr rfl fun s _ => congrArg f (Fin.ext ?_)
  show t.val * b + s.val = b * t.val + s.val
  rw [Nat.mul_comm]

/-- The sum over the 100000 rows by cores, tiles and rows of a tile. -/
theorem sum_rows_by_core (u : Fin 100000 → EReal) :
    ∑ R, u R = ∑ c : Fin 2, ∑ t : Fin 10, ∑ r : Fin 5000,
      u ⟨5000 * (⟨10 * c.val + t.val, core_lt c t⟩ : Fin 20).val + r.val, row_lt ⟨10 * c.val + t.val, core_lt c t⟩ r⟩ := by
  refine (sum_tiles_comm (a := 20) (b := 5000) u row_lt).trans ?_
  exact sum_tiles_comm (a := 2) (b := 10) (fun T : Fin 20 => ∑ r : Fin 5000, u ⟨5000 * T.val + r.val, row_lt T r⟩) core_lt

/-- Tile `t` of a 100000 × 128 array. -/
def tile (A : FVec Ideal S100000x128 .f32) (t : Fin 20) : FVec Ideal S5000x128 .f32 :=
  fun y => A (ix2 ⟨5000 * t.val + (y 0).val, row_lt t (y 0)⟩ (y 1))

/-- Tile `t` of a 100000 × 1 column. -/
def tile1 (A : FVec Ideal S100000x1 .f32) (t : Fin 20) : FVec Ideal S5000x1 .f32 :=
  fun y => A (ix2 ⟨5000 * t.val + (y 0).val, row_lt t (y 0)⟩ (y 1))

theorem tile_apply (A : FVec Ideal S100000x128 .f32) (t : Fin 20) (r : Fin 5000) (j : Fin 128) :
    tile A t (ix2 r j) = A (ix2 ⟨5000 * t.val + r.val, row_lt t r⟩ j) := rfl

theorem tile1_apply (A : FVec Ideal S100000x1 .f32) (t : Fin 20) (r : Fin 5000) (u : Fin 1) :
    tile1 A t (ix2 r u) = A (ix2 ⟨5000 * t.val + r.val, row_lt t r⟩ u) := rfl

/-- The rectified affine block of tile `t`. -/
def X (h raw : FVec Ideal S100000x128 .f32) (inv : FVec Ideal S100000x1 .f32) (Ws Wn : FVec Ideal S128x128 .f32)
    (b p : FVec Ideal S1x128 .f32) (t : Fin 20) : FVec Ideal S5000x128 .f32 :=
  k0_pay7 (F := Ideal) (tile h t) (tile raw t) (tile1 inv t) Ws Wn b p

/-- The rectified affine map over all 100000 rows, reciprocal-degree arrangement: the `x` of `Spec.layerMul`. -/
def xAll (h raw : FVec Ideal S100000x128 .f32) (dg : FVec Ideal S100000 .f32) (Ws Wn : FVec Ideal S128x128 .f32)
    (b p : FVec Ideal S1x128 .f32) : Fin 100000 → Fin 128 → EReal :=
  Spec.prelu posTest (fun j => p (ix2 (0 : Fin 1) j))
    (Spec.lin (fun r k => h (ix2 r k)) (Spec.aggMul (fun r k => raw (ix2 r k)) (fun r => dg (ix1 r)))
      (fun k j => Ws (ix2 k j)) (fun k j => Wn (ix2 k j)) (fun j => b (ix2 (0 : Fin 1) j)))

/-- The f32 pattern `0x3F800000` is `1`. -/
theorem one_eq : Ideal.ofBits .f32 0x3F800000#32 = 1 := by
  simp [Ideal.ofBits, Ideal.ieee]
  rw [← EReal.coe_mul]
  norm_num

/-- A tile's block is the tile's rows of the whole map, when the column `inv` is the reciprocal degree. -/
theorem X_eq (h raw : FVec Ideal S100000x128 .f32) (inv : FVec Ideal S100000x1 .f32) (dg : FVec Ideal S100000 .f32)
    (Ws Wn : FVec Ideal S128x128 .f32) (b p : FVec Ideal S1x128 .f32)
    (hinv : ∀ r : Fin 100000, inv (ix2 r (0 : Fin 1)) = Ideal.div (Ideal.ofBits .f32 0x3F800000#32) (dg (ix1 r)))
    (t : Fin 20) (r : Fin 5000) (j : Fin 128) :
    X h raw inv Ws Wn b p t (ix2 r j) = xAll h raw dg Ws Wn b p ⟨5000 * t.val + r.val, row_lt t r⟩ j := by
  have hfun : (fun (r : Fin 5000) (k : Fin 128) => tile raw t (ix2 r k) * tile1 inv t (ix2 r (0 : Fin 1)))
      = fun r k => Spec.aggMul (R := Fin 100000) (K := Fin 128) (fun r k => raw (ix2 r k)) (fun r => dg (ix1 r))
          ⟨5000 * t.val + r.val, row_lt t r⟩ k := by
    funext r k
    show raw (ix2 ⟨5000 * t.val + r.val, row_lt t r⟩ k) * inv (ix2 ⟨5000 * t.val + r.val, row_lt t r⟩ (0 : Fin 1))
      = raw (ix2 ⟨5000 * t.val + r.val, row_lt t r⟩ k) * Ideal.div 1 (dg (ix1 ⟨5000 * t.val + r.val, row_lt t r⟩))
    rw [hinv, one_eq]
  unfold X
  rw [pay7_apply, hfun]
  rfl

/-! ## The host's statistics at an index -/

/-- A scalar broadcast to any shape reads the scalar everywhere. -/
theorem bcastScalar_apply {α : Type} {t : Shape} (dims : Fin S_.rank → Fin t.rank) (hb : S_.BroadcastsInDim t dims)
    (x : S_.Idx → α) (j : t.Idx) : broadcastInDim t dims hb x j = x ix0 :=
  broadcastInDim_apply dims hb x j ix0 fun a => a.elim0

/-- The host's quotient, entry by entry. -/
theorem hostDivf_apply {s : Shape} {φ : FTy} (a b : FVec Ideal s φ) (i : s.Idx) :
    Host.divf a b i = Ideal.div (a i) (b i) := rfl

/-- The two cores' partial sums added: rows 0 and 8. -/
theorem sumRows_apply (S : FVec Ideal S16x128 .f32) (j : Fin 128) :
    KRead.sumRows (F := Ideal) S (ix1 j) = S (ix2 (0 : Fin 16) j) + S (ix2 (8 : Fin 16) j) := by
  unfold KRead.sumRows
  rw [addf_apply, shapeCast_1a_a_apply, shapeCast_1a_a_apply]
  exact congrArg₂ (· + ·) (slice2_axis0_apply 0 S _ (0 : Fin 1) j (0 : Fin 16) rfl)
    (slice2_axis0_apply 8 S _ (0 : Fin 1) j (8 : Fin 16) rfl)

/-- The added partial sums over `1e5`. -/
theorem meanVec_apply (S : FVec Ideal S16x128 .f32) (j : Fin 128) :
    KRead.meanVec (F := Ideal) S (ix1 j)
      = Ideal.div (S (ix2 (0 : Fin 16) j) + S (ix2 (8 : Fin 16) j)) (Ideal.ofBits .f32 0x47C35000#32) := by
  unfold KRead.meanVec
  rw [hostDivf_apply, sumRows_apply, bcastScalar_apply]
  rfl

/-- The mean row. -/
theorem meanOf_apply (S : FVec Ideal S16x128 .f32) (j : Fin 128) :
    KRead.meanOf (F := Ideal) S (ix2 (0 : Fin 1) j)
      = Ideal.div (S (ix2 (0 : Fin 16) j) + S (ix2 (8 : Fin 16) j)) (Ideal.ofBits .f32 0x47C35000#32) := by
  unfold KRead.meanOf
  rw [shapeCast_a_1a_apply, meanVec_apply]

/-- The variance row: the mean of the squares minus the squared mean. -/
theorem varOf_apply (S Q : FVec Ideal S16x128 .f32) (j : Fin 128) :
    KRead.varOf (F := Ideal) S Q (ix2 (0 : Fin 1) j)
      = Ideal.div (Q (ix2 (0 : Fin 16) j) + Q (ix2 (8 : Fin 16) j)) (Ideal.ofBits .f32 0x47C35000#32)
        - Ideal.div (S (ix2 (0 : Fin 16) j) + S (ix2 (8 : Fin 16) j)) (Ideal.ofBits .f32 0x47C35000#32)
          * Ideal.div (S (ix2 (0 : Fin 16) j) + S (ix2 (8 : Fin 16) j)) (Ideal.ofBits .f32 0x47C35000#32) := by
  unfold KRead.varOf
  rw [shapeCast_a_1a_apply, subf_apply, mulf_apply, meanVec_apply, meanVec_apply]

/-- Rows 0 and 8 of a partial-sum array, each a core's ten tiles summed, add up to the sum over all 100000 rows. -/
theorem partial_total (T : FVec Ideal S16x128 .f32) (u : Fin 100000 → EReal) (w : Fin 20 → Fin 5000 → EReal) (j : Fin 128)
    (hw : ∀ t r, w t r = u ⟨5000 * t.val + r.val, row_lt t r⟩)
    (hT : ∀ (c : Fin 2) (a : Fin 8), T (ix2 ⟨8 * c.val + a.val, srow_lt c a⟩ j)
      = ∑ t : Fin 10, ∑ r : Fin 5000, w ⟨10 * c.val + t.val, core_lt c t⟩ r) :
    T (ix2 (0 : Fin 16) j) + T (ix2 (8 : Fin 16) j) = ∑ R, u R := by
  have e0 : T (ix2 (0 : Fin 16) j) = _ := hT 0 0
  have e1 : T (ix2 (8 : Fin 16) j) = _ := hT 1 0
  rw [sum_rows_by_core u, Fin.sum_univ_two, e0, e1]
  refine congrArg₂ (· + ·) ?_ ?_ <;>
    exact Finset.sum_congr rfl fun t _ => Finset.sum_congr rfl fun r _ => hw _ r

/-! ## The kernel's layer -/

/-- The kernel's layer output at `(R, j)` is `Spec.layerMul` of the arrays read by coordinates. -/
theorem klayer_apply (h raw O : FVec Ideal S100000x128 .f32) (inv : FVec Ideal S100000x1 .f32)
    (dg : FVec Ideal S100000 .f32) (Ws Wn : FVec Ideal S128x128 .f32) (b p g be : FVec Ideal S1x128 .f32)
    (S Q : FVec Ideal S16x128 .f32)
    (hS : ∀ (c : Fin 2) (a : Fin 8) (j : Fin 128), S (ix2 ⟨8 * c.val + a.val, srow_lt c a⟩ j)
      = ∑ t : Fin 10, ∑ r : Fin 5000, X h raw inv Ws Wn b p ⟨10 * c.val + t.val, core_lt c t⟩ (ix2 r j))
    (hQ : ∀ (c : Fin 2) (a : Fin 8) (j : Fin 128), Q (ix2 ⟨8 * c.val + a.val, srow_lt c a⟩ j)
      = ∑ t : Fin 10, ∑ r : Fin 5000, X h raw inv Ws Wn b p ⟨10 * c.val + t.val, core_lt c t⟩ (ix2 r j)
          * X h raw inv Ws Wn b p ⟨10 * c.val + t.val, core_lt c t⟩ (ix2 r j))
    (hO : ∀ (t : Fin 20) (r : Fin 5000) (j : Fin 128), O (ix2 ⟨5000 * t.val + r.val, row_lt t r⟩ j)
      = k1_pay1 (F := Ideal) (k1_pay2 (F := Ideal) (tile h t) (tile raw t) (tile1 inv t) Ws Wn b p)
          (k1_pay3 (F := Ideal) (KRead.varOf S Q)) (k1_pay4 (F := Ideal) (KRead.meanOf S)) g be (ix2 r j))
    (hinv : ∀ r : Fin 100000, inv (ix2 r (0 : Fin 1)) = Ideal.div (Ideal.ofBits .f32 0x3F800000#32) (dg (ix1 r)))
    (R : Fin 100000) (j : Fin 128) :
    O (ix2 R j)
      = Spec.layerMul (R := Fin 100000) (K := Fin 128) posTest (Ideal.ofBits .f32 0x47C35000#32) (Ideal.ofBits .f32 0x3727C5AC#32)
          (fun r k => h (ix2 r k)) (fun r k => raw (ix2 r k)) (fun r => dg (ix1 r))
          (fun k j => Ws (ix2 k j)) (fun k j => Wn (ix2 k j)) (fun j => b (ix2 (0 : Fin 1) j))
          (fun j => p (ix2 (0 : Fin 1) j)) (fun j => g (ix2 (0 : Fin 1) j)) (fun j => be (ix2 (0 : Fin 1) j)) R j := by
  obtain ⟨t, r, rfl⟩ := exists_tile_row R
  have hsum : ∀ j, S (ix2 (0 : Fin 16) j) + S (ix2 (8 : Fin 16) j) = ∑ R, xAll h raw dg Ws Wn b p R j := fun j =>
    partial_total S (fun R => xAll h raw dg Ws Wn b p R j) (fun t r => X h raw inv Ws Wn b p t (ix2 r j)) j
      (fun t r => X_eq h raw inv dg Ws Wn b p hinv t r j) (fun c a => hS c a j)
  have hsq : ∀ j, Q (ix2 (0 : Fin 16) j) + Q (ix2 (8 : Fin 16) j) = ∑ R, xAll h raw dg Ws Wn b p R j * xAll h raw dg Ws Wn b p R j := fun j =>
    partial_total Q (fun R => xAll h raw dg Ws Wn b p R j * xAll h raw dg Ws Wn b p R j) (fun t r => X h raw inv Ws Wn b p t (ix2 r j) * X h raw inv Ws Wn b p t (ix2 r j)) j
      (fun t r => by rw [X_eq h raw inv dg Ws Wn b p hinv t r j]) (fun c a => hQ c a j)
  have hx := X_eq h raw inv dg Ws Wn b p hinv t r j
  unfold X at hx
  rw [hO t r j, k1_pay1_apply, k1_pay2_eq_k0_pay7, k1_pay3_apply, k1_pay4_eq, meanOf_apply, varOf_apply, hsum, hsq, hx]
  rfl

/-! ## The reciprocal degree column -/

/-- An `[a]` array set as an `[a, 1]` column reads, at `(i, u)`, the array at `i`. -/
theorem shapeCast_a_a1_apply {α : Type} {a : ℕ} (x : (⟨1, ![a]⟩ : Shape).Idx → α)
    (hc : (⟨1, ![a]⟩ : Shape).ShapeCasts ⟨2, ![a, 1]⟩) (i : Fin a) (u : Fin 1) :
    shapeCast ⟨2, ![a, 1]⟩ x hc (ix2 i u) = x (ix1 i) :=
  shapeCast_apply x hc _ _ (by
    have hu : u.val = 0 := by omega
    rw [Shape.rowMajor_val_two, Shape.rowMajor_val_one]
    show i.val = i.val * 1 + u.val
    rw [hu, Nat.mul_one, Nat.add_zero])

/-- The host's reciprocal degree column at row `r`: one over the clipped degree. -/
theorem invdeg_apply (a2 : IVec S1600000 32) (r : Fin 100000) :
    KRead.invdeg (F := Ideal) a2 (ix2 r (0 : Fin 1))
      = Ideal.div (Ideal.ofBits .f32 0x3F800000#32) (KRead.deg (F := Ideal) a2 (ix1 r)) := by
  unfold KRead.invdeg
  rw [shapeCast_a_a1_apply, hostDivf_apply, bcastScalar_apply]
  rfl

end Cert.KernelIdeal.KLayer

end
-- ==== Proof.RI.ReadIdeal.lean ====
/-
  The reference's layer read at an index, at the extended reals.

  Every stage of `RunDefs.lean`'s layer is, entry by entry, the corresponding piece of `Spec.lean` over the rows
  `Fin 100000` and the columns `Fin 128`: the neighbour mean is the scattered sum over the degree, the affine map is the
  two contractions plus the bias row, the rectifier tests `x > 0`, the column mean is the column sum over `1e5`, the
  variance is the column sum of the squared deviations over `1e5 - 0` (the comparison that guards it, `1e5 - 0 > 0`,
  holds, so the guarded quotient is taken), and the normalisation is `(x - mu) · rsqrt (var + eps) · g + bt`. The three
  f32 constants are evaluated: `0x47C35000` is `100000`, `0x3F800000` is `1`, `0x3727C5AC` is a positive real.
-/
import proofs.«129379_j32899449487582_2_alg».proof.Proof.RI.RunDefs
import proofs.«129379_j32899449487582_2_alg».proof.Proof.SpecLaws
import Idealize.ShloMosaic.Lib.ValueIdx
import Idealize.ShloMosaic.Lib.ValueLayout
import Idealize.ShloMosaic.Lib.Pipeline.Value
import Idealize.ShloMosaic.PureOps.Ideal.Laws
import Mathlib.Tactic.NormNum
import Mathlib.Tactic.Positivity

set_option maxRecDepth 8192

noncomputable section

namespace Cert.ReferenceIdeal.ReadIdeal

open Cert.ReferenceIdeal Cert.ReferenceIdeal.Gen Idealize.ShloMosaic
open Idealize.ShloMosaic.ValueIdx

/-! ## The three constants -/

/-- The f32 pattern `0x3F800000` is `1`. -/
theorem val_one : Ideal.ofBits .f32 0x3F800000#32 = ((1 : ℝ) : EReal) := by
  simp [Ideal.ofBits, Ideal.ieee]
  rw [← EReal.coe_mul]
  norm_num

/-- The f32 pattern `0x47C35000` is `100000`: `12800000 · 2⁻⁷`. -/
theorem val_1e5 : Ideal.ofBits .f32 0x47C35000#32 = ((100000 : ℝ) : EReal) := by
  simp [Ideal.ofBits, Ideal.ieee]
  rw [← EReal.coe_mul]
  norm_num

/-- The f32 pattern `0x3727C5AC` is a positive real: `10995116 · 2⁻⁴⁰`. -/
theorem val_eps_pos : ∃ e : ℝ, 0 < e ∧ Ideal.ofBits .f32 0x3727C5AC#32 = (e : EReal) := by
  refine ⟨10995116 * (2 ^ 40)⁻¹, by positivity, ?_⟩
  simp [Ideal.ofBits, Ideal.ieee]

/-! ## The rectifier's test -/

/-- The rectifier's test on the extended reals: the ordered comparison `x > 0` answers the bit `1`. -/
abbrev posTest (x : EReal) : Prop := Ideal.cmp .ogt x (Ideal.ofBits .f32 0x00000000#32) = 1#1

instance : DecidablePred posTest := fun x => inferInstanceAs (Decidable (Ideal.cmp .ogt x (Ideal.ofBits .f32 0x00000000#32) = 1#1))

/-- The test is strict positivity. -/
theorem posTest_iff (x : EReal) : posTest x ↔ 0 < x := by
  unfold posTest Ideal.cmp
  rw [Ideal.ofBits_zero_f32]
  by_cases hx : (0 : EReal) < x <;> simp [hx]

/-- `100000 > 0`. -/
theorem posTest_1e5 : posTest (Ideal.ofBits .f32 0x47C35000#32) := by
  rw [posTest_iff, val_1e5]
  exact_mod_cast (by norm_num : (0 : ℝ) < 100000)

/-! ## Broadcasts at coordinates -/

section Layout
variable {α : Type}

/-- A scalar broadcast to any shape reads the scalar everywhere. -/
theorem bcastScalar_apply {t : Shape} (dims : Fin S_.rank → Fin t.rank) (h : S_.BroadcastsInDim t dims)
    (x : S_.Idx → α) (j : t.Idx) : broadcastInDim t dims h x j = x ix0 :=
  broadcastInDim_apply dims h x j ix0 fun a => a.elim0

/-- A row `[128]` set as `[1, 128]`. -/
theorem bcast_row1_apply (v : S128.Idx → α) (u : Fin 1) (j : Fin 128) :
    broadcastInDim S1x128 ![1] bcast_S128_S1x128_1 v (ix2 u j) = v (ix1 j) :=
  broadcastInDim_apply _ _ v (ix2 u j) (ix1 j) fun a => match a with | ⟨0, _⟩ => rfl

/-- A `[1, 128]` row repeated over the 100000 rows. -/
theorem bcast_rows_apply (y : S1x128.Idx → α) (r : Fin 100000) (j : Fin 128) :
    broadcastInDim S100000x128 ![0, 1] bcast_S1x128_S100000x128_0_1 y (ix2 r j) = y (ix2 (0 : Fin 1) j) :=
  broadcastInDim_apply _ _ y (ix2 r j) (ix2 (0 : Fin 1) j) fun a => match a with | ⟨0, _⟩ => rfl | ⟨1, _⟩ => rfl

/-- A column `[100000]` set as `[100000, 1]`. -/
theorem bcast_col1_apply (v : S100000.Idx → α) (r : Fin 100000) (u : Fin 1) :
    broadcastInDim S100000x1 ![0] bcast_S100000_S100000x1_0 v (ix2 r u) = v (ix1 r) :=
  broadcastInDim_apply _ _ v (ix2 r u) (ix1 r) fun a => match a with | ⟨0, _⟩ => rfl

/-- A `[100000, 1]` column repeated over the 128 columns. -/
theorem bcast_cols_apply (y : S100000x1.Idx → α) (r : Fin 100000) (j : Fin 128) :
    broadcastInDim S100000x128 ![0, 1] bcast_S100000x1_S100000x128_0_1 y (ix2 r j) = y (ix2 r (0 : Fin 1)) :=
  broadcastInDim_apply _ _ y (ix2 r j) (ix2 r (0 : Fin 1)) fun a => match a with | ⟨0, _⟩ => rfl | ⟨1, _⟩ => rfl

end Layout

/-! ## The contraction and the column sum at coordinates -/

theorem lhs_dot_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

theorem lhs_dot_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q

theorem rhs_dot_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q

theorem rhs_dot_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The `[100000, 128] × [128, 128]` contraction at `(r, j)`: `∑ₖ x[r, k] · w[k, j]`. -/
theorem dot_apply (x : FVec Ideal S100000x128 .f32) (w : FVec Ideal S128x128 .f32) (r : Fin 100000) (j : Fin 128) :
    Host.dotGeneral dot_S100000x128_S128x128_S100000x128_1_0_0_1_n_n none x w (ix2 r j) = ∑ k : Fin 128, x (ix2 r k) * w (ix2 k j) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r j) ((contrEquiv1 dot_S100000x128_S128x128_S100000x128_1_0_0_1_n_n 128 rfl rfl).symm k) = ix2 r k :=
    funext fun a => Fin.ext (by
      match a with
      | ⟨0, _⟩ => exact lhs_dot_0 _ _
      | ⟨1, _⟩ => exact (lhs_dot_1 _ _).trans hk)
  have er : dot_S100000x128_S128x128_S100000x128_1_0_0_1_n_n.rhsIdx (ix2 r j) ((contrEquiv1 dot_S100000x128_S128x128_S100000x128_1_0_0_1_n_n 128 rfl rfl).symm k) = ix2 k j :=
    funext fun a => Fin.ext (by
      match a with
      | ⟨0, _⟩ => exact (rhs_dot_0 _ _).trans hk
      | ⟨1, _⟩ => exact rhs_dot_1 _ _)
  rw [el, er]

/-- The sum over the 100000 rows from zero, at column `j`: `∑ᵣ x[r, j]`. -/
theorem colSum_apply (x : FVec Ideal S100000x128 .f32) (j : Fin 128) :
    Host.reduceAdd x (constant (F := Ideal) S_ .f32 0x00000000#32) reducesTo_S100000x128_S128_d0 h_S_ (ix1 j)
      = ∑ r : Fin 100000, x (ix2 r j) := by
  unfold Host.reduceAdd
  have hR : S100000x128.Reduces [0] S128 := by decide
  refine (Ideal.hostReduceAdd_single reducesTo_S100000x128_S128_d0 hR x _ (ix1 j)).trans ?_
  rw [constant_apply, Ideal.ofBits_zero_f32, zero_add]
  refine Finset.sum_congr rfl fun r _ => congrArg x ?_
  funext a
  match a with
  | ⟨0, _⟩ => rfl
  | ⟨1, _⟩ => rfl

/-! ## Pointwise host operations at an index -/

/-- The host's quotient, entry by entry. -/
theorem hostDivf_apply {s : Shape} {φ : FTy} (a b : FVec Ideal s φ) (i : s.Idx) :
    Host.divf a b i = Ideal.div (a i) (b i) := rfl

/-- The host's reciprocal square root, entry by entry. -/
theorem hostRsqrt_apply {s : Shape} {φ : FTy} (a : FVec Ideal s φ) (i : s.Idx) :
    Host.rsqrt a i = Ideal.rsqrt (a i) := rfl

/-! ## The scattered neighbour sum, named -/

section RawAgg
variable {F : FTy → Type} [FloatOps F]

/-- The neighbour sums before the division by the degree: the rows `h (a1 e)` (a negative index wrapped) scatter-added at
    `a2 e` over zeros. -/
def rawAgg (h : (⟨S100000x128, .f32⟩ : BufTy).Contents (Elt F)) (a1 a2 : (⟨S1600000, .i32⟩ : BufTy).Contents (Elt F)) :
    (⟨S100000x128, .f32⟩ : BufTy).Contents (Elt F) :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 a2) (Host.gather gather_S100000x128_S1600000x1_S1600000x128_1_0_n_n_0_1_1128 h (broadcastInDim S1600000x1 ![0] bcast_S1600000_S1600000x1_0 (select (cmpi .slt a1 (broadcastInDim S1600000 ![] bcast_S_S1600000 (constantI S_ 32 0#32))) (addi a1 (broadcastInDim S1600000 ![] bcast_S_S1600000 (constantI S_ 32 100000#32))) a1)))

/-- The neighbour mean is the neighbour sum over the degree, broadcast along the columns. -/
theorem agg_eq (h : (⟨S100000x128, .f32⟩ : BufTy).Contents (Elt F)) (a1 a2 : (⟨S1600000, .i32⟩ : BufTy).Contents (Elt F))
    (dg : (⟨S100000, .f32⟩ : BufTy).Contents (Elt F)) :
    Run.agg h a1 a2 dg = Host.divf (rawAgg h a1 a2)
      (broadcastInDim S100000x128 ![0, 1] bcast_S100000x1_S100000x128_0_1 (broadcastInDim S100000x1 ![0] bcast_S100000_S100000x1_0 dg)) := rfl

end RawAgg

/-! ## The stages at an index -/

/-- The neighbour mean at `(r, k)`: the neighbour sum over the node's degree. -/
theorem agg_apply (h : FVec Ideal S100000x128 .f32) (a1 a2 : IVec S1600000 32) (dg : FVec Ideal S100000 .f32)
    (r : Fin 100000) (k : Fin 128) :
    Run.agg (F := Ideal) h a1 a2 dg (ix2 r k)
      = Spec.aggDiv (R := Fin 100000) (K := Fin 128) (fun r k => rawAgg (F := Ideal) h a1 a2 (ix2 r k)) (fun r => dg (ix1 r)) r k := by
  rw [agg_eq, hostDivf_apply, bcast_cols_apply, bcast_col1_apply]
  rfl

/-- The affine map at `(r, j)`. -/
theorem lin_apply (h ag : FVec Ideal S100000x128 .f32) (ws wn : FVec Ideal S128x128 .f32) (b : FVec Ideal S128 .f32)
    (r : Fin 100000) (j : Fin 128) :
    Run.lin (F := Ideal) h ag ws wn b (ix2 r j)
      = Spec.lin (R := Fin 100000) (K := Fin 128) (fun r k => h (ix2 r k)) (fun r k => ag (ix2 r k)) (fun k j => ws (ix2 k j))
          (fun k j => wn (ix2 k j)) (fun j => b (ix1 j)) r j := by
  unfold Run.lin
  rw [addf_apply, addf_apply, dot_apply, dot_apply, bcast_rows_apply, bcast_row1_apply]
  rfl

/-- The rectifier at `(r, j)`. -/
theorem rst_apply (x : FVec Ideal S100000x128 .f32) (s : FVec Ideal S128 .f32) (r : Fin 100000) (j : Fin 128) :
    Run.rst (F := Ideal) x s (ix2 r j)
      = Spec.prelu (R := Fin 100000) (K := Fin 128) posTest (fun j => s (ix1 j)) (fun r j => x (ix2 r j)) r j := by
  unfold Run.rst
  rw [select_apply, cmpf_apply, mulf_apply, bcastScalar_apply, bcast_rows_apply, bcast_row1_apply]
  rfl

/-- The column mean at `j`: the column sum over `1e5`. -/
theorem mu_apply (x : FVec Ideal S100000x128 .f32) (j : Fin 128) :
    Run.mu (F := Ideal) x (ix1 j) = Spec.mean (R := Fin 100000) (K := Fin 128) (Ideal.ofBits .f32 0x47C35000#32) (fun r j => x (ix2 r j)) j := by
  unfold Run.mu
  rw [hostDivf_apply, colSum_apply, bcastScalar_apply]
  rfl

/-- The centred entry at `(r, j)`: the entry minus its column's mean. -/
theorem varCentered_apply (x : FVec Ideal S100000x128 .f32) (r : Fin 100000) (j : Fin 128) :
    Run.varCentered (F := Ideal) x (ix2 r j)
      = x (ix2 r j) - Spec.mean (R := Fin 100000) (K := Fin 128) (Ideal.ofBits .f32 0x47C35000#32) (fun r j => x (ix2 r j)) j := by
  unfold Run.varCentered
  rw [subf_apply, bcast_rows_apply, hostDivf_apply, bcast_row1_apply, colSum_apply, bcastScalar_apply]
  rfl

/-- The variance's divisor is `1e5`: `1e5 - 0`. -/
theorem varDof_val : Run.varDof (F := Ideal) ix0 = (Ideal.ofBits .f32 0x47C35000#32) := by
  unfold Run.varDof
  rw [subf_apply, constant_apply, sitofp_apply, constantI_apply]
  show (Ideal.ofBits .f32 0x47C35000#32) - ((((0#32 : BitVec 32).toInt : ℤ) : ℝ) : EReal) = _
  simp

/-- The column variance at `j`: the guard `1e5 - 0 > 0` holds, so it is the column sum of the squared deviations
    over `1e5`. -/
theorem var_apply (x : FVec Ideal S100000x128 .f32) (j : Fin 128) :
    Run.var (F := Ideal) x (ix1 j) = Spec.varDev (R := Fin 100000) (K := Fin 128) (Ideal.ofBits .f32 0x47C35000#32) (fun r j => x (ix2 r j)) j := by
  unfold Run.var
  rw [select_apply, bcastScalar_apply, cmpf_apply, hostDivf_apply, bcastScalar_apply, varDof_val, constant_apply,
    colSum_apply]
  rw [show FloatOps.cmpf (F := Ideal) .ogt (Ideal.ofBits .f32 0x47C35000#32) (Ideal.ofBits .f32 0x00000000#32) = 1#1 from posTest_1e5, select_one]
  unfold Spec.varDev
  refine congrArg (fun t => Ideal.div t (Ideal.ofBits .f32 0x47C35000#32)) (Finset.sum_congr rfl fun r _ => ?_)
  rw [mulf_apply, varCentered_apply]

/-- The normalisation at `(r, j)`. -/
theorem norm_apply (x : FVec Ideal S100000x128 .f32) (m v g bt : FVec Ideal S128 .f32) (r : Fin 100000) (j : Fin 128) :
    Run.norm (F := Ideal) x m v g bt (ix2 r j)
      = Spec.normalize (R := Fin 100000) (K := Fin 128) (Ideal.ofBits .f32 0x3727C5AC#32) (fun r j => x (ix2 r j)) (fun j => m (ix1 j)) (fun j => v (ix1 j))
          (fun j => g (ix1 j)) (fun j => bt (ix1 j)) r j := by
  unfold Run.norm
  rw [addf_apply, mulf_apply, mulf_apply, subf_apply]
  rw [bcast_rows_apply, bcast_rows_apply, bcast_rows_apply, bcast_rows_apply]
  rw [bcast_row1_apply, bcast_row1_apply, bcast_row1_apply, bcast_row1_apply]
  rfl

/-- The normalisation of `x` by its own column means and variances at `(r, j)`. -/
theorem normed_apply (x : FVec Ideal S100000x128 .f32) (g bt : FVec Ideal S128 .f32) (r : Fin 100000) (j : Fin 128) :
    Run.normed (F := Ideal) x g bt (ix2 r j)
      = Spec.normalize (R := Fin 100000) (K := Fin 128) (Ideal.ofBits .f32 0x3727C5AC#32) (fun r j => x (ix2 r j))
          (Spec.mean (Ideal.ofBits .f32 0x47C35000#32) (fun r j => x (ix2 r j))) (Spec.varDev (Ideal.ofBits .f32 0x47C35000#32) (fun r j => x (ix2 r j)))
          (fun j => g (ix1 j)) (fun j => bt (ix1 j)) r j := by
  have hmu : (fun j => Run.mu (F := Ideal) x (ix1 j)) = Spec.mean (R := Fin 100000) (K := Fin 128) (Ideal.ofBits .f32 0x47C35000#32) (fun r j => x (ix2 r j)) :=
    funext fun j => mu_apply x j
  have hvar : (fun j => Run.var (F := Ideal) x (ix1 j)) = Spec.varDev (R := Fin 100000) (K := Fin 128) (Ideal.ofBits .f32 0x47C35000#32) (fun r j => x (ix2 r j)) :=
    funext fun j => var_apply x j
  unfold Run.normed
  rw [norm_apply, hmu, hvar]

/-- One layer of the reference at `(r, j)`: `Spec.layerDiv` of its arguments read by coordinates, the neighbour sums being
    `rawAgg`, the row count `1e5` and `eps` the raw f32 constants. -/
theorem layer_apply (h : FVec Ideal S100000x128 .f32) (a1 a2 : IVec S1600000 32) (dg : FVec Ideal S100000 .f32)
    (ws wn : FVec Ideal S128x128 .f32) (b g bt s : FVec Ideal S128 .f32) (r : Fin 100000) (j : Fin 128) :
    Run.layer (F := Ideal) h a1 a2 dg ws wn b g bt s (ix2 r j)
      = Spec.layerDiv (R := Fin 100000) (K := Fin 128) posTest (Ideal.ofBits .f32 0x47C35000#32) (Ideal.ofBits .f32 0x3727C5AC#32)
          (fun r k => h (ix2 r k)) (fun r k => rawAgg (F := Ideal) h a1 a2 (ix2 r k)) (fun r => dg (ix1 r))
          (fun k j => ws (ix2 k j)) (fun k j => wn (ix2 k j)) (fun j => b (ix1 j)) (fun j => s (ix1 j))
          (fun j => g (ix1 j)) (fun j => bt (ix1 j)) r j := by
  have hagg : (fun r k => Run.agg (F := Ideal) h a1 a2 dg (ix2 r k))
      = Spec.aggDiv (R := Fin 100000) (K := Fin 128) (fun r k => rawAgg (F := Ideal) h a1 a2 (ix2 r k)) (fun r => dg (ix1 r)) :=
    funext fun r => funext fun k => agg_apply h a1 a2 dg r k
  have hx : (fun r j => Run.rst (F := Ideal) (Run.lin h (Run.agg h a1 a2 dg) ws wn b) s (ix2 r j))
      = Spec.prelu (R := Fin 100000) (K := Fin 128) posTest (fun j => s (ix1 j))
          (Spec.lin (fun r k => h (ix2 r k))
            (Spec.aggDiv (fun r k => rawAgg (F := Ideal) h a1 a2 (ix2 r k)) (fun r => dg (ix1 r)))
            (fun k j => ws (ix2 k j)) (fun k j => wn (ix2 k j)) (fun j => b (ix1 j))) := by
    funext r j
    rw [rst_apply]
    have hl : (fun r j => Run.lin (F := Ideal) h (Run.agg h a1 a2 dg) ws wn b (ix2 r j))
        = Spec.lin (R := Fin 100000) (K := Fin 128) (fun r k => h (ix2 r k))
            (Spec.aggDiv (fun r k => rawAgg (F := Ideal) h a1 a2 (ix2 r k)) (fun r => dg (ix1 r)))
            (fun k j => ws (ix2 k j)) (fun k j => wn (ix2 k j)) (fun j => b (ix1 j)) := by
      funext r j
      rw [lin_apply, hagg]
    rw [hl]
  unfold Run.layer
  rw [normed_apply, hx]
  rfl

/-! ## A layer's parameters out of the stacks of four -/

section Stacks
variable {F : FTy → Type} [FloatOps F]

/-- Layer 0's matrix at `(k, j)`: entry `(0, k, j)` of the stack. -/
theorem mat_0_apply (w : (⟨S4x128x128, .f32⟩ : BufTy).Contents (Elt F)) (k j : Fin 128) :
    Run.mat_0 w (ix2 k j) = w (ix3 (0 : Fin 4) k j) := by
  unfold Run.mat_0
  rw [shapeCast_1ab_ab_apply]
  exact extractStridedSlice_apply _ w _ (ix3 (0 : Fin 1) k j) (ix3 (0 : Fin 4) k j) fun a =>
    match a with
    | ⟨0, _⟩ => rfl
    | ⟨1, _⟩ => (Nat.zero_add _).symm
    | ⟨2, _⟩ => (Nat.zero_add _).symm

/-- Layer 0's row at `j`: entry `(0, j)` of the stack. -/
theorem row_0_apply (p : (⟨S4x128, .f32⟩ : BufTy).Contents (Elt F)) (j : Fin 128) :
    Run.row_0 p (ix1 j) = p (ix2 (0 : Fin 4) j) := by
  unfold Run.row_0
  rw [shapeCast_1a_a_apply]
  exact slice2_axis0_apply 0 p _ (0 : Fin 1) j (0 : Fin 4) rfl

/-- Layer 1's matrix at `(k, j)`: entry `(1, k, j)` of the stack. -/
theorem mat_1_apply (w : (⟨S4x128x128, .f32⟩ : BufTy).Contents (Elt F)) (k j : Fin 128) :
    Run.mat_1 w (ix2 k j) = w (ix3 (1 : Fin 4) k j) := by
  unfold Run.mat_1
  rw [shapeCast_1ab_ab_apply]
  exact extractStridedSlice_apply _ w _ (ix3 (0 : Fin 1) k j) (ix3 (1 : Fin 4) k j) fun a =>
    match a with
    | ⟨0, _⟩ => rfl
    | ⟨1, _⟩ => (Nat.zero_add _).symm
    | ⟨2, _⟩ => (Nat.zero_add _).symm

/-- Layer 1's row at `j`: entry `(1, j)` of the stack. -/
theorem row_1_apply (p : (⟨S4x128, .f32⟩ : BufTy).Contents (Elt F)) (j : Fin 128) :
    Run.row_1 p (ix1 j) = p (ix2 (1 : Fin 4) j) := by
  unfold Run.row_1
  rw [shapeCast_1a_a_apply]
  exact slice2_axis0_apply 1 p _ (0 : Fin 1) j (1 : Fin 4) rfl

/-- Layer 2's matrix at `(k, j)`: entry `(2, k, j)` of the stack. -/
theorem mat_2_apply (w : (⟨S4x128x128, .f32⟩ : BufTy).Contents (Elt F)) (k j : Fin 128) :
    Run.mat_2 w (ix2 k j) = w (ix3 (2 : Fin 4) k j) := by
  unfold Run.mat_2
  rw [shapeCast_1ab_ab_apply]
  exact extractStridedSlice_apply _ w _ (ix3 (0 : Fin 1) k j) (ix3 (2 : Fin 4) k j) fun a =>
    match a with
    | ⟨0, _⟩ => rfl
    | ⟨1, _⟩ => (Nat.zero_add _).symm
    | ⟨2, _⟩ => (Nat.zero_add _).symm

/-- Layer 2's row at `j`: entry `(2, j)` of the stack. -/
theorem row_2_apply (p : (⟨S4x128, .f32⟩ : BufTy).Contents (Elt F)) (j : Fin 128) :
    Run.row_2 p (ix1 j) = p (ix2 (2 : Fin 4) j) := by
  unfold Run.row_2
  rw [shapeCast_1a_a_apply]
  exact slice2_axis0_apply 2 p _ (0 : Fin 1) j (2 : Fin 4) rfl

/-- Layer 3's matrix at `(k, j)`: entry `(3, k, j)` of the stack. -/
theorem mat_3_apply (w : (⟨S4x128x128, .f32⟩ : BufTy).Contents (Elt F)) (k j : Fin 128) :
    Run.mat_3 w (ix2 k j) = w (ix3 (3 : Fin 4) k j) := by
  unfold Run.mat_3
  rw [shapeCast_1ab_ab_apply]
  exact extractStridedSlice_apply _ w _ (ix3 (0 : Fin 1) k j) (ix3 (3 : Fin 4) k j) fun a =>
    match a with
    | ⟨0, _⟩ => rfl
    | ⟨1, _⟩ => (Nat.zero_add _).symm
    | ⟨2, _⟩ => (Nat.zero_add _).symm

/-- Layer 3's row at `j`: entry `(3, j)` of the stack. -/
theorem row_3_apply (p : (⟨S4x128, .f32⟩ : BufTy).Contents (Elt F)) (j : Fin 128) :
    Run.row_3 p (ix1 j) = p (ix2 (3 : Fin 4) j) := by
  unfold Run.row_3
  rw [shapeCast_1a_a_apply]
  exact slice2_axis0_apply 3 p _ (0 : Fin 1) j (3 : Fin 4) rfl

end Stacks

end Cert.ReferenceIdeal.ReadIdeal

end
-- ==== Proof.Bridge.lean ====
/-
  One layer of the kernel program equals one layer of the reference on finite data.

  The kernel's layer is `Spec.layerMul` of its arrays (reciprocal-degree product, mean of squares minus squared mean);
  the reference's is `Spec.layerDiv` of the same arrays (quotient by the degree, mean of squared deviations). Over real
  entries, with every degree `≥ 1`, the row count `1e5 = 100000 > 0` and `eps > 0`, the two arrangements agree and
  the common value is real. So when the kernel's neighbour sums are the reference's, and the kernel's parameter rows
  (1 × 128) hold the reference's (128) entry by entry, the kernel's layer output is the reference's layer, and is real.
-/
import proofs.«129379_j32899449487582_2_alg».proof.Proof.KI.KLayer
import proofs.«129379_j32899449487582_2_alg».proof.Proof.RI.ReadIdeal

set_option synthInstance.maxSize 4096
set_option maxRecDepth 8192

noncomputable section

namespace Cert.Bridge

open Idealize.ShloMosaic
open Idealize.ShloMosaic.ValueIdx

/-- The two modules' rectifier tests are one test. -/
theorem posTest_eq : KernelIdeal.PayIdeal.posTest = ReferenceIdeal.ReadIdeal.posTest := rfl

/-- The row count of `Fin 100000` as a real. -/
theorem card_rows : (100000 : ℝ) = (Fintype.card (Fin 100000) : ℝ) := by
  rw [Fintype.card_fin]
  norm_num

/-- One layer: the kernel's output array is the reference's layer, entry by entry, and every entry is real. -/
theorem layer_bridge
    (h raw O : FVec Ideal KernelIdeal.S100000x128 .f32) (inv : FVec Ideal KernelIdeal.S100000x1 .f32)
    (dg : FVec Ideal KernelIdeal.S100000 .f32) (Ws Wn : FVec Ideal KernelIdeal.S128x128 .f32)
    (b p g be : FVec Ideal KernelIdeal.S1x128 .f32) (S Q : FVec Ideal KernelIdeal.S16x128 .f32)
    (a1 a2 : IVec ReferenceIdeal.S1600000 32) (b' g' bt' s' : FVec Ideal ReferenceIdeal.S128 .f32)
    (hS : ∀ (c : Fin 2) (a : Fin 8) (j : Fin 128), S (ix2 ⟨8 * c.val + a.val, KernelIdeal.KLayer.srow_lt c a⟩ j)
      = ∑ t : Fin 10, ∑ r : Fin 5000, KernelIdeal.KLayer.X h raw inv Ws Wn b p ⟨10 * c.val + t.val, KernelIdeal.KLayer.core_lt c t⟩ (ix2 r j))
    (hQ : ∀ (c : Fin 2) (a : Fin 8) (j : Fin 128), Q (ix2 ⟨8 * c.val + a.val, KernelIdeal.KLayer.srow_lt c a⟩ j)
      = ∑ t : Fin 10, ∑ r : Fin 5000, KernelIdeal.KLayer.X h raw inv Ws Wn b p ⟨10 * c.val + t.val, KernelIdeal.KLayer.core_lt c t⟩ (ix2 r j)
          * KernelIdeal.KLayer.X h raw inv Ws Wn b p ⟨10 * c.val + t.val, KernelIdeal.KLayer.core_lt c t⟩ (ix2 r j))
    (hO : ∀ (t : Fin 20) (r : Fin 5000) (j : Fin 128),
      O (ix2 ⟨5000 * t.val + r.val, KernelIdeal.KLayer.row_lt t r⟩ j)
        = KernelIdeal.Gen.k1_pay1 (F := Ideal)
            (KernelIdeal.Gen.k1_pay2 (F := Ideal) (KernelIdeal.KLayer.tile h t) (KernelIdeal.KLayer.tile raw t)
              (KernelIdeal.KLayer.tile1 inv t) Ws Wn b p)
            (KernelIdeal.Gen.k1_pay3 (F := Ideal) (KernelIdeal.KRead.varOf S Q))
            (KernelIdeal.Gen.k1_pay4 (F := Ideal) (KernelIdeal.KRead.meanOf S)) g be (ix2 r j))
    (hinv : ∀ r : Fin 100000, inv (ix2 r (0 : Fin 1)) = Ideal.div (Ideal.ofBits .f32 0x3F800000#32) (dg (ix1 r)))
    (hraw : raw = ReferenceIdeal.ReadIdeal.rawAgg (F := Ideal) h a1 a2)
    (hb : ∀ j : Fin 128, b (ix2 (0 : Fin 1) j) = b' (ix1 j)) (hp : ∀ j : Fin 128, p (ix2 (0 : Fin 1) j) = s' (ix1 j))
    (hg : ∀ j : Fin 128, g (ix2 (0 : Fin 1) j) = g' (ix1 j)) (hbe : ∀ j : Fin 128, be (ix2 (0 : Fin 1) j) = bt' (ix1 j))
    (fh : ∃ f : Fin 100000 → Fin 128 → ℝ, ∀ r k, h (ix2 r k) = (f r k : EReal))
    (fraw : ∃ f : Fin 100000 → Fin 128 → ℝ, ∀ r k, raw (ix2 r k) = (f r k : EReal))
    (fdg : ∃ f : Fin 100000 → ℝ, (∀ r, 1 ≤ f r) ∧ ∀ r, dg (ix1 r) = (f r : EReal))
    (fWs : ∃ f : Fin 128 → Fin 128 → ℝ, ∀ k j, Ws (ix2 k j) = (f k j : EReal))
    (fWn : ∃ f : Fin 128 → Fin 128 → ℝ, ∀ k j, Wn (ix2 k j) = (f k j : EReal))
    (fb : ∃ f : Fin 128 → ℝ, ∀ j, b (ix2 (0 : Fin 1) j) = (f j : EReal))
    (fp : ∃ f : Fin 128 → ℝ, ∀ j, p (ix2 (0 : Fin 1) j) = (f j : EReal))
    (fg : ∃ f : Fin 128 → ℝ, ∀ j, g (ix2 (0 : Fin 1) j) = (f j : EReal))
    (fbe : ∃ f : Fin 128 → ℝ, ∀ j, be (ix2 (0 : Fin 1) j) = (f j : EReal)) :
    (∀ (R : Fin 100000) (j : Fin 128),
        O (ix2 R j) = ReferenceIdeal.Run.layer (F := Ideal) h a1 a2 dg Ws Wn b' g' bt' s' (ix2 R j))
      ∧ ∃ o : Fin 100000 → Fin 128 → ℝ, ∀ R j, O (ix2 R j) = (o R j : EReal) := by
  obtain ⟨hr, hh⟩ := fh
  obtain ⟨rawr, hrw⟩ := fraw
  obtain ⟨dgr, hdg1, hdg⟩ := fdg
  obtain ⟨Wsr, hWs⟩ := fWs
  obtain ⟨Wnr, hWn⟩ := fWn
  obtain ⟨br, hbr⟩ := fb
  obtain ⟨pr, hpr⟩ := fp
  obtain ⟨gr, hgr⟩ := fg
  obtain ⟨ber, hber⟩ := fbe
  obtain ⟨e, he0, hee⟩ := ReferenceIdeal.ReadIdeal.val_eps_pos
  have eH : (fun (r : Fin 100000) (k : Fin 128) => h (ix2 r k)) = fun r k => (hr r k : EReal) :=
    funext fun r => funext fun k => hh r k
  have eRAW : (fun (r : Fin 100000) (k : Fin 128) => raw (ix2 r k)) = fun r k => (rawr r k : EReal) :=
    funext fun r => funext fun k => hrw r k
  have eDEG : (fun (r : Fin 100000) => dg (ix1 r)) = fun r => (dgr r : EReal) := funext fun r => hdg r
  have eWS : (fun (k j : Fin 128) => Ws (ix2 k j)) = fun k j => (Wsr k j : EReal) :=
    funext fun k => funext fun j => hWs k j
  have eWN : (fun (k j : Fin 128) => Wn (ix2 k j)) = fun k j => (Wnr k j : EReal) :=
    funext fun k => funext fun j => hWn k j
  have eB : (fun (j : Fin 128) => b (ix2 (0 : Fin 1) j)) = fun j => (br j : EReal) := funext hbr
  have eP : (fun (j : Fin 128) => p (ix2 (0 : Fin 1) j)) = fun j => (pr j : EReal) := funext hpr
  have eG : (fun (j : Fin 128) => g (ix2 (0 : Fin 1) j)) = fun j => (gr j : EReal) := funext hgr
  have eBE : (fun (j : Fin 128) => be (ix2 (0 : Fin 1) j)) = fun j => (ber j : EReal) := funext hber
  have eRAW' : (fun (r : Fin 100000) (k : Fin 128) => ReferenceIdeal.ReadIdeal.rawAgg (F := Ideal) h a1 a2 (ix2 r k))
      = fun r k => (rawr r k : EReal) := by rw [← hraw]; exact eRAW
  have eB' : (fun (j : Fin 128) => b' (ix1 j)) = fun j => (br j : EReal) :=
    funext fun j => (hb j).symm.trans (hbr j)
  have eP' : (fun (j : Fin 128) => s' (ix1 j)) = fun j => (pr j : EReal) :=
    funext fun j => (hp j).symm.trans (hpr j)
  have eG' : (fun (j : Fin 128) => g' (ix1 j)) = fun j => (gr j : EReal) :=
    funext fun j => (hg j).symm.trans (hgr j)
  have eBE' : (fun (j : Fin 128) => bt' (ix1 j)) = fun j => (ber j : EReal) :=
    funext fun j => (hbe j).symm.trans (hber j)
  have key : ∀ (R : Fin 100000) (j : Fin 128), O (ix2 R j)
      = Spec.layerDiv (R := Fin 100000) (K := Fin 128) KernelIdeal.PayIdeal.posTest ((100000 : ℝ) : EReal) (e : EReal)
          (fun r k => (hr r k : EReal)) (fun r k => (rawr r k : EReal)) (fun r => (dgr r : EReal))
          (fun k j => (Wsr k j : EReal)) (fun k j => (Wnr k j : EReal)) (fun j => (br j : EReal))
          (fun j => (pr j : EReal)) (fun j => (gr j : EReal)) (fun j => (ber j : EReal)) R j := by
    intro R j
    rw [KernelIdeal.KLayer.klayer_apply h raw O inv dg Ws Wn b p g be S Q hS hQ hO hinv R j,
      eH, eRAW, eDEG, eWS, eWN, eB, eP, eG, eBE, ReferenceIdeal.ReadIdeal.val_1e5, hee,
      Spec.layer_eq KernelIdeal.PayIdeal.posTest 100000 e hr rawr dgr Wsr Wnr br pr gr ber hdg1 (by norm_num) card_rows]
  refine ⟨fun R j => ?_, ?_⟩
  · rw [key R j, ReferenceIdeal.ReadIdeal.layer_apply, eH, eRAW', eDEG, eWS, eWN, eB', eP', eG', eBE',
      ReferenceIdeal.ReadIdeal.val_1e5, hee]
  · obtain ⟨o, ho⟩ := Spec.layer_real KernelIdeal.PayIdeal.posTest 100000 e hr rawr dgr Wsr Wnr br pr gr ber hdg1
      (by norm_num) card_rows he0
    exact ⟨o, fun R j => by rw [key R j, ho]⟩

end Cert.Bridge

end
-- ==== Proof.HostFacts.lean ====
/-
  Facts about the host operations of the two programs over the extended reals.

  An array of extended reals is called finite when every entry is (the coercion of) a real.
  (1) A scatter with an add body keeps finiteness: each result entry is an operand entry plus a finite sum of update
      entries, and a finite sum of reals is real. This holds for any dimension numbers and any indices.
  (2) A gather keeps finiteness: each result entry IS an operand entry.
  (3) A count — ones scatter-added over zeros, then clipped below at one — is at every entry a real that is at
      least one: the scatter-add there is the number of updates landing on the entry, a natural number.
  (4) The precondition "every float input is finite" — the conjunction, over the seven float arguments, of
      "every entry's absolute value compares below plus infinity" — makes each of the seven finite: an extended real
      x with max x (-x) < ⊤ is neither ⊤ nor ⊥.
-/
import proofs.«129379_j32899449487582_2_alg».proof.KernelIdeal
import proofs.«129379_j32899449487582_2_alg».proof.ReferenceIdeal
import proofs.«129379_j32899449487582_2_alg».proof.Proof.RI.RunDefs
import proofs.«129379_j32899449487582_2_alg».proof.Proof.SpecLaws
import Idealize.ShloMosaic.PureOps.Ideal
import Idealize.ShloMosaic.PureOps.Ideal.Laws
import Idealize.ShloMosaic.Lib.IdealHost
import Idealize.ShloMosaic.Lib.ValueIdx
import Idealize.ShloMosaic.Lib.ReduceAll
import Idealize.ShloMosaic.Lib.Affine
import proofs.«129379_j32899449487582_2_alg».proof.Pre_finite_inputs

noncomputable section

namespace Cert.HostFacts

open Idealize.ShloMosaic Idealize.ShloMosaic.ValueIdx

/-- An array of extended reals every entry of which is a real. -/
def FiniteArr {A : Type} (x : A → EReal) : Prop := ∀ i, ∃ v : ℝ, x i = (v : EReal)

/-- A finite sum of reals is real. -/
theorem sum_real {ι : Type} (S : Finset ι) (f : ι → EReal) (hf : ∀ j, ∃ v : ℝ, f j = (v : EReal)) :
    ∃ v : ℝ, ∑ j ∈ S, f j = (v : EReal) := by
  choose g hg using hf
  exact ⟨∑ j ∈ S, g j, by rw [Cert.Spec.coe_sum]; exact Finset.sum_congr rfl fun j _ => hg j⟩

/-- A finite sum of ones is the number of its terms. -/
theorem sum_ones {ι : Type} (S : Finset ι) (o : ι → EReal) (ho : ∀ j, o j = 1) :
    ∑ j ∈ S, o j = (((S.card : ℕ) : ℝ) : EReal) := by
  have h1 : ∀ j ∈ S, o j = (((1 : ℝ)) : EReal) := fun j _ => by rw [ho j]; rfl
  rw [Finset.sum_congr rfl h1, ← Cert.Spec.coe_sum]
  simp

/-- The larger of one and a natural number is a real that is at least one. -/
theorem max_one_nat (c : ℕ) : ∃ v : ℝ, 1 ≤ v ∧ max (1 : EReal) (((c : ℝ)) : EReal) = (v : EReal) :=
  ⟨max 1 (c : ℝ), le_max_left _ _, by rw [EReal.coe_strictMono.monotone.map_max]; rfl⟩

/-! ### (1) Scatter-add keeps finiteness -/

/-- The scatter-add of finite updates into a finite operand is finite, whatever the dimension numbers and indices. -/
theorem scatterAdd_finite {s si su : Shape} {w : Nat} {φ : FTy} (d : ScatterDims s si su)
    (x : FVec Ideal s φ) (idx : IVec si w) (upd : FVec Ideal su φ)
    (hx : FiniteArr x) (hu : FiniteArr upd) : FiniteArr (Host.scatterAdd (F := Ideal) d x idx upd) := by
  intro i
  show ∃ v : ℝ, Ideal.hostScatterAdd d x idx upd i = (v : EReal)
  unfold Ideal.hostScatterAdd
  obtain ⟨vx, hvx⟩ := hx i
  obtain ⟨vs, hvs⟩ := sum_real (Finset.univ.filter (fun j => d.resultIdx? j idx = some i)) upd hu
  exact ⟨vx + vs, by rw [hvx, hvs, EReal.coe_add]⟩

/-! ### (2) Gather keeps finiteness -/

/-- A gather of a finite operand is finite, whatever the dimension numbers and indices. -/
theorem gather_finite {s si t : Shape} {w : Nat} (d : GatherDims s si t) (x : s.Idx → EReal) (idx : IVec si w)
    (hx : FiniteArr x) : FiniteArr (Host.gather d x idx) :=
  fun j => hx (d.operandIdx j idx)

/-! ### (3) Counts are reals, at least one -/

/-- Ones scatter-added over zeros and clipped below at one: at every entry a real, at least one. -/
theorem count_ge_one {s si su : Shape} {w : Nat} {φ : FTy} (d : ScatterDims s si su)
    (b z : FVec Ideal s φ) (idx : IVec si w) (o : FVec Ideal su φ)
    (hb : ∀ i, b i = 1) (hz : ∀ i, z i = 0) (ho : ∀ j, o j = 1) (i : s.Idx) :
    ∃ v : ℝ, 1 ≤ v ∧ maximumf b (Host.scatterAdd (F := Ideal) d z idx o) i = (v : EReal) := by
  show ∃ v : ℝ, 1 ≤ v ∧ max (b i) (Ideal.hostScatterAdd d z idx o i) = (v : EReal)
  unfold Ideal.hostScatterAdd
  rw [hb, hz, zero_add, sum_ones _ o ho]
  exact max_one_nat _

/-- Every node's in-degree, as the reference computes it, is a real that is at least one. -/
theorem deg_ge_one (a2 : IVec Cert.ReferenceIdeal.S1600000 32) (i : Cert.ReferenceIdeal.S100000.Idx) :
    ∃ v : ℝ, 1 ≤ v ∧ Cert.ReferenceIdeal.Run.deg (F := Ideal) a2 i = (v : EReal) := by
  unfold Cert.ReferenceIdeal.Run.deg
  refine count_ge_one _ _ _ _ _ (fun i => ?_) (fun i => ?_) (fun j => ?_) i
  · rw [broadcastInDim_scalar_apply]; exact Ideal.ofBits_one_f32
  · rw [broadcastInDim_scalar_apply]; exact Ideal.ofBits_zero_f32
  · rw [broadcastInDim_scalar_apply]; exact Ideal.ofBits_one_f32

/-- Every graph's node count, as the reference computes it, is a real that is at least one. -/
theorem graphCount_ge_one (a3 : IVec Cert.ReferenceIdeal.S100000 32) (g : Cert.ReferenceIdeal.S128.Idx) :
    ∃ v : ℝ, 1 ≤ v ∧ Cert.ReferenceIdeal.Run.graphCount (F := Ideal) a3 g = (v : EReal) := by
  unfold Cert.ReferenceIdeal.Run.graphCount
  refine count_ge_one _ _ _ _ _ (fun i => ?_) (fun i => ?_) (fun j => ?_) g
  · rw [broadcastInDim_scalar_apply]; exact Ideal.ofBits_one_f32
  · rw [broadcastInDim_scalar_apply]; exact Ideal.ofBits_zero_f32
  · rw [broadcastInDim_scalar_apply]; exact Ideal.ofBits_one_f32

/-! ### (4) From the precondition to finiteness of the float arguments -/

/-- The rank-0 shape has one index. -/
local instance : Subsingleton Cert.Pre_finite_inputs.S_.Idx := ⟨fun a b => funext fun d => d.elim0⟩

/-- An extended real whose absolute value is below plus infinity is a real. -/
theorem real_of_abs_lt_inf (x : EReal)
    (h : FloatOps.cmpf (F := Ideal) (φ := .f32) .olt (FloatOps.hostAbsf (F := Ideal) (φ := .f32) x) (Ideal.ofBits .f32 0x7F800000#32) = 1#1) :
    ∃ v : ℝ, x = (v : EReal) := by
  have hinf : Ideal.ofBits .f32 0x7F800000#32 = ⊤ := by simp [Ideal.ofBits, Ideal.ieee]
  have h' : Ideal.cmp .olt (max x (-x)) (Ideal.ofBits .f32 0x7F800000#32) = 1#1 := h
  rw [hinf] at h'
  have hlt : max x (-x) < ⊤ := by
    by_contra hn
    simp [Ideal.cmp, hn] at h'
  have h1 : x ≠ ⊤ := fun e => by rw [e] at hlt; simp at hlt
  have h2 : x ≠ ⊥ := fun e => by rw [e] at hlt; simp at hlt
  exact ⟨x.toReal, (EReal.coe_toReal h1 h2).symm⟩

/-- An array whose entries' absolute values all compare below plus infinity is finite. -/
theorem finite_of_all_lt_inf {s : Shape} (x : FVec Ideal s .f32) (hb : (⟨0, ![]⟩ : Shape).BroadcastsInDim s ![])
    (h : ∀ i, cmpf .olt (Host.absf x) (broadcastInDim s ![] hb (constant (F := Ideal) ⟨0, ![]⟩ .f32 0x7F800000#32)) i = 1#1) :
    FiniteArr x := by
  intro i
  refine real_of_abs_lt_inf (x i) ?_
  have := h i
  rw [show (broadcastInDim s ![] hb (constant (F := Ideal) ⟨0, ![]⟩ .f32 0x7F800000#32)) = fun _ => Ideal.ofBits .f32 0x7F800000#32 from
    funext fun j => broadcastInDim_scalar_apply hb _ j] at this
  exact this

variable [Cert.Pre_finite_inputs.Facts]

/-- Under the precondition every float argument is finite. -/
theorem finite_of_pre (a0 : IVec Cert.Pre_finite_inputs.S100000 32) (a1 a2 : IVec Cert.Pre_finite_inputs.S1600000 32)
    (a3 : IVec Cert.Pre_finite_inputs.S100000 32) (a4 : FVec Ideal Cert.Pre_finite_inputs.S257x128 .f32)
    (a5 a6 : FVec Ideal Cert.Pre_finite_inputs.S4x128x128 .f32) (a7 a8 a9 a10 : FVec Ideal Cert.Pre_finite_inputs.S4x128 .f32)
    (h : Cert.Pre_finite_inputs.fn (F := Ideal) a0 a1 a2 a3 a4 a5 a6 a7 a8 a9 a10 = fun _ => 1#1) :
    FiniteArr a4 ∧ FiniteArr a5 ∧ FiniteArr a6 ∧ FiniteArr a7 ∧ FiniteArr a8 ∧ FiniteArr a9 ∧ FiniteArr a10 := by
  have h0 := congrFun h ValueIdx.ix0
  dsimp only [Cert.Pre_finite_inputs.fn, Cert.Pre_finite_inputs.fn_part1] at h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h4, h5⟩ := IntOp.andi_eq_one.1 h0
  exact ⟨finite_of_all_lt_inf a4 _ (Host.reduce_andi_all _ _ _ _ _ h4),
    finite_of_all_lt_inf a5 _ (Host.reduce_andi_all _ _ _ _ _ h5),
    finite_of_all_lt_inf a6 _ (Host.reduce_andi_all _ _ _ _ _ h6),
    finite_of_all_lt_inf a7 _ (Host.reduce_andi_all _ _ _ _ _ h7),
    finite_of_all_lt_inf a8 _ (Host.reduce_andi_all _ _ _ _ _ h8),
    finite_of_all_lt_inf a9 _ (Host.reduce_andi_all _ _ _ _ _ h9),
    finite_of_all_lt_inf a10 _ (Host.reduce_andi_all _ _ _ _ _ h10)⟩

end Cert.HostFacts

end
-- ==== Proof.Final.lean ====
/-
  The kernel program's result equals the reference's.

  Layer by layer: the kernel program's node features after layer `l` are the reference's, and are finite. The first
  features are the gathered embedding, the same term in both programs, finite because the table is. A layer's two
  kernels turn finite features `h` into the reference's layer at `h` (the bridge between the two arrangements of the
  layer's mathematics): the neighbour sums are the same scatter-add of gathered rows, finite because `h` is; the degrees
  are the same counts, reals `≥ 1`; the parameter slices hold the same entries. At the end both programs average the
  layers' features per graph; averaging each layer and setting the results side by side is averaging the layers set
  side by side.
-/
import proofs.«129379_j32899449487582_2_alg».proof.Proof.Bridge
import proofs.«129379_j32899449487582_2_alg».proof.Proof.HostFacts
import proofs.«129379_j32899449487582_2_alg».proof.Proof.KI.Fold

set_option synthInstance.maxSize 4096
set_option maxRecDepth 16384

noncomputable section

namespace Cert.Final

open Idealize.ShloMosaic
open Idealize.ShloMosaic.ValueIdx
open Cert.HostFacts (FiniteArr)

/-! ## Finite arrays by coordinates -/

theorem fin2_of_finite {a b : ℕ} {φ : FTy} (x : FVec Ideal ⟨2, ![a, b]⟩ φ) (hx : FiniteArr x) :
    ∃ f : Fin a → Fin b → ℝ, ∀ r k, x (ix2 r k) = (f r k : EReal) := by
  choose f hf using hx
  exact ⟨fun r k => f (ix2 r k), fun r k => hf _⟩

theorem fin1_of_finite {a : ℕ} {φ : FTy} (x : FVec Ideal ⟨1, ![a]⟩ φ) (hx : FiniteArr x) :
    ∃ f : Fin a → ℝ, ∀ r, x (ix1 r) = (f r : EReal) := by
  choose f hf using hx
  exact ⟨fun r => f (ix1 r), fun r => hf _⟩

theorem finite_of_fin2 {a b : ℕ} {φ : FTy} (x : FVec Ideal ⟨2, ![a, b]⟩ φ)
    (hx : ∃ f : Fin a → Fin b → ℝ, ∀ r k, x (ix2 r k) = (f r k : EReal)) : FiniteArr x := by
  obtain ⟨f, hf⟩ := hx
  intro i
  rw [eq_ix2 i]
  exact ⟨_, hf _ _⟩

/-- The neighbour sums of finite features are finite: a scatter-add of gathered rows over zeros. -/
theorem rawAgg_finite (h : FVec Ideal KernelIdeal.S100000x128 .f32) (a1 a2 : IVec KernelIdeal.S1600000 32) (fh : FiniteArr h) :
    FiniteArr (KernelIdeal.KRead.rawAgg (F := Ideal) h a1 a2) := by
  unfold KernelIdeal.KRead.rawAgg
  refine HostFacts.scatterAdd_finite _ _ _ _ (fun i => ⟨0, ?_⟩) (HostFacts.gather_finite _ h _ fh)
  show Ideal.ofBits .f32 0x00000000#32 = _
  rw [Ideal.ofBits_zero_f32]
  rfl

/-! ## What a layer's two kernels leave, as statements about arrays -/

/-- The statistics kernel's first output: row `8c + a` holds core `c`'s ten tiles' column sums. -/
def StatsS (h raw : FVec Ideal KernelIdeal.S100000x128 .f32) (inv : FVec Ideal KernelIdeal.S100000x1 .f32)
    (Ws Wn : FVec Ideal KernelIdeal.S128x128 .f32) (b p : FVec Ideal KernelIdeal.S1x128 .f32)
    (S : FVec Ideal KernelIdeal.S16x128 .f32) : Prop :=
  ∀ (c : Fin 2) (a : Fin 8) (j : Fin 128), S (ix2 ⟨8 * c.val + a.val, KernelIdeal.KLayer.srow_lt c a⟩ j)
    = ∑ t : Fin 10, ∑ r : Fin 5000,
        KernelIdeal.KLayer.X h raw inv Ws Wn b p ⟨10 * c.val + t.val, KernelIdeal.KLayer.core_lt c t⟩ (ix2 r j)

/-- The statistics kernel's second output: the same with the squares. -/
def StatsQ (h raw : FVec Ideal KernelIdeal.S100000x128 .f32) (inv : FVec Ideal KernelIdeal.S100000x1 .f32)
    (Ws Wn : FVec Ideal KernelIdeal.S128x128 .f32) (b p : FVec Ideal KernelIdeal.S1x128 .f32)
    (Q : FVec Ideal KernelIdeal.S16x128 .f32) : Prop :=
  ∀ (c : Fin 2) (a : Fin 8) (j : Fin 128), Q (ix2 ⟨8 * c.val + a.val, KernelIdeal.KLayer.srow_lt c a⟩ j)
    = ∑ t : Fin 10, ∑ r : Fin 5000,
        KernelIdeal.KLayer.X h raw inv Ws Wn b p ⟨10 * c.val + t.val, KernelIdeal.KLayer.core_lt c t⟩ (ix2 r j)
          * KernelIdeal.KLayer.X h raw inv Ws Wn b p ⟨10 * c.val + t.val, KernelIdeal.KLayer.core_lt c t⟩ (ix2 r j)

/-- The normalising kernel's output, tile by tile. -/
def NormO (h raw : FVec Ideal KernelIdeal.S100000x128 .f32) (inv : FVec Ideal KernelIdeal.S100000x1 .f32)
    (Ws Wn : FVec Ideal KernelIdeal.S128x128 .f32) (b p mean var g be : FVec Ideal KernelIdeal.S1x128 .f32)
    (O : FVec Ideal KernelIdeal.S100000x128 .f32) : Prop :=
  ∀ (t : Fin 20) (r : Fin 5000) (j : Fin 128),
    O (ix2 ⟨5000 * t.val + r.val, KernelIdeal.KLayer.row_lt t r⟩ j)
      = KernelIdeal.Gen.k1_pay1 (F := Ideal)
          (KernelIdeal.Gen.k1_pay2 (F := Ideal) (KernelIdeal.KLayer.tile h t) (KernelIdeal.KLayer.tile raw t)
            (KernelIdeal.KLayer.tile1 inv t) Ws Wn b p)
          (KernelIdeal.Gen.k1_pay3 (F := Ideal) var) (KernelIdeal.Gen.k1_pay4 (F := Ideal) mean) g be (ix2 r j)

/-! ## One layer -/

/-- One layer over arrays: with the neighbour sums, the reciprocal degrees, the mean and the variance rows as the host
    computes them, the layer's output is the reference's layer and is finite. -/
theorem layer_step (h O : FVec Ideal KernelIdeal.S100000x128 .f32) (a1 a2 : IVec KernelIdeal.S1600000 32)
    (Ws Wn : FVec Ideal KernelIdeal.S128x128 .f32) (b p g be : FVec Ideal KernelIdeal.S1x128 .f32)
    (S Q : FVec Ideal KernelIdeal.S16x128 .f32) (b' g' bt' s' : FVec Ideal ReferenceIdeal.S128 .f32)
    (hS : StatsS h (KernelIdeal.KRead.rawAgg (F := Ideal) h a1 a2) (KernelIdeal.KRead.invdeg (F := Ideal) a2) Ws Wn b p S)
    (hQ : StatsQ h (KernelIdeal.KRead.rawAgg (F := Ideal) h a1 a2) (KernelIdeal.KRead.invdeg (F := Ideal) a2) Ws Wn b p Q)
    (hO : NormO h (KernelIdeal.KRead.rawAgg (F := Ideal) h a1 a2) (KernelIdeal.KRead.invdeg (F := Ideal) a2) Ws Wn b p
      (KernelIdeal.KRead.meanOf (F := Ideal) S) (KernelIdeal.KRead.varOf (F := Ideal) S Q) g be O)
    (hb : ∀ j : Fin 128, b (ix2 (0 : Fin 1) j) = b' (ix1 j)) (hp : ∀ j : Fin 128, p (ix2 (0 : Fin 1) j) = s' (ix1 j))
    (hg : ∀ j : Fin 128, g (ix2 (0 : Fin 1) j) = g' (ix1 j)) (hbe : ∀ j : Fin 128, be (ix2 (0 : Fin 1) j) = bt' (ix1 j))
    (fh : FiniteArr h) (fWs : FiniteArr Ws) (fWn : FiniteArr Wn)
    (fb' : FiniteArr b') (fg' : FiniteArr g') (fbt' : FiniteArr bt') (fs' : FiniteArr s') :
    O = ReferenceIdeal.Run.layer (F := Ideal) h a1 a2 (ReferenceIdeal.Run.deg (F := Ideal) a2) Ws Wn b' g' bt' s'
      ∧ FiniteArr O := by
  obtain ⟨fb1, hfb1⟩ := fin1_of_finite b' fb'
  obtain ⟨fg1, hfg1⟩ := fin1_of_finite g' fg'
  obtain ⟨fbt1, hfbt1⟩ := fin1_of_finite bt' fbt'
  obtain ⟨fs1, hfs1⟩ := fin1_of_finite s' fs'
  have fdg : ∃ f : Fin 100000 → ℝ, (∀ r, 1 ≤ f r)
      ∧ ∀ r, KernelIdeal.KRead.deg (F := Ideal) a2 (ix1 r) = (f r : EReal) := by
    choose f hf1 hf using fun r : Fin 100000 => HostFacts.deg_ge_one a2 (ix1 r)
    exact ⟨f, hf1, hf⟩
  have key := Bridge.layer_bridge h (KernelIdeal.KRead.rawAgg (F := Ideal) h a1 a2) O
    (KernelIdeal.KRead.invdeg (F := Ideal) a2) (KernelIdeal.KRead.deg (F := Ideal) a2) Ws Wn b p g be S Q a1 a2 b' g' bt' s'
    hS hQ hO (fun r => KernelIdeal.KLayer.invdeg_apply a2 r) rfl hb hp hg hbe
    (fin2_of_finite h fh) (fin2_of_finite _ (rawAgg_finite h a1 a2 fh)) fdg
    (fin2_of_finite Ws fWs) (fin2_of_finite Wn fWn)
    ⟨fb1, fun j => (hb j).trans (hfb1 j)⟩ ⟨fs1, fun j => (hp j).trans (hfs1 j)⟩
    ⟨fg1, fun j => (hg j).trans (hfg1 j)⟩ ⟨fbt1, fun j => (hbe j).trans (hfbt1 j)⟩
  refine ⟨funext fun i => ?_, finite_of_fin2 O key.2⟩
  rw [eq_ix2 i]
  exact key.1 _ _

/-- Layer 0: from the previous node features `h` (finite) and the layer's two kernels' arrays, the layer's output is the
    reference's layer 0 at `h`, and is finite. -/
theorem layer_step_0 (h O : FVec Ideal KernelIdeal.S100000x128 .f32) (a1 a2 : IVec KernelIdeal.S1600000 32)
    (a5 a6 : FVec Ideal KernelIdeal.S4x128x128 .f32) (a7 a8 a9 a10 : FVec Ideal KernelIdeal.S4x128 .f32)
    (S Q : FVec Ideal KernelIdeal.S16x128 .f32)
    (hS : StatsS h (KernelIdeal.KRead.rawAgg (F := Ideal) h a1 a2) (KernelIdeal.KRead.invdeg (F := Ideal) a2)
      (KernelIdeal.KRead.mat_0 (F := Ideal) a5) (KernelIdeal.KRead.mat_0 (F := Ideal) a6)
      (KernelIdeal.KRead.row2_0 (F := Ideal) a7) (KernelIdeal.KRead.row2_0 (F := Ideal) a10) S)
    (hQ : StatsQ h (KernelIdeal.KRead.rawAgg (F := Ideal) h a1 a2) (KernelIdeal.KRead.invdeg (F := Ideal) a2)
      (KernelIdeal.KRead.mat_0 (F := Ideal) a5) (KernelIdeal.KRead.mat_0 (F := Ideal) a6)
      (KernelIdeal.KRead.row2_0 (F := Ideal) a7) (KernelIdeal.KRead.row2_0 (F := Ideal) a10) Q)
    (hO : NormO h (KernelIdeal.KRead.rawAgg (F := Ideal) h a1 a2) (KernelIdeal.KRead.invdeg (F := Ideal) a2)
      (KernelIdeal.KRead.mat_0 (F := Ideal) a5) (KernelIdeal.KRead.mat_0 (F := Ideal) a6)
      (KernelIdeal.KRead.row2_0 (F := Ideal) a7) (KernelIdeal.KRead.row2_0 (F := Ideal) a10)
      (KernelIdeal.KRead.meanOf (F := Ideal) S) (KernelIdeal.KRead.varOf (F := Ideal) S Q)
      (KernelIdeal.KRead.row2_0 (F := Ideal) a8) (KernelIdeal.KRead.row2_0 (F := Ideal) a9) O)
    (fh : FiniteArr h) (f5 : FiniteArr a5) (f6 : FiniteArr a6) (f7 : FiniteArr a7) (f8 : FiniteArr a8)
    (f9 : FiniteArr a9) (f10 : FiniteArr a10) :
    O = ReferenceIdeal.Run.layer_0 (F := Ideal) h a1 a2 a5 a6 a7 a8 a9 a10 (ReferenceIdeal.Run.deg (F := Ideal) a2)
      ∧ FiniteArr O :=
  layer_step h O a1 a2 _ _ _ _ _ _ S Q (ReferenceIdeal.Run.row_0 (F := Ideal) a7) (ReferenceIdeal.Run.row_0 (F := Ideal) a8)
    (ReferenceIdeal.Run.row_0 (F := Ideal) a9) (ReferenceIdeal.Run.row_0 (F := Ideal) a10) hS hQ hO
    (fun j => by unfold KernelIdeal.KRead.row2_0; rw [shapeCast_a_1a_apply]; rfl)
    (fun j => by unfold KernelIdeal.KRead.row2_0; rw [shapeCast_a_1a_apply]; rfl)
    (fun j => by unfold KernelIdeal.KRead.row2_0; rw [shapeCast_a_1a_apply]; rfl)
    (fun j => by unfold KernelIdeal.KRead.row2_0; rw [shapeCast_a_1a_apply]; rfl)
    fh
    (fun i => by rw [eq_ix2 i]; exact (ReferenceIdeal.ReadIdeal.mat_0_apply (F := Ideal) a5 _ _).symm ▸ f5 _)
    (fun i => by rw [eq_ix2 i]; exact (ReferenceIdeal.ReadIdeal.mat_0_apply (F := Ideal) a6 _ _).symm ▸ f6 _)
    (fun i => by rw [eq_ix1 i]; exact (ReferenceIdeal.ReadIdeal.row_0_apply (F := Ideal) a7 _).symm ▸ f7 _)
    (fun i => by rw [eq_ix1 i]; exact (ReferenceIdeal.ReadIdeal.row_0_apply (F := Ideal) a8 _).symm ▸ f8 _)
    (fun i => by rw [eq_ix1 i]; exact (ReferenceIdeal.ReadIdeal.row_0_apply (F := Ideal) a9 _).symm ▸ f9 _)
    (fun i => by rw [eq_ix1 i]; exact (ReferenceIdeal.ReadIdeal.row_0_apply (F := Ideal) a10 _).symm ▸ f10 _)

/-- Layer 1: from the previous node features `h` (finite) and the layer's two kernels' arrays, the layer's output is the
    reference's layer 1 at `h`, and is finite. -/
theorem layer_step_1 (h O : FVec Ideal KernelIdeal.S100000x128 .f32) (a1 a2 : IVec KernelIdeal.S1600000 32)
    (a5 a6 : FVec Ideal KernelIdeal.S4x128x128 .f32) (a7 a8 a9 a10 : FVec Ideal KernelIdeal.S4x128 .f32)
    (S Q : FVec Ideal KernelIdeal.S16x128 .f32)
    (hS : StatsS h (KernelIdeal.KRead.rawAgg (F := Ideal) h a1 a2) (KernelIdeal.KRead.invdeg (F := Ideal) a2)
      (KernelIdeal.KRead.mat_1 (F := Ideal) a5) (KernelIdeal.KRead.mat_1 (F := Ideal) a6)
      (KernelIdeal.KRead.row2_1 (F := Ideal) a7) (KernelIdeal.KRead.row2_1 (F := Ideal) a10) S)
    (hQ : StatsQ h (KernelIdeal.KRead.rawAgg (F := Ideal) h a1 a2) (KernelIdeal.KRead.invdeg (F := Ideal) a2)
      (KernelIdeal.KRead.mat_1 (F := Ideal) a5) (KernelIdeal.KRead.mat_1 (F := Ideal) a6)
      (KernelIdeal.KRead.row2_1 (F := Ideal) a7) (KernelIdeal.KRead.row2_1 (F := Ideal) a10) Q)
    (hO : NormO h (KernelIdeal.KRead.rawAgg (F := Ideal) h a1 a2) (KernelIdeal.KRead.invdeg (F := Ideal) a2)
      (KernelIdeal.KRead.mat_1 (F := Ideal) a5) (KernelIdeal.KRead.mat_1 (F := Ideal) a6)
      (KernelIdeal.KRead.row2_1 (F := Ideal) a7) (KernelIdeal.KRead.row2_1 (F := Ideal) a10)
      (KernelIdeal.KRead.meanOf (F := Ideal) S) (KernelIdeal.KRead.varOf (F := Ideal) S Q)
      (KernelIdeal.KRead.row2_1 (F := Ideal) a8) (KernelIdeal.KRead.row2_1 (F := Ideal) a9) O)
    (fh : FiniteArr h) (f5 : FiniteArr a5) (f6 : FiniteArr a6) (f7 : FiniteArr a7) (f8 : FiniteArr a8)
    (f9 : FiniteArr a9) (f10 : FiniteArr a10) :
    O = ReferenceIdeal.Run.layer_1 (F := Ideal) h a1 a2 a5 a6 a7 a8 a9 a10 (ReferenceIdeal.Run.deg (F := Ideal) a2)
      ∧ FiniteArr O :=
  layer_step h O a1 a2 _ _ _ _ _ _ S Q (ReferenceIdeal.Run.row_1 (F := Ideal) a7) (ReferenceIdeal.Run.row_1 (F := Ideal) a8)
    (ReferenceIdeal.Run.row_1 (F := Ideal) a9) (ReferenceIdeal.Run.row_1 (F := Ideal) a10) hS hQ hO
    (fun j => by unfold KernelIdeal.KRead.row2_1; rw [shapeCast_a_1a_apply]; rfl)
    (fun j => by unfold KernelIdeal.KRead.row2_1; rw [shapeCast_a_1a_apply]; rfl)
    (fun j => by unfold KernelIdeal.KRead.row2_1; rw [shapeCast_a_1a_apply]; rfl)
    (fun j => by unfold KernelIdeal.KRead.row2_1; rw [shapeCast_a_1a_apply]; rfl)
    fh
    (fun i => by rw [eq_ix2 i]; exact (ReferenceIdeal.ReadIdeal.mat_1_apply (F := Ideal) a5 _ _).symm ▸ f5 _)
    (fun i => by rw [eq_ix2 i]; exact (ReferenceIdeal.ReadIdeal.mat_1_apply (F := Ideal) a6 _ _).symm ▸ f6 _)
    (fun i => by rw [eq_ix1 i]; exact (ReferenceIdeal.ReadIdeal.row_1_apply (F := Ideal) a7 _).symm ▸ f7 _)
    (fun i => by rw [eq_ix1 i]; exact (ReferenceIdeal.ReadIdeal.row_1_apply (F := Ideal) a8 _).symm ▸ f8 _)
    (fun i => by rw [eq_ix1 i]; exact (ReferenceIdeal.ReadIdeal.row_1_apply (F := Ideal) a9 _).symm ▸ f9 _)
    (fun i => by rw [eq_ix1 i]; exact (ReferenceIdeal.ReadIdeal.row_1_apply (F := Ideal) a10 _).symm ▸ f10 _)

/-- Layer 2: from the previous node features `h` (finite) and the layer's two kernels' arrays, the layer's output is the
    reference's layer 2 at `h`, and is finite. -/
theorem layer_step_2 (h O : FVec Ideal KernelIdeal.S100000x128 .f32) (a1 a2 : IVec KernelIdeal.S1600000 32)
    (a5 a6 : FVec Ideal KernelIdeal.S4x128x128 .f32) (a7 a8 a9 a10 : FVec Ideal KernelIdeal.S4x128 .f32)
    (S Q : FVec Ideal KernelIdeal.S16x128 .f32)
    (hS : StatsS h (KernelIdeal.KRead.rawAgg (F := Ideal) h a1 a2) (KernelIdeal.KRead.invdeg (F := Ideal) a2)
      (KernelIdeal.KRead.mat_2 (F := Ideal) a5) (KernelIdeal.KRead.mat_2 (F := Ideal) a6)
      (KernelIdeal.KRead.row2_2 (F := Ideal) a7) (KernelIdeal.KRead.row2_2 (F := Ideal) a10) S)
    (hQ : StatsQ h (KernelIdeal.KRead.rawAgg (F := Ideal) h a1 a2) (KernelIdeal.KRead.invdeg (F := Ideal) a2)
      (KernelIdeal.KRead.mat_2 (F := Ideal) a5) (KernelIdeal.KRead.mat_2 (F := Ideal) a6)
      (KernelIdeal.KRead.row2_2 (F := Ideal) a7) (KernelIdeal.KRead.row2_2 (F := Ideal) a10) Q)
    (hO : NormO h (KernelIdeal.KRead.rawAgg (F := Ideal) h a1 a2) (KernelIdeal.KRead.invdeg (F := Ideal) a2)
      (KernelIdeal.KRead.mat_2 (F := Ideal) a5) (KernelIdeal.KRead.mat_2 (F := Ideal) a6)
      (KernelIdeal.KRead.row2_2 (F := Ideal) a7) (KernelIdeal.KRead.row2_2 (F := Ideal) a10)
      (KernelIdeal.KRead.meanOf (F := Ideal) S) (KernelIdeal.KRead.varOf (F := Ideal) S Q)
      (KernelIdeal.KRead.row2_2 (F := Ideal) a8) (KernelIdeal.KRead.row2_2 (F := Ideal) a9) O)
    (fh : FiniteArr h) (f5 : FiniteArr a5) (f6 : FiniteArr a6) (f7 : FiniteArr a7) (f8 : FiniteArr a8)
    (f9 : FiniteArr a9) (f10 : FiniteArr a10) :
    O = ReferenceIdeal.Run.layer_2 (F := Ideal) h a1 a2 a5 a6 a7 a8 a9 a10 (ReferenceIdeal.Run.deg (F := Ideal) a2)
      ∧ FiniteArr O :=
  layer_step h O a1 a2 _ _ _ _ _ _ S Q (ReferenceIdeal.Run.row_2 (F := Ideal) a7) (ReferenceIdeal.Run.row_2 (F := Ideal) a8)
    (ReferenceIdeal.Run.row_2 (F := Ideal) a9) (ReferenceIdeal.Run.row_2 (F := Ideal) a10) hS hQ hO
    (fun j => by unfold KernelIdeal.KRead.row2_2; rw [shapeCast_a_1a_apply]; rfl)
    (fun j => by unfold KernelIdeal.KRead.row2_2; rw [shapeCast_a_1a_apply]; rfl)
    (fun j => by unfold KernelIdeal.KRead.row2_2; rw [shapeCast_a_1a_apply]; rfl)
    (fun j => by unfold KernelIdeal.KRead.row2_2; rw [shapeCast_a_1a_apply]; rfl)
    fh
    (fun i => by rw [eq_ix2 i]; exact (ReferenceIdeal.ReadIdeal.mat_2_apply (F := Ideal) a5 _ _).symm ▸ f5 _)
    (fun i => by rw [eq_ix2 i]; exact (ReferenceIdeal.ReadIdeal.mat_2_apply (F := Ideal) a6 _ _).symm ▸ f6 _)
    (fun i => by rw [eq_ix1 i]; exact (ReferenceIdeal.ReadIdeal.row_2_apply (F := Ideal) a7 _).symm ▸ f7 _)
    (fun i => by rw [eq_ix1 i]; exact (ReferenceIdeal.ReadIdeal.row_2_apply (F := Ideal) a8 _).symm ▸ f8 _)
    (fun i => by rw [eq_ix1 i]; exact (ReferenceIdeal.ReadIdeal.row_2_apply (F := Ideal) a9 _).symm ▸ f9 _)
    (fun i => by rw [eq_ix1 i]; exact (ReferenceIdeal.ReadIdeal.row_2_apply (F := Ideal) a10 _).symm ▸ f10 _)

/-- Layer 3: from the previous node features `h` (finite) and the layer's two kernels' arrays, the layer's output is the
    reference's layer 3 at `h`, and is finite. -/
theorem layer_step_3 (h O : FVec Ideal KernelIdeal.S100000x128 .f32) (a1 a2 : IVec KernelIdeal.S1600000 32)
    (a5 a6 : FVec Ideal KernelIdeal.S4x128x128 .f32) (a7 a8 a9 a10 : FVec Ideal KernelIdeal.S4x128 .f32)
    (S Q : FVec Ideal KernelIdeal.S16x128 .f32)
    (hS : StatsS h (KernelIdeal.KRead.rawAgg (F := Ideal) h a1 a2) (KernelIdeal.KRead.invdeg (F := Ideal) a2)
      (KernelIdeal.KRead.mat_3 (F := Ideal) a5) (KernelIdeal.KRead.mat_3 (F := Ideal) a6)
      (KernelIdeal.KRead.row2_3 (F := Ideal) a7) (KernelIdeal.KRead.row2_3 (F := Ideal) a10) S)
    (hQ : StatsQ h (KernelIdeal.KRead.rawAgg (F := Ideal) h a1 a2) (KernelIdeal.KRead.invdeg (F := Ideal) a2)
      (KernelIdeal.KRead.mat_3 (F := Ideal) a5) (KernelIdeal.KRead.mat_3 (F := Ideal) a6)
      (KernelIdeal.KRead.row2_3 (F := Ideal) a7) (KernelIdeal.KRead.row2_3 (F := Ideal) a10) Q)
    (hO : NormO h (KernelIdeal.KRead.rawAgg (F := Ideal) h a1 a2) (KernelIdeal.KRead.invdeg (F := Ideal) a2)
      (KernelIdeal.KRead.mat_3 (F := Ideal) a5) (KernelIdeal.KRead.mat_3 (F := Ideal) a6)
      (KernelIdeal.KRead.row2_3 (F := Ideal) a7) (KernelIdeal.KRead.row2_3 (F := Ideal) a10)
      (KernelIdeal.KRead.meanOf (F := Ideal) S) (KernelIdeal.KRead.varOf (F := Ideal) S Q)
      (KernelIdeal.KRead.row2_3 (F := Ideal) a8) (KernelIdeal.KRead.row2_3 (F := Ideal) a9) O)
    (fh : FiniteArr h) (f5 : FiniteArr a5) (f6 : FiniteArr a6) (f7 : FiniteArr a7) (f8 : FiniteArr a8)
    (f9 : FiniteArr a9) (f10 : FiniteArr a10) :
    O = ReferenceIdeal.Run.layer_3 (F := Ideal) h a1 a2 a5 a6 a7 a8 a9 a10 (ReferenceIdeal.Run.deg (F := Ideal) a2)
      ∧ FiniteArr O :=
  layer_step h O a1 a2 _ _ _ _ _ _ S Q (ReferenceIdeal.Run.row_3 (F := Ideal) a7) (ReferenceIdeal.Run.row_3 (F := Ideal) a8)
    (ReferenceIdeal.Run.row_3 (F := Ideal) a9) (ReferenceIdeal.Run.row_3 (F := Ideal) a10) hS hQ hO
    (fun j => by unfold KernelIdeal.KRead.row2_3; rw [shapeCast_a_1a_apply]; rfl)
    (fun j => by unfold KernelIdeal.KRead.row2_3; rw [shapeCast_a_1a_apply]; rfl)
    (fun j => by unfold KernelIdeal.KRead.row2_3; rw [shapeCast_a_1a_apply]; rfl)
    (fun j => by unfold KernelIdeal.KRead.row2_3; rw [shapeCast_a_1a_apply]; rfl)
    fh
    (fun i => by rw [eq_ix2 i]; exact (ReferenceIdeal.ReadIdeal.mat_3_apply (F := Ideal) a5 _ _).symm ▸ f5 _)
    (fun i => by rw [eq_ix2 i]; exact (ReferenceIdeal.ReadIdeal.mat_3_apply (F := Ideal) a6 _ _).symm ▸ f6 _)
    (fun i => by rw [eq_ix1 i]; exact (ReferenceIdeal.ReadIdeal.row_3_apply (F := Ideal) a7 _).symm ▸ f7 _)
    (fun i => by rw [eq_ix1 i]; exact (ReferenceIdeal.ReadIdeal.row_3_apply (F := Ideal) a8 _).symm ▸ f8 _)
    (fun i => by rw [eq_ix1 i]; exact (ReferenceIdeal.ReadIdeal.row_3_apply (F := Ideal) a9 _).symm ▸ f9 _)
    (fun i => by rw [eq_ix1 i]; exact (ReferenceIdeal.ReadIdeal.row_3_apply (F := Ideal) a10 _).symm ▸ f10 _)

/-! ## The four layers, and the pooled result -/

/-- The gathered embedding is finite when the table is. -/
theorem emb0_finite (a0 : IVec KernelIdeal.S100000 32) (a4 : FVec Ideal KernelIdeal.S257x128 .f32) (f4 : FiniteArr a4) :
    FiniteArr (KernelIdeal.KRead.emb0 (F := Ideal) a0 a4) := by
  unfold KernelIdeal.KRead.emb0
  exact HostFacts.gather_finite _ a4 _ f4

/-- The four layers in turn: the kernel program's node features after each layer are the reference's. -/
theorem layers_chain (a0 a3 : IVec KernelIdeal.S100000 32) (a1 a2 : IVec KernelIdeal.S1600000 32)
    (a4 : FVec Ideal KernelIdeal.S257x128 .f32) (a5 a6 : FVec Ideal KernelIdeal.S4x128x128 .f32)
    (a7 a8 a9 a10 : FVec Ideal KernelIdeal.S4x128 .f32)
    (S0 Q0 S1 Q1 S2 Q2 S3 Q3 : FVec Ideal KernelIdeal.S16x128 .f32) (H1 H2 H3 H4 : FVec Ideal KernelIdeal.S100000x128 .f32)
    (f4 : FiniteArr a4) (f5 : FiniteArr a5) (f6 : FiniteArr a6) (f7 : FiniteArr a7) (f8 : FiniteArr a8)
    (f9 : FiniteArr a9) (f10 : FiniteArr a10)
    (hS0 : StatsS (KernelIdeal.KRead.emb0 (F := Ideal) a0 a4) (KernelIdeal.KRead.rawAgg (F := Ideal) (KernelIdeal.KRead.emb0 (F := Ideal) a0 a4) a1 a2) (KernelIdeal.KRead.invdeg (F := Ideal) a2) (KernelIdeal.KRead.mat_0 (F := Ideal) a5) (KernelIdeal.KRead.mat_0 (F := Ideal) a6) (KernelIdeal.KRead.row2_0 (F := Ideal) a7) (KernelIdeal.KRead.row2_0 (F := Ideal) a10) S0)
    (hQ0 : StatsQ (KernelIdeal.KRead.emb0 (F := Ideal) a0 a4) (KernelIdeal.KRead.rawAgg (F := Ideal) (KernelIdeal.KRead.emb0 (F := Ideal) a0 a4) a1 a2) (KernelIdeal.KRead.invdeg (F := Ideal) a2) (KernelIdeal.KRead.mat_0 (F := Ideal) a5) (KernelIdeal.KRead.mat_0 (F := Ideal) a6) (KernelIdeal.KRead.row2_0 (F := Ideal) a7) (KernelIdeal.KRead.row2_0 (F := Ideal) a10) Q0)
    (hO0 : NormO (KernelIdeal.KRead.emb0 (F := Ideal) a0 a4) (KernelIdeal.KRead.rawAgg (F := Ideal) (KernelIdeal.KRead.emb0 (F := Ideal) a0 a4) a1 a2) (KernelIdeal.KRead.invdeg (F := Ideal) a2) (KernelIdeal.KRead.mat_0 (F := Ideal) a5) (KernelIdeal.KRead.mat_0 (F := Ideal) a6) (KernelIdeal.KRead.row2_0 (F := Ideal) a7) (KernelIdeal.KRead.row2_0 (F := Ideal) a10)
      (KernelIdeal.KRead.meanOf (F := Ideal) S0) (KernelIdeal.KRead.varOf (F := Ideal) S0 Q0) (KernelIdeal.KRead.row2_0 (F := Ideal) a8) (KernelIdeal.KRead.row2_0 (F := Ideal) a9) H1)
    (hS1 : StatsS (H1) (KernelIdeal.KRead.rawAgg (F := Ideal) H1 a1 a2) (KernelIdeal.KRead.invdeg (F := Ideal) a2) (KernelIdeal.KRead.mat_1 (F := Ideal) a5) (KernelIdeal.KRead.mat_1 (F := Ideal) a6) (KernelIdeal.KRead.row2_1 (F := Ideal) a7) (KernelIdeal.KRead.row2_1 (F := Ideal) a10) S1)
    (hQ1 : StatsQ (H1) (KernelIdeal.KRead.rawAgg (F := Ideal) H1 a1 a2) (KernelIdeal.KRead.invdeg (F := Ideal) a2) (KernelIdeal.KRead.mat_1 (F := Ideal) a5) (KernelIdeal.KRead.mat_1 (F := Ideal) a6) (KernelIdeal.KRead.row2_1 (F := Ideal) a7) (KernelIdeal.KRead.row2_1 (F := Ideal) a10) Q1)
    (hO1 : NormO (H1) (KernelIdeal.KRead.rawAgg (F := Ideal) H1 a1 a2) (KernelIdeal.KRead.invdeg (F := Ideal) a2) (KernelIdeal.KRead.mat_1 (F := Ideal) a5) (KernelIdeal.KRead.mat_1 (F := Ideal) a6) (KernelIdeal.KRead.row2_1 (F := Ideal) a7) (KernelIdeal.KRead.row2_1 (F := Ideal) a10)
      (KernelIdeal.KRead.meanOf (F := Ideal) S1) (KernelIdeal.KRead.varOf (F := Ideal) S1 Q1) (KernelIdeal.KRead.row2_1 (F := Ideal) a8) (KernelIdeal.KRead.row2_1 (F := Ideal) a9) H2)
    (hS2 : StatsS (H2) (KernelIdeal.KRead.rawAgg (F := Ideal) H2 a1 a2) (KernelIdeal.KRead.invdeg (F := Ideal) a2) (KernelIdeal.KRead.mat_2 (F := Ideal) a5) (KernelIdeal.KRead.mat_2 (F := Ideal) a6) (KernelIdeal.KRead.row2_2 (F := Ideal) a7) (KernelIdeal.KRead.row2_2 (F := Ideal) a10) S2)
    (hQ2 : StatsQ (H2) (KernelIdeal.KRead.rawAgg (F := Ideal) H2 a1 a2) (KernelIdeal.KRead.invdeg (F := Ideal) a2) (KernelIdeal.KRead.mat_2 (F := Ideal) a5) (KernelIdeal.KRead.mat_2 (F := Ideal) a6) (KernelIdeal.KRead.row2_2 (F := Ideal) a7) (KernelIdeal.KRead.row2_2 (F := Ideal) a10) Q2)
    (hO2 : NormO (H2) (KernelIdeal.KRead.rawAgg (F := Ideal) H2 a1 a2) (KernelIdeal.KRead.invdeg (F := Ideal) a2) (KernelIdeal.KRead.mat_2 (F := Ideal) a5) (KernelIdeal.KRead.mat_2 (F := Ideal) a6) (KernelIdeal.KRead.row2_2 (F := Ideal) a7) (KernelIdeal.KRead.row2_2 (F := Ideal) a10)
      (KernelIdeal.KRead.meanOf (F := Ideal) S2) (KernelIdeal.KRead.varOf (F := Ideal) S2 Q2) (KernelIdeal.KRead.row2_2 (F := Ideal) a8) (KernelIdeal.KRead.row2_2 (F := Ideal) a9) H3)
    (hS3 : StatsS (H3) (KernelIdeal.KRead.rawAgg (F := Ideal) H3 a1 a2) (KernelIdeal.KRead.invdeg (F := Ideal) a2) (KernelIdeal.KRead.mat_3 (F := Ideal) a5) (KernelIdeal.KRead.mat_3 (F := Ideal) a6) (KernelIdeal.KRead.row2_3 (F := Ideal) a7) (KernelIdeal.KRead.row2_3 (F := Ideal) a10) S3)
    (hQ3 : StatsQ (H3) (KernelIdeal.KRead.rawAgg (F := Ideal) H3 a1 a2) (KernelIdeal.KRead.invdeg (F := Ideal) a2) (KernelIdeal.KRead.mat_3 (F := Ideal) a5) (KernelIdeal.KRead.mat_3 (F := Ideal) a6) (KernelIdeal.KRead.row2_3 (F := Ideal) a7) (KernelIdeal.KRead.row2_3 (F := Ideal) a10) Q3)
    (hO3 : NormO (H3) (KernelIdeal.KRead.rawAgg (F := Ideal) H3 a1 a2) (KernelIdeal.KRead.invdeg (F := Ideal) a2) (KernelIdeal.KRead.mat_3 (F := Ideal) a5) (KernelIdeal.KRead.mat_3 (F := Ideal) a6) (KernelIdeal.KRead.row2_3 (F := Ideal) a7) (KernelIdeal.KRead.row2_3 (F := Ideal) a10)
      (KernelIdeal.KRead.meanOf (F := Ideal) S3) (KernelIdeal.KRead.varOf (F := Ideal) S3 Q3) (KernelIdeal.KRead.row2_3 (F := Ideal) a8) (KernelIdeal.KRead.row2_3 (F := Ideal) a9) H4)
    :
    H1 = ReferenceIdeal.Run.hid1 (F := Ideal) a0 a1 a2 a4 a5 a6 a7 a8 a9 a10 ∧ H2 = ReferenceIdeal.Run.hid2 (F := Ideal) a0 a1 a2 a4 a5 a6 a7 a8 a9 a10
      ∧ H3 = ReferenceIdeal.Run.hid3 (F := Ideal) a0 a1 a2 a4 a5 a6 a7 a8 a9 a10 ∧ H4 = ReferenceIdeal.Run.hid4 (F := Ideal) a0 a1 a2 a4 a5 a6 a7 a8 a9 a10 := by
  obtain ⟨e1, fH1⟩ := layer_step_0 _ H1 a1 a2 a5 a6 a7 a8 a9 a10 S0 Q0 hS0 hQ0 hO0 (emb0_finite a0 a4 f4) f5 f6 f7 f8 f9 f10
  obtain ⟨e2, fH2⟩ := layer_step_1 H1 H2 a1 a2 a5 a6 a7 a8 a9 a10 S1 Q1 hS1 hQ1 hO1 fH1 f5 f6 f7 f8 f9 f10
  obtain ⟨e3, fH3⟩ := layer_step_2 H2 H3 a1 a2 a5 a6 a7 a8 a9 a10 S2 Q2 hS2 hQ2 hO2 fH2 f5 f6 f7 f8 f9 f10
  obtain ⟨e4, fH4⟩ := layer_step_3 H3 H4 a1 a2 a5 a6 a7 a8 a9 a10 S3 Q3 hS3 hQ3 hO3 fH3 f5 f6 f7 f8 f9 f10
  have r1 : H1 = ReferenceIdeal.Run.hid1 (F := Ideal) a0 a1 a2 a4 a5 a6 a7 a8 a9 a10 := e1
  have r2 : H2 = ReferenceIdeal.Run.hid2 (F := Ideal) a0 a1 a2 a4 a5 a6 a7 a8 a9 a10 := e2.trans (by rw [r1]; rfl)
  have r3 : H3 = ReferenceIdeal.Run.hid3 (F := Ideal) a0 a1 a2 a4 a5 a6 a7 a8 a9 a10 := e3.trans (by rw [r2]; rfl)
  have r4 : H4 = ReferenceIdeal.Run.hid4 (F := Ideal) a0 a1 a2 a4 a5 a6 a7 a8 a9 a10 := e4.trans (by rw [r3]; rfl)
  exact ⟨r1, r2, r3, r4⟩

/-- The result over arrays: the four layers' features pooled one by one and set side by side are the reference's
    result. `hpool`: pooling commutes with setting the layers side by side. -/
theorem result_arrays (a0 a3 : IVec KernelIdeal.S100000 32) (a1 a2 : IVec KernelIdeal.S1600000 32)
    (a4 : FVec Ideal KernelIdeal.S257x128 .f32) (a5 a6 : FVec Ideal KernelIdeal.S4x128x128 .f32)
    (a7 a8 a9 a10 : FVec Ideal KernelIdeal.S4x128 .f32)
    (S0 Q0 S1 Q1 S2 Q2 S3 Q3 : FVec Ideal KernelIdeal.S16x128 .f32) (H1 H2 H3 H4 : FVec Ideal KernelIdeal.S100000x128 .f32)
    (f4 : FiniteArr a4) (f5 : FiniteArr a5) (f6 : FiniteArr a6) (f7 : FiniteArr a7) (f8 : FiniteArr a8)
    (f9 : FiniteArr a9) (f10 : FiniteArr a10)
    (hS0 : StatsS (KernelIdeal.KRead.emb0 (F := Ideal) a0 a4) (KernelIdeal.KRead.rawAgg (F := Ideal) (KernelIdeal.KRead.emb0 (F := Ideal) a0 a4) a1 a2) (KernelIdeal.KRead.invdeg (F := Ideal) a2) (KernelIdeal.KRead.mat_0 (F := Ideal) a5) (KernelIdeal.KRead.mat_0 (F := Ideal) a6) (KernelIdeal.KRead.row2_0 (F := Ideal) a7) (KernelIdeal.KRead.row2_0 (F := Ideal) a10) S0)
    (hQ0 : StatsQ (KernelIdeal.KRead.emb0 (F := Ideal) a0 a4) (KernelIdeal.KRead.rawAgg (F := Ideal) (KernelIdeal.KRead.emb0 (F := Ideal) a0 a4) a1 a2) (KernelIdeal.KRead.invdeg (F := Ideal) a2) (KernelIdeal.KRead.mat_0 (F := Ideal) a5) (KernelIdeal.KRead.mat_0 (F := Ideal) a6) (KernelIdeal.KRead.row2_0 (F := Ideal) a7) (KernelIdeal.KRead.row2_0 (F := Ideal) a10) Q0)
    (hO0 : NormO (KernelIdeal.KRead.emb0 (F := Ideal) a0 a4) (KernelIdeal.KRead.rawAgg (F := Ideal) (KernelIdeal.KRead.emb0 (F := Ideal) a0 a4) a1 a2) (KernelIdeal.KRead.invdeg (F := Ideal) a2) (KernelIdeal.KRead.mat_0 (F := Ideal) a5) (KernelIdeal.KRead.mat_0 (F := Ideal) a6) (KernelIdeal.KRead.row2_0 (F := Ideal) a7) (KernelIdeal.KRead.row2_0 (F := Ideal) a10)
      (KernelIdeal.KRead.meanOf (F := Ideal) S0) (KernelIdeal.KRead.varOf (F := Ideal) S0 Q0) (KernelIdeal.KRead.row2_0 (F := Ideal) a8) (KernelIdeal.KRead.row2_0 (F := Ideal) a9) H1)
    (hS1 : StatsS (H1) (KernelIdeal.KRead.rawAgg (F := Ideal) H1 a1 a2) (KernelIdeal.KRead.invdeg (F := Ideal) a2) (KernelIdeal.KRead.mat_1 (F := Ideal) a5) (KernelIdeal.KRead.mat_1 (F := Ideal) a6) (KernelIdeal.KRead.row2_1 (F := Ideal) a7) (KernelIdeal.KRead.row2_1 (F := Ideal) a10) S1)
    (hQ1 : StatsQ (H1) (KernelIdeal.KRead.rawAgg (F := Ideal) H1 a1 a2) (KernelIdeal.KRead.invdeg (F := Ideal) a2) (KernelIdeal.KRead.mat_1 (F := Ideal) a5) (KernelIdeal.KRead.mat_1 (F := Ideal) a6) (KernelIdeal.KRead.row2_1 (F := Ideal) a7) (KernelIdeal.KRead.row2_1 (F := Ideal) a10) Q1)
    (hO1 : NormO (H1) (KernelIdeal.KRead.rawAgg (F := Ideal) H1 a1 a2) (KernelIdeal.KRead.invdeg (F := Ideal) a2) (KernelIdeal.KRead.mat_1 (F := Ideal) a5) (KernelIdeal.KRead.mat_1 (F := Ideal) a6) (KernelIdeal.KRead.row2_1 (F := Ideal) a7) (KernelIdeal.KRead.row2_1 (F := Ideal) a10)
      (KernelIdeal.KRead.meanOf (F := Ideal) S1) (KernelIdeal.KRead.varOf (F := Ideal) S1 Q1) (KernelIdeal.KRead.row2_1 (F := Ideal) a8) (KernelIdeal.KRead.row2_1 (F := Ideal) a9) H2)
    (hS2 : StatsS (H2) (KernelIdeal.KRead.rawAgg (F := Ideal) H2 a1 a2) (KernelIdeal.KRead.invdeg (F := Ideal) a2) (KernelIdeal.KRead.mat_2 (F := Ideal) a5) (KernelIdeal.KRead.mat_2 (F := Ideal) a6) (KernelIdeal.KRead.row2_2 (F := Ideal) a7) (KernelIdeal.KRead.row2_2 (F := Ideal) a10) S2)
    (hQ2 : StatsQ (H2) (KernelIdeal.KRead.rawAgg (F := Ideal) H2 a1 a2) (KernelIdeal.KRead.invdeg (F := Ideal) a2) (KernelIdeal.KRead.mat_2 (F := Ideal) a5) (KernelIdeal.KRead.mat_2 (F := Ideal) a6) (KernelIdeal.KRead.row2_2 (F := Ideal) a7) (KernelIdeal.KRead.row2_2 (F := Ideal) a10) Q2)
    (hO2 : NormO (H2) (KernelIdeal.KRead.rawAgg (F := Ideal) H2 a1 a2) (KernelIdeal.KRead.invdeg (F := Ideal) a2) (KernelIdeal.KRead.mat_2 (F := Ideal) a5) (KernelIdeal.KRead.mat_2 (F := Ideal) a6) (KernelIdeal.KRead.row2_2 (F := Ideal) a7) (KernelIdeal.KRead.row2_2 (F := Ideal) a10)
      (KernelIdeal.KRead.meanOf (F := Ideal) S2) (KernelIdeal.KRead.varOf (F := Ideal) S2 Q2) (KernelIdeal.KRead.row2_2 (F := Ideal) a8) (KernelIdeal.KRead.row2_2 (F := Ideal) a9) H3)
    (hS3 : StatsS (H3) (KernelIdeal.KRead.rawAgg (F := Ideal) H3 a1 a2) (KernelIdeal.KRead.invdeg (F := Ideal) a2) (KernelIdeal.KRead.mat_3 (F := Ideal) a5) (KernelIdeal.KRead.mat_3 (F := Ideal) a6) (KernelIdeal.KRead.row2_3 (F := Ideal) a7) (KernelIdeal.KRead.row2_3 (F := Ideal) a10) S3)
    (hQ3 : StatsQ (H3) (KernelIdeal.KRead.rawAgg (F := Ideal) H3 a1 a2) (KernelIdeal.KRead.invdeg (F := Ideal) a2) (KernelIdeal.KRead.mat_3 (F := Ideal) a5) (KernelIdeal.KRead.mat_3 (F := Ideal) a6) (KernelIdeal.KRead.row2_3 (F := Ideal) a7) (KernelIdeal.KRead.row2_3 (F := Ideal) a10) Q3)
    (hO3 : NormO (H3) (KernelIdeal.KRead.rawAgg (F := Ideal) H3 a1 a2) (KernelIdeal.KRead.invdeg (F := Ideal) a2) (KernelIdeal.KRead.mat_3 (F := Ideal) a5) (KernelIdeal.KRead.mat_3 (F := Ideal) a6) (KernelIdeal.KRead.row2_3 (F := Ideal) a7) (KernelIdeal.KRead.row2_3 (F := Ideal) a10)
      (KernelIdeal.KRead.meanOf (F := Ideal) S3) (KernelIdeal.KRead.varOf (F := Ideal) S3 Q3) (KernelIdeal.KRead.row2_3 (F := Ideal) a8) (KernelIdeal.KRead.row2_3 (F := Ideal) a9) H4)
    (hpool : ∀ (h1 h2 h3 h4 : FVec Ideal KernelIdeal.S100000x128 .f32),
      KernelIdeal.KRead.result (F := Ideal) (KernelIdeal.KRead.poolOne (F := Ideal) h1 a3) (KernelIdeal.KRead.poolOne (F := Ideal) h2 a3)
          (KernelIdeal.KRead.poolOne (F := Ideal) h3 a3) (KernelIdeal.KRead.poolOne (F := Ideal) h4 a3)
        = ReferenceIdeal.Run.pooled (F := Ideal) h1 h2 h3 h4 a3) :
    KernelIdeal.KRead.result (F := Ideal) (KernelIdeal.KRead.poolOne (F := Ideal) H1 a3) (KernelIdeal.KRead.poolOne (F := Ideal) H2 a3)
        (KernelIdeal.KRead.poolOne (F := Ideal) H3 a3) (KernelIdeal.KRead.poolOne (F := Ideal) H4 a3)
      = ReferenceIdeal.Run.out (F := Ideal) a0 a1 a2 a3 a4 a5 a6 a7 a8 a9 a10 := by
  obtain ⟨r1, r2, r3, r4⟩ := layers_chain a0 a3 a1 a2 a4 a5 a6 a7 a8 a9 a10 S0 Q0 S1 Q1 S2 Q2 S3 Q3 H1 H2 H3 H4
    f4 f5 f6 f7 f8 f9 f10 hS0 hQ0 hO0 hS1 hQ1 hO1 hS2 hQ2 hO2 hS3 hQ3 hO3
  rw [hpool, r1, r2, r3, r4]
  rfl

/-! ## The program's state: the regions' outputs and the host values at the regions' entries -/

section Congr

open Cert.KernelIdeal

theorem StatsS_congr {x0 x1 y0 y1 : FVec Ideal S100000x128 .f32} {x2 y2 : FVec Ideal S100000x1 .f32}
    {x3 x4 y3 y4 : FVec Ideal S128x128 .f32} {x5 x6 y5 y6 : FVec Ideal S1x128 .f32} {S : FVec Ideal S16x128 .f32}
    (e0 : y0 = x0) (e1 : y1 = x1) (e2 : y2 = x2) (e3 : y3 = x3) (e4 : y4 = x4) (e5 : y5 = x5) (e6 : y6 = x6)
    (h : StatsS y0 y1 y2 y3 y4 y5 y6 S) : StatsS x0 x1 x2 x3 x4 x5 x6 S := by
  subst e0 e1 e2 e3 e4 e5 e6; exact h

theorem StatsQ_congr {x0 x1 y0 y1 : FVec Ideal S100000x128 .f32} {x2 y2 : FVec Ideal S100000x1 .f32}
    {x3 x4 y3 y4 : FVec Ideal S128x128 .f32} {x5 x6 y5 y6 : FVec Ideal S1x128 .f32} {Q : FVec Ideal S16x128 .f32}
    (e0 : y0 = x0) (e1 : y1 = x1) (e2 : y2 = x2) (e3 : y3 = x3) (e4 : y4 = x4) (e5 : y5 = x5) (e6 : y6 = x6)
    (h : StatsQ y0 y1 y2 y3 y4 y5 y6 Q) : StatsQ x0 x1 x2 x3 x4 x5 x6 Q := by
  subst e0 e1 e2 e3 e4 e5 e6; exact h

theorem NormO_congr {x0 x1 y0 y1 O : FVec Ideal S100000x128 .f32} {x2 y2 : FVec Ideal S100000x1 .f32}
    {x3 x4 y3 y4 : FVec Ideal S128x128 .f32} {x5 x6 x7 x8 x9 x10 y5 y6 y7 y8 y9 y10 : FVec Ideal S1x128 .f32}
    (e0 : y0 = x0) (e1 : y1 = x1) (e2 : y2 = x2) (e3 : y3 = x3) (e4 : y4 = x4) (e5 : y5 = x5) (e6 : y6 = x6)
    (e7 : y7 = x7) (e8 : y8 = x8) (e9 : y9 = x9) (e10 : y10 = x10)
    (h : NormO y0 y1 y2 y3 y4 y5 y6 y7 y8 y9 y10 O) : NormO x0 x1 x2 x3 x4 x5 x6 x7 x8 x9 x10 O := by
  subst e0 e1 e2 e3 e4 e5 e6 e7 e8 e9 e10; exact h

end Congr

section State

open Cert.KernelIdeal Cert.KernelIdeal.Gen Idealize.ShloMosaic.TcCoe Idealize.SL.Sem

/-! ### The regions' output arrays in the fold -/

theorem W4_main_v41_0_eq (m : ((ℓ : Loc nD τ sig) → Buf (Elt Ideal) ℓ)) (c : Dev nD) :
    W4 m c main_v41_0 = (dat0 (fun c => atTc c (W3 m c)) c).arrAt 7 cfg0.N := by
  unfold W4
  rw [Function.update_of_ne (show (main_v41_0 : DevRef τ sig) ≠ main_v41_1 from by decide), Function.update_self]

theorem W4_main_v41_1_eq (m : ((ℓ : Loc nD τ sig) → Buf (Elt Ideal) ℓ)) (c : Dev nD) :
    W4 m c main_v41_1 = (dat0 (fun c => atTc c (W3 m c)) c).arrAt 8 cfg0.N := by
  unfold W4
  rw [Function.update_self]

theorem W6_main_v64_eq (m : ((ℓ : Loc nD τ sig) → Buf (Elt Ideal) ℓ)) (c : Dev nD) :
    W6 m c main_v64 = (dat1 (fun c => atTc c (W5 m c)) c).arrAt 11 cfg1.N := by
  unfold W6
  rw [Function.update_self]

theorem W8_main_v91_0_eq (m : ((ℓ : Loc nD τ sig) → Buf (Elt Ideal) ℓ)) (c : Dev nD) :
    W8 m c main_v91_0 = (dat2 (fun c => atTc c (W7 m c)) c).arrAt 7 cfg2.N := by
  unfold W8
  rw [Function.update_of_ne (show (main_v91_0 : DevRef τ sig) ≠ main_v91_1 from by decide), Function.update_self]

theorem W8_main_v91_1_eq (m : ((ℓ : Loc nD τ sig) → Buf (Elt Ideal) ℓ)) (c : Dev nD) :
    W8 m c main_v91_1 = (dat2 (fun c => atTc c (W7 m c)) c).arrAt 8 cfg2.N := by
  unfold W8
  rw [Function.update_self]

theorem W10_main_v114_eq (m : ((ℓ : Loc nD τ sig) → Buf (Elt Ideal) ℓ)) (c : Dev nD) :
    W10 m c main_v114 = (dat3 (fun c => atTc c (W9 m c)) c).arrAt 11 cfg3.N := by
  unfold W10
  rw [Function.update_self]

theorem W12_main_v141_0_eq (m : ((ℓ : Loc nD τ sig) → Buf (Elt Ideal) ℓ)) (c : Dev nD) :
    W12 m c main_v141_0 = (dat4 (fun c => atTc c (W11 m c)) c).arrAt 7 cfg4.N := by
  unfold W12
  rw [Function.update_of_ne (show (main_v141_0 : DevRef τ sig) ≠ main_v141_1 from by decide), Function.update_self]

theorem W12_main_v141_1_eq (m : ((ℓ : Loc nD τ sig) → Buf (Elt Ideal) ℓ)) (c : Dev nD) :
    W12 m c main_v141_1 = (dat4 (fun c => atTc c (W11 m c)) c).arrAt 8 cfg4.N := by
  unfold W12
  rw [Function.update_self]

theorem W14_main_v164_eq (m : ((ℓ : Loc nD τ sig) → Buf (Elt Ideal) ℓ)) (c : Dev nD) :
    W14 m c main_v164 = (dat5 (fun c => atTc c (W13 m c)) c).arrAt 11 cfg5.N := by
  unfold W14
  rw [Function.update_self]

theorem W16_main_v191_0_eq (m : ((ℓ : Loc nD τ sig) → Buf (Elt Ideal) ℓ)) (c : Dev nD) :
    W16 m c main_v191_0 = (dat6 (fun c => atTc c (W15 m c)) c).arrAt 7 cfg6.N := by
  unfold W16
  rw [Function.update_of_ne (show (main_v191_0 : DevRef τ sig) ≠ main_v191_1 from by decide), Function.update_self]

theorem W16_main_v191_1_eq (m : ((ℓ : Loc nD τ sig) → Buf (Elt Ideal) ℓ)) (c : Dev nD) :
    W16 m c main_v191_1 = (dat6 (fun c => atTc c (W15 m c)) c).arrAt 8 cfg6.N := by
  unfold W16
  rw [Function.update_self]

theorem W18_main_v214_eq (m : ((ℓ : Loc nD τ sig) → Buf (Elt Ideal) ℓ)) (c : Dev nD) :
    W18 m c main_v214 = (dat7 (fun c => atTc c (W17 m c)) c).arrAt 11 cfg7.N := by
  unfold W18
  rw [Function.update_self]

/-! ### Each region's fact at the fold's arrays

A region's fact is taken for any entry contents `V`, the region's operands read off `V` at the region's windows'
arrays; the fold enters the region at its own contents, where those arrays hold the named host values. -/

set_option maxHeartbeats 4000000 in
/-- Region 0's first output in the fold, over the named arrays its entry holds. -/
theorem hS_0
    (statsS_0 : ∀ (V : ((c : Dev nD) → (b : Ref sig .tc) → Buf (Elt Ideal) ((c : Thread nD τ).loc b))) (c : Dev nD) (cr : Fin 2) (a : Fin 8) (j : Fin 128),
      (dat0 V c).arrAt 7 cfg0.N (ix2 ⟨8 * cr.val + a.val, KLayer.srow_lt cr a⟩ j)
        = ∑ t : Fin 10, ∑ r : Fin 5000, KLayer.X (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) ⟨10 * cr.val + t.val, KLayer.core_lt cr t⟩ (ix2 r j))
    (m : ((ℓ : Loc nD τ sig) → Buf (Elt Ideal) ℓ)) (c : Dev nD) (x0 x1 : FVec Ideal S100000x128 .f32) (x2 : FVec Ideal S100000x1 .f32) (x3 x4 : FVec Ideal S128x128 .f32) (x5 x6 : FVec Ideal S1x128 .f32)
    (e0 : W3 m c main_v6 = x0) (e1 : W3 m c main_v24 = x1) (e2 : W3 m c main_v14 = x2) (e3 : W3 m c main_v38 = x3) (e4 : W3 m c main_v40 = x4) (e5 : W3 m c main_v27 = x5) (e6 : W3 m c main_v30 = x6) :
    StatsS x0 x1 x2 x3 x4 x5 x6 (W4 m c main_v41_0) := by
  rw [W4_main_v41_0_eq]
  exact StatsS_congr e0 e1 e2 e3 e4 e5 e6 (statsS_0 (fun c => atTc c (W3 m c)) c)

set_option maxHeartbeats 4000000 in
/-- Region 0's second output in the fold. -/
theorem hQ_0
    (statsQ_0 : ∀ (V : ((c : Dev nD) → (b : Ref sig .tc) → Buf (Elt Ideal) ((c : Thread nD τ).loc b))) (c : Dev nD) (cr : Fin 2) (a : Fin 8) (j : Fin 128),
      (dat0 V c).arrAt 8 cfg0.N (ix2 ⟨8 * cr.val + a.val, KLayer.srow_lt cr a⟩ j)
        = ∑ t : Fin 10, ∑ r : Fin 5000, KLayer.X (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) ⟨10 * cr.val + t.val, KLayer.core_lt cr t⟩ (ix2 r j)
            * KLayer.X (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) ⟨10 * cr.val + t.val, KLayer.core_lt cr t⟩ (ix2 r j))
    (m : ((ℓ : Loc nD τ sig) → Buf (Elt Ideal) ℓ)) (c : Dev nD) (x0 x1 : FVec Ideal S100000x128 .f32) (x2 : FVec Ideal S100000x1 .f32) (x3 x4 : FVec Ideal S128x128 .f32) (x5 x6 : FVec Ideal S1x128 .f32)
    (e0 : W3 m c main_v6 = x0) (e1 : W3 m c main_v24 = x1) (e2 : W3 m c main_v14 = x2) (e3 : W3 m c main_v38 = x3) (e4 : W3 m c main_v40 = x4) (e5 : W3 m c main_v27 = x5) (e6 : W3 m c main_v30 = x6) :
    StatsQ x0 x1 x2 x3 x4 x5 x6 (W4 m c main_v41_1) := by
  rw [W4_main_v41_1_eq]
  exact StatsQ_congr e0 e1 e2 e3 e4 e5 e6 (statsQ_0 (fun c => atTc c (W3 m c)) c)

set_option maxHeartbeats 4000000 in
/-- Region 1's output in the fold. -/
theorem hO_0
    (normO_1 : ∀ (V : ((c : Dev nD) → (b : Ref sig .tc) → Buf (Elt Ideal) ((c : Thread nD τ).loc b))) (c : Dev nD) (t : Fin 20) (r : Fin 5000) (j : Fin 128),
      (dat1 V c).arrAt 11 cfg1.N (ix2 ⟨5000 * t.val + r.val, KLayer.row_lt t r⟩ j)
        = k1_pay1 (F := Ideal)
            (k1_pay2 (F := Ideal) (KLayer.tile (V c (Pipeline.arrRef spec1 0)) t) (KLayer.tile (V c (Pipeline.arrRef spec1 1)) t) (KLayer.tile1 (V c (Pipeline.arrRef spec1 2)) t)
              (V c (Pipeline.arrRef spec1 3)) (V c (Pipeline.arrRef spec1 4)) (V c (Pipeline.arrRef spec1 5)) (V c (Pipeline.arrRef spec1 6)))
            (k1_pay3 (F := Ideal) (V c (Pipeline.arrRef spec1 8))) (k1_pay4 (F := Ideal) (V c (Pipeline.arrRef spec1 7))) (V c (Pipeline.arrRef spec1 9)) (V c (Pipeline.arrRef spec1 10)) (ix2 r j))
    (m : ((ℓ : Loc nD τ sig) → Buf (Elt Ideal) ℓ)) (c : Dev nD) (x0 x1 : FVec Ideal S100000x128 .f32) (x2 : FVec Ideal S100000x1 .f32) (x3 x4 : FVec Ideal S128x128 .f32) (x5 x6 : FVec Ideal S1x128 .f32) (x7 x8 x9 x10 : FVec Ideal S1x128 .f32)
    (e0 : W5 m c main_v6 = x0) (e1 : W5 m c main_v24 = x1) (e2 : W5 m c main_v14 = x2) (e3 : W5 m c main_v61 = x3) (e4 : W5 m c main_v63 = x4) (e5 : W5 m c main_v27 = x5) (e6 : W5 m c main_v30 = x6) (e7 : W5 m c main_v58 = x7) (e8 : W5 m c main_v59 = x8) (e9 : W5 m c main_v33 = x9) (e10 : W5 m c main_v36 = x10) :
    NormO x0 x1 x2 x3 x4 x5 x6 x7 x8 x9 x10 (W6 m c main_v64) := by
  rw [W6_main_v64_eq]
  exact NormO_congr e0 e1 e2 e3 e4 e5 e6 e7 e8 e9 e10 (normO_1 (fun c => atTc c (W5 m c)) c)

set_option maxHeartbeats 4000000 in
/-- Region 2's first output in the fold, over the named arrays its entry holds. -/
theorem hS_1
    (statsS_2 : ∀ (V : ((c : Dev nD) → (b : Ref sig .tc) → Buf (Elt Ideal) ((c : Thread nD τ).loc b))) (c : Dev nD) (cr : Fin 2) (a : Fin 8) (j : Fin 128),
      (dat2 V c).arrAt 7 cfg2.N (ix2 ⟨8 * cr.val + a.val, KLayer.srow_lt cr a⟩ j)
        = ∑ t : Fin 10, ∑ r : Fin 5000, KLayer.X (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) ⟨10 * cr.val + t.val, KLayer.core_lt cr t⟩ (ix2 r j))
    (m : ((ℓ : Loc nD τ sig) → Buf (Elt Ideal) ℓ)) (c : Dev nD) (x0 x1 : FVec Ideal S100000x128 .f32) (x2 : FVec Ideal S100000x1 .f32) (x3 x4 : FVec Ideal S128x128 .f32) (x5 x6 : FVec Ideal S1x128 .f32)
    (e0 : W7 m c main_v64 = x0) (e1 : W7 m c main_v74 = x1) (e2 : W7 m c main_v14 = x2) (e3 : W7 m c main_v88 = x3) (e4 : W7 m c main_v90 = x4) (e5 : W7 m c main_v77 = x5) (e6 : W7 m c main_v80 = x6) :
    StatsS x0 x1 x2 x3 x4 x5 x6 (W8 m c main_v91_0) := by
  rw [W8_main_v91_0_eq]
  exact StatsS_congr e0 e1 e2 e3 e4 e5 e6 (statsS_2 (fun c => atTc c (W7 m c)) c)

set_option maxHeartbeats 4000000 in
/-- Region 2's second output in the fold. -/
theorem hQ_1
    (statsQ_2 : ∀ (V : ((c : Dev nD) → (b : Ref sig .tc) → Buf (Elt Ideal) ((c : Thread nD τ).loc b))) (c : Dev nD) (cr : Fin 2) (a : Fin 8) (j : Fin 128),
      (dat2 V c).arrAt 8 cfg2.N (ix2 ⟨8 * cr.val + a.val, KLayer.srow_lt cr a⟩ j)
        = ∑ t : Fin 10, ∑ r : Fin 5000, KLayer.X (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) ⟨10 * cr.val + t.val, KLayer.core_lt cr t⟩ (ix2 r j)
            * KLayer.X (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) ⟨10 * cr.val + t.val, KLayer.core_lt cr t⟩ (ix2 r j))
    (m : ((ℓ : Loc nD τ sig) → Buf (Elt Ideal) ℓ)) (c : Dev nD) (x0 x1 : FVec Ideal S100000x128 .f32) (x2 : FVec Ideal S100000x1 .f32) (x3 x4 : FVec Ideal S128x128 .f32) (x5 x6 : FVec Ideal S1x128 .f32)
    (e0 : W7 m c main_v64 = x0) (e1 : W7 m c main_v74 = x1) (e2 : W7 m c main_v14 = x2) (e3 : W7 m c main_v88 = x3) (e4 : W7 m c main_v90 = x4) (e5 : W7 m c main_v77 = x5) (e6 : W7 m c main_v80 = x6) :
    StatsQ x0 x1 x2 x3 x4 x5 x6 (W8 m c main_v91_1) := by
  rw [W8_main_v91_1_eq]
  exact StatsQ_congr e0 e1 e2 e3 e4 e5 e6 (statsQ_2 (fun c => atTc c (W7 m c)) c)

set_option maxHeartbeats 4000000 in
/-- Region 3's output in the fold. -/
theorem hO_1
    (normO_3 : ∀ (V : ((c : Dev nD) → (b : Ref sig .tc) → Buf (Elt Ideal) ((c : Thread nD τ).loc b))) (c : Dev nD) (t : Fin 20) (r : Fin 5000) (j : Fin 128),
      (dat3 V c).arrAt 11 cfg3.N (ix2 ⟨5000 * t.val + r.val, KLayer.row_lt t r⟩ j)
        = k3_pay1 (F := Ideal)
            (k3_pay2 (F := Ideal) (KLayer.tile (V c (Pipeline.arrRef spec3 0)) t) (KLayer.tile (V c (Pipeline.arrRef spec3 1)) t) (KLayer.tile1 (V c (Pipeline.arrRef spec3 2)) t)
              (V c (Pipeline.arrRef spec3 3)) (V c (Pipeline.arrRef spec3 4)) (V c (Pipeline.arrRef spec3 5)) (V c (Pipeline.arrRef spec3 6)))
            (k3_pay3 (F := Ideal) (V c (Pipeline.arrRef spec3 8))) (k3_pay4 (F := Ideal) (V c (Pipeline.arrRef spec3 7))) (V c (Pipeline.arrRef spec3 9)) (V c (Pipeline.arrRef spec3 10)) (ix2 r j))
    (m : ((ℓ : Loc nD τ sig) → Buf (Elt Ideal) ℓ)) (c : Dev nD) (x0 x1 : FVec Ideal S100000x128 .f32) (x2 : FVec Ideal S100000x1 .f32) (x3 x4 : FVec Ideal S128x128 .f32) (x5 x6 : FVec Ideal S1x128 .f32) (x7 x8 x9 x10 : FVec Ideal S1x128 .f32)
    (e0 : W9 m c main_v64 = x0) (e1 : W9 m c main_v74 = x1) (e2 : W9 m c main_v14 = x2) (e3 : W9 m c main_v111 = x3) (e4 : W9 m c main_v113 = x4) (e5 : W9 m c main_v77 = x5) (e6 : W9 m c main_v80 = x6) (e7 : W9 m c main_v108 = x7) (e8 : W9 m c main_v109 = x8) (e9 : W9 m c main_v83 = x9) (e10 : W9 m c main_v86 = x10) :
    NormO x0 x1 x2 x3 x4 x5 x6 x7 x8 x9 x10 (W10 m c main_v114) := by
  rw [W10_main_v114_eq]
  exact NormO_congr e0 e1 e2 e3 e4 e5 e6 e7 e8 e9 e10 (normO_3 (fun c => atTc c (W9 m c)) c)

set_option maxHeartbeats 4000000 in
/-- Region 4's first output in the fold, over the named arrays its entry holds. -/
theorem hS_2
    (statsS_4 : ∀ (V : ((c : Dev nD) → (b : Ref sig .tc) → Buf (Elt Ideal) ((c : Thread nD τ).loc b))) (c : Dev nD) (cr : Fin 2) (a : Fin 8) (j : Fin 128),
      (dat4 V c).arrAt 7 cfg4.N (ix2 ⟨8 * cr.val + a.val, KLayer.srow_lt cr a⟩ j)
        = ∑ t : Fin 10, ∑ r : Fin 5000, KLayer.X (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) ⟨10 * cr.val + t.val, KLayer.core_lt cr t⟩ (ix2 r j))
    (m : ((ℓ : Loc nD τ sig) → Buf (Elt Ideal) ℓ)) (c : Dev nD) (x0 x1 : FVec Ideal S100000x128 .f32) (x2 : FVec Ideal S100000x1 .f32) (x3 x4 : FVec Ideal S128x128 .f32) (x5 x6 : FVec Ideal S1x128 .f32)
    (e0 : W11 m c main_v114 = x0) (e1 : W11 m c main_v124 = x1) (e2 : W11 m c main_v14 = x2) (e3 : W11 m c main_v138 = x3) (e4 : W11 m c main_v140 = x4) (e5 : W11 m c main_v127 = x5) (e6 : W11 m c main_v130 = x6) :
    StatsS x0 x1 x2 x3 x4 x5 x6 (W12 m c main_v141_0) := by
  rw [W12_main_v141_0_eq]
  exact StatsS_congr e0 e1 e2 e3 e4 e5 e6 (statsS_4 (fun c => atTc c (W11 m c)) c)

set_option maxHeartbeats 4000000 in
/-- Region 4's second output in the fold. -/
theorem hQ_2
    (statsQ_4 : ∀ (V : ((c : Dev nD) → (b : Ref sig .tc) → Buf (Elt Ideal) ((c : Thread nD τ).loc b))) (c : Dev nD) (cr : Fin 2) (a : Fin 8) (j : Fin 128),
      (dat4 V c).arrAt 8 cfg4.N (ix2 ⟨8 * cr.val + a.val, KLayer.srow_lt cr a⟩ j)
        = ∑ t : Fin 10, ∑ r : Fin 5000, KLayer.X (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) ⟨10 * cr.val + t.val, KLayer.core_lt cr t⟩ (ix2 r j)
            * KLayer.X (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) ⟨10 * cr.val + t.val, KLayer.core_lt cr t⟩ (ix2 r j))
    (m : ((ℓ : Loc nD τ sig) → Buf (Elt Ideal) ℓ)) (c : Dev nD) (x0 x1 : FVec Ideal S100000x128 .f32) (x2 : FVec Ideal S100000x1 .f32) (x3 x4 : FVec Ideal S128x128 .f32) (x5 x6 : FVec Ideal S1x128 .f32)
    (e0 : W11 m c main_v114 = x0) (e1 : W11 m c main_v124 = x1) (e2 : W11 m c main_v14 = x2) (e3 : W11 m c main_v138 = x3) (e4 : W11 m c main_v140 = x4) (e5 : W11 m c main_v127 = x5) (e6 : W11 m c main_v130 = x6) :
    StatsQ x0 x1 x2 x3 x4 x5 x6 (W12 m c main_v141_1) := by
  rw [W12_main_v141_1_eq]
  exact StatsQ_congr e0 e1 e2 e3 e4 e5 e6 (statsQ_4 (fun c => atTc c (W11 m c)) c)

set_option maxHeartbeats 4000000 in
/-- Region 5's output in the fold. -/
theorem hO_2
    (normO_5 : ∀ (V : ((c : Dev nD) → (b : Ref sig .tc) → Buf (Elt Ideal) ((c : Thread nD τ).loc b))) (c : Dev nD) (t : Fin 20) (r : Fin 5000) (j : Fin 128),
      (dat5 V c).arrAt 11 cfg5.N (ix2 ⟨5000 * t.val + r.val, KLayer.row_lt t r⟩ j)
        = k5_pay1 (F := Ideal)
            (k5_pay2 (F := Ideal) (KLayer.tile (V c (Pipeline.arrRef spec5 0)) t) (KLayer.tile (V c (Pipeline.arrRef spec5 1)) t) (KLayer.tile1 (V c (Pipeline.arrRef spec5 2)) t)
              (V c (Pipeline.arrRef spec5 3)) (V c (Pipeline.arrRef spec5 4)) (V c (Pipeline.arrRef spec5 5)) (V c (Pipeline.arrRef spec5 6)))
            (k5_pay3 (F := Ideal) (V c (Pipeline.arrRef spec5 8))) (k5_pay4 (F := Ideal) (V c (Pipeline.arrRef spec5 7))) (V c (Pipeline.arrRef spec5 9)) (V c (Pipeline.arrRef spec5 10)) (ix2 r j))
    (m : ((ℓ : Loc nD τ sig) → Buf (Elt Ideal) ℓ)) (c : Dev nD) (x0 x1 : FVec Ideal S100000x128 .f32) (x2 : FVec Ideal S100000x1 .f32) (x3 x4 : FVec Ideal S128x128 .f32) (x5 x6 : FVec Ideal S1x128 .f32) (x7 x8 x9 x10 : FVec Ideal S1x128 .f32)
    (e0 : W13 m c main_v114 = x0) (e1 : W13 m c main_v124 = x1) (e2 : W13 m c main_v14 = x2) (e3 : W13 m c main_v161 = x3) (e4 : W13 m c main_v163 = x4) (e5 : W13 m c main_v127 = x5) (e6 : W13 m c main_v130 = x6) (e7 : W13 m c main_v158 = x7) (e8 : W13 m c main_v159 = x8) (e9 : W13 m c main_v133 = x9) (e10 : W13 m c main_v136 = x10) :
    NormO x0 x1 x2 x3 x4 x5 x6 x7 x8 x9 x10 (W14 m c main_v164) := by
  rw [W14_main_v164_eq]
  exact NormO_congr e0 e1 e2 e3 e4 e5 e6 e7 e8 e9 e10 (normO_5 (fun c => atTc c (W13 m c)) c)

set_option maxHeartbeats 4000000 in
/-- Region 6's first output in the fold, over the named arrays its entry holds. -/
theorem hS_3
    (statsS_6 : ∀ (V : ((c : Dev nD) → (b : Ref sig .tc) → Buf (Elt Ideal) ((c : Thread nD τ).loc b))) (c : Dev nD) (cr : Fin 2) (a : Fin 8) (j : Fin 128),
      (dat6 V c).arrAt 7 cfg6.N (ix2 ⟨8 * cr.val + a.val, KLayer.srow_lt cr a⟩ j)
        = ∑ t : Fin 10, ∑ r : Fin 5000, KLayer.X (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) ⟨10 * cr.val + t.val, KLayer.core_lt cr t⟩ (ix2 r j))
    (m : ((ℓ : Loc nD τ sig) → Buf (Elt Ideal) ℓ)) (c : Dev nD) (x0 x1 : FVec Ideal S100000x128 .f32) (x2 : FVec Ideal S100000x1 .f32) (x3 x4 : FVec Ideal S128x128 .f32) (x5 x6 : FVec Ideal S1x128 .f32)
    (e0 : W15 m c main_v164 = x0) (e1 : W15 m c main_v174 = x1) (e2 : W15 m c main_v14 = x2) (e3 : W15 m c main_v188 = x3) (e4 : W15 m c main_v190 = x4) (e5 : W15 m c main_v177 = x5) (e6 : W15 m c main_v180 = x6) :
    StatsS x0 x1 x2 x3 x4 x5 x6 (W16 m c main_v191_0) := by
  rw [W16_main_v191_0_eq]
  exact StatsS_congr e0 e1 e2 e3 e4 e5 e6 (statsS_6 (fun c => atTc c (W15 m c)) c)

set_option maxHeartbeats 4000000 in
/-- Region 6's second output in the fold. -/
theorem hQ_3
    (statsQ_6 : ∀ (V : ((c : Dev nD) → (b : Ref sig .tc) → Buf (Elt Ideal) ((c : Thread nD τ).loc b))) (c : Dev nD) (cr : Fin 2) (a : Fin 8) (j : Fin 128),
      (dat6 V c).arrAt 8 cfg6.N (ix2 ⟨8 * cr.val + a.val, KLayer.srow_lt cr a⟩ j)
        = ∑ t : Fin 10, ∑ r : Fin 5000, KLayer.X (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) ⟨10 * cr.val + t.val, KLayer.core_lt cr t⟩ (ix2 r j)
            * KLayer.X (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) ⟨10 * cr.val + t.val, KLayer.core_lt cr t⟩ (ix2 r j))
    (m : ((ℓ : Loc nD τ sig) → Buf (Elt Ideal) ℓ)) (c : Dev nD) (x0 x1 : FVec Ideal S100000x128 .f32) (x2 : FVec Ideal S100000x1 .f32) (x3 x4 : FVec Ideal S128x128 .f32) (x5 x6 : FVec Ideal S1x128 .f32)
    (e0 : W15 m c main_v164 = x0) (e1 : W15 m c main_v174 = x1) (e2 : W15 m c main_v14 = x2) (e3 : W15 m c main_v188 = x3) (e4 : W15 m c main_v190 = x4) (e5 : W15 m c main_v177 = x5) (e6 : W15 m c main_v180 = x6) :
    StatsQ x0 x1 x2 x3 x4 x5 x6 (W16 m c main_v191_1) := by
  rw [W16_main_v191_1_eq]
  exact StatsQ_congr e0 e1 e2 e3 e4 e5 e6 (statsQ_6 (fun c => atTc c (W15 m c)) c)

set_option maxHeartbeats 4000000 in
/-- Region 7's output in the fold. -/
theorem hO_3
    (normO_7 : ∀ (V : ((c : Dev nD) → (b : Ref sig .tc) → Buf (Elt Ideal) ((c : Thread nD τ).loc b))) (c : Dev nD) (t : Fin 20) (r : Fin 5000) (j : Fin 128),
      (dat7 V c).arrAt 11 cfg7.N (ix2 ⟨5000 * t.val + r.val, KLayer.row_lt t r⟩ j)
        = k7_pay1 (F := Ideal)
            (k7_pay2 (F := Ideal) (KLayer.tile (V c (Pipeline.arrRef spec7 0)) t) (KLayer.tile (V c (Pipeline.arrRef spec7 1)) t) (KLayer.tile1 (V c (Pipeline.arrRef spec7 2)) t)
              (V c (Pipeline.arrRef spec7 3)) (V c (Pipeline.arrRef spec7 4)) (V c (Pipeline.arrRef spec7 5)) (V c (Pipeline.arrRef spec7 6)))
            (k7_pay3 (F := Ideal) (V c (Pipeline.arrRef spec7 8))) (k7_pay4 (F := Ideal) (V c (Pipeline.arrRef spec7 7))) (V c (Pipeline.arrRef spec7 9)) (V c (Pipeline.arrRef spec7 10)) (ix2 r j))
    (m : ((ℓ : Loc nD τ sig) → Buf (Elt Ideal) ℓ)) (c : Dev nD) (x0 x1 : FVec Ideal S100000x128 .f32) (x2 : FVec Ideal S100000x1 .f32) (x3 x4 : FVec Ideal S128x128 .f32) (x5 x6 : FVec Ideal S1x128 .f32) (x7 x8 x9 x10 : FVec Ideal S1x128 .f32)
    (e0 : W17 m c main_v164 = x0) (e1 : W17 m c main_v174 = x1) (e2 : W17 m c main_v14 = x2) (e3 : W17 m c main_v211 = x3) (e4 : W17 m c main_v213 = x4) (e5 : W17 m c main_v177 = x5) (e6 : W17 m c main_v180 = x6) (e7 : W17 m c main_v208 = x7) (e8 : W17 m c main_v209 = x8) (e9 : W17 m c main_v183 = x9) (e10 : W17 m c main_v186 = x10) :
    NormO x0 x1 x2 x3 x4 x5 x6 x7 x8 x9 x10 (W18 m c main_v214) := by
  rw [W18_main_v214_eq]
  exact NormO_congr e0 e1 e2 e3 e4 e5 e6 e7 e8 e9 e10 (normO_7 (fun c => atTc c (W17 m c)) c)

/-- **The result.** Under the precondition, the kernel program's result buffer holds the reference's result:
    given the twelve regions' facts at the fold's arrays, the fold's value at the result buffer, and that pooling
    commutes with setting the layers side by side. -/
theorem result_eq [Cert.Pre_finite_inputs.Facts] (m : ((ℓ : Loc nD τ sig) → Buf (Elt Ideal) ℓ)) (c : Dev nD)
    (hS0 : StatsS (KRead.emb0 (F := Ideal) (m ((c : Thread nD τ).loc main_arg0) : (⟨S100000, .i32⟩ : BufTy).Contents (Elt Ideal)) (m ((c : Thread nD τ).loc main_arg4) : (⟨S257x128, .f32⟩ : BufTy).Contents (Elt Ideal))) (KRead.rawAgg (F := Ideal) (KRead.emb0 (F := Ideal) (m ((c : Thread nD τ).loc main_arg0) : (⟨S100000, .i32⟩ : BufTy).Contents (Elt Ideal)) (m ((c : Thread nD τ).loc main_arg4) : (⟨S257x128, .f32⟩ : BufTy).Contents (Elt Ideal))) (m ((c : Thread nD τ).loc main_arg1) : (⟨S1600000, .i32⟩ : BufTy).Contents (Elt Ideal)) (m ((c : Thread nD τ).loc main_arg2) : (⟨S1600000, .i32⟩ : BufTy).Contents (Elt Ideal))) (KRead.invdeg (F := Ideal) (m ((c : Thread nD τ).loc main_arg2) : (⟨S1600000, .i32⟩ : BufTy).Contents (Elt Ideal))) (KRead.mat_0 (F := Ideal) (m ((c : Thread nD τ).loc main_arg5) : (⟨S4x128x128, .f32⟩ : BufTy).Contents (Elt Ideal))) (KRead.mat_0 (F := Ideal) (m ((c : Thread nD τ).loc main_arg6) : (⟨S4x128x128, .f32⟩ : BufTy).Contents (Elt Ideal))) (KRead.row2_0 (F := Ideal) (m ((c : Thread nD τ).loc main_arg7) : (⟨S4x128, .f32⟩ : BufTy).Contents (Elt Ideal))) (KRead.row2_0 (F := Ideal) (m ((c : Thread nD τ).loc main_arg10) : (⟨S4x128, .f32⟩ : BufTy).Contents (Elt Ideal))) (W4 m c main_v41_0))
    (hQ0 : StatsQ (KRead.emb0 (F := Ideal) (m ((c : Thread nD τ).loc main_arg0) : (⟨S100000, .i32⟩ : BufTy).Contents (Elt Ideal)) (m ((c : Thread nD τ).loc main_arg4) : (⟨S257x128, .f32⟩ : BufTy).Contents (Elt Ideal))) (KRead.rawAgg (F := Ideal) (KRead.emb0 (F := Ideal) (m ((c : Thread nD τ).loc main_arg0) : (⟨S100000, .i32⟩ : BufTy).Contents (Elt Ideal)) (m ((c : Thread nD τ).loc main_arg4) : (⟨S257x128, .f32⟩ : BufTy).Contents (Elt Ideal))) (m ((c : Thread nD τ).loc main_arg1) : (⟨S1600000, .i32⟩ : BufTy).Contents (Elt Ideal)) (m ((c : Thread nD τ).loc main_arg2) : (⟨S1600000, .i32⟩ : BufTy).Contents (Elt Ideal))) (KRead.invdeg (F := Ideal) (m ((c : Thread nD τ).loc main_arg2) : (⟨S1600000, .i32⟩ : BufTy).Contents (Elt Ideal))) (KRead.mat_0 (F := Ideal) (m ((c : Thread nD τ).loc main_arg5) : (⟨S4x128x128, .f32⟩ : BufTy).Contents (Elt Ideal))) (KRead.mat_0 (F := Ideal) (m ((c : Thread nD τ).loc main_arg6) : (⟨S4x128x128, .f32⟩ : BufTy).Contents (Elt Ideal))) (KRead.row2_0 (F := Ideal) (m ((c : Thread nD τ).loc main_arg7) : (⟨S4x128, .f32⟩ : BufTy).Contents (Elt Ideal))) (KRead.row2_0 (F := Ideal) (m ((c : Thread nD τ).loc main_arg10) : (⟨S4x128, .f32⟩ : BufTy).Contents (Elt Ideal))) (W4 m c main_v41_1))
    (hO0 : NormO (KRead.emb0 (F := Ideal) (m ((c : Thread nD τ).loc main_arg0) : (⟨S100000, .i32⟩ : BufTy).Contents (Elt Ideal)) (m ((c : Thread nD τ).loc main_arg4) : (⟨S257x128, .f32⟩ : BufTy).Contents (Elt Ideal))) (KRead.rawAgg (F := Ideal) (KRead.emb0 (F := Ideal) (m ((c : Thread nD τ).loc main_arg0) : (⟨S100000, .i32⟩ : BufTy).Contents (Elt Ideal)) (m ((c : Thread nD τ).loc main_arg4) : (⟨S257x128, .f32⟩ : BufTy).Contents (Elt Ideal))) (m ((c : Thread nD τ).loc main_arg1) : (⟨S1600000, .i32⟩ : BufTy).Contents (Elt Ideal)) (m ((c : Thread nD τ).loc main_arg2) : (⟨S1600000, .i32⟩ : BufTy).Contents (Elt Ideal))) (KRead.invdeg (F := Ideal) (m ((c : Thread nD τ).loc main_arg2) : (⟨S1600000, .i32⟩ : BufTy).Contents (Elt Ideal))) (KRead.mat_0 (F := Ideal) (m ((c : Thread nD τ).loc main_arg5) : (⟨S4x128x128, .f32⟩ : BufTy).Contents (Elt Ideal))) (KRead.mat_0 (F := Ideal) (m ((c : Thread nD τ).loc main_arg6) : (⟨S4x128x128, .f32⟩ : BufTy).Contents (Elt Ideal))) (KRead.row2_0 (F := Ideal) (m ((c : Thread nD τ).loc main_arg7) : (⟨S4x128, .f32⟩ : BufTy).Contents (Elt Ideal))) (KRead.row2_0 (F := Ideal) (m ((c : Thread nD τ).loc main_arg10) : (⟨S4x128, .f32⟩ : BufTy).Contents (Elt Ideal)))
      (KRead.meanOf (F := Ideal) (W4 m c main_v41_0)) (KRead.varOf (F := Ideal) (W4 m c main_v41_0) (W4 m c main_v41_1))
      (KRead.row2_0 (F := Ideal) (m ((c : Thread nD τ).loc main_arg8) : (⟨S4x128, .f32⟩ : BufTy).Contents (Elt Ideal))) (KRead.row2_0 (F := Ideal) (m ((c : Thread nD τ).loc main_arg9) : (⟨S4x128, .f32⟩ : BufTy).Contents (Elt Ideal))) (W6 m c main_v64))
    (hS1 : StatsS (W6 m c main_v64) (KRead.rawAgg (F := Ideal) (W6 m c main_v64) (m ((c : Thread nD τ).loc main_arg1) : (⟨S1600000, .i32⟩ : BufTy).Contents (Elt Ideal)) (m ((c : Thread nD τ).loc main_arg2) : (⟨S1600000, .i32⟩ : BufTy).Contents (Elt Ideal))) (KRead.invdeg (F := Ideal) (m ((c : Thread nD τ).loc main_arg2) : (⟨S1600000, .i32⟩ : BufTy).Contents (Elt Ideal))) (KRead.mat_1 (F := Ideal) (m ((c : Thread nD τ).loc main_arg5) : (⟨S4x128x128, .f32⟩ : BufTy).Contents (Elt Ideal))) (KRead.mat_1 (F := Ideal) (m ((c : Thread nD τ).loc main_arg6) : (⟨S4x128x128, .f32⟩ : BufTy).Contents (Elt Ideal))) (KRead.row2_1 (F := Ideal) (m ((c : Thread nD τ).loc main_arg7) : (⟨S4x128, .f32⟩ : BufTy).Contents (Elt Ideal))) (KRead.row2_1 (F := Ideal) (m ((c : Thread nD τ).loc main_arg10) : (⟨S4x128, .f32⟩ : BufTy).Contents (Elt Ideal))) (W8 m c main_v91_0))
    (hQ1 : StatsQ (W6 m c main_v64) (KRead.rawAgg (F := Ideal) (W6 m c main_v64) (m ((c : Thread nD τ).loc main_arg1) : (⟨S1600000, .i32⟩ : BufTy).Contents (Elt Ideal)) (m ((c : Thread nD τ).loc main_arg2) : (⟨S1600000, .i32⟩ : BufTy).Contents (Elt Ideal))) (KRead.invdeg (F := Ideal) (m ((c : Thread nD τ).loc main_arg2) : (⟨S1600000, .i32⟩ : BufTy).Contents (Elt Ideal))) (KRead.mat_1 (F := Ideal) (m ((c : Thread nD τ).loc main_arg5) : (⟨S4x128x128, .f32⟩ : BufTy).Contents (Elt Ideal))) (KRead.mat_1 (F := Ideal) (m ((c : Thread nD τ).loc main_arg6) : (⟨S4x128x128, .f32⟩ : BufTy).Contents (Elt Ideal))) (KRead.row2_1 (F := Ideal) (m ((c : Thread nD τ).loc main_arg7) : (⟨S4x128, .f32⟩ : BufTy).Contents (Elt Ideal))) (KRead.row2_1 (F := Ideal) (m ((c : Thread nD τ).loc main_arg10) : (⟨S4x128, .f32⟩ : BufTy).Contents (Elt Ideal))) (W8 m c main_v91_1))
    (hO1 : NormO (W6 m c main_v64) (KRead.rawAgg (F := Ideal) (W6 m c main_v64) (m ((c : Thread nD τ).loc main_arg1) : (⟨S1600000, .i32⟩ : BufTy).Contents (Elt Ideal)) (m ((c : Thread nD τ).loc main_arg2) : (⟨S1600000, .i32⟩ : BufTy).Contents (Elt Ideal))) (KRead.invdeg (F := Ideal) (m ((c : Thread nD τ).loc main_arg2) : (⟨S1600000, .i32⟩ : BufTy).Contents (Elt Ideal))) (KRead.mat_1 (F := Ideal) (m ((c : Thread nD τ).loc main_arg5) : (⟨S4x128x128, .f32⟩ : BufTy).Contents (Elt Ideal))) (KRead.mat_1 (F := Ideal) (m ((c : Thread nD τ).loc main_arg6) : (⟨S4x128x128, .f32⟩ : BufTy).Contents (Elt Ideal))) (KRead.row2_1 (F := Ideal) (m ((c : Thread nD τ).loc main_arg7) : (⟨S4x128, .f32⟩ : BufTy).Contents (Elt Ideal))) (KRead.row2_1 (F := Ideal) (m ((c : Thread nD τ).loc main_arg10) : (⟨S4x128, .f32⟩ : BufTy).Contents (Elt Ideal)))
      (KRead.meanOf (F := Ideal) (W8 m c main_v91_0)) (KRead.varOf (F := Ideal) (W8 m c main_v91_0) (W8 m c main_v91_1))
      (KRead.row2_1 (F := Ideal) (m ((c : Thread nD τ).loc main_arg8) : (⟨S4x128, .f32⟩ : BufTy).Contents (Elt Ideal))) (KRead.row2_1 (F := Ideal) (m ((c : Thread nD τ).loc main_arg9) : (⟨S4x128, .f32⟩ : BufTy).Contents (Elt Ideal))) (W10 m c main_v114))
    (hS2 : StatsS (W10 m c main_v114) (KRead.rawAgg (F := Ideal) (W10 m c main_v114) (m ((c : Thread nD τ).loc main_arg1) : (⟨S1600000, .i32⟩ : BufTy).Contents (Elt Ideal)) (m ((c : Thread nD τ).loc main_arg2) : (⟨S1600000, .i32⟩ : BufTy).Contents (Elt Ideal))) (KRead.invdeg (F := Ideal) (m ((c : Thread nD τ).loc main_arg2) : (⟨S1600000, .i32⟩ : BufTy).Contents (Elt Ideal))) (KRead.mat_2 (F := Ideal) (m ((c : Thread nD τ).loc main_arg5) : (⟨S4x128x128, .f32⟩ : BufTy).Contents (Elt Ideal))) (KRead.mat_2 (F := Ideal) (m ((c : Thread nD τ).loc main_arg6) : (⟨S4x128x128, .f32⟩ : BufTy).Contents (Elt Ideal))) (KRead.row2_2 (F := Ideal) (m ((c : Thread nD τ).loc main_arg7) : (⟨S4x128, .f32⟩ : BufTy).Contents (Elt Ideal))) (KRead.row2_2 (F := Ideal) (m ((c : Thread nD τ).loc main_arg10) : (⟨S4x128, .f32⟩ : BufTy).Contents (Elt Ideal))) (W12 m c main_v141_0))
    (hQ2 : StatsQ (W10 m c main_v114) (KRead.rawAgg (F := Ideal) (W10 m c main_v114) (m ((c : Thread nD τ).loc main_arg1) : (⟨S1600000, .i32⟩ : BufTy).Contents (Elt Ideal)) (m ((c : Thread nD τ).loc main_arg2) : (⟨S1600000, .i32⟩ : BufTy).Contents (Elt Ideal))) (KRead.invdeg (F := Ideal) (m ((c : Thread nD τ).loc main_arg2) : (⟨S1600000, .i32⟩ : BufTy).Contents (Elt Ideal))) (KRead.mat_2 (F := Ideal) (m ((c : Thread nD τ).loc main_arg5) : (⟨S4x128x128, .f32⟩ : BufTy).Contents (Elt Ideal))) (KRead.mat_2 (F := Ideal) (m ((c : Thread nD τ).loc main_arg6) : (⟨S4x128x128, .f32⟩ : BufTy).Contents (Elt Ideal))) (KRead.row2_2 (F := Ideal) (m ((c : Thread nD τ).loc main_arg7) : (⟨S4x128, .f32⟩ : BufTy).Contents (Elt Ideal))) (KRead.row2_2 (F := Ideal) (m ((c : Thread nD τ).loc main_arg10) : (⟨S4x128, .f32⟩ : BufTy).Contents (Elt Ideal))) (W12 m c main_v141_1))
    (hO2 : NormO (W10 m c main_v114) (KRead.rawAgg (F := Ideal) (W10 m c main_v114) (m ((c : Thread nD τ).loc main_arg1) : (⟨S1600000, .i32⟩ : BufTy).Contents (Elt Ideal)) (m ((c : Thread nD τ).loc main_arg2) : (⟨S1600000, .i32⟩ : BufTy).Contents (Elt Ideal))) (KRead.invdeg (F := Ideal) (m ((c : Thread nD τ).loc main_arg2) : (⟨S1600000, .i32⟩ : BufTy).Contents (Elt Ideal))) (KRead.mat_2 (F := Ideal) (m ((c : Thread nD τ).loc main_arg5) : (⟨S4x128x128, .f32⟩ : BufTy).Contents (Elt Ideal))) (KRead.mat_2 (F := Ideal) (m ((c : Thread nD τ).loc main_arg6) : (⟨S4x128x128, .f32⟩ : BufTy).Contents (Elt Ideal))) (KRead.row2_2 (F := Ideal) (m ((c : Thread nD τ).loc main_arg7) : (⟨S4x128, .f32⟩ : BufTy).Contents (Elt Ideal))) (KRead.row2_2 (F := Ideal) (m ((c : Thread nD τ).loc main_arg10) : (⟨S4x128, .f32⟩ : BufTy).Contents (Elt Ideal)))
      (KRead.meanOf (F := Ideal) (W12 m c main_v141_0)) (KRead.varOf (F := Ideal) (W12 m c main_v141_0) (W12 m c main_v141_1))
      (KRead.row2_2 (F := Ideal) (m ((c : Thread nD τ).loc main_arg8) : (⟨S4x128, .f32⟩ : BufTy).Contents (Elt Ideal))) (KRead.row2_2 (F := Ideal) (m ((c : Thread nD τ).loc main_arg9) : (⟨S4x128, .f32⟩ : BufTy).Contents (Elt Ideal))) (W14 m c main_v164))
    (hS3 : StatsS (W14 m c main_v164) (KRead.rawAgg (F := Ideal) (W14 m c main_v164) (m ((c : Thread nD τ).loc main_arg1) : (⟨S1600000, .i32⟩ : BufTy).Contents (Elt Ideal)) (m ((c : Thread nD τ).loc main_arg2) : (⟨S1600000, .i32⟩ : BufTy).Contents (Elt Ideal))) (KRead.invdeg (F := Ideal) (m ((c : Thread nD τ).loc main_arg2) : (⟨S1600000, .i32⟩ : BufTy).Contents (Elt Ideal))) (KRead.mat_3 (F := Ideal) (m ((c : Thread nD τ).loc main_arg5) : (⟨S4x128x128, .f32⟩ : BufTy).Contents (Elt Ideal))) (KRead.mat_3 (F := Ideal) (m ((c : Thread nD τ).loc main_arg6) : (⟨S4x128x128, .f32⟩ : BufTy).Contents (Elt Ideal))) (KRead.row2_3 (F := Ideal) (m ((c : Thread nD τ).loc main_arg7) : (⟨S4x128, .f32⟩ : BufTy).Contents (Elt Ideal))) (KRead.row2_3 (F := Ideal) (m ((c : Thread nD τ).loc main_arg10) : (⟨S4x128, .f32⟩ : BufTy).Contents (Elt Ideal))) (W16 m c main_v191_0))
    (hQ3 : StatsQ (W14 m c main_v164) (KRead.rawAgg (F := Ideal) (W14 m c main_v164) (m ((c : Thread nD τ).loc main_arg1) : (⟨S1600000, .i32⟩ : BufTy).Contents (Elt Ideal)) (m ((c : Thread nD τ).loc main_arg2) : (⟨S1600000, .i32⟩ : BufTy).Contents (Elt Ideal))) (KRead.invdeg (F := Ideal) (m ((c : Thread nD τ).loc main_arg2) : (⟨S1600000, .i32⟩ : BufTy).Contents (Elt Ideal))) (KRead.mat_3 (F := Ideal) (m ((c : Thread nD τ).loc main_arg5) : (⟨S4x128x128, .f32⟩ : BufTy).Contents (Elt Ideal))) (KRead.mat_3 (F := Ideal) (m ((c : Thread nD τ).loc main_arg6) : (⟨S4x128x128, .f32⟩ : BufTy).Contents (Elt Ideal))) (KRead.row2_3 (F := Ideal) (m ((c : Thread nD τ).loc main_arg7) : (⟨S4x128, .f32⟩ : BufTy).Contents (Elt Ideal))) (KRead.row2_3 (F := Ideal) (m ((c : Thread nD τ).loc main_arg10) : (⟨S4x128, .f32⟩ : BufTy).Contents (Elt Ideal))) (W16 m c main_v191_1))
    (hO3 : NormO (W14 m c main_v164) (KRead.rawAgg (F := Ideal) (W14 m c main_v164) (m ((c : Thread nD τ).loc main_arg1) : (⟨S1600000, .i32⟩ : BufTy).Contents (Elt Ideal)) (m ((c : Thread nD τ).loc main_arg2) : (⟨S1600000, .i32⟩ : BufTy).Contents (Elt Ideal))) (KRead.invdeg (F := Ideal) (m ((c : Thread nD τ).loc main_arg2) : (⟨S1600000, .i32⟩ : BufTy).Contents (Elt Ideal))) (KRead.mat_3 (F := Ideal) (m ((c : Thread nD τ).loc main_arg5) : (⟨S4x128x128, .f32⟩ : BufTy).Contents (Elt Ideal))) (KRead.mat_3 (F := Ideal) (m ((c : Thread nD τ).loc main_arg6) : (⟨S4x128x128, .f32⟩ : BufTy).Contents (Elt Ideal))) (KRead.row2_3 (F := Ideal) (m ((c : Thread nD τ).loc main_arg7) : (⟨S4x128, .f32⟩ : BufTy).Contents (Elt Ideal))) (KRead.row2_3 (F := Ideal) (m ((c : Thread nD τ).loc main_arg10) : (⟨S4x128, .f32⟩ : BufTy).Contents (Elt Ideal)))
      (KRead.meanOf (F := Ideal) (W16 m c main_v191_0)) (KRead.varOf (F := Ideal) (W16 m c main_v191_0) (W16 m c main_v191_1))
      (KRead.row2_3 (F := Ideal) (m ((c : Thread nD τ).loc main_arg8) : (⟨S4x128, .f32⟩ : BufTy).Contents (Elt Ideal))) (KRead.row2_3 (F := Ideal) (m ((c : Thread nD τ).loc main_arg9) : (⟨S4x128, .f32⟩ : BufTy).Contents (Elt Ideal))) (W18 m c main_v214))
    (hend : V21 m (outs m) c main_v244
      = KRead.result (F := Ideal) (KRead.poolOne (F := Ideal) (W6 m c main_v64) (m ((c : Thread nD τ).loc main_arg3) : (⟨S100000, .i32⟩ : BufTy).Contents (Elt Ideal))) (KRead.poolOne (F := Ideal) (W10 m c main_v114) (m ((c : Thread nD τ).loc main_arg3) : (⟨S100000, .i32⟩ : BufTy).Contents (Elt Ideal)))
          (KRead.poolOne (F := Ideal) (W14 m c main_v164) (m ((c : Thread nD τ).loc main_arg3) : (⟨S100000, .i32⟩ : BufTy).Contents (Elt Ideal))) (KRead.poolOne (F := Ideal) (W18 m c main_v214) (m ((c : Thread nD τ).loc main_arg3) : (⟨S100000, .i32⟩ : BufTy).Contents (Elt Ideal))))
    (hpool : ∀ (a3 : IVec S100000 32) (h1 h2 h3 h4 : FVec Ideal S100000x128 .f32),
      KRead.result (F := Ideal) (KRead.poolOne (F := Ideal) h1 a3) (KRead.poolOne (F := Ideal) h2 a3)
          (KRead.poolOne (F := Ideal) h3 a3) (KRead.poolOne (F := Ideal) h4 a3)
        = ReferenceIdeal.Run.pooled (F := Ideal) h1 h2 h3 h4 a3)
    (hpre : Cert.Pre_finite_inputs.fn (F := Ideal) (m ((c : Thread nD τ).loc main_arg0) : (⟨S100000, .i32⟩ : BufTy).Contents (Elt Ideal)) (m ((c : Thread nD τ).loc main_arg1) : (⟨S1600000, .i32⟩ : BufTy).Contents (Elt Ideal)) (m ((c : Thread nD τ).loc main_arg2) : (⟨S1600000, .i32⟩ : BufTy).Contents (Elt Ideal)) (m ((c : Thread nD τ).loc main_arg3) : (⟨S100000, .i32⟩ : BufTy).Contents (Elt Ideal)) (m ((c : Thread nD τ).loc main_arg4) : (⟨S257x128, .f32⟩ : BufTy).Contents (Elt Ideal)) (m ((c : Thread nD τ).loc main_arg5) : (⟨S4x128x128, .f32⟩ : BufTy).Contents (Elt Ideal)) (m ((c : Thread nD τ).loc main_arg6) : (⟨S4x128x128, .f32⟩ : BufTy).Contents (Elt Ideal)) (m ((c : Thread nD τ).loc main_arg7) : (⟨S4x128, .f32⟩ : BufTy).Contents (Elt Ideal)) (m ((c : Thread nD τ).loc main_arg8) : (⟨S4x128, .f32⟩ : BufTy).Contents (Elt Ideal)) (m ((c : Thread nD τ).loc main_arg9) : (⟨S4x128, .f32⟩ : BufTy).Contents (Elt Ideal)) (m ((c : Thread nD τ).loc main_arg10) : (⟨S4x128, .f32⟩ : BufTy).Contents (Elt Ideal)) = fun _ => 1#1) :
    V21 m (outs m) c main_v244
      = ReferenceIdeal.Run.out (F := Ideal) (m ((c : Thread nD τ).loc main_arg0) : (⟨S100000, .i32⟩ : BufTy).Contents (Elt Ideal)) (m ((c : Thread nD τ).loc main_arg1) : (⟨S1600000, .i32⟩ : BufTy).Contents (Elt Ideal)) (m ((c : Thread nD τ).loc main_arg2) : (⟨S1600000, .i32⟩ : BufTy).Contents (Elt Ideal)) (m ((c : Thread nD τ).loc main_arg3) : (⟨S100000, .i32⟩ : BufTy).Contents (Elt Ideal)) (m ((c : Thread nD τ).loc main_arg4) : (⟨S257x128, .f32⟩ : BufTy).Contents (Elt Ideal)) (m ((c : Thread nD τ).loc main_arg5) : (⟨S4x128x128, .f32⟩ : BufTy).Contents (Elt Ideal)) (m ((c : Thread nD τ).loc main_arg6) : (⟨S4x128x128, .f32⟩ : BufTy).Contents (Elt Ideal)) (m ((c : Thread nD τ).loc main_arg7) : (⟨S4x128, .f32⟩ : BufTy).Contents (Elt Ideal)) (m ((c : Thread nD τ).loc main_arg8) : (⟨S4x128, .f32⟩ : BufTy).Contents (Elt Ideal)) (m ((c : Thread nD τ).loc main_arg9) : (⟨S4x128, .f32⟩ : BufTy).Contents (Elt Ideal)) (m ((c : Thread nD τ).loc main_arg10) : (⟨S4x128, .f32⟩ : BufTy).Contents (Elt Ideal)) := by
  obtain ⟨f4, f5, f6, f7, f8, f9, f10⟩ := HostFacts.finite_of_pre _ _ _ _ _ _ _ _ _ _ _ hpre
  rw [hend]
  exact result_arrays _ _ _ _ _ _ _ _ _ _ _ _ _ _ _ _ _ _ _ _ _ _ _ f4 f5 f6 f7 f8 f9 f10
    hS0 hQ0 hO0 hS1 hQ1 hO1 hS2 hQ2 hO2 hS3 hQ3 hO3 (hpool _)

end State

end Cert.Final

end
-- ==== Proof.KI.KReadKeep.lean ====
/-
  What each item of the program leaves unchanged, over the fold of the buffers' contents: a host stretch changes only
  the buffers its operations write, a kernel region only its output arrays. Hence the eleven argument arrays hold
  their launch contents at every boundary, and a layer's node features, once written, stay to the end.
-/
import proofs.«129379_j32899449487582_2_alg».proof.Proof.KI.Fold
import Idealize.ShloMosaic.Lib.StableHlo.Run

set_option maxRecDepth 16384

noncomputable section

namespace Cert.KernelIdeal.KRead

open Cert.KernelIdeal Cert.KernelIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-! ## One item -/

/-- Region 0 changes only its output arrays. -/
theorem W4_of (c : Dev nD) (r : Ref sig .tc) (h : r ∉ ([main_v41_0, main_v41_1] : List (Ref sig .tc))) : W4 m c r = W3 m c r := by
  rw [← V4_eq]; exact V4_of m (outs m) c r h
/-- The host stretch `hostOps1` changes only the buffers its operations write. -/
theorem W5_of (c : Dev nD) (r : Ref sig .tc) (h : r ∉ hostOps1_W) : W5 m c r = W4 m c r :=
  after_of_writes_sub hostOps1 _ hostOps1_writes h
/-- Region 1 changes only its output array. -/
theorem W6_of (c : Dev nD) (r : Ref sig .tc) (h : r ∉ ([main_v64] : List (Ref sig .tc))) : W6 m c r = W5 m c r := by
  rw [← V6_eq, ← V5_eq]; exact V6_of m (outs m) c r h
/-- The host stretch `hostOps2` changes only the buffers its operations write. -/
theorem W7_of (c : Dev nD) (r : Ref sig .tc) (h : r ∉ hostOps2_W) : W7 m c r = W6 m c r :=
  after_of_writes_sub hostOps2 _ hostOps2_writes h
/-- Region 2 changes only its output arrays. -/
theorem W8_of (c : Dev nD) (r : Ref sig .tc) (h : r ∉ ([main_v91_0, main_v91_1] : List (Ref sig .tc))) : W8 m c r = W7 m c r := by
  rw [← V8_eq, ← V7_eq]; exact V8_of m (outs m) c r h
/-- The host stretch `hostOps3` changes only the buffers its operations write. -/
theorem W9_of (c : Dev nD) (r : Ref sig .tc) (h : r ∉ hostOps3_W) : W9 m c r = W8 m c r :=
  after_of_writes_sub hostOps3 _ hostOps3_writes h
/-- Region 3 changes only its output array. -/
theorem W10_of (c : Dev nD) (r : Ref sig .tc) (h : r ∉ ([main_v114] : List (Ref sig .tc))) : W10 m c r = W9 m c r := by
  rw [← V10_eq, ← V9_eq]; exact V10_of m (outs m) c r h
/-- The host stretch `hostOps4` changes only the buffers its operations write. -/
theorem W11_of (c : Dev nD) (r : Ref sig .tc) (h : r ∉ hostOps4_W) : W11 m c r = W10 m c r :=
  after_of_writes_sub hostOps4 _ hostOps4_writes h
/-- Region 4 changes only its output arrays. -/
theorem W12_of (c : Dev nD) (r : Ref sig .tc) (h : r ∉ ([main_v141_0, main_v141_1] : List (Ref sig .tc))) : W12 m c r = W11 m c r := by
  rw [← V12_eq, ← V11_eq]; exact V12_of m (outs m) c r h
/-- The host stretch `hostOps5` changes only the buffers its operations write. -/
theorem W13_of (c : Dev nD) (r : Ref sig .tc) (h : r ∉ hostOps5_W) : W13 m c r = W12 m c r :=
  after_of_writes_sub hostOps5 _ hostOps5_writes h
/-- Region 5 changes only its output array. -/
theorem W14_of (c : Dev nD) (r : Ref sig .tc) (h : r ∉ ([main_v164] : List (Ref sig .tc))) : W14 m c r = W13 m c r := by
  rw [← V14_eq, ← V13_eq]; exact V14_of m (outs m) c r h
/-- The host stretch `hostOps6` changes only the buffers its operations write. -/
theorem W15_of (c : Dev nD) (r : Ref sig .tc) (h : r ∉ hostOps6_W) : W15 m c r = W14 m c r :=
  after_of_writes_sub hostOps6 _ hostOps6_writes h
/-- Region 6 changes only its output arrays. -/
theorem W16_of (c : Dev nD) (r : Ref sig .tc) (h : r ∉ ([main_v191_0, main_v191_1] : List (Ref sig .tc))) : W16 m c r = W15 m c r := by
  rw [← V16_eq, ← V15_eq]; exact V16_of m (outs m) c r h
/-- The host stretch `hostOps7` changes only the buffers its operations write. -/
theorem W17_of (c : Dev nD) (r : Ref sig .tc) (h : r ∉ hostOps7_W) : W17 m c r = W16 m c r :=
  after_of_writes_sub hostOps7 _ hostOps7_writes h
/-- Region 7 changes only its output array. -/
theorem W18_of (c : Dev nD) (r : Ref sig .tc) (h : r ∉ ([main_v214] : List (Ref sig .tc))) : W18 m c r = W17 m c r := by
  rw [← V18_eq, ← V17_eq]; exact V18_of m (outs m) c r h

/-! ## The arguments -/

/-- The program's eleven argument arrays. -/
abbrev argRefs : List (Ref sig .tc) := [main_arg0, main_arg1, main_arg2, main_arg3, main_arg4, main_arg5, main_arg6, main_arg7, main_arg8, main_arg9, main_arg10]

/-! No host stretch writes an argument, and no region's output array is one. -/
theorem arg_not_in_hostOps0_W : ∀ r ∈ argRefs, r ∉ hostOps0_W := by decide
theorem arg_not_in_hostOps0_1_W : ∀ r ∈ argRefs, r ∉ hostOps0_1_W := by decide
theorem arg_not_in_hostOps0_2_W : ∀ r ∈ argRefs, r ∉ hostOps0_2_W := by decide
theorem arg_not_in_hostOps1_W : ∀ r ∈ argRefs, r ∉ hostOps1_W := by decide
theorem arg_not_in_hostOps2_W : ∀ r ∈ argRefs, r ∉ hostOps2_W := by decide
theorem arg_not_in_hostOps3_W : ∀ r ∈ argRefs, r ∉ hostOps3_W := by decide
theorem arg_not_in_hostOps4_W : ∀ r ∈ argRefs, r ∉ hostOps4_W := by decide
theorem arg_not_in_hostOps5_W : ∀ r ∈ argRefs, r ∉ hostOps5_W := by decide
theorem arg_not_in_hostOps6_W : ∀ r ∈ argRefs, r ∉ hostOps6_W := by decide
theorem arg_not_in_hostOps7_W : ∀ r ∈ argRefs, r ∉ hostOps7_W := by decide
theorem arg_not_in_hostOps8_W : ∀ r ∈ argRefs, r ∉ hostOps8_W := by decide
theorem arg_not_in_hostOps8_1_W : ∀ r ∈ argRefs, r ∉ hostOps8_1_W := by decide
theorem arg_not_in_hostOps8_2_W : ∀ r ∈ argRefs, r ∉ hostOps8_2_W := by decide
theorem arg_not_out4 : ∀ r ∈ argRefs, r ∉ ([main_v41_0, main_v41_1] : List (Ref sig .tc)) := by decide
theorem arg_not_out6 : ∀ r ∈ argRefs, r ∉ ([main_v64] : List (Ref sig .tc)) := by decide
theorem arg_not_out8 : ∀ r ∈ argRefs, r ∉ ([main_v91_0, main_v91_1] : List (Ref sig .tc)) := by decide
theorem arg_not_out10 : ∀ r ∈ argRefs, r ∉ ([main_v114] : List (Ref sig .tc)) := by decide
theorem arg_not_out12 : ∀ r ∈ argRefs, r ∉ ([main_v141_0, main_v141_1] : List (Ref sig .tc)) := by decide
theorem arg_not_out14 : ∀ r ∈ argRefs, r ∉ ([main_v164] : List (Ref sig .tc)) := by decide
theorem arg_not_out16 : ∀ r ∈ argRefs, r ∉ ([main_v191_0, main_v191_1] : List (Ref sig .tc)) := by decide
theorem arg_not_out18 : ∀ r ∈ argRefs, r ∉ ([main_v214] : List (Ref sig .tc)) := by decide

/-- An argument array holds its launch contents at region 0's entry. -/
theorem W3_arg (c : Dev nD) (r : Ref sig .tc) (h : r ∈ argRefs) : W3 m c r = m ((c : Thread nD τ).loc r) :=
  (V3_of m c r (arg_not_in_hostOps0_2_W r h)).trans <| (V2_of m c r (arg_not_in_hostOps0_1_W r h)).trans <| V1_of m c r (arg_not_in_hostOps0_W r h)
/-- An argument array holds its launch contents after region 0. -/
theorem W4_arg (c : Dev nD) (r : Ref sig .tc) (h : r ∈ argRefs) : W4 m c r = m ((c : Thread nD τ).loc r) :=
  (W4_of m c r (arg_not_out4 r h)).trans (W3_arg m c r h)
/-- An argument array holds its launch contents at region 1's entry. -/
theorem W5_arg (c : Dev nD) (r : Ref sig .tc) (h : r ∈ argRefs) : W5 m c r = m ((c : Thread nD τ).loc r) :=
  (W5_of m c r (arg_not_in_hostOps1_W r h)).trans (W4_arg m c r h)
/-- An argument array holds its launch contents after region 1. -/
theorem W6_arg (c : Dev nD) (r : Ref sig .tc) (h : r ∈ argRefs) : W6 m c r = m ((c : Thread nD τ).loc r) :=
  (W6_of m c r (arg_not_out6 r h)).trans (W5_arg m c r h)
/-- An argument array holds its launch contents at region 2's entry. -/
theorem W7_arg (c : Dev nD) (r : Ref sig .tc) (h : r ∈ argRefs) : W7 m c r = m ((c : Thread nD τ).loc r) :=
  (W7_of m c r (arg_not_in_hostOps2_W r h)).trans (W6_arg m c r h)
/-- An argument array holds its launch contents after region 2. -/
theorem W8_arg (c : Dev nD) (r : Ref sig .tc) (h : r ∈ argRefs) : W8 m c r = m ((c : Thread nD τ).loc r) :=
  (W8_of m c r (arg_not_out8 r h)).trans (W7_arg m c r h)
/-- An argument array holds its launch contents at region 3's entry. -/
theorem W9_arg (c : Dev nD) (r : Ref sig .tc) (h : r ∈ argRefs) : W9 m c r = m ((c : Thread nD τ).loc r) :=
  (W9_of m c r (arg_not_in_hostOps3_W r h)).trans (W8_arg m c r h)
/-- An argument array holds its launch contents after region 3. -/
theorem W10_arg (c : Dev nD) (r : Ref sig .tc) (h : r ∈ argRefs) : W10 m c r = m ((c : Thread nD τ).loc r) :=
  (W10_of m c r (arg_not_out10 r h)).trans (W9_arg m c r h)
/-- An argument array holds its launch contents at region 4's entry. -/
theorem W11_arg (c : Dev nD) (r : Ref sig .tc) (h : r ∈ argRefs) : W11 m c r = m ((c : Thread nD τ).loc r) :=
  (W11_of m c r (arg_not_in_hostOps4_W r h)).trans (W10_arg m c r h)
/-- An argument array holds its launch contents after region 4. -/
theorem W12_arg (c : Dev nD) (r : Ref sig .tc) (h : r ∈ argRefs) : W12 m c r = m ((c : Thread nD τ).loc r) :=
  (W12_of m c r (arg_not_out12 r h)).trans (W11_arg m c r h)
/-- An argument array holds its launch contents at region 5's entry. -/
theorem W13_arg (c : Dev nD) (r : Ref sig .tc) (h : r ∈ argRefs) : W13 m c r = m ((c : Thread nD τ).loc r) :=
  (W13_of m c r (arg_not_in_hostOps5_W r h)).trans (W12_arg m c r h)
/-- An argument array holds its launch contents after region 5. -/
theorem W14_arg (c : Dev nD) (r : Ref sig .tc) (h : r ∈ argRefs) : W14 m c r = m ((c : Thread nD τ).loc r) :=
  (W14_of m c r (arg_not_out14 r h)).trans (W13_arg m c r h)
/-- An argument array holds its launch contents at region 6's entry. -/
theorem W15_arg (c : Dev nD) (r : Ref sig .tc) (h : r ∈ argRefs) : W15 m c r = m ((c : Thread nD τ).loc r) :=
  (W15_of m c r (arg_not_in_hostOps6_W r h)).trans (W14_arg m c r h)
/-- An argument array holds its launch contents after region 6. -/
theorem W16_arg (c : Dev nD) (r : Ref sig .tc) (h : r ∈ argRefs) : W16 m c r = m ((c : Thread nD τ).loc r) :=
  (W16_of m c r (arg_not_out16 r h)).trans (W15_arg m c r h)
/-- An argument array holds its launch contents at region 7's entry. -/
theorem W17_arg (c : Dev nD) (r : Ref sig .tc) (h : r ∈ argRefs) : W17 m c r = m ((c : Thread nD τ).loc r) :=
  (W17_of m c r (arg_not_in_hostOps7_W r h)).trans (W16_arg m c r h)
/-- An argument array holds its launch contents after region 7. -/
theorem W18_arg (c : Dev nD) (r : Ref sig .tc) (h : r ∈ argRefs) : W18 m c r = m ((c : Thread nD τ).loc r) :=
  (W18_of m c r (arg_not_out18 r h)).trans (W17_arg m c r h)

/-! ## A layer's node features stay -/

/-- Layer 0's node features (region 1's output array) are not written after region 1. -/
theorem W18_main_v64 (c : Dev nD) : W18 m c main_v64 = W6 m c main_v64 :=
  (W18_of m c main_v64 (by decide)).trans <| (W17_of m c main_v64 (by decide)).trans <| (W16_of m c main_v64 (by decide)).trans <| (W15_of m c main_v64 (by decide)).trans <| (W14_of m c main_v64 (by decide)).trans <| (W13_of m c main_v64 (by decide)).trans <| (W12_of m c main_v64 (by decide)).trans <| (W11_of m c main_v64 (by decide)).trans <| (W10_of m c main_v64 (by decide)).trans <| (W9_of m c main_v64 (by decide)).trans <| (W8_of m c main_v64 (by decide)).trans <| (W7_of m c main_v64 (by decide))
/-- Layer 1's node features (region 3's output array) are not written after region 3. -/
theorem W18_main_v114 (c : Dev nD) : W18 m c main_v114 = W10 m c main_v114 :=
  (W18_of m c main_v114 (by decide)).trans <| (W17_of m c main_v114 (by decide)).trans <| (W16_of m c main_v114 (by decide)).trans <| (W15_of m c main_v114 (by decide)).trans <| (W14_of m c main_v114 (by decide)).trans <| (W13_of m c main_v114 (by decide)).trans <| (W12_of m c main_v114 (by decide)).trans <| (W11_of m c main_v114 (by decide))
/-- Layer 2's node features (region 5's output array) are not written after region 5. -/
theorem W18_main_v164 (c : Dev nD) : W18 m c main_v164 = W14 m c main_v164 :=
  (W18_of m c main_v164 (by decide)).trans <| (W17_of m c main_v164 (by decide)).trans <| (W16_of m c main_v164 (by decide)).trans <| (W15_of m c main_v164 (by decide))

end Cert.KernelIdeal.KRead

end
-- ==== Proof.KI.KRead0.lean ====
/-
  The fold's values at the buffers layer 0's two kernels read.

  Before region 0 the host computes (three stretches, the middle one the clip's lines) the gathered embedding
  `emb0 a0 a4`, the sum over incoming edges `rawAgg (emb0 a0 a4) a1 a2`, the reciprocal clipped degrees `invdeg a2`
  and layer 0's rows of the stacked parameters; between regions 0 and 1 (the stretch `hostOps1`) the column mean and
  variance from region 0's two arrays of partial sums, and the two weight matrices again. First each stretch's
  results as functions of ANY contents `W` it starts from (the composed term of its lines), then the fold's values
  `W3` (region 0's entry) and `W5` (region 1's entry) at the buffers the two regions' windows read, over the launch
  contents a_i of the argument arrays. The reciprocal degrees are computed once: their buffer keeps them to the end.
-/
import proofs.«129379_j32899449487582_2_alg».proof.Proof.KI.KDefs
import proofs.«129379_j32899449487582_2_alg».proof.Proof.KI.KReadKeep

set_option maxRecDepth 16384

noncomputable section

namespace Cert.KernelIdeal.KRead

open Cert.KernelIdeal Cert.KernelIdeal.Gen Idealize.ShloMosaic Idealize.ShloMosaic.TcCoe Idealize.SL.Sem Idealize.ShloMosaic.StableHlo

variable {F : FTy → Type} [FloatOps F]

/-! ## The stretches from any contents -/

section Stretch
variable (W : Valuation τ sig (Elt F))

set_option maxHeartbeats 1000000 in
/-- Lines %c … %6: the gathered embedding. -/
theorem hostOps0_main_v6 : after hostOps0 W main_v6 = emb0 (W main_arg0) (W main_arg4) := by
  simp only [hostOps0]
  after_results_simp
  all_goals rfl

set_option maxHeartbeats 1000000 in
/-- Lines %cst … %10: the in-degrees before the clip. -/
theorem hostOps0_main_v10 : after hostOps0 W main_v10 = degSum (W main_arg2) := by
  simp only [hostOps0]
  after_results_simp
  all_goals rfl

set_option maxHeartbeats 1000000 in
/-- Line %cst_2: the clip's bound, one. -/
theorem hostOps0_main_cst_2 : after hostOps0 W main_cst_2 = constant S_ .f32 0x3F800000#32 := by
  simp only [hostOps0]
  after_results_simp

set_option maxHeartbeats 1000000 in
/-- The clip's three lines: the maximum of its bound, broadcast, and its operand. -/
theorem hostOps0_1_main_v11 : after hostOps0_1 W main_v11 = maximumf (broadcastInDim S100000 ![] bcast_S_S100000 (id (W main_cst_2))) (W main_v10) := by
  simp only [hostOps0_1]
  after_results_simp
  all_goals rfl

set_option maxHeartbeats 1000000 in
/-- Lines %cst_3 … %14: one over the clipped degrees, as a column. -/
theorem hostOps0_2_main_v14 : after hostOps0_2 W main_v14 = shapeCast S100000x1 (Host.divf (broadcastInDim S100000 ![] bcast_S_S100000 (constant S_ .f32 0x3F800000#32)) (W main_v11)) shapeCasts_S100000_S100000x1 := by
  simp only [hostOps0_2]
  after_results_simp
  all_goals rfl

set_option maxHeartbeats 1000000 in
/-- Lines %c_4 … %24: the sum over incoming edges of the embedding. -/
theorem hostOps0_2_main_v24 : after hostOps0_2 W main_v24 = rawAgg (W main_v6) (W main_arg1) (W main_arg2) := by
  simp only [hostOps0_2]
  after_results_simp
  all_goals rfl

set_option maxHeartbeats 1000000 in
/-- Lines %25 … %27: layer 0's bias row. -/
theorem hostOps0_2_main_v27 : after hostOps0_2 W main_v27 = row2_0 (W main_arg7) := by
  simp only [hostOps0_2]
  after_results_simp
  all_goals rfl

set_option maxHeartbeats 1000000 in
/-- Lines %28 … %30: layer 0's rectifier slopes. -/
theorem hostOps0_2_main_v30 : after hostOps0_2 W main_v30 = row2_0 (W main_arg10) := by
  simp only [hostOps0_2]
  after_results_simp
  all_goals rfl

set_option maxHeartbeats 1000000 in
/-- Lines %31 … %33: layer 0's normalisation scale. -/
theorem hostOps0_2_main_v33 : after hostOps0_2 W main_v33 = row2_0 (W main_arg8) := by
  simp only [hostOps0_2]
  after_results_simp
  all_goals rfl

set_option maxHeartbeats 1000000 in
/-- Lines %34 … %36: layer 0's normalisation shift. -/
theorem hostOps0_2_main_v36 : after hostOps0_2 W main_v36 = row2_0 (W main_arg9) := by
  simp only [hostOps0_2]
  after_results_simp
  all_goals rfl

set_option maxHeartbeats 1000000 in
/-- Lines %37, %38: layer 0's first weight matrix. -/
theorem hostOps0_2_main_v38 : after hostOps0_2 W main_v38 = mat_0 (W main_arg5) := by
  simp only [hostOps0_2]
  after_results_simp
  all_goals rfl

set_option maxHeartbeats 1000000 in
/-- Lines %39, %40: layer 0's second weight matrix. -/
theorem hostOps0_2_main_v40 : after hostOps0_2 W main_v40 = mat_0 (W main_arg6) := by
  simp only [hostOps0_2]
  after_results_simp
  all_goals rfl

set_option maxHeartbeats 1000000 in
/-- Lines %42 … %58: the column means from the partial column sums. -/
theorem hostOps1_main_v58 : after hostOps1 W main_v58 = meanOf (W main_v41_0) := by
  simp only [hostOps1]
  after_results_simp
  all_goals rfl

set_option maxHeartbeats 1000000 in
/-- Lines %42 … %59: the column variances from the partial column sums and sums of squares. -/
theorem hostOps1_main_v59 : after hostOps1 W main_v59 = varOf (W main_v41_0) (W main_v41_1) := by
  simp only [hostOps1]
  after_results_simp
  all_goals rfl

set_option maxHeartbeats 1000000 in
/-- Lines %60, %61: layer 0's first weight matrix again. -/
theorem hostOps1_main_v61 : after hostOps1 W main_v61 = mat_0 (W main_arg5) := by
  simp only [hostOps1]
  after_results_simp
  all_goals rfl

set_option maxHeartbeats 1000000 in
/-- Lines %62, %63: layer 0's second weight matrix again. -/
theorem hostOps1_main_v63 : after hostOps1 W main_v63 = mat_0 (W main_arg6) := by
  simp only [hostOps1]
  after_results_simp
  all_goals rfl

end Stretch

/-! ## Region 0's entry -/

variable (m : (ℓ : Loc nD τ sig) → Buf (Elt F) ℓ) (c : Dev nD)

set_option quotPrecheck false in
local notation "a0" => (m ((c : Thread nD τ).loc main_arg0) : (⟨S100000, .i32⟩ : BufTy).Contents (Elt F))
set_option quotPrecheck false in
local notation "a1" => (m ((c : Thread nD τ).loc main_arg1) : (⟨S1600000, .i32⟩ : BufTy).Contents (Elt F))
set_option quotPrecheck false in
local notation "a2" => (m ((c : Thread nD τ).loc main_arg2) : (⟨S1600000, .i32⟩ : BufTy).Contents (Elt F))
set_option quotPrecheck false in
local notation "a4" => (m ((c : Thread nD τ).loc main_arg4) : (⟨S257x128, .f32⟩ : BufTy).Contents (Elt F))
set_option quotPrecheck false in
local notation "a5" => (m ((c : Thread nD τ).loc main_arg5) : (⟨S4x128x128, .f32⟩ : BufTy).Contents (Elt F))
set_option quotPrecheck false in
local notation "a6" => (m ((c : Thread nD τ).loc main_arg6) : (⟨S4x128x128, .f32⟩ : BufTy).Contents (Elt F))
set_option quotPrecheck false in
local notation "a7" => (m ((c : Thread nD τ).loc main_arg7) : (⟨S4x128, .f32⟩ : BufTy).Contents (Elt F))
set_option quotPrecheck false in
local notation "a8" => (m ((c : Thread nD τ).loc main_arg8) : (⟨S4x128, .f32⟩ : BufTy).Contents (Elt F))
set_option quotPrecheck false in
local notation "a9" => (m ((c : Thread nD τ).loc main_arg9) : (⟨S4x128, .f32⟩ : BufTy).Contents (Elt F))
set_option quotPrecheck false in
local notation "a10" => (m ((c : Thread nD τ).loc main_arg10) : (⟨S4x128, .f32⟩ : BufTy).Contents (Elt F))

/-- An argument array holds its launch contents after the first two stretches. -/
theorem V2_arg (r : Ref sig .tc) (h : r ∈ argRefs) : V2 m c r = m ((c : Thread nD τ).loc r) :=
  (V2_of m c r (arg_not_in_hostOps0_1_W r h)).trans (V1_of m c r (arg_not_in_hostOps0_W r h))

theorem V2_main_v6 : V2 m c main_v6 = emb0 a0 a4 :=
  (V2_of m c main_v6 (by decide)).trans (hostOps0_main_v6 (V0 m c))

theorem V2_main_v11 : V2 m c main_v11 = deg a2 := by
  refine (hostOps0_1_main_v11 (V1 m c)).trans ?_
  rw [show V1 m c main_cst_2 = _ from hostOps0_main_cst_2 (V0 m c), show V1 m c main_v10 = _ from hostOps0_main_v10 (V0 m c)]
  rfl

/-- Region 0's first operand: the gathered embedding. -/
theorem W3_main_v6 : W3 m c main_v6 = emb0 a0 a4 :=
  (V3_of m c main_v6 (by decide)).trans (V2_main_v6 m c)

/-- Region 0's second operand: the sum over incoming edges of the embedding. -/
theorem W3_main_v24 : W3 m c main_v24 = rawAgg (emb0 a0 a4) a1 a2 := by
  refine (hostOps0_2_main_v24 (V2 m c)).trans ?_
  rw [V2_main_v6 m c, V2_arg m c main_arg1 (by decide), V2_arg m c main_arg2 (by decide)]

/-- Region 0's third operand: the reciprocal clipped degrees. -/
theorem W3_main_v14 : W3 m c main_v14 = invdeg a2 := by
  refine (hostOps0_2_main_v14 (V2 m c)).trans ?_
  rw [V2_main_v11 m c]
  rfl

theorem W3_main_v38 : W3 m c main_v38 = mat_0 a5 :=
  (hostOps0_2_main_v38 (V2 m c)).trans (congrArg mat_0 (V2_arg m c main_arg5 (by decide)))
theorem W3_main_v40 : W3 m c main_v40 = mat_0 a6 :=
  (hostOps0_2_main_v40 (V2 m c)).trans (congrArg mat_0 (V2_arg m c main_arg6 (by decide)))
theorem W3_main_v27 : W3 m c main_v27 = row2_0 a7 :=
  (hostOps0_2_main_v27 (V2 m c)).trans (congrArg row2_0 (V2_arg m c main_arg7 (by decide)))
theorem W3_main_v30 : W3 m c main_v30 = row2_0 a10 :=
  (hostOps0_2_main_v30 (V2 m c)).trans (congrArg row2_0 (V2_arg m c main_arg10 (by decide)))
theorem W3_main_v33 : W3 m c main_v33 = row2_0 a8 :=
  (hostOps0_2_main_v33 (V2 m c)).trans (congrArg row2_0 (V2_arg m c main_arg8 (by decide)))
theorem W3_main_v36 : W3 m c main_v36 = row2_0 a9 :=
  (hostOps0_2_main_v36 (V2 m c)).trans (congrArg row2_0 (V2_arg m c main_arg9 (by decide)))

/-! ## Region 1's entry -/

/-- What region 0 and the stretch after it leave alone is at region 1's entry what it was at region 0's. -/
theorem W5_eq_W3 (r : Ref sig .tc) (h4 : r ∉ ([main_v41_0, main_v41_1] : List (Ref sig .tc))) (h5 : r ∉ hostOps1_W) : W5 m c r = W3 m c r :=
  (W5_of m c r h5).trans (W4_of m c r h4)

theorem W5_main_v6 : W5 m c main_v6 = emb0 a0 a4 := (W5_eq_W3 m c main_v6 (by decide) (by decide)).trans (W3_main_v6 m c)
theorem W5_main_v24 : W5 m c main_v24 = rawAgg (emb0 a0 a4) a1 a2 := (W5_eq_W3 m c main_v24 (by decide) (by decide)).trans (W3_main_v24 m c)
theorem W5_main_v14 : W5 m c main_v14 = invdeg a2 := (W5_eq_W3 m c main_v14 (by decide) (by decide)).trans (W3_main_v14 m c)
theorem W5_main_v27 : W5 m c main_v27 = row2_0 a7 := (W5_eq_W3 m c main_v27 (by decide) (by decide)).trans (W3_main_v27 m c)
theorem W5_main_v30 : W5 m c main_v30 = row2_0 a10 := (W5_eq_W3 m c main_v30 (by decide) (by decide)).trans (W3_main_v30 m c)
theorem W5_main_v33 : W5 m c main_v33 = row2_0 a8 := (W5_eq_W3 m c main_v33 (by decide) (by decide)).trans (W3_main_v33 m c)
theorem W5_main_v36 : W5 m c main_v36 = row2_0 a9 := (W5_eq_W3 m c main_v36 (by decide) (by decide)).trans (W3_main_v36 m c)
theorem W5_main_v61 : W5 m c main_v61 = mat_0 a5 :=
  (hostOps1_main_v61 (W4 m c)).trans (congrArg mat_0 (W4_arg m c main_arg5 (by decide)))
theorem W5_main_v63 : W5 m c main_v63 = mat_0 a6 :=
  (hostOps1_main_v63 (W4 m c)).trans (congrArg mat_0 (W4_arg m c main_arg6 (by decide)))
/-- Region 1's mean operand: from region 0's array of partial column sums. -/
theorem W5_main_v58 : W5 m c main_v58 = meanOf (W4 m c main_v41_0) := hostOps1_main_v58 (W4 m c)
/-- Region 1's variance operand: from region 0's two arrays. -/
theorem W5_main_v59 : W5 m c main_v59 = varOf (W4 m c main_v41_0) (W4 m c main_v41_1) := hostOps1_main_v59 (W4 m c)

/-! ## The reciprocal degrees stay -/

theorem W6_main_v14 : W6 m c main_v14 = invdeg a2 := (W6_of m c main_v14 (by decide)).trans (W5_main_v14 m c)
theorem W7_main_v14 : W7 m c main_v14 = invdeg a2 := (W7_of m c main_v14 (by decide)).trans (W6_main_v14 m c)
theorem W8_main_v14 : W8 m c main_v14 = invdeg a2 := (W8_of m c main_v14 (by decide)).trans (W7_main_v14 m c)
theorem W9_main_v14 : W9 m c main_v14 = invdeg a2 := (W9_of m c main_v14 (by decide)).trans (W8_main_v14 m c)
theorem W10_main_v14 : W10 m c main_v14 = invdeg a2 := (W10_of m c main_v14 (by decide)).trans (W9_main_v14 m c)
theorem W11_main_v14 : W11 m c main_v14 = invdeg a2 := (W11_of m c main_v14 (by decide)).trans (W10_main_v14 m c)
theorem W12_main_v14 : W12 m c main_v14 = invdeg a2 := (W12_of m c main_v14 (by decide)).trans (W11_main_v14 m c)
theorem W13_main_v14 : W13 m c main_v14 = invdeg a2 := (W13_of m c main_v14 (by decide)).trans (W12_main_v14 m c)
theorem W14_main_v14 : W14 m c main_v14 = invdeg a2 := (W14_of m c main_v14 (by decide)).trans (W13_main_v14 m c)
theorem W15_main_v14 : W15 m c main_v14 = invdeg a2 := (W15_of m c main_v14 (by decide)).trans (W14_main_v14 m c)
theorem W16_main_v14 : W16 m c main_v14 = invdeg a2 := (W16_of m c main_v14 (by decide)).trans (W15_main_v14 m c)
theorem W17_main_v14 : W17 m c main_v14 = invdeg a2 := (W17_of m c main_v14 (by decide)).trans (W16_main_v14 m c)
theorem W18_main_v14 : W18 m c main_v14 = invdeg a2 := (W18_of m c main_v14 (by decide)).trans (W17_main_v14 m c)

end Cert.KernelIdeal.KRead

end
-- ==== Proof.KI.KRead1.lean ====
/-
  The fold's values at the buffers layer 1's two kernels read.

  Before region 2 the host computes (the stretch `hostOps2`) the sum over incoming edges of layer 0's node
  features — region 1's output array, as the fold has it — and layer 1's rows of the stacked parameters; between
  regions 2 and 3 (the stretch `hostOps3`) the column mean and variance from region 2's two arrays of partial sums, and
  the two weight matrices again. First each stretch's results as functions of ANY contents `W` it starts from, then
  the fold's values `W7` (region 2's entry) and `W9` (region 3's entry) at the buffers the two regions' windows
  read, over the launch contents a_i of the argument arrays. (The reciprocal degrees' buffer is read too: its value
  at every boundary is with layer 0's.)
-/
import proofs.«129379_j32899449487582_2_alg».proof.Proof.KI.KDefs
import proofs.«129379_j32899449487582_2_alg».proof.Proof.KI.KReadKeep

set_option maxRecDepth 16384

noncomputable section

namespace Cert.KernelIdeal.KRead

open Cert.KernelIdeal Cert.KernelIdeal.Gen Idealize.ShloMosaic Idealize.ShloMosaic.TcCoe Idealize.SL.Sem Idealize.ShloMosaic.StableHlo

variable {F : FTy → Type} [FloatOps F]

/-! ## The stretches from any contents -/

section Stretch
variable (W : Valuation τ sig (Elt F))

set_option maxHeartbeats 1000000 in
/-- Lines %c_9 … %74: the sum over incoming edges of layer 0's node features. -/
theorem hostOps2_main_v74 : after hostOps2 W main_v74 = rawAgg (W main_v64) (W main_arg1) (W main_arg2) := by
  simp only [hostOps2]
  after_results_simp
  all_goals rfl

set_option maxHeartbeats 1000000 in
/-- Lines %75 … %77: layer 1's bias row. -/
theorem hostOps2_main_v77 : after hostOps2 W main_v77 = row2_1 (W main_arg7) := by
  simp only [hostOps2]
  after_results_simp
  all_goals rfl

set_option maxHeartbeats 1000000 in
/-- Lines %78 … %80: layer 1's rectifier slopes. -/
theorem hostOps2_main_v80 : after hostOps2 W main_v80 = row2_1 (W main_arg10) := by
  simp only [hostOps2]
  after_results_simp
  all_goals rfl

set_option maxHeartbeats 1000000 in
/-- Lines %81 … %83: layer 1's normalisation scale. -/
theorem hostOps2_main_v83 : after hostOps2 W main_v83 = row2_1 (W main_arg8) := by
  simp only [hostOps2]
  after_results_simp
  all_goals rfl

set_option maxHeartbeats 1000000 in
/-- Lines %84 … %86: layer 1's normalisation shift. -/
theorem hostOps2_main_v86 : after hostOps2 W main_v86 = row2_1 (W main_arg9) := by
  simp only [hostOps2]
  after_results_simp
  all_goals rfl

set_option maxHeartbeats 1000000 in
/-- Lines %87, %88: layer 1's first weight matrix. -/
theorem hostOps2_main_v88 : after hostOps2 W main_v88 = mat_1 (W main_arg5) := by
  simp only [hostOps2]
  after_results_simp
  all_goals rfl

set_option maxHeartbeats 1000000 in
/-- Lines %89, %90: layer 1's second weight matrix. -/
theorem hostOps2_main_v90 : after hostOps2 W main_v90 = mat_1 (W main_arg6) := by
  simp only [hostOps2]
  after_results_simp
  all_goals rfl

set_option maxHeartbeats 1000000 in
/-- Lines %92 … %108: the column means from the partial column sums. -/
theorem hostOps3_main_v108 : after hostOps3 W main_v108 = meanOf (W main_v91_0) := by
  simp only [hostOps3]
  after_results_simp
  all_goals rfl

set_option maxHeartbeats 1000000 in
/-- Lines %92 … %109: the column variances from the partial column sums and sums of squares. -/
theorem hostOps3_main_v109 : after hostOps3 W main_v109 = varOf (W main_v91_0) (W main_v91_1) := by
  simp only [hostOps3]
  after_results_simp
  all_goals rfl

set_option maxHeartbeats 1000000 in
/-- Lines %110, %111: layer 1's first weight matrix again. -/
theorem hostOps3_main_v111 : after hostOps3 W main_v111 = mat_1 (W main_arg5) := by
  simp only [hostOps3]
  after_results_simp
  all_goals rfl

set_option maxHeartbeats 1000000 in
/-- Lines %112, %113: layer 1's second weight matrix again. -/
theorem hostOps3_main_v113 : after hostOps3 W main_v113 = mat_1 (W main_arg6) := by
  simp only [hostOps3]
  after_results_simp
  all_goals rfl

end Stretch

/-! ## Region 2's entry -/

variable (m : (ℓ : Loc nD τ sig) → Buf (Elt F) ℓ) (c : Dev nD)

set_option quotPrecheck false in
local notation "a1" => (m ((c : Thread nD τ).loc main_arg1) : (⟨S1600000, .i32⟩ : BufTy).Contents (Elt F))
set_option quotPrecheck false in
local notation "a2" => (m ((c : Thread nD τ).loc main_arg2) : (⟨S1600000, .i32⟩ : BufTy).Contents (Elt F))
set_option quotPrecheck false in
local notation "a5" => (m ((c : Thread nD τ).loc main_arg5) : (⟨S4x128x128, .f32⟩ : BufTy).Contents (Elt F))
set_option quotPrecheck false in
local notation "a6" => (m ((c : Thread nD τ).loc main_arg6) : (⟨S4x128x128, .f32⟩ : BufTy).Contents (Elt F))
set_option quotPrecheck false in
local notation "a7" => (m ((c : Thread nD τ).loc main_arg7) : (⟨S4x128, .f32⟩ : BufTy).Contents (Elt F))
set_option quotPrecheck false in
local notation "a8" => (m ((c : Thread nD τ).loc main_arg8) : (⟨S4x128, .f32⟩ : BufTy).Contents (Elt F))
set_option quotPrecheck false in
local notation "a9" => (m ((c : Thread nD τ).loc main_arg9) : (⟨S4x128, .f32⟩ : BufTy).Contents (Elt F))
set_option quotPrecheck false in
local notation "a10" => (m ((c : Thread nD τ).loc main_arg10) : (⟨S4x128, .f32⟩ : BufTy).Contents (Elt F))

/-- Region 2's first operand: layer 0's node features, as region 1 left them. -/
theorem W7_main_v64 : W7 m c main_v64 = W6 m c main_v64 := W7_of m c main_v64 (by decide)

/-- Region 2's second operand: the sum over incoming edges of layer 0's node features. -/
theorem W7_main_v74 : W7 m c main_v74 = rawAgg (W6 m c main_v64) a1 a2 := by
  refine (hostOps2_main_v74 (W6 m c)).trans ?_
  rw [W6_arg m c main_arg1 (by decide), W6_arg m c main_arg2 (by decide)]

theorem W7_main_v88 : W7 m c main_v88 = mat_1 a5 :=
  (hostOps2_main_v88 (W6 m c)).trans (congrArg mat_1 (W6_arg m c main_arg5 (by decide)))
theorem W7_main_v90 : W7 m c main_v90 = mat_1 a6 :=
  (hostOps2_main_v90 (W6 m c)).trans (congrArg mat_1 (W6_arg m c main_arg6 (by decide)))
theorem W7_main_v77 : W7 m c main_v77 = row2_1 a7 :=
  (hostOps2_main_v77 (W6 m c)).trans (congrArg row2_1 (W6_arg m c main_arg7 (by decide)))
theorem W7_main_v80 : W7 m c main_v80 = row2_1 a10 :=
  (hostOps2_main_v80 (W6 m c)).trans (congrArg row2_1 (W6_arg m c main_arg10 (by decide)))
theorem W7_main_v83 : W7 m c main_v83 = row2_1 a8 :=
  (hostOps2_main_v83 (W6 m c)).trans (congrArg row2_1 (W6_arg m c main_arg8 (by decide)))
theorem W7_main_v86 : W7 m c main_v86 = row2_1 a9 :=
  (hostOps2_main_v86 (W6 m c)).trans (congrArg row2_1 (W6_arg m c main_arg9 (by decide)))

/-! ## Region 3's entry -/

/-- What region 2 and the stretch after it leave alone is at region 3's entry what it was at region 2's. -/
theorem W9_eq_W7 (r : Ref sig .tc) (h4 : r ∉ ([main_v91_0, main_v91_1] : List (Ref sig .tc))) (h5 : r ∉ hostOps3_W) : W9 m c r = W7 m c r :=
  (W9_of m c r h5).trans (W8_of m c r h4)

theorem W9_main_v64 : W9 m c main_v64 = W6 m c main_v64 := (W9_eq_W7 m c main_v64 (by decide) (by decide)).trans (W7_main_v64 m c)
theorem W9_main_v74 : W9 m c main_v74 = rawAgg (W6 m c main_v64) a1 a2 := (W9_eq_W7 m c main_v74 (by decide) (by decide)).trans (W7_main_v74 m c)
theorem W9_main_v77 : W9 m c main_v77 = row2_1 a7 := (W9_eq_W7 m c main_v77 (by decide) (by decide)).trans (W7_main_v77 m c)
theorem W9_main_v80 : W9 m c main_v80 = row2_1 a10 := (W9_eq_W7 m c main_v80 (by decide) (by decide)).trans (W7_main_v80 m c)
theorem W9_main_v83 : W9 m c main_v83 = row2_1 a8 := (W9_eq_W7 m c main_v83 (by decide) (by decide)).trans (W7_main_v83 m c)
theorem W9_main_v86 : W9 m c main_v86 = row2_1 a9 := (W9_eq_W7 m c main_v86 (by decide) (by decide)).trans (W7_main_v86 m c)
theorem W9_main_v111 : W9 m c main_v111 = mat_1 a5 :=
  (hostOps3_main_v111 (W8 m c)).trans (congrArg mat_1 (W8_arg m c main_arg5 (by decide)))
theorem W9_main_v113 : W9 m c main_v113 = mat_1 a6 :=
  (hostOps3_main_v113 (W8 m c)).trans (congrArg mat_1 (W8_arg m c main_arg6 (by decide)))
/-- Region 3's mean operand: from region 2's array of partial column sums. -/
theorem W9_main_v108 : W9 m c main_v108 = meanOf (W8 m c main_v91_0) := hostOps3_main_v108 (W8 m c)
/-- Region 3's variance operand: from region 2's two arrays. -/
theorem W9_main_v109 : W9 m c main_v109 = varOf (W8 m c main_v91_0) (W8 m c main_v91_1) := hostOps3_main_v109 (W8 m c)

end Cert.KernelIdeal.KRead

end
-- ==== Proof.KI.KRead2.lean ====
/-
  The fold's values at the buffers layer 2's two kernels read.

  Before region 4 the host computes (the stretch `hostOps4`) the sum over incoming edges of layer 1's node
  features — region 3's output array, as the fold has it — and layer 2's rows of the stacked parameters; between
  regions 4 and 5 (the stretch `hostOps5`) the column mean and variance from region 4's two arrays of partial sums, and
  the two weight matrices again. First each stretch's results as functions of ANY contents `W` it starts from, then
  the fold's values `W11` (region 4's entry) and `W13` (region 5's entry) at the buffers the two regions' windows
  read, over the launch contents a_i of the argument arrays. (The reciprocal degrees' buffer is read too: its value
  at every boundary is with layer 0's.)
-/
import proofs.«129379_j32899449487582_2_alg».proof.Proof.KI.KDefs
import proofs.«129379_j32899449487582_2_alg».proof.Proof.KI.KReadKeep

set_option maxRecDepth 16384

noncomputable section

namespace Cert.KernelIdeal.KRead

open Cert.KernelIdeal Cert.KernelIdeal.Gen Idealize.ShloMosaic Idealize.ShloMosaic.TcCoe Idealize.SL.Sem Idealize.ShloMosaic.StableHlo

variable {F : FTy → Type} [FloatOps F]

/-! ## The stretches from any contents -/

section Stretch
variable (W : Valuation τ sig (Elt F))

set_option maxHeartbeats 1000000 in
/-- Lines %c_14 … %124: the sum over incoming edges of layer 1's node features. -/
theorem hostOps4_main_v124 : after hostOps4 W main_v124 = rawAgg (W main_v114) (W main_arg1) (W main_arg2) := by
  simp only [hostOps4]
  after_results_simp
  all_goals rfl

set_option maxHeartbeats 1000000 in
/-- Lines %125 … %127: layer 2's bias row. -/
theorem hostOps4_main_v127 : after hostOps4 W main_v127 = row2_2 (W main_arg7) := by
  simp only [hostOps4]
  after_results_simp
  all_goals rfl

set_option maxHeartbeats 1000000 in
/-- Lines %128 … %130: layer 2's rectifier slopes. -/
theorem hostOps4_main_v130 : after hostOps4 W main_v130 = row2_2 (W main_arg10) := by
  simp only [hostOps4]
  after_results_simp
  all_goals rfl

set_option maxHeartbeats 1000000 in
/-- Lines %131 … %133: layer 2's normalisation scale. -/
theorem hostOps4_main_v133 : after hostOps4 W main_v133 = row2_2 (W main_arg8) := by
  simp only [hostOps4]
  after_results_simp
  all_goals rfl

set_option maxHeartbeats 1000000 in
/-- Lines %134 … %136: layer 2's normalisation shift. -/
theorem hostOps4_main_v136 : after hostOps4 W main_v136 = row2_2 (W main_arg9) := by
  simp only [hostOps4]
  after_results_simp
  all_goals rfl

set_option maxHeartbeats 1000000 in
/-- Lines %137, %138: layer 2's first weight matrix. -/
theorem hostOps4_main_v138 : after hostOps4 W main_v138 = mat_2 (W main_arg5) := by
  simp only [hostOps4]
  after_results_simp
  all_goals rfl

set_option maxHeartbeats 1000000 in
/-- Lines %139, %140: layer 2's second weight matrix. -/
theorem hostOps4_main_v140 : after hostOps4 W main_v140 = mat_2 (W main_arg6) := by
  simp only [hostOps4]
  after_results_simp
  all_goals rfl

set_option maxHeartbeats 1000000 in
/-- Lines %142 … %158: the column means from the partial column sums. -/
theorem hostOps5_main_v158 : after hostOps5 W main_v158 = meanOf (W main_v141_0) := by
  simp only [hostOps5]
  after_results_simp
  all_goals rfl

set_option maxHeartbeats 1000000 in
/-- Lines %142 … %159: the column variances from the partial column sums and sums of squares. -/
theorem hostOps5_main_v159 : after hostOps5 W main_v159 = varOf (W main_v141_0) (W main_v141_1) := by
  simp only [hostOps5]
  after_results_simp
  all_goals rfl

set_option maxHeartbeats 1000000 in
/-- Lines %160, %161: layer 2's first weight matrix again. -/
theorem hostOps5_main_v161 : after hostOps5 W main_v161 = mat_2 (W main_arg5) := by
  simp only [hostOps5]
  after_results_simp
  all_goals rfl

set_option maxHeartbeats 1000000 in
/-- Lines %162, %163: layer 2's second weight matrix again. -/
theorem hostOps5_main_v163 : after hostOps5 W main_v163 = mat_2 (W main_arg6) := by
  simp only [hostOps5]
  after_results_simp
  all_goals rfl

end Stretch

/-! ## Region 4's entry -/

variable (m : (ℓ : Loc nD τ sig) → Buf (Elt F) ℓ) (c : Dev nD)

set_option quotPrecheck false in
local notation "a1" => (m ((c : Thread nD τ).loc main_arg1) : (⟨S1600000, .i32⟩ : BufTy).Contents (Elt F))
set_option quotPrecheck false in
local notation "a2" => (m ((c : Thread nD τ).loc main_arg2) : (⟨S1600000, .i32⟩ : BufTy).Contents (Elt F))
set_option quotPrecheck false in
local notation "a5" => (m ((c : Thread nD τ).loc main_arg5) : (⟨S4x128x128, .f32⟩ : BufTy).Contents (Elt F))
set_option quotPrecheck false in
local notation "a6" => (m ((c : Thread nD τ).loc main_arg6) : (⟨S4x128x128, .f32⟩ : BufTy).Contents (Elt F))
set_option quotPrecheck false in
local notation "a7" => (m ((c : Thread nD τ).loc main_arg7) : (⟨S4x128, .f32⟩ : BufTy).Contents (Elt F))
set_option quotPrecheck false in
local notation "a8" => (m ((c : Thread nD τ).loc main_arg8) : (⟨S4x128, .f32⟩ : BufTy).Contents (Elt F))
set_option quotPrecheck false in
local notation "a9" => (m ((c : Thread nD τ).loc main_arg9) : (⟨S4x128, .f32⟩ : BufTy).Contents (Elt F))
set_option quotPrecheck false in
local notation "a10" => (m ((c : Thread nD τ).loc main_arg10) : (⟨S4x128, .f32⟩ : BufTy).Contents (Elt F))

/-- Region 4's first operand: layer 1's node features, as region 3 left them. -/
theorem W11_main_v114 : W11 m c main_v114 = W10 m c main_v114 := W11_of m c main_v114 (by decide)

/-- Region 4's second operand: the sum over incoming edges of layer 1's node features. -/
theorem W11_main_v124 : W11 m c main_v124 = rawAgg (W10 m c main_v114) a1 a2 := by
  refine (hostOps4_main_v124 (W10 m c)).trans ?_
  rw [W10_arg m c main_arg1 (by decide), W10_arg m c main_arg2 (by decide)]

theorem W11_main_v138 : W11 m c main_v138 = mat_2 a5 :=
  (hostOps4_main_v138 (W10 m c)).trans (congrArg mat_2 (W10_arg m c main_arg5 (by decide)))
theorem W11_main_v140 : W11 m c main_v140 = mat_2 a6 :=
  (hostOps4_main_v140 (W10 m c)).trans (congrArg mat_2 (W10_arg m c main_arg6 (by decide)))
theorem W11_main_v127 : W11 m c main_v127 = row2_2 a7 :=
  (hostOps4_main_v127 (W10 m c)).trans (congrArg row2_2 (W10_arg m c main_arg7 (by decide)))
theorem W11_main_v130 : W11 m c main_v130 = row2_2 a10 :=
  (hostOps4_main_v130 (W10 m c)).trans (congrArg row2_2 (W10_arg m c main_arg10 (by decide)))
theorem W11_main_v133 : W11 m c main_v133 = row2_2 a8 :=
  (hostOps4_main_v133 (W10 m c)).trans (congrArg row2_2 (W10_arg m c main_arg8 (by decide)))
theorem W11_main_v136 : W11 m c main_v136 = row2_2 a9 :=
  (hostOps4_main_v136 (W10 m c)).trans (congrArg row2_2 (W10_arg m c main_arg9 (by decide)))

/-! ## Region 5's entry -/

/-- What region 4 and the stretch after it leave alone is at region 5's entry what it was at region 4's. -/
theorem W13_eq_W11 (r : Ref sig .tc) (h4 : r ∉ ([main_v141_0, main_v141_1] : List (Ref sig .tc))) (h5 : r ∉ hostOps5_W) : W13 m c r = W11 m c r :=
  (W13_of m c r h5).trans (W12_of m c r h4)

theorem W13_main_v114 : W13 m c main_v114 = W10 m c main_v114 := (W13_eq_W11 m c main_v114 (by decide) (by decide)).trans (W11_main_v114 m c)
theorem W13_main_v124 : W13 m c main_v124 = rawAgg (W10 m c main_v114) a1 a2 := (W13_eq_W11 m c main_v124 (by decide) (by decide)).trans (W11_main_v124 m c)
theorem W13_main_v127 : W13 m c main_v127 = row2_2 a7 := (W13_eq_W11 m c main_v127 (by decide) (by decide)).trans (W11_main_v127 m c)
theorem W13_main_v130 : W13 m c main_v130 = row2_2 a10 := (W13_eq_W11 m c main_v130 (by decide) (by decide)).trans (W11_main_v130 m c)
theorem W13_main_v133 : W13 m c main_v133 = row2_2 a8 := (W13_eq_W11 m c main_v133 (by decide) (by decide)).trans (W11_main_v133 m c)
theorem W13_main_v136 : W13 m c main_v136 = row2_2 a9 := (W13_eq_W11 m c main_v136 (by decide) (by decide)).trans (W11_main_v136 m c)
theorem W13_main_v161 : W13 m c main_v161 = mat_2 a5 :=
  (hostOps5_main_v161 (W12 m c)).trans (congrArg mat_2 (W12_arg m c main_arg5 (by decide)))
theorem W13_main_v163 : W13 m c main_v163 = mat_2 a6 :=
  (hostOps5_main_v163 (W12 m c)).trans (congrArg mat_2 (W12_arg m c main_arg6 (by decide)))
/-- Region 5's mean operand: from region 4's array of partial column sums. -/
theorem W13_main_v158 : W13 m c main_v158 = meanOf (W12 m c main_v141_0) := hostOps5_main_v158 (W12 m c)
/-- Region 5's variance operand: from region 4's two arrays. -/
theorem W13_main_v159 : W13 m c main_v159 = varOf (W12 m c main_v141_0) (W12 m c main_v141_1) := hostOps5_main_v159 (W12 m c)

end Cert.KernelIdeal.KRead

end
-- ==== Proof.KI.KRead3.lean ====
/-
  The fold's values at the buffers layer 3's two kernels read.

  Before region 6 the host computes (the stretch `hostOps6`) the sum over incoming edges of layer 2's node
  features — region 5's output array, as the fold has it — and layer 3's rows of the stacked parameters; between
  regions 6 and 7 (the stretch `hostOps7`) the column mean and variance from region 6's two arrays of partial sums, and
  the two weight matrices again. First each stretch's results as functions of ANY contents `W` it starts from, then
  the fold's values `W15` (region 6's entry) and `W17` (region 7's entry) at the buffers the two regions' windows
  read, over the launch contents a_i of the argument arrays. (The reciprocal degrees' buffer is read too: its value
  at every boundary is with layer 0's.)
-/
import proofs.«129379_j32899449487582_2_alg».proof.Proof.KI.KDefs
import proofs.«129379_j32899449487582_2_alg».proof.Proof.KI.KReadKeep

set_option maxRecDepth 16384

noncomputable section

namespace Cert.KernelIdeal.KRead

open Cert.KernelIdeal Cert.KernelIdeal.Gen Idealize.ShloMosaic Idealize.ShloMosaic.TcCoe Idealize.SL.Sem Idealize.ShloMosaic.StableHlo

variable {F : FTy → Type} [FloatOps F]

/-! ## The stretches from any contents -/

section Stretch
variable (W : Valuation τ sig (Elt F))

set_option maxHeartbeats 1000000 in
/-- Lines %c_19 … %174: the sum over incoming edges of layer 2's node features. -/
theorem hostOps6_main_v174 : after hostOps6 W main_v174 = rawAgg (W main_v164) (W main_arg1) (W main_arg2) := by
  simp only [hostOps6]
  after_results_simp
  all_goals rfl

set_option maxHeartbeats 1000000 in
/-- Lines %175 … %177: layer 3's bias row. -/
theorem hostOps6_main_v177 : after hostOps6 W main_v177 = row2_3 (W main_arg7) := by
  simp only [hostOps6]
  after_results_simp
  all_goals rfl

set_option maxHeartbeats 1000000 in
/-- Lines %178 … %180: layer 3's rectifier slopes. -/
theorem hostOps6_main_v180 : after hostOps6 W main_v180 = row2_3 (W main_arg10) := by
  simp only [hostOps6]
  after_results_simp
  all_goals rfl

set_option maxHeartbeats 1000000 in
/-- Lines %181 … %183: layer 3's normalisation scale. -/
theorem hostOps6_main_v183 : after hostOps6 W main_v183 = row2_3 (W main_arg8) := by
  simp only [hostOps6]
  after_results_simp
  all_goals rfl

set_option maxHeartbeats 1000000 in
/-- Lines %184 … %186: layer 3's normalisation shift. -/
theorem hostOps6_main_v186 : after hostOps6 W main_v186 = row2_3 (W main_arg9) := by
  simp only [hostOps6]
  after_results_simp
  all_goals rfl

set_option maxHeartbeats 1000000 in
/-- Lines %187, %188: layer 3's first weight matrix. -/
theorem hostOps6_main_v188 : after hostOps6 W main_v188 = mat_3 (W main_arg5) := by
  simp only [hostOps6]
  after_results_simp
  all_goals rfl

set_option maxHeartbeats 1000000 in
/-- Lines %189, %190: layer 3's second weight matrix. -/
theorem hostOps6_main_v190 : after hostOps6 W main_v190 = mat_3 (W main_arg6) := by
  simp only [hostOps6]
  after_results_simp
  all_goals rfl

set_option maxHeartbeats 1000000 in
/-- Lines %192 … %208: the column means from the partial column sums. -/
theorem hostOps7_main_v208 : after hostOps7 W main_v208 = meanOf (W main_v191_0) := by
  simp only [hostOps7]
  after_results_simp
  all_goals rfl

set_option maxHeartbeats 1000000 in
/-- Lines %192 … %209: the column variances from the partial column sums and sums of squares. -/
theorem hostOps7_main_v209 : after hostOps7 W main_v209 = varOf (W main_v191_0) (W main_v191_1) := by
  simp only [hostOps7]
  after_results_simp
  all_goals rfl

set_option maxHeartbeats 1000000 in
/-- Lines %210, %211: layer 3's first weight matrix again. -/
theorem hostOps7_main_v211 : after hostOps7 W main_v211 = mat_3 (W main_arg5) := by
  simp only [hostOps7]
  after_results_simp
  all_goals rfl

set_option maxHeartbeats 1000000 in
/-- Lines %212, %213: layer 3's second weight matrix again. -/
theorem hostOps7_main_v213 : after hostOps7 W main_v213 = mat_3 (W main_arg6) := by
  simp only [hostOps7]
  after_results_simp
  all_goals rfl

end Stretch

/-! ## Region 6's entry -/

variable (m : (ℓ : Loc nD τ sig) → Buf (Elt F) ℓ) (c : Dev nD)

set_option quotPrecheck false in
local notation "a1" => (m ((c : Thread nD τ).loc main_arg1) : (⟨S1600000, .i32⟩ : BufTy).Contents (Elt F))
set_option quotPrecheck false in
local notation "a2" => (m ((c : Thread nD τ).loc main_arg2) : (⟨S1600000, .i32⟩ : BufTy).Contents (Elt F))
set_option quotPrecheck false in
local notation "a5" => (m ((c : Thread nD τ).loc main_arg5) : (⟨S4x128x128, .f32⟩ : BufTy).Contents (Elt F))
set_option quotPrecheck false in
local notation "a6" => (m ((c : Thread nD τ).loc main_arg6) : (⟨S4x128x128, .f32⟩ : BufTy).Contents (Elt F))
set_option quotPrecheck false in
local notation "a7" => (m ((c : Thread nD τ).loc main_arg7) : (⟨S4x128, .f32⟩ : BufTy).Contents (Elt F))
set_option quotPrecheck false in
local notation "a8" => (m ((c : Thread nD τ).loc main_arg8) : (⟨S4x128, .f32⟩ : BufTy).Contents (Elt F))
set_option quotPrecheck false in
local notation "a9" => (m ((c : Thread nD τ).loc main_arg9) : (⟨S4x128, .f32⟩ : BufTy).Contents (Elt F))
set_option quotPrecheck false in
local notation "a10" => (m ((c : Thread nD τ).loc main_arg10) : (⟨S4x128, .f32⟩ : BufTy).Contents (Elt F))

/-- Region 6's first operand: layer 2's node features, as region 5 left them. -/
theorem W15_main_v164 : W15 m c main_v164 = W14 m c main_v164 := W15_of m c main_v164 (by decide)

/-- Region 6's second operand: the sum over incoming edges of layer 2's node features. -/
theorem W15_main_v174 : W15 m c main_v174 = rawAgg (W14 m c main_v164) a1 a2 := by
  refine (hostOps6_main_v174 (W14 m c)).trans ?_
  rw [W14_arg m c main_arg1 (by decide), W14_arg m c main_arg2 (by decide)]

theorem W15_main_v188 : W15 m c main_v188 = mat_3 a5 :=
  (hostOps6_main_v188 (W14 m c)).trans (congrArg mat_3 (W14_arg m c main_arg5 (by decide)))
theorem W15_main_v190 : W15 m c main_v190 = mat_3 a6 :=
  (hostOps6_main_v190 (W14 m c)).trans (congrArg mat_3 (W14_arg m c main_arg6 (by decide)))
theorem W15_main_v177 : W15 m c main_v177 = row2_3 a7 :=
  (hostOps6_main_v177 (W14 m c)).trans (congrArg row2_3 (W14_arg m c main_arg7 (by decide)))
theorem W15_main_v180 : W15 m c main_v180 = row2_3 a10 :=
  (hostOps6_main_v180 (W14 m c)).trans (congrArg row2_3 (W14_arg m c main_arg10 (by decide)))
theorem W15_main_v183 : W15 m c main_v183 = row2_3 a8 :=
  (hostOps6_main_v183 (W14 m c)).trans (congrArg row2_3 (W14_arg m c main_arg8 (by decide)))
theorem W15_main_v186 : W15 m c main_v186 = row2_3 a9 :=
  (hostOps6_main_v186 (W14 m c)).trans (congrArg row2_3 (W14_arg m c main_arg9 (by decide)))

/-! ## Region 7's entry -/

/-- What region 6 and the stretch after it leave alone is at region 7's entry what it was at region 6's. -/
theorem W17_eq_W15 (r : Ref sig .tc) (h4 : r ∉ ([main_v191_0, main_v191_1] : List (Ref sig .tc))) (h5 : r ∉ hostOps7_W) : W17 m c r = W15 m c r :=
  (W17_of m c r h5).trans (W16_of m c r h4)

theorem W17_main_v164 : W17 m c main_v164 = W14 m c main_v164 := (W17_eq_W15 m c main_v164 (by decide) (by decide)).trans (W15_main_v164 m c)
theorem W17_main_v174 : W17 m c main_v174 = rawAgg (W14 m c main_v164) a1 a2 := (W17_eq_W15 m c main_v174 (by decide) (by decide)).trans (W15_main_v174 m c)
theorem W17_main_v177 : W17 m c main_v177 = row2_3 a7 := (W17_eq_W15 m c main_v177 (by decide) (by decide)).trans (W15_main_v177 m c)
theorem W17_main_v180 : W17 m c main_v180 = row2_3 a10 := (W17_eq_W15 m c main_v180 (by decide) (by decide)).trans (W15_main_v180 m c)
theorem W17_main_v183 : W17 m c main_v183 = row2_3 a8 := (W17_eq_W15 m c main_v183 (by decide) (by decide)).trans (W15_main_v183 m c)
theorem W17_main_v186 : W17 m c main_v186 = row2_3 a9 := (W17_eq_W15 m c main_v186 (by decide) (by decide)).trans (W15_main_v186 m c)
theorem W17_main_v211 : W17 m c main_v211 = mat_3 a5 :=
  (hostOps7_main_v211 (W16 m c)).trans (congrArg mat_3 (W16_arg m c main_arg5 (by decide)))
theorem W17_main_v213 : W17 m c main_v213 = mat_3 a6 :=
  (hostOps7_main_v213 (W16 m c)).trans (congrArg mat_3 (W16_arg m c main_arg6 (by decide)))
/-- Region 7's mean operand: from region 6's array of partial column sums. -/
theorem W17_main_v208 : W17 m c main_v208 = meanOf (W16 m c main_v191_0) := hostOps7_main_v208 (W16 m c)
/-- Region 7's variance operand: from region 6's two arrays. -/
theorem W17_main_v209 : W17 m c main_v209 = varOf (W16 m c main_v191_0) (W16 m c main_v191_1) := hostOps7_main_v209 (W16 m c)

end Cert.KernelIdeal.KRead

end
-- ==== Proof.KI.KReadEnd.lean ====
/-
  The fold's value at the program's result buffer.

  After the last kernel region the host computes, in three stretches (the middle one the clip's lines), every graph's
  node count clipped below at one and then, for each of the four layers, the layer's node features pooled per graph
  — every node's row scatter-added at its graph over zeros, each graph's row divided by the graph's count — and sets
  the four 128 × 128 arrays side by side. First each stretch's results as functions of ANY contents `W` it starts
  from (the composed term of its lines), then the value of the result buffer over the launch contents `a3` of the
  node-to-graph array and the four layers' node features as their regions left them: no later item writes a layer's
  node features, and none writes an argument array.
-/
import proofs.«129379_j32899449487582_2_alg».proof.Proof.KI.KDefs
import proofs.«129379_j32899449487582_2_alg».proof.Proof.KI.KReadKeep

set_option maxRecDepth 16384

noncomputable section

namespace Cert.KernelIdeal.KRead

open Cert.KernelIdeal Cert.KernelIdeal.Gen Idealize.ShloMosaic Idealize.ShloMosaic.TcCoe Idealize.SL.Sem Idealize.ShloMosaic.StableHlo

variable {F : FTy → Type} [FloatOps F]

/-- One layer's node features pooled by a given count per graph: every node's row scatter-added at its graph `a3 n` over zeros, each graph's sum divided by `cnt`. -/
def poolBy (h : (⟨S100000x128, .f32⟩ : BufTy).Contents (Elt F)) (a3 : (⟨S100000, .i32⟩ : BufTy).Contents (Elt F)) (cnt : (⟨S128, .f32⟩ : BufTy).Contents (Elt F)) : (⟨S128x128, .f32⟩ : BufTy).Contents (Elt F) :=
  Host.divf (Host.scatterAdd scatter_S128x128_S100000x1_S100000x128_1_0_0_1 (broadcastInDim S128x128 ![] bcast_S_S128x128 (constant S_ .f32 0x00000000#32)) (broadcastInDim S100000x1 ![0] bcast_S100000_S100000x1_0 a3) h) (broadcastInDim S128x128 ![0, 1] bcast_S128x1_S128x128_0_1 (broadcastInDim S128x1 ![0] bcast_S128_S128x1_0 cnt))

/-- Pooling by the graphs' clipped node counts. -/
theorem poolBy_graphCount (h : (⟨S100000x128, .f32⟩ : BufTy).Contents (Elt F)) (a3 : (⟨S100000, .i32⟩ : BufTy).Contents (Elt F)) : poolBy h a3 (graphCount a3) = poolOne h a3 := rfl

/-- Every graph's node count before the clip: one added at `a3 n` for every node `n` over zeros. -/
def graphSum (a3 : (⟨S100000, .i32⟩ : BufTy).Contents (Elt F)) : (⟨S128, .f32⟩ : BufTy).Contents (Elt F) :=
  Host.scatterAdd scatter_S128_S100000x1_S100000_n_0_0_1 (broadcastInDim S128 ![] bcast_S_S128 (constant S_ .f32 0x00000000#32)) (broadcastInDim S100000x1 ![0] bcast_S100000_S100000x1_0 a3) (broadcastInDim S100000 ![] bcast_S_S100000 (constant S_ .f32 0x3F800000#32))

theorem graphCount_eq (a3 : (⟨S100000, .i32⟩ : BufTy).Contents (Elt F)) : graphCount (F := F) a3 = maximumf (broadcastInDim S128 ![] bcast_S_S128 (id (constant S_ .f32 0x3F800000#32))) (graphSum a3) := rfl

section Stretch
variable (W : Valuation τ sig (Elt F))

set_option maxHeartbeats 1000000 in
/-- Lines %cst_24 … %218: the graphs' node counts before the clip. -/
theorem hostOps8_main_v218 : after hostOps8 W main_v218 = graphSum (W main_arg3) := by
  simp only [hostOps8]
  after_results_simp
  all_goals rfl

set_option maxHeartbeats 1000000 in
/-- Line %cst_26: the clip's bound, one. -/
theorem hostOps8_main_cst_26 : after hostOps8 W main_cst_26 = constant S_ .f32 0x3F800000#32 := by
  simp only [hostOps8]
  after_results_simp

set_option maxHeartbeats 1000000 in
/-- The clip's three lines: the maximum of its bound, broadcast, and its operand. -/
theorem hostOps8_1_main_v219 : after hostOps8_1 W main_v219 = maximumf (broadcastInDim S128 ![] bcast_S_S128 (id (W main_cst_26))) (W main_v218) := by
  simp only [hostOps8_1]
  after_results_simp
  all_goals rfl

set_option maxHeartbeats 1000000 in
/-- Lines %cst_27 … %225: layer 0's node features pooled. -/
theorem hostOps8_2_main_v225 : after hostOps8_2 W main_v225 = poolBy (W main_v64) (W main_arg3) (W main_v219) := by
  simp only [hostOps8_2]
  after_results_simp
  all_goals rfl

set_option maxHeartbeats 1000000 in
/-- Lines %cst_28 … %231: layer 1's node features pooled. -/
theorem hostOps8_2_main_v231 : after hostOps8_2 W main_v231 = poolBy (W main_v114) (W main_arg3) (W main_v219) := by
  simp only [hostOps8_2]
  after_results_simp
  all_goals rfl

set_option maxHeartbeats 1000000 in
/-- Lines %cst_29 … %237: layer 2's node features pooled. -/
theorem hostOps8_2_main_v237 : after hostOps8_2 W main_v237 = poolBy (W main_v164) (W main_arg3) (W main_v219) := by
  simp only [hostOps8_2]
  after_results_simp
  all_goals rfl

set_option maxHeartbeats 1000000 in
/-- Lines %cst_30 … %243: layer 3's node features pooled. -/
theorem hostOps8_2_main_v243 : after hostOps8_2 W main_v243 = poolBy (W main_v214) (W main_arg3) (W main_v219) := by
  simp only [hostOps8_2]
  after_results_simp
  all_goals rfl

set_option maxHeartbeats 4000000 in
/-- Line %244: the four pooled arrays side by side. -/
theorem hostOps8_2_main_v244 : after hostOps8_2 W main_v244
    = result (poolBy (W main_v64) (W main_arg3) (W main_v219)) (poolBy (W main_v114) (W main_arg3) (W main_v219)) (poolBy (W main_v164) (W main_arg3) (W main_v219)) (poolBy (W main_v214) (W main_arg3) (W main_v219)) := by
  simp only [hostOps8_2]
  after_results
  rfl
end Stretch

/-! ## The result -/

variable (m : (ℓ : Loc nD τ sig) → Buf (Elt F) ℓ) (c : Dev nD)

/-- What the last three host stretches leave alone is, before the last of them, what it was after region 7. -/
theorem V20_eq_W18 (r : Ref sig .tc) (h8 : r ∉ hostOps8_W) (h81 : r ∉ hostOps8_1_W) : V20 m (outs m) c r = W18 m c r := by
  refine (V20_of m (outs m) c r h81).trans <| (V19_of m (outs m) c r h8).trans ?_
  rw [V18_eq]

/-- The graphs' node counts before the clip, over the launch contents of the node-to-graph array. -/
theorem V19_main_v218 : V19 m (outs m) c main_v218 = graphSum (m ((c : Thread nD τ).loc main_arg3)) := by
  refine (hostOps8_main_v218 (V18 m (outs m) c)).trans ?_
  rw [V18_eq, W18_arg m c main_arg3 (by decide)]

/-- The clipped node counts the four poolings divide by. -/
theorem V20_main_v219 : V20 m (outs m) c main_v219 = graphCount (m ((c : Thread nD τ).loc main_arg3)) := by
  refine (hostOps8_1_main_v219 (V19 m (outs m) c)).trans ?_
  rw [show V19 m (outs m) c main_cst_26 = _ from hostOps8_main_cst_26 (V18 m (outs m) c), V19_main_v218 m c]
  rfl

/-- The program's result buffer at the end: the four layers' node features, each as its region left it, pooled per
    graph and set side by side. -/
theorem result_read : V21 m (outs m) c main_v244
    = result (poolOne (W6 m c main_v64) (m ((c : Thread nD τ).loc main_arg3))) (poolOne (W10 m c main_v114) (m ((c : Thread nD τ).loc main_arg3))) (poolOne (W14 m c main_v164) (m ((c : Thread nD τ).loc main_arg3))) (poolOne (W18 m c main_v214) (m ((c : Thread nD τ).loc main_arg3))) := by
  refine (hostOps8_2_main_v244 (V20 m (outs m) c)).trans ?_
  rw [V20_main_v219 m c,
    V20_eq_W18 m c main_arg3 (by decide) (by decide), W18_arg m c main_arg3 (by decide),
    V20_eq_W18 m c main_v64 (by decide) (by decide), W18_main_v64 m c,
    V20_eq_W18 m c main_v114 (by decide) (by decide), W18_main_v114 m c,
    V20_eq_W18 m c main_v164 (by decide) (by decide), W18_main_v164 m c,
    V20_eq_W18 m c main_v214 (by decide) (by decide)]
  simp only [poolBy_graphCount]

end Cert.KernelIdeal.KRead

end
-- ==== Proof.HostFactsPool.lean ====
/-
  Pooling commutes with setting the layers' outputs side by side.

  The kernel program averages each layer's node features per graph on its own — the rows of a 100000 × 128 array
  scatter-added at their graph's row of a 128 × 128 zero array, each row then divided by the graph's node count —
  and sets the four 128 × 128 results side by side. The reference sets the four 100000 × 128 arrays side by side
  first and averages the 100000 × 512 array the same way. The two 128 × 512 results are equal, entry by entry:

  * A scatter of whole rows (operand G × C, updates N × C, one start index per update row, naming the operand row)
    lands update entry (n, c) on operand entry (g, q) exactly when row n's index, read signed, is g, and c = q. So
    the scatter-add at (g, q) is the operand there plus the sum, over the update rows n whose index is g, of the
    update's entry (n, q).
  * Column q = 128 l + j of the side-by-side arrays is column j of piece l, for the results and for the updates alike.
  * The divisor at (g, q) is the count of graph g on both sides.
-/
import proofs.«129379_j32899449487582_2_alg».proof.KernelIdeal
import proofs.«129379_j32899449487582_2_alg».proof.ReferenceIdeal
import proofs.«129379_j32899449487582_2_alg».proof.Proof.RI.RunDefs
import Idealize.ShloMosaic.PureOps.Ideal
import Idealize.ShloMosaic.PureOps.Ideal.Laws
import Idealize.ShloMosaic.Lib.IdealHost
import Idealize.ShloMosaic.Lib.ValueIdx
import Idealize.ShloMosaic.Lib.Pipeline.Value

noncomputable section

namespace Cert.HostFacts

open Idealize.ShloMosaic Idealize.ShloMosaic.ValueIdx

/-! ### A scatter of whole rows -/

section ScatterRows

variable {G C N w : Nat} (d : ScatterDims ⟨2, ![G, C]⟩ ⟨2, ![N, 1]⟩ ⟨2, ![N, C]⟩)
  (huw : d.updateWindowDims = [1]) (hiw : d.insertedWindowDims = [0])
  (hsd : d.scatterDimsToOperandDims = [0]) (hivd : d.indexVectorDim = 1)

include huw hiw hsd hivd

theorem rows_start0 (idx : IVec ⟨2, ![N, 1]⟩ w) (n : Fin N) (c : Fin C) :
    d.start (ix2 n c) idx 0 = (idx (ix2 n (0 : Fin 1))).toInt := by
  have hm : (0 : Fin 2) ∈ d.scatterDimsToOperandDims := by rw [hsd]; exact List.mem_singleton.mpr rfl
  have hus : d.uScatter = [0] := by
    show (List.finRange 2).filter (· ∉ d.updateWindowDims) = _
    rw [huw]; rfl
  have e : ∀ X : Fin 2, X ∈ d.uScatter → ((ix2 n c : (⟨2, ![N, C]⟩ : Shape).Idx) X).val = n.val := fun X hX => by
    rw [hus] at hX
    obtain rfl := List.mem_singleton.mp hX
    rfl
  have hsi : d.siIdx (ix2 n c) ⟨List.idxOf (0 : Fin 2) d.scatterDimsToOperandDims, List.idxOf_lt_length_iff.2 hm⟩
      = ix2 n (0 : Fin 1) := by
    funext b
    refine Fin.ext ?_
    match b with
    | ⟨0, _⟩ =>
      unfold ScatterDims.siIdx
      rw [dif_neg (by rw [hivd]; exact Nat.zero_ne_one)]
      unfold ScatterDims.siCoord
      simp only [Fin.val_cast]
      exact e _ (List.getElem_mem _)
    | ⟨1, _⟩ =>
      unfold ScatterDims.siIdx
      rw [dif_pos (by rw [hivd])]
      show List.idxOf (0 : Fin 2) d.scatterDimsToOperandDims = 0
      rw [hsd]; simp
  unfold ScatterDims.start
  rw [dif_pos hm, hsi]

theorem rows_start1 (idx : IVec ⟨2, ![N, 1]⟩ w) (n : Fin N) (c : Fin C) :
    d.start (ix2 n c) idx 1 = 0 := by
  have hm : (1 : Fin 2) ∉ d.scatterDimsToOperandDims := by rw [hsd]; simp
  unfold ScatterDims.start
  rw [dif_neg hm]

theorem rows_sKept : d.sKept = [1] := by
  show (List.finRange 2).filter (· ∉ d.insertedWindowDims) = _
  rw [hiw]; rfl

theorem rows_window0 (n : Fin N) (c : Fin C) : d.window (ix2 n c) 0 = 0 := by
  have hk : (0 : Fin 2) ∉ d.sKept := by rw [rows_sKept d huw hiw hsd hivd]; simp
  unfold ScatterDims.window
  rw [dif_neg hk]

theorem rows_window1 (n : Fin N) (c : Fin C) : d.window (ix2 n c) 1 = c.val := by
  have hk : (1 : Fin 2) ∈ d.sKept := by rw [rows_sKept d huw hiw hsd hivd]; simp
  have e : ∀ X : Fin 2, X ∈ d.updateWindowDims → ((ix2 n c : (⟨2, ![N, C]⟩ : Shape).Idx) X).val = c.val := fun X hX => by
    rw [huw] at hX
    obtain rfl := List.mem_singleton.mp hX
    rfl
  unfold ScatterDims.window
  rw [dif_pos hk]
  exact e _ (List.getElem_mem _)

/-- Where an update entry lands: entry (n, c) of the updates lands on entry (g, q) of the operand exactly when row
    n's index, read signed, is g and the columns agree. -/
theorem rows_resultIdx (idx : IVec ⟨2, ![N, 1]⟩ w) (n : Fin N) (c : Fin C) (g : Fin G) (q : Fin C) :
    d.resultIdx? (ix2 n c) idx = some (ix2 g q) ↔ (idx (ix2 n (0 : Fin 1))).toInt = (g.val : Int) ∧ c = q := by
  have hs0 := rows_start0 d huw hiw hsd hivd idx n c
  have hs1 := rows_start1 d huw hiw hsd hivd idx n c
  have hw0 := rows_window0 d huw hiw hsd hivd n c
  have hw1 := rows_window1 d huw hiw hsd hivd n c
  unfold ScatterDims.resultIdx?
  split
  · rename_i h
    rw [Option.some.injEq]
    constructor
    · intro e
      have e0 : (d.start (ix2 n c) idx 0 + (d.window (ix2 n c) 0 : Int)).toNat = g.val := congrArg (fun f => (f 0).val) e
      have e1 : (d.start (ix2 n c) idx 1 + (d.window (ix2 n c) 1 : Int)).toNat = q.val := congrArg (fun f => (f 1).val) e
      have h0 := (h 0).1
      rw [hs0, hw0] at e0 h0
      rw [hs1, hw1] at e1
      exact ⟨by omega, Fin.ext (by omega)⟩
    · rintro ⟨e0, rfl⟩
      funext a
      refine Fin.ext ?_
      match a with
      | ⟨0, _⟩ =>
        show (d.start (ix2 n c) idx 0 + (d.window (ix2 n c) 0 : Int)).toNat = g.val
        rw [hs0, hw0, e0]; omega
      | ⟨1, _⟩ =>
        show (d.start (ix2 n c) idx 1 + (d.window (ix2 n c) 1 : Int)).toNat = c.val
        rw [hs1, hw1]; omega
  · rename_i h
    constructor
    · intro e; exact absurd e (by simp)
    · rintro ⟨e0, rfl⟩
      exfalso; apply h
      intro a
      match a with
      | ⟨0, _⟩ =>
        show 0 ≤ d.start (ix2 n c) idx 0 + (d.window (ix2 n c) 0 : Int) ∧ d.start (ix2 n c) idx 0 + (d.window (ix2 n c) 0 : Int) < (G : Int)
        rw [hs0, hw0, e0]; have := g.isLt; omega
      | ⟨1, _⟩ =>
        show 0 ≤ d.start (ix2 n c) idx 1 + (d.window (ix2 n c) 1 : Int) ∧ d.start (ix2 n c) idx 1 + (d.window (ix2 n c) 1 : Int) < (C : Int)
        rw [hs1, hw1]; have := c.isLt; omega

/-- The scatter-add of whole rows read at an entry: the operand there plus the sum, over the update rows whose index
    (read signed) names the entry's row, of the update's entry in the same column. -/
theorem scatterAdd_rows_apply {φ : FTy} (x : FVec Ideal ⟨2, ![G, C]⟩ φ) (idx : IVec ⟨2, ![N, 1]⟩ w)
    (upd : FVec Ideal ⟨2, ![N, C]⟩ φ) (g : Fin G) (q : Fin C) :
    Host.scatterAdd (F := Ideal) d x idx upd (ix2 g q)
      = x (ix2 g q) + ∑ n ∈ Finset.univ.filter (fun n : Fin N => (idx (ix2 n (0 : Fin 1))).toInt = (g.val : Int)),
          upd (ix2 n q) := by
  show Ideal.hostScatterAdd d x idx upd (ix2 g q) = _
  unfold Ideal.hostScatterAdd
  congr 1
  rw [Finset.sum_filter, sum_idx2, Finset.sum_filter]
  refine Finset.sum_congr rfl fun n _ => ?_
  simp only [rows_resultIdx d huw hiw hsd hivd]
  by_cases hA : (idx (ix2 n (0 : Fin 1))).toInt = (g.val : Int)
  · simp [hA]
  · simp [hA]

end ScatterRows

/-! ### The counts broadcast down the columns -/

/-- A column of 128 counts broadcast over `W` columns reads, at (g, q), the count of row g. -/
theorem bcast_cols_apply {α : Type} {W : Nat} (h0 : (⟨1, ![128]⟩ : Shape).BroadcastsInDim ⟨2, ![128, 1]⟩ ![0])
    (h1 : (⟨2, ![128, 1]⟩ : Shape).BroadcastsInDim ⟨2, ![128, W]⟩ ![0, 1])
    (cnt : (⟨1, ![128]⟩ : Shape).Idx → α) (g : Fin 128) (q : Fin W) :
    broadcastInDim ⟨2, ![128, W]⟩ ![0, 1] h1 (broadcastInDim ⟨2, ![128, 1]⟩ ![0] h0 cnt) (ix2 g q) = cnt (ix1 g) := by
  rw [broadcastInDim_apply ![0, 1] h1 _ (ix2 g q) (ix2 g (0 : Fin 1)) (fun a => by
        match a with
        | ⟨0, _⟩ => rfl
        | ⟨1, _⟩ => rfl),
      broadcastInDim_apply ![0] h0 cnt (ix2 g (0 : Fin 1)) (ix1 g) (fun a => by
        match a with
        | ⟨0, _⟩ => rfl)]

/-! ### Pooling and setting side by side -/

section Pool

variable [Cert.KernelIdeal.Facts₀] [Cert.ReferenceIdeal.Facts₀]

/-- One layer's per-graph mean as the kernel program computes it: the rows of `h` scatter-added at their graphs over
    zeros, each graph's row divided by its count. -/
abbrev poolOne (idx : IVec Cert.KernelIdeal.S100000x1 32) (cnt : FVec Ideal Cert.KernelIdeal.S128 .f32)
    (h : FVec Ideal Cert.KernelIdeal.S100000x128 .f32) : FVec Ideal Cert.KernelIdeal.S128x128 .f32 :=
  Host.divf
    (Host.scatterAdd Cert.KernelIdeal.scatter_S128x128_S100000x1_S100000x128_1_0_0_1
      (broadcastInDim Cert.KernelIdeal.S128x128 ![] Cert.KernelIdeal.Facts₀.bcast_S_S128x128 (constant Cert.KernelIdeal.S_ .f32 0x00000000#32)) idx h)
    (broadcastInDim Cert.KernelIdeal.S128x128 ![0, 1] Cert.KernelIdeal.Facts₀.bcast_S128x1_S128x128_0_1
      (broadcastInDim Cert.KernelIdeal.S128x1 ![0] Cert.KernelIdeal.Facts₀.bcast_S128_S128x1_0 cnt))

/-- The four layers' outputs side by side, pooled at once, as the reference computes it. -/
abbrev poolWide (idx : IVec Cert.ReferenceIdeal.S100000x1 32) (cnt : FVec Ideal Cert.ReferenceIdeal.S128 .f32)
    (h1 h2 h3 h4 : FVec Ideal Cert.ReferenceIdeal.S100000x128 .f32) : FVec Ideal Cert.ReferenceIdeal.S128x512 .f32 :=
  Host.divf
    (Host.scatterAdd Cert.ReferenceIdeal.scatter_S128x512_S100000x1_S100000x512_1_0_0_1
      (broadcastInDim Cert.ReferenceIdeal.S128x512 ![] Cert.ReferenceIdeal.Facts₀.bcast_S_S128x512 (constant Cert.ReferenceIdeal.S_ .f32 0x00000000#32)) idx
      (concatenate Cert.ReferenceIdeal.S100000x512 1 [⟨Cert.ReferenceIdeal.S100000x128, h1⟩, ⟨Cert.ReferenceIdeal.S100000x128, h2⟩, ⟨Cert.ReferenceIdeal.S100000x128, h3⟩, ⟨Cert.ReferenceIdeal.S100000x128, h4⟩]
        Cert.ReferenceIdeal.Facts₀.concatenates_S100000x128_S100000x128_S100000x128_S100000x128_S100000x512_d1))
    (broadcastInDim Cert.ReferenceIdeal.S128x512 ![0, 1] Cert.ReferenceIdeal.Facts₀.bcast_S128x1_S128x512_0_1
      (broadcastInDim Cert.ReferenceIdeal.S128x1 ![0] Cert.ReferenceIdeal.Facts₀.bcast_S128_S128x1_0 cnt))

/-- One layer's per-graph mean at an entry: the sum of column j over the nodes of graph g, over the count of g. -/
theorem poolOne_apply (idx : IVec Cert.KernelIdeal.S100000x1 32) (cnt : FVec Ideal Cert.KernelIdeal.S128 .f32)
    (h : FVec Ideal Cert.KernelIdeal.S100000x128 .f32) (g : Fin 128) (j : Fin 128) :
    poolOne idx cnt h (ix2 g j)
      = Ideal.div (∑ n ∈ Finset.univ.filter (fun n : Fin 100000 => (idx (ix2 n (0 : Fin 1))).toInt = (g.val : Int)),
          h (ix2 n j)) (cnt (ix1 g)) := by
  show Ideal.div (Host.scatterAdd (F := Ideal) Cert.KernelIdeal.scatter_S128x128_S100000x1_S100000x128_1_0_0_1 _ idx h (ix2 g j)) _ = _
  rw [scatterAdd_rows_apply (G := 128) (C := 128) (N := 100000) (w := 32)
      Cert.KernelIdeal.scatter_S128x128_S100000x1_S100000x128_1_0_0_1 rfl rfl rfl rfl _ idx h g j,
    broadcastInDim_scalar_apply, bcast_cols_apply, constant_apply, Ideal.ofBits_zero_f32, zero_add]

/-- **Pooling commutes with setting the layers side by side**: the kernel program's four per-layer means set side by
    side are the reference's mean of the four layers set side by side. -/
theorem pool_concat (idx : IVec Cert.KernelIdeal.S100000x1 32) (cnt : FVec Ideal Cert.KernelIdeal.S128 .f32)
    (h1 h2 h3 h4 : FVec Ideal Cert.KernelIdeal.S100000x128 .f32) :
    concatenate Cert.KernelIdeal.S128x512 1
        [⟨Cert.KernelIdeal.S128x128, poolOne idx cnt h1⟩, ⟨Cert.KernelIdeal.S128x128, poolOne idx cnt h2⟩,
         ⟨Cert.KernelIdeal.S128x128, poolOne idx cnt h3⟩, ⟨Cert.KernelIdeal.S128x128, poolOne idx cnt h4⟩]
        Cert.KernelIdeal.Facts₀.concatenates_S128x128_S128x128_S128x128_S128x128_S128x512_d1
      = poolWide idx cnt h1 h2 h3 h4 := by
  funext i
  obtain ⟨g, q, rfl⟩ : ∃ (g : Fin 128) (q : Fin 512), i = ix2 g q := ⟨i 0, i 1, eq_ix2 i⟩
  -- column q is column j of piece l
  let l : Fin 4 := ⟨q.val / 128, by have := q.isLt; omega⟩
  let j : Fin 128 := ⟨q.val % 128, Nat.mod_lt _ (by norm_num)⟩
  let hs : Fin 4 → FVec Ideal Cert.KernelIdeal.S100000x128 .f32 := ![h1, h2, h3, h4]
  have hL : concatenate Cert.KernelIdeal.S128x512 1
        [⟨Cert.KernelIdeal.S128x128, poolOne idx cnt h1⟩, ⟨Cert.KernelIdeal.S128x128, poolOne idx cnt h2⟩,
         ⟨Cert.KernelIdeal.S128x128, poolOne idx cnt h3⟩, ⟨Cert.KernelIdeal.S128x128, poolOne idx cnt h4⟩]
        Cert.KernelIdeal.Facts₀.concatenates_S128x128_S128x128_S128x128_S128x128_S128x512_d1 (ix2 g q)
      = poolOne idx cnt (hs l) (ix2 g j) :=
    concatenate_ofFn_apply (t := Cert.KernelIdeal.S128x512) (s₁ := Cert.KernelIdeal.S128x128) 1 (fun n : Fin 4 => poolOne idx cnt (hs n))
      Cert.KernelIdeal.Facts₀.concatenates_S128x128_S128x128_S128x128_S128x128_S128x512_d1 rfl 128 rfl (ix2 g q) l rfl (ix2 g j) rfl
      (fun b => by
        match b with
        | ⟨0, _⟩ => exact fun _ => rfl
        | ⟨1, _⟩ => exact fun hb => absurd rfl hb)
  have hW : ∀ n : Fin 100000, concatenate Cert.ReferenceIdeal.S100000x512 1
        [⟨Cert.ReferenceIdeal.S100000x128, h1⟩, ⟨Cert.ReferenceIdeal.S100000x128, h2⟩, ⟨Cert.ReferenceIdeal.S100000x128, h3⟩, ⟨Cert.ReferenceIdeal.S100000x128, h4⟩]
        Cert.ReferenceIdeal.Facts₀.concatenates_S100000x128_S100000x128_S100000x128_S100000x128_S100000x512_d1 (ix2 n q)
      = hs l (ix2 n j) := fun n =>
    concatenate_ofFn_apply (t := Cert.ReferenceIdeal.S100000x512) (s₁ := Cert.ReferenceIdeal.S100000x128) 1 hs
      Cert.ReferenceIdeal.Facts₀.concatenates_S100000x128_S100000x128_S100000x128_S100000x128_S100000x512_d1 rfl 128 rfl (ix2 n q) l rfl (ix2 n j) rfl
      (fun b => by
        match b with
        | ⟨0, _⟩ => exact fun _ => rfl
        | ⟨1, _⟩ => exact fun hb => absurd rfl hb)
  rw [hL, poolOne_apply]
  show _ = Ideal.div (Host.scatterAdd (F := Ideal) Cert.ReferenceIdeal.scatter_S128x512_S100000x1_S100000x512_1_0_0_1 _ idx _ (ix2 g q)) _
  rw [scatterAdd_rows_apply (G := 128) (C := 512) (N := 100000) (w := 32)
      Cert.ReferenceIdeal.scatter_S128x512_S100000x1_S100000x512_1_0_0_1 rfl rfl rfl rfl _ idx _ g q,
    broadcastInDim_scalar_apply, bcast_cols_apply, constant_apply, Ideal.ofBits_zero_f32, zero_add,
    Finset.sum_congr rfl fun n _ => hW n]

/-- The same with the reference's own names: at the node-to-graph column `a3` and the reference's graph counts, the
    kernel program's side-by-side means are the reference's pooled result. -/
theorem pool_concat_ref (a3 : IVec Cert.ReferenceIdeal.S100000 32) (h1 h2 h3 h4 : FVec Ideal Cert.ReferenceIdeal.S100000x128 .f32) :
    concatenate Cert.KernelIdeal.S128x512 1
        [⟨Cert.KernelIdeal.S128x128, poolOne (broadcastInDim Cert.KernelIdeal.S100000x1 ![0] Cert.KernelIdeal.Facts₀.bcast_S100000_S100000x1_0 a3) (Cert.ReferenceIdeal.Run.graphCount (F := Ideal) a3) h1⟩,
         ⟨Cert.KernelIdeal.S128x128, poolOne (broadcastInDim Cert.KernelIdeal.S100000x1 ![0] Cert.KernelIdeal.Facts₀.bcast_S100000_S100000x1_0 a3) (Cert.ReferenceIdeal.Run.graphCount (F := Ideal) a3) h2⟩,
         ⟨Cert.KernelIdeal.S128x128, poolOne (broadcastInDim Cert.KernelIdeal.S100000x1 ![0] Cert.KernelIdeal.Facts₀.bcast_S100000_S100000x1_0 a3) (Cert.ReferenceIdeal.Run.graphCount (F := Ideal) a3) h3⟩,
         ⟨Cert.KernelIdeal.S128x128, poolOne (broadcastInDim Cert.KernelIdeal.S100000x1 ![0] Cert.KernelIdeal.Facts₀.bcast_S100000_S100000x1_0 a3) (Cert.ReferenceIdeal.Run.graphCount (F := Ideal) a3) h4⟩]
        Cert.KernelIdeal.Facts₀.concatenates_S128x128_S128x128_S128x128_S128x128_S128x512_d1
      = Cert.ReferenceIdeal.Run.pooled (F := Ideal) h1 h2 h3 h4 a3 :=
  pool_concat _ _ h1 h2 h3 h4

end Pool

end Cert.HostFacts

end
-- ==== Proof.KI.KResult.lean ====
/-
  The program's result buffer against the reference's pooled result.

  The kernel program pools each layer's node features per graph on its own and sets the four 128 × 128 arrays side
  by side; the reference sets the four layers' node features side by side first and pools the 100000 × 512 array.
  Over the extended reals the two are one array (pooling commutes with setting side by side: a scatter-add of whole
  rows acts column by column, and the divisor is the graph's count on both sides), so the result buffer holds the
  reference's pooled result of the four layers' node features as the kernel regions left them.
-/
import proofs.«129379_j32899449487582_2_alg».proof.Proof.KI.KReadEnd
import proofs.«129379_j32899449487582_2_alg».proof.Proof.HostFactsPool

set_option maxRecDepth 16384

noncomputable section

namespace Cert.KernelIdeal.KRead

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-- The kernel program's four per-layer pooled arrays side by side are the reference's pooling of the four layers
    side by side, at any node features. -/
theorem result_eq_pooled (x3 : (⟨S100000, .i32⟩ : BufTy).Contents (Elt Ideal))
    (h1 h2 h3 h4 : (⟨S100000x128, .f32⟩ : BufTy).Contents (Elt Ideal)) :
    result (poolOne h1 x3) (poolOne h2 x3) (poolOne h3 x3) (poolOne h4 x3)
      = Cert.ReferenceIdeal.Run.pooled (F := Ideal) h1 h2 h3 h4 x3 :=
  Cert.HostFacts.pool_concat_ref x3 h1 h2 h3 h4

/-- The program's result buffer at the end holds the reference's pooled result of the four layers' node features as
    the kernel regions left them. -/
theorem result_read_pooled : V21 m (outs m) c main_v244
    = Cert.ReferenceIdeal.Run.pooled (F := Ideal) (W6 m c main_v64) (W10 m c main_v114) (W14 m c main_v164) (W18 m c main_v214) (m ((c : Thread nD τ).loc main_arg3)) :=
  (result_read m c).trans (result_eq_pooled _ _ _ _ _)

end Cert.KernelIdeal.KRead

end
-- ==== Proof.KI.Stats0Pieces.lean ====
/- The statistics kernel's body, case by case, as values: what each case leaves in the two accumulator rows and (at a
   last tile) in the two outputs' blocks, read off the pieces its run found. With y the tile's activations
   (`k0_pay7` of the seven input blocks) and s = the column sums of y (`k0_pay8`): accumulator 0 ends at
   (its contents before) + s, accumulator 1 at (its contents before) + the column sums of y · y, where "before" is the
   zero row at a first tile (the reset) and what the point before left otherwise; at a last tile output 7 holds the new
   accumulator 0 repeated over 8 rows and output 8 the new accumulator 1 likewise. -/
import proofs.«129379_j32899449487582_2_alg».proof.Proof.KI.Stats0
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat)

variable {F : FTy → Type} [FloatOps F]

/-- The whole-buffer accesses are at zero offsets, however the zeros are spelt. -/
theorem unitZero0 : (![0, 0] : Fin 2 → Nat) = fun _ => 0 := funext fun a => by fin_cases a <;> rfl

/-! ## A first tile: the accumulators are reset, then updated -/

theorem sout0_A_0_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay1 (k0_pay5 (F := F)) (k0_pay8 x0 x1 x2 x3 x4 x5 x6) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S1x128) unitZero0]
  simp only [View.readAt_eq_ld, harg2.read_unread, harg3.read_unread, harg4.read_unread, harg5.read_unread, harg6.read_unread, harg7.read_unread, harg8.read_unread, View.ld_unit_zero (S := S5000x128) unitZero0, View.ld_unit_zero (S := S5000x1) unitZero0, View.ld_unit_zero (S := S128x128) unitZero0, View.ld_unit_zero (S := S1x128) unitZero0, View.readCov_unit_zero (S := S1x128) _ unitZero0]

theorem sout0_A_1_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay2 (k0_pay7 x0 x1 x2 x3 x4 x5 x6) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S1x128) unitZero0]
  simp only [View.readAt_eq_ld, harg2.read_unread, harg3.read_unread, harg4.read_unread, harg5.read_unread, harg6.read_unread, harg7.read_unread, harg8.read_unread, View.ld_unit_zero (S := S5000x128) unitZero0, View.ld_unit_zero (S := S5000x1) unitZero0, View.ld_unit_zero (S := S128x128) unitZero0, View.ld_unit_zero (S := S1x128) unitZero0, View.readCov_unit_zero (S := S1x128) _ unitZero0]

/-! ## A middle tile: the accumulators are updated from what the point before left -/

theorem sout0_B_0_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay1 xs0 (k0_pay8 x0 x1 x2 x3 x4 x5 x6) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero (S := S1x128) unitZero0]
  simp only [View.readAt_eq_ld, harg2.read_unread, harg3.read_unread, harg4.read_unread, harg5.read_unread, harg6.read_unread, harg7.read_unread, harg8.read_unread, harg11.read_unread, harg12.read_unread, View.ld_unit_zero (S := S5000x128) unitZero0, View.ld_unit_zero (S := S5000x1) unitZero0, View.ld_unit_zero (S := S128x128) unitZero0, View.ld_unit_zero (S := S1x128) unitZero0, View.readCov_unit_zero (S := S1x128) _ unitZero0]

theorem sout0_B_1_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay2 (k0_pay7 x0 x1 x2 x3 x4 x5 x6) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero (S := S1x128) unitZero0]
  simp only [View.readAt_eq_ld, harg2.read_unread, harg3.read_unread, harg4.read_unread, harg5.read_unread, harg6.read_unread, harg7.read_unread, harg8.read_unread, harg11.read_unread, harg12.read_unread, View.ld_unit_zero (S := S5000x128) unitZero0, View.ld_unit_zero (S := S5000x1) unitZero0, View.ld_unit_zero (S := S128x128) unitZero0, View.ld_unit_zero (S := S1x128) unitZero0, View.readCov_unit_zero (S := S1x128) _ unitZero0]

/-! ## A last tile: the accumulators are updated, then stored into the outputs -/

theorem sout0_C_0_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay1 xs0 (k0_pay8 x0 x1 x2 x3 x4 x5 x6) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero (S := S1x128) unitZero0]
  simp only [View.readAt_eq_ld, harg2.read_unread, harg3.read_unread, harg4.read_unread, harg5.read_unread, harg6.read_unread, harg7.read_unread, harg8.read_unread, harg11.read_unread, harg12.read_unread, View.ld_unit_zero (S := S5000x128) unitZero0, View.ld_unit_zero (S := S5000x1) unitZero0, View.ld_unit_zero (S := S128x128) unitZero0, View.ld_unit_zero (S := S1x128) unitZero0, View.readCov_unit_zero (S := S1x128) _ unitZero0]

theorem sout0_C_1_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay2 (k0_pay7 x0 x1 x2 x3 x4 x5 x6) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero (S := S1x128) unitZero0]
  simp only [View.readAt_eq_ld, harg2.read_unread, harg3.read_unread, harg4.read_unread, harg5.read_unread, harg6.read_unread, harg7.read_unread, harg8.read_unread, harg11.read_unread, harg12.read_unread, View.ld_unit_zero (S := S5000x128) unitZero0, View.ld_unit_zero (S := S5000x1) unitZero0, View.ld_unit_zero (S := S128x128) unitZero0, View.ld_unit_zero (S := S1x128) unitZero0, View.readCov_unit_zero (S := S1x128) _ unitZero0]

theorem out0_C_7_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    out0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay3 (k0_pay1 xs0 (k0_pay8 x0 x1 x2 x3 x4 x5 x6)) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero (S := S8x128) unitZero0]
  simp only [View.readAt_eq_ld, harg2.read_unread, harg3.read_unread, harg4.read_unread, harg5.read_unread, harg6.read_unread, harg7.read_unread, harg8.read_unread, harg11.read_unread, harg12.read_unread, View.ld_unit_zero (S := S5000x128) unitZero0, View.ld_unit_zero (S := S5000x1) unitZero0, View.ld_unit_zero (S := S128x128) unitZero0, View.ld_unit_zero (S := S1x128) unitZero0, View.readCov_unit_zero (S := S1x128) _ unitZero0]

theorem out0_C_8_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay4 (k0_pay2 (k0_pay7 x0 x1 x2 x3 x4 x5 x6) xs1) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero (S := S8x128) unitZero0]
  simp only [View.readAt_eq_ld, harg2.read_unread, harg3.read_unread, harg4.read_unread, harg5.read_unread, harg6.read_unread, harg7.read_unread, harg8.read_unread, harg11.read_unread, harg12.read_unread, View.ld_unit_zero (S := S5000x128) unitZero0, View.ld_unit_zero (S := S5000x1) unitZero0, View.ld_unit_zero (S := S128x128) unitZero0, View.ld_unit_zero (S := S1x128) unitZero0, View.readCov_unit_zero (S := S1x128) _ unitZero0]

end Cert.KernelIdeal.Gen

end
-- ==== Proof.KI.Stats0Value.lean ====
/-
  The statistics kernel's two outputs as sums, at the extended reals.

  The region runs a grid of 2 × 10 points; point `t` reads tile `t` (5000 rows) of the node features `h`, of the
  neighbour sums `raw` and of the reciprocal-degree column `inv`, and the whole weight matrices, bias and slope; its
  body forms the tile's rectified affine block `X t` (`KLayer.X`) and adds the block's column sums to one
  accumulator row and the column sums of its squares to another. A core's first tile resets both rows first; its
  last tile stores each row, repeated over eight rows, into the core's block of one of the two 16 × 128 outputs,
  which is then written back. So after the region, for core `cr`, sublane `a` and column `j`,
      S[8 cr + a, j] = ∑_{t < 10} ∑_{r < 5000} X (10 cr + t) [r, j],     Q[8 cr + a, j] = ∑_{t < 10} ∑_{r < 5000} X (10 cr + t) [r, j]²
  (`statsS0`, `statsQ0`), for any contents `V` of the buffers when the region is entered.
  The steps: each input window's block is a tile of its array, or the whole array (the windows' index maps decided
  over the grid); what each control case leaves in the accumulators is a running sum, so by induction on the point
  within a core's row each accumulator holds the sums over the core's tiles so far (`acc_inv`); at a core's last
  tile the stored blocks are the finished rows on every sublane (`out_last`); what is written back there is the
  block of one function of the array index (`flushed0_7_eq`, `flushed0_8_eq`), the two cores' blocks cover the
  array (`covered0_7`, `covered0_8`), hence the array after the region is that function (`final0_7`, `final0_8`).
-/
import proofs.«129379_j32899449487582_2_alg».proof.Proof.KI.Stats0Pieces
import proofs.«129379_j32899449487582_2_alg».proof.Proof.KI.KLayer
import Idealize.ShloMosaic.Lib.ValueIdx
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-! ## The input windows' blocks as tiles of their arrays -/

/-- Window 0's block index at point `t` is `(t, 0)`: the grid's points in order are the array's row tiles in order. -/
theorem blockIndex0_0 : ∀ t : Fin cfg0.N, win0_0.index t (0 : Fin 2) = t.val ∧ win0_0.index t (1 : Fin 2) = 0 :=
  (by decide +kernel : ∀ t : Fin grid0.N, _)

/-- Window 0's block at point `t` is rows `5000·t … 5000·t + 4999` of its array: entry `x` of the block is the array's
    entry at row `5000·t + x 0`, column `x 1`. -/
theorem iblk0_0_apply (c : Dev nD) (t : Fin cfg0.N) (x : S5000x128.Idx) (k : S100000x128.Idx)
    (hk0 : (k 0).val = 5000 * t.val + (x 0).val) (hk1 : (k 1).val = (x 1).val) :
    (iblk0 V c 0 t : Vec F S5000x128 .f32) x = (V c (Pipeline.arrRef spec0 0) : Vec F S100000x128 .f32) k := by
  have hi := blockIndex0_0 t
  unfold iblk0
  rw [View.read_apply]
  show V c main_v6 _ = V c main_v6 _
  congr 1
  funext a
  apply Fin.ext
  match a with
  | ⟨0, _⟩ => show win0_0.index t 0 * 5000 + 1 * (x 0).val = (k 0).val; rw [hi.1, hk0]; omega
  | ⟨1, _⟩ => show win0_0.index t 1 * 128 + 1 * (x 1).val = (k 1).val; rw [hi.2, hk1]; omega

/-- The same at explicit coordinates. -/
theorem iblk0_0_ix2 (c : Dev nD) (t : Fin cfg0.N) (r : Fin 5000) (j : Fin 128) (h : 5000 * t.val + r.val < 100000) :
    (iblk0 V c 0 t : Vec F S5000x128 .f32) (ix2 r j) = (V c (Pipeline.arrRef spec0 0) : Vec F S100000x128 .f32) (ix2 ⟨5000 * t.val + r.val, h⟩ j) :=
  iblk0_0_apply V c t (ix2 r j) (ix2 ⟨5000 * t.val + r.val, h⟩ j) rfl rfl

/-- Window 1's block index at point `t` is `(t, 0)`: the grid's points in order are the array's row tiles in order. -/
theorem blockIndex0_1 : ∀ t : Fin cfg0.N, win0_1.index t (0 : Fin 2) = t.val ∧ win0_1.index t (1 : Fin 2) = 0 :=
  (by decide +kernel : ∀ t : Fin grid0.N, _)

/-- Window 1's block at point `t` is rows `5000·t … 5000·t + 4999` of its array: entry `x` of the block is the array's
    entry at row `5000·t + x 0`, column `x 1`. -/
theorem iblk0_1_apply (c : Dev nD) (t : Fin cfg0.N) (x : S5000x128.Idx) (k : S100000x128.Idx)
    (hk0 : (k 0).val = 5000 * t.val + (x 0).val) (hk1 : (k 1).val = (x 1).val) :
    (iblk0 V c 1 t : Vec F S5000x128 .f32) x = (V c (Pipeline.arrRef spec0 1) : Vec F S100000x128 .f32) k := by
  have hi := blockIndex0_1 t
  unfold iblk0
  rw [View.read_apply]
  show V c main_v24 _ = V c main_v24 _
  congr 1
  funext a
  apply Fin.ext
  match a with
  | ⟨0, _⟩ => show win0_1.index t 0 * 5000 + 1 * (x 0).val = (k 0).val; rw [hi.1, hk0]; omega
  | ⟨1, _⟩ => show win0_1.index t 1 * 128 + 1 * (x 1).val = (k 1).val; rw [hi.2, hk1]; omega

/-- The same at explicit coordinates. -/
theorem iblk0_1_ix2 (c : Dev nD) (t : Fin cfg0.N) (r : Fin 5000) (j : Fin 128) (h : 5000 * t.val + r.val < 100000) :
    (iblk0 V c 1 t : Vec F S5000x128 .f32) (ix2 r j) = (V c (Pipeline.arrRef spec0 1) : Vec F S100000x128 .f32) (ix2 ⟨5000 * t.val + r.val, h⟩ j) :=
  iblk0_1_apply V c t (ix2 r j) (ix2 ⟨5000 * t.val + r.val, h⟩ j) rfl rfl

/-- Window 2's block index at point `t` is `(t, 0)`: the grid's points in order are the array's row tiles in order. -/
theorem blockIndex0_2 : ∀ t : Fin cfg0.N, win0_2.index t (0 : Fin 2) = t.val ∧ win0_2.index t (1 : Fin 2) = 0 :=
  (by decide +kernel : ∀ t : Fin grid0.N, _)

/-- Window 2's block at point `t` is rows `5000·t … 5000·t + 4999` of its array: entry `x` of the block is the array's
    entry at row `5000·t + x 0`, column `x 1`. -/
theorem iblk0_2_apply (c : Dev nD) (t : Fin cfg0.N) (x : S5000x1.Idx) (k : S100000x1.Idx)
    (hk0 : (k 0).val = 5000 * t.val + (x 0).val) (hk1 : (k 1).val = (x 1).val) :
    (iblk0 V c 2 t : Vec F S5000x1 .f32) x = (V c (Pipeline.arrRef spec0 2) : Vec F S100000x1 .f32) k := by
  have hi := blockIndex0_2 t
  unfold iblk0
  rw [View.read_apply]
  show V c main_v14 _ = V c main_v14 _
  congr 1
  funext a
  apply Fin.ext
  match a with
  | ⟨0, _⟩ => show win0_2.index t 0 * 5000 + 1 * (x 0).val = (k 0).val; rw [hi.1, hk0]; omega
  | ⟨1, _⟩ => show win0_2.index t 1 * 1 + 1 * (x 1).val = (k 1).val; rw [hi.2, hk1]; omega

/-- The same at explicit coordinates. -/
theorem iblk0_2_ix2 (c : Dev nD) (t : Fin cfg0.N) (r : Fin 5000) (j : Fin 1) (h : 5000 * t.val + r.val < 100000) :
    (iblk0 V c 2 t : Vec F S5000x1 .f32) (ix2 r j) = (V c (Pipeline.arrRef spec0 2) : Vec F S100000x1 .f32) (ix2 ⟨5000 * t.val + r.val, h⟩ j) :=
  iblk0_2_apply V c t (ix2 r j) (ix2 ⟨5000 * t.val + r.val, h⟩ j) rfl rfl

/-- Window 3's block index is `(0, 0)` at every point: the window is its whole array. -/
theorem blockIndex0_3 : ∀ t : Fin cfg0.N, win0_3.index t (0 : Fin 2) = 0 ∧ win0_3.index t (1 : Fin 2) = 0 :=
  (by decide +kernel : ∀ t : Fin grid0.N, _)

/-- Window 3's block at every point is its whole array. -/
theorem iblk0_3_eq (c : Dev nD) (t : Fin cfg0.N) :
    (iblk0 V c 3 t : Vec F S128x128 .f32) = (V c (Pipeline.arrRef spec0 3) : Vec F S128x128 .f32) := by
  have hi := blockIndex0_3 t
  funext x
  unfold iblk0
  rw [View.read_apply]
  show V c main_v38 _ = V c main_v38 _
  congr 1
  funext a
  apply Fin.ext
  match a with
  | ⟨0, _⟩ => show win0_3.index t 0 * 128 + 1 * (x 0).val = (x 0).val; rw [hi.1]; omega
  | ⟨1, _⟩ => show win0_3.index t 1 * 128 + 1 * (x 1).val = (x 1).val; rw [hi.2]; omega

/-- Window 4's block index is `(0, 0)` at every point: the window is its whole array. -/
theorem blockIndex0_4 : ∀ t : Fin cfg0.N, win0_4.index t (0 : Fin 2) = 0 ∧ win0_4.index t (1 : Fin 2) = 0 :=
  (by decide +kernel : ∀ t : Fin grid0.N, _)

/-- Window 4's block at every point is its whole array. -/
theorem iblk0_4_eq (c : Dev nD) (t : Fin cfg0.N) :
    (iblk0 V c 4 t : Vec F S128x128 .f32) = (V c (Pipeline.arrRef spec0 4) : Vec F S128x128 .f32) := by
  have hi := blockIndex0_4 t
  funext x
  unfold iblk0
  rw [View.read_apply]
  show V c main_v40 _ = V c main_v40 _
  congr 1
  funext a
  apply Fin.ext
  match a with
  | ⟨0, _⟩ => show win0_4.index t 0 * 128 + 1 * (x 0).val = (x 0).val; rw [hi.1]; omega
  | ⟨1, _⟩ => show win0_4.index t 1 * 128 + 1 * (x 1).val = (x 1).val; rw [hi.2]; omega

/-- Window 5's block index is `(0, 0)` at every point: the window is its whole array. -/
theorem blockIndex0_5 : ∀ t : Fin cfg0.N, win0_5.index t (0 : Fin 2) = 0 ∧ win0_5.index t (1 : Fin 2) = 0 :=
  (by decide +kernel : ∀ t : Fin grid0.N, _)

/-- Window 5's block at every point is its whole array. -/
theorem iblk0_5_eq (c : Dev nD) (t : Fin cfg0.N) :
    (iblk0 V c 5 t : Vec F S1x128 .f32) = (V c (Pipeline.arrRef spec0 5) : Vec F S1x128 .f32) := by
  have hi := blockIndex0_5 t
  funext x
  unfold iblk0
  rw [View.read_apply]
  show V c main_v27 _ = V c main_v27 _
  congr 1
  funext a
  apply Fin.ext
  match a with
  | ⟨0, _⟩ => show win0_5.index t 0 * 1 + 1 * (x 0).val = (x 0).val; rw [hi.1]; omega
  | ⟨1, _⟩ => show win0_5.index t 1 * 128 + 1 * (x 1).val = (x 1).val; rw [hi.2]; omega

/-- Window 6's block index is `(0, 0)` at every point: the window is its whole array. -/
theorem blockIndex0_6 : ∀ t : Fin cfg0.N, win0_6.index t (0 : Fin 2) = 0 ∧ win0_6.index t (1 : Fin 2) = 0 :=
  (by decide +kernel : ∀ t : Fin grid0.N, _)

/-- Window 6's block at every point is its whole array. -/
theorem iblk0_6_eq (c : Dev nD) (t : Fin cfg0.N) :
    (iblk0 V c 6 t : Vec F S1x128 .f32) = (V c (Pipeline.arrRef spec0 6) : Vec F S1x128 .f32) := by
  have hi := blockIndex0_6 t
  funext x
  unfold iblk0
  rw [View.read_apply]
  show V c main_v30 _ = V c main_v30 _
  congr 1
  funext a
  apply Fin.ext
  match a with
  | ⟨0, _⟩ => show win0_6.index t 0 * 1 + 1 * (x 0).val = (x 0).val; rw [hi.1]; omega
  | ⟨1, _⟩ => show win0_6.index t 1 * 128 + 1 * (x 1).val = (x 1).val; rw [hi.2]; omega

section AtIdeal

variable (V : (c : Dev nD) → (b : Ref sig .tc) → Buf (Elt Ideal) ((c : Thread nD τ).loc b))

/-- Window 0's block at point `t` is tile `t` of its array. -/
theorem iblk0_0_tile (c : Dev nD) (t : Fin cfg0.N) :
    (iblk0 V c 0 t : FVec Ideal S5000x128 .f32) = KLayer.tile (V c (Pipeline.arrRef spec0 0)) t :=
  funext fun y => iblk0_0_apply V c t y (ix2 ⟨5000 * t.val + (y 0).val, KLayer.row_lt t (y 0)⟩ (y 1)) rfl rfl

/-- Window 1's block at point `t` is tile `t` of its array. -/
theorem iblk0_1_tile (c : Dev nD) (t : Fin cfg0.N) :
    (iblk0 V c 1 t : FVec Ideal S5000x128 .f32) = KLayer.tile (V c (Pipeline.arrRef spec0 1)) t :=
  funext fun y => iblk0_1_apply V c t y (ix2 ⟨5000 * t.val + (y 0).val, KLayer.row_lt t (y 0)⟩ (y 1)) rfl rfl

/-- Window 2's block at point `t` is tile `t` of its array. -/
theorem iblk0_2_tile (c : Dev nD) (t : Fin cfg0.N) :
    (iblk0 V c 2 t : FVec Ideal S5000x1 .f32) = KLayer.tile1 (V c (Pipeline.arrRef spec0 2)) t :=
  funext fun y => iblk0_2_apply V c t y (ix2 ⟨5000 * t.val + (y 0).val, KLayer.row_lt t (y 0)⟩ (y 1)) rfl rfl

/-- The tile's rectified affine block, over the region's seven input arrays as it finds them. -/
noncomputable abbrev Xt (c : Dev nD) (t : Fin 20) : FVec Ideal S5000x128 .f32 :=
  KLayer.X (V c (Pipeline.arrRef spec0 0)) (V c (Pipeline.arrRef spec0 1)) (V c (Pipeline.arrRef spec0 2)) (V c (Pipeline.arrRef spec0 3))
    (V c (Pipeline.arrRef spec0 4)) (V c (Pipeline.arrRef spec0 5)) (V c (Pipeline.arrRef spec0 6)) t

/-- The body's block at point `t` is the tile's rectified affine block. -/
theorem pay7_blocks (c : Dev nD) (t : Fin cfg0.N) :
    k0_pay7 (F := Ideal) (iblk0 V c 0 t) (iblk0 V c 1 t) (iblk0 V c 2 t) (iblk0 V c 3 t) (iblk0 V c 4 t) (iblk0 V c 5 t) (iblk0 V c 6 t) = Xt V c t := by
  rw [iblk0_0_tile V c t, iblk0_1_tile V c t, iblk0_2_tile V c t, iblk0_3_eq V c t, iblk0_4_eq V c t, iblk0_5_eq V c t, iblk0_6_eq V c t]
  rfl

/-! ## The accumulators after each point -/

/-- Tile `n`'s column sums (zero past the grid: never read). -/
noncomputable def tileSum (c : Dev nD) (n : ℕ) (j : Fin 128) : EReal :=
  if h : n < 20 then ∑ r : Fin 5000, Xt V c ⟨n, h⟩ (ix2 r j) else 0

/-- Tile `n`'s column sums of squares (zero past the grid: never read). -/
noncomputable def tileSq (c : Dev nD) (n : ℕ) (j : Fin 128) : EReal :=
  if h : n < 20 then ∑ r : Fin 5000, Xt V c ⟨n, h⟩ (ix2 r j) * Xt V c ⟨n, h⟩ (ix2 r j) else 0

/-- The block's column sums at point `t` are tile `t`'s. -/
theorem pay8_blocks (c : Dev nD) (t : Fin cfg0.N) (j : Fin 128) :
    k0_pay8 (F := Ideal) (iblk0 V c 0 t) (iblk0 V c 1 t) (iblk0 V c 2 t) (iblk0 V c 3 t) (iblk0 V c 4 t) (iblk0 V c 5 t) (iblk0 V c 6 t) (ix1 j) = tileSum V c t.val j := by
  rw [PayIdeal.pay8_apply, pay7_blocks V c t]
  unfold tileSum
  rw [dif_pos (show t.val < 20 from t.isLt)] <;> rfl

/-- The block's column sums of squares at point `t` are tile `t`'s. -/
theorem sq_blocks (c : Dev nD) (t : Fin cfg0.N) (j : Fin 128) :
    (∑ r : Fin 5000, k0_pay7 (F := Ideal) (iblk0 V c 0 t) (iblk0 V c 1 t) (iblk0 V c 2 t) (iblk0 V c 3 t) (iblk0 V c 4 t) (iblk0 V c 5 t) (iblk0 V c 6 t) (ix2 r j) * k0_pay7 (F := Ideal) (iblk0 V c 0 t) (iblk0 V c 1 t) (iblk0 V c 2 t) (iblk0 V c 3 t) (iblk0 V c 4 t) (iblk0 V c 5 t) (iblk0 V c 6 t) (ix2 r j)) = tileSq V c t.val j := by
  rw [pay7_blocks V c t]
  unfold tileSq
  rw [dif_pos (show t.val < 20 from t.isLt)] <;> rfl

/-- At a core's first tile both accumulators are reset and then take the tile's sums. -/
theorem acc_first (c : Dev nD) (t : Fin cfg0.N) (h0 : t.val % 10 = 0) (j : Fin 128) :
    ((outsAt0 V c t.val t.isLt).2.2.1 : FVec Ideal S1x128 .f32) (ix2 (0 : Fin 1) j) = tileSum V c t.val j
    ∧ ((outsAt0 V c t.val t.isLt).2.2.2 : FVec Ideal S1x128 .f32) (ix2 (0 : Fin 1) j) = tileSq V c t.val j := by
  have h1 : ¬t.val % 10 = 9 := by omega
  rw [outsAt0_A V c t h0 h1]
  dsimp only
  constructor
  · refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) (ix2 (0 : Fin 1) j)).trans ?_
    rw [PayIdeal.pay1_apply, PayIdeal.pay5_apply, pay8_blocks V c t j, zero_add]
  · refine (congrFun (sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) (ix2 (0 : Fin 1) j)).trans ?_
    rw [PayIdeal.pay2_apply, PayIdeal.pay6_apply, sq_blocks V c t j, zero_add]

/-- At any later tile of a core each accumulator adds the tile's sums to what the point before left. -/
theorem acc_step (c : Dev nD) (n : ℕ) (hn : n + 1 < cfg0.N) (h0 : ¬(n + 1) % 10 = 0) (j : Fin 128) :
    ((outsAt0 V c (n + 1) hn).2.2.1 : FVec Ideal S1x128 .f32) (ix2 (0 : Fin 1) j)
        = ((outsAt0 V c n (Nat.lt_of_succ_lt hn)).2.2.1 : FVec Ideal S1x128 .f32) (ix2 (0 : Fin 1) j) + tileSum V c (n + 1) j
    ∧ ((outsAt0 V c (n + 1) hn).2.2.2 : FVec Ideal S1x128 .f32) (ix2 (0 : Fin 1) j)
        = ((outsAt0 V c n (Nat.lt_of_succ_lt hn)).2.2.2 : FVec Ideal S1x128 .f32) (ix2 (0 : Fin 1) j) + tileSq V c (n + 1) j := by
  by_cases h1 : (n + 1) % 10 = 9
  · rw [outsAt0_C V c ⟨n + 1, hn⟩ h0 h1]
    dsimp only
    constructor
    · refine (congrFun (sout0_C_0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 V c n (Nat.lt_of_succ_lt hn)).2.2.1 (outsAt0 V c n (Nat.lt_of_succ_lt hn)).2.2.2) (ix2 (0 : Fin 1) j)).trans ?_
      rw [PayIdeal.pay1_apply, pay8_blocks V c ⟨n + 1, hn⟩ j]
    · refine (congrFun (sout0_C_1_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 V c n (Nat.lt_of_succ_lt hn)).2.2.1 (outsAt0 V c n (Nat.lt_of_succ_lt hn)).2.2.2) (ix2 (0 : Fin 1) j)).trans ?_
      rw [PayIdeal.pay2_apply, sq_blocks V c ⟨n + 1, hn⟩ j]
  · rw [outsAt0_B V c ⟨n + 1, hn⟩ h0 h1]
    dsimp only
    constructor
    · refine (congrFun (sout0_B_0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 V c n (Nat.lt_of_succ_lt hn)).2.2.1 (outsAt0 V c n (Nat.lt_of_succ_lt hn)).2.2.2) (ix2 (0 : Fin 1) j)).trans ?_
      rw [PayIdeal.pay1_apply, pay8_blocks V c ⟨n + 1, hn⟩ j]
    · refine (congrFun (sout0_B_1_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 V c n (Nat.lt_of_succ_lt hn)).2.2.1 (outsAt0 V c n (Nat.lt_of_succ_lt hn)).2.2.2) (ix2 (0 : Fin 1) j)).trans ?_
      rw [PayIdeal.pay2_apply, sq_blocks V c ⟨n + 1, hn⟩ j]

/-- THE ACCUMULATORS. After point `n`, tile `n % 10` of core `n / 10`, each accumulator row holds the sums over the
    core's tiles so far. -/
theorem acc_inv (c : Dev nD) (j : Fin 128) : ∀ (n : ℕ) (hn : n < cfg0.N),
    ((outsAt0 V c n hn).2.2.1 : FVec Ideal S1x128 .f32) (ix2 (0 : Fin 1) j)
        = ∑ s ∈ Finset.range (n % 10 + 1), tileSum V c (10 * (n / 10) + s) j
    ∧ ((outsAt0 V c n hn).2.2.2 : FVec Ideal S1x128 .f32) (ix2 (0 : Fin 1) j)
        = ∑ s ∈ Finset.range (n % 10 + 1), tileSq V c (10 * (n / 10) + s) j
  | 0, hn => by
    have h := acc_first V c ⟨0, hn⟩ rfl j
    refine ⟨h.1.trans ?_, h.2.trans ?_⟩ <;> simp
  | n + 1, hn => by
    by_cases h0 : (n + 1) % 10 = 0
    · have h := acc_first V c ⟨n + 1, hn⟩ h0 j
      have e : 10 * ((n + 1) / 10) + 0 = n + 1 := by omega
      refine ⟨h.1.trans ?_, h.2.trans ?_⟩ <;> rw [h0, Finset.sum_range_one, e]
    · have h := acc_step V c n hn h0 j
      have ih := acc_inv c j n (Nat.lt_of_succ_lt hn)
      have e1 : (n + 1) % 10 = n % 10 + 1 := by omega
      have e2 : (n + 1) / 10 = n / 10 := by omega
      have e3 : 10 * (n / 10) + (n % 10 + 1) = n + 1 := by omega
      refine ⟨h.1.trans ?_, h.2.trans ?_⟩
      · rw [ih.1, e1, e2, Finset.sum_range_succ _ (n % 10 + 1), e3]
      · rw [ih.2, e1, e2, Finset.sum_range_succ _ (n % 10 + 1), e3]

/-! ## The two outputs' blocks at a core's last tile -/

/-- At a core's last tile output 7's block is the finished sum row on each of its eight rows, output 8's the
    finished row of sums of squares. -/
theorem out_last (c : Dev nD) (t : Fin cfg0.N) (h1 : t.val % 10 = 9) (a : Fin 8) (j : Fin 128) :
    ((outsAt0 V c t.val t.isLt).1 : FVec Ideal S8x128 .f32) (ix2 a j) = ∑ s ∈ Finset.range 10, tileSum V c (10 * (t.val / 10) + s) j
    ∧ ((outsAt0 V c t.val t.isLt).2.1 : FVec Ideal S8x128 .f32) (ix2 a j) = ∑ s ∈ Finset.range 10, tileSq V c (10 * (t.val / 10) + s) j := by
  have h0 : ¬t.val % 10 = 0 := by omega
  have hs := acc_inv V c j t.val t.isLt
  rw [h1] at hs
  rw [outsAt0_C V c t h0 h1] at hs ⊢
  dsimp only at hs ⊢
  obtain ⟨hs0, hs1⟩ := hs
  rw [sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2] at hs0
  rw [sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2] at hs1
  constructor
  · refine (congrFun (out0_C_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 a j)).trans ?_
    rw [PayIdeal.pay3_apply]
    exact hs0
  · refine (congrFun (out0_C_8_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 a j)).trans ?_
    rw [PayIdeal.pay4_apply]
    exact hs1

/-! ## The two output arrays after the region -/

/-- Output window 7's block index at point `t` is `(t / 10, 0)`: the core's eight rows, every one of its 128 columns;
    its blocks are whole. -/
theorem blockIndex0_7 : ∀ t : Fin cfg0.N, win0_7.index t (0 : Fin 2) = t.val / 10 ∧ win0_7.index t (1 : Fin 2) = 0
    ∧ win0_7.xsize (grid0.coords t) (0 : Fin 2) = 8 ∧ win0_7.xsize (grid0.coords t) (1 : Fin 2) = 128 :=
  (by decide +kernel : ∀ t : Fin grid0.N, _)

/-- What output 7's array holds after the region, as one function of its index: the column sums over the ten tiles of
    the core that owns the row. -/
noncomputable def G7 (c : Dev nD) : FVec Ideal S16x128 .f32 :=
  fun i => ∑ s ∈ Finset.range 10, tileSum V c (10 * ((i 0).val / 8) + s) (i 1)

/-- What a write-back of output 7 writes is its block of `G7`. -/
theorem flushed0_7_eq (c : Dev nD) (t : Fin cfg0.N) (hf : (cfg0.win 7).flush t = true) :
    (dat0 V c).flushed 7 t = ((cfg0.win 7).blk t).view.read (Elt Ideal) (G7 V c) := by
  have h1 : t.val % 10 = 9 := (flush0_7 t).mp hf
  obtain ⟨i0, i1, -, -⟩ := blockIndex0_7 t
  show (cfg0.win 7).cut (grid0.coords t) ((dat0 V c).after 7 t) = _
  rw [after0_7]
  funext y
  rw [View.read_apply]
  have hy0 : (y 0).val < 8 := (y 0).isLt
  have e0 : ((((cfg0.win 7).blk t).view.emb y) 0).val = 8 * (t.val / 10) + (y 0).val := by
    show win0_7.index t 0 * 8 + 1 * (y 0).val = _
    rw [i0]; omega
  have e1 : (((cfg0.win 7).blk t).view.emb y) 1 = y 1 := Fin.ext (by
    show win0_7.index t 1 * 128 + 1 * (y 1).val = (y 1).val
    rw [i1]; omega)
  show ((outsAt0 V c t.val t.isLt).1 : FVec Ideal S8x128 .f32) y
    = ∑ s ∈ Finset.range 10, tileSum V c (10 * (((((cfg0.win 7).blk t).view.emb y) 0).val / 8) + s) ((((cfg0.win 7).blk t).view.emb y) 1)
  rw [e1, e0, show (8 * (t.val / 10) + (y 0).val) / 8 = t.val / 10 from by omega, eq_ix2 (n0 := 8) (n1 := 128) y]
  exact (out_last V c t h1 (y 0) (y 1)).1

/-- Every entry of output 7's array is in the block some core's last tile writes back. -/
theorem covered0_7 (i : S16x128.Idx) : ∃ t : Fin cfg0.N, (cfg0.win 7).flush t = true ∧ i ∈ ((cfg0.win 7).blk t).view.set := by
  have hi0 : (i 0).val < 16 := (i 0).isLt
  have hi1 : (i 1).val < 128 := (i 1).isLt
  have hlt : 10 * ((i 0).val / 8) + 9 < cfg0.N := by rw [show cfg0.N = 20 from N_0]; omega
  have hv : (⟨10 * ((i 0).val / 8) + 9, hlt⟩ : Fin cfg0.N).val = 10 * ((i 0).val / 8) + 9 := rfl
  obtain ⟨i0, i1, x0, x1⟩ := blockIndex0_7 ⟨10 * ((i 0).val / 8) + 9, hlt⟩
  rw [hv] at i0
  refine ⟨⟨10 * ((i 0).val / 8) + 9, hlt⟩, (flush0_7 _).mpr (by show (10 * ((i 0).val / 8) + 9) % 10 = 9; omega), ?_⟩
  show i ∈ ((View.whole main_v41_0).slice (win0_7.rect ⟨10 * ((i 0).val / 8) + 9, hlt⟩)).set
  rw [View.set_slice_whole, Rect.mem_set_unit]
  intro a
  match a with
  | ⟨0, _⟩ =>
    show win0_7.index ⟨10 * ((i 0).val / 8) + 9, hlt⟩ 0 * 8 ≤ (i 0 : ℕ) ∧ (i 0 : ℕ) < win0_7.index ⟨10 * ((i 0).val / 8) + 9, hlt⟩ 0 * 8 + win0_7.xsize (grid0.coords ⟨10 * ((i 0).val / 8) + 9, hlt⟩) 0
    rw [i0, x0]
    omega
  | ⟨1, _⟩ =>
    show win0_7.index ⟨10 * ((i 0).val / 8) + 9, hlt⟩ 1 * 128 ≤ (i 1 : ℕ) ∧ (i 1 : ℕ) < win0_7.index ⟨10 * ((i 0).val / 8) + 9, hlt⟩ 1 * 128 + win0_7.xsize (grid0.coords ⟨10 * ((i 0).val / 8) + 9, hlt⟩) 1
    rw [i1, x1]
    omega

/-- Output 7's array after the region is `G7`. -/
theorem final0_7 (c : Dev nD) : (dat0 V c).arrAt 7 cfg0.N = G7 V c :=
  (dat0 V c).arrAt_eq_of_cover 7 (G7 V c) (flushed0_7_eq V c) (covered0_7)

/-- Output window 8's block index at point `t` is `(t / 10, 0)`: the core's eight rows, every one of its 128 columns;
    its blocks are whole. -/
theorem blockIndex0_8 : ∀ t : Fin cfg0.N, win0_8.index t (0 : Fin 2) = t.val / 10 ∧ win0_8.index t (1 : Fin 2) = 0
    ∧ win0_8.xsize (grid0.coords t) (0 : Fin 2) = 8 ∧ win0_8.xsize (grid0.coords t) (1 : Fin 2) = 128 :=
  (by decide +kernel : ∀ t : Fin grid0.N, _)

/-- What output 8's array holds after the region, as one function of its index: the column sums of squares over the ten tiles of
    the core that owns the row. -/
noncomputable def G8 (c : Dev nD) : FVec Ideal S16x128 .f32 :=
  fun i => ∑ s ∈ Finset.range 10, tileSq V c (10 * ((i 0).val / 8) + s) (i 1)

/-- What a write-back of output 8 writes is its block of `G8`. -/
theorem flushed0_8_eq (c : Dev nD) (t : Fin cfg0.N) (hf : (cfg0.win 8).flush t = true) :
    (dat0 V c).flushed 8 t = ((cfg0.win 8).blk t).view.read (Elt Ideal) (G8 V c) := by
  have h1 : t.val % 10 = 9 := (flush0_8 t).mp hf
  obtain ⟨i0, i1, -, -⟩ := blockIndex0_8 t
  show (cfg0.win 8).cut (grid0.coords t) ((dat0 V c).after 8 t) = _
  rw [after0_8]
  funext y
  rw [View.read_apply]
  have hy0 : (y 0).val < 8 := (y 0).isLt
  have e0 : ((((cfg0.win 8).blk t).view.emb y) 0).val = 8 * (t.val / 10) + (y 0).val := by
    show win0_8.index t 0 * 8 + 1 * (y 0).val = _
    rw [i0]; omega
  have e1 : (((cfg0.win 8).blk t).view.emb y) 1 = y 1 := Fin.ext (by
    show win0_8.index t 1 * 128 + 1 * (y 1).val = (y 1).val
    rw [i1]; omega)
  show ((outsAt0 V c t.val t.isLt).2.1 : FVec Ideal S8x128 .f32) y
    = ∑ s ∈ Finset.range 10, tileSq V c (10 * (((((cfg0.win 8).blk t).view.emb y) 0).val / 8) + s) ((((cfg0.win 8).blk t).view.emb y) 1)
  rw [e1, e0, show (8 * (t.val / 10) + (y 0).val) / 8 = t.val / 10 from by omega, eq_ix2 (n0 := 8) (n1 := 128) y]
  exact (out_last V c t h1 (y 0) (y 1)).2

/-- Every entry of output 8's array is in the block some core's last tile writes back. -/
theorem covered0_8 (i : S16x128.Idx) : ∃ t : Fin cfg0.N, (cfg0.win 8).flush t = true ∧ i ∈ ((cfg0.win 8).blk t).view.set := by
  have hi0 : (i 0).val < 16 := (i 0).isLt
  have hi1 : (i 1).val < 128 := (i 1).isLt
  have hlt : 10 * ((i 0).val / 8) + 9 < cfg0.N := by rw [show cfg0.N = 20 from N_0]; omega
  have hv : (⟨10 * ((i 0).val / 8) + 9, hlt⟩ : Fin cfg0.N).val = 10 * ((i 0).val / 8) + 9 := rfl
  obtain ⟨i0, i1, x0, x1⟩ := blockIndex0_8 ⟨10 * ((i 0).val / 8) + 9, hlt⟩
  rw [hv] at i0
  refine ⟨⟨10 * ((i 0).val / 8) + 9, hlt⟩, (flush0_8 _).mpr (by show (10 * ((i 0).val / 8) + 9) % 10 = 9; omega), ?_⟩
  show i ∈ ((View.whole main_v41_1).slice (win0_8.rect ⟨10 * ((i 0).val / 8) + 9, hlt⟩)).set
  rw [View.set_slice_whole, Rect.mem_set_unit]
  intro a
  match a with
  | ⟨0, _⟩ =>
    show win0_8.index ⟨10 * ((i 0).val / 8) + 9, hlt⟩ 0 * 8 ≤ (i 0 : ℕ) ∧ (i 0 : ℕ) < win0_8.index ⟨10 * ((i 0).val / 8) + 9, hlt⟩ 0 * 8 + win0_8.xsize (grid0.coords ⟨10 * ((i 0).val / 8) + 9, hlt⟩) 0
    rw [i0, x0]
    omega
  | ⟨1, _⟩ =>
    show win0_8.index ⟨10 * ((i 0).val / 8) + 9, hlt⟩ 1 * 128 ≤ (i 1 : ℕ) ∧ (i 1 : ℕ) < win0_8.index ⟨10 * ((i 0).val / 8) + 9, hlt⟩ 1 * 128 + win0_8.xsize (grid0.coords ⟨10 * ((i 0).val / 8) + 9, hlt⟩) 1
    rw [i1, x1]
    omega

/-- Output 8's array after the region is `G8`. -/
theorem final0_8 (c : Dev nD) : (dat0 V c).arrAt 8 cfg0.N = G8 V c :=
  (dat0 V c).arrAt_eq_of_cover 8 (G8 V c) (flushed0_8_eq V c) (covered0_8)

/-- THE SUMS. After the region, row `8 cr + a` of the first output holds, in column `j`, the sum of the rectified affine
    map's column `j` over the 50000 rows of core `cr`'s ten tiles. -/
theorem statsS0 (c : Dev nD) (cr : Fin 2) (a : Fin 8) (j : Fin 128) :
    ((dat0 V c).arrAt 7 cfg0.N : FVec Ideal S16x128 .f32) (ix2 ⟨8 * cr.val + a.val, KLayer.srow_lt cr a⟩ j)
      = ∑ t : Fin 10, ∑ r : Fin 5000, Xt V c ⟨10 * cr.val + t.val, KLayer.core_lt cr t⟩ (ix2 r j) := by
  rw [final0_7 V c]
  show ∑ s ∈ Finset.range 10, tileSum V c (10 * ((8 * cr.val + a.val) / 8) + s) j = _
  rw [show (8 * cr.val + a.val) / 8 = cr.val from by omega, Finset.sum_range]
  refine Finset.sum_congr rfl fun t _ => ?_
  unfold tileSum
  rw [dif_pos (KLayer.core_lt cr t)]

/-- THE SUMS OF SQUARES. The same for the second output, of the squares. -/
theorem statsQ0 (c : Dev nD) (cr : Fin 2) (a : Fin 8) (j : Fin 128) :
    ((dat0 V c).arrAt 8 cfg0.N : FVec Ideal S16x128 .f32) (ix2 ⟨8 * cr.val + a.val, KLayer.srow_lt cr a⟩ j)
      = ∑ t : Fin 10, ∑ r : Fin 5000, Xt V c ⟨10 * cr.val + t.val, KLayer.core_lt cr t⟩ (ix2 r j) * Xt V c ⟨10 * cr.val + t.val, KLayer.core_lt cr t⟩ (ix2 r j) := by
  rw [final0_8 V c]
  show ∑ s ∈ Finset.range 10, tileSq V c (10 * ((8 * cr.val + a.val) / 8) + s) j = _
  rw [show (8 * cr.val + a.val) / 8 = cr.val from by omega, Finset.sum_range]
  refine Finset.sum_congr rfl fun t _ => ?_
  unfold tileSq
  rw [dif_pos (KLayer.core_lt cr t)]

end AtIdeal

end Cert.KernelIdeal.Gen

end
-- ==== Proof.KI.Stats2Pieces.lean ====
/- The statistics kernel's body, case by case, as values: what each case leaves in the two accumulator rows and (at a
   last tile) in the two outputs' blocks, read off the pieces its run found. With y the tile's activations
   (`k0_pay7` of the seven input blocks) and s = the column sums of y (`k0_pay8`): accumulator 0 ends at
   (its contents before) + s, accumulator 1 at (its contents before) + the column sums of y · y, where "before" is the
   zero row at a first tile (the reset) and what the point before left otherwise; at a last tile output 7 holds the new
   accumulator 0 repeated over 8 rows and output 8 the new accumulator 1 likewise. -/
import proofs.«129379_j32899449487582_2_alg».proof.Proof.KI.Stats2
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat)

variable {F : FTy → Type} [FloatOps F]

/-- The whole-buffer accesses are at zero offsets, however the zeros are spelt. -/
theorem unitZero2 : (![0, 0] : Fin 2 → Nat) = fun _ => 0 := funext fun a => by fin_cases a <;> rfl

/-! ## A first tile: the accumulators are reset, then updated -/

theorem sout2_A_0_eq (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) :
    sout2_A_0 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay1 (k0_pay5 (F := F)) (k0_pay8 x0 x1 x2 x3 x4 x5 x6) := by
  unfold sout2_A_0
  rw [View.read_writes_eq_canon _ _ _ (scover2_A_0 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun2_A kernelRun0_A
  dsimp only
  sl_unfold_words
  rw [View.canon_cons_unit_zero (S := S1x128) unitZero2]
  simp only [View.readAt_eq_ld, harg2.read_unread, harg3.read_unread, harg4.read_unread, harg5.read_unread, harg6.read_unread, harg7.read_unread, harg8.read_unread, View.ld_unit_zero (S := S5000x128) unitZero2, View.ld_unit_zero (S := S5000x1) unitZero2, View.ld_unit_zero (S := S128x128) unitZero2, View.ld_unit_zero (S := S1x128) unitZero2, View.readCov_unit_zero (S := S1x128) _ unitZero2]
  all_goals rfl

theorem sout2_A_1_eq (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) :
    sout2_A_1 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay2 (k0_pay7 x0 x1 x2 x3 x4 x5 x6) (k0_pay6 (F := F)) := by
  unfold sout2_A_1
  rw [View.read_writes_eq_canon _ _ _ (scover2_A_1 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun2_A kernelRun0_A
  dsimp only
  sl_unfold_words
  rw [View.canon_cons_unit_zero (S := S1x128) unitZero2]
  simp only [View.readAt_eq_ld, harg2.read_unread, harg3.read_unread, harg4.read_unread, harg5.read_unread, harg6.read_unread, harg7.read_unread, harg8.read_unread, View.ld_unit_zero (S := S5000x128) unitZero2, View.ld_unit_zero (S := S5000x1) unitZero2, View.ld_unit_zero (S := S128x128) unitZero2, View.ld_unit_zero (S := S1x128) unitZero2, View.readCov_unit_zero (S := S1x128) _ unitZero2]
  all_goals rfl

/-! ## A middle tile: the accumulators are updated from what the point before left -/

theorem sout2_B_0_eq (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    sout2_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay1 xs0 (k0_pay8 x0 x1 x2 x3 x4 x5 x6) := by
  unfold sout2_B_0
  rw [View.read_writes_eq_canon _ _ _ (scover2_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun2_B kernelRun0_B
  dsimp only
  sl_unfold_words
  rw [View.canon_unit_zero (S := S1x128) unitZero2]
  simp only [View.readAt_eq_ld, harg2.read_unread, harg3.read_unread, harg4.read_unread, harg5.read_unread, harg6.read_unread, harg7.read_unread, harg8.read_unread, harg11.read_unread, harg12.read_unread, View.ld_unit_zero (S := S5000x128) unitZero2, View.ld_unit_zero (S := S5000x1) unitZero2, View.ld_unit_zero (S := S128x128) unitZero2, View.ld_unit_zero (S := S1x128) unitZero2, View.readCov_unit_zero (S := S1x128) _ unitZero2]
  all_goals rfl

theorem sout2_B_1_eq (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : ¬cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    sout2_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay2 (k0_pay7 x0 x1 x2 x3 x4 x5 x6) xs1 := by
  unfold sout2_B_1
  rw [View.read_writes_eq_canon _ _ _ (scover2_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun2_B kernelRun0_B
  dsimp only
  sl_unfold_words
  rw [View.canon_unit_zero (S := S1x128) unitZero2]
  simp only [View.readAt_eq_ld, harg2.read_unread, harg3.read_unread, harg4.read_unread, harg5.read_unread, harg6.read_unread, harg7.read_unread, harg8.read_unread, harg11.read_unread, harg12.read_unread, View.ld_unit_zero (S := S5000x128) unitZero2, View.ld_unit_zero (S := S5000x1) unitZero2, View.ld_unit_zero (S := S128x128) unitZero2, View.ld_unit_zero (S := S1x128) unitZero2, View.readCov_unit_zero (S := S1x128) _ unitZero2]
  all_goals rfl

/-! ## A last tile: the accumulators are updated, then stored into the outputs -/

theorem sout2_C_0_eq (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    sout2_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay1 xs0 (k0_pay8 x0 x1 x2 x3 x4 x5 x6) := by
  unfold sout2_C_0
  rw [View.read_writes_eq_canon _ _ _ (scover2_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun2_C kernelRun0_C
  dsimp only
  sl_unfold_words
  rw [View.canon_unit_zero (S := S1x128) unitZero2]
  simp only [View.readAt_eq_ld, harg2.read_unread, harg3.read_unread, harg4.read_unread, harg5.read_unread, harg6.read_unread, harg7.read_unread, harg8.read_unread, harg11.read_unread, harg12.read_unread, View.ld_unit_zero (S := S5000x128) unitZero2, View.ld_unit_zero (S := S5000x1) unitZero2, View.ld_unit_zero (S := S128x128) unitZero2, View.ld_unit_zero (S := S1x128) unitZero2, View.readCov_unit_zero (S := S1x128) _ unitZero2]
  all_goals rfl

theorem sout2_C_1_eq (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    sout2_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay2 (k0_pay7 x0 x1 x2 x3 x4 x5 x6) xs1 := by
  unfold sout2_C_1
  rw [View.read_writes_eq_canon _ _ _ (scover2_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun2_C kernelRun0_C
  dsimp only
  sl_unfold_words
  rw [View.canon_unit_zero (S := S1x128) unitZero2]
  simp only [View.readAt_eq_ld, harg2.read_unread, harg3.read_unread, harg4.read_unread, harg5.read_unread, harg6.read_unread, harg7.read_unread, harg8.read_unread, harg11.read_unread, harg12.read_unread, View.ld_unit_zero (S := S5000x128) unitZero2, View.ld_unit_zero (S := S5000x1) unitZero2, View.ld_unit_zero (S := S128x128) unitZero2, View.ld_unit_zero (S := S1x128) unitZero2, View.readCov_unit_zero (S := S1x128) _ unitZero2]
  all_goals rfl

theorem out2_C_7_eq (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    out2_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay3 (k0_pay1 xs0 (k0_pay8 x0 x1 x2 x3 x4 x5 x6)) := by
  unfold out2_C_7
  rw [View.read_writes_eq_canon _ _ _ (cover2_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun2_C kernelRun0_C
  dsimp only
  sl_unfold_words
  rw [View.canon_unit_zero (S := S8x128) unitZero2]
  simp only [View.readAt_eq_ld, harg2.read_unread, harg3.read_unread, harg4.read_unread, harg5.read_unread, harg6.read_unread, harg7.read_unread, harg8.read_unread, harg11.read_unread, harg12.read_unread, View.ld_unit_zero (S := S5000x128) unitZero2, View.ld_unit_zero (S := S5000x1) unitZero2, View.ld_unit_zero (S := S128x128) unitZero2, View.ld_unit_zero (S := S1x128) unitZero2, View.readCov_unit_zero (S := S1x128) _ unitZero2]
  all_goals rfl

theorem out2_C_8_eq (c : Dev nD) (i : grid2.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond2_0 i) (hc1 : cond2_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    out2_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay4 (k0_pay2 (k0_pay7 x0 x1 x2 x3 x4 x5 x6) xs1) := by
  unfold out2_C_8
  rw [View.read_writes_eq_canon _ _ _ (cover2_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun2_C kernelRun0_C
  dsimp only
  sl_unfold_words
  rw [View.canon_unit_zero (S := S8x128) unitZero2]
  simp only [View.readAt_eq_ld, harg2.read_unread, harg3.read_unread, harg4.read_unread, harg5.read_unread, harg6.read_unread, harg7.read_unread, harg8.read_unread, harg11.read_unread, harg12.read_unread, View.ld_unit_zero (S := S5000x128) unitZero2, View.ld_unit_zero (S := S5000x1) unitZero2, View.ld_unit_zero (S := S128x128) unitZero2, View.ld_unit_zero (S := S1x128) unitZero2, View.readCov_unit_zero (S := S1x128) _ unitZero2]
  all_goals rfl

end Cert.KernelIdeal.Gen

end
-- ==== Proof.KI.Stats2Value.lean ====
/-
  The statistics kernel's two outputs as sums, at the extended reals.

  The region runs a grid of 2 × 10 points; point `t` reads tile `t` (5000 rows) of the node features `h`, of the
  neighbour sums `raw` and of the reciprocal-degree column `inv`, and the whole weight matrices, bias and slope; its
  body forms the tile's rectified affine block `X t` (`KLayer.X`) and adds the block's column sums to one
  accumulator row and the column sums of its squares to another. A core's first tile resets both rows first; its
  last tile stores each row, repeated over eight rows, into the core's block of one of the two 16 × 128 outputs,
  which is then written back. So after the region, for core `cr`, sublane `a` and column `j`,
      S[8 cr + a, j] = ∑_{t < 10} ∑_{r < 5000} X (10 cr + t) [r, j],     Q[8 cr + a, j] = ∑_{t < 10} ∑_{r < 5000} X (10 cr + t) [r, j]²
  (`statsS2`, `statsQ2`), for any contents `V` of the buffers when the region is entered.
  The steps: each input window's block is a tile of its array, or the whole array (the windows' index maps decided
  over the grid); what each control case leaves in the accumulators is a running sum, so by induction on the point
  within a core's row each accumulator holds the sums over the core's tiles so far (`acc_inv_r2`); at a core's last
  tile the stored blocks are the finished rows on every sublane (`out_last_r2`); what is written back there is the
  block of one function of the array index (`flushed2_7_eq`, `flushed2_8_eq`), the two cores' blocks cover the
  array (`covered2_7`, `covered2_8`), hence the array after the region is that function (`final2_7`, `final2_8`).
-/
import proofs.«129379_j32899449487582_2_alg».proof.Proof.KI.Stats2Pieces
import proofs.«129379_j32899449487582_2_alg».proof.Proof.KI.KLayer
import Idealize.ShloMosaic.Lib.ValueIdx
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-! ## The input windows' blocks as tiles of their arrays -/

/-- Window 0's block index at point `t` is `(t, 0)`: the grid's points in order are the array's row tiles in order. -/
theorem blockIndex2_0 : ∀ t : Fin cfg2.N, win2_0.index t (0 : Fin 2) = t.val ∧ win2_0.index t (1 : Fin 2) = 0 :=
  (by decide +kernel : ∀ t : Fin grid2.N, _)

/-- Window 0's block at point `t` is rows `5000·t … 5000·t + 4999` of its array: entry `x` of the block is the array's
    entry at row `5000·t + x 0`, column `x 1`. -/
theorem iblk2_0_apply (c : Dev nD) (t : Fin cfg2.N) (x : S5000x128.Idx) (k : S100000x128.Idx)
    (hk0 : (k 0).val = 5000 * t.val + (x 0).val) (hk1 : (k 1).val = (x 1).val) :
    (iblk2 V c 0 t : Vec F S5000x128 .f32) x = (V c (Pipeline.arrRef spec2 0) : Vec F S100000x128 .f32) k := by
  have hi := blockIndex2_0 t
  unfold iblk2
  rw [View.read_apply]
  show V c main_v64 _ = V c main_v64 _
  congr 1
  funext a
  apply Fin.ext
  match a with
  | ⟨0, _⟩ => show win2_0.index t 0 * 5000 + 1 * (x 0).val = (k 0).val; rw [hi.1, hk0]; omega
  | ⟨1, _⟩ => show win2_0.index t 1 * 128 + 1 * (x 1).val = (k 1).val; rw [hi.2, hk1]; omega

/-- The same at explicit coordinates. -/
theorem iblk2_0_ix2 (c : Dev nD) (t : Fin cfg2.N) (r : Fin 5000) (j : Fin 128) (h : 5000 * t.val + r.val < 100000) :
    (iblk2 V c 0 t : Vec F S5000x128 .f32) (ix2 r j) = (V c (Pipeline.arrRef spec2 0) : Vec F S100000x128 .f32) (ix2 ⟨5000 * t.val + r.val, h⟩ j) :=
  iblk2_0_apply V c t (ix2 r j) (ix2 ⟨5000 * t.val + r.val, h⟩ j) rfl rfl

/-- Window 1's block index at point `t` is `(t, 0)`: the grid's points in order are the array's row tiles in order. -/
theorem blockIndex2_1 : ∀ t : Fin cfg2.N, win2_1.index t (0 : Fin 2) = t.val ∧ win2_1.index t (1 : Fin 2) = 0 :=
  (by decide +kernel : ∀ t : Fin grid2.N, _)

/-- Window 1's block at point `t` is rows `5000·t … 5000·t + 4999` of its array: entry `x` of the block is the array's
    entry at row `5000·t + x 0`, column `x 1`. -/
theorem iblk2_1_apply (c : Dev nD) (t : Fin cfg2.N) (x : S5000x128.Idx) (k : S100000x128.Idx)
    (hk0 : (k 0).val = 5000 * t.val + (x 0).val) (hk1 : (k 1).val = (x 1).val) :
    (iblk2 V c 1 t : Vec F S5000x128 .f32) x = (V c (Pipeline.arrRef spec2 1) : Vec F S100000x128 .f32) k := by
  have hi := blockIndex2_1 t
  unfold iblk2
  rw [View.read_apply]
  show V c main_v74 _ = V c main_v74 _
  congr 1
  funext a
  apply Fin.ext
  match a with
  | ⟨0, _⟩ => show win2_1.index t 0 * 5000 + 1 * (x 0).val = (k 0).val; rw [hi.1, hk0]; omega
  | ⟨1, _⟩ => show win2_1.index t 1 * 128 + 1 * (x 1).val = (k 1).val; rw [hi.2, hk1]; omega

/-- The same at explicit coordinates. -/
theorem iblk2_1_ix2 (c : Dev nD) (t : Fin cfg2.N) (r : Fin 5000) (j : Fin 128) (h : 5000 * t.val + r.val < 100000) :
    (iblk2 V c 1 t : Vec F S5000x128 .f32) (ix2 r j) = (V c (Pipeline.arrRef spec2 1) : Vec F S100000x128 .f32) (ix2 ⟨5000 * t.val + r.val, h⟩ j) :=
  iblk2_1_apply V c t (ix2 r j) (ix2 ⟨5000 * t.val + r.val, h⟩ j) rfl rfl

/-- Window 2's block index at point `t` is `(t, 0)`: the grid's points in order are the array's row tiles in order. -/
theorem blockIndex2_2 : ∀ t : Fin cfg2.N, win2_2.index t (0 : Fin 2) = t.val ∧ win2_2.index t (1 : Fin 2) = 0 :=
  (by decide +kernel : ∀ t : Fin grid2.N, _)

/-- Window 2's block at point `t` is rows `5000·t … 5000·t + 4999` of its array: entry `x` of the block is the array's
    entry at row `5000·t + x 0`, column `x 1`. -/
theorem iblk2_2_apply (c : Dev nD) (t : Fin cfg2.N) (x : S5000x1.Idx) (k : S100000x1.Idx)
    (hk0 : (k 0).val = 5000 * t.val + (x 0).val) (hk1 : (k 1).val = (x 1).val) :
    (iblk2 V c 2 t : Vec F S5000x1 .f32) x = (V c (Pipeline.arrRef spec2 2) : Vec F S100000x1 .f32) k := by
  have hi := blockIndex2_2 t
  unfold iblk2
  rw [View.read_apply]
  show V c main_v14 _ = V c main_v14 _
  congr 1
  funext a
  apply Fin.ext
  match a with
  | ⟨0, _⟩ => show win2_2.index t 0 * 5000 + 1 * (x 0).val = (k 0).val; rw [hi.1, hk0]; omega
  | ⟨1, _⟩ => show win2_2.index t 1 * 1 + 1 * (x 1).val = (k 1).val; rw [hi.2, hk1]; omega

/-- The same at explicit coordinates. -/
theorem iblk2_2_ix2 (c : Dev nD) (t : Fin cfg2.N) (r : Fin 5000) (j : Fin 1) (h : 5000 * t.val + r.val < 100000) :
    (iblk2 V c 2 t : Vec F S5000x1 .f32) (ix2 r j) = (V c (Pipeline.arrRef spec2 2) : Vec F S100000x1 .f32) (ix2 ⟨5000 * t.val + r.val, h⟩ j) :=
  iblk2_2_apply V c t (ix2 r j) (ix2 ⟨5000 * t.val + r.val, h⟩ j) rfl rfl

/-- Window 3's block index is `(0, 0)` at every point: the window is its whole array. -/
theorem blockIndex2_3 : ∀ t : Fin cfg2.N, win2_3.index t (0 : Fin 2) = 0 ∧ win2_3.index t (1 : Fin 2) = 0 :=
  (by decide +kernel : ∀ t : Fin grid2.N, _)

/-- Window 3's block at every point is its whole array. -/
theorem iblk2_3_eq (c : Dev nD) (t : Fin cfg2.N) :
    (iblk2 V c 3 t : Vec F S128x128 .f32) = (V c (Pipeline.arrRef spec2 3) : Vec F S128x128 .f32) := by
  have hi := blockIndex2_3 t
  funext x
  unfold iblk2
  rw [View.read_apply]
  show V c main_v88 _ = V c main_v88 _
  congr 1
  funext a
  apply Fin.ext
  match a with
  | ⟨0, _⟩ => show win2_3.index t 0 * 128 + 1 * (x 0).val = (x 0).val; rw [hi.1]; omega
  | ⟨1, _⟩ => show win2_3.index t 1 * 128 + 1 * (x 1).val = (x 1).val; rw [hi.2]; omega

/-- Window 4's block index is `(0, 0)` at every point: the window is its whole array. -/
theorem blockIndex2_4 : ∀ t : Fin cfg2.N, win2_4.index t (0 : Fin 2) = 0 ∧ win2_4.index t (1 : Fin 2) = 0 :=
  (by decide +kernel : ∀ t : Fin grid2.N, _)

/-- Window 4's block at every point is its whole array. -/
theorem iblk2_4_eq (c : Dev nD) (t : Fin cfg2.N) :
    (iblk2 V c 4 t : Vec F S128x128 .f32) = (V c (Pipeline.arrRef spec2 4) : Vec F S128x128 .f32) := by
  have hi := blockIndex2_4 t
  funext x
  unfold iblk2
  rw [View.read_apply]
  show V c main_v90 _ = V c main_v90 _
  congr 1
  funext a
  apply Fin.ext
  match a with
  | ⟨0, _⟩ => show win2_4.index t 0 * 128 + 1 * (x 0).val = (x 0).val; rw [hi.1]; omega
  | ⟨1, _⟩ => show win2_4.index t 1 * 128 + 1 * (x 1).val = (x 1).val; rw [hi.2]; omega

/-- Window 5's block index is `(0, 0)` at every point: the window is its whole array. -/
theorem blockIndex2_5 : ∀ t : Fin cfg2.N, win2_5.index t (0 : Fin 2) = 0 ∧ win2_5.index t (1 : Fin 2) = 0 :=
  (by decide +kernel : ∀ t : Fin grid2.N, _)

/-- Window 5's block at every point is its whole array. -/
theorem iblk2_5_eq (c : Dev nD) (t : Fin cfg2.N) :
    (iblk2 V c 5 t : Vec F S1x128 .f32) = (V c (Pipeline.arrRef spec2 5) : Vec F S1x128 .f32) := by
  have hi := blockIndex2_5 t
  funext x
  unfold iblk2
  rw [View.read_apply]
  show V c main_v77 _ = V c main_v77 _
  congr 1
  funext a
  apply Fin.ext
  match a with
  | ⟨0, _⟩ => show win2_5.index t 0 * 1 + 1 * (x 0).val = (x 0).val; rw [hi.1]; omega
  | ⟨1, _⟩ => show win2_5.index t 1 * 128 + 1 * (x 1).val = (x 1).val; rw [hi.2]; omega

/-- Window 6's block index is `(0, 0)` at every point: the window is its whole array. -/
theorem blockIndex2_6 : ∀ t : Fin cfg2.N, win2_6.index t (0 : Fin 2) = 0 ∧ win2_6.index t (1 : Fin 2) = 0 :=
  (by decide +kernel : ∀ t : Fin grid2.N, _)

/-- Window 6's block at every point is its whole array. -/
theorem iblk2_6_eq (c : Dev nD) (t : Fin cfg2.N) :
    (iblk2 V c 6 t : Vec F S1x128 .f32) = (V c (Pipeline.arrRef spec2 6) : Vec F S1x128 .f32) := by
  have hi := blockIndex2_6 t
  funext x
  unfold iblk2
  rw [View.read_apply]
  show V c main_v80 _ = V c main_v80 _
  congr 1
  funext a
  apply Fin.ext
  match a with
  | ⟨0, _⟩ => show win2_6.index t 0 * 1 + 1 * (x 0).val = (x 0).val; rw [hi.1]; omega
  | ⟨1, _⟩ => show win2_6.index t 1 * 128 + 1 * (x 1).val = (x 1).val; rw [hi.2]; omega

section AtIdeal

variable (V : (c : Dev nD) → (b : Ref sig .tc) → Buf (Elt Ideal) ((c : Thread nD τ).loc b))

/-- Window 0's block at point `t` is tile `t` of its array. -/
theorem iblk2_0_tile (c : Dev nD) (t : Fin cfg2.N) :
    (iblk2 V c 0 t : FVec Ideal S5000x128 .f32) = KLayer.tile (V c (Pipeline.arrRef spec2 0)) t :=
  funext fun y => iblk2_0_apply V c t y (ix2 ⟨5000 * t.val + (y 0).val, KLayer.row_lt t (y 0)⟩ (y 1)) rfl rfl

/-- Window 1's block at point `t` is tile `t` of its array. -/
theorem iblk2_1_tile (c : Dev nD) (t : Fin cfg2.N) :
    (iblk2 V c 1 t : FVec Ideal S5000x128 .f32) = KLayer.tile (V c (Pipeline.arrRef spec2 1)) t :=
  funext fun y => iblk2_1_apply V c t y (ix2 ⟨5000 * t.val + (y 0).val, KLayer.row_lt t (y 0)⟩ (y 1)) rfl rfl

/-- Window 2's block at point `t` is tile `t` of its array. -/
theorem iblk2_2_tile (c : Dev nD) (t : Fin cfg2.N) :
    (iblk2 V c 2 t : FVec Ideal S5000x1 .f32) = KLayer.tile1 (V c (Pipeline.arrRef spec2 2)) t :=
  funext fun y => iblk2_2_apply V c t y (ix2 ⟨5000 * t.val + (y 0).val, KLayer.row_lt t (y 0)⟩ (y 1)) rfl rfl

/-- The tile's rectified affine block, over the region's seven input arrays as it finds them. -/
noncomputable abbrev Xt_r2 (c : Dev nD) (t : Fin 20) : FVec Ideal S5000x128 .f32 :=
  KLayer.X (V c (Pipeline.arrRef spec2 0)) (V c (Pipeline.arrRef spec2 1)) (V c (Pipeline.arrRef spec2 2)) (V c (Pipeline.arrRef spec2 3))
    (V c (Pipeline.arrRef spec2 4)) (V c (Pipeline.arrRef spec2 5)) (V c (Pipeline.arrRef spec2 6)) t

/-- The body's block at point `t` is the tile's rectified affine block. -/
theorem pay7_blocks_r2 (c : Dev nD) (t : Fin cfg2.N) :
    k0_pay7 (F := Ideal) (iblk2 V c 0 t) (iblk2 V c 1 t) (iblk2 V c 2 t) (iblk2 V c 3 t) (iblk2 V c 4 t) (iblk2 V c 5 t) (iblk2 V c 6 t) = Xt_r2 V c t := by
  rw [iblk2_0_tile V c t, iblk2_1_tile V c t, iblk2_2_tile V c t, iblk2_3_eq V c t, iblk2_4_eq V c t, iblk2_5_eq V c t, iblk2_6_eq V c t]
  rfl

/-! ## The accumulators after each point -/

/-- Tile `n`'s column sums (zero past the grid: never read). -/
noncomputable def tileSum_r2 (c : Dev nD) (n : ℕ) (j : Fin 128) : EReal :=
  if h : n < 20 then ∑ r : Fin 5000, Xt_r2 V c ⟨n, h⟩ (ix2 r j) else 0

/-- Tile `n`'s column sums of squares (zero past the grid: never read). -/
noncomputable def tileSq_r2 (c : Dev nD) (n : ℕ) (j : Fin 128) : EReal :=
  if h : n < 20 then ∑ r : Fin 5000, Xt_r2 V c ⟨n, h⟩ (ix2 r j) * Xt_r2 V c ⟨n, h⟩ (ix2 r j) else 0

/-- The block's column sums at point `t` are tile `t`'s. -/
theorem pay8_blocks_r2 (c : Dev nD) (t : Fin cfg2.N) (j : Fin 128) :
    k0_pay8 (F := Ideal) (iblk2 V c 0 t) (iblk2 V c 1 t) (iblk2 V c 2 t) (iblk2 V c 3 t) (iblk2 V c 4 t) (iblk2 V c 5 t) (iblk2 V c 6 t) (ix1 j) = tileSum_r2 V c t.val j := by
  rw [PayIdeal.pay8_apply, pay7_blocks_r2 V c t]
  unfold tileSum_r2
  rw [dif_pos (show t.val < 20 from t.isLt)] <;> rfl

/-- The block's column sums of squares at point `t` are tile `t`'s. -/
theorem sq_blocks_r2 (c : Dev nD) (t : Fin cfg2.N) (j : Fin 128) :
    (∑ r : Fin 5000, k0_pay7 (F := Ideal) (iblk2 V c 0 t) (iblk2 V c 1 t) (iblk2 V c 2 t) (iblk2 V c 3 t) (iblk2 V c 4 t) (iblk2 V c 5 t) (iblk2 V c 6 t) (ix2 r j) * k0_pay7 (F := Ideal) (iblk2 V c 0 t) (iblk2 V c 1 t) (iblk2 V c 2 t) (iblk2 V c 3 t) (iblk2 V c 4 t) (iblk2 V c 5 t) (iblk2 V c 6 t) (ix2 r j)) = tileSq_r2 V c t.val j := by
  rw [pay7_blocks_r2 V c t]
  unfold tileSq_r2
  rw [dif_pos (show t.val < 20 from t.isLt)] <;> rfl

/-- At a core's first tile both accumulators are reset and then take the tile's sums. -/
theorem acc_first_r2 (c : Dev nD) (t : Fin cfg2.N) (h0 : t.val % 10 = 0) (j : Fin 128) :
    ((outsAt2 V c t.val t.isLt).2.2.1 : FVec Ideal S1x128 .f32) (ix2 (0 : Fin 1) j) = tileSum_r2 V c t.val j
    ∧ ((outsAt2 V c t.val t.isLt).2.2.2 : FVec Ideal S1x128 .f32) (ix2 (0 : Fin 1) j) = tileSq_r2 V c t.val j := by
  have h1 : ¬t.val % 10 = 9 := by omega
  rw [outsAt2_A V c t h0 h1]
  dsimp only
  constructor
  · refine (congrFun (sout2_A_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) (ix2 (0 : Fin 1) j)).trans ?_
    rw [PayIdeal.pay1_apply, PayIdeal.pay5_apply, pay8_blocks_r2 V c t j, zero_add]
  · refine (congrFun (sout2_A_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) (ix2 (0 : Fin 1) j)).trans ?_
    rw [PayIdeal.pay2_apply, PayIdeal.pay6_apply, sq_blocks_r2 V c t j, zero_add]

/-- At any later tile of a core each accumulator adds the tile's sums to what the point before left. -/
theorem acc_step_r2 (c : Dev nD) (n : ℕ) (hn : n + 1 < cfg2.N) (h0 : ¬(n + 1) % 10 = 0) (j : Fin 128) :
    ((outsAt2 V c (n + 1) hn).2.2.1 : FVec Ideal S1x128 .f32) (ix2 (0 : Fin 1) j)
        = ((outsAt2 V c n (Nat.lt_of_succ_lt hn)).2.2.1 : FVec Ideal S1x128 .f32) (ix2 (0 : Fin 1) j) + tileSum_r2 V c (n + 1) j
    ∧ ((outsAt2 V c (n + 1) hn).2.2.2 : FVec Ideal S1x128 .f32) (ix2 (0 : Fin 1) j)
        = ((outsAt2 V c n (Nat.lt_of_succ_lt hn)).2.2.2 : FVec Ideal S1x128 .f32) (ix2 (0 : Fin 1) j) + tileSq_r2 V c (n + 1) j := by
  by_cases h1 : (n + 1) % 10 = 9
  · rw [outsAt2_C V c ⟨n + 1, hn⟩ h0 h1]
    dsimp only
    constructor
    · refine (congrFun (sout2_C_0_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 V c n (Nat.lt_of_succ_lt hn)).2.2.1 (outsAt2 V c n (Nat.lt_of_succ_lt hn)).2.2.2) (ix2 (0 : Fin 1) j)).trans ?_
      rw [PayIdeal.pay1_apply, pay8_blocks_r2 V c ⟨n + 1, hn⟩ j]
    · refine (congrFun (sout2_C_1_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 V c n (Nat.lt_of_succ_lt hn)).2.2.1 (outsAt2 V c n (Nat.lt_of_succ_lt hn)).2.2.2) (ix2 (0 : Fin 1) j)).trans ?_
      rw [PayIdeal.pay2_apply, sq_blocks_r2 V c ⟨n + 1, hn⟩ j]
  · rw [outsAt2_B V c ⟨n + 1, hn⟩ h0 h1]
    dsimp only
    constructor
    · refine (congrFun (sout2_B_0_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 V c n (Nat.lt_of_succ_lt hn)).2.2.1 (outsAt2 V c n (Nat.lt_of_succ_lt hn)).2.2.2) (ix2 (0 : Fin 1) j)).trans ?_
      rw [PayIdeal.pay1_apply, pay8_blocks_r2 V c ⟨n + 1, hn⟩ j]
    · refine (congrFun (sout2_B_1_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 V c n (Nat.lt_of_succ_lt hn)).2.2.1 (outsAt2 V c n (Nat.lt_of_succ_lt hn)).2.2.2) (ix2 (0 : Fin 1) j)).trans ?_
      rw [PayIdeal.pay2_apply, sq_blocks_r2 V c ⟨n + 1, hn⟩ j]

/-- THE ACCUMULATORS. After point `n`, tile `n % 10` of core `n / 10`, each accumulator row holds the sums over the
    core's tiles so far. -/
theorem acc_inv_r2 (c : Dev nD) (j : Fin 128) : ∀ (n : ℕ) (hn : n < cfg2.N),
    ((outsAt2 V c n hn).2.2.1 : FVec Ideal S1x128 .f32) (ix2 (0 : Fin 1) j)
        = ∑ s ∈ Finset.range (n % 10 + 1), tileSum_r2 V c (10 * (n / 10) + s) j
    ∧ ((outsAt2 V c n hn).2.2.2 : FVec Ideal S1x128 .f32) (ix2 (0 : Fin 1) j)
        = ∑ s ∈ Finset.range (n % 10 + 1), tileSq_r2 V c (10 * (n / 10) + s) j
  | 0, hn => by
    have h := acc_first_r2 V c ⟨0, hn⟩ rfl j
    refine ⟨h.1.trans ?_, h.2.trans ?_⟩ <;> simp
  | n + 1, hn => by
    by_cases h0 : (n + 1) % 10 = 0
    · have h := acc_first_r2 V c ⟨n + 1, hn⟩ h0 j
      have e : 10 * ((n + 1) / 10) + 0 = n + 1 := by omega
      refine ⟨h.1.trans ?_, h.2.trans ?_⟩ <;> rw [h0, Finset.sum_range_one, e]
    · have h := acc_step_r2 V c n hn h0 j
      have ih := acc_inv_r2 c j n (Nat.lt_of_succ_lt hn)
      have e1 : (n + 1) % 10 = n % 10 + 1 := by omega
      have e2 : (n + 1) / 10 = n / 10 := by omega
      have e3 : 10 * (n / 10) + (n % 10 + 1) = n + 1 := by omega
      refine ⟨h.1.trans ?_, h.2.trans ?_⟩
      · rw [ih.1, e1, e2, Finset.sum_range_succ _ (n % 10 + 1), e3]
      · rw [ih.2, e1, e2, Finset.sum_range_succ _ (n % 10 + 1), e3]

/-! ## The two outputs' blocks at a core's last tile -/

/-- At a core's last tile output 7's block is the finished sum row on each of its eight rows, output 8's the
    finished row of sums of squares. -/
theorem out_last_r2 (c : Dev nD) (t : Fin cfg2.N) (h1 : t.val % 10 = 9) (a : Fin 8) (j : Fin 128) :
    ((outsAt2 V c t.val t.isLt).1 : FVec Ideal S8x128 .f32) (ix2 a j) = ∑ s ∈ Finset.range 10, tileSum_r2 V c (10 * (t.val / 10) + s) j
    ∧ ((outsAt2 V c t.val t.isLt).2.1 : FVec Ideal S8x128 .f32) (ix2 a j) = ∑ s ∈ Finset.range 10, tileSq_r2 V c (10 * (t.val / 10) + s) j := by
  have h0 : ¬t.val % 10 = 0 := by omega
  have hs := acc_inv_r2 V c j t.val t.isLt
  rw [h1] at hs
  rw [outsAt2_C V c t h0 h1] at hs ⊢
  dsimp only at hs ⊢
  obtain ⟨hs0, hs1⟩ := hs
  rw [sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2] at hs0
  rw [sout2_C_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2] at hs1
  constructor
  · refine (congrFun (out2_C_7_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2) (ix2 a j)).trans ?_
    rw [PayIdeal.pay3_apply]
    exact hs0
  · refine (congrFun (out2_C_8_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.1 (outsAt2 V c (t.val - 1) (Nat.lt_of_le_of_lt (Nat.sub_le _ _) t.isLt)).2.2.2) (ix2 a j)).trans ?_
    rw [PayIdeal.pay4_apply]
    exact hs1

/-! ## The two output arrays after the region -/

/-- Output window 7's block index at point `t` is `(t / 10, 0)`: the core's eight rows, every one of its 128 columns;
    its blocks are whole. -/
theorem blockIndex2_7 : ∀ t : Fin cfg2.N, win2_7.index t (0 : Fin 2) = t.val / 10 ∧ win2_7.index t (1 : Fin 2) = 0
    ∧ win2_7.xsize (grid2.coords t) (0 : Fin 2) = 8 ∧ win2_7.xsize (grid2.coords t) (1 : Fin 2) = 128 :=
  (by decide +kernel : ∀ t : Fin grid2.N, _)

/-- What output 7's array holds after the region, as one function of its index: the column sums over the ten tiles of
    the core that owns the row. -/
noncomputable def G7_r2 (c : Dev nD) : FVec Ideal S16x128 .f32 :=
  fun i => ∑ s ∈ Finset.range 10, tileSum_r2 V c (10 * ((i 0).val / 8) + s) (i 1)

/-- What a write-back of output 7 writes is its block of `G7_r2`. -/
theorem flushed2_7_eq (c : Dev nD) (t : Fin cfg2.N) (hf : (cfg2.win 7).flush t = true) :
    (dat2 V c).flushed 7 t = ((cfg2.win 7).blk t).view.read (Elt Ideal) (G7_r2 V c) := by
  have h1 : t.val % 10 = 9 := (flush2_7 t).mp hf
  obtain ⟨i0, i1, -, -⟩ := blockIndex2_7 t
  show (cfg2.win 7).cut (grid2.coords t) ((dat2 V c).after 7 t) = _
  rw [after2_7]
  funext y
  rw [View.read_apply]
  have hy0 : (y 0).val < 8 := (y 0).isLt
  have e0 : ((((cfg2.win 7).blk t).view.emb y) 0).val = 8 * (t.val / 10) + (y 0).val := by
    show win2_7.index t 0 * 8 + 1 * (y 0).val = _
    rw [i0]; omega
  have e1 : (((cfg2.win 7).blk t).view.emb y) 1 = y 1 := Fin.ext (by
    show win2_7.index t 1 * 128 + 1 * (y 1).val = (y 1).val
    rw [i1]; omega)
  show ((outsAt2 V c t.val t.isLt).1 : FVec Ideal S8x128 .f32) y
    = ∑ s ∈ Finset.range 10, tileSum_r2 V c (10 * (((((cfg2.win 7).blk t).view.emb y) 0).val / 8) + s) ((((cfg2.win 7).blk t).view.emb y) 1)
  rw [e1, e0, show (8 * (t.val / 10) + (y 0).val) / 8 = t.val / 10 from by omega, eq_ix2 (n0 := 8) (n1 := 128) y]
  exact (out_last_r2 V c t h1 (y 0) (y 1)).1

/-- Every entry of output 7's array is in the block some core's last tile writes back. -/
theorem covered2_7 (i : S16x128.Idx) : ∃ t : Fin cfg2.N, (cfg2.win 7).flush t = true ∧ i ∈ ((cfg2.win 7).blk t).view.set := by
  have hi0 : (i 0).val < 16 := (i 0).isLt
  have hi1 : (i 1).val < 128 := (i 1).isLt
  have hlt : 10 * ((i 0).val / 8) + 9 < cfg2.N := by rw [show cfg2.N = 20 from N_2]; omega
  have hv : (⟨10 * ((i 0).val / 8) + 9, hlt⟩ : Fin cfg2.N).val = 10 * ((i 0).val / 8) + 9 := rfl
  obtain ⟨i0, i1, x0, x1⟩ := blockIndex2_7 ⟨10 * ((i 0).val / 8) + 9, hlt⟩
  rw [hv] at i0
  refine ⟨⟨10 * ((i 0).val / 8) + 9, hlt⟩, (flush2_7 _).mpr (by show (10 * ((i 0).val / 8) + 9) % 10 = 9; omega), ?_⟩
  show i ∈ ((View.whole main_v91_0).slice (win2_7.rect ⟨10 * ((i 0).val / 8) + 9, hlt⟩)).set
  rw [View.set_slice_whole, Rect.mem_set_unit]
  intro a
  match a with
  | ⟨0, _⟩ =>
    show win2_7.index ⟨10 * ((i 0).val / 8) + 9, hlt⟩ 0 * 8 ≤ (i 0 : ℕ) ∧ (i 0 : ℕ) < win2_7.index ⟨10 * ((i 0).val / 8) + 9, hlt⟩ 0 * 8 + win2_7.xsize (grid2.coords ⟨10 * ((i 0).val / 8) + 9, hlt⟩) 0
    rw [i0, x0]
    omega
  | ⟨1, _⟩ =>
    show win2_7.index ⟨10 * ((i 0).val / 8) + 9, hlt⟩ 1 * 128 ≤ (i 1 : ℕ) ∧ (i 1 : ℕ) < win2_7.index ⟨10 * ((i 0).val / 8) + 9, hlt⟩ 1 * 128 + win2_7.xsize (grid2.coords ⟨10 * ((i 0).val / 8) + 9, hlt⟩) 1
    rw [i1, x1]
    omega

/-- Output 7's array after the region is `G7_r2`. -/
theorem final2_7 (c : Dev nD) : (dat2 V c).arrAt 7 cfg2.N = G7_r2 V c :=
  (dat2 V c).arrAt_eq_of_cover 7 (G7_r2 V c) (flushed2_7_eq V c) (covered2_7)

/-- Output window 8's block index at point `t` is `(t / 10, 0)`: the core's eight rows, every one of its 128 columns;
    its blocks are whole. -/
theorem blockIndex2_8 : ∀ t : Fin cfg2.N, win2_8.index t (0 : Fin 2) = t.val / 10 ∧ win2_8.index t (1 : Fin 2) = 0
    ∧ win2_8.xsize (grid2.coords t) (0 : Fin 2) = 8 ∧ win2_8.xsize (grid2.coords t) (1 : Fin 2) = 128 :=
  (by decide +kernel : ∀ t : Fin grid2.N, _)

/-- What output 8's array holds after the region, as one function of its index: the column sums of squares over the ten tiles of
    the core that owns the row. -/
noncomputable def G8_r2 (c : Dev nD) : FVec Ideal S16x128 .f32 :=
  fun i => ∑ s ∈ Finset.range 10, tileSq_r2 V c (10 * ((i 0).val / 8) + s) (i 1)

/-- What a write-back of output 8 writes is its block of `G8_r2`. -/
theorem flushed2_8_eq (c : Dev nD) (t : Fin cfg2.N) (hf : (cfg2.win 8).flush t = true) :
    (dat2 V c).flushed 8 t = ((cfg2.win 8).blk t).view.read (Elt Ideal) (G8_r2 V c) := by
  have h1 : t.val % 10 = 9 := (flush2_8 t).mp hf
  obtain ⟨i0, i1, -, -⟩ := blockIndex2_8 t
  show (cfg2.win 8).cut (grid2.coords t) ((dat2 V c).after 8 t) = _
  rw [after2_8]
  funext y
  rw [View.read_apply]
  have hy0 : (y 0).val < 8 := (y 0).isLt
  have e0 : ((((cfg2.win 8).blk t).view.emb y) 0).val = 8 * (t.val / 10) + (y 0).val := by
    show win2_8.index t 0 * 8 + 1 * (y 0).val = _
    rw [i0]; omega
  have e1 : (((cfg2.win 8).blk t).view.emb y) 1 = y 1 := Fin.ext (by
    show win2_8.index t 1 * 128 + 1 * (y 1).val = (y 1).val
    rw [i1]; omega)
  show ((outsAt2 V c t.val t.isLt).2.1 : FVec Ideal S8x128 .f32) y
    = ∑ s ∈ Finset.range 10, tileSq_r2 V c (10 * (((((cfg2.win 8).blk t).view.emb y) 0).val / 8) + s) ((((cfg2.win 8).blk t).view.emb y) 1)
  rw [e1, e0, show (8 * (t.val / 10) + (y 0).val) / 8 = t.val / 10 from by omega, eq_ix2 (n0 := 8) (n1 := 128) y]
  exact (out_last_r2 V c t h1 (y 0) (y 1)).2

/-- Every entry of output 8's array is in the block some core's last tile writes back. -/
theorem covered2_8 (i : S16x128.Idx) : ∃ t : Fin cfg2.N, (cfg2.win 8).flush t = true ∧ i ∈ ((cfg2.win 8).blk t).view.set := by
  have hi0 : (i 0).val < 16 := (i 0).isLt
  have hi1 : (i 1).val < 128 := (i 1).isLt
  have hlt : 10 * ((i 0).val / 8) + 9 < cfg2.N := by rw [show cfg2.N = 20 from N_2]; omega
  have hv : (⟨10 * ((i 0).val / 8) + 9, hlt⟩ : Fin cfg2.N).val = 10 * ((i 0).val / 8) + 9 := rfl
  obtain ⟨i0, i1, x0, x1⟩ := blockIndex2_8 ⟨10 * ((i 0).val / 8) + 9, hlt⟩
  rw [hv] at i0
  refine ⟨⟨10 * ((i 0).val / 8) + 9, hlt⟩, (flush2_8 _).mpr (by show (10 * ((i 0).val / 8) + 9) % 10 = 9; omega), ?_⟩
  show i ∈ ((View.whole main_v91_1).slice (win2_8.rect ⟨10 * ((i 0).val / 8) + 9, hlt⟩)).set
  rw [View.set_slice_whole, Rect.mem_set_unit]
  intro a
  match a with
  | ⟨0, _⟩ =>
    show win2_8.index ⟨10 * ((i 0).val / 8) + 9, hlt⟩ 0 * 8 ≤ (i 0 : ℕ) ∧ (i 0 : ℕ) < win2_8.index ⟨10 * ((i 0).val / 8) + 9, hlt⟩ 0 * 8 + win2_8.xsize (grid2.coords ⟨10 * ((i 0).val / 8) + 9, hlt⟩) 0
    rw [i0, x0]
    omega
  | ⟨1, _⟩ =>
    show win2_8.index ⟨10 * ((i 0).val / 8) + 9, hlt⟩ 1 * 128 ≤ (i 1 : ℕ) ∧ (i 1 : ℕ) < win2_8.index ⟨10 * ((i 0).val / 8) + 9, hlt⟩ 1 * 128 + win2_8.xsize (grid2.coords ⟨10 * ((i 0).val / 8) + 9, hlt⟩) 1
    rw [i1, x1]
    omega

/-- Output 8's array after the region is `G8_r2`. -/
theorem final2_8 (c : Dev nD) : (dat2 V c).arrAt 8 cfg2.N = G8_r2 V c :=
  (dat2 V c).arrAt_eq_of_cover 8 (G8_r2 V c) (flushed2_8_eq V c) (covered2_8)

/-- THE SUMS. After the region, row `8 cr + a` of the first output holds, in column `j`, the sum of the rectified affine
    map's column `j` over the 50000 rows of core `cr`'s ten tiles. -/
theorem statsS2 (c : Dev nD) (cr : Fin 2) (a : Fin 8) (j : Fin 128) :
    ((dat2 V c).arrAt 7 cfg2.N : FVec Ideal S16x128 .f32) (ix2 ⟨8 * cr.val + a.val, KLayer.srow_lt cr a⟩ j)
      = ∑ t : Fin 10, ∑ r : Fin 5000, Xt_r2 V c ⟨10 * cr.val + t.val, KLayer.core_lt cr t⟩ (ix2 r j) := by
  rw [final2_7 V c]
  show ∑ s ∈ Finset.range 10, tileSum_r2 V c (10 * ((8 * cr.val + a.val) / 8) + s) j = _
  rw [show (8 * cr.val + a.val) / 8 = cr.val from by omega, Finset.sum_range]
  refine Finset.sum_congr rfl fun t _ => ?_
  unfold tileSum_r2
  rw [dif_pos (KLayer.core_lt cr t)]

/-- THE SUMS OF SQUARES. The same for the second output, of the squares. -/
theorem statsQ2 (c : Dev nD) (cr : Fin 2) (a : Fin 8) (j : Fin 128) :
    ((dat2 V c).arrAt 8 cfg2.N : FVec Ideal S16x128 .f32) (ix2 ⟨8 * cr.val + a.val, KLayer.srow_lt cr a⟩ j)
      = ∑ t : Fin 10, ∑ r : Fin 5000, Xt_r2 V c ⟨10 * cr.val + t.val, KLayer.core_lt cr t⟩ (ix2 r j) * Xt_r2 V c ⟨10 * cr.val + t.val, KLayer.core_lt cr t⟩ (ix2 r j) := by
  rw [final2_8 V c]
  show ∑ s ∈ Finset.range 10, tileSq_r2 V c (10 * ((8 * cr.val + a.val) / 8) + s) j = _
  rw [show (8 * cr.val + a.val) / 8 = cr.val from by omega, Finset.sum_range]
  refine Finset.sum_congr rfl fun t _ => ?_
  unfold tileSq_r2
  rw [dif_pos (KLayer.core_lt cr t)]

end AtIdeal

end Cert.KernelIdeal.Gen

end
-- ==== Proof.KI.Stats4Pieces.lean ====
/- The statistics kernel's body, case by case, as values: what each case leaves in the two accumulator rows and (at a
   last tile) in the two outputs' blocks, read off the pieces its run found. With y the tile's activations
   (`k0_pay7` of the seven input blocks) and s = the column sums of y (`k0_pay8`): accumulator 0 ends at
   (its contents before) + s, accumulator 1 at (its contents before) + the column sums of y · y, where "before" is the
   zero row at a first tile (the reset) and what the point before left otherwise; at a last tile output 7 holds the new
   accumulator 0 repeated over 8 rows and output 8 the new accumulator 1 likewise. -/
import proofs.«129379_j32899449487582_2_alg».proof.Proof.KI.Stats4
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat)

variable {F : FTy → Type} [FloatOps F]

/-- The whole-buffer accesses are at zero offsets, however the zeros are spelt. -/
theorem unitZero4 : (![0, 0] : Fin 2 → Nat) = fun _ => 0 := funext fun a => by fin_cases a <;> rfl

/-! ## A first tile: the accumulators are reset, then updated -/

theorem sout4_A_0_eq (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) :
    sout4_A_0 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay1 (k0_pay5 (F := F)) (k0_pay8 x0 x1 x2 x3 x4 x5 x6) := by
  unfold sout4_A_0
  rw [View.read_writes_eq_canon _ _ _ (scover4_A_0 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun4_A kernelRun0_A
  dsimp only
  sl_unfold_words
  rw [View.canon_cons_unit_zero (S := S1x128) unitZero4]
  simp only [View.readAt_eq_ld, harg2.read_unread, harg3.read_unread, harg4.read_unread, harg5.read_unread, harg6.read_unread, harg7.read_unread, harg8.read_unread, View.ld_unit_zero (S := S5000x128) unitZero4, View.ld_unit_zero (S := S5000x1) unitZero4, View.ld_unit_zero (S := S128x128) unitZero4, View.ld_unit_zero (S := S1x128) unitZero4, View.readCov_unit_zero (S := S1x128) _ unitZero4]
  all_goals rfl

theorem sout4_A_1_eq (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) :
    sout4_A_1 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay2 (k0_pay7 x0 x1 x2 x3 x4 x5 x6) (k0_pay6 (F := F)) := by
  unfold sout4_A_1
  rw [View.read_writes_eq_canon _ _ _ (scover4_A_1 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun4_A kernelRun0_A
  dsimp only
  sl_unfold_words
  rw [View.canon_cons_unit_zero (S := S1x128) unitZero4]
  simp only [View.readAt_eq_ld, harg2.read_unread, harg3.read_unread, harg4.read_unread, harg5.read_unread, harg6.read_unread, harg7.read_unread, harg8.read_unread, View.ld_unit_zero (S := S5000x128) unitZero4, View.ld_unit_zero (S := S5000x1) unitZero4, View.ld_unit_zero (S := S128x128) unitZero4, View.ld_unit_zero (S := S1x128) unitZero4, View.readCov_unit_zero (S := S1x128) _ unitZero4]
  all_goals rfl

/-! ## A middle tile: the accumulators are updated from what the point before left -/

theorem sout4_B_0_eq (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    sout4_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay1 xs0 (k0_pay8 x0 x1 x2 x3 x4 x5 x6) := by
  unfold sout4_B_0
  rw [View.read_writes_eq_canon _ _ _ (scover4_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun4_B kernelRun0_B
  dsimp only
  sl_unfold_words
  rw [View.canon_unit_zero (S := S1x128) unitZero4]
  simp only [View.readAt_eq_ld, harg2.read_unread, harg3.read_unread, harg4.read_unread, harg5.read_unread, harg6.read_unread, harg7.read_unread, harg8.read_unread, harg11.read_unread, harg12.read_unread, View.ld_unit_zero (S := S5000x128) unitZero4, View.ld_unit_zero (S := S5000x1) unitZero4, View.ld_unit_zero (S := S128x128) unitZero4, View.ld_unit_zero (S := S1x128) unitZero4, View.readCov_unit_zero (S := S1x128) _ unitZero4]
  all_goals rfl

theorem sout4_B_1_eq (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : ¬cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    sout4_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay2 (k0_pay7 x0 x1 x2 x3 x4 x5 x6) xs1 := by
  unfold sout4_B_1
  rw [View.read_writes_eq_canon _ _ _ (scover4_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun4_B kernelRun0_B
  dsimp only
  sl_unfold_words
  rw [View.canon_unit_zero (S := S1x128) unitZero4]
  simp only [View.readAt_eq_ld, harg2.read_unread, harg3.read_unread, harg4.read_unread, harg5.read_unread, harg6.read_unread, harg7.read_unread, harg8.read_unread, harg11.read_unread, harg12.read_unread, View.ld_unit_zero (S := S5000x128) unitZero4, View.ld_unit_zero (S := S5000x1) unitZero4, View.ld_unit_zero (S := S128x128) unitZero4, View.ld_unit_zero (S := S1x128) unitZero4, View.readCov_unit_zero (S := S1x128) _ unitZero4]
  all_goals rfl

/-! ## A last tile: the accumulators are updated, then stored into the outputs -/

theorem sout4_C_0_eq (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    sout4_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay1 xs0 (k0_pay8 x0 x1 x2 x3 x4 x5 x6) := by
  unfold sout4_C_0
  rw [View.read_writes_eq_canon _ _ _ (scover4_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun4_C kernelRun0_C
  dsimp only
  sl_unfold_words
  rw [View.canon_unit_zero (S := S1x128) unitZero4]
  simp only [View.readAt_eq_ld, harg2.read_unread, harg3.read_unread, harg4.read_unread, harg5.read_unread, harg6.read_unread, harg7.read_unread, harg8.read_unread, harg11.read_unread, harg12.read_unread, View.ld_unit_zero (S := S5000x128) unitZero4, View.ld_unit_zero (S := S5000x1) unitZero4, View.ld_unit_zero (S := S128x128) unitZero4, View.ld_unit_zero (S := S1x128) unitZero4, View.readCov_unit_zero (S := S1x128) _ unitZero4]
  all_goals rfl

theorem sout4_C_1_eq (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    sout4_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay2 (k0_pay7 x0 x1 x2 x3 x4 x5 x6) xs1 := by
  unfold sout4_C_1
  rw [View.read_writes_eq_canon _ _ _ (scover4_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun4_C kernelRun0_C
  dsimp only
  sl_unfold_words
  rw [View.canon_unit_zero (S := S1x128) unitZero4]
  simp only [View.readAt_eq_ld, harg2.read_unread, harg3.read_unread, harg4.read_unread, harg5.read_unread, harg6.read_unread, harg7.read_unread, harg8.read_unread, harg11.read_unread, harg12.read_unread, View.ld_unit_zero (S := S5000x128) unitZero4, View.ld_unit_zero (S := S5000x1) unitZero4, View.ld_unit_zero (S := S128x128) unitZero4, View.ld_unit_zero (S := S1x128) unitZero4, View.readCov_unit_zero (S := S1x128) _ unitZero4]
  all_goals rfl

theorem out4_C_7_eq (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    out4_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay3 (k0_pay1 xs0 (k0_pay8 x0 x1 x2 x3 x4 x5 x6)) := by
  unfold out4_C_7
  rw [View.read_writes_eq_canon _ _ _ (cover4_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun4_C kernelRun0_C
  dsimp only
  sl_unfold_words
  rw [View.canon_unit_zero (S := S8x128) unitZero4]
  simp only [View.readAt_eq_ld, harg2.read_unread, harg3.read_unread, harg4.read_unread, harg5.read_unread, harg6.read_unread, harg7.read_unread, harg8.read_unread, harg11.read_unread, harg12.read_unread, View.ld_unit_zero (S := S5000x128) unitZero4, View.ld_unit_zero (S := S5000x1) unitZero4, View.ld_unit_zero (S := S128x128) unitZero4, View.ld_unit_zero (S := S1x128) unitZero4, View.readCov_unit_zero (S := S1x128) _ unitZero4]
  all_goals rfl

theorem out4_C_8_eq (c : Dev nD) (i : grid4.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond4_0 i) (hc1 : cond4_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    out4_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay4 (k0_pay2 (k0_pay7 x0 x1 x2 x3 x4 x5 x6) xs1) := by
  unfold out4_C_8
  rw [View.read_writes_eq_canon _ _ _ (cover4_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun4_C kernelRun0_C
  dsimp only
  sl_unfold_words
  rw [View.canon_unit_zero (S := S8x128) unitZero4]
  simp only [View.readAt_eq_ld, harg2.read_unread, harg3.read_unread, harg4.read_unread, harg5.read_unread, harg6.read_unread, harg7.read_unread, harg8.read_unread, harg11.read_unread, harg12.read_unread, View.ld_unit_zero (S := S5000x128) unitZero4, View.ld_unit_zero (S := S5000x1) unitZero4, View.ld_unit_zero (S := S128x128) unitZero4, View.ld_unit_zero (S := S1x128) unitZero4, View.readCov_unit_zero (S := S1x128) _ unitZero4]
  all_goals rfl

end Cert.KernelIdeal.Gen

end
-- ==== Proof.KI.Stats4Value.lean ====
/-
  The statistics kernel's two outputs as sums, at the extended reals.

  The region runs a grid of 2 × 10 points; point `t` reads tile `t` (5000 rows) of the node features `h`, of the
  neighbour sums `raw` and of the reciprocal-degree column `inv`, and the whole weight matrices, bias and slope; its
  body forms the tile's rectified affine block `X t` (`KLayer.X`) and adds the block's column sums to one
  accumulator row and the column sums of its squares to another. A core's first tile resets both rows first; its
  last tile stores each row, repeated over eight rows, into the core's block of one of the two 16 × 128 outputs,
  which is then written back. So after the region, for core `cr`, sublane `a` and column `j`,
      S[8 cr + a, j] = ∑_{t < 10} ∑_{r < 5000} X (10 cr + t) [r, j],     Q[8 cr + a, j] = ∑_{t < 10} ∑_{r < 5000} X (10 cr + t) [r, j]²
  (`statsS4`, `statsQ4`), for any contents `V` of the buffers when the region is entered.
  The steps: each input window's block is a tile of its array, or the whole array (the windows' index maps decided
  over the grid); what each control case leaves in the accumulators is a running sum, so by induction on the point
  within a core's row each accumulator holds the sums over the core's tiles so far (`acc_inv_r4`); at a core's last
  tile the stored blocks are the finished rows on every sublane (`out_last_r4`); what is written back there is the
  block of one function of the array index (`flushed4_7_eq`, `flushed4_8_eq`), the two cores' blocks cover the
  array (`covered4_7`, `covered4_8`), hence the array after the region is that function (`final4_7`, `final4_8`).
-/
import proofs.«129379_j32899449487582_2_alg».proof.Proof.KI.Stats4Pieces
import proofs.«129379_j32899449487582_2_alg».proof.Proof.KI.KLayer
import Idealize.ShloMosaic.Lib.ValueIdx
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-! ## The input windows' blocks as tiles of their arrays -/

/-- Window 0's block index at point `t` is `(t, 0)`: the grid's points in order are the array's row tiles in order. -/
theorem blockIndex4_0 : ∀ t : Fin cfg4.N, win4_0.index t (0 : Fin 2) = t.val ∧ win4_0.index t (1 : Fin 2) = 0 :=
  (by decide +kernel : ∀ t : Fin grid4.N, _)

/-- Window 0's block at point `t` is rows `5000·t … 5000·t + 4999` of its array: entry `x` of the block is the array's
    entry at row `5000·t + x 0`, column `x 1`. -/
theorem iblk4_0_apply (c : Dev nD) (t : Fin cfg4.N) (x : S5000x128.Idx) (k : S100000x128.Idx)
    (hk0 : (k 0).val = 5000 * t.val + (x 0).val) (hk1 : (k 1).val = (x 1).val) :
    (iblk4 V c 0 t : Vec F S5000x128 .f32) x = (V c (Pipeline.arrRef spec4 0) : Vec F S100000x128 .f32) k := by
  have hi := blockIndex4_0 t
  unfold iblk4
  rw [View.read_apply]
  show V c main_v114 _ = V c main_v114 _
  congr 1
  funext a
  apply Fin.ext
  match a with
  | ⟨0, _⟩ => show win4_0.index t 0 * 5000 + 1 * (x 0).val = (k 0).val; rw [hi.1, hk0]; omega
  | ⟨1, _⟩ => show win4_0.index t 1 * 128 + 1 * (x 1).val = (k 1).val; rw [hi.2, hk1]; omega

/-- The same at explicit coordinates. -/
theorem iblk4_0_ix2 (c : Dev nD) (t : Fin cfg4.N) (r : Fin 5000) (j : Fin 128) (h : 5000 * t.val + r.val < 100000) :
    (iblk4 V c 0 t : Vec F S5000x128 .f32) (ix2 r j) = (V c (Pipeline.arrRef spec4 0) : Vec F S100000x128 .f32) (ix2 ⟨5000 * t.val + r.val, h⟩ j) :=
  iblk4_0_apply V c t (ix2 r j) (ix2 ⟨5000 * t.val + r.val, h⟩ j) rfl rfl

/-- Window 1's block index at point `t` is `(t, 0)`: the grid's points in order are the array's row tiles in order. -/
theorem blockIndex4_1 : ∀ t : Fin cfg4.N, win4_1.index t (0 : Fin 2) = t.val ∧ win4_1.index t (1 : Fin 2) = 0 :=
  (by decide +kernel : ∀ t : Fin grid4.N, _)

/-- Window 1's block at point `t` is rows `5000·t … 5000·t + 4999` of its array: entry `x` of the block is the array's
    entry at row `5000·t + x 0`, column `x 1`. -/
theorem iblk4_1_apply (c : Dev nD) (t : Fin cfg4.N) (x : S5000x128.Idx) (k : S100000x128.Idx)
    (hk0 : (k 0).val = 5000 * t.val + (x 0).val) (hk1 : (k 1).val = (x 1).val) :
    (iblk4 V c 1 t : Vec F S5000x128 .f32) x = (V c (Pipeline.arrRef spec4 1) : Vec F S100000x128 .f32) k := by
  have hi := blockIndex4_1 t
  unfold iblk4
  rw [View.read_apply]
  show V c main_v124 _ = V c main_v124 _
  congr 1
  funext a
  apply Fin.ext
  match a with
  | ⟨0, _⟩ => show win4_1.index t 0 * 5000 + 1 * (x 0).val = (k 0).val; rw [hi.1, hk0]; omega
  | ⟨1, _⟩ => show win4_1.index t 1 * 128 + 1 * (x 1).val = (k 1).val; rw [hi.2, hk1]; omega

/-- The same at explicit coordinates. -/
theorem iblk4_1_ix2 (c : Dev nD) (t : Fin cfg4.N) (r : Fin 5000) (j : Fin 128) (h : 5000 * t.val + r.val < 100000) :
    (iblk4 V c 1 t : Vec F S5000x128 .f32) (ix2 r j) = (V c (Pipeline.arrRef spec4 1) : Vec F S100000x128 .f32) (ix2 ⟨5000 * t.val + r.val, h⟩ j) :=
  iblk4_1_apply V c t (ix2 r j) (ix2 ⟨5000 * t.val + r.val, h⟩ j) rfl rfl

/-- Window 2's block index at point `t` is `(t, 0)`: the grid's points in order are the array's row tiles in order. -/
theorem blockIndex4_2 : ∀ t : Fin cfg4.N, win4_2.index t (0 : Fin 2) = t.val ∧ win4_2.index t (1 : Fin 2) = 0 :=
  (by decide +kernel : ∀ t : Fin grid4.N, _)

/-- Window 2's block at point `t` is rows `5000·t … 5000·t + 4999` of its array: entry `x` of the block is the array's
    entry at row `5000·t + x 0`, column `x 1`. -/
theorem iblk4_2_apply (c : Dev nD) (t : Fin cfg4.N) (x : S5000x1.Idx) (k : S100000x1.Idx)
    (hk0 : (k 0).val = 5000 * t.val + (x 0).val) (hk1 : (k 1).val = (x 1).val) :
    (iblk4 V c 2 t : Vec F S5000x1 .f32) x = (V c (Pipeline.arrRef spec4 2) : Vec F S100000x1 .f32) k := by
  have hi := blockIndex4_2 t
  unfold iblk4
  rw [View.read_apply]
  show V c main_v14 _ = V c main_v14 _
  congr 1
  funext a
  apply Fin.ext
  match a with
  | ⟨0, _⟩ => show win4_2.index t 0 * 5000 + 1 * (x 0).val = (k 0).val; rw [hi.1, hk0]; omega
  | ⟨1, _⟩ => show win4_2.index t 1 * 1 + 1 * (x 1).val = (k 1).val; rw [hi.2, hk1]; omega

/-- The same at explicit coordinates. -/
theorem iblk4_2_ix2 (c : Dev nD) (t : Fin cfg4.N) (r : Fin 5000) (j : Fin 1) (h : 5000 * t.val + r.val < 100000) :
    (iblk4 V c 2 t : Vec F S5000x1 .f32) (ix2 r j) = (V c (Pipeline.arrRef spec4 2) : Vec F S100000x1 .f32) (ix2 ⟨5000 * t.val + r.val, h⟩ j) :=
  iblk4_2_apply V c t (ix2 r j) (ix2 ⟨5000 * t.val + r.val, h⟩ j) rfl rfl

/-- Window 3's block index is `(0, 0)` at every point: the window is its whole array. -/
theorem blockIndex4_3 : ∀ t : Fin cfg4.N, win4_3.index t (0 : Fin 2) = 0 ∧ win4_3.index t (1 : Fin 2) = 0 :=
  (by decide +kernel : ∀ t : Fin grid4.N, _)

/-- Window 3's block at every point is its whole array. -/
theorem iblk4_3_eq (c : Dev nD) (t : Fin cfg4.N) :
    (iblk4 V c 3 t : Vec F S128x128 .f32) = (V c (Pipeline.arrRef spec4 3) : Vec F S128x128 .f32) := by
  have hi := blockIndex4_3 t
  funext x
  unfold iblk4
  rw [View.read_apply]
  show V c main_v138 _ = V c main_v138 _
  congr 1
  funext a
  apply Fin.ext
  match a with
  | ⟨0, _⟩ => show win4_3.index t 0 * 128 + 1 * (x 0).val = (x 0).val; rw [hi.1]; omega
  | ⟨1, _⟩ => show win4_3.index t 1 * 128 + 1 * (x 1).val = (x 1).val; rw [hi.2]; omega

/-- Window 4's block index is `(0, 0)` at every point: the window is its whole array. -/
theorem blockIndex4_4 : ∀ t : Fin cfg4.N, win4_4.index t (0 : Fin 2) = 0 ∧ win4_4.index t (1 : Fin 2) = 0 :=
  (by decide +kernel : ∀ t : Fin grid4.N, _)

/-- Window 4's block at every point is its whole array. -/
theorem iblk4_4_eq (c : Dev nD) (t : Fin cfg4.N) :
    (iblk4 V c 4 t : Vec F S128x128 .f32) = (V c (Pipeline.arrRef spec4 4) : Vec F S128x128 .f32) := by
  have hi := blockIndex4_4 t
  funext x
  unfold iblk4
  rw [View.read_apply]
  show V c main_v140 _ = V c main_v140 _
  congr 1
  funext a
  apply Fin.ext
  match a with
  | ⟨0, _⟩ => show win4_4.index t 0 * 128 + 1 * (x 0).val = (x 0).val; rw [hi.1]; omega
  | ⟨1, _⟩ => show win4_4.index t 1 * 128 + 1 * (x 1).val = (x 1).val; rw [hi.2]; omega

/-- Window 5's block index is `(0, 0)` at every point: the window is its whole array. -/
theorem blockIndex4_5 : ∀ t : Fin cfg4.N, win4_5.index t (0 : Fin 2) = 0 ∧ win4_5.index t (1 : Fin 2) = 0 :=
  (by decide +kernel : ∀ t : Fin grid4.N, _)

/-- Window 5's block at every point is its whole array. -/
theorem iblk4_5_eq (c : Dev nD) (t : Fin cfg4.N) :
    (iblk4 V c 5 t : Vec F S1x128 .f32) = (V c (Pipeline.arrRef spec4 5) : Vec F S1x128 .f32) := by
  have hi := blockIndex4_5 t
  funext x
  unfold iblk4
  rw [View.read_apply]
  show V c main_v127 _ = V c main_v127 _
  congr 1
  funext a
  apply Fin.ext
  match a with
  | ⟨0, _⟩ => show win4_5.index t 0 * 1 + 1 * (x 0).val = (x 0).val; rw [hi.1]; omega
  | ⟨1, _⟩ => show win4_5.index t 1 * 128 + 1 * (x 1).val = (x 1).val; rw [hi.2]; omega

/-- Window 6's block index is `(0, 0)` at every point: the window is its whole array. -/
theorem blockIndex4_6 : ∀ t : Fin cfg4.N, win4_6.index t (0 : Fin 2) = 0 ∧ win4_6.index t (1 : Fin 2) = 0 :=
  (by decide +kernel : ∀ t : Fin grid4.N, _)

/-- Window 6's block at every point is its whole array. -/
theorem iblk4_6_eq (c : Dev nD) (t : Fin cfg4.N) :
    (iblk4 V c 6 t : Vec F S1x128 .f32) = (V c (Pipeline.arrRef spec4 6) : Vec F S1x128 .f32) := by
  have hi := blockIndex4_6 t
  funext x
  unfold iblk4
  rw [View.read_apply]
  show V c main_v130 _ = V c main_v130 _
  congr 1
  funext a
  apply Fin.ext
  match a with
  | ⟨0, _⟩ => show win4_6.index t 0 * 1 + 1 * (x 0).val = (x 0).val; rw [hi.1]; omega
  | ⟨1, _⟩ => show win4_6.index t 1 * 128 + 1 * (x 1).val = (x 1).val; rw [hi.2]; omega

section AtIdeal

variable (V : (c : Dev nD) → (b : Ref sig .tc) → Buf (Elt Ideal) ((c : Thread nD τ).loc b))

/-- Window 0's block at point `t` is tile `t` of its array. -/
theorem iblk4_0_tile (c : Dev nD) (t : Fin cfg4.N) :
    (iblk4 V c 0 t : FVec Ideal S5000x128 .f32) = KLayer.tile (V c (Pipeline.arrRef spec4 0)) t :=
  funext fun y => iblk4_0_apply V c t y (ix2 ⟨5000 * t.val + (y 0).val, KLayer.row_lt t (y 0)⟩ (y 1)) rfl rfl

/-- Window 1's block at point `t` is tile `t` of its array. -/
theorem iblk4_1_tile (c : Dev nD) (t : Fin cfg4.N) :
    (iblk4 V c 1 t : FVec Ideal S5000x128 .f32) = KLayer.tile (V c (Pipeline.arrRef spec4 1)) t :=
  funext fun y => iblk4_1_apply V c t y (ix2 ⟨5000 * t.val + (y 0).val, KLayer.row_lt t (y 0)⟩ (y 1)) rfl rfl

/-- Window 2's block at point `t` is tile `t` of its array. -/
theorem iblk4_2_tile (c : Dev nD) (t : Fin cfg4.N) :
    (iblk4 V c 2 t : FVec Ideal S5000x1 .f32) = KLayer.tile1 (V c (Pipeline.arrRef spec4 2)) t :=
  funext fun y => iblk4_2_apply V c t y (ix2 ⟨5000 * t.val + (y 0).val, KLayer.row_lt t (y 0)⟩ (y 1)) rfl rfl

/-- The tile's rectified affine block, over the region's seven input arrays as it finds them. -/
noncomputable abbrev Xt_r4 (c : Dev nD) (t : Fin 20) : FVec Ideal S5000x128 .f32 :=
  KLayer.X (V c (Pipeline.arrRef spec4 0)) (V c (Pipeline.arrRef spec4 1)) (V c (Pipeline.arrRef spec4 2)) (V c (Pipeline.arrRef spec4 3))
    (V c (Pipeline.arrRef spec4 4)) (V c (Pipeline.arrRef spec4 5)) (V c (Pipeline.arrRef spec4 6)) t

/-- The body's block at point `t` is the tile's rectified affine block. -/
theorem pay7_blocks_r4 (c : Dev nD) (t : Fin cfg4.N) :
    k0_pay7 (F := Ideal) (iblk4 V c 0 t) (iblk4 V c 1 t) (iblk4 V c 2 t) (iblk4 V c 3 t) (iblk4 V c 4 t) (iblk4 V c 5 t) (iblk4 V c 6 t) = Xt_r4 V c t := by
  rw [iblk4_0_tile V c t, iblk4_1_tile V c t, iblk4_2_tile V c t, iblk4_3_eq V c t, iblk4_4_eq V c t, iblk4_5_eq V c t, iblk4_6_eq V c t]
  rfl

/-! ## The accumulators after each point -/

/-- Tile `n`'s column sums (zero past the grid: never read). -/
noncomputable def tileSum_r4 (c : Dev nD) (n : ℕ) (j : Fin 128) : EReal :=
  if h : n < 20 then ∑ r : Fin 5000, Xt_r4 V c ⟨n, h⟩ (ix2 r j) else 0

/-- Tile `n`'s column sums of squares (zero past the grid: never read). -/
noncomputable def tileSq_r4 (c : Dev nD) (n : ℕ) (j : Fin 128) : EReal :=
  if h : n < 20 then ∑ r : Fin 5000, Xt_r4 V c ⟨n, h⟩ (ix2 r j) * Xt_r4 V c ⟨n, h⟩ (ix2 r j) else 0

/-- The block's column sums at point `t` are tile `t`'s. -/
theorem pay8_blocks_r4 (c : Dev nD) (t : Fin cfg4.N) (j : Fin 128) :
    k0_pay8 (F := Ideal) (iblk4 V c 0 t) (iblk4 V c 1 t) (iblk4 V c 2 t) (iblk4 V c 3 t) (iblk4 V c 4 t) (iblk4 V c 5 t) (iblk4 V c 6 t) (ix1 j) = tileSum_r4 V c t.val j := by
  rw [PayIdeal.pay8_apply, pay7_blocks_r4 V c t]
  unfold tileSum_r4
  rw [dif_pos (show t.val < 20 from t.isLt)] <;> rfl

/-- The block's column sums of squares at point `t` are tile `t`'s. -/
theorem sq_blocks_r4 (c : Dev nD) (t : Fin cfg4.N) (j : Fin 128) :
    (∑ r : Fin 5000, k0_pay7 (F := Ideal) (iblk4 V c 0 t) (iblk4 V c 1 t) (iblk4 V c 2 t) (iblk4 V c 3 t) (iblk4 V c 4 t) (iblk4 V c 5 t) (iblk4 V c 6 t) (ix2 r j) * k0_pay7 (F := Ideal) (iblk4 V c 0 t) (iblk4 V c 1 t) (iblk4 V c 2 t) (iblk4 V c 3 t) (iblk4 V c 4 t) (iblk4 V c 5 t) (iblk4 V c 6 t) (ix2 r j)) = tileSq_r4 V c t.val j := by
  rw [pay7_blocks_r4 V c t]
  unfold tileSq_r4
  rw [dif_pos (show t.val < 20 from t.isLt)] <;> rfl

/-- At a core's first tile both accumulators are reset and then take the tile's sums. -/
theorem acc_first_r4 (c : Dev nD) (t : Fin cfg4.N) (h0 : t.val % 10 = 0) (j : Fin 128) :
    ((outsAt4 V c t.val t.isLt).2.2.1 : FVec Ideal S1x128 .f32) (ix2 (0 : Fin 1) j) = tileSum_r4 V c t.val j
    ∧ ((outsAt4 V c t.val t.isLt).2.2.2 : FVec Ideal S1x128 .f32) (ix2 (0 : Fin 1) j) = tileSq_r4 V c t.val j := by
  have h1 : ¬t.val % 10 = 9 := by omega
  rw [outsAt4_A V c t h0 h1]
  dsimp only
  constructor
  · refine (congrFun (sout4_A_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t)) (ix2 (0 : Fin 1) j)).trans ?_
    rw [PayIdeal.pay1_apply, PayIdeal.pay5_apply, pay8_blocks_r4 V c t j, zero_add]
  · refine (congrFun (sout4_A_1_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t)) (ix2 (0 : Fin 1) j)).trans ?_
    rw [PayIdeal.pay2_apply, PayIdeal.pay6_apply, sq_blocks_r4 V c t j, zero_add]

/-- At any later tile of a core each accumulator adds the tile's sums to what the point before left. -/
theorem acc_step_r4 (c : Dev nD) (n : ℕ) (hn : n + 1 < cfg4.N) (h0 : ¬(n + 1) % 10 = 0) (j : Fin 128) :
    ((outsAt4 V c (n + 1) hn).2.2.1 : FVec Ideal S1x128 .f32) (ix2 (0 : Fin 1) j)
        = ((outsAt4 V c n (Nat.lt_of_succ_lt hn)).2.2.1 : FVec Ideal S1x128 .f32) (ix2 (0 : Fin 1) j) + tileSum_r4 V c (n + 1) j
    ∧ ((outsAt4 V c (n + 1) hn).2.2.2 : FVec Ideal S1x128 .f32) (ix2 (0 : Fin 1) j)
        = ((outsAt4 V c n (Nat.lt_of_succ_lt hn)).2.2.2 : FVec Ideal S1x128 .f32) (ix2 (0 : Fin 1) j) + tileSq_r4 V c (n + 1) j := by
  by_cases h1 : (n + 1) % 10 = 9
  · rw [outsAt4_C V c ⟨n + 1, hn⟩ h0 h1]
    dsimp only
    constructor
    · refine (congrFun (sout4_C_0_eq (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 V c n (Nat.lt_of_succ_lt hn)).2.2.1 (outsAt4 V c n (Nat.lt_of_succ_lt hn)).2.2.2) (ix2 (0 : Fin 1) j)).trans ?_
      rw [PayIdeal.pay1_apply, pay8_blocks_r4 V c ⟨n + 1, hn⟩ j]
    · refine (congrFun (sout4_C_1_eq (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 V c n (Nat.lt_of_succ_lt hn)).2.2.1 (outsAt4 V c n (Nat.lt_of_succ_lt hn)).2.2.2) (ix2 (0 : Fin 1) j)).trans ?_
      rw [PayIdeal.pay2_apply, sq_blocks_r4 V c ⟨n + 1, hn⟩ j]
  · rw [outsAt4_B V c ⟨n + 1, hn⟩ h0 h1]
    dsimp only
    constructor
    · refine (congrFun (sout4_B_0_eq (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 V c n (Nat.lt_of_succ_lt hn)).2.2.1 (outsAt4 V c n (Nat.lt_of_succ_lt hn)).2.2.2) (ix2 (0 : Fin 1) j)).trans ?_
      rw [PayIdeal.pay1_apply, pay8_blocks_r4 V c ⟨n + 1, hn⟩ j]
    · refine (congrFun (sout4_B_1_eq (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 V c n (Nat.lt_of_succ_lt hn)).2.2.1 (outsAt4 V c n (Nat.lt_of_succ_lt hn)).2.2.2) (ix2 (0 : Fin 1) j)).trans ?_
      rw [PayIdeal.pay2_apply, sq_blocks_r4 V c ⟨n + 1, hn⟩ j]

/-- THE ACCUMULATORS. After point `n`, tile `n % 10` of core `n / 10`, each accumulator row holds the sums over the
    core's tiles so far. -/
theorem acc_inv_r4 (c : Dev nD) (j : Fin 128) : ∀ (n : ℕ) (hn : n < cfg4.N),
    ((outsAt4 V c n hn).2.2.1 : FVec Ideal S1x128 .f32) (ix2 (0 : Fin 1) j)
        = ∑ s ∈ Finset.range (n % 10 + 1), tileSum_r4 V c (10 * (n / 10) + s) j
    ∧ ((outsAt4 V c n hn).2.2.2 : FVec Ideal S1x128 .f32) (ix2 (0 : Fin 1) j)
        = ∑ s ∈ Finset.range (n % 10 + 1), tileSq_r4 V c (10 * (n / 10) + s) j
  | 0, hn => by
    have h := acc_first_r4 V c ⟨0, hn⟩ rfl j
    refine ⟨h.1.trans ?_, h.2.trans ?_⟩ <;> simp
  | n + 1, hn => by
    by_cases h0 : (n + 1) % 10 = 0
    · have h := acc_first_r4 V c ⟨n + 1, hn⟩ h0 j
      have e : 10 * ((n + 1) / 10) + 0 = n + 1 := by omega
      refine ⟨h.1.trans ?_, h.2.trans ?_⟩ <;> rw [h0, Finset.sum_range_one, e]
    · have h := acc_step_r4 V c n hn h0 j
      have ih := acc_inv_r4 c j n (Nat.lt_of_succ_lt hn)
      have e1 : (n + 1) % 10 = n % 10 + 1 := by omega
      have e2 : (n + 1) / 10 = n / 10 := by omega
      have e3 : 10 * (n / 10) + (n % 10 + 1) = n + 1 := by omega
      refine ⟨h.1.trans ?_, h.2.trans ?_⟩
      · rw [ih.1, e1, e2, Finset.sum_range_succ _ (n % 10 + 1), e3]
      · rw [ih.2, e1, e2, Finset.sum_range_succ _ (n % 10 + 1), e3]

/-! ## The two outputs' blocks at a core's last tile -/

/-- At a core's last tile output 7's block is the finished sum row on each of its eight rows, output 8's the
    finished row of sums of squares. -/
theorem out_last_r4 (c : Dev nD) (t : Fin cfg4.N) (h1 : t.val % 10 = 9) (a : Fin 8) (j : Fin 128) :
    ((outsAt4 V c t.val t.isLt).1 : FVec Ideal S8x128 .f32) (ix2 a j) = ∑ s ∈ Finset.range 10, tileSum_r4 V c (10 * (t.val / 10) + s) j
    ∧ ((outsAt4 V c t.val t.isLt).2.1 : FVec Ideal S8x128 .f32) (ix2 a j) = ∑ s ∈ Finset.range 10, tileSq_r4 V c (10 * (t.val / 10) + s) j := by
  have h0 : ¬t.val % 10 = 0 := by omega
  have hs := acc_inv_r4 V c j t.val t.isLt
  rw [h1] at hs
  rw [outsAt4_C V c t h0 h1] at hs ⊢
  dsimp only at hs ⊢
  obtain ⟨hs0, hs1⟩ := hs
  rw [sout4_C_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2] at hs0
  rw [sout4_C_1_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2] at hs1
  constructor
  · refine (congrFun (out4_C_7_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2) (ix2 a j)).trans ?_
    rw [PayIdeal.pay3_apply]
    exact hs0
  · refine (congrFun (out4_C_8_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2.1 (outsAt4 V c (t.val - 1) (Nat.lt_of_le_of_lt (Nat.sub_le _ _) t.isLt)).2.2.2) (ix2 a j)).trans ?_
    rw [PayIdeal.pay4_apply]
    exact hs1

/-! ## The two output arrays after the region -/

/-- Output window 7's block index at point `t` is `(t / 10, 0)`: the core's eight rows, every one of its 128 columns;
    its blocks are whole. -/
theorem blockIndex4_7 : ∀ t : Fin cfg4.N, win4_7.index t (0 : Fin 2) = t.val / 10 ∧ win4_7.index t (1 : Fin 2) = 0
    ∧ win4_7.xsize (grid4.coords t) (0 : Fin 2) = 8 ∧ win4_7.xsize (grid4.coords t) (1 : Fin 2) = 128 :=
  (by decide +kernel : ∀ t : Fin grid4.N, _)

/-- What output 7's array holds after the region, as one function of its index: the column sums over the ten tiles of
    the core that owns the row. -/
noncomputable def G7_r4 (c : Dev nD) : FVec Ideal S16x128 .f32 :=
  fun i => ∑ s ∈ Finset.range 10, tileSum_r4 V c (10 * ((i 0).val / 8) + s) (i 1)

/-- What a write-back of output 7 writes is its block of `G7_r4`. -/
theorem flushed4_7_eq (c : Dev nD) (t : Fin cfg4.N) (hf : (cfg4.win 7).flush t = true) :
    (dat4 V c).flushed 7 t = ((cfg4.win 7).blk t).view.read (Elt Ideal) (G7_r4 V c) := by
  have h1 : t.val % 10 = 9 := (flush4_7 t).mp hf
  obtain ⟨i0, i1, -, -⟩ := blockIndex4_7 t
  show (cfg4.win 7).cut (grid4.coords t) ((dat4 V c).after 7 t) = _
  rw [after4_7]
  funext y
  rw [View.read_apply]
  have hy0 : (y 0).val < 8 := (y 0).isLt
  have e0 : ((((cfg4.win 7).blk t).view.emb y) 0).val = 8 * (t.val / 10) + (y 0).val := by
    show win4_7.index t 0 * 8 + 1 * (y 0).val = _
    rw [i0]; omega
  have e1 : (((cfg4.win 7).blk t).view.emb y) 1 = y 1 := Fin.ext (by
    show win4_7.index t 1 * 128 + 1 * (y 1).val = (y 1).val
    rw [i1]; omega)
  show ((outsAt4 V c t.val t.isLt).1 : FVec Ideal S8x128 .f32) y
    = ∑ s ∈ Finset.range 10, tileSum_r4 V c (10 * (((((cfg4.win 7).blk t).view.emb y) 0).val / 8) + s) ((((cfg4.win 7).blk t).view.emb y) 1)
  rw [e1, e0, show (8 * (t.val / 10) + (y 0).val) / 8 = t.val / 10 from by omega, eq_ix2 (n0 := 8) (n1 := 128) y]
  exact (out_last_r4 V c t h1 (y 0) (y 1)).1

/-- Every entry of output 7's array is in the block some core's last tile writes back. -/
theorem covered4_7 (i : S16x128.Idx) : ∃ t : Fin cfg4.N, (cfg4.win 7).flush t = true ∧ i ∈ ((cfg4.win 7).blk t).view.set := by
  have hi0 : (i 0).val < 16 := (i 0).isLt
  have hi1 : (i 1).val < 128 := (i 1).isLt
  have hlt : 10 * ((i 0).val / 8) + 9 < cfg4.N := by rw [show cfg4.N = 20 from N_4]; omega
  have hv : (⟨10 * ((i 0).val / 8) + 9, hlt⟩ : Fin cfg4.N).val = 10 * ((i 0).val / 8) + 9 := rfl
  obtain ⟨i0, i1, x0, x1⟩ := blockIndex4_7 ⟨10 * ((i 0).val / 8) + 9, hlt⟩
  rw [hv] at i0
  refine ⟨⟨10 * ((i 0).val / 8) + 9, hlt⟩, (flush4_7 _).mpr (by show (10 * ((i 0).val / 8) + 9) % 10 = 9; omega), ?_⟩
  show i ∈ ((View.whole main_v141_0).slice (win4_7.rect ⟨10 * ((i 0).val / 8) + 9, hlt⟩)).set
  rw [View.set_slice_whole, Rect.mem_set_unit]
  intro a
  match a with
  | ⟨0, _⟩ =>
    show win4_7.index ⟨10 * ((i 0).val / 8) + 9, hlt⟩ 0 * 8 ≤ (i 0 : ℕ) ∧ (i 0 : ℕ) < win4_7.index ⟨10 * ((i 0).val / 8) + 9, hlt⟩ 0 * 8 + win4_7.xsize (grid4.coords ⟨10 * ((i 0).val / 8) + 9, hlt⟩) 0
    rw [i0, x0]
    omega
  | ⟨1, _⟩ =>
    show win4_7.index ⟨10 * ((i 0).val / 8) + 9, hlt⟩ 1 * 128 ≤ (i 1 : ℕ) ∧ (i 1 : ℕ) < win4_7.index ⟨10 * ((i 0).val / 8) + 9, hlt⟩ 1 * 128 + win4_7.xsize (grid4.coords ⟨10 * ((i 0).val / 8) + 9, hlt⟩) 1
    rw [i1, x1]
    omega

/-- Output 7's array after the region is `G7_r4`. -/
theorem final4_7 (c : Dev nD) : (dat4 V c).arrAt 7 cfg4.N = G7_r4 V c :=
  (dat4 V c).arrAt_eq_of_cover 7 (G7_r4 V c) (flushed4_7_eq V c) (covered4_7)

/-- Output window 8's block index at point `t` is `(t / 10, 0)`: the core's eight rows, every one of its 128 columns;
    its blocks are whole. -/
theorem blockIndex4_8 : ∀ t : Fin cfg4.N, win4_8.index t (0 : Fin 2) = t.val / 10 ∧ win4_8.index t (1 : Fin 2) = 0
    ∧ win4_8.xsize (grid4.coords t) (0 : Fin 2) = 8 ∧ win4_8.xsize (grid4.coords t) (1 : Fin 2) = 128 :=
  (by decide +kernel : ∀ t : Fin grid4.N, _)

/-- What output 8's array holds after the region, as one function of its index: the column sums of squares over the ten tiles of
    the core that owns the row. -/
noncomputable def G8_r4 (c : Dev nD) : FVec Ideal S16x128 .f32 :=
  fun i => ∑ s ∈ Finset.range 10, tileSq_r4 V c (10 * ((i 0).val / 8) + s) (i 1)

/-- What a write-back of output 8 writes is its block of `G8_r4`. -/
theorem flushed4_8_eq (c : Dev nD) (t : Fin cfg4.N) (hf : (cfg4.win 8).flush t = true) :
    (dat4 V c).flushed 8 t = ((cfg4.win 8).blk t).view.read (Elt Ideal) (G8_r4 V c) := by
  have h1 : t.val % 10 = 9 := (flush4_8 t).mp hf
  obtain ⟨i0, i1, -, -⟩ := blockIndex4_8 t
  show (cfg4.win 8).cut (grid4.coords t) ((dat4 V c).after 8 t) = _
  rw [after4_8]
  funext y
  rw [View.read_apply]
  have hy0 : (y 0).val < 8 := (y 0).isLt
  have e0 : ((((cfg4.win 8).blk t).view.emb y) 0).val = 8 * (t.val / 10) + (y 0).val := by
    show win4_8.index t 0 * 8 + 1 * (y 0).val = _
    rw [i0]; omega
  have e1 : (((cfg4.win 8).blk t).view.emb y) 1 = y 1 := Fin.ext (by
    show win4_8.index t 1 * 128 + 1 * (y 1).val = (y 1).val
    rw [i1]; omega)
  show ((outsAt4 V c t.val t.isLt).2.1 : FVec Ideal S8x128 .f32) y
    = ∑ s ∈ Finset.range 10, tileSq_r4 V c (10 * (((((cfg4.win 8).blk t).view.emb y) 0).val / 8) + s) ((((cfg4.win 8).blk t).view.emb y) 1)
  rw [e1, e0, show (8 * (t.val / 10) + (y 0).val) / 8 = t.val / 10 from by omega, eq_ix2 (n0 := 8) (n1 := 128) y]
  exact (out_last_r4 V c t h1 (y 0) (y 1)).2

/-- Every entry of output 8's array is in the block some core's last tile writes back. -/
theorem covered4_8 (i : S16x128.Idx) : ∃ t : Fin cfg4.N, (cfg4.win 8).flush t = true ∧ i ∈ ((cfg4.win 8).blk t).view.set := by
  have hi0 : (i 0).val < 16 := (i 0).isLt
  have hi1 : (i 1).val < 128 := (i 1).isLt
  have hlt : 10 * ((i 0).val / 8) + 9 < cfg4.N := by rw [show cfg4.N = 20 from N_4]; omega
  have hv : (⟨10 * ((i 0).val / 8) + 9, hlt⟩ : Fin cfg4.N).val = 10 * ((i 0).val / 8) + 9 := rfl
  obtain ⟨i0, i1, x0, x1⟩ := blockIndex4_8 ⟨10 * ((i 0).val / 8) + 9, hlt⟩
  rw [hv] at i0
  refine ⟨⟨10 * ((i 0).val / 8) + 9, hlt⟩, (flush4_8 _).mpr (by show (10 * ((i 0).val / 8) + 9) % 10 = 9; omega), ?_⟩
  show i ∈ ((View.whole main_v141_1).slice (win4_8.rect ⟨10 * ((i 0).val / 8) + 9, hlt⟩)).set
  rw [View.set_slice_whole, Rect.mem_set_unit]
  intro a
  match a with
  | ⟨0, _⟩ =>
    show win4_8.index ⟨10 * ((i 0).val / 8) + 9, hlt⟩ 0 * 8 ≤ (i 0 : ℕ) ∧ (i 0 : ℕ) < win4_8.index ⟨10 * ((i 0).val / 8) + 9, hlt⟩ 0 * 8 + win4_8.xsize (grid4.coords ⟨10 * ((i 0).val / 8) + 9, hlt⟩) 0
    rw [i0, x0]
    omega
  | ⟨1, _⟩ =>
    show win4_8.index ⟨10 * ((i 0).val / 8) + 9, hlt⟩ 1 * 128 ≤ (i 1 : ℕ) ∧ (i 1 : ℕ) < win4_8.index ⟨10 * ((i 0).val / 8) + 9, hlt⟩ 1 * 128 + win4_8.xsize (grid4.coords ⟨10 * ((i 0).val / 8) + 9, hlt⟩) 1
    rw [i1, x1]
    omega

/-- Output 8's array after the region is `G8_r4`. -/
theorem final4_8 (c : Dev nD) : (dat4 V c).arrAt 8 cfg4.N = G8_r4 V c :=
  (dat4 V c).arrAt_eq_of_cover 8 (G8_r4 V c) (flushed4_8_eq V c) (covered4_8)

/-- THE SUMS. After the region, row `8 cr + a` of the first output holds, in column `j`, the sum of the rectified affine
    map's column `j` over the 50000 rows of core `cr`'s ten tiles. -/
theorem statsS4 (c : Dev nD) (cr : Fin 2) (a : Fin 8) (j : Fin 128) :
    ((dat4 V c).arrAt 7 cfg4.N : FVec Ideal S16x128 .f32) (ix2 ⟨8 * cr.val + a.val, KLayer.srow_lt cr a⟩ j)
      = ∑ t : Fin 10, ∑ r : Fin 5000, Xt_r4 V c ⟨10 * cr.val + t.val, KLayer.core_lt cr t⟩ (ix2 r j) := by
  rw [final4_7 V c]
  show ∑ s ∈ Finset.range 10, tileSum_r4 V c (10 * ((8 * cr.val + a.val) / 8) + s) j = _
  rw [show (8 * cr.val + a.val) / 8 = cr.val from by omega, Finset.sum_range]
  refine Finset.sum_congr rfl fun t _ => ?_
  unfold tileSum_r4
  rw [dif_pos (KLayer.core_lt cr t)]

/-- THE SUMS OF SQUARES. The same for the second output, of the squares. -/
theorem statsQ4 (c : Dev nD) (cr : Fin 2) (a : Fin 8) (j : Fin 128) :
    ((dat4 V c).arrAt 8 cfg4.N : FVec Ideal S16x128 .f32) (ix2 ⟨8 * cr.val + a.val, KLayer.srow_lt cr a⟩ j)
      = ∑ t : Fin 10, ∑ r : Fin 5000, Xt_r4 V c ⟨10 * cr.val + t.val, KLayer.core_lt cr t⟩ (ix2 r j) * Xt_r4 V c ⟨10 * cr.val + t.val, KLayer.core_lt cr t⟩ (ix2 r j) := by
  rw [final4_8 V c]
  show ∑ s ∈ Finset.range 10, tileSq_r4 V c (10 * ((8 * cr.val + a.val) / 8) + s) j = _
  rw [show (8 * cr.val + a.val) / 8 = cr.val from by omega, Finset.sum_range]
  refine Finset.sum_congr rfl fun t _ => ?_
  unfold tileSq_r4
  rw [dif_pos (KLayer.core_lt cr t)]

end AtIdeal

end Cert.KernelIdeal.Gen

end
-- ==== Proof.KI.Stats6Pieces.lean ====
/- The statistics kernel's body, case by case, as values: what each case leaves in the two accumulator rows and (at a
   last tile) in the two outputs' blocks, read off the pieces its run found. With y the tile's activations
   (`k0_pay7` of the seven input blocks) and s = the column sums of y (`k0_pay8`): accumulator 0 ends at
   (its contents before) + s, accumulator 1 at (its contents before) + the column sums of y · y, where "before" is the
   zero row at a first tile (the reset) and what the point before left otherwise; at a last tile output 7 holds the new
   accumulator 0 repeated over 8 rows and output 8 the new accumulator 1 likewise. -/
import proofs.«129379_j32899449487582_2_alg».proof.Proof.KI.Stats6
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat)

variable {F : FTy → Type} [FloatOps F]

/-- The whole-buffer accesses are at zero offsets, however the zeros are spelt. -/
theorem unitZero6 : (![0, 0] : Fin 2 → Nat) = fun _ => 0 := funext fun a => by fin_cases a <;> rfl

/-! ## A first tile: the accumulators are reset, then updated -/

theorem sout6_A_0_eq (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) :
    sout6_A_0 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay1 (k0_pay5 (F := F)) (k0_pay8 x0 x1 x2 x3 x4 x5 x6) := by
  unfold sout6_A_0
  rw [View.read_writes_eq_canon _ _ _ (scover6_A_0 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun6_A kernelRun0_A
  dsimp only
  sl_unfold_words
  rw [View.canon_cons_unit_zero (S := S1x128) unitZero6]
  simp only [View.readAt_eq_ld, harg2.read_unread, harg3.read_unread, harg4.read_unread, harg5.read_unread, harg6.read_unread, harg7.read_unread, harg8.read_unread, View.ld_unit_zero (S := S5000x128) unitZero6, View.ld_unit_zero (S := S5000x1) unitZero6, View.ld_unit_zero (S := S128x128) unitZero6, View.ld_unit_zero (S := S1x128) unitZero6, View.readCov_unit_zero (S := S1x128) _ unitZero6]
  all_goals rfl

theorem sout6_A_1_eq (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) :
    sout6_A_1 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay2 (k0_pay7 x0 x1 x2 x3 x4 x5 x6) (k0_pay6 (F := F)) := by
  unfold sout6_A_1
  rw [View.read_writes_eq_canon _ _ _ (scover6_A_1 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun6_A kernelRun0_A
  dsimp only
  sl_unfold_words
  rw [View.canon_cons_unit_zero (S := S1x128) unitZero6]
  simp only [View.readAt_eq_ld, harg2.read_unread, harg3.read_unread, harg4.read_unread, harg5.read_unread, harg6.read_unread, harg7.read_unread, harg8.read_unread, View.ld_unit_zero (S := S5000x128) unitZero6, View.ld_unit_zero (S := S5000x1) unitZero6, View.ld_unit_zero (S := S128x128) unitZero6, View.ld_unit_zero (S := S1x128) unitZero6, View.readCov_unit_zero (S := S1x128) _ unitZero6]
  all_goals rfl

/-! ## A middle tile: the accumulators are updated from what the point before left -/

theorem sout6_B_0_eq (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    sout6_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay1 xs0 (k0_pay8 x0 x1 x2 x3 x4 x5 x6) := by
  unfold sout6_B_0
  rw [View.read_writes_eq_canon _ _ _ (scover6_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun6_B kernelRun0_B
  dsimp only
  sl_unfold_words
  rw [View.canon_unit_zero (S := S1x128) unitZero6]
  simp only [View.readAt_eq_ld, harg2.read_unread, harg3.read_unread, harg4.read_unread, harg5.read_unread, harg6.read_unread, harg7.read_unread, harg8.read_unread, harg11.read_unread, harg12.read_unread, View.ld_unit_zero (S := S5000x128) unitZero6, View.ld_unit_zero (S := S5000x1) unitZero6, View.ld_unit_zero (S := S128x128) unitZero6, View.ld_unit_zero (S := S1x128) unitZero6, View.readCov_unit_zero (S := S1x128) _ unitZero6]
  all_goals rfl

theorem sout6_B_1_eq (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : ¬cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    sout6_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay2 (k0_pay7 x0 x1 x2 x3 x4 x5 x6) xs1 := by
  unfold sout6_B_1
  rw [View.read_writes_eq_canon _ _ _ (scover6_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun6_B kernelRun0_B
  dsimp only
  sl_unfold_words
  rw [View.canon_unit_zero (S := S1x128) unitZero6]
  simp only [View.readAt_eq_ld, harg2.read_unread, harg3.read_unread, harg4.read_unread, harg5.read_unread, harg6.read_unread, harg7.read_unread, harg8.read_unread, harg11.read_unread, harg12.read_unread, View.ld_unit_zero (S := S5000x128) unitZero6, View.ld_unit_zero (S := S5000x1) unitZero6, View.ld_unit_zero (S := S128x128) unitZero6, View.ld_unit_zero (S := S1x128) unitZero6, View.readCov_unit_zero (S := S1x128) _ unitZero6]
  all_goals rfl

/-! ## A last tile: the accumulators are updated, then stored into the outputs -/

theorem sout6_C_0_eq (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    sout6_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay1 xs0 (k0_pay8 x0 x1 x2 x3 x4 x5 x6) := by
  unfold sout6_C_0
  rw [View.read_writes_eq_canon _ _ _ (scover6_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun6_C kernelRun0_C
  dsimp only
  sl_unfold_words
  rw [View.canon_unit_zero (S := S1x128) unitZero6]
  simp only [View.readAt_eq_ld, harg2.read_unread, harg3.read_unread, harg4.read_unread, harg5.read_unread, harg6.read_unread, harg7.read_unread, harg8.read_unread, harg11.read_unread, harg12.read_unread, View.ld_unit_zero (S := S5000x128) unitZero6, View.ld_unit_zero (S := S5000x1) unitZero6, View.ld_unit_zero (S := S128x128) unitZero6, View.ld_unit_zero (S := S1x128) unitZero6, View.readCov_unit_zero (S := S1x128) _ unitZero6]
  all_goals rfl

theorem sout6_C_1_eq (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    sout6_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay2 (k0_pay7 x0 x1 x2 x3 x4 x5 x6) xs1 := by
  unfold sout6_C_1
  rw [View.read_writes_eq_canon _ _ _ (scover6_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun6_C kernelRun0_C
  dsimp only
  sl_unfold_words
  rw [View.canon_unit_zero (S := S1x128) unitZero6]
  simp only [View.readAt_eq_ld, harg2.read_unread, harg3.read_unread, harg4.read_unread, harg5.read_unread, harg6.read_unread, harg7.read_unread, harg8.read_unread, harg11.read_unread, harg12.read_unread, View.ld_unit_zero (S := S5000x128) unitZero6, View.ld_unit_zero (S := S5000x1) unitZero6, View.ld_unit_zero (S := S128x128) unitZero6, View.ld_unit_zero (S := S1x128) unitZero6, View.readCov_unit_zero (S := S1x128) _ unitZero6]
  all_goals rfl

theorem out6_C_7_eq (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    out6_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay3 (k0_pay1 xs0 (k0_pay8 x0 x1 x2 x3 x4 x5 x6)) := by
  unfold out6_C_7
  rw [View.read_writes_eq_canon _ _ _ (cover6_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun6_C kernelRun0_C
  dsimp only
  sl_unfold_words
  rw [View.canon_unit_zero (S := S8x128) unitZero6]
  simp only [View.readAt_eq_ld, harg2.read_unread, harg3.read_unread, harg4.read_unread, harg5.read_unread, harg6.read_unread, harg7.read_unread, harg8.read_unread, harg11.read_unread, harg12.read_unread, View.ld_unit_zero (S := S5000x128) unitZero6, View.ld_unit_zero (S := S5000x1) unitZero6, View.ld_unit_zero (S := S128x128) unitZero6, View.ld_unit_zero (S := S1x128) unitZero6, View.readCov_unit_zero (S := S1x128) _ unitZero6]
  all_goals rfl

theorem out6_C_8_eq (c : Dev nD) (i : grid6.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S1x128 .f32) (harg12 : arg12.IsWhole) (hc0 : ¬cond6_0 i) (hc1 : cond6_1 i)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (xs0 : Vec F S1x128 .f32) (xs1 : Vec F S1x128 .f32) :
    out6_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay4 (k0_pay2 (k0_pay7 x0 x1 x2 x3 x4 x5 x6) xs1) := by
  unfold out6_C_8
  rw [View.read_writes_eq_canon _ _ _ (cover6_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun6_C kernelRun0_C
  dsimp only
  sl_unfold_words
  rw [View.canon_unit_zero (S := S8x128) unitZero6]
  simp only [View.readAt_eq_ld, harg2.read_unread, harg3.read_unread, harg4.read_unread, harg5.read_unread, harg6.read_unread, harg7.read_unread, harg8.read_unread, harg11.read_unread, harg12.read_unread, View.ld_unit_zero (S := S5000x128) unitZero6, View.ld_unit_zero (S := S5000x1) unitZero6, View.ld_unit_zero (S := S128x128) unitZero6, View.ld_unit_zero (S := S1x128) unitZero6, View.readCov_unit_zero (S := S1x128) _ unitZero6]
  all_goals rfl

end Cert.KernelIdeal.Gen

end
-- ==== Proof.KI.Stats6Value.lean ====
/-
  The statistics kernel's two outputs as sums, at the extended reals.

  The region runs a grid of 2 × 10 points; point `t` reads tile `t` (5000 rows) of the node features `h`, of the
  neighbour sums `raw` and of the reciprocal-degree column `inv`, and the whole weight matrices, bias and slope; its
  body forms the tile's rectified affine block `X t` (`KLayer.X`) and adds the block's column sums to one
  accumulator row and the column sums of its squares to another. A core's first tile resets both rows first; its
  last tile stores each row, repeated over eight rows, into the core's block of one of the two 16 × 128 outputs,
  which is then written back. So after the region, for core `cr`, sublane `a` and column `j`,
      S[8 cr + a, j] = ∑_{t < 10} ∑_{r < 5000} X (10 cr + t) [r, j],     Q[8 cr + a, j] = ∑_{t < 10} ∑_{r < 5000} X (10 cr + t) [r, j]²
  (`statsS6`, `statsQ6`), for any contents `V` of the buffers when the region is entered.
  The steps: each input window's block is a tile of its array, or the whole array (the windows' index maps decided
  over the grid); what each control case leaves in the accumulators is a running sum, so by induction on the point
  within a core's row each accumulator holds the sums over the core's tiles so far (`acc_inv_r6`); at a core's last
  tile the stored blocks are the finished rows on every sublane (`out_last_r6`); what is written back there is the
  block of one function of the array index (`flushed6_7_eq`, `flushed6_8_eq`), the two cores' blocks cover the
  array (`covered6_7`, `covered6_8`), hence the array after the region is that function (`final6_7`, `final6_8`).
-/
import proofs.«129379_j32899449487582_2_alg».proof.Proof.KI.Stats6Pieces
import proofs.«129379_j32899449487582_2_alg».proof.Proof.KI.KLayer
import Idealize.ShloMosaic.Lib.ValueIdx
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-! ## The input windows' blocks as tiles of their arrays -/

/-- Window 0's block index at point `t` is `(t, 0)`: the grid's points in order are the array's row tiles in order. -/
theorem blockIndex6_0 : ∀ t : Fin cfg6.N, win6_0.index t (0 : Fin 2) = t.val ∧ win6_0.index t (1 : Fin 2) = 0 :=
  (by decide +kernel : ∀ t : Fin grid6.N, _)

/-- Window 0's block at point `t` is rows `5000·t … 5000·t + 4999` of its array: entry `x` of the block is the array's
    entry at row `5000·t + x 0`, column `x 1`. -/
theorem iblk6_0_apply (c : Dev nD) (t : Fin cfg6.N) (x : S5000x128.Idx) (k : S100000x128.Idx)
    (hk0 : (k 0).val = 5000 * t.val + (x 0).val) (hk1 : (k 1).val = (x 1).val) :
    (iblk6 V c 0 t : Vec F S5000x128 .f32) x = (V c (Pipeline.arrRef spec6 0) : Vec F S100000x128 .f32) k := by
  have hi := blockIndex6_0 t
  unfold iblk6
  rw [View.read_apply]
  show V c main_v164 _ = V c main_v164 _
  congr 1
  funext a
  apply Fin.ext
  match a with
  | ⟨0, _⟩ => show win6_0.index t 0 * 5000 + 1 * (x 0).val = (k 0).val; rw [hi.1, hk0]; omega
  | ⟨1, _⟩ => show win6_0.index t 1 * 128 + 1 * (x 1).val = (k 1).val; rw [hi.2, hk1]; omega

/-- The same at explicit coordinates. -/
theorem iblk6_0_ix2 (c : Dev nD) (t : Fin cfg6.N) (r : Fin 5000) (j : Fin 128) (h : 5000 * t.val + r.val < 100000) :
    (iblk6 V c 0 t : Vec F S5000x128 .f32) (ix2 r j) = (V c (Pipeline.arrRef spec6 0) : Vec F S100000x128 .f32) (ix2 ⟨5000 * t.val + r.val, h⟩ j) :=
  iblk6_0_apply V c t (ix2 r j) (ix2 ⟨5000 * t.val + r.val, h⟩ j) rfl rfl

/-- Window 1's block index at point `t` is `(t, 0)`: the grid's points in order are the array's row tiles in order. -/
theorem blockIndex6_1 : ∀ t : Fin cfg6.N, win6_1.index t (0 : Fin 2) = t.val ∧ win6_1.index t (1 : Fin 2) = 0 :=
  (by decide +kernel : ∀ t : Fin grid6.N, _)

/-- Window 1's block at point `t` is rows `5000·t … 5000·t + 4999` of its array: entry `x` of the block is the array's
    entry at row `5000·t + x 0`, column `x 1`. -/
theorem iblk6_1_apply (c : Dev nD) (t : Fin cfg6.N) (x : S5000x128.Idx) (k : S100000x128.Idx)
    (hk0 : (k 0).val = 5000 * t.val + (x 0).val) (hk1 : (k 1).val = (x 1).val) :
    (iblk6 V c 1 t : Vec F S5000x128 .f32) x = (V c (Pipeline.arrRef spec6 1) : Vec F S100000x128 .f32) k := by
  have hi := blockIndex6_1 t
  unfold iblk6
  rw [View.read_apply]
  show V c main_v174 _ = V c main_v174 _
  congr 1
  funext a
  apply Fin.ext
  match a with
  | ⟨0, _⟩ => show win6_1.index t 0 * 5000 + 1 * (x 0).val = (k 0).val; rw [hi.1, hk0]; omega
  | ⟨1, _⟩ => show win6_1.index t 1 * 128 + 1 * (x 1).val = (k 1).val; rw [hi.2, hk1]; omega

/-- The same at explicit coordinates. -/
theorem iblk6_1_ix2 (c : Dev nD) (t : Fin cfg6.N) (r : Fin 5000) (j : Fin 128) (h : 5000 * t.val + r.val < 100000) :
    (iblk6 V c 1 t : Vec F S5000x128 .f32) (ix2 r j) = (V c (Pipeline.arrRef spec6 1) : Vec F S100000x128 .f32) (ix2 ⟨5000 * t.val + r.val, h⟩ j) :=
  iblk6_1_apply V c t (ix2 r j) (ix2 ⟨5000 * t.val + r.val, h⟩ j) rfl rfl

/-- Window 2's block index at point `t` is `(t, 0)`: the grid's points in order are the array's row tiles in order. -/
theorem blockIndex6_2 : ∀ t : Fin cfg6.N, win6_2.index t (0 : Fin 2) = t.val ∧ win6_2.index t (1 : Fin 2) = 0 :=
  (by decide +kernel : ∀ t : Fin grid6.N, _)

/-- Window 2's block at point `t` is rows `5000·t … 5000·t + 4999` of its array: entry `x` of the block is the array's
    entry at row `5000·t + x 0`, column `x 1`. -/
theorem iblk6_2_apply (c : Dev nD) (t : Fin cfg6.N) (x : S5000x1.Idx) (k : S100000x1.Idx)
    (hk0 : (k 0).val = 5000 * t.val + (x 0).val) (hk1 : (k 1).val = (x 1).val) :
    (iblk6 V c 2 t : Vec F S5000x1 .f32) x = (V c (Pipeline.arrRef spec6 2) : Vec F S100000x1 .f32) k := by
  have hi := blockIndex6_2 t
  unfold iblk6
  rw [View.read_apply]
  show V c main_v14 _ = V c main_v14 _
  congr 1
  funext a
  apply Fin.ext
  match a with
  | ⟨0, _⟩ => show win6_2.index t 0 * 5000 + 1 * (x 0).val = (k 0).val; rw [hi.1, hk0]; omega
  | ⟨1, _⟩ => show win6_2.index t 1 * 1 + 1 * (x 1).val = (k 1).val; rw [hi.2, hk1]; omega

/-- The same at explicit coordinates. -/
theorem iblk6_2_ix2 (c : Dev nD) (t : Fin cfg6.N) (r : Fin 5000) (j : Fin 1) (h : 5000 * t.val + r.val < 100000) :
    (iblk6 V c 2 t : Vec F S5000x1 .f32) (ix2 r j) = (V c (Pipeline.arrRef spec6 2) : Vec F S100000x1 .f32) (ix2 ⟨5000 * t.val + r.val, h⟩ j) :=
  iblk6_2_apply V c t (ix2 r j) (ix2 ⟨5000 * t.val + r.val, h⟩ j) rfl rfl

/-- Window 3's block index is `(0, 0)` at every point: the window is its whole array. -/
theorem blockIndex6_3 : ∀ t : Fin cfg6.N, win6_3.index t (0 : Fin 2) = 0 ∧ win6_3.index t (1 : Fin 2) = 0 :=
  (by decide +kernel : ∀ t : Fin grid6.N, _)

/-- Window 3's block at every point is its whole array. -/
theorem iblk6_3_eq (c : Dev nD) (t : Fin cfg6.N) :
    (iblk6 V c 3 t : Vec F S128x128 .f32) = (V c (Pipeline.arrRef spec6 3) : Vec F S128x128 .f32) := by
  have hi := blockIndex6_3 t
  funext x
  unfold iblk6
  rw [View.read_apply]
  show V c main_v188 _ = V c main_v188 _
  congr 1
  funext a
  apply Fin.ext
  match a with
  | ⟨0, _⟩ => show win6_3.index t 0 * 128 + 1 * (x 0).val = (x 0).val; rw [hi.1]; omega
  | ⟨1, _⟩ => show win6_3.index t 1 * 128 + 1 * (x 1).val = (x 1).val; rw [hi.2]; omega

/-- Window 4's block index is `(0, 0)` at every point: the window is its whole array. -/
theorem blockIndex6_4 : ∀ t : Fin cfg6.N, win6_4.index t (0 : Fin 2) = 0 ∧ win6_4.index t (1 : Fin 2) = 0 :=
  (by decide +kernel : ∀ t : Fin grid6.N, _)

/-- Window 4's block at every point is its whole array. -/
theorem iblk6_4_eq (c : Dev nD) (t : Fin cfg6.N) :
    (iblk6 V c 4 t : Vec F S128x128 .f32) = (V c (Pipeline.arrRef spec6 4) : Vec F S128x128 .f32) := by
  have hi := blockIndex6_4 t
  funext x
  unfold iblk6
  rw [View.read_apply]
  show V c main_v190 _ = V c main_v190 _
  congr 1
  funext a
  apply Fin.ext
  match a with
  | ⟨0, _⟩ => show win6_4.index t 0 * 128 + 1 * (x 0).val = (x 0).val; rw [hi.1]; omega
  | ⟨1, _⟩ => show win6_4.index t 1 * 128 + 1 * (x 1).val = (x 1).val; rw [hi.2]; omega

/-- Window 5's block index is `(0, 0)` at every point: the window is its whole array. -/
theorem blockIndex6_5 : ∀ t : Fin cfg6.N, win6_5.index t (0 : Fin 2) = 0 ∧ win6_5.index t (1 : Fin 2) = 0 :=
  (by decide +kernel : ∀ t : Fin grid6.N, _)

/-- Window 5's block at every point is its whole array. -/
theorem iblk6_5_eq (c : Dev nD) (t : Fin cfg6.N) :
    (iblk6 V c 5 t : Vec F S1x128 .f32) = (V c (Pipeline.arrRef spec6 5) : Vec F S1x128 .f32) := by
  have hi := blockIndex6_5 t
  funext x
  unfold iblk6
  rw [View.read_apply]
  show V c main_v177 _ = V c main_v177 _
  congr 1
  funext a
  apply Fin.ext
  match a with
  | ⟨0, _⟩ => show win6_5.index t 0 * 1 + 1 * (x 0).val = (x 0).val; rw [hi.1]; omega
  | ⟨1, _⟩ => show win6_5.index t 1 * 128 + 1 * (x 1).val = (x 1).val; rw [hi.2]; omega

/-- Window 6's block index is `(0, 0)` at every point: the window is its whole array. -/
theorem blockIndex6_6 : ∀ t : Fin cfg6.N, win6_6.index t (0 : Fin 2) = 0 ∧ win6_6.index t (1 : Fin 2) = 0 :=
  (by decide +kernel : ∀ t : Fin grid6.N, _)

/-- Window 6's block at every point is its whole array. -/
theorem iblk6_6_eq (c : Dev nD) (t : Fin cfg6.N) :
    (iblk6 V c 6 t : Vec F S1x128 .f32) = (V c (Pipeline.arrRef spec6 6) : Vec F S1x128 .f32) := by
  have hi := blockIndex6_6 t
  funext x
  unfold iblk6
  rw [View.read_apply]
  show V c main_v180 _ = V c main_v180 _
  congr 1
  funext a
  apply Fin.ext
  match a with
  | ⟨0, _⟩ => show win6_6.index t 0 * 1 + 1 * (x 0).val = (x 0).val; rw [hi.1]; omega
  | ⟨1, _⟩ => show win6_6.index t 1 * 128 + 1 * (x 1).val = (x 1).val; rw [hi.2]; omega

section AtIdeal

variable (V : (c : Dev nD) → (b : Ref sig .tc) → Buf (Elt Ideal) ((c : Thread nD τ).loc b))

/-- Window 0's block at point `t` is tile `t` of its array. -/
theorem iblk6_0_tile (c : Dev nD) (t : Fin cfg6.N) :
    (iblk6 V c 0 t : FVec Ideal S5000x128 .f32) = KLayer.tile (V c (Pipeline.arrRef spec6 0)) t :=
  funext fun y => iblk6_0_apply V c t y (ix2 ⟨5000 * t.val + (y 0).val, KLayer.row_lt t (y 0)⟩ (y 1)) rfl rfl

/-- Window 1's block at point `t` is tile `t` of its array. -/
theorem iblk6_1_tile (c : Dev nD) (t : Fin cfg6.N) :
    (iblk6 V c 1 t : FVec Ideal S5000x128 .f32) = KLayer.tile (V c (Pipeline.arrRef spec6 1)) t :=
  funext fun y => iblk6_1_apply V c t y (ix2 ⟨5000 * t.val + (y 0).val, KLayer.row_lt t (y 0)⟩ (y 1)) rfl rfl

/-- Window 2's block at point `t` is tile `t` of its array. -/
theorem iblk6_2_tile (c : Dev nD) (t : Fin cfg6.N) :
    (iblk6 V c 2 t : FVec Ideal S5000x1 .f32) = KLayer.tile1 (V c (Pipeline.arrRef spec6 2)) t :=
  funext fun y => iblk6_2_apply V c t y (ix2 ⟨5000 * t.val + (y 0).val, KLayer.row_lt t (y 0)⟩ (y 1)) rfl rfl

/-- The tile's rectified affine block, over the region's seven input arrays as it finds them. -/
noncomputable abbrev Xt_r6 (c : Dev nD) (t : Fin 20) : FVec Ideal S5000x128 .f32 :=
  KLayer.X (V c (Pipeline.arrRef spec6 0)) (V c (Pipeline.arrRef spec6 1)) (V c (Pipeline.arrRef spec6 2)) (V c (Pipeline.arrRef spec6 3))
    (V c (Pipeline.arrRef spec6 4)) (V c (Pipeline.arrRef spec6 5)) (V c (Pipeline.arrRef spec6 6)) t

/-- The body's block at point `t` is the tile's rectified affine block. -/
theorem pay7_blocks_r6 (c : Dev nD) (t : Fin cfg6.N) :
    k0_pay7 (F := Ideal) (iblk6 V c 0 t) (iblk6 V c 1 t) (iblk6 V c 2 t) (iblk6 V c 3 t) (iblk6 V c 4 t) (iblk6 V c 5 t) (iblk6 V c 6 t) = Xt_r6 V c t := by
  rw [iblk6_0_tile V c t, iblk6_1_tile V c t, iblk6_2_tile V c t, iblk6_3_eq V c t, iblk6_4_eq V c t, iblk6_5_eq V c t, iblk6_6_eq V c t]
  rfl

/-! ## The accumulators after each point -/

/-- Tile `n`'s column sums (zero past the grid: never read). -/
noncomputable def tileSum_r6 (c : Dev nD) (n : ℕ) (j : Fin 128) : EReal :=
  if h : n < 20 then ∑ r : Fin 5000, Xt_r6 V c ⟨n, h⟩ (ix2 r j) else 0

/-- Tile `n`'s column sums of squares (zero past the grid: never read). -/
noncomputable def tileSq_r6 (c : Dev nD) (n : ℕ) (j : Fin 128) : EReal :=
  if h : n < 20 then ∑ r : Fin 5000, Xt_r6 V c ⟨n, h⟩ (ix2 r j) * Xt_r6 V c ⟨n, h⟩ (ix2 r j) else 0

/-- The block's column sums at point `t` are tile `t`'s. -/
theorem pay8_blocks_r6 (c : Dev nD) (t : Fin cfg6.N) (j : Fin 128) :
    k0_pay8 (F := Ideal) (iblk6 V c 0 t) (iblk6 V c 1 t) (iblk6 V c 2 t) (iblk6 V c 3 t) (iblk6 V c 4 t) (iblk6 V c 5 t) (iblk6 V c 6 t) (ix1 j) = tileSum_r6 V c t.val j := by
  rw [PayIdeal.pay8_apply, pay7_blocks_r6 V c t]
  unfold tileSum_r6
  rw [dif_pos (show t.val < 20 from t.isLt)] <;> rfl

/-- The block's column sums of squares at point `t` are tile `t`'s. -/
theorem sq_blocks_r6 (c : Dev nD) (t : Fin cfg6.N) (j : Fin 128) :
    (∑ r : Fin 5000, k0_pay7 (F := Ideal) (iblk6 V c 0 t) (iblk6 V c 1 t) (iblk6 V c 2 t) (iblk6 V c 3 t) (iblk6 V c 4 t) (iblk6 V c 5 t) (iblk6 V c 6 t) (ix2 r j) * k0_pay7 (F := Ideal) (iblk6 V c 0 t) (iblk6 V c 1 t) (iblk6 V c 2 t) (iblk6 V c 3 t) (iblk6 V c 4 t) (iblk6 V c 5 t) (iblk6 V c 6 t) (ix2 r j)) = tileSq_r6 V c t.val j := by
  rw [pay7_blocks_r6 V c t]
  unfold tileSq_r6
  rw [dif_pos (show t.val < 20 from t.isLt)] <;> rfl

/-- At a core's first tile both accumulators are reset and then take the tile's sums. -/
theorem acc_first_r6 (c : Dev nD) (t : Fin cfg6.N) (h0 : t.val % 10 = 0) (j : Fin 128) :
    ((outsAt6 V c t.val t.isLt).2.2.1 : FVec Ideal S1x128 .f32) (ix2 (0 : Fin 1) j) = tileSum_r6 V c t.val j
    ∧ ((outsAt6 V c t.val t.isLt).2.2.2 : FVec Ideal S1x128 .f32) (ix2 (0 : Fin 1) j) = tileSq_r6 V c t.val j := by
  have h1 : ¬t.val % 10 = 9 := by omega
  rw [outsAt6_A V c t h0 h1]
  dsimp only
  constructor
  · refine (congrFun (sout6_A_0_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t)) (ix2 (0 : Fin 1) j)).trans ?_
    rw [PayIdeal.pay1_apply, PayIdeal.pay5_apply, pay8_blocks_r6 V c t j, zero_add]
  · refine (congrFun (sout6_A_1_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t)) (ix2 (0 : Fin 1) j)).trans ?_
    rw [PayIdeal.pay2_apply, PayIdeal.pay6_apply, sq_blocks_r6 V c t j, zero_add]

/-- At any later tile of a core each accumulator adds the tile's sums to what the point before left. -/
theorem acc_step_r6 (c : Dev nD) (n : ℕ) (hn : n + 1 < cfg6.N) (h0 : ¬(n + 1) % 10 = 0) (j : Fin 128) :
    ((outsAt6 V c (n + 1) hn).2.2.1 : FVec Ideal S1x128 .f32) (ix2 (0 : Fin 1) j)
        = ((outsAt6 V c n (Nat.lt_of_succ_lt hn)).2.2.1 : FVec Ideal S1x128 .f32) (ix2 (0 : Fin 1) j) + tileSum_r6 V c (n + 1) j
    ∧ ((outsAt6 V c (n + 1) hn).2.2.2 : FVec Ideal S1x128 .f32) (ix2 (0 : Fin 1) j)
        = ((outsAt6 V c n (Nat.lt_of_succ_lt hn)).2.2.2 : FVec Ideal S1x128 .f32) (ix2 (0 : Fin 1) j) + tileSq_r6 V c (n + 1) j := by
  by_cases h1 : (n + 1) % 10 = 9
  · rw [outsAt6_C V c ⟨n + 1, hn⟩ h0 h1]
    dsimp only
    constructor
    · refine (congrFun (sout6_C_0_eq (F := Ideal) c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 V c n (Nat.lt_of_succ_lt hn)).2.2.1 (outsAt6 V c n (Nat.lt_of_succ_lt hn)).2.2.2) (ix2 (0 : Fin 1) j)).trans ?_
      rw [PayIdeal.pay1_apply, pay8_blocks_r6 V c ⟨n + 1, hn⟩ j]
    · refine (congrFun (sout6_C_1_eq (F := Ideal) c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 V c n (Nat.lt_of_succ_lt hn)).2.2.1 (outsAt6 V c n (Nat.lt_of_succ_lt hn)).2.2.2) (ix2 (0 : Fin 1) j)).trans ?_
      rw [PayIdeal.pay2_apply, sq_blocks_r6 V c ⟨n + 1, hn⟩ j]
  · rw [outsAt6_B V c ⟨n + 1, hn⟩ h0 h1]
    dsimp only
    constructor
    · refine (congrFun (sout6_B_0_eq (F := Ideal) c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 V c n (Nat.lt_of_succ_lt hn)).2.2.1 (outsAt6 V c n (Nat.lt_of_succ_lt hn)).2.2.2) (ix2 (0 : Fin 1) j)).trans ?_
      rw [PayIdeal.pay1_apply, pay8_blocks_r6 V c ⟨n + 1, hn⟩ j]
    · refine (congrFun (sout6_B_1_eq (F := Ideal) c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (outsAt6 V c n (Nat.lt_of_succ_lt hn)).2.2.1 (outsAt6 V c n (Nat.lt_of_succ_lt hn)).2.2.2) (ix2 (0 : Fin 1) j)).trans ?_
      rw [PayIdeal.pay2_apply, sq_blocks_r6 V c ⟨n + 1, hn⟩ j]

/-- THE ACCUMULATORS. After point `n`, tile `n % 10` of core `n / 10`, each accumulator row holds the sums over the
    core's tiles so far. -/
theorem acc_inv_r6 (c : Dev nD) (j : Fin 128) : ∀ (n : ℕ) (hn : n < cfg6.N),
    ((outsAt6 V c n hn).2.2.1 : FVec Ideal S1x128 .f32) (ix2 (0 : Fin 1) j)
        = ∑ s ∈ Finset.range (n % 10 + 1), tileSum_r6 V c (10 * (n / 10) + s) j
    ∧ ((outsAt6 V c n hn).2.2.2 : FVec Ideal S1x128 .f32) (ix2 (0 : Fin 1) j)
        = ∑ s ∈ Finset.range (n % 10 + 1), tileSq_r6 V c (10 * (n / 10) + s) j
  | 0, hn => by
    have h := acc_first_r6 V c ⟨0, hn⟩ rfl j
    refine ⟨h.1.trans ?_, h.2.trans ?_⟩ <;> simp
  | n + 1, hn => by
    by_cases h0 : (n + 1) % 10 = 0
    · have h := acc_first_r6 V c ⟨n + 1, hn⟩ h0 j
      have e : 10 * ((n + 1) / 10) + 0 = n + 1 := by omega
      refine ⟨h.1.trans ?_, h.2.trans ?_⟩ <;> rw [h0, Finset.sum_range_one, e]
    · have h := acc_step_r6 V c n hn h0 j
      have ih := acc_inv_r6 c j n (Nat.lt_of_succ_lt hn)
      have e1 : (n + 1) % 10 = n % 10 + 1 := by omega
      have e2 : (n + 1) / 10 = n / 10 := by omega
      have e3 : 10 * (n / 10) + (n % 10 + 1) = n + 1 := by omega
      refine ⟨h.1.trans ?_, h.2.trans ?_⟩
      · rw [ih.1, e1, e2, Finset.sum_range_succ _ (n % 10 + 1), e3]
      · rw [ih.2, e1, e2, Finset.sum_range_succ _ (n % 10 + 1), e3]

/-! ## The two outputs' blocks at a core's last tile -/

/-- At a core's last tile output 7's block is the finished sum row on each of its eight rows, output 8's the
    finished row of sums of squares. -/
theorem out_last_r6 (c : Dev nD) (t : Fin cfg6.N) (h1 : t.val % 10 = 9) (a : Fin 8) (j : Fin 128) :
    ((outsAt6 V c t.val t.isLt).1 : FVec Ideal S8x128 .f32) (ix2 a j) = ∑ s ∈ Finset.range 10, tileSum_r6 V c (10 * (t.val / 10) + s) j
    ∧ ((outsAt6 V c t.val t.isLt).2.1 : FVec Ideal S8x128 .f32) (ix2 a j) = ∑ s ∈ Finset.range 10, tileSq_r6 V c (10 * (t.val / 10) + s) j := by
  have h0 : ¬t.val % 10 = 0 := by omega
  have hs := acc_inv_r6 V c j t.val t.isLt
  rw [h1] at hs
  rw [outsAt6_C V c t h0 h1] at hs ⊢
  dsimp only at hs ⊢
  obtain ⟨hs0, hs1⟩ := hs
  rw [sout6_C_0_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2] at hs0
  rw [sout6_C_1_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2] at hs1
  constructor
  · refine (congrFun (out6_C_7_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2) (ix2 a j)).trans ?_
    rw [PayIdeal.pay3_apply]
    exact hs0
  · refine (congrFun (out6_C_8_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (outsAt6 V c (t.val - 1) (Nat.lt_of_le_of_lt (Nat.sub_le _ _) t.isLt)).2.2.1 (outsAt6 V c (t.val - 1) (Nat.lt_of_le_of_lt (Nat.sub_le _ _) t.isLt)).2.2.2) (ix2 a j)).trans ?_
    rw [PayIdeal.pay4_apply]
    exact hs1

/-! ## The two output arrays after the region -/

/-- Output window 7's block index at point `t` is `(t / 10, 0)`: the core's eight rows, every one of its 128 columns;
    its blocks are whole. -/
theorem blockIndex6_7 : ∀ t : Fin cfg6.N, win6_7.index t (0 : Fin 2) = t.val / 10 ∧ win6_7.index t (1 : Fin 2) = 0
    ∧ win6_7.xsize (grid6.coords t) (0 : Fin 2) = 8 ∧ win6_7.xsize (grid6.coords t) (1 : Fin 2) = 128 :=
  (by decide +kernel : ∀ t : Fin grid6.N, _)

/-- What output 7's array holds after the region, as one function of its index: the column sums over the ten tiles of
    the core that owns the row. -/
noncomputable def G7_r6 (c : Dev nD) : FVec Ideal S16x128 .f32 :=
  fun i => ∑ s ∈ Finset.range 10, tileSum_r6 V c (10 * ((i 0).val / 8) + s) (i 1)

/-- What a write-back of output 7 writes is its block of `G7_r6`. -/
theorem flushed6_7_eq (c : Dev nD) (t : Fin cfg6.N) (hf : (cfg6.win 7).flush t = true) :
    (dat6 V c).flushed 7 t = ((cfg6.win 7).blk t).view.read (Elt Ideal) (G7_r6 V c) := by
  have h1 : t.val % 10 = 9 := (flush6_7 t).mp hf
  obtain ⟨i0, i1, -, -⟩ := blockIndex6_7 t
  show (cfg6.win 7).cut (grid6.coords t) ((dat6 V c).after 7 t) = _
  rw [after6_7]
  funext y
  rw [View.read_apply]
  have hy0 : (y 0).val < 8 := (y 0).isLt
  have e0 : ((((cfg6.win 7).blk t).view.emb y) 0).val = 8 * (t.val / 10) + (y 0).val := by
    show win6_7.index t 0 * 8 + 1 * (y 0).val = _
    rw [i0]; omega
  have e1 : (((cfg6.win 7).blk t).view.emb y) 1 = y 1 := Fin.ext (by
    show win6_7.index t 1 * 128 + 1 * (y 1).val = (y 1).val
    rw [i1]; omega)
  show ((outsAt6 V c t.val t.isLt).1 : FVec Ideal S8x128 .f32) y
    = ∑ s ∈ Finset.range 10, tileSum_r6 V c (10 * (((((cfg6.win 7).blk t).view.emb y) 0).val / 8) + s) ((((cfg6.win 7).blk t).view.emb y) 1)
  rw [e1, e0, show (8 * (t.val / 10) + (y 0).val) / 8 = t.val / 10 from by omega, eq_ix2 (n0 := 8) (n1 := 128) y]
  exact (out_last_r6 V c t h1 (y 0) (y 1)).1

/-- Every entry of output 7's array is in the block some core's last tile writes back. -/
theorem covered6_7 (i : S16x128.Idx) : ∃ t : Fin cfg6.N, (cfg6.win 7).flush t = true ∧ i ∈ ((cfg6.win 7).blk t).view.set := by
  have hi0 : (i 0).val < 16 := (i 0).isLt
  have hi1 : (i 1).val < 128 := (i 1).isLt
  have hlt : 10 * ((i 0).val / 8) + 9 < cfg6.N := by rw [show cfg6.N = 20 from N_6]; omega
  have hv : (⟨10 * ((i 0).val / 8) + 9, hlt⟩ : Fin cfg6.N).val = 10 * ((i 0).val / 8) + 9 := rfl
  obtain ⟨i0, i1, x0, x1⟩ := blockIndex6_7 ⟨10 * ((i 0).val / 8) + 9, hlt⟩
  rw [hv] at i0
  refine ⟨⟨10 * ((i 0).val / 8) + 9, hlt⟩, (flush6_7 _).mpr (by show (10 * ((i 0).val / 8) + 9) % 10 = 9; omega), ?_⟩
  show i ∈ ((View.whole main_v191_0).slice (win6_7.rect ⟨10 * ((i 0).val / 8) + 9, hlt⟩)).set
  rw [View.set_slice_whole, Rect.mem_set_unit]
  intro a
  match a with
  | ⟨0, _⟩ =>
    show win6_7.index ⟨10 * ((i 0).val / 8) + 9, hlt⟩ 0 * 8 ≤ (i 0 : ℕ) ∧ (i 0 : ℕ) < win6_7.index ⟨10 * ((i 0).val / 8) + 9, hlt⟩ 0 * 8 + win6_7.xsize (grid6.coords ⟨10 * ((i 0).val / 8) + 9, hlt⟩) 0
    rw [i0, x0]
    omega
  | ⟨1, _⟩ =>
    show win6_7.index ⟨10 * ((i 0).val / 8) + 9, hlt⟩ 1 * 128 ≤ (i 1 : ℕ) ∧ (i 1 : ℕ) < win6_7.index ⟨10 * ((i 0).val / 8) + 9, hlt⟩ 1 * 128 + win6_7.xsize (grid6.coords ⟨10 * ((i 0).val / 8) + 9, hlt⟩) 1
    rw [i1, x1]
    omega

/-- Output 7's array after the region is `G7_r6`. -/
theorem final6_7 (c : Dev nD) : (dat6 V c).arrAt 7 cfg6.N = G7_r6 V c :=
  (dat6 V c).arrAt_eq_of_cover 7 (G7_r6 V c) (flushed6_7_eq V c) (covered6_7)

/-- Output window 8's block index at point `t` is `(t / 10, 0)`: the core's eight rows, every one of its 128 columns;
    its blocks are whole. -/
theorem blockIndex6_8 : ∀ t : Fin cfg6.N, win6_8.index t (0 : Fin 2) = t.val / 10 ∧ win6_8.index t (1 : Fin 2) = 0
    ∧ win6_8.xsize (grid6.coords t) (0 : Fin 2) = 8 ∧ win6_8.xsize (grid6.coords t) (1 : Fin 2) = 128 :=
  (by decide +kernel : ∀ t : Fin grid6.N, _)

/-- What output 8's array holds after the region, as one function of its index: the column sums of squares over the ten tiles of
    the core that owns the row. -/
noncomputable def G8_r6 (c : Dev nD) : FVec Ideal S16x128 .f32 :=
  fun i => ∑ s ∈ Finset.range 10, tileSq_r6 V c (10 * ((i 0).val / 8) + s) (i 1)

/-- What a write-back of output 8 writes is its block of `G8_r6`. -/
theorem flushed6_8_eq (c : Dev nD) (t : Fin cfg6.N) (hf : (cfg6.win 8).flush t = true) :
    (dat6 V c).flushed 8 t = ((cfg6.win 8).blk t).view.read (Elt Ideal) (G8_r6 V c) := by
  have h1 : t.val % 10 = 9 := (flush6_8 t).mp hf
  obtain ⟨i0, i1, -, -⟩ := blockIndex6_8 t
  show (cfg6.win 8).cut (grid6.coords t) ((dat6 V c).after 8 t) = _
  rw [after6_8]
  funext y
  rw [View.read_apply]
  have hy0 : (y 0).val < 8 := (y 0).isLt
  have e0 : ((((cfg6.win 8).blk t).view.emb y) 0).val = 8 * (t.val / 10) + (y 0).val := by
    show win6_8.index t 0 * 8 + 1 * (y 0).val = _
    rw [i0]; omega
  have e1 : (((cfg6.win 8).blk t).view.emb y) 1 = y 1 := Fin.ext (by
    show win6_8.index t 1 * 128 + 1 * (y 1).val = (y 1).val
    rw [i1]; omega)
  show ((outsAt6 V c t.val t.isLt).2.1 : FVec Ideal S8x128 .f32) y
    = ∑ s ∈ Finset.range 10, tileSq_r6 V c (10 * (((((cfg6.win 8).blk t).view.emb y) 0).val / 8) + s) ((((cfg6.win 8).blk t).view.emb y) 1)
  rw [e1, e0, show (8 * (t.val / 10) + (y 0).val) / 8 = t.val / 10 from by omega, eq_ix2 (n0 := 8) (n1 := 128) y]
  exact (out_last_r6 V c t h1 (y 0) (y 1)).2

/-- Every entry of output 8's array is in the block some core's last tile writes back. -/
theorem covered6_8 (i : S16x128.Idx) : ∃ t : Fin cfg6.N, (cfg6.win 8).flush t = true ∧ i ∈ ((cfg6.win 8).blk t).view.set := by
  have hi0 : (i 0).val < 16 := (i 0).isLt
  have hi1 : (i 1).val < 128 := (i 1).isLt
  have hlt : 10 * ((i 0).val / 8) + 9 < cfg6.N := by rw [show cfg6.N = 20 from N_6]; omega
  have hv : (⟨10 * ((i 0).val / 8) + 9, hlt⟩ : Fin cfg6.N).val = 10 * ((i 0).val / 8) + 9 := rfl
  obtain ⟨i0, i1, x0, x1⟩ := blockIndex6_8 ⟨10 * ((i 0).val / 8) + 9, hlt⟩
  rw [hv] at i0
  refine ⟨⟨10 * ((i 0).val / 8) + 9, hlt⟩, (flush6_8 _).mpr (by show (10 * ((i 0).val / 8) + 9) % 10 = 9; omega), ?_⟩
  show i ∈ ((View.whole main_v191_1).slice (win6_8.rect ⟨10 * ((i 0).val / 8) + 9, hlt⟩)).set
  rw [View.set_slice_whole, Rect.mem_set_unit]
  intro a
  match a with
  | ⟨0, _⟩ =>
    show win6_8.index ⟨10 * ((i 0).val / 8) + 9, hlt⟩ 0 * 8 ≤ (i 0 : ℕ) ∧ (i 0 : ℕ) < win6_8.index ⟨10 * ((i 0).val / 8) + 9, hlt⟩ 0 * 8 + win6_8.xsize (grid6.coords ⟨10 * ((i 0).val / 8) + 9, hlt⟩) 0
    rw [i0, x0]
    omega
  | ⟨1, _⟩ =>
    show win6_8.index ⟨10 * ((i 0).val / 8) + 9, hlt⟩ 1 * 128 ≤ (i 1 : ℕ) ∧ (i 1 : ℕ) < win6_8.index ⟨10 * ((i 0).val / 8) + 9, hlt⟩ 1 * 128 + win6_8.xsize (grid6.coords ⟨10 * ((i 0).val / 8) + 9, hlt⟩) 1
    rw [i1, x1]
    omega

/-- Output 8's array after the region is `G8_r6`. -/
theorem final6_8 (c : Dev nD) : (dat6 V c).arrAt 8 cfg6.N = G8_r6 V c :=
  (dat6 V c).arrAt_eq_of_cover 8 (G8_r6 V c) (flushed6_8_eq V c) (covered6_8)

/-- THE SUMS. After the region, row `8 cr + a` of the first output holds, in column `j`, the sum of the rectified affine
    map's column `j` over the 50000 rows of core `cr`'s ten tiles. -/
theorem statsS6 (c : Dev nD) (cr : Fin 2) (a : Fin 8) (j : Fin 128) :
    ((dat6 V c).arrAt 7 cfg6.N : FVec Ideal S16x128 .f32) (ix2 ⟨8 * cr.val + a.val, KLayer.srow_lt cr a⟩ j)
      = ∑ t : Fin 10, ∑ r : Fin 5000, Xt_r6 V c ⟨10 * cr.val + t.val, KLayer.core_lt cr t⟩ (ix2 r j) := by
  rw [final6_7 V c]
  show ∑ s ∈ Finset.range 10, tileSum_r6 V c (10 * ((8 * cr.val + a.val) / 8) + s) j = _
  rw [show (8 * cr.val + a.val) / 8 = cr.val from by omega, Finset.sum_range]
  refine Finset.sum_congr rfl fun t _ => ?_
  unfold tileSum_r6
  rw [dif_pos (KLayer.core_lt cr t)]

/-- THE SUMS OF SQUARES. The same for the second output, of the squares. -/
theorem statsQ6 (c : Dev nD) (cr : Fin 2) (a : Fin 8) (j : Fin 128) :
    ((dat6 V c).arrAt 8 cfg6.N : FVec Ideal S16x128 .f32) (ix2 ⟨8 * cr.val + a.val, KLayer.srow_lt cr a⟩ j)
      = ∑ t : Fin 10, ∑ r : Fin 5000, Xt_r6 V c ⟨10 * cr.val + t.val, KLayer.core_lt cr t⟩ (ix2 r j) * Xt_r6 V c ⟨10 * cr.val + t.val, KLayer.core_lt cr t⟩ (ix2 r j) := by
  rw [final6_8 V c]
  show ∑ s ∈ Finset.range 10, tileSq_r6 V c (10 * ((8 * cr.val + a.val) / 8) + s) j = _
  rw [show (8 * cr.val + a.val) / 8 = cr.val from by omega, Finset.sum_range]
  refine Finset.sum_congr rfl fun t _ => ?_
  unfold tileSq_r6
  rw [dif_pos (KLayer.core_lt cr t)]

end AtIdeal

end Cert.KernelIdeal.Gen

end
-- ==== Proof.KI.Norm1Value.lean ====
/-
  Region 1 of @main, the normalize kernel of the first layer: what the region leaves in its output ARRAY, as one
  function of the buffer contents `V` the region is entered with.

  The output window's block at point `t` is rows `5000 t … 5000 t + 4999` of the 100000 × 128 array, written back at
  every one of the 20 points. So row `r` belongs to the point `⌊r / 5000⌋` (`pt1`) and sits at row `r mod 5000` of
  that point's tile (`inTile1`); placing a tile's element in the array and reading these two back gives the point
  and the element (`pt1_emb`, `inTile1_emb`), and conversely every index is so placed (`emb_inTile1`), which is the
  cover. What point `t` writes back is what the body left, `out1_11` of the eleven input blocks at `t`; so with
      G1_11 i = out1_11 (the input blocks at the point pt1 i) (inTile1 i)
  every write-back is its tile of `G1_11` (`flushed1_11_eq`), and the array ends holding `G1_11` (`final1_11`,
  by the library's whole-array post for blocks that are restrictions of one function).

  Then the pieces are read off `V`: the body's loads and its one store go through whole-buffer rectangles, so
  `out1_11` is the payload of the blocks themselves (`out1_11_eq`); the three tiled inputs' blocks at `t` are rows
  `5000 t + …` of their arrays and the eight other inputs' blocks are their whole arrays (`iblk1_W_apply`,
  `iblk1_W_eq`, from the windows' block indices decided over the grid). At the extended reals this gives the array
  at row `5000 t + r`, lane `j` as the normalising payload of tile `t` of the layer's arrays at `(r, j)` (`normO1`).
-/
import proofs.«129379_j32899449487582_2_alg».proof.Proof.KI.Norm1
import proofs.«129379_j32899449487582_2_alg».proof.Proof.KI.KLayer
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region1
-- the TensorCore's buffer contents when the region is entered: the parameter the region's half is stated at
variable (V : (c : Dev nD) → (b : Ref sig .tc) → Buf (Elt F) ((c : Thread nD τ).loc b))

/-! ## Where an index of the output array sits -/

/-- The output's block index at a point, decided over the grid: the point itself on the row axis, 0 on the lane axis. -/
theorem index1_11 : ∀ t : Fin cfg1.N, win1_11.index t (0 : Fin 2) = t.val ∧ win1_11.index t (1 : Fin 2) = 0 :=
  (by decide +kernel : ∀ t : Fin grid1.N, _)

/-- The point whose tile holds row `i 0` of the output array: ⌊row / 5000⌋ (100000 rows, 20 points). -/
noncomputable def pt1 (i : S100000x128.Idx) : Fin cfg1.N :=
  ⟨(i 0).val / 5000, by
    have h : (i 0).val < 100000 := (i 0).isLt
    show (i 0).val / 5000 < grid1.N
    rw [N_1]; omega⟩

/-- Where that index sits inside its tile: row mod 5000, the same lane. -/
noncomputable def inTile1 (i : S100000x128.Idx) : S5000x128.Idx :=
  ValueIdx.ix2 ⟨(i 0).val % 5000, Nat.mod_lt _ (by decide)⟩ (i 1)

/-- An element of point `t`'s tile, placed in the array, belongs to point `t`, -/
theorem pt1_emb (t : Fin cfg1.N) (j : S5000x128.Idx) : pt1 (((cfg1.win 11).blk t).view.emb j) = t := by
  obtain ⟨e0, e1⟩ := index1_11 t
  apply Fin.ext
  show (win1_11.index t (0 : Fin 2) * 5000 + 1 * (j 0).val) / 5000 = t.val
  have hj : (j 0).val < 5000 := (j 0).isLt
  rw [e0]; omega

/-- and sits in the tile where it was. -/
theorem inTile1_emb (t : Fin cfg1.N) (j : S5000x128.Idx) : inTile1 (((cfg1.win 11).blk t).view.emb j) = j := by
  obtain ⟨e0, e1⟩ := index1_11 t
  funext a; apply Fin.ext
  match a with
  | ⟨0, _⟩ => show (win1_11.index t (0 : Fin 2) * 5000 + 1 * (j 0).val) % 5000 = (j 0).val; have hj : (j 0).val < 5000 := (j 0).isLt; rw [e0]; omega
  | ⟨1, _⟩ => show win1_11.index t (1 : Fin 2) * 128 + 1 * (j 1).val = (j 1).val; rw [e1]; omega

/-- Conversely every index of the array is the element `inTile1 i` of the tile of the point `pt1 i`. -/
theorem emb_inTile1 (i : S100000x128.Idx) : ((cfg1.win 11).blk (pt1 i)).view.emb (inTile1 i) = i := by
  obtain ⟨e0, e1⟩ := index1_11 (pt1 i)
  have hp : (pt1 i).val = (i 0).val / 5000 := rfl
  funext a; apply Fin.ext
  match a with
  | ⟨0, _⟩ => show win1_11.index (pt1 i) (0 : Fin 2) * 5000 + 1 * ((i 0).val % 5000) = (i 0).val; omega
  | ⟨1, _⟩ => show win1_11.index (pt1 i) (1 : Fin 2) * 128 + 1 * (i 1).val = (i 1).val; omega

/-! ## The output array as one function -/

/-- The output array after the region, as ONE function of the region-entry contents: at row `r`, lane `l` the tile
    function `out1_11` of the eleven input blocks at the point ⌊r / 5000⌋, read at (r mod 5000, l). -/
noncomputable def G1_11 (c : Dev nD) (i : S100000x128.Idx) : Elt F .f32 :=
  out1_11 (iblk1 V c 0 (pt1 i)) (iblk1 V c 1 (pt1 i)) (iblk1 V c 2 (pt1 i)) (iblk1 V c 3 (pt1 i)) (iblk1 V c 4 (pt1 i)) (iblk1 V c 5 (pt1 i)) (iblk1 V c 6 (pt1 i)) (iblk1 V c 7 (pt1 i)) (iblk1 V c 8 (pt1 i)) (iblk1 V c 9 (pt1 i)) (iblk1 V c 10 (pt1 i)) (inTile1 i)

/-- Read through point `t`'s tile, that function is the tile function of the input blocks at `t`. -/
theorem G1_11_emb (c : Dev nD) (t : Fin cfg1.N) (j : S5000x128.Idx) :
    G1_11 V c (((cfg1.win 11).blk t).view.emb j) = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) j := by
  unfold G1_11
  rw [pt1_emb t j, inTile1_emb t j]

/-- The output window is never cut at the array's end: a write-back moves the whole buffer. -/
theorem cut1_11 {α : Type} (t : Fin cfg1.N) (X : S5000x128.Idx → α) (j : S5000x128.Idx) :
    (cfg1.win 11).cut (grid1.coords t) X j = X j := rfl

/-- Point `t`'s tile of an array reads the array at the tile's elements' places. -/
theorem read_blk1_11 (t : Fin cfg1.N) (G : S100000x128.Idx → Elt F .f32) (j : S5000x128.Idx) :
    ((cfg1.win 11).blk t).view.read (Elt F) G j = G (((cfg1.win 11).blk t).view.emb j) := rfl

/-- WHAT POINT `t` WRITES BACK is tile `t` of `G1_11`. -/
theorem flushed1_11_eq (c : Dev nD) (t : Fin cfg1.N) :
    (dat1 V c).flushed 11 t = ((cfg1.win 11).blk t).view.read (Elt F) (G1_11 V c) := by
  show (cfg1.win 11).cut (grid1.coords t) ((dat1 V c).after 11 t) = _
  rw [after1_11]
  funext j
  rw [cut1_11, read_blk1_11, G1_11_emb]

/-- Every index of the array is in the tile of the point ⌊row / 5000⌋, which writes its tile back. -/
theorem covered1_11 (i : S100000x128.Idx) :
    ∃ t : Fin cfg1.N, (cfg1.win 11).flush t = true ∧ i ∈ ((cfg1.win 11).blk t).view.set := by
  refine ⟨pt1 i, flush1_11 _, ?_⟩
  have h := ((cfg1.win 11).blk (pt1 i)).view.emb_mem_set (inTile1 i)
  rwa [emb_inTile1] at h

/-- THE OUTPUT ARRAY after the region: `G1_11` of the region-entry contents, at every index. -/
theorem final1_11 (c : Dev nD) : (dat1 V c).arrAt 11 cfg1.N = G1_11 V c :=
  (dat1 V c).arrAt_eq_of_cover 11 (G1_11 V c) (fun t _ => flushed1_11_eq V c t) covered1_11

/-- The same at an index: the tile function of the input blocks at the point `pt1 i`, read at `inTile1 i`. -/
theorem final1_11_apply (c : Dev nD) (i : S100000x128.Idx) :
    (dat1 V c).arrAt 11 cfg1.N i = out1_11 (iblk1 V c 0 (pt1 i)) (iblk1 V c 1 (pt1 i)) (iblk1 V c 2 (pt1 i)) (iblk1 V c 3 (pt1 i)) (iblk1 V c 4 (pt1 i)) (iblk1 V c 5 (pt1 i)) (iblk1 V c 6 (pt1 i)) (iblk1 V c 7 (pt1 i)) (iblk1 V c 8 (pt1 i)) (iblk1 V c 9 (pt1 i)) (iblk1 V c 10 (pt1 i)) (inTile1 i) :=
  congrFun (final1_11 V c) i

/-! ## The tile function as the payload -/

theorem zero_offsets1 : (![0, 0] : Fin 2 → Nat) = fun _ => 0 :=
  funext fun a => by match a with | ⟨0, _⟩ => rfl | ⟨1, _⟩ => rfl

/-- The body loads every input buffer whole and stores once over the whole output buffer, so what it leaves there
    is the payload of the input blocks themselves. -/
theorem out1_11_eq (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) :
    out1_11 x0 x1 x2 x3 x4 x5 x6 x7 x8 x9 x10 = k1_pay1 (k1_pay2 x0 x1 x2 x3 x4 x5 x6) (k1_pay3 x8) (k1_pay4 x7) x9 x10 := by
  unfold out1_11
  rw [View.canon_unit_zero zero_offsets1]
  simp only [View.ld_unit_zero (S := S5000x128) zero_offsets1, View.ld_unit_zero (S := S5000x1) zero_offsets1,
    View.ld_unit_zero (S := S128x128) zero_offsets1, View.ld_unit_zero (S := S1x128) zero_offsets1]

/-! ## The input blocks, read off the region-entry contents -/

/-- The input windows' block indices, decided over the grid: the three tiled windows move with the point on the row
    axis; the eight whole-array windows stay at block (0, 0). -/
theorem index1_in : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0) :=
  (by decide +kernel : ∀ t : Fin grid1.N, _)

/-- Input window 0's block at point `t` is rows `5000 t … 5000 t + 4999` of its array as the region finds it. -/
theorem iblk1_0_apply (c : Dev nD) (t : Fin cfg1.N) (y : S5000x128.Idx) (k : S100000x128.Idx)
    (hk0 : (k 0).val = 5000 * t.val + (y 0).val) (hk1 : (k 1).val = (y 1).val) :
    (iblk1 V c 0 t : Vec F S5000x128 .f32) y = (V c (Pipeline.arrRef spec1 0) : S100000x128.Idx → Elt F .f32) k := by
  obtain ⟨⟨e0, e1⟩, -, -, -, -, -, -, -, -, -, -⟩ := index1_in t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 128 + 1 * (y 1).val = (k 1).val; rw [e1, hk1]; omega

/-- Input window 1's block at point `t` is rows `5000 t … 5000 t + 4999` of its array as the region finds it. -/
theorem iblk1_1_apply (c : Dev nD) (t : Fin cfg1.N) (y : S5000x128.Idx) (k : S100000x128.Idx)
    (hk0 : (k 0).val = 5000 * t.val + (y 0).val) (hk1 : (k 1).val = (y 1).val) :
    (iblk1 V c 1 t : Vec F S5000x128 .f32) y = (V c (Pipeline.arrRef spec1 1) : S100000x128.Idx → Elt F .f32) k := by
  obtain ⟨-, ⟨e0, e1⟩, -, -, -, -, -, -, -, -, -⟩ := index1_in t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 5000 + 1 * (y 0).val = (k 0).val; rw [e0, hk0]; omega
  | ⟨1, _⟩ => show win1_1.index t (1 : Fin 2) * 128 + 1 * (y 1).val = (k 1).val; rw [e1, hk1]; omega

/-- Input window 2's block at point `t` is rows `5000 t … 5000 t + 4999` of its array as the region finds it. -/
theorem iblk1_2_apply (c : Dev nD) (t : Fin cfg1.N) (y : S5000x1.Idx) (k : S100000x1.Idx)
    (hk0 : (k 0).val = 5000 * t.val + (y 0).val) (hk1 : (k 1).val = (y 1).val) :
    (iblk1 V c 2 t : Vec F S5000x1 .f32) y = (V c (Pipeline.arrRef spec1 2) : S100000x1.Idx → Elt F .f32) k := by
  obtain ⟨-, -, ⟨e0, e1⟩, -, -, -, -, -, -, -, -⟩ := index1_in t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 5000 + 1 * (y 0).val = (k 0).val; rw [e0, hk0]; omega
  | ⟨1, _⟩ => show win1_2.index t (1 : Fin 2) * 1 + 1 * (y 1).val = (k 1).val; rw [e1, hk1]; omega

/-- Input window 3's block at every point is its whole array as the region finds it. -/
theorem iblk1_3_eq (c : Dev nD) (t : Fin cfg1.N) :
    (iblk1 V c 3 t : Vec F S128x128 .f32) = (V c (Pipeline.arrRef spec1 3) : S128x128.Idx → Elt F .f32) := by
  obtain ⟨-, -, -, ⟨e0, e1⟩, -, -, -, -, -, -, -⟩ := index1_in t
  funext y
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- Input window 4's block at every point is its whole array as the region finds it. -/
theorem iblk1_4_eq (c : Dev nD) (t : Fin cfg1.N) :
    (iblk1 V c 4 t : Vec F S128x128 .f32) = (V c (Pipeline.arrRef spec1 4) : S128x128.Idx → Elt F .f32) := by
  obtain ⟨-, -, -, -, ⟨e0, e1⟩, -, -, -, -, -, -⟩ := index1_in t
  funext y
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- Input window 5's block at every point is its whole array as the region finds it. -/
theorem iblk1_5_eq (c : Dev nD) (t : Fin cfg1.N) :
    (iblk1 V c 5 t : Vec F S1x128 .f32) = (V c (Pipeline.arrRef spec1 5) : S1x128.Idx → Elt F .f32) := by
  obtain ⟨-, -, -, -, -, ⟨e0, e1⟩, -, -, -, -, -⟩ := index1_in t
  funext y
  unfold iblk1
  rw [View.read_apply]
  show V c (Pipeline.arrRef spec1 5) _ = V c (Pipeline.arrRef spec1 5) _
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- Input window 6's block at every point is its whole array as the region finds it. -/
theorem iblk1_6_eq (c : Dev nD) (t : Fin cfg1.N) :
    (iblk1 V c 6 t : Vec F S1x128 .f32) = (V c (Pipeline.arrRef spec1 6) : S1x128.Idx → Elt F .f32) := by
  obtain ⟨-, -, -, -, -, -, ⟨e0, e1⟩, -, -, -, -⟩ := index1_in t
  funext y
  unfold iblk1
  rw [View.read_apply]
  show V c (Pipeline.arrRef spec1 6) _ = V c (Pipeline.arrRef spec1 6) _
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- Input window 7's block at every point is its whole array as the region finds it. -/
theorem iblk1_7_eq (c : Dev nD) (t : Fin cfg1.N) :
    (iblk1 V c 7 t : Vec F S1x128 .f32) = (V c (Pipeline.arrRef spec1 7) : S1x128.Idx → Elt F .f32) := by
  obtain ⟨-, -, -, -, -, -, -, ⟨e0, e1⟩, -, -, -⟩ := index1_in t
  funext y
  unfold iblk1
  rw [View.read_apply]
  show V c (Pipeline.arrRef spec1 7) _ = V c (Pipeline.arrRef spec1 7) _
  congr 1
  funext a
  apply Fin.ext
  match a with
  | ⟨0, _⟩ => show win1_7.index t (0 : Fin 2) * 1 + 1 * (y 0).val = (y 0).val; rw [e0]; omega
  | ⟨1, _⟩ => show win1_7.index t (1 : Fin 2) * 128 + 1 * (y 1).val = (y 1).val; rw [e1]; omega

/-- Input window 8's block at every point is its whole array as the region finds it. -/
theorem iblk1_8_eq (c : Dev nD) (t : Fin cfg1.N) :
    (iblk1 V c 8 t : Vec F S1x128 .f32) = (V c (Pipeline.arrRef spec1 8) : S1x128.Idx → Elt F .f32) := by
  obtain ⟨-, -, -, -, -, -, -, -, ⟨e0, e1⟩, -, -⟩ := index1_in t
  funext y
  unfold iblk1
  rw [View.read_apply]
  show V c (Pipeline.arrRef spec1 8) _ = V c (Pipeline.arrRef spec1 8) _
  congr 1
  funext a
  apply Fin.ext
  match a with
  | ⟨0, _⟩ => show win1_8.index t (0 : Fin 2) * 1 + 1 * (y 0).val = (y 0).val; rw [e0]; omega
  | ⟨1, _⟩ => show win1_8.index t (1 : Fin 2) * 128 + 1 * (y 1).val = (y 1).val; rw [e1]; omega

/-- Input window 9's block at every point is its whole array as the region finds it. -/
theorem iblk1_9_eq (c : Dev nD) (t : Fin cfg1.N) :
    (iblk1 V c 9 t : Vec F S1x128 .f32) = (V c (Pipeline.arrRef spec1 9) : S1x128.Idx → Elt F .f32) := by
  obtain ⟨-, -, -, -, -, -, -, -, -, ⟨e0, e1⟩, -⟩ := index1_in t
  funext y
  unfold iblk1
  rw [View.read_apply]
  show V c (Pipeline.arrRef spec1 9) _ = V c (Pipeline.arrRef spec1 9) _
  congr 1
  funext a
  apply Fin.ext
  match a with
  | ⟨0, _⟩ => show win1_9.index t (0 : Fin 2) * 1 + 1 * (y 0).val = (y 0).val; rw [e0]; omega
  | ⟨1, _⟩ => show win1_9.index t (1 : Fin 2) * 128 + 1 * (y 1).val = (y 1).val; rw [e1]; omega

/-- Input window 10's block at every point is its whole array as the region finds it. -/
theorem iblk1_10_eq (c : Dev nD) (t : Fin cfg1.N) :
    (iblk1 V c 10 t : Vec F S1x128 .f32) = (V c (Pipeline.arrRef spec1 10) : S1x128.Idx → Elt F .f32) := by
  obtain ⟨-, -, -, -, -, -, -, -, -, -, ⟨e0, e1⟩⟩ := index1_in t
  funext y
  unfold iblk1
  rw [View.read_apply]
  show V c (Pipeline.arrRef spec1 10) _ = V c (Pipeline.arrRef spec1 10) _
  congr 1
  funext a
  apply Fin.ext
  match a with
  | ⟨0, _⟩ => show win1_10.index t (0 : Fin 2) * 1 + 1 * (y 0).val = (y 0).val; rw [e0]; omega
  | ⟨1, _⟩ => show win1_10.index t (1 : Fin 2) * 128 + 1 * (y 1).val = (y 1).val; rw [e1]; omega

end Region1

/-! ## At the extended reals: the output array over the tiles of the layer's arrays -/

section Region1Ideal
open Idealize.ShloMosaic.ValueIdx

variable (V : (c : Dev nD) → (b : Ref sig .tc) → Buf (Elt Ideal) ((c : Thread nD τ).loc b))

/-- Tile `t` of the twenty as a point of the grid. -/
noncomputable def ptOf1 (t : Fin 20) : Fin cfg1.N := ⟨t.val, by show t.val < grid1.N; rw [N_1]; exact t.isLt⟩

/-- Input window 0's block at the point of tile `t` is tile `t` of its array. -/
theorem iblk1_0_tile (c : Dev nD) (t : Fin 20) :
    (iblk1 V c 0 (ptOf1 t) : FVec Ideal S5000x128 .f32) = KLayer.tile (V c (Pipeline.arrRef spec1 0)) t :=
  funext fun y => iblk1_0_apply V c (ptOf1 t) y _ rfl rfl

/-- Input window 1's block at the point of tile `t` is tile `t` of its array. -/
theorem iblk1_1_tile (c : Dev nD) (t : Fin 20) :
    (iblk1 V c 1 (ptOf1 t) : FVec Ideal S5000x128 .f32) = KLayer.tile (V c (Pipeline.arrRef spec1 1)) t :=
  funext fun y => iblk1_1_apply V c (ptOf1 t) y _ rfl rfl

/-- Input window 2's block at the point of tile `t` is tile `t` of its array. -/
theorem iblk1_2_tile (c : Dev nD) (t : Fin 20) :
    (iblk1 V c 2 (ptOf1 t) : FVec Ideal S5000x1 .f32) = KLayer.tile1 (V c (Pipeline.arrRef spec1 2)) t :=
  funext fun y => iblk1_2_apply V c (ptOf1 t) y _ rfl rfl

/-- Row `5000 t + r`, lane `j` of the array is element `(r, j)` of the tile of point `t`. -/
theorem emb_tile1 (t : Fin 20) (r : Fin 5000) (j : Fin 128) :
    (ix2 ⟨5000 * t.val + r.val, KLayer.row_lt t r⟩ j : S100000x128.Idx)
      = ((cfg1.win 11).blk (ptOf1 t)).view.emb (ix2 r j : S5000x128.Idx) := by
  obtain ⟨e0, e1⟩ := index1_11 (ptOf1 t)
  have hp : (ptOf1 t).val = t.val := rfl
  funext a; apply Fin.ext
  match a with
  | ⟨0, _⟩ => show 5000 * t.val + r.val = win1_11.index (ptOf1 t) (0 : Fin 2) * 5000 + 1 * r.val; omega
  | ⟨1, _⟩ => show j.val = win1_11.index (ptOf1 t) (1 : Fin 2) * 128 + 1 * j.val; omega

set_option maxHeartbeats 1000000 in
/-- THE OUTPUT ARRAY at row `5000 t + r`, lane `j`: the normalising payload of tile `t` of the node features, of the
    aggregated neighbour features and of the inverse degrees, and of the whole weight and parameter arrays, all as
    the region finds them, read at `(r, j)`. -/
theorem normO1 (c : Dev nD) (t : Fin 20) (r : Fin 5000) (j : Fin 128) :
    (dat1 V c).arrAt 11 cfg1.N (ix2 ⟨5000 * t.val + r.val, KLayer.row_lt t r⟩ j)
      = k1_pay1 (F := Ideal)
          (k1_pay2 (F := Ideal) (KLayer.tile (V c (Pipeline.arrRef spec1 0)) t) (KLayer.tile (V c (Pipeline.arrRef spec1 1)) t) (KLayer.tile1 (V c (Pipeline.arrRef spec1 2)) t)
            (V c (Pipeline.arrRef spec1 3)) (V c (Pipeline.arrRef spec1 4)) (V c (Pipeline.arrRef spec1 5)) (V c (Pipeline.arrRef spec1 6)))
          (k1_pay3 (F := Ideal) (V c (Pipeline.arrRef spec1 8))) (k1_pay4 (F := Ideal) (V c (Pipeline.arrRef spec1 7))) (V c (Pipeline.arrRef spec1 9)) (V c (Pipeline.arrRef spec1 10)) (ix2 r j) := by
  rw [final1_11, emb_tile1, G1_11_emb, out1_11_eq, iblk1_0_tile, iblk1_1_tile, iblk1_2_tile,
    iblk1_3_eq, iblk1_4_eq, iblk1_5_eq, iblk1_6_eq, iblk1_7_eq, iblk1_8_eq, iblk1_9_eq, iblk1_10_eq]

end Region1Ideal

end Cert.KernelIdeal.Gen

end
-- ==== Proof.KI.Norm3Value.lean ====
/-
  Region 1 of @main, the normalize kernel of the first layer: what the region leaves in its output ARRAY, as one
  function of the buffer contents `V` the region is entered with.

  The output window's block at point `t` is rows `5000 t … 5000 t + 4999` of the 100000 × 128 array, written back at
  every one of the 20 points. So row `r` belongs to the point `⌊r / 5000⌋` (`pt3`) and sits at row `r mod 5000` of
  that point's tile (`inTile3`); placing a tile's element in the array and reading these two back gives the point
  and the element (`pt3_emb`, `inTile3_emb`), and conversely every index is so placed (`emb_inTile3`), which is the
  cover. What point `t` writes back is what the body left, `out3_11` of the eleven input blocks at `t`; so with
      G3_11 i = out3_11 (the input blocks at the point pt3 i) (inTile3 i)
  every write-back is its tile of `G3_11` (`flushed3_11_eq`), and the array ends holding `G3_11` (`final3_11`,
  by the library's whole-array post for blocks that are restrictions of one function).

  Then the pieces are read off `V`: the body's loads and its one store go through whole-buffer rectangles, so
  `out3_11` is the payload of the blocks themselves (`out3_11_eq`); the three tiled inputs' blocks at `t` are rows
  `5000 t + …` of their arrays and the eight other inputs' blocks are their whole arrays (`iblk3_W_apply`,
  `iblk3_W_eq`, from the windows' block indices decided over the grid). At the extended reals this gives the array
  at row `5000 t + r`, lane `j` as the normalising payload of tile `t` of the layer's arrays at `(r, j)` (`normO3`).
-/
import proofs.«129379_j32899449487582_2_alg».proof.Proof.KI.Norm3
import proofs.«129379_j32899449487582_2_alg».proof.Proof.KI.KLayer
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region3
-- the TensorCore's buffer contents when the region is entered: the parameter the region's half is stated at
variable (V : (c : Dev nD) → (b : Ref sig .tc) → Buf (Elt F) ((c : Thread nD τ).loc b))

/-! ## Where an index of the output array sits -/

/-- The output's block index at a point, decided over the grid: the point itself on the row axis, 0 on the lane axis. -/
theorem index3_11 : ∀ t : Fin cfg3.N, win3_11.index t (0 : Fin 2) = t.val ∧ win3_11.index t (1 : Fin 2) = 0 :=
  (by decide +kernel : ∀ t : Fin grid3.N, _)

/-- The point whose tile holds row `i 0` of the output array: ⌊row / 5000⌋ (100000 rows, 20 points). -/
noncomputable def pt3 (i : S100000x128.Idx) : Fin cfg3.N :=
  ⟨(i 0).val / 5000, by
    have h : (i 0).val < 100000 := (i 0).isLt
    show (i 0).val / 5000 < grid3.N
    rw [N_3]; omega⟩

/-- Where that index sits inside its tile: row mod 5000, the same lane. -/
noncomputable def inTile3 (i : S100000x128.Idx) : S5000x128.Idx :=
  ValueIdx.ix2 ⟨(i 0).val % 5000, Nat.mod_lt _ (by decide)⟩ (i 1)

/-- An element of point `t`'s tile, placed in the array, belongs to point `t`, -/
theorem pt3_emb (t : Fin cfg3.N) (j : S5000x128.Idx) : pt3 (((cfg3.win 11).blk t).view.emb j) = t := by
  obtain ⟨e0, e1⟩ := index3_11 t
  apply Fin.ext
  show (win3_11.index t (0 : Fin 2) * 5000 + 1 * (j 0).val) / 5000 = t.val
  have hj : (j 0).val < 5000 := (j 0).isLt
  rw [e0]; omega

/-- and sits in the tile where it was. -/
theorem inTile3_emb (t : Fin cfg3.N) (j : S5000x128.Idx) : inTile3 (((cfg3.win 11).blk t).view.emb j) = j := by
  obtain ⟨e0, e1⟩ := index3_11 t
  funext a; apply Fin.ext
  match a with
  | ⟨0, _⟩ => show (win3_11.index t (0 : Fin 2) * 5000 + 1 * (j 0).val) % 5000 = (j 0).val; have hj : (j 0).val < 5000 := (j 0).isLt; rw [e0]; omega
  | ⟨1, _⟩ => show win3_11.index t (1 : Fin 2) * 128 + 1 * (j 1).val = (j 1).val; rw [e1]; omega

/-- Conversely every index of the array is the element `inTile3 i` of the tile of the point `pt3 i`. -/
theorem emb_inTile3 (i : S100000x128.Idx) : ((cfg3.win 11).blk (pt3 i)).view.emb (inTile3 i) = i := by
  obtain ⟨e0, e1⟩ := index3_11 (pt3 i)
  have hp : (pt3 i).val = (i 0).val / 5000 := rfl
  funext a; apply Fin.ext
  match a with
  | ⟨0, _⟩ => show win3_11.index (pt3 i) (0 : Fin 2) * 5000 + 1 * ((i 0).val % 5000) = (i 0).val; omega
  | ⟨1, _⟩ => show win3_11.index (pt3 i) (1 : Fin 2) * 128 + 1 * (i 1).val = (i 1).val; omega

/-! ## The output array as one function -/

/-- The output array after the region, as ONE function of the region-entry contents: at row `r`, lane `l` the tile
    function `out3_11` of the eleven input blocks at the point ⌊r / 5000⌋, read at (r mod 5000, l). -/
noncomputable def G3_11 (c : Dev nD) (i : S100000x128.Idx) : Elt F .f32 :=
  out3_11 (iblk3 V c 0 (pt3 i)) (iblk3 V c 1 (pt3 i)) (iblk3 V c 2 (pt3 i)) (iblk3 V c 3 (pt3 i)) (iblk3 V c 4 (pt3 i)) (iblk3 V c 5 (pt3 i)) (iblk3 V c 6 (pt3 i)) (iblk3 V c 7 (pt3 i)) (iblk3 V c 8 (pt3 i)) (iblk3 V c 9 (pt3 i)) (iblk3 V c 10 (pt3 i)) (inTile3 i)

/-- Read through point `t`'s tile, that function is the tile function of the input blocks at `t`. -/
theorem G3_11_emb (c : Dev nD) (t : Fin cfg3.N) (j : S5000x128.Idx) :
    G3_11 V c (((cfg3.win 11).blk t).view.emb j) = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) j := by
  unfold G3_11
  rw [pt3_emb t j, inTile3_emb t j]

/-- The output window is never cut at the array's end: a write-back moves the whole buffer. -/
theorem cut3_11 {α : Type} (t : Fin cfg3.N) (X : S5000x128.Idx → α) (j : S5000x128.Idx) :
    (cfg3.win 11).cut (grid3.coords t) X j = X j := rfl

/-- Point `t`'s tile of an array reads the array at the tile's elements' places. -/
theorem read_blk3_11 (t : Fin cfg3.N) (G : S100000x128.Idx → Elt F .f32) (j : S5000x128.Idx) :
    ((cfg3.win 11).blk t).view.read (Elt F) G j = G (((cfg3.win 11).blk t).view.emb j) := rfl

/-- WHAT POINT `t` WRITES BACK is tile `t` of `G3_11`. -/
theorem flushed3_11_eq (c : Dev nD) (t : Fin cfg3.N) :
    (dat3 V c).flushed 11 t = ((cfg3.win 11).blk t).view.read (Elt F) (G3_11 V c) := by
  show (cfg3.win 11).cut (grid3.coords t) ((dat3 V c).after 11 t) = _
  rw [after3_11]
  funext j
  rw [cut3_11, read_blk3_11, G3_11_emb]

/-- Every index of the array is in the tile of the point ⌊row / 5000⌋, which writes its tile back. -/
theorem covered3_11 (i : S100000x128.Idx) :
    ∃ t : Fin cfg3.N, (cfg3.win 11).flush t = true ∧ i ∈ ((cfg3.win 11).blk t).view.set := by
  refine ⟨pt3 i, flush3_11 _, ?_⟩
  have h := ((cfg3.win 11).blk (pt3 i)).view.emb_mem_set (inTile3 i)
  rwa [emb_inTile3] at h

/-- THE OUTPUT ARRAY after the region: `G3_11` of the region-entry contents, at every index. -/
theorem final3_11 (c : Dev nD) : (dat3 V c).arrAt 11 cfg3.N = G3_11 V c :=
  (dat3 V c).arrAt_eq_of_cover 11 (G3_11 V c) (fun t _ => flushed3_11_eq V c t) covered3_11

/-- The same at an index: the tile function of the input blocks at the point `pt3 i`, read at `inTile3 i`. -/
theorem final3_11_apply (c : Dev nD) (i : S100000x128.Idx) :
    (dat3 V c).arrAt 11 cfg3.N i = out3_11 (iblk3 V c 0 (pt3 i)) (iblk3 V c 1 (pt3 i)) (iblk3 V c 2 (pt3 i)) (iblk3 V c 3 (pt3 i)) (iblk3 V c 4 (pt3 i)) (iblk3 V c 5 (pt3 i)) (iblk3 V c 6 (pt3 i)) (iblk3 V c 7 (pt3 i)) (iblk3 V c 8 (pt3 i)) (iblk3 V c 9 (pt3 i)) (iblk3 V c 10 (pt3 i)) (inTile3 i) :=
  congrFun (final3_11 V c) i

/-! ## The tile function as the payload -/

theorem zero_offsets3 : (![0, 0] : Fin 2 → Nat) = fun _ => 0 :=
  funext fun a => by match a with | ⟨0, _⟩ => rfl | ⟨1, _⟩ => rfl

/-- The body loads every input buffer whole and stores once over the whole output buffer, so what it leaves there
    is the payload of the input blocks themselves. -/
theorem out3_11_eq (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) :
    out3_11 x0 x1 x2 x3 x4 x5 x6 x7 x8 x9 x10 = k3_pay1 (k3_pay2 x0 x1 x2 x3 x4 x5 x6) (k3_pay3 x8) (k3_pay4 x7) x9 x10 := by
  unfold out3_11
  rw [View.canon_unit_zero zero_offsets3]
  simp only [View.ld_unit_zero (S := S5000x128) zero_offsets3, View.ld_unit_zero (S := S5000x1) zero_offsets3,
    View.ld_unit_zero (S := S128x128) zero_offsets3, View.ld_unit_zero (S := S1x128) zero_offsets3]

/-! ## The input blocks, read off the region-entry contents -/

/-- The input windows' block indices, decided over the grid: the three tiled windows move with the point on the row
    axis; the eight whole-array windows stay at block (0, 0). -/
theorem index3_in : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = 0 ∧ win3_10.index t (1 : Fin 2) = 0) :=
  (by decide +kernel : ∀ t : Fin grid3.N, _)

/-- Input window 0's block at point `t` is rows `5000 t … 5000 t + 4999` of its array as the region finds it. -/
theorem iblk3_0_apply (c : Dev nD) (t : Fin cfg3.N) (y : S5000x128.Idx) (k : S100000x128.Idx)
    (hk0 : (k 0).val = 5000 * t.val + (y 0).val) (hk1 : (k 1).val = (y 1).val) :
    (iblk3 V c 0 t : Vec F S5000x128 .f32) y = (V c (Pipeline.arrRef spec3 0) : S100000x128.Idx → Elt F .f32) k := by
  obtain ⟨⟨e0, e1⟩, -, -, -, -, -, -, -, -, -, -⟩ := index3_in t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * (y 0).val = (k 0).val; rw [e0, hk0]; omega
  | ⟨1, _⟩ => show win3_0.index t (1 : Fin 2) * 128 + 1 * (y 1).val = (k 1).val; rw [e1, hk1]; omega

/-- Input window 1's block at point `t` is rows `5000 t … 5000 t + 4999` of its array as the region finds it. -/
theorem iblk3_1_apply (c : Dev nD) (t : Fin cfg3.N) (y : S5000x128.Idx) (k : S100000x128.Idx)
    (hk0 : (k 0).val = 5000 * t.val + (y 0).val) (hk1 : (k 1).val = (y 1).val) :
    (iblk3 V c 1 t : Vec F S5000x128 .f32) y = (V c (Pipeline.arrRef spec3 1) : S100000x128.Idx → Elt F .f32) k := by
  obtain ⟨-, ⟨e0, e1⟩, -, -, -, -, -, -, -, -, -⟩ := index3_in t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 5000 + 1 * (y 0).val = (k 0).val; rw [e0, hk0]; omega
  | ⟨1, _⟩ => show win3_1.index t (1 : Fin 2) * 128 + 1 * (y 1).val = (k 1).val; rw [e1, hk1]; omega

/-- Input window 2's block at point `t` is rows `5000 t … 5000 t + 4999` of its array as the region finds it. -/
theorem iblk3_2_apply (c : Dev nD) (t : Fin cfg3.N) (y : S5000x1.Idx) (k : S100000x1.Idx)
    (hk0 : (k 0).val = 5000 * t.val + (y 0).val) (hk1 : (k 1).val = (y 1).val) :
    (iblk3 V c 2 t : Vec F S5000x1 .f32) y = (V c (Pipeline.arrRef spec3 2) : S100000x1.Idx → Elt F .f32) k := by
  obtain ⟨-, -, ⟨e0, e1⟩, -, -, -, -, -, -, -, -⟩ := index3_in t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 5000 + 1 * (y 0).val = (k 0).val; rw [e0, hk0]; omega
  | ⟨1, _⟩ => show win3_2.index t (1 : Fin 2) * 1 + 1 * (y 1).val = (k 1).val; rw [e1, hk1]; omega

/-- Input window 3's block at every point is its whole array as the region finds it. -/
theorem iblk3_3_eq (c : Dev nD) (t : Fin cfg3.N) :
    (iblk3 V c 3 t : Vec F S128x128 .f32) = (V c (Pipeline.arrRef spec3 3) : S128x128.Idx → Elt F .f32) := by
  obtain ⟨-, -, -, ⟨e0, e1⟩, -, -, -, -, -, -, -⟩ := index3_in t
  funext y
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 128 + 1 * (y 0).val = (y 0).val; rw [e0]; omega
  | ⟨1, _⟩ => show win3_3.index t (1 : Fin 2) * 128 + 1 * (y 1).val = (y 1).val; rw [e1]; omega

/-- Input window 4's block at every point is its whole array as the region finds it. -/
theorem iblk3_4_eq (c : Dev nD) (t : Fin cfg3.N) :
    (iblk3 V c 4 t : Vec F S128x128 .f32) = (V c (Pipeline.arrRef spec3 4) : S128x128.Idx → Elt F .f32) := by
  obtain ⟨-, -, -, -, ⟨e0, e1⟩, -, -, -, -, -, -⟩ := index3_in t
  funext y
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 128 + 1 * (y 0).val = (y 0).val; rw [e0]; omega
  | ⟨1, _⟩ => show win3_4.index t (1 : Fin 2) * 128 + 1 * (y 1).val = (y 1).val; rw [e1]; omega

/-- Input window 5's block at every point is its whole array as the region finds it. -/
theorem iblk3_5_eq (c : Dev nD) (t : Fin cfg3.N) :
    (iblk3 V c 5 t : Vec F S1x128 .f32) = (V c (Pipeline.arrRef spec3 5) : S1x128.Idx → Elt F .f32) := by
  obtain ⟨-, -, -, -, -, ⟨e0, e1⟩, -, -, -, -, -⟩ := index3_in t
  funext y
  unfold iblk3
  rw [View.read_apply]
  show V c (Pipeline.arrRef spec3 5) _ = V c (Pipeline.arrRef spec3 5) _
  congr 1
  funext a
  apply Fin.ext
  match a with
  | ⟨0, _⟩ => show win3_5.index t (0 : Fin 2) * 1 + 1 * (y 0).val = (y 0).val; rw [e0]; omega
  | ⟨1, _⟩ => show win3_5.index t (1 : Fin 2) * 128 + 1 * (y 1).val = (y 1).val; rw [e1]; omega

/-- Input window 6's block at every point is its whole array as the region finds it. -/
theorem iblk3_6_eq (c : Dev nD) (t : Fin cfg3.N) :
    (iblk3 V c 6 t : Vec F S1x128 .f32) = (V c (Pipeline.arrRef spec3 6) : S1x128.Idx → Elt F .f32) := by
  obtain ⟨-, -, -, -, -, -, ⟨e0, e1⟩, -, -, -, -⟩ := index3_in t
  funext y
  unfold iblk3
  rw [View.read_apply]
  show V c (Pipeline.arrRef spec3 6) _ = V c (Pipeline.arrRef spec3 6) _
  congr 1
  funext a
  apply Fin.ext
  match a with
  | ⟨0, _⟩ => show win3_6.index t (0 : Fin 2) * 1 + 1 * (y 0).val = (y 0).val; rw [e0]; omega
  | ⟨1, _⟩ => show win3_6.index t (1 : Fin 2) * 128 + 1 * (y 1).val = (y 1).val; rw [e1]; omega

/-- Input window 7's block at every point is its whole array as the region finds it. -/
theorem iblk3_7_eq (c : Dev nD) (t : Fin cfg3.N) :
    (iblk3 V c 7 t : Vec F S1x128 .f32) = (V c (Pipeline.arrRef spec3 7) : S1x128.Idx → Elt F .f32) := by
  obtain ⟨-, -, -, -, -, -, -, ⟨e0, e1⟩, -, -, -⟩ := index3_in t
  funext y
  unfold iblk3
  rw [View.read_apply]
  show V c (Pipeline.arrRef spec3 7) _ = V c (Pipeline.arrRef spec3 7) _
  congr 1
  funext a
  apply Fin.ext
  match a with
  | ⟨0, _⟩ => show win3_7.index t (0 : Fin 2) * 1 + 1 * (y 0).val = (y 0).val; rw [e0]; omega
  | ⟨1, _⟩ => show win3_7.index t (1 : Fin 2) * 128 + 1 * (y 1).val = (y 1).val; rw [e1]; omega

/-- Input window 8's block at every point is its whole array as the region finds it. -/
theorem iblk3_8_eq (c : Dev nD) (t : Fin cfg3.N) :
    (iblk3 V c 8 t : Vec F S1x128 .f32) = (V c (Pipeline.arrRef spec3 8) : S1x128.Idx → Elt F .f32) := by
  obtain ⟨-, -, -, -, -, -, -, -, ⟨e0, e1⟩, -, -⟩ := index3_in t
  funext y
  unfold iblk3
  rw [View.read_apply]
  show V c (Pipeline.arrRef spec3 8) _ = V c (Pipeline.arrRef spec3 8) _
  congr 1
  funext a
  apply Fin.ext
  match a with
  | ⟨0, _⟩ => show win3_8.index t (0 : Fin 2) * 1 + 1 * (y 0).val = (y 0).val; rw [e0]; omega
  | ⟨1, _⟩ => show win3_8.index t (1 : Fin 2) * 128 + 1 * (y 1).val = (y 1).val; rw [e1]; omega

/-- Input window 9's block at every point is its whole array as the region finds it. -/
theorem iblk3_9_eq (c : Dev nD) (t : Fin cfg3.N) :
    (iblk3 V c 9 t : Vec F S1x128 .f32) = (V c (Pipeline.arrRef spec3 9) : S1x128.Idx → Elt F .f32) := by
  obtain ⟨-, -, -, -, -, -, -, -, -, ⟨e0, e1⟩, -⟩ := index3_in t
  funext y
  unfold iblk3
  rw [View.read_apply]
  show V c (Pipeline.arrRef spec3 9) _ = V c (Pipeline.arrRef spec3 9) _
  congr 1
  funext a
  apply Fin.ext
  match a with
  | ⟨0, _⟩ => show win3_9.index t (0 : Fin 2) * 1 + 1 * (y 0).val = (y 0).val; rw [e0]; omega
  | ⟨1, _⟩ => show win3_9.index t (1 : Fin 2) * 128 + 1 * (y 1).val = (y 1).val; rw [e1]; omega

/-- Input window 10's block at every point is its whole array as the region finds it. -/
theorem iblk3_10_eq (c : Dev nD) (t : Fin cfg3.N) :
    (iblk3 V c 10 t : Vec F S1x128 .f32) = (V c (Pipeline.arrRef spec3 10) : S1x128.Idx → Elt F .f32) := by
  obtain ⟨-, -, -, -, -, -, -, -, -, -, ⟨e0, e1⟩⟩ := index3_in t
  funext y
  unfold iblk3
  rw [View.read_apply]
  show V c (Pipeline.arrRef spec3 10) _ = V c (Pipeline.arrRef spec3 10) _
  congr 1
  funext a
  apply Fin.ext
  match a with
  | ⟨0, _⟩ => show win3_10.index t (0 : Fin 2) * 1 + 1 * (y 0).val = (y 0).val; rw [e0]; omega
  | ⟨1, _⟩ => show win3_10.index t (1 : Fin 2) * 128 + 1 * (y 1).val = (y 1).val; rw [e1]; omega

end Region3

/-! ## At the extended reals: the output array over the tiles of the layer's arrays -/

section Region1Ideal
open Idealize.ShloMosaic.ValueIdx

variable (V : (c : Dev nD) → (b : Ref sig .tc) → Buf (Elt Ideal) ((c : Thread nD τ).loc b))

/-- Tile `t` of the twenty as a point of the grid. -/
noncomputable def ptOf3 (t : Fin 20) : Fin cfg3.N := ⟨t.val, by show t.val < grid3.N; rw [N_3]; exact t.isLt⟩

/-- Input window 0's block at the point of tile `t` is tile `t` of its array. -/
theorem iblk3_0_tile (c : Dev nD) (t : Fin 20) :
    (iblk3 V c 0 (ptOf3 t) : FVec Ideal S5000x128 .f32) = KLayer.tile (V c (Pipeline.arrRef spec3 0)) t :=
  funext fun y => iblk3_0_apply V c (ptOf3 t) y _ rfl rfl

/-- Input window 1's block at the point of tile `t` is tile `t` of its array. -/
theorem iblk3_1_tile (c : Dev nD) (t : Fin 20) :
    (iblk3 V c 1 (ptOf3 t) : FVec Ideal S5000x128 .f32) = KLayer.tile (V c (Pipeline.arrRef spec3 1)) t :=
  funext fun y => iblk3_1_apply V c (ptOf3 t) y _ rfl rfl

/-- Input window 2's block at the point of tile `t` is tile `t` of its array. -/
theorem iblk3_2_tile (c : Dev nD) (t : Fin 20) :
    (iblk3 V c 2 (ptOf3 t) : FVec Ideal S5000x1 .f32) = KLayer.tile1 (V c (Pipeline.arrRef spec3 2)) t :=
  funext fun y => iblk3_2_apply V c (ptOf3 t) y _ rfl rfl

/-- Row `5000 t + r`, lane `j` of the array is element `(r, j)` of the tile of point `t`. -/
theorem emb_tile3 (t : Fin 20) (r : Fin 5000) (j : Fin 128) :
    (ix2 ⟨5000 * t.val + r.val, KLayer.row_lt t r⟩ j : S100000x128.Idx)
      = ((cfg3.win 11).blk (ptOf3 t)).view.emb (ix2 r j : S5000x128.Idx) := by
  obtain ⟨e0, e1⟩ := index3_11 (ptOf3 t)
  have hp : (ptOf3 t).val = t.val := rfl
  funext a; apply Fin.ext
  match a with
  | ⟨0, _⟩ => show 5000 * t.val + r.val = win3_11.index (ptOf3 t) (0 : Fin 2) * 5000 + 1 * r.val; omega
  | ⟨1, _⟩ => show j.val = win3_11.index (ptOf3 t) (1 : Fin 2) * 128 + 1 * j.val; omega

set_option maxHeartbeats 1000000 in
/-- THE OUTPUT ARRAY at row `5000 t + r`, lane `j`: the normalising payload of tile `t` of the node features, of the
    aggregated neighbour features and of the inverse degrees, and of the whole weight and parameter arrays, all as
    the region finds them, read at `(r, j)`. -/
theorem normO3 (c : Dev nD) (t : Fin 20) (r : Fin 5000) (j : Fin 128) :
    (dat3 V c).arrAt 11 cfg3.N (ix2 ⟨5000 * t.val + r.val, KLayer.row_lt t r⟩ j)
      = k3_pay1 (F := Ideal)
          (k3_pay2 (F := Ideal) (KLayer.tile (V c (Pipeline.arrRef spec3 0)) t) (KLayer.tile (V c (Pipeline.arrRef spec3 1)) t) (KLayer.tile1 (V c (Pipeline.arrRef spec3 2)) t)
            (V c (Pipeline.arrRef spec3 3)) (V c (Pipeline.arrRef spec3 4)) (V c (Pipeline.arrRef spec3 5)) (V c (Pipeline.arrRef spec3 6)))
          (k3_pay3 (F := Ideal) (V c (Pipeline.arrRef spec3 8))) (k3_pay4 (F := Ideal) (V c (Pipeline.arrRef spec3 7))) (V c (Pipeline.arrRef spec3 9)) (V c (Pipeline.arrRef spec3 10)) (ix2 r j) := by
  rw [final3_11, emb_tile3, G3_11_emb, out3_11_eq, iblk3_0_tile, iblk3_1_tile, iblk3_2_tile,
    iblk3_3_eq, iblk3_4_eq, iblk3_5_eq, iblk3_6_eq, iblk3_7_eq, iblk3_8_eq, iblk3_9_eq, iblk3_10_eq]

end Region1Ideal

end Cert.KernelIdeal.Gen

end
-- ==== Proof.KI.Norm5Value.lean ====
/-
  Region 1 of @main, the normalize kernel of the first layer: what the region leaves in its output ARRAY, as one
  function of the buffer contents `V` the region is entered with.

  The output window's block at point `t` is rows `5000 t … 5000 t + 4999` of the 100000 × 128 array, written back at
  every one of the 20 points. So row `r` belongs to the point `⌊r / 5000⌋` (`pt5`) and sits at row `r mod 5000` of
  that point's tile (`inTile5`); placing a tile's element in the array and reading these two back gives the point
  and the element (`pt5_emb`, `inTile5_emb`), and conversely every index is so placed (`emb_inTile5`), which is the
  cover. What point `t` writes back is what the body left, `out5_11` of the eleven input blocks at `t`; so with
      G5_11 i = out5_11 (the input blocks at the point pt5 i) (inTile5 i)
  every write-back is its tile of `G5_11` (`flushed5_11_eq`), and the array ends holding `G5_11` (`final5_11`,
  by the library's whole-array post for blocks that are restrictions of one function).

  Then the pieces are read off `V`: the body's loads and its one store go through whole-buffer rectangles, so
  `out5_11` is the payload of the blocks themselves (`out5_11_eq`); the three tiled inputs' blocks at `t` are rows
  `5000 t + …` of their arrays and the eight other inputs' blocks are their whole arrays (`iblk5_W_apply`,
  `iblk5_W_eq`, from the windows' block indices decided over the grid). At the extended reals this gives the array
  at row `5000 t + r`, lane `j` as the normalising payload of tile `t` of the layer's arrays at `(r, j)` (`normO5`).
-/
import proofs.«129379_j32899449487582_2_alg».proof.Proof.KI.Norm5
import proofs.«129379_j32899449487582_2_alg».proof.Proof.KI.KLayer
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region5
-- the TensorCore's buffer contents when the region is entered: the parameter the region's half is stated at
variable (V : (c : Dev nD) → (b : Ref sig .tc) → Buf (Elt F) ((c : Thread nD τ).loc b))

/-! ## Where an index of the output array sits -/

/-- The output's block index at a point, decided over the grid: the point itself on the row axis, 0 on the lane axis. -/
theorem index5_11 : ∀ t : Fin cfg5.N, win5_11.index t (0 : Fin 2) = t.val ∧ win5_11.index t (1 : Fin 2) = 0 :=
  (by decide +kernel : ∀ t : Fin grid5.N, _)

/-- The point whose tile holds row `i 0` of the output array: ⌊row / 5000⌋ (100000 rows, 20 points). -/
noncomputable def pt5 (i : S100000x128.Idx) : Fin cfg5.N :=
  ⟨(i 0).val / 5000, by
    have h : (i 0).val < 100000 := (i 0).isLt
    show (i 0).val / 5000 < grid5.N
    rw [N_5]; omega⟩

/-- Where that index sits inside its tile: row mod 5000, the same lane. -/
noncomputable def inTile5 (i : S100000x128.Idx) : S5000x128.Idx :=
  ValueIdx.ix2 ⟨(i 0).val % 5000, Nat.mod_lt _ (by decide)⟩ (i 1)

/-- An element of point `t`'s tile, placed in the array, belongs to point `t`, -/
theorem pt5_emb (t : Fin cfg5.N) (j : S5000x128.Idx) : pt5 (((cfg5.win 11).blk t).view.emb j) = t := by
  obtain ⟨e0, e1⟩ := index5_11 t
  apply Fin.ext
  show (win5_11.index t (0 : Fin 2) * 5000 + 1 * (j 0).val) / 5000 = t.val
  have hj : (j 0).val < 5000 := (j 0).isLt
  rw [e0]; omega

/-- and sits in the tile where it was. -/
theorem inTile5_emb (t : Fin cfg5.N) (j : S5000x128.Idx) : inTile5 (((cfg5.win 11).blk t).view.emb j) = j := by
  obtain ⟨e0, e1⟩ := index5_11 t
  funext a; apply Fin.ext
  match a with
  | ⟨0, _⟩ => show (win5_11.index t (0 : Fin 2) * 5000 + 1 * (j 0).val) % 5000 = (j 0).val; have hj : (j 0).val < 5000 := (j 0).isLt; rw [e0]; omega
  | ⟨1, _⟩ => show win5_11.index t (1 : Fin 2) * 128 + 1 * (j 1).val = (j 1).val; rw [e1]; omega

/-- Conversely every index of the array is the element `inTile5 i` of the tile of the point `pt5 i`. -/
theorem emb_inTile5 (i : S100000x128.Idx) : ((cfg5.win 11).blk (pt5 i)).view.emb (inTile5 i) = i := by
  obtain ⟨e0, e1⟩ := index5_11 (pt5 i)
  have hp : (pt5 i).val = (i 0).val / 5000 := rfl
  funext a; apply Fin.ext
  match a with
  | ⟨0, _⟩ => show win5_11.index (pt5 i) (0 : Fin 2) * 5000 + 1 * ((i 0).val % 5000) = (i 0).val; omega
  | ⟨1, _⟩ => show win5_11.index (pt5 i) (1 : Fin 2) * 128 + 1 * (i 1).val = (i 1).val; omega

/-! ## The output array as one function -/

/-- The output array after the region, as ONE function of the region-entry contents: at row `r`, lane `l` the tile
    function `out5_11` of the eleven input blocks at the point ⌊r / 5000⌋, read at (r mod 5000, l). -/
noncomputable def G5_11 (c : Dev nD) (i : S100000x128.Idx) : Elt F .f32 :=
  out5_11 (iblk5 V c 0 (pt5 i)) (iblk5 V c 1 (pt5 i)) (iblk5 V c 2 (pt5 i)) (iblk5 V c 3 (pt5 i)) (iblk5 V c 4 (pt5 i)) (iblk5 V c 5 (pt5 i)) (iblk5 V c 6 (pt5 i)) (iblk5 V c 7 (pt5 i)) (iblk5 V c 8 (pt5 i)) (iblk5 V c 9 (pt5 i)) (iblk5 V c 10 (pt5 i)) (inTile5 i)

/-- Read through point `t`'s tile, that function is the tile function of the input blocks at `t`. -/
theorem G5_11_emb (c : Dev nD) (t : Fin cfg5.N) (j : S5000x128.Idx) :
    G5_11 V c (((cfg5.win 11).blk t).view.emb j) = out5_11 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) j := by
  unfold G5_11
  rw [pt5_emb t j, inTile5_emb t j]

/-- The output window is never cut at the array's end: a write-back moves the whole buffer. -/
theorem cut5_11 {α : Type} (t : Fin cfg5.N) (X : S5000x128.Idx → α) (j : S5000x128.Idx) :
    (cfg5.win 11).cut (grid5.coords t) X j = X j := rfl

/-- Point `t`'s tile of an array reads the array at the tile's elements' places. -/
theorem read_blk5_11 (t : Fin cfg5.N) (G : S100000x128.Idx → Elt F .f32) (j : S5000x128.Idx) :
    ((cfg5.win 11).blk t).view.read (Elt F) G j = G (((cfg5.win 11).blk t).view.emb j) := rfl

/-- WHAT POINT `t` WRITES BACK is tile `t` of `G5_11`. -/
theorem flushed5_11_eq (c : Dev nD) (t : Fin cfg5.N) :
    (dat5 V c).flushed 11 t = ((cfg5.win 11).blk t).view.read (Elt F) (G5_11 V c) := by
  show (cfg5.win 11).cut (grid5.coords t) ((dat5 V c).after 11 t) = _
  rw [after5_11]
  funext j
  rw [cut5_11, read_blk5_11, G5_11_emb]

/-- Every index of the array is in the tile of the point ⌊row / 5000⌋, which writes its tile back. -/
theorem covered5_11 (i : S100000x128.Idx) :
    ∃ t : Fin cfg5.N, (cfg5.win 11).flush t = true ∧ i ∈ ((cfg5.win 11).blk t).view.set := by
  refine ⟨pt5 i, flush5_11 _, ?_⟩
  have h := ((cfg5.win 11).blk (pt5 i)).view.emb_mem_set (inTile5 i)
  rwa [emb_inTile5] at h

/-- THE OUTPUT ARRAY after the region: `G5_11` of the region-entry contents, at every index. -/
theorem final5_11 (c : Dev nD) : (dat5 V c).arrAt 11 cfg5.N = G5_11 V c :=
  (dat5 V c).arrAt_eq_of_cover 11 (G5_11 V c) (fun t _ => flushed5_11_eq V c t) covered5_11

/-- The same at an index: the tile function of the input blocks at the point `pt5 i`, read at `inTile5 i`. -/
theorem final5_11_apply (c : Dev nD) (i : S100000x128.Idx) :
    (dat5 V c).arrAt 11 cfg5.N i = out5_11 (iblk5 V c 0 (pt5 i)) (iblk5 V c 1 (pt5 i)) (iblk5 V c 2 (pt5 i)) (iblk5 V c 3 (pt5 i)) (iblk5 V c 4 (pt5 i)) (iblk5 V c 5 (pt5 i)) (iblk5 V c 6 (pt5 i)) (iblk5 V c 7 (pt5 i)) (iblk5 V c 8 (pt5 i)) (iblk5 V c 9 (pt5 i)) (iblk5 V c 10 (pt5 i)) (inTile5 i) :=
  congrFun (final5_11 V c) i

/-! ## The tile function as the payload -/

theorem zero_offsets5 : (![0, 0] : Fin 2 → Nat) = fun _ => 0 :=
  funext fun a => by match a with | ⟨0, _⟩ => rfl | ⟨1, _⟩ => rfl

/-- The body loads every input buffer whole and stores once over the whole output buffer, so what it leaves there
    is the payload of the input blocks themselves. -/
theorem out5_11_eq (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) :
    out5_11 x0 x1 x2 x3 x4 x5 x6 x7 x8 x9 x10 = k5_pay1 (k5_pay2 x0 x1 x2 x3 x4 x5 x6) (k5_pay3 x8) (k5_pay4 x7) x9 x10 := by
  unfold out5_11
  rw [View.canon_unit_zero zero_offsets5]
  simp only [View.ld_unit_zero (S := S5000x128) zero_offsets5, View.ld_unit_zero (S := S5000x1) zero_offsets5,
    View.ld_unit_zero (S := S128x128) zero_offsets5, View.ld_unit_zero (S := S1x128) zero_offsets5]

/-! ## The input blocks, read off the region-entry contents -/

/-- The input windows' block indices, decided over the grid: the three tiled windows move with the point on the row
    axis; the eight whole-array windows stay at block (0, 0). -/
theorem index5_in : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = t.val ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0)
    ∧ (win5_7.index t (0 : Fin 2) = 0 ∧ win5_7.index t (1 : Fin 2) = 0)
    ∧ (win5_8.index t (0 : Fin 2) = 0 ∧ win5_8.index t (1 : Fin 2) = 0)
    ∧ (win5_9.index t (0 : Fin 2) = 0 ∧ win5_9.index t (1 : Fin 2) = 0)
    ∧ (win5_10.index t (0 : Fin 2) = 0 ∧ win5_10.index t (1 : Fin 2) = 0) :=
  (by decide +kernel : ∀ t : Fin grid5.N, _)

/-- Input window 0's block at point `t` is rows `5000 t … 5000 t + 4999` of its array as the region finds it. -/
theorem iblk5_0_apply (c : Dev nD) (t : Fin cfg5.N) (y : S5000x128.Idx) (k : S100000x128.Idx)
    (hk0 : (k 0).val = 5000 * t.val + (y 0).val) (hk1 : (k 1).val = (y 1).val) :
    (iblk5 V c 0 t : Vec F S5000x128 .f32) y = (V c (Pipeline.arrRef spec5 0) : S100000x128.Idx → Elt F .f32) k := by
  obtain ⟨⟨e0, e1⟩, -, -, -, -, -, -, -, -, -, -⟩ := index5_in t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 5000 + 1 * (y 0).val = (k 0).val; rw [e0, hk0]; omega
  | ⟨1, _⟩ => show win5_0.index t (1 : Fin 2) * 128 + 1 * (y 1).val = (k 1).val; rw [e1, hk1]; omega

/-- Input window 1's block at point `t` is rows `5000 t … 5000 t + 4999` of its array as the region finds it. -/
theorem iblk5_1_apply (c : Dev nD) (t : Fin cfg5.N) (y : S5000x128.Idx) (k : S100000x128.Idx)
    (hk0 : (k 0).val = 5000 * t.val + (y 0).val) (hk1 : (k 1).val = (y 1).val) :
    (iblk5 V c 1 t : Vec F S5000x128 .f32) y = (V c (Pipeline.arrRef spec5 1) : S100000x128.Idx → Elt F .f32) k := by
  obtain ⟨-, ⟨e0, e1⟩, -, -, -, -, -, -, -, -, -⟩ := index5_in t
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 5000 + 1 * (y 0).val = (k 0).val; rw [e0, hk0]; omega
  | ⟨1, _⟩ => show win5_1.index t (1 : Fin 2) * 128 + 1 * (y 1).val = (k 1).val; rw [e1, hk1]; omega

/-- Input window 2's block at point `t` is rows `5000 t … 5000 t + 4999` of its array as the region finds it. -/
theorem iblk5_2_apply (c : Dev nD) (t : Fin cfg5.N) (y : S5000x1.Idx) (k : S100000x1.Idx)
    (hk0 : (k 0).val = 5000 * t.val + (y 0).val) (hk1 : (k 1).val = (y 1).val) :
    (iblk5 V c 2 t : Vec F S5000x1 .f32) y = (V c (Pipeline.arrRef spec5 2) : S100000x1.Idx → Elt F .f32) k := by
  obtain ⟨-, -, ⟨e0, e1⟩, -, -, -, -, -, -, -, -⟩ := index5_in t
  unfold iblk5
  rw [View.read_apply]
  show V c (Pipeline.arrRef spec5 2) _ = V c (Pipeline.arrRef spec5 2) _
  congr 1
  funext a
  apply Fin.ext
  match a with
  | ⟨0, _⟩ => show win5_2.index t (0 : Fin 2) * 5000 + 1 * (y 0).val = (k 0).val; rw [e0, hk0]; omega
  | ⟨1, _⟩ => show win5_2.index t (1 : Fin 2) * 1 + 1 * (y 1).val = (k 1).val; rw [e1, hk1]; omega

/-- Input window 3's block at every point is its whole array as the region finds it. -/
theorem iblk5_3_eq (c : Dev nD) (t : Fin cfg5.N) :
    (iblk5 V c 3 t : Vec F S128x128 .f32) = (V c (Pipeline.arrRef spec5 3) : S128x128.Idx → Elt F .f32) := by
  obtain ⟨-, -, -, ⟨e0, e1⟩, -, -, -, -, -, -, -⟩ := index5_in t
  funext y
  unfold iblk5
  rw [View.read_apply]
  show V c (Pipeline.arrRef spec5 3) _ = V c (Pipeline.arrRef spec5 3) _
  congr 1
  funext a
  apply Fin.ext
  match a with
  | ⟨0, _⟩ => show win5_3.index t (0 : Fin 2) * 128 + 1 * (y 0).val = (y 0).val; rw [e0]; omega
  | ⟨1, _⟩ => show win5_3.index t (1 : Fin 2) * 128 + 1 * (y 1).val = (y 1).val; rw [e1]; omega

/-- Input window 4's block at every point is its whole array as the region finds it. -/
theorem iblk5_4_eq (c : Dev nD) (t : Fin cfg5.N) :
    (iblk5 V c 4 t : Vec F S128x128 .f32) = (V c (Pipeline.arrRef spec5 4) : S128x128.Idx → Elt F .f32) := by
  obtain ⟨-, -, -, -, ⟨e0, e1⟩, -, -, -, -, -, -⟩ := index5_in t
  funext y
  unfold iblk5
  rw [View.read_apply]
  show V c (Pipeline.arrRef spec5 4) _ = V c (Pipeline.arrRef spec5 4) _
  congr 1
  funext a
  apply Fin.ext
  match a with
  | ⟨0, _⟩ => show win5_4.index t (0 : Fin 2) * 128 + 1 * (y 0).val = (y 0).val; rw [e0]; omega
  | ⟨1, _⟩ => show win5_4.index t (1 : Fin 2) * 128 + 1 * (y 1).val = (y 1).val; rw [e1]; omega

/-- Input window 5's block at every point is its whole array as the region finds it. -/
theorem iblk5_5_eq (c : Dev nD) (t : Fin cfg5.N) :
    (iblk5 V c 5 t : Vec F S1x128 .f32) = (V c (Pipeline.arrRef spec5 5) : S1x128.Idx → Elt F .f32) := by
  obtain ⟨-, -, -, -, -, ⟨e0, e1⟩, -, -, -, -, -⟩ := index5_in t
  funext y
  unfold iblk5
  rw [View.read_apply]
  show V c (Pipeline.arrRef spec5 5) _ = V c (Pipeline.arrRef spec5 5) _
  congr 1
  funext a
  apply Fin.ext
  match a with
  | ⟨0, _⟩ => show win5_5.index t (0 : Fin 2) * 1 + 1 * (y 0).val = (y 0).val; rw [e0]; omega
  | ⟨1, _⟩ => show win5_5.index t (1 : Fin 2) * 128 + 1 * (y 1).val = (y 1).val; rw [e1]; omega

/-- Input window 6's block at every point is its whole array as the region finds it. -/
theorem iblk5_6_eq (c : Dev nD) (t : Fin cfg5.N) :
    (iblk5 V c 6 t : Vec F S1x128 .f32) = (V c (Pipeline.arrRef spec5 6) : S1x128.Idx → Elt F .f32) := by
  obtain ⟨-, -, -, -, -, -, ⟨e0, e1⟩, -, -, -, -⟩ := index5_in t
  funext y
  unfold iblk5
  rw [View.read_apply]
  show V c (Pipeline.arrRef spec5 6) _ = V c (Pipeline.arrRef spec5 6) _
  congr 1
  funext a
  apply Fin.ext
  match a with
  | ⟨0, _⟩ => show win5_6.index t (0 : Fin 2) * 1 + 1 * (y 0).val = (y 0).val; rw [e0]; omega
  | ⟨1, _⟩ => show win5_6.index t (1 : Fin 2) * 128 + 1 * (y 1).val = (y 1).val; rw [e1]; omega

/-- Input window 7's block at every point is its whole array as the region finds it. -/
theorem iblk5_7_eq (c : Dev nD) (t : Fin cfg5.N) :
    (iblk5 V c 7 t : Vec F S1x128 .f32) = (V c (Pipeline.arrRef spec5 7) : S1x128.Idx → Elt F .f32) := by
  obtain ⟨-, -, -, -, -, -, -, ⟨e0, e1⟩, -, -, -⟩ := index5_in t
  funext y
  unfold iblk5
  rw [View.read_apply]
  show V c (Pipeline.arrRef spec5 7) _ = V c (Pipeline.arrRef spec5 7) _
  congr 1
  funext a
  apply Fin.ext
  match a with
  | ⟨0, _⟩ => show win5_7.index t (0 : Fin 2) * 1 + 1 * (y 0).val = (y 0).val; rw [e0]; omega
  | ⟨1, _⟩ => show win5_7.index t (1 : Fin 2) * 128 + 1 * (y 1).val = (y 1).val; rw [e1]; omega

/-- Input window 8's block at every point is its whole array as the region finds it. -/
theorem iblk5_8_eq (c : Dev nD) (t : Fin cfg5.N) :
    (iblk5 V c 8 t : Vec F S1x128 .f32) = (V c (Pipeline.arrRef spec5 8) : S1x128.Idx → Elt F .f32) := by
  obtain ⟨-, -, -, -, -, -, -, -, ⟨e0, e1⟩, -, -⟩ := index5_in t
  funext y
  unfold iblk5
  rw [View.read_apply]
  show V c (Pipeline.arrRef spec5 8) _ = V c (Pipeline.arrRef spec5 8) _
  congr 1
  funext a
  apply Fin.ext
  match a with
  | ⟨0, _⟩ => show win5_8.index t (0 : Fin 2) * 1 + 1 * (y 0).val = (y 0).val; rw [e0]; omega
  | ⟨1, _⟩ => show win5_8.index t (1 : Fin 2) * 128 + 1 * (y 1).val = (y 1).val; rw [e1]; omega

/-- Input window 9's block at every point is its whole array as the region finds it. -/
theorem iblk5_9_eq (c : Dev nD) (t : Fin cfg5.N) :
    (iblk5 V c 9 t : Vec F S1x128 .f32) = (V c (Pipeline.arrRef spec5 9) : S1x128.Idx → Elt F .f32) := by
  obtain ⟨-, -, -, -, -, -, -, -, -, ⟨e0, e1⟩, -⟩ := index5_in t
  funext y
  unfold iblk5
  rw [View.read_apply]
  show V c (Pipeline.arrRef spec5 9) _ = V c (Pipeline.arrRef spec5 9) _
  congr 1
  funext a
  apply Fin.ext
  match a with
  | ⟨0, _⟩ => show win5_9.index t (0 : Fin 2) * 1 + 1 * (y 0).val = (y 0).val; rw [e0]; omega
  | ⟨1, _⟩ => show win5_9.index t (1 : Fin 2) * 128 + 1 * (y 1).val = (y 1).val; rw [e1]; omega

/-- Input window 10's block at every point is its whole array as the region finds it. -/
theorem iblk5_10_eq (c : Dev nD) (t : Fin cfg5.N) :
    (iblk5 V c 10 t : Vec F S1x128 .f32) = (V c (Pipeline.arrRef spec5 10) : S1x128.Idx → Elt F .f32) := by
  obtain ⟨-, -, -, -, -, -, -, -, -, -, ⟨e0, e1⟩⟩ := index5_in t
  funext y
  unfold iblk5
  rw [View.read_apply]
  show V c (Pipeline.arrRef spec5 10) _ = V c (Pipeline.arrRef spec5 10) _
  congr 1
  funext a
  apply Fin.ext
  match a with
  | ⟨0, _⟩ => show win5_10.index t (0 : Fin 2) * 1 + 1 * (y 0).val = (y 0).val; rw [e0]; omega
  | ⟨1, _⟩ => show win5_10.index t (1 : Fin 2) * 128 + 1 * (y 1).val = (y 1).val; rw [e1]; omega

end Region5

/-! ## At the extended reals: the output array over the tiles of the layer's arrays -/

section Region1Ideal
open Idealize.ShloMosaic.ValueIdx

variable (V : (c : Dev nD) → (b : Ref sig .tc) → Buf (Elt Ideal) ((c : Thread nD τ).loc b))

/-- Tile `t` of the twenty as a point of the grid. -/
noncomputable def ptOf5 (t : Fin 20) : Fin cfg5.N := ⟨t.val, by show t.val < grid5.N; rw [N_5]; exact t.isLt⟩

/-- Input window 0's block at the point of tile `t` is tile `t` of its array. -/
theorem iblk5_0_tile (c : Dev nD) (t : Fin 20) :
    (iblk5 V c 0 (ptOf5 t) : FVec Ideal S5000x128 .f32) = KLayer.tile (V c (Pipeline.arrRef spec5 0)) t :=
  funext fun y => iblk5_0_apply V c (ptOf5 t) y _ rfl rfl

/-- Input window 1's block at the point of tile `t` is tile `t` of its array. -/
theorem iblk5_1_tile (c : Dev nD) (t : Fin 20) :
    (iblk5 V c 1 (ptOf5 t) : FVec Ideal S5000x128 .f32) = KLayer.tile (V c (Pipeline.arrRef spec5 1)) t :=
  funext fun y => iblk5_1_apply V c (ptOf5 t) y _ rfl rfl

/-- Input window 2's block at the point of tile `t` is tile `t` of its array. -/
theorem iblk5_2_tile (c : Dev nD) (t : Fin 20) :
    (iblk5 V c 2 (ptOf5 t) : FVec Ideal S5000x1 .f32) = KLayer.tile1 (V c (Pipeline.arrRef spec5 2)) t :=
  funext fun y => iblk5_2_apply V c (ptOf5 t) y _ rfl rfl

/-- Row `5000 t + r`, lane `j` of the array is element `(r, j)` of the tile of point `t`. -/
theorem emb_tile5 (t : Fin 20) (r : Fin 5000) (j : Fin 128) :
    (ix2 ⟨5000 * t.val + r.val, KLayer.row_lt t r⟩ j : S100000x128.Idx)
      = ((cfg5.win 11).blk (ptOf5 t)).view.emb (ix2 r j : S5000x128.Idx) := by
  obtain ⟨e0, e1⟩ := index5_11 (ptOf5 t)
  have hp : (ptOf5 t).val = t.val := rfl
  funext a; apply Fin.ext
  match a with
  | ⟨0, _⟩ => show 5000 * t.val + r.val = win5_11.index (ptOf5 t) (0 : Fin 2) * 5000 + 1 * r.val; omega
  | ⟨1, _⟩ => show j.val = win5_11.index (ptOf5 t) (1 : Fin 2) * 128 + 1 * j.val; omega

set_option maxHeartbeats 1000000 in
/-- THE OUTPUT ARRAY at row `5000 t + r`, lane `j`: the normalising payload of tile `t` of the node features, of the
    aggregated neighbour features and of the inverse degrees, and of the whole weight and parameter arrays, all as
    the region finds them, read at `(r, j)`. -/
theorem normO5 (c : Dev nD) (t : Fin 20) (r : Fin 5000) (j : Fin 128) :
    (dat5 V c).arrAt 11 cfg5.N (ix2 ⟨5000 * t.val + r.val, KLayer.row_lt t r⟩ j)
      = k5_pay1 (F := Ideal)
          (k5_pay2 (F := Ideal) (KLayer.tile (V c (Pipeline.arrRef spec5 0)) t) (KLayer.tile (V c (Pipeline.arrRef spec5 1)) t) (KLayer.tile1 (V c (Pipeline.arrRef spec5 2)) t)
            (V c (Pipeline.arrRef spec5 3)) (V c (Pipeline.arrRef spec5 4)) (V c (Pipeline.arrRef spec5 5)) (V c (Pipeline.arrRef spec5 6)))
          (k5_pay3 (F := Ideal) (V c (Pipeline.arrRef spec5 8))) (k5_pay4 (F := Ideal) (V c (Pipeline.arrRef spec5 7))) (V c (Pipeline.arrRef spec5 9)) (V c (Pipeline.arrRef spec5 10)) (ix2 r j) := by
  rw [final5_11, emb_tile5, G5_11_emb, out5_11_eq, iblk5_0_tile, iblk5_1_tile, iblk5_2_tile,
    iblk5_3_eq, iblk5_4_eq, iblk5_5_eq, iblk5_6_eq, iblk5_7_eq, iblk5_8_eq, iblk5_9_eq, iblk5_10_eq]

end Region1Ideal

end Cert.KernelIdeal.Gen

end
-- ==== Proof.KI.Norm7Value.lean ====
/-
  Region 1 of @main, the normalize kernel of the first layer: what the region leaves in its output ARRAY, as one
  function of the buffer contents `V` the region is entered with.

  The output window's block at point `t` is rows `5000 t … 5000 t + 4999` of the 100000 × 128 array, written back at
  every one of the 20 points. So row `r` belongs to the point `⌊r / 5000⌋` (`pt7`) and sits at row `r mod 5000` of
  that point's tile (`inTile7`); placing a tile's element in the array and reading these two back gives the point
  and the element (`pt7_emb`, `inTile7_emb`), and conversely every index is so placed (`emb_inTile7`), which is the
  cover. What point `t` writes back is what the body left, `out7_11` of the eleven input blocks at `t`; so with
      G7_11 i = out7_11 (the input blocks at the point pt7 i) (inTile7 i)
  every write-back is its tile of `G7_11` (`flushed7_11_eq`), and the array ends holding `G7_11` (`final7_11`,
  by the library's whole-array post for blocks that are restrictions of one function).

  Then the pieces are read off `V`: the body's loads and its one store go through whole-buffer rectangles, so
  `out7_11` is the payload of the blocks themselves (`out7_11_eq`); the three tiled inputs' blocks at `t` are rows
  `5000 t + …` of their arrays and the eight other inputs' blocks are their whole arrays (`iblk7_W_apply`,
  `iblk7_W_eq`, from the windows' block indices decided over the grid). At the extended reals this gives the array
  at row `5000 t + r`, lane `j` as the normalising payload of tile `t` of the layer's arrays at `(r, j)` (`normO7`).
-/
import proofs.«129379_j32899449487582_2_alg».proof.Proof.KI.Norm7
import proofs.«129379_j32899449487582_2_alg».proof.Proof.KI.KLayer
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region7
-- the TensorCore's buffer contents when the region is entered: the parameter the region's half is stated at
variable (V : (c : Dev nD) → (b : Ref sig .tc) → Buf (Elt F) ((c : Thread nD τ).loc b))

/-! ## Where an index of the output array sits -/

/-- The output's block index at a point, decided over the grid: the point itself on the row axis, 0 on the lane axis. -/
theorem index7_11 : ∀ t : Fin cfg7.N, win7_11.index t (0 : Fin 2) = t.val ∧ win7_11.index t (1 : Fin 2) = 0 :=
  (by decide +kernel : ∀ t : Fin grid7.N, _)

/-- The point whose tile holds row `i 0` of the output array: ⌊row / 5000⌋ (100000 rows, 20 points). -/
noncomputable def pt7 (i : S100000x128.Idx) : Fin cfg7.N :=
  ⟨(i 0).val / 5000, by
    have h : (i 0).val < 100000 := (i 0).isLt
    show (i 0).val / 5000 < grid7.N
    rw [N_7]; omega⟩

/-- Where that index sits inside its tile: row mod 5000, the same lane. -/
noncomputable def inTile7 (i : S100000x128.Idx) : S5000x128.Idx :=
  ValueIdx.ix2 ⟨(i 0).val % 5000, Nat.mod_lt _ (by decide)⟩ (i 1)

/-- An element of point `t`'s tile, placed in the array, belongs to point `t`, -/
theorem pt7_emb (t : Fin cfg7.N) (j : S5000x128.Idx) : pt7 (((cfg7.win 11).blk t).view.emb j) = t := by
  obtain ⟨e0, e1⟩ := index7_11 t
  apply Fin.ext
  show (win7_11.index t (0 : Fin 2) * 5000 + 1 * (j 0).val) / 5000 = t.val
  have hj : (j 0).val < 5000 := (j 0).isLt
  rw [e0]; omega

/-- and sits in the tile where it was. -/
theorem inTile7_emb (t : Fin cfg7.N) (j : S5000x128.Idx) : inTile7 (((cfg7.win 11).blk t).view.emb j) = j := by
  obtain ⟨e0, e1⟩ := index7_11 t
  funext a; apply Fin.ext
  match a with
  | ⟨0, _⟩ => show (win7_11.index t (0 : Fin 2) * 5000 + 1 * (j 0).val) % 5000 = (j 0).val; have hj : (j 0).val < 5000 := (j 0).isLt; rw [e0]; omega
  | ⟨1, _⟩ => show win7_11.index t (1 : Fin 2) * 128 + 1 * (j 1).val = (j 1).val; rw [e1]; omega

/-- Conversely every index of the array is the element `inTile7 i` of the tile of the point `pt7 i`. -/
theorem emb_inTile7 (i : S100000x128.Idx) : ((cfg7.win 11).blk (pt7 i)).view.emb (inTile7 i) = i := by
  obtain ⟨e0, e1⟩ := index7_11 (pt7 i)
  have hp : (pt7 i).val = (i 0).val / 5000 := rfl
  funext a; apply Fin.ext
  match a with
  | ⟨0, _⟩ => show win7_11.index (pt7 i) (0 : Fin 2) * 5000 + 1 * ((i 0).val % 5000) = (i 0).val; omega
  | ⟨1, _⟩ => show win7_11.index (pt7 i) (1 : Fin 2) * 128 + 1 * (i 1).val = (i 1).val; omega

/-! ## The output array as one function -/

/-- The output array after the region, as ONE function of the region-entry contents: at row `r`, lane `l` the tile
    function `out7_11` of the eleven input blocks at the point ⌊r / 5000⌋, read at (r mod 5000, l). -/
noncomputable def G7_11 (c : Dev nD) (i : S100000x128.Idx) : Elt F .f32 :=
  out7_11 (iblk7 V c 0 (pt7 i)) (iblk7 V c 1 (pt7 i)) (iblk7 V c 2 (pt7 i)) (iblk7 V c 3 (pt7 i)) (iblk7 V c 4 (pt7 i)) (iblk7 V c 5 (pt7 i)) (iblk7 V c 6 (pt7 i)) (iblk7 V c 7 (pt7 i)) (iblk7 V c 8 (pt7 i)) (iblk7 V c 9 (pt7 i)) (iblk7 V c 10 (pt7 i)) (inTile7 i)

/-- Read through point `t`'s tile, that function is the tile function of the input blocks at `t`. -/
theorem G7_11_emb (c : Dev nD) (t : Fin cfg7.N) (j : S5000x128.Idx) :
    G7_11 V c (((cfg7.win 11).blk t).view.emb j) = out7_11 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) j := by
  unfold G7_11
  rw [pt7_emb t j, inTile7_emb t j]

/-- The output window is never cut at the array's end: a write-back moves the whole buffer. -/
theorem cut7_11 {α : Type} (t : Fin cfg7.N) (X : S5000x128.Idx → α) (j : S5000x128.Idx) :
    (cfg7.win 11).cut (grid7.coords t) X j = X j := rfl

/-- Point `t`'s tile of an array reads the array at the tile's elements' places. -/
theorem read_blk7_11 (t : Fin cfg7.N) (G : S100000x128.Idx → Elt F .f32) (j : S5000x128.Idx) :
    ((cfg7.win 11).blk t).view.read (Elt F) G j = G (((cfg7.win 11).blk t).view.emb j) := rfl

/-- WHAT POINT `t` WRITES BACK is tile `t` of `G7_11`. -/
theorem flushed7_11_eq (c : Dev nD) (t : Fin cfg7.N) :
    (dat7 V c).flushed 11 t = ((cfg7.win 11).blk t).view.read (Elt F) (G7_11 V c) := by
  show (cfg7.win 11).cut (grid7.coords t) ((dat7 V c).after 11 t) = _
  rw [after7_11]
  funext j
  rw [cut7_11, read_blk7_11, G7_11_emb]

/-- Every index of the array is in the tile of the point ⌊row / 5000⌋, which writes its tile back. -/
theorem covered7_11 (i : S100000x128.Idx) :
    ∃ t : Fin cfg7.N, (cfg7.win 11).flush t = true ∧ i ∈ ((cfg7.win 11).blk t).view.set := by
  refine ⟨pt7 i, flush7_11 _, ?_⟩
  have h := ((cfg7.win 11).blk (pt7 i)).view.emb_mem_set (inTile7 i)
  rwa [emb_inTile7] at h

/-- THE OUTPUT ARRAY after the region: `G7_11` of the region-entry contents, at every index. -/
theorem final7_11 (c : Dev nD) : (dat7 V c).arrAt 11 cfg7.N = G7_11 V c :=
  (dat7 V c).arrAt_eq_of_cover 11 (G7_11 V c) (fun t _ => flushed7_11_eq V c t) covered7_11

/-- The same at an index: the tile function of the input blocks at the point `pt7 i`, read at `inTile7 i`. -/
theorem final7_11_apply (c : Dev nD) (i : S100000x128.Idx) :
    (dat7 V c).arrAt 11 cfg7.N i = out7_11 (iblk7 V c 0 (pt7 i)) (iblk7 V c 1 (pt7 i)) (iblk7 V c 2 (pt7 i)) (iblk7 V c 3 (pt7 i)) (iblk7 V c 4 (pt7 i)) (iblk7 V c 5 (pt7 i)) (iblk7 V c 6 (pt7 i)) (iblk7 V c 7 (pt7 i)) (iblk7 V c 8 (pt7 i)) (iblk7 V c 9 (pt7 i)) (iblk7 V c 10 (pt7 i)) (inTile7 i) :=
  congrFun (final7_11 V c) i

/-! ## The tile function as the payload -/

theorem zero_offsets7 : (![0, 0] : Fin 2 → Nat) = fun _ => 0 :=
  funext fun a => by match a with | ⟨0, _⟩ => rfl | ⟨1, _⟩ => rfl

/-- The body loads every input buffer whole and stores once over the whole output buffer, so what it leaves there
    is the payload of the input blocks themselves. -/
theorem out7_11_eq (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) :
    out7_11 x0 x1 x2 x3 x4 x5 x6 x7 x8 x9 x10 = k7_pay1 (k7_pay2 x0 x1 x2 x3 x4 x5 x6) (k7_pay3 x8) (k7_pay4 x7) x9 x10 := by
  unfold out7_11
  rw [View.canon_unit_zero zero_offsets7]
  simp only [View.ld_unit_zero (S := S5000x128) zero_offsets7, View.ld_unit_zero (S := S5000x1) zero_offsets7,
    View.ld_unit_zero (S := S128x128) zero_offsets7, View.ld_unit_zero (S := S1x128) zero_offsets7]

/-! ## The input blocks, read off the region-entry contents -/

/-- The input windows' block indices, decided over the grid: the three tiled windows move with the point on the row
    axis; the eight whole-array windows stay at block (0, 0). -/
theorem index7_in : ∀ t : Fin cfg7.N,
    (win7_0.index t (0 : Fin 2) = t.val ∧ win7_0.index t (1 : Fin 2) = 0)
    ∧ (win7_1.index t (0 : Fin 2) = t.val ∧ win7_1.index t (1 : Fin 2) = 0)
    ∧ (win7_2.index t (0 : Fin 2) = t.val ∧ win7_2.index t (1 : Fin 2) = 0)
    ∧ (win7_3.index t (0 : Fin 2) = 0 ∧ win7_3.index t (1 : Fin 2) = 0)
    ∧ (win7_4.index t (0 : Fin 2) = 0 ∧ win7_4.index t (1 : Fin 2) = 0)
    ∧ (win7_5.index t (0 : Fin 2) = 0 ∧ win7_5.index t (1 : Fin 2) = 0)
    ∧ (win7_6.index t (0 : Fin 2) = 0 ∧ win7_6.index t (1 : Fin 2) = 0)
    ∧ (win7_7.index t (0 : Fin 2) = 0 ∧ win7_7.index t (1 : Fin 2) = 0)
    ∧ (win7_8.index t (0 : Fin 2) = 0 ∧ win7_8.index t (1 : Fin 2) = 0)
    ∧ (win7_9.index t (0 : Fin 2) = 0 ∧ win7_9.index t (1 : Fin 2) = 0)
    ∧ (win7_10.index t (0 : Fin 2) = 0 ∧ win7_10.index t (1 : Fin 2) = 0) :=
  (by decide +kernel : ∀ t : Fin grid7.N, _)

/-- Input window 0's block at point `t` is rows `5000 t … 5000 t + 4999` of its array as the region finds it. -/
theorem iblk7_0_apply (c : Dev nD) (t : Fin cfg7.N) (y : S5000x128.Idx) (k : S100000x128.Idx)
    (hk0 : (k 0).val = 5000 * t.val + (y 0).val) (hk1 : (k 1).val = (y 1).val) :
    (iblk7 V c 0 t : Vec F S5000x128 .f32) y = (V c (Pipeline.arrRef spec7 0) : S100000x128.Idx → Elt F .f32) k := by
  obtain ⟨⟨e0, e1⟩, -, -, -, -, -, -, -, -, -, -⟩ := index7_in t
  unfold iblk7
  rw [View.read_apply]
  show V c (Pipeline.arrRef spec7 0) _ = V c (Pipeline.arrRef spec7 0) _
  congr 1
  funext a
  apply Fin.ext
  match a with
  | ⟨0, _⟩ => show win7_0.index t (0 : Fin 2) * 5000 + 1 * (y 0).val = (k 0).val; rw [e0, hk0]; omega
  | ⟨1, _⟩ => show win7_0.index t (1 : Fin 2) * 128 + 1 * (y 1).val = (k 1).val; rw [e1, hk1]; omega

/-- Input window 1's block at point `t` is rows `5000 t … 5000 t + 4999` of its array as the region finds it. -/
theorem iblk7_1_apply (c : Dev nD) (t : Fin cfg7.N) (y : S5000x128.Idx) (k : S100000x128.Idx)
    (hk0 : (k 0).val = 5000 * t.val + (y 0).val) (hk1 : (k 1).val = (y 1).val) :
    (iblk7 V c 1 t : Vec F S5000x128 .f32) y = (V c (Pipeline.arrRef spec7 1) : S100000x128.Idx → Elt F .f32) k := by
  obtain ⟨-, ⟨e0, e1⟩, -, -, -, -, -, -, -, -, -⟩ := index7_in t
  unfold iblk7
  rw [View.read_apply]
  show V c (Pipeline.arrRef spec7 1) _ = V c (Pipeline.arrRef spec7 1) _
  congr 1
  funext a
  apply Fin.ext
  match a with
  | ⟨0, _⟩ => show win7_1.index t (0 : Fin 2) * 5000 + 1 * (y 0).val = (k 0).val; rw [e0, hk0]; omega
  | ⟨1, _⟩ => show win7_1.index t (1 : Fin 2) * 128 + 1 * (y 1).val = (k 1).val; rw [e1, hk1]; omega

/-- Input window 2's block at point `t` is rows `5000 t … 5000 t + 4999` of its array as the region finds it. -/
theorem iblk7_2_apply (c : Dev nD) (t : Fin cfg7.N) (y : S5000x1.Idx) (k : S100000x1.Idx)
    (hk0 : (k 0).val = 5000 * t.val + (y 0).val) (hk1 : (k 1).val = (y 1).val) :
    (iblk7 V c 2 t : Vec F S5000x1 .f32) y = (V c (Pipeline.arrRef spec7 2) : S100000x1.Idx → Elt F .f32) k := by
  obtain ⟨-, -, ⟨e0, e1⟩, -, -, -, -, -, -, -, -⟩ := index7_in t
  unfold iblk7
  rw [View.read_apply]
  show V c (Pipeline.arrRef spec7 2) _ = V c (Pipeline.arrRef spec7 2) _
  congr 1
  funext a
  apply Fin.ext
  match a with
  | ⟨0, _⟩ => show win7_2.index t (0 : Fin 2) * 5000 + 1 * (y 0).val = (k 0).val; rw [e0, hk0]; omega
  | ⟨1, _⟩ => show win7_2.index t (1 : Fin 2) * 1 + 1 * (y 1).val = (k 1).val; rw [e1, hk1]; omega

/-- Input window 3's block at every point is its whole array as the region finds it. -/
theorem iblk7_3_eq (c : Dev nD) (t : Fin cfg7.N) :
    (iblk7 V c 3 t : Vec F S128x128 .f32) = (V c (Pipeline.arrRef spec7 3) : S128x128.Idx → Elt F .f32) := by
  obtain ⟨-, -, -, ⟨e0, e1⟩, -, -, -, -, -, -, -⟩ := index7_in t
  funext y
  unfold iblk7
  rw [View.read_apply]
  show V c (Pipeline.arrRef spec7 3) _ = V c (Pipeline.arrRef spec7 3) _
  congr 1
  funext a
  apply Fin.ext
  match a with
  | ⟨0, _⟩ => show win7_3.index t (0 : Fin 2) * 128 + 1 * (y 0).val = (y 0).val; rw [e0]; omega
  | ⟨1, _⟩ => show win7_3.index t (1 : Fin 2) * 128 + 1 * (y 1).val = (y 1).val; rw [e1]; omega

/-- Input window 4's block at every point is its whole array as the region finds it. -/
theorem iblk7_4_eq (c : Dev nD) (t : Fin cfg7.N) :
    (iblk7 V c 4 t : Vec F S128x128 .f32) = (V c (Pipeline.arrRef spec7 4) : S128x128.Idx → Elt F .f32) := by
  obtain ⟨-, -, -, -, ⟨e0, e1⟩, -, -, -, -, -, -⟩ := index7_in t
  funext y
  unfold iblk7
  rw [View.read_apply]
  show V c (Pipeline.arrRef spec7 4) _ = V c (Pipeline.arrRef spec7 4) _
  congr 1
  funext a
  apply Fin.ext
  match a with
  | ⟨0, _⟩ => show win7_4.index t (0 : Fin 2) * 128 + 1 * (y 0).val = (y 0).val; rw [e0]; omega
  | ⟨1, _⟩ => show win7_4.index t (1 : Fin 2) * 128 + 1 * (y 1).val = (y 1).val; rw [e1]; omega

/-- Input window 5's block at every point is its whole array as the region finds it. -/
theorem iblk7_5_eq (c : Dev nD) (t : Fin cfg7.N) :
    (iblk7 V c 5 t : Vec F S1x128 .f32) = (V c (Pipeline.arrRef spec7 5) : S1x128.Idx → Elt F .f32) := by
  obtain ⟨-, -, -, -, -, ⟨e0, e1⟩, -, -, -, -, -⟩ := index7_in t
  funext y
  unfold iblk7
  rw [View.read_apply]
  show V c (Pipeline.arrRef spec7 5) _ = V c (Pipeline.arrRef spec7 5) _
  congr 1
  funext a
  apply Fin.ext
  match a with
  | ⟨0, _⟩ => show win7_5.index t (0 : Fin 2) * 1 + 1 * (y 0).val = (y 0).val; rw [e0]; omega
  | ⟨1, _⟩ => show win7_5.index t (1 : Fin 2) * 128 + 1 * (y 1).val = (y 1).val; rw [e1]; omega

/-- Input window 6's block at every point is its whole array as the region finds it. -/
theorem iblk7_6_eq (c : Dev nD) (t : Fin cfg7.N) :
    (iblk7 V c 6 t : Vec F S1x128 .f32) = (V c (Pipeline.arrRef spec7 6) : S1x128.Idx → Elt F .f32) := by
  obtain ⟨-, -, -, -, -, -, ⟨e0, e1⟩, -, -, -, -⟩ := index7_in t
  funext y
  unfold iblk7
  rw [View.read_apply]
  show V c (Pipeline.arrRef spec7 6) _ = V c (Pipeline.arrRef spec7 6) _
  congr 1
  funext a
  apply Fin.ext
  match a with
  | ⟨0, _⟩ => show win7_6.index t (0 : Fin 2) * 1 + 1 * (y 0).val = (y 0).val; rw [e0]; omega
  | ⟨1, _⟩ => show win7_6.index t (1 : Fin 2) * 128 + 1 * (y 1).val = (y 1).val; rw [e1]; omega

/-- Input window 7's block at every point is its whole array as the region finds it. -/
theorem iblk7_7_eq (c : Dev nD) (t : Fin cfg7.N) :
    (iblk7 V c 7 t : Vec F S1x128 .f32) = (V c (Pipeline.arrRef spec7 7) : S1x128.Idx → Elt F .f32) := by
  obtain ⟨-, -, -, -, -, -, -, ⟨e0, e1⟩, -, -, -⟩ := index7_in t
  funext y
  unfold iblk7
  rw [View.read_apply]
  show V c (Pipeline.arrRef spec7 7) _ = V c (Pipeline.arrRef spec7 7) _
  congr 1
  funext a
  apply Fin.ext
  match a with
  | ⟨0, _⟩ => show win7_7.index t (0 : Fin 2) * 1 + 1 * (y 0).val = (y 0).val; rw [e0]; omega
  | ⟨1, _⟩ => show win7_7.index t (1 : Fin 2) * 128 + 1 * (y 1).val = (y 1).val; rw [e1]; omega

/-- Input window 8's block at every point is its whole array as the region finds it. -/
theorem iblk7_8_eq (c : Dev nD) (t : Fin cfg7.N) :
    (iblk7 V c 8 t : Vec F S1x128 .f32) = (V c (Pipeline.arrRef spec7 8) : S1x128.Idx → Elt F .f32) := by
  obtain ⟨-, -, -, -, -, -, -, -, ⟨e0, e1⟩, -, -⟩ := index7_in t
  funext y
  unfold iblk7
  rw [View.read_apply]
  show V c (Pipeline.arrRef spec7 8) _ = V c (Pipeline.arrRef spec7 8) _
  congr 1
  funext a
  apply Fin.ext
  match a with
  | ⟨0, _⟩ => show win7_8.index t (0 : Fin 2) * 1 + 1 * (y 0).val = (y 0).val; rw [e0]; omega
  | ⟨1, _⟩ => show win7_8.index t (1 : Fin 2) * 128 + 1 * (y 1).val = (y 1).val; rw [e1]; omega

/-- Input window 9's block at every point is its whole array as the region finds it. -/
theorem iblk7_9_eq (c : Dev nD) (t : Fin cfg7.N) :
    (iblk7 V c 9 t : Vec F S1x128 .f32) = (V c (Pipeline.arrRef spec7 9) : S1x128.Idx → Elt F .f32) := by
  obtain ⟨-, -, -, -, -, -, -, -, -, ⟨e0, e1⟩, -⟩ := index7_in t
  funext y
  unfold iblk7
  rw [View.read_apply]
  show V c (Pipeline.arrRef spec7 9) _ = V c (Pipeline.arrRef spec7 9) _
  congr 1
  funext a
  apply Fin.ext
  match a with
  | ⟨0, _⟩ => show win7_9.index t (0 : Fin 2) * 1 + 1 * (y 0).val = (y 0).val; rw [e0]; omega
  | ⟨1, _⟩ => show win7_9.index t (1 : Fin 2) * 128 + 1 * (y 1).val = (y 1).val; rw [e1]; omega

/-- Input window 10's block at every point is its whole array as the region finds it. -/
theorem iblk7_10_eq (c : Dev nD) (t : Fin cfg7.N) :
    (iblk7 V c 10 t : Vec F S1x128 .f32) = (V c (Pipeline.arrRef spec7 10) : S1x128.Idx → Elt F .f32) := by
  obtain ⟨-, -, -, -, -, -, -, -, -, -, ⟨e0, e1⟩⟩ := index7_in t
  funext y
  unfold iblk7
  rw [View.read_apply]
  show V c (Pipeline.arrRef spec7 10) _ = V c (Pipeline.arrRef spec7 10) _
  congr 1
  funext a
  apply Fin.ext
  match a with
  | ⟨0, _⟩ => show win7_10.index t (0 : Fin 2) * 1 + 1 * (y 0).val = (y 0).val; rw [e0]; omega
  | ⟨1, _⟩ => show win7_10.index t (1 : Fin 2) * 128 + 1 * (y 1).val = (y 1).val; rw [e1]; omega

end Region7

/-! ## At the extended reals: the output array over the tiles of the layer's arrays -/

section Region1Ideal
open Idealize.ShloMosaic.ValueIdx

variable (V : (c : Dev nD) → (b : Ref sig .tc) → Buf (Elt Ideal) ((c : Thread nD τ).loc b))

/-- Tile `t` of the twenty as a point of the grid. -/
noncomputable def ptOf7 (t : Fin 20) : Fin cfg7.N := ⟨t.val, by show t.val < grid7.N; rw [N_7]; exact t.isLt⟩

/-- Input window 0's block at the point of tile `t` is tile `t` of its array. -/
theorem iblk7_0_tile (c : Dev nD) (t : Fin 20) :
    (iblk7 V c 0 (ptOf7 t) : FVec Ideal S5000x128 .f32) = KLayer.tile (V c (Pipeline.arrRef spec7 0)) t :=
  funext fun y => iblk7_0_apply V c (ptOf7 t) y _ rfl rfl

/-- Input window 1's block at the point of tile `t` is tile `t` of its array. -/
theorem iblk7_1_tile (c : Dev nD) (t : Fin 20) :
    (iblk7 V c 1 (ptOf7 t) : FVec Ideal S5000x128 .f32) = KLayer.tile (V c (Pipeline.arrRef spec7 1)) t :=
  funext fun y => iblk7_1_apply V c (ptOf7 t) y _ rfl rfl

/-- Input window 2's block at the point of tile `t` is tile `t` of its array. -/
theorem iblk7_2_tile (c : Dev nD) (t : Fin 20) :
    (iblk7 V c 2 (ptOf7 t) : FVec Ideal S5000x1 .f32) = KLayer.tile1 (V c (Pipeline.arrRef spec7 2)) t :=
  funext fun y => iblk7_2_apply V c (ptOf7 t) y _ rfl rfl

/-- Row `5000 t + r`, lane `j` of the array is element `(r, j)` of the tile of point `t`. -/
theorem emb_tile7 (t : Fin 20) (r : Fin 5000) (j : Fin 128) :
    (ix2 ⟨5000 * t.val + r.val, KLayer.row_lt t r⟩ j : S100000x128.Idx)
      = ((cfg7.win 11).blk (ptOf7 t)).view.emb (ix2 r j : S5000x128.Idx) := by
  obtain ⟨e0, e1⟩ := index7_11 (ptOf7 t)
  have hp : (ptOf7 t).val = t.val := rfl
  funext a; apply Fin.ext
  match a with
  | ⟨0, _⟩ => show 5000 * t.val + r.val = win7_11.index (ptOf7 t) (0 : Fin 2) * 5000 + 1 * r.val; omega
  | ⟨1, _⟩ => show j.val = win7_11.index (ptOf7 t) (1 : Fin 2) * 128 + 1 * j.val; omega

set_option maxHeartbeats 1000000 in
/-- THE OUTPUT ARRAY at row `5000 t + r`, lane `j`: the normalising payload of tile `t` of the node features, of the
    aggregated neighbour features and of the inverse degrees, and of the whole weight and parameter arrays, all as
    the region finds them, read at `(r, j)`. -/
theorem normO7 (c : Dev nD) (t : Fin 20) (r : Fin 5000) (j : Fin 128) :
    (dat7 V c).arrAt 11 cfg7.N (ix2 ⟨5000 * t.val + r.val, KLayer.row_lt t r⟩ j)
      = k7_pay1 (F := Ideal)
          (k7_pay2 (F := Ideal) (KLayer.tile (V c (Pipeline.arrRef spec7 0)) t) (KLayer.tile (V c (Pipeline.arrRef spec7 1)) t) (KLayer.tile1 (V c (Pipeline.arrRef spec7 2)) t)
            (V c (Pipeline.arrRef spec7 3)) (V c (Pipeline.arrRef spec7 4)) (V c (Pipeline.arrRef spec7 5)) (V c (Pipeline.arrRef spec7 6)))
          (k7_pay3 (F := Ideal) (V c (Pipeline.arrRef spec7 8))) (k7_pay4 (F := Ideal) (V c (Pipeline.arrRef spec7 7))) (V c (Pipeline.arrRef spec7 9)) (V c (Pipeline.arrRef spec7 10)) (ix2 r j) := by
  rw [final7_11, emb_tile7, G7_11_emb, out7_11_eq, iblk7_0_tile, iblk7_1_tile, iblk7_2_tile,
    iblk7_3_eq, iblk7_4_eq, iblk7_5_eq, iblk7_6_eq, iblk7_7_eq, iblk7_8_eq, iblk7_9_eq, iblk7_10_eq]

end Region1Ideal

end Cert.KernelIdeal.Gen

end
-- ==== Proof.FinalApply.lean ====
/-
  The kernel program's result equals the reference's: the array-level argument of `Final.lean` applied to the eight
  regions' value lemmas, the host values the fold holds at the regions' entries, the result buffer's value at the
  end, and the commutation of pooling with setting the layers side by side.
-/
import proofs.«129379_j32899449487582_2_alg».proof.Proof.Final
import proofs.«129379_j32899449487582_2_alg».proof.Proof.KI.KRead0
import proofs.«129379_j32899449487582_2_alg».proof.Proof.KI.KRead1
import proofs.«129379_j32899449487582_2_alg».proof.Proof.KI.KRead2
import proofs.«129379_j32899449487582_2_alg».proof.Proof.KI.KRead3
import proofs.«129379_j32899449487582_2_alg».proof.Proof.KI.KResult
import proofs.«129379_j32899449487582_2_alg».proof.Proof.KI.Stats0Value
import proofs.«129379_j32899449487582_2_alg».proof.Proof.KI.Stats2Value
import proofs.«129379_j32899449487582_2_alg».proof.Proof.KI.Stats4Value
import proofs.«129379_j32899449487582_2_alg».proof.Proof.KI.Stats6Value
import proofs.«129379_j32899449487582_2_alg».proof.Proof.KI.Norm1Value
import proofs.«129379_j32899449487582_2_alg».proof.Proof.KI.Norm3Value
import proofs.«129379_j32899449487582_2_alg».proof.Proof.KI.Norm5Value
import proofs.«129379_j32899449487582_2_alg».proof.Proof.KI.Norm7Value

set_option synthInstance.maxSize 4096
set_option maxRecDepth 16384

noncomputable section

namespace Cert.Final

open Idealize.ShloMosaic Idealize.ShloMosaic.ValueIdx
open Cert.KernelIdeal Cert.KernelIdeal.Gen Idealize.ShloMosaic.TcCoe Idealize.SL.Sem

set_option maxHeartbeats 16000000 in
/-- Under the precondition the kernel program's result buffer holds the reference's result. -/
theorem kernel_result [Cert.Pre_finite_inputs.Facts] (m : ((ℓ : Loc nD τ sig) → Buf (Elt Ideal) ℓ)) (c : Dev nD)
    (hpre : Cert.Pre_finite_inputs.fn (F := Ideal) (m ((c : Thread nD τ).loc main_arg0) : (⟨S100000, .i32⟩ : BufTy).Contents (Elt Ideal)) (m ((c : Thread nD τ).loc main_arg1) : (⟨S1600000, .i32⟩ : BufTy).Contents (Elt Ideal)) (m ((c : Thread nD τ).loc main_arg2) : (⟨S1600000, .i32⟩ : BufTy).Contents (Elt Ideal)) (m ((c : Thread nD τ).loc main_arg3) : (⟨S100000, .i32⟩ : BufTy).Contents (Elt Ideal)) (m ((c : Thread nD τ).loc main_arg4) : (⟨S257x128, .f32⟩ : BufTy).Contents (Elt Ideal)) (m ((c : Thread nD τ).loc main_arg5) : (⟨S4x128x128, .f32⟩ : BufTy).Contents (Elt Ideal)) (m ((c : Thread nD τ).loc main_arg6) : (⟨S4x128x128, .f32⟩ : BufTy).Contents (Elt Ideal)) (m ((c : Thread nD τ).loc main_arg7) : (⟨S4x128, .f32⟩ : BufTy).Contents (Elt Ideal)) (m ((c : Thread nD τ).loc main_arg8) : (⟨S4x128, .f32⟩ : BufTy).Contents (Elt Ideal)) (m ((c : Thread nD τ).loc main_arg9) : (⟨S4x128, .f32⟩ : BufTy).Contents (Elt Ideal)) (m ((c : Thread nD τ).loc main_arg10) : (⟨S4x128, .f32⟩ : BufTy).Contents (Elt Ideal)) = fun _ => 1#1) :
    V21 m (outs m) c main_v244
      = ReferenceIdeal.Run.out (F := Ideal) (m ((c : Thread nD τ).loc main_arg0) : (⟨S100000, .i32⟩ : BufTy).Contents (Elt Ideal)) (m ((c : Thread nD τ).loc main_arg1) : (⟨S1600000, .i32⟩ : BufTy).Contents (Elt Ideal)) (m ((c : Thread nD τ).loc main_arg2) : (⟨S1600000, .i32⟩ : BufTy).Contents (Elt Ideal)) (m ((c : Thread nD τ).loc main_arg3) : (⟨S100000, .i32⟩ : BufTy).Contents (Elt Ideal)) (m ((c : Thread nD τ).loc main_arg4) : (⟨S257x128, .f32⟩ : BufTy).Contents (Elt Ideal)) (m ((c : Thread nD τ).loc main_arg5) : (⟨S4x128x128, .f32⟩ : BufTy).Contents (Elt Ideal)) (m ((c : Thread nD τ).loc main_arg6) : (⟨S4x128x128, .f32⟩ : BufTy).Contents (Elt Ideal)) (m ((c : Thread nD τ).loc main_arg7) : (⟨S4x128, .f32⟩ : BufTy).Contents (Elt Ideal)) (m ((c : Thread nD τ).loc main_arg8) : (⟨S4x128, .f32⟩ : BufTy).Contents (Elt Ideal)) (m ((c : Thread nD τ).loc main_arg9) : (⟨S4x128, .f32⟩ : BufTy).Contents (Elt Ideal)) (m ((c : Thread nD τ).loc main_arg10) : (⟨S4x128, .f32⟩ : BufTy).Contents (Elt Ideal)) :=
  result_eq m c
    (hS_0 (fun V c cr a j => statsS0 V c cr a j) m c _ _ _ _ _ _ _ (KRead.W3_main_v6 m c) (KRead.W3_main_v24 m c) (KRead.W3_main_v14 m c) (KRead.W3_main_v38 m c) (KRead.W3_main_v40 m c) (KRead.W3_main_v27 m c) (KRead.W3_main_v30 m c))
    (hQ_0 (fun V c cr a j => statsQ0 V c cr a j) m c _ _ _ _ _ _ _ (KRead.W3_main_v6 m c) (KRead.W3_main_v24 m c) (KRead.W3_main_v14 m c) (KRead.W3_main_v38 m c) (KRead.W3_main_v40 m c) (KRead.W3_main_v27 m c) (KRead.W3_main_v30 m c))
    (hO_0 (fun V c t r j => normO1 V c t r j) m c _ _ _ _ _ _ _ _ _ _ _ (KRead.W5_main_v6 m c) (KRead.W5_main_v24 m c) (KRead.W5_main_v14 m c) (KRead.W5_main_v61 m c) (KRead.W5_main_v63 m c) (KRead.W5_main_v27 m c) (KRead.W5_main_v30 m c) (KRead.W5_main_v58 m c) (KRead.W5_main_v59 m c) (KRead.W5_main_v33 m c) (KRead.W5_main_v36 m c))
    (hS_1 (fun V c cr a j => statsS2 V c cr a j) m c _ _ _ _ _ _ _ (KRead.W7_main_v64 m c) (KRead.W7_main_v74 m c) (KRead.W7_main_v14 m c) (KRead.W7_main_v88 m c) (KRead.W7_main_v90 m c) (KRead.W7_main_v77 m c) (KRead.W7_main_v80 m c))
    (hQ_1 (fun V c cr a j => statsQ2 V c cr a j) m c _ _ _ _ _ _ _ (KRead.W7_main_v64 m c) (KRead.W7_main_v74 m c) (KRead.W7_main_v14 m c) (KRead.W7_main_v88 m c) (KRead.W7_main_v90 m c) (KRead.W7_main_v77 m c) (KRead.W7_main_v80 m c))
    (hO_1 (fun V c t r j => normO3 V c t r j) m c _ _ _ _ _ _ _ _ _ _ _ (KRead.W9_main_v64 m c) (KRead.W9_main_v74 m c) (KRead.W9_main_v14 m c) (KRead.W9_main_v111 m c) (KRead.W9_main_v113 m c) (KRead.W9_main_v77 m c) (KRead.W9_main_v80 m c) (KRead.W9_main_v108 m c) (KRead.W9_main_v109 m c) (KRead.W9_main_v83 m c) (KRead.W9_main_v86 m c))
    (hS_2 (fun V c cr a j => statsS4 V c cr a j) m c _ _ _ _ _ _ _ (KRead.W11_main_v114 m c) (KRead.W11_main_v124 m c) (KRead.W11_main_v14 m c) (KRead.W11_main_v138 m c) (KRead.W11_main_v140 m c) (KRead.W11_main_v127 m c) (KRead.W11_main_v130 m c))
    (hQ_2 (fun V c cr a j => statsQ4 V c cr a j) m c _ _ _ _ _ _ _ (KRead.W11_main_v114 m c) (KRead.W11_main_v124 m c) (KRead.W11_main_v14 m c) (KRead.W11_main_v138 m c) (KRead.W11_main_v140 m c) (KRead.W11_main_v127 m c) (KRead.W11_main_v130 m c))
    (hO_2 (fun V c t r j => normO5 V c t r j) m c _ _ _ _ _ _ _ _ _ _ _ (KRead.W13_main_v114 m c) (KRead.W13_main_v124 m c) (KRead.W13_main_v14 m c) (KRead.W13_main_v161 m c) (KRead.W13_main_v163 m c) (KRead.W13_main_v127 m c) (KRead.W13_main_v130 m c) (KRead.W13_main_v158 m c) (KRead.W13_main_v159 m c) (KRead.W13_main_v133 m c) (KRead.W13_main_v136 m c))
    (hS_3 (fun V c cr a j => statsS6 V c cr a j) m c _ _ _ _ _ _ _ (KRead.W15_main_v164 m c) (KRead.W15_main_v174 m c) (KRead.W15_main_v14 m c) (KRead.W15_main_v188 m c) (KRead.W15_main_v190 m c) (KRead.W15_main_v177 m c) (KRead.W15_main_v180 m c))
    (hQ_3 (fun V c cr a j => statsQ6 V c cr a j) m c _ _ _ _ _ _ _ (KRead.W15_main_v164 m c) (KRead.W15_main_v174 m c) (KRead.W15_main_v14 m c) (KRead.W15_main_v188 m c) (KRead.W15_main_v190 m c) (KRead.W15_main_v177 m c) (KRead.W15_main_v180 m c))
    (hO_3 (fun V c t r j => normO7 V c t r j) m c _ _ _ _ _ _ _ _ _ _ _ (KRead.W17_main_v164 m c) (KRead.W17_main_v174 m c) (KRead.W17_main_v14 m c) (KRead.W17_main_v211 m c) (KRead.W17_main_v213 m c) (KRead.W17_main_v177 m c) (KRead.W17_main_v180 m c) (KRead.W17_main_v208 m c) (KRead.W17_main_v209 m c) (KRead.W17_main_v183 m c) (KRead.W17_main_v186 m c))
    (KRead.result_read m c) (fun a3 h1 h2 h3 h4 => KRead.result_eq_pooled a3 h1 h2 h3 h4) hpre

end Cert.Final

end
-- ==== Proof.lean ====
/-
  The certificate of the four-layer graph network: the kernel program (eight kernel regions among host operations)
  against its plain reference, over the extended reals.

  The three frames: the two kernel programs' by the conditional frame of eight regions, each region's segment record
  built from its kernel's triple (Proof/K, Proof/KI); the reference's is its run with the result dropped (Proof/RI).
  The idealization rewrote nothing, so `preserves` is trivial. The value claim: the kernel program's result buffer ends
  at the last boundary's contents (Proof/KI/Frame.lean `run_val`), the reference's at its composed term
  (Proof/RI/RunAll.lean `run`), and the two are one array when the float inputs are finite (Proof/Final.lean, Proof/FinalApply.lean): layer by
  layer the kernel's reciprocal-degree product and mean-of-squares variance agree with the reference's quotient and
  mean of squared deviations on finite data, each layer's output is again finite, and pooling the layers one by one and
  setting the results side by side is pooling the layers set side by side.
-/
import proofs.«129379_j32899449487582_2_alg».proof.Defs
import proofs.«129379_j32899449487582_2_alg».proof.Proof.Gen.Kernel
import proofs.«129379_j32899449487582_2_alg».proof.Proof.Gen.KernelIdeal
import proofs.«129379_j32899449487582_2_alg».proof.Proof.Gen.ReferenceIdeal
import proofs.«129379_j32899449487582_2_alg».proof.Proof.Gen.Pre_finite_inputs
import proofs.«129379_j32899449487582_2_alg».proof.Proof.K.Frame
import proofs.«129379_j32899449487582_2_alg».proof.Proof.KI.Frame
import proofs.«129379_j32899449487582_2_alg».proof.Proof.RI.RunAll
import proofs.«129379_j32899449487582_2_alg».proof.Proof.FinalApply
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Run.run (F := Ideal) m ρ)

/-- Both programs run; the kernel program's result is the last boundary's contents of its result buffer, the
    reference's its composed term of the same arguments, and the two agree under the finiteness precondition. -/
theorem algebraic : Cert.algebraic_KernelIdeal_ReferenceIdeal := by
  intro m ρ m' ρ' hpre hagree
  refine ⟨fun c => Cert.KernelIdeal.Gen.V21 m (Cert.KernelIdeal.Gen.outs m) c Cert.KernelIdeal.main_v244,
    Cert.KernelIdeal.Gen.run_val m ρ, ?_⟩
  refine (θ_run Cert.ReferenceIdeal.defs _ _).mono (fun _ h c => ⟨(h c).1.trans ?_, (h c).2⟩)
    (Cert.ReferenceIdeal.Run.run (F := Ideal) m' ρ')
  obtain ⟨h0, h1, h2, h3, h4, h5, h6, h7, h8, h9, h10⟩ := hagree c
  rw [h0, h1, h2, h3, h4, h5, h6, h7, h8, h9, h10]
  exact (Cert.Final.kernel_result m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
